-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128 .f32) (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg17
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S256 .f32) (main_arg14 : FVec F S256 .f32) (main_arg15 : FVec F S256x128 .f32) (main_arg16 : FVec F S128 .f32) (main_arg17 : FVec F S128x1 .f32) (main_arg18 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg16 main_arg17 main_arg18 main_v63 main_v67

def fn_part2 {F : FTy → Type} [FloatOps F] (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x128 .f32) (main_arg16 : FVec F S128 .f32) (main_arg17 : FVec F S128x1 .f32) (main_arg18 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_v48 main_v49 main_v50

def fn_part1 {F : FTy → Type} [FloatOps F] (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x128 .f32) (main_arg16 : FVec F S128 .f32) (main_arg17 : FVec F S128x1 .f32) (main_arg18 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x128 .f32) (main_arg16 : FVec F S128 .f32) (main_arg17 : FVec F S128x1 .f32) (main_arg18 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S2000x128 : Shape := ⟨2, ![2000, 128]⟩
abbrev S2000x256 : Shape := ⟨2, ![2000, 256]⟩
abbrev S50000x1 : Shape := ⟨2, ![50000, 1]⟩
abbrev S800000x256 : Shape := ⟨2, ![800000, 256]⟩
abbrev S1x256 : Shape := ⟨2, ![1, 256]⟩
abbrev S2000x1 : Shape := ⟨2, ![2000, 1]⟩
abbrev S256x1 : Shape := ⟨2, ![256, 1]⟩
abbrev S1x128 : Shape := ⟨2, ![1, 128]⟩
abbrev S1x1 : Shape := ⟨2, ![1, 1]⟩

abbrev nBuf : Space → Nat
  | .hbm => 197
  | .vmem => 82
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x128, .f32⟩
  | 16 => ⟨S128, .f32⟩
  | 17 => ⟨S128x1, .f32⟩
  | 18 => ⟨S1, .f32⟩
  | 19 => ⟨S1x800000, .i32⟩
  | 20 => ⟨S800000, .i32⟩
  | 21 => ⟨S1x800000, .i32⟩
  | 22 => ⟨S800000, .i32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S50000, .f32⟩
  | 34 => ⟨S50000x256, .f32⟩
  | 35 => ⟨S50000x1, .f32⟩
  | 36 => ⟨S50000x256, .f32⟩
  | 37 => ⟨S50000x256, .f32⟩
  | 38 => ⟨S50000x256, .bf16⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x256, .bf16⟩
  | 48 => ⟨S800000x256, .f32⟩
  | 49 => ⟨S_, .f32⟩
  | 50 => ⟨S50000x256, .f32⟩
  | 51 => ⟨S800000x1, .i32⟩
  | 52 => ⟨S50000x256, .f32⟩
  | 53 => ⟨S50000x1, .f32⟩
  | 54 => ⟨S50000x256, .f32⟩
  | 55 => ⟨S50000x256, .f32⟩
  | 56 => ⟨S50000x1, .f32⟩
  | 57 => ⟨S1x256, .f32⟩
  | 58 => ⟨S50000x256, .f32⟩
  | 59 => ⟨S1x256, .f32⟩
  | 60 => ⟨S1x256, .f32⟩
  | 61 => ⟨S256, .f32⟩
  | 62 => ⟨S256, .f32⟩
  | 63 => ⟨S_, .f32⟩
  | 64 => ⟨S256, .f32⟩
  | 65 => ⟨S256, .f32⟩
  | 66 => ⟨S_, .f32⟩
  | 67 => ⟨S256, .f32⟩
  | 68 => ⟨S256, .f32⟩
  | 69 => ⟨S256, .f32⟩
  | 70 => ⟨S256, .f32⟩
  | 71 => ⟨S_, .f32⟩
  | 72 => ⟨S256, .f32⟩
  | 73 => ⟨S256, .f32⟩
  | 74 => ⟨S1x256, .f32⟩
  | 75 => ⟨S1x256, .f32⟩
  | 76 => ⟨S1x256, .f32⟩
  | 77 => ⟨S1x256, .f32⟩
  | 78 => ⟨S50000x256, .f32⟩
  | 79 => ⟨S50000x256, .f32⟩
  | 80 => ⟨S50000x1, .f32⟩
  | 81 => ⟨S50000x256, .f32⟩
  | 82 => ⟨S50000x256, .f32⟩
  | 83 => ⟨S50000x256, .bf16⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x256, .bf16⟩
  | 93 => ⟨S800000x256, .f32⟩
  | 94 => ⟨S_, .f32⟩
  | 95 => ⟨S50000x256, .f32⟩
  | 96 => ⟨S800000x1, .i32⟩
  | 97 => ⟨S50000x256, .f32⟩
  | 98 => ⟨S50000x1, .f32⟩
  | 99 => ⟨S50000x256, .f32⟩
  | 100 => ⟨S50000x256, .f32⟩
  | 101 => ⟨S50000x1, .f32⟩
  | 102 => ⟨S1x256, .f32⟩
  | 103 => ⟨S50000x256, .f32⟩
  | 104 => ⟨S1x256, .f32⟩
  | 105 => ⟨S1x256, .f32⟩
  | 106 => ⟨S256, .f32⟩
  | 107 => ⟨S256, .f32⟩
  | 108 => ⟨S_, .f32⟩
  | 109 => ⟨S256, .f32⟩
  | 110 => ⟨S256, .f32⟩
  | 111 => ⟨S_, .f32⟩
  | 112 => ⟨S256, .f32⟩
  | 113 => ⟨S256, .f32⟩
  | 114 => ⟨S256, .f32⟩
  | 115 => ⟨S256, .f32⟩
  | 116 => ⟨S_, .f32⟩
  | 117 => ⟨S256, .f32⟩
  | 118 => ⟨S256, .f32⟩
  | 119 => ⟨S1x256, .f32⟩
  | 120 => ⟨S1x256, .f32⟩
  | 121 => ⟨S1x256, .f32⟩
  | 122 => ⟨S1x256, .f32⟩
  | 123 => ⟨S50000x256, .f32⟩
  | 124 => ⟨S50000x256, .f32⟩
  | 125 => ⟨S50000x1, .f32⟩
  | 126 => ⟨S50000x256, .f32⟩
  | 127 => ⟨S50000x256, .f32⟩
  | _ => ⟨S50000x128, .f32⟩

abbrev hbmTy0_1 (i : Nat) : BufTy := match i % 128 with
  | 0 => ⟨S50000x256, .bf16⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x256, .bf16⟩
  | 10 => ⟨S800000x256, .f32⟩
  | 11 => ⟨S_, .f32⟩
  | 12 => ⟨S50000x256, .f32⟩
  | 13 => ⟨S800000x1, .i32⟩
  | 14 => ⟨S50000x256, .f32⟩
  | 15 => ⟨S50000x1, .f32⟩
  | 16 => ⟨S50000x256, .f32⟩
  | 17 => ⟨S50000x256, .f32⟩
  | 18 => ⟨S50000x1, .f32⟩
  | 19 => ⟨S1x256, .f32⟩
  | 20 => ⟨S50000x256, .f32⟩
  | 21 => ⟨S1x256, .f32⟩
  | 22 => ⟨S1x256, .f32⟩
  | 23 => ⟨S256, .f32⟩
  | 24 => ⟨S256, .f32⟩
  | 25 => ⟨S_, .f32⟩
  | 26 => ⟨S256, .f32⟩
  | 27 => ⟨S256, .f32⟩
  | 28 => ⟨S_, .f32⟩
  | 29 => ⟨S256, .f32⟩
  | 30 => ⟨S256, .f32⟩
  | 31 => ⟨S256, .f32⟩
  | 32 => ⟨S256, .f32⟩
  | 33 => ⟨S_, .f32⟩
  | 34 => ⟨S256, .f32⟩
  | 35 => ⟨S256, .f32⟩
  | 36 => ⟨S1x256, .f32⟩
  | 37 => ⟨S1x256, .f32⟩
  | 38 => ⟨S1x256, .f32⟩
  | 39 => ⟨S1x256, .f32⟩
  | 40 => ⟨S50000x256, .f32⟩
  | 41 => ⟨S_, .f32⟩
  | 42 => ⟨S50000, .f32⟩
  | 43 => ⟨S_, .f32⟩
  | 44 => ⟨S256, .f32⟩
  | 45 => ⟨S50000x1, .i32⟩
  | 46 => ⟨S256, .f32⟩
  | 47 => ⟨S_, .f32⟩
  | 48 => ⟨S256x256, .f32⟩
  | 49 => ⟨S50000x1, .i32⟩
  | 50 => ⟨S256x256, .f32⟩
  | 51 => ⟨S_, .f32⟩
  | 52 => ⟨S256, .f32⟩
  | 53 => ⟨S256, .f32⟩
  | 54 => ⟨S256x1, .f32⟩
  | 55 => ⟨S256x256, .f32⟩
  | 56 => ⟨S256x256, .f32⟩
  | 57 => ⟨S256x256, .f32⟩
  | 58 => ⟨S256x128, .f32⟩
  | 59 => ⟨S1x128, .f32⟩
  | 60 => ⟨S256x128, .f32⟩
  | 61 => ⟨S256x128, .f32⟩
  | 62 => ⟨S_, .f32⟩
  | 63 => ⟨S256x128, .f32⟩
  | 64 => ⟨S256x128, .f32⟩
  | 65 => ⟨S256x1, .f32⟩
  | 66 => ⟨S1x1, .f32⟩
  | 67 => ⟨S256x1, .f32⟩
  | 68 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x1, .f32⟩
  | .local _ .vmem, ⟨36, _⟩ => ⟨S2000x1, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S256x256, .f32⟩
  | .local _ .vmem, ⟨57, _⟩ => ⟨S2000x256, .f32⟩
  | .local _ .vmem, ⟨58, _⟩ => ⟨S2000x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S2000x256, .f32⟩
  | .local _ .vmem, ⟨63, _⟩ => ⟨S2000x1, .f32⟩
  | .local _ .vmem, ⟨64, _⟩ => ⟨S2000x1, .f32⟩
  | .local _ .vmem, ⟨65, _⟩ => ⟨S1x256, .f32⟩
  | .local _ .vmem, ⟨66, _⟩ => ⟨S2000x256, .f32⟩
  | .local _ .vmem, ⟨67, _⟩ => ⟨S2000x256, .f32⟩
  | .local _ .vmem, ⟨68, _⟩ => ⟨S1x256, .f32⟩
  | .local _ .vmem, ⟨69, _⟩ => ⟨S1x256, .f32⟩
  | .local _ .vmem, ⟨70, _⟩ => ⟨S1x256, .f32⟩
  | .local _ .vmem, ⟨71, _⟩ => ⟨S1x256, .f32⟩
  | .local _ .vmem, ⟨72, _⟩ => ⟨S2000x256, .f32⟩
  | .local _ .vmem, ⟨73, _⟩ => ⟨S2000x256, .f32⟩
  | .local _ .vmem, ⟨74, _⟩ => ⟨S2000x256, .f32⟩
  | .local _ .vmem, ⟨75, _⟩ => ⟨S2000x256, .f32⟩
  | .local _ .vmem, ⟨76, _⟩ => ⟨S1x256, .f32⟩
  | .local _ .vmem, ⟨77, _⟩ => ⟨S1x256, .f32⟩
  | .local _ .vmem, ⟨78, _⟩ => ⟨S1x256, .f32⟩
  | .local _ .vmem, ⟨79, _⟩ => ⟨S1x256, .f32⟩
  | .local _ .vmem, ⟨80, _⟩ => ⟨S2000x256, .f32⟩
  | .local _ .vmem, ⟨81, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33_0 : Ref sig .tc := ⟨.hbm, 58, rfl⟩
abbrev main_v33_1 : Ref sig .tc := ⟨.hbm, 59, rfl⟩
abbrev main_v33_2 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_cst_5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_7 : Ref sig .tc := ⟨.hbm, 84, rfl⟩
abbrev main_v54 : Ref sig .tc := ⟨.hbm, 85, rfl⟩
abbrev main_v55 : Ref sig .tc := ⟨.hbm, 86, rfl⟩
abbrev main_c_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70_0 : Ref sig .tc := ⟨.hbm, 103, rfl⟩
abbrev main_v70_1 : Ref sig .tc := ⟨.hbm, 104, rfl⟩
abbrev main_v70_2 : Ref sig .tc := ⟨.hbm, 105, rfl⟩
abbrev main_v71 : Ref sig .tc := ⟨.hbm, 106, rfl⟩
abbrev main_v72 : Ref sig .tc := ⟨.hbm, 107, rfl⟩
abbrev main_cst_10 : Ref sig .tc := ⟨.hbm, 108, rfl⟩
abbrev main_v73 : Ref sig .tc := ⟨.hbm, 109, rfl⟩
abbrev main_v74 : Ref sig .tc := ⟨.hbm, 110, rfl⟩
abbrev main_cst_11 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_12 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_13 : Ref sig .tc := ⟨.hbm, 129, rfl⟩
abbrev main_v91 : Ref sig .tc := ⟨.hbm, 130, rfl⟩
abbrev main_v92 : Ref sig .tc := ⟨.hbm, 131, rfl⟩
abbrev main_c_14 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_15 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107_0 : Ref sig .tc := ⟨.hbm, 148, rfl⟩
abbrev main_v107_1 : Ref sig .tc := ⟨.hbm, 149, rfl⟩
abbrev main_v107_2 : Ref sig .tc := ⟨.hbm, 150, rfl⟩
abbrev main_v108 : Ref sig .tc := ⟨.hbm, 151, rfl⟩
abbrev main_v109 : Ref sig .tc := ⟨.hbm, 152, rfl⟩
abbrev main_cst_16 : Ref sig .tc := ⟨.hbm, 153, rfl⟩
abbrev main_v110 : Ref sig .tc := ⟨.hbm, 154, rfl⟩
abbrev main_v111 : Ref sig .tc := ⟨.hbm, 155, rfl⟩
abbrev main_cst_17 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_18 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_19 : Ref sig .tc := ⟨.hbm, 169, rfl⟩
abbrev main_v123 : Ref sig .tc := ⟨.hbm, 170, rfl⟩
abbrev main_cst_20 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_21 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_22 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_call0_cst : Ref sig .tc := ⟨.hbm, 190, rfl⟩
abbrev main_call0_v0 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg6_0 : Ref sig .tc := ⟨.vmem, 41, rfl⟩
abbrev cc4_scratch0 : Ref sig .tc := ⟨.vmem, 42, rfl⟩
abbrev cc4_scratch1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg2_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg4_1 : Ref sig .tc := ⟨.vmem, 67, rfl⟩
abbrev cc7_stg5_0 : Ref sig .tc := ⟨.vmem, 68, rfl⟩
abbrev cc7_stg6_0 : Ref sig .tc := ⟨.vmem, 69, rfl⟩
abbrev cc7_scratch0 : Ref sig .tc := ⟨.vmem, 70, rfl⟩
abbrev cc7_scratch1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg5_0 : Ref sig .tc := ⟨.vmem, 79, rfl⟩
abbrev cc8_stg6_0 : Ref sig .tc := ⟨.vmem, 80, rfl⟩
abbrev cc8_stg6_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem5_0 : DmaSem sig := 47
abbrev cc5_sem6_0 : DmaSem sig := 48
abbrev cc5_sem6_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem2_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem4_0 : DmaSem sig := 62
abbrev cc7_sem4_1 : DmaSem sig := 63
abbrev cc7_sem5_0 : DmaSem sig := 64
abbrev cc7_sem6_0 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem3_0 : DmaSem sig := 71
abbrev cc8_sem4_0 : DmaSem sig := 72
abbrev cc8_sem5_0 : DmaSem sig := 73
abbrev cc8_sem6_0 : DmaSem sig := 74
abbrev cc8_sem6_1 : DmaSem sig := 75

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_19 : BitVec 32 := 0#32
  let v34 : BitVec 1 := Scalar.cmpi .ne v33 c0_i32_19
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_19 : BitVec 32 := 0#32
  let v34 : BitVec 1 := Scalar.cmpi .ne v33 c0_i32_19
  v34

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def k7_cond2 (i : grid7.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_19 : BitVec 32 := 0#32
  let v34 : BitVec 1 := Scalar.cmpi .ne v33 c0_i32_19
  v34

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x256 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S50000_S50000x1 : S50000.ShapeCasts S50000x1
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  broadcasts_S1x256_S2000x256 : S1x256.Broadcasts S2000x256
  reduces_S2000x256_S256 : S2000x256.Reduces [0] S256
  shapeCasts_S1x256_S256 : S1x256.ShapeCasts S256
  bcast_S_S256 : S_.BroadcastsInDim S256 (![] : Fin 0 → Fin S256.rank)
  inb_S256x256_S256x256_0_0 : ∀ a, (![0, 0] : Fin 2 → Nat) a + S256x256.size a ≤ S256x256.size a
  h_S256x256 : 0 < S256x256.numel
  bcast_S_S256x256 : S_.BroadcastsInDim S256x256 (![] : Fin 0 → Fin S256x256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S256_S50000x1_S50000_n_0_0_1_wf : ScatterDims.WF S256 S50000x1 S50000 [] [0] [0] 1
  scatter_S256x256_S50000x1_S50000x256_1_0_0_1_wf : ScatterDims.WF S256x256 S50000x1 S50000x256 [1] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S50000x256.size a
  hwx5_6 : ∀ i : grid5.Coords, EltTy.bits .f32 = 32 ∨ (Rect.block (s := S50000x256) S2000x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S50000x256.size a
  hwx6_2 : ∀ i : grid6.Coords, EltTy.bits .f32 = 32 ∨ (Rect.block (s := S50000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S50000x256.size a
  hwx7_1 : ∀ i : grid7.Coords, EltTy.bits .f32 = 32 ∨ (Rect.block (s := S50000x256) S2000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x256.size a ≤ S50000x256.size a
  hwx7_4 : ∀ i : grid7.Coords, EltTy.bits .f32 = 32 ∨ (Rect.block (s := S50000x256) S2000x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x256.size a ≤ S1x256.size a
  hwx7_5 : ∀ i : grid7.Coords, EltTy.bits .f32 = 32 ∨ (Rect.block (s := S1x256) S1x256.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S50000x256.size a
  hwx8_0 : ∀ i : grid8.Coords, EltTy.bits .f32 = 32 ∨ (Rect.block (s := S50000x256) S2000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x256.size a ≤ S50000x256.size a
  hwx8_1 : ∀ i : grid8.Coords, EltTy.bits .f32 = 32 ∨ (Rect.block (s := S50000x256) S2000x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x256.size a ≤ S1x256.size a
  hwx8_5 : ∀ i : grid8.Coords, EltTy.bits .f32 = 32 ∨ (Rect.block (s := S1x256) S1x256.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x256.size a ≤ S50000x256.size a
  hwx8_6 : ∀ i : grid8.Coords, EltTy.bits .f32 = 32 ∨ (Rect.block (s := S50000x256) S2000x256.size (cc8_transform_6 i) (hinb8_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v33_1) S1x256.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33_2) S1x256.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v33_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70_0) S2000x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v70_1) S1x256.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v70_2) S1x256.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v70_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v85) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v85) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v104) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v86) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v105) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v106) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v107_0) S2000x256.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v107_1) S1x256.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v107_2) S1x256.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun i => !(k7_cond2 i == 1#1) | 6 => fun i => !(k7_cond2 i == 1#1) | ⟨_ + 7, h⟩ => absurd h (Nat.not_lt.2 (Nat.le_add_left _ _))

abbrev win8_0 : Pipeline.Window sig grid8 :=
  Pipeline.Window.ofSpec (Memref.whole main_v107_0) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v85) S2000x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v118) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v119) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v120) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v121) S1x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v122) S2000x256.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩
abbrev S256x1 : Shape := ⟨2, ![256, 1]⟩
abbrev S1x128 : Shape := ⟨2, ![1, 128]⟩
abbrev S1x1 : Shape := ⟨2, ![1, 1]⟩

abbrev nBuf : Space → Nat
  | .hbm => 294
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x128, .f32⟩
  | 16 => ⟨S128, .f32⟩
  | 17 => ⟨S128x1, .f32⟩
  | 18 => ⟨S1, .f32⟩
  | 19 => ⟨S1x800000, .i32⟩
  | 20 => ⟨S800000, .i32⟩
  | 21 => ⟨S1x800000, .i32⟩
  | 22 => ⟨S800000, .i32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S50000x256, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x256, .f32⟩
  | 62 => ⟨S800000x1, .f32⟩
  | 63 => ⟨S800000x256, .f32⟩
  | 64 => ⟨S800000x256, .f32⟩
  | 65 => ⟨S_, .f32⟩
  | 66 => ⟨S50000x256, .f32⟩
  | 67 => ⟨S800000x1, .i32⟩
  | 68 => ⟨S50000x256, .f32⟩
  | 69 => ⟨S50000, .f32⟩
  | 70 => ⟨S50000x1, .f32⟩
  | 71 => ⟨S50000x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S256, .f32⟩
  | 79 => ⟨S_, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S50000x256, .f32⟩
  | 86 => ⟨S_, .f32⟩
  | 87 => ⟨S256, .f32⟩
  | 88 => ⟨S_, .f32⟩
  | 89 => ⟨S256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S256, .f32⟩
  | 99 => ⟨S256, .f32⟩
  | 100 => ⟨S256, .f32⟩
  | 101 => ⟨S1x256, .f32⟩
  | 102 => ⟨S50000x256, .f32⟩
  | 103 => ⟨S50000x256, .f32⟩
  | 104 => ⟨S1x256, .f32⟩
  | 105 => ⟨S50000x256, .f32⟩
  | 106 => ⟨S50000x256, .f32⟩
  | 107 => ⟨S_, .f32⟩
  | 108 => ⟨S50000x256, .f32⟩
  | 109 => ⟨S50000x256, .f32⟩
  | 110 => ⟨S50000x256, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000, .f32⟩
  | 1 => ⟨S800000, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x256, .f32⟩
  | 11 => ⟨S800000x1, .f32⟩
  | 12 => ⟨S800000x256, .f32⟩
  | 13 => ⟨S800000x256, .f32⟩
  | 14 => ⟨S_, .f32⟩
  | 15 => ⟨S50000x256, .f32⟩
  | 16 => ⟨S800000x1, .i32⟩
  | 17 => ⟨S50000x256, .f32⟩
  | 18 => ⟨S50000, .f32⟩
  | 19 => ⟨S50000x1, .f32⟩
  | 20 => ⟨S50000x256, .f32⟩
  | 21 => ⟨S50000x256, .f32⟩
  | 22 => ⟨S50000x256, .f32⟩
  | 23 => ⟨S1x256, .f32⟩
  | 24 => ⟨S50000x256, .f32⟩
  | 25 => ⟨S50000x256, .f32⟩
  | 26 => ⟨S_, .f32⟩
  | 27 => ⟨S256, .f32⟩
  | 28 => ⟨S_, .f32⟩
  | 29 => ⟨S256, .f32⟩
  | 30 => ⟨S256, .f32⟩
  | 31 => ⟨S1x256, .f32⟩
  | 32 => ⟨S50000x256, .f32⟩
  | 33 => ⟨S50000x256, .f32⟩
  | 34 => ⟨S50000x256, .f32⟩
  | 35 => ⟨S_, .f32⟩
  | 36 => ⟨S256, .f32⟩
  | 37 => ⟨S_, .f32⟩
  | 38 => ⟨S256, .f32⟩
  | 39 => ⟨S256, .f32⟩
  | 40 => ⟨S1x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S_, .f32⟩
  | 47 => ⟨S256, .f32⟩
  | 48 => ⟨S256, .f32⟩
  | 49 => ⟨S256, .f32⟩
  | 50 => ⟨S1x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S_, .f32⟩
  | 57 => ⟨S50000x256, .f32⟩
  | 58 => ⟨S50000x256, .f32⟩
  | 59 => ⟨S50000x256, .f32⟩
  | 60 => ⟨S50000x256, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S800000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x256, .f32⟩
  | 89 => ⟨S800000x1, .f32⟩
  | 90 => ⟨S800000x256, .f32⟩
  | 91 => ⟨S800000x256, .f32⟩
  | 92 => ⟨S_, .f32⟩
  | 93 => ⟨S50000x256, .f32⟩
  | 94 => ⟨S800000x1, .i32⟩
  | 95 => ⟨S50000x256, .f32⟩
  | 96 => ⟨S50000, .f32⟩
  | 97 => ⟨S50000x1, .f32⟩
  | 98 => ⟨S50000x256, .f32⟩
  | 99 => ⟨S50000x256, .f32⟩
  | 100 => ⟨S50000x256, .f32⟩
  | 101 => ⟨S1x256, .f32⟩
  | 102 => ⟨S50000x256, .f32⟩
  | 103 => ⟨S50000x256, .f32⟩
  | 104 => ⟨S_, .f32⟩
  | 105 => ⟨S256, .f32⟩
  | 106 => ⟨S_, .f32⟩
  | 107 => ⟨S256, .f32⟩
  | 108 => ⟨S256, .f32⟩
  | 109 => ⟨S1x256, .f32⟩
  | 110 => ⟨S50000x256, .f32⟩
  | 111 => ⟨S50000x256, .f32⟩
  | 112 => ⟨S50000x256, .f32⟩
  | 113 => ⟨S_, .f32⟩
  | 114 => ⟨S256, .f32⟩
  | 115 => ⟨S_, .f32⟩
  | 116 => ⟨S256, .f32⟩
  | 117 => ⟨S256, .f32⟩
  | 118 => ⟨S1x256, .f32⟩
  | 119 => ⟨S50000x256, .f32⟩
  | 120 => ⟨S50000x256, .f32⟩
  | 121 => ⟨S1x256, .f32⟩
  | 122 => ⟨S50000x256, .f32⟩
  | 123 => ⟨S50000x256, .f32⟩
  | 124 => ⟨S_, .f32⟩
  | 125 => ⟨S256, .f32⟩
  | 126 => ⟨S256, .f32⟩
  | 127 => ⟨S256, .f32⟩
  | _ => ⟨S50000x128, .f32⟩

abbrev hbmTy0_2 (i : Nat) : BufTy := match i % 128 with
  | 0 => ⟨S1x256, .f32⟩
  | 1 => ⟨S50000x256, .f32⟩
  | 2 => ⟨S50000x256, .f32⟩
  | 3 => ⟨S1x256, .f32⟩
  | 4 => ⟨S50000x256, .f32⟩
  | 5 => ⟨S50000x256, .f32⟩
  | 6 => ⟨S_, .f32⟩
  | 7 => ⟨S50000x256, .f32⟩
  | 8 => ⟨S50000x256, .f32⟩
  | 9 => ⟨S50000x256, .f32⟩
  | 10 => ⟨S_, .f32⟩
  | 11 => ⟨S50000, .f32⟩
  | 12 => ⟨S_, .f32⟩
  | 13 => ⟨S256, .f32⟩
  | 14 => ⟨S50000x1, .i32⟩
  | 15 => ⟨S256, .f32⟩
  | 16 => ⟨S_, .f32⟩
  | 17 => ⟨S256x256, .f32⟩
  | 18 => ⟨S50000x1, .i32⟩
  | 19 => ⟨S256x256, .f32⟩
  | 20 => ⟨S_, .f32⟩
  | 21 => ⟨S256, .f32⟩
  | 22 => ⟨S256, .f32⟩
  | 23 => ⟨S256x1, .f32⟩
  | 24 => ⟨S256x256, .f32⟩
  | 25 => ⟨S256x256, .f32⟩
  | 26 => ⟨S256x256, .f32⟩
  | 27 => ⟨S256x128, .f32⟩
  | 28 => ⟨S1x128, .f32⟩
  | 29 => ⟨S256x128, .f32⟩
  | 30 => ⟨S256x128, .f32⟩
  | 31 => ⟨S_, .f32⟩
  | 32 => ⟨S256x128, .f32⟩
  | 33 => ⟨S256x128, .f32⟩
  | 34 => ⟨S256x1, .f32⟩
  | 35 => ⟨S1x1, .f32⟩
  | 36 => ⟨S256x1, .f32⟩
  | 37 => ⟨S256x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call0_cst : Ref sig .tc := ⟨.hbm, 107, rfl⟩
abbrev main_call0_v0 : Ref sig .tc := ⟨.hbm, 108, rfl⟩
abbrev main_v73 : Ref sig .tc := ⟨.hbm, 109, rfl⟩
abbrev main_v74 : Ref sig .tc := ⟨.hbm, 110, rfl⟩
abbrev main_c_13 : Ref sig .tc := ⟨.hbm, 111, rfl⟩
abbrev main_v75 : Ref sig .tc := ⟨.hbm, 112, rfl⟩
abbrev main_v76 : Ref sig .tc := ⟨.hbm, 113, rfl⟩
abbrev main_c_14 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_15 : Ref sig .tc := ⟨.hbm, 120, rfl⟩
abbrev main_v82 : Ref sig .tc := ⟨.hbm, 121, rfl⟩
abbrev main_v83 : Ref sig .tc := ⟨.hbm, 122, rfl⟩
abbrev main_c_16 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_17 : Ref sig .tc := ⟨.hbm, 130, rfl⟩
abbrev main_v90 : Ref sig .tc := ⟨.hbm, 131, rfl⟩
abbrev main_v91 : Ref sig .tc := ⟨.hbm, 132, rfl⟩
abbrev main_c_18 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_19 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_20 : Ref sig .tc := ⟨.hbm, 154, rfl⟩
abbrev main_v111 : Ref sig .tc := ⟨.hbm, 155, rfl⟩
abbrev main_cst_21 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_22 : Ref sig .tc := ⟨.hbm, 163, rfl⟩
abbrev main_v118 : Ref sig .tc := ⟨.hbm, 164, rfl⟩
abbrev main_cst_23 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_24 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_call1_cst : Ref sig .tc := ⟨.hbm, 184, rfl⟩
abbrev main_call1_v0 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_c_25 : Ref sig .tc := ⟨.hbm, 189, rfl⟩
abbrev main_v139 : Ref sig .tc := ⟨.hbm, 190, rfl⟩
abbrev main_v140 : Ref sig .tc := ⟨.hbm, 191, rfl⟩
abbrev main_c_26 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_c_27 : Ref sig .tc := ⟨.hbm, 198, rfl⟩
abbrev main_v146 : Ref sig .tc := ⟨.hbm, 199, rfl⟩
abbrev main_v147 : Ref sig .tc := ⟨.hbm, 200, rfl⟩
abbrev main_c_28 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_c_29 : Ref sig .tc := ⟨.hbm, 208, rfl⟩
abbrev main_v154 : Ref sig .tc := ⟨.hbm, 209, rfl⟩
abbrev main_v155 : Ref sig .tc := ⟨.hbm, 210, rfl⟩
abbrev main_c_30 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_31 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_cst_32 : Ref sig .tc := ⟨.hbm, 232, rfl⟩
abbrev main_v175 : Ref sig .tc := ⟨.hbm, 233, rfl⟩
abbrev main_cst_33 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_cst_34 : Ref sig .tc := ⟨.hbm, 241, rfl⟩
abbrev main_v182 : Ref sig .tc := ⟨.hbm, 242, rfl⟩
abbrev main_cst_35 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_cst_36 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_call2_cst : Ref sig .tc := ⟨.hbm, 262, rfl⟩
abbrev main_call2_v0 : Ref sig .tc := ⟨.hbm, 263, rfl⟩
abbrev main_v200 : Ref sig .tc := ⟨.hbm, 264, rfl⟩
abbrev main_v201 : Ref sig .tc := ⟨.hbm, 265, rfl⟩
abbrev main_cst_37 : Ref sig .tc := ⟨.hbm, 266, rfl⟩
abbrev main_v202 : Ref sig .tc := ⟨.hbm, 267, rfl⟩
abbrev main_cst_38 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_cst_39 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_cst_40 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_call3_cst : Ref sig .tc := ⟨.hbm, 287, rfl⟩
abbrev main_call3_v0 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S256x256 : S_.BroadcastsInDim S256x256 (![] : Fin 0 → Fin S256x256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S256_S50000x1_S50000_n_0_0_1_wf : ScatterDims.WF S256 S50000x1 S50000 [] [0] [0] 1
  scatter_S256x256_S50000x1_S50000x256_1_0_0_1_wf : ScatterDims.WF S256x256 S50000x1 S50000x256 [1] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.BitsLaunch9.lean ====
import proofs.«142371_j48498770706497_2_alg».proof.Proof.Gen.Kernel.Regions

/-! # The whole-program run, given the regions' records

The program is nineteen items: ten host stretches and nine kernel regions. Between two items every core holds each
unscoped buffer whole at a valuation (the launch contents, then the host stretches' results, then what a region leaves at
unknowns) beside a rest state. From one segment record per region, entered from the valuation before it and left at the
one after it, every weakly fair execution from memory `m` with zero counters terminates, and every final memory holds the
result buffer at the LAST valuation's contents and each argument as launched. The result buffer is an unscoped reference,
so it is read off the last thread state like the arguments. -/

-- decided memberships over the program's references recurse past the default depth
set_option maxRecDepth 1628

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- THE CONDITIONAL RUN. For any user algebra, level assignment, launch dues and ghost resources, any rest states `E`
    the launch makes on every core at once and that end owing nothing, any contents the regions leave (`outs`) and any
    proof data: given, per region, a segment record entered from the thread state before it and left at the one after
    it, every weakly fair execution of the program from memory `m` with zero counters terminates, and every final memory
    holds the result buffer at the last valuation's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V8 m outs c) ∗ E 4 c) ⊢ R4.pre c)
    (hpost4 : ∀ c : Dev nD, R4.post c ⊢ iprop(StableHlo.held (c : Thread nD τ) (Pipeline.ucRefs τ sig) (V9 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V10 m outs c) ∗ E 5 c) ⊢ R5.pre c)
    (hpost5 : ∀ c : Dev nD, R5.post c ⊢ iprop(StableHlo.held (c : Thread nD τ) (Pipeline.ucRefs τ sig) (V11 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V11 m outs c) ∗ E 6 c) ⊢ R6.pre c)
    (hpost6 : ∀ c : Dev nD, R6.post c ⊢ iprop(StableHlo.held (c : Thread nD τ) (Pipeline.ucRefs τ sig) (V12 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V13 m outs c) ∗ E 7 c) ⊢ R7.pre c)
    (hpost7 : ∀ c : Dev nD, R7.post c ⊢ iprop(StableHlo.held (c : Thread nD τ) (Pipeline.ucRefs τ sig) (V14 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V15 m outs c) ∗ E 8 c) ⊢ R8.pre c)
    (hpost8 : ∀ c : Dev nD, R8.post c ⊢ iprop(StableHlo.held (c : Thread nD τ) (Pipeline.ucRefs τ sig) (V16 m outs c) ∗ E 9 c)) :
    θ_run defs (onTc (τ := τ) (main (F := F))) ⟨m, fun _ => 0, ρ⟩ (fun r => ∀ c : Dev nD,
      r.2.mem ((c.tc : Thread nD τ).loc main_v144) = V19 m outs c main_v144
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, hpre0 c, hpost0 c, hpre1 c, hpost1 c, hpre2 c, (hpost2 c).trans (hpre3 c), hpost3 c, hpre4 c, hpost4 c, hpre5 c, (hpost5 c).trans (hpre6 c), hpost6 c, hpre7 c, hpost7 c, hpre8 c, hpost8 c, .rfl, .rfl, sep_mono .rfl (hE9 c)⟩)
    (hinit := ?_) (QY := fun c s => s.mem ((c.tc : Thread nD τ).loc main_v144) = V19 m outs c main_v144 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact ⟨h (Proc.devRef .tc main_v144) (Finset.mem_filter.mpr ⟨StableHlo.devRef_mem_tcRefs main_v144, by decide⟩),
        (h (Proc.devRef .tc main_arg0) (Finset.mem_filter.mpr ⟨StableHlo.devRef_mem_tcRefs main_arg0, by decide⟩)).trans (V19_main_arg0 m outs c),
        (h (Proc.devRef .tc main_arg1) (Finset.mem_filter.mpr ⟨StableHlo.devRef_mem_tcRefs main_arg1, by decide⟩)).trans (V19_main_arg1 m outs c),
        (h (Proc.devRef .tc main_arg2) (Finset.mem_filter.mpr ⟨StableHlo.devRef_mem_tcRefs main_arg2, by decide⟩)).trans (V19_main_arg2 m outs c),
        (h (Proc.devRef .tc main_arg3) (Finset.mem_filter.mpr ⟨StableHlo.devRef_mem_tcRefs main_arg3, by decide⟩)).trans (V19_main_arg3 m outs c),
        (h (Proc.devRef .tc main_arg4) (Finset.mem_filter.mpr ⟨StableHlo.devRef_mem_tcRefs main_arg4, by decide⟩)).trans (V19_main_arg4 m outs c),
        (h (Proc.devRef .tc main_arg5) (Finset.mem_filter.mpr ⟨StableHlo.devRef_mem_tcRefs main_arg5, by decide⟩)).trans (V19_main_arg5 m outs c),
        (h (Proc.devRef .tc main_arg6) (Finset.mem_filter.mpr ⟨StableHlo.devRef_mem_tcRefs main_arg6, by decide⟩)).trans (V19_main_arg6 m outs c),
        (h (Proc.devRef .tc main_arg7) (Finset.mem_filter.mpr ⟨StableHlo.devRef_mem_tcRefs main_arg7, by decide⟩)).trans (V19_main_arg7 m outs c),
        (h (Proc.devRef .tc main_arg8) (Finset.mem_filter.mpr ⟨StableHlo.devRef_mem_tcRefs main_arg8, by decide⟩)).trans (V19_main_arg8 m outs c),
        (h (Proc.devRef .tc main_arg9) (Finset.mem_filter.mpr ⟨StableHlo.devRef_mem_tcRefs main_arg9, by decide⟩)).trans (V19_main_arg9 m outs c),
        (h (Proc.devRef .tc main_arg10) (Finset.mem_filter.mpr ⟨StableHlo.devRef_mem_tcRefs main_arg10, by decide⟩)).trans (V19_main_arg10 m outs c),
        (h (Proc.devRef .tc main_arg11) (Finset.mem_filter.mpr ⟨StableHlo.devRef_mem_tcRefs main_arg11, by decide⟩)).trans (V19_main_arg11 m outs c),
        (h (Proc.devRef .tc main_arg12) (Finset.mem_filter.mpr ⟨StableHlo.devRef_mem_tcRefs main_arg12, by decide⟩)).trans (V19_main_arg12 m outs c),
        (h (Proc.devRef .tc main_arg13) (Finset.mem_filter.mpr ⟨StableHlo.devRef_mem_tcRefs main_arg13, by decide⟩)).trans (V19_main_arg13 m outs c),
        (h (Proc.devRef .tc main_arg14) (Finset.mem_filter.mpr ⟨StableHlo.devRef_mem_tcRefs main_arg14, by decide⟩)).trans (V19_main_arg14 m outs c),
        (h (Proc.devRef .tc main_arg15) (Finset.mem_filter.mpr ⟨StableHlo.devRef_mem_tcRefs main_arg15, by decide⟩)).trans (V19_main_arg15 m outs c),
        (h (Proc.devRef .tc main_arg16) (Finset.mem_filter.mpr ⟨StableHlo.devRef_mem_tcRefs main_arg16, by decide⟩)).trans (V19_main_arg16 m outs c),
        (h (Proc.devRef .tc main_arg17) (Finset.mem_filter.mpr ⟨StableHlo.devRef_mem_tcRefs main_arg17, by decide⟩)).trans (V19_main_arg17 m outs c),
        (h (Proc.devRef .tc main_arg18) (Finset.mem_filter.mpr ⟨StableHlo.devRef_mem_tcRefs main_arg18, by decide⟩)).trans (V19_main_arg18 m outs c)⟩
    · iexact HSI

end Cert.Kernel.Hand

end
-- ==== Proof.BitsRegMatmul0.lean ====
/-
  The first matrix product of the program (pipeline 0 of @main), as a region entered from any contents `V` of the
  unscoped buffers.

  The kernel runs on a grid of 25 points over the rows. At point t it is handed three staging buffers: rows
  2000·t … 2000·t + 1999 of x (2000 × 128), all of w (128 × 256, fetched once, its block index never moves),
  and the result's block (2000 × 256), which is written back at every point. The body loads the two input
  blocks whole, and stores into the result's buffer — whole, through one rectangle that covers it — the product
  of the two blocks, each first truncated to bf16, accumulated from zero.

  This module gives: what the body leaves in the result's buffer as a function of the input blocks; the body's
  triple; the proof data of the pipeline (arrays at `V`, nothing owed, full shares, the invariant the scoped
  buffers the pipeline does not stage, carried through untouched); the two ends of that invariant; and the body
  obligation at every point. Nothing here depends on the float model.
-/
import proofs.«142371_j48498770706497_2_alg».proof.Proof.Gen.Kernel.Launch
import proofs.«142371_j48498770706497_2_alg».proof.Proof.Gen.Kernel.Skeleton
import proofs.«142371_j48498770706497_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership in a rectangle of these extents is looked at once per coordinate of the long axis
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of x holds x's block of the point whenever the body runs, for any proof data whose array
    is `V`'s and whose body leaves the block in place: the window is an input, never idle and not cut, so what it
    holds is what a fetch at the point puts there, fetched at the point or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for w, which is fetched at the first point only: its block index is the same at every point, and the
    body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole, through the rectangle at offset zero of its own extents -/

abbrev rx0 : Rect S2000x128 := Rect.unit (s := S2000x128) ![0, 0] S2000x128.size inb_S2000x128_S2000x128_0_0
abbrev rw0 : Rect S128x256 := Rect.unit (s := S128x256) ![0, 0] S128x256.size inb_S128x256_S128x256_0_0
abbrev ro0 : Rect S2000x256 := Rect.unit (s := S2000x256) ![0, 0] S2000x256.size inb_S2000x256_S2000x256_0_0

/-- The two offsets are zero. -/
theorem zeros0 : (![0, 0] : Fin 2 → Nat) = fun _ => 0 := funext fun a => by fin_cases a <;> rfl

/-! ## What the body leaves in the result's buffer -/

/-- The result's staging buffer after the body, from the two input blocks: its one store, a piece over the whole
    buffer whose payload is the product of the loaded blocks. -/
def out0_2 (x0 : Vec F S2000x128 .f32) (x1 : Vec F S128x256 .f32) : Vec F S2000x256 .f32 :=
  View.canon [⟨ro0, k0_pay1 (View.ld x0 rx0) (View.ld x1 rw0)⟩]

/-- The store's rectangle is the whole buffer, so it covers it. -/
theorem cover0_2 (p0 : Vec F S2000x256 .f32) (y : S2000x256.Idx) :
    ∃ pc ∈ ([⟨ro0, p0⟩] : List (View.Piece (Elt F) S2000x256 .f32)), y ∈ pc.1.set :=
  ⟨_, List.mem_singleton_self _, View.mem_set_unit_zero (S := S2000x256) zeros0 inb_S2000x256_S2000x256_0_0 y⟩

/-- One covering store of whole loads: the buffer is left at the payload of the blocks themselves. -/
theorem out0_2_eq (x0 : Vec F S2000x128 .f32) (x1 : Vec F S128x256 .f32) : out0_2 x0 x1 = k0_pay1 x0 x1 := by
  unfold out0_2
  rw [View.canon_unit_zero (S := S2000x256) zeros0]
  rw [View.ld_unit_zero (S := S2000x128) zeros0, View.ld_unit_zero (S := S128x256) zeros0]

/-! ## The body's triple -/

set_option maxHeartbeats 1000000 in
/-- The kernel body on whole staging memrefs, the inputs' at contents `x0`, `x1` and the result's at anything, runs
    to its return holding the inputs' as they were and the result's at `out0_2 x0 x1`: two loads, a load of the
    result's buffer whose value is not used, and the covering store. -/
theorem sound_kernel0 (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`, entered at `V`: the three arrays as the region finds them; after the
    body at point `t` each input's buffer at its block and the result's at `out0_2` of the two blocks; the invariant
    the scoped buffers the pipeline does not stage, held at something, the same between any two points; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.scopedRest (Ix := Unit) (Name := ℕ) (U := UR sig nD τ) (Lvl := ℕ) (Val := Elt F) spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Every input array is held whole. -/
theorem q_eq0 (c : Dev nD) (w : Fin cfg0.W) : (dat0 V c).q w = fullShare := by
  dsimp only [dat0]

/-- The core owes nothing between any two points. -/
theorem owed_eq0 (c : Dev nD) : ∀ x, (dat0 V c).owed x = 0 := fun _ => by
  dsimp only [dat0]

/-- The invariant between any two points is the scoped rest. -/
theorem Φ_eq0 (c : Dev nD) (x : Fin (cfg0.N + 1)) :
    (dat0 V c).Φ x = Pipeline.scopedRest (Ix := Unit) (Name := ℕ) (U := UR sig nD τ) (Lvl := ℕ) (Val := Elt F) spec0 c := by
  dsimp only [dat0]

/-- Entering the region, the scoped rest is the invariant before the first point. -/
theorem Φ_in0 (c : Dev nD) :
    (Pipeline.scopedRest (Ix := Unit) (Name := ℕ) (U := UR sig nD τ) (Lvl := ℕ) (Val := Elt F) spec0 c) ⊢ (dat0 V c).Φ 0 := by
  rw [Φ_eq0]

/-- Leaving it, the invariant after the last point is the scoped rest. -/
theorem Φ_out0 (c : Dev nD) :
    (dat0 V c).Φ (Fin.last cfg0.N) ⊢ (Pipeline.scopedRest (Ix := Unit) (Name := ℕ) (U := UR sig nD τ) (Lvl := ℕ) (Val := Elt F) spec0 c) := by
  rw [Φ_eq0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, what the core owes, and the three current staging
    buffers, one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : Pipeline.BodyObligation (dat0 (F := F) V c) (defs₀ (F := F)) Variants.none () Set.univ := fun t => by
  rw [bigSep_W0, bigSep_W0]
  exact sound_body0 V c t

end Cert.Kernel.Hand

end
-- ==== Proof.BitsRegStats1Body.lean ====
/-
  Region 1 (the aggregation-plus-bias-and-statistics kernel), the body's runs.  The kernel visits 25 row blocks; it
  keeps two 1×256 accumulators across the points.  Three control cases: the first point zeroes the accumulators
  before adding; a middle point only adds; the last point adds and copies the accumulators to the two outputs.
  Each case's triple states what every buffer the case stores into ends holding, as the payload of its covering store.
-/
import proofs.«142371_j48498770706497_2_alg».proof.Proof.Gen.Kernel.Launch
import proofs.«142371_j48498770706497_2_alg».proof.Proof.Gen.Kernel.Skeleton
import proofs.«142371_j48498770706497_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (zero the two accumulators) is taken where the grid coordinate is zero. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second branch (copy the accumulators out) is taken at the last point. -/
abbrev cond1_1 (i : grid1.Coords) : Prop := k1_cond2 i = 1#1
theorem hcond1_1 : ∀ t : Fin cfg1.N, cond1_1 (grid1.coords t) ↔ t.val = 24 :=
  (by decide +kernel : ∀ t : Fin grid1.N, cond1_1 (grid1.coords t) ↔ t.val = 24)

/-- The two zero offsets, however spelt. -/
private theorem hz2 : (![0, 0] : Fin 2 → Nat) = fun _ => 0 := funext fun a => by fin_cases a <;> rfl

set_option maxHeartbeats 2000000 in
/-- THE FIRST point (the accumulators zeroed, then added to): from the four input blocks, the output block and the two accumulators at anything, the body leaves the block T = agg + xw·d2 + b in the output and the accumulators at zero + the column sums of T, zero + the column sums of T·T. -/
theorem kernelRun1_A (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond1_0 i) (hc1 : ¬cond1_1 i)
    (x0 x1 : Vec F S2000x256 .f32) (x2 : Vec F S2000x1 .f32) (x3 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay3 x0 x1 x2 x3) ∗ owns (c : Thread nD τ) arg8 fullShare (k1_pay4 x0 x1 x2 x3 k1_pay1) ∗ owns (c : Thread nD τ) arg9 fullShare (k1_pay5 x0 x1 x2 x3 k1_pay2)) -∗ K ⟨⟩))
      ⊢ wp frame (wpE (defs₀ (F := F)) Variants.none c none) E (cc1__agg_bias_stats_kernel i arg1 harg1 arg2 harg2 arg3 harg3 arg4 harg4 arg5 harg5 arg6 harg6 arg7 harg7 arg8 harg8 arg9 harg9) K := by
  sl_unfold [cc1__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- A MIDDLE point (neither branch taken): from the four input blocks, the output block at anything and the two accumulators at xs0, xs1, the body leaves the block T in the output and the accumulators at xs0 + the column sums of T, xs1 + the column sums of T·T (the payloads of its three stores, each one covering store). -/
theorem kernelRun1_B (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond1_0 i) (hc1 : ¬cond1_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay3 x0 x1 x2 x3) ∗ owns (c : Thread nD τ) arg8 fullShare (k1_pay4 x0 x1 x2 x3 xs0) ∗ owns (c : Thread nD τ) arg9 fullShare (k1_pay5 x0 x1 x2 x3 xs1)) -∗ K ⟨⟩))
      ⊢ wp frame (wpE (defs₀ (F := F)) Variants.none c none) E (cc1__agg_bias_stats_kernel i arg1 harg1 arg2 harg2 arg3 harg3 arg4 harg4 arg5 harg5 arg6 harg6 arg7 harg7 arg8 harg8 arg9 harg9) K := by
  sl_unfold [cc1__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- THE LAST point (the accumulators added to, then copied out): as a middle point, and the two sums' output buffers, at anything before, end at the accumulators' final contents. -/
theorem kernelRun1_C (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond1_0 i) (hc1 : cond1_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay3 x0 x1 x2 x3) ∗ owns (c : Thread nD τ) arg6 fullShare (k1_pay4 x0 x1 x2 x3 xs0) ∗ owns (c : Thread nD τ) arg7 fullShare (k1_pay5 x0 x1 x2 x3 xs1) ∗ owns (c : Thread nD τ) arg8 fullShare (k1_pay4 x0 x1 x2 x3 xs0) ∗ owns (c : Thread nD τ) arg9 fullShare (k1_pay5 x0 x1 x2 x3 xs1)) -∗ K ⟨⟩))
      ⊢ wp frame (wpE (defs₀ (F := F)) Variants.none c none) E (cc1__agg_bias_stats_kernel i arg1 harg1 arg2 harg2 arg3 harg3 arg4 harg4 arg5 harg5 arg6 harg6 arg7 harg7 arg8 harg8 arg9 harg9) K := by
  sl_unfold [cc1__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H6]
  · iexists _; isplitr
    swap; · iexact H6
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H7]
  · iexists _; isplitr
    swap; · iexact H7
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

end Cert.Kernel.Hand

end
-- ==== Proof.BitsRegStats1.lean ====
/-
  Region 1 (the aggregation-plus-bias-and-statistics kernel) as a pipeline: its proof data, the invariant carrying the
  two accumulators, and the body obligation.  T = agg + xw·d2 + b is stored block by block; the accumulators hold,
  after n points, zero plus the column sums of T (of T·T) over the first n row blocks, added block by block; the two
  sums' outputs are stored at the last point only and idle before it.
-/
import proofs.«142371_j48498770706497_2_alg».proof.Proof.BitsRegStats1Body
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the block of T, the two running column sums -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of T = agg + xw·d2 + b the body stores at point t. -/
def tblk1 (c : Dev nD) (t : Fin cfg1.N) : Vec F S2000x256 .f32 := k1_pay3 (iblk1 V c 0 t) (iblk1 V c 1 t) (iblk1 V c 2 t) (iblk1 V c 3 t)

/-- The two accumulators after n points: zero, then at each point the block's column sums of T (of T·T) added. -/
def acc1 (c : Dev nD) : (n : ℕ) → n ≤ cfg1.N → Vec F S1x256 .f32 × Vec F S1x256 .f32
  | 0, _ => (k1_pay1, k1_pay2)
  | n + 1, hn => (k1_pay4 (iblk1 V c 0 ⟨n, Nat.lt_of_succ_le hn⟩) (iblk1 V c 1 ⟨n, Nat.lt_of_succ_le hn⟩) (iblk1 V c 2 ⟨n, Nat.lt_of_succ_le hn⟩) (iblk1 V c 3 ⟨n, Nat.lt_of_succ_le hn⟩) (acc1 c n (Nat.le_of_succ_le hn)).1,
      k1_pay5 (iblk1 V c 0 ⟨n, Nat.lt_of_succ_le hn⟩) (iblk1 V c 1 ⟨n, Nat.lt_of_succ_le hn⟩) (iblk1 V c 2 ⟨n, Nat.lt_of_succ_le hn⟩) (iblk1 V c 3 ⟨n, Nat.lt_of_succ_le hn⟩) (acc1 c n (Nat.le_of_succ_le hn)).2)

theorem acc1_zero (c : Dev nD) (n : ℕ) (h : n ≤ cfg1.N) (hz : n = 0) : acc1 V c n h = (k1_pay1, k1_pay2) := by
  subst hz; rfl

theorem acc1_succ (c : Dev nD) (t : Fin cfg1.N) :
    acc1 V c (t.val + 1) t.isLt = (k1_pay4 (iblk1 V c 0 t) (iblk1 V c 1 t) (iblk1 V c 2 t) (iblk1 V c 3 t) (acc1 V c t.val (Nat.le_of_lt t.isLt)).1,
      k1_pay5 (iblk1 V c 0 t) (iblk1 V c 1 t) (iblk1 V c 2 t) (iblk1 V c 3 t) (acc1 V c t.val (Nat.le_of_lt t.isLt)).2) := rfl

/-! ## The invariant: the two scratch accumulators at their running sums, beside the rest of the scoped buffers -/

abbrev scM1_0 : Memref sig .tc .vmem S1x256 .f32 := Memref.whole cc1_scratch0
abbrev scM1_1 : Memref sig .tc .vmem S1x256 .f32 := Memref.whole cc1_scratch1

/-- Before the first point the scoped rest as the region finds it (the accumulators at anything: the first point
    zeroes them); after n + 1 points the accumulators at acc1 (n + 1). -/
def Phi1 (c : Dev nD) : (n : ℕ) → n ≤ cfg1.N → sProp 𝕄
  | 0, _ => (Pipeline.scopedRest (Ix := Unit) (Name := ℕ) (U := UR sig nD τ) (Lvl := ℕ) (Val := Elt F) spec1 c)
  | n + 1, hn => iprop(iprop(owns (c : Thread nD τ) scM1_0 fullShare (acc1 V c (n + 1) hn).1 ∗ owns (c : Thread nD τ) scM1_1 fullShare (acc1 V c (n + 1) hn).2)
      ∗ (Pipeline.scopedRestBut (Ix := Unit) (Name := ℕ) (U := UR sig nD τ) (Lvl := ℕ) (Val := Elt F) spec1 c [cc1_scratch0, cc1_scratch1]))

theorem Phi1_zero (c : Dev nD) (n : ℕ) (h : n ≤ cfg1.N) (hz : n = 0) : Phi1 V c n h = (Pipeline.scopedRest (Ix := Unit) (Name := ℕ) (U := UR sig nD τ) (Lvl := ℕ) (Val := Elt F) spec1 c) := by
  subst hz; rfl

theorem Phi1_pos (c : Dev nD) (n : ℕ) (h : n ≤ cfg1.N) (hz : n ≠ 0) :
    Phi1 V c n h = iprop(iprop(owns (c : Thread nD τ) scM1_0 fullShare (acc1 V c n h).1 ∗ owns (c : Thread nD τ) scM1_1 fullShare (acc1 V c n h).2)
      ∗ (Pipeline.scopedRestBut (Ix := Unit) (Name := ℕ) (U := UR sig nD τ) (Lvl := ℕ) (Val := Elt F) spec1 c [cc1_scratch0, cc1_scratch1])) := by
  cases n with
  | zero => exact absurd rfl hz
  | succ n => rfl

/-- The scoped rest with the two accumulators as memrefs owned at some contents. -/
theorem scopedRest1_owns (c : Dev nD) :
    ((Pipeline.scopedRest (Ix := Unit) (Name := ℕ) (U := UR sig nD τ) (Lvl := ℕ) (Val := Elt F) spec1 c) : sProp 𝕄)
      = iprop(iprop((∃ d, owns (c : Thread nD τ) scM1_0 fullShare d) ∗ (∃ d, owns (c : Thread nD τ) scM1_1 fullShare d)) ∗ (Pipeline.scopedRestBut (Ix := Unit) (Name := ℕ) (U := UR sig nD τ) (Lvl := ℕ) (Val := Elt F) spec1 c [cc1_scratch0, cc1_scratch1])) := by
  rw [scopedRest1_split]; simp only [scM1_0, scM1_1, owns_whole]; rfl

/-! ## The proof data -/

/-- The proof data of region 1 on core c: the arrays as the region finds them; after the body at point t each input's
    buffer at its block, the first output's at the block of T, the two sums' outputs at the accumulators after t + 1
    points (consulted at the last point only: idle before); the invariant above; nothing owed; full shares. -/
def dat1 (c : Dev nD) : Pipeline.Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => tblk1 V c t
    | ⟨5, _⟩ => (acc1 V c (t.val + 1) t.isLt).1
    | ⟨6, _⟩ => (acc1 V c (t.val + 1) t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by dsimp only [dat1]
theorem owed_eq1 (c : Dev nD) : ∀ x, (dat1 V c).owed x = 0 := fun _ => by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = tblk1 V c t := by dsimp only [dat1]
theorem after1_5 (c : Dev nD) (t : Fin cfg1.N) : (dat1 V c).after 5 t = (acc1 V c (t.val + 1) t.isLt).1 := by dsimp only [dat1]
theorem after1_6 (c : Dev nD) (t : Fin cfg1.N) : (dat1 V c).after 6 t = (acc1 V c (t.val + 1) t.isLt).2 := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

/-- What the region is handed is the invariant before the first point. -/
theorem Φ_in1 (c : Dev nD) : (Pipeline.scopedRest (Ix := Unit) (Name := ℕ) (U := UR sig nD τ) (Lvl := ℕ) (Val := Elt F) spec1 c) ⊢ (dat1 V c).Φ 0 := by
  rw [show (dat1 V c).Φ 0 = Phi1 V c 0 (Nat.zero_le _) from rfl, Phi1_zero V c 0 _ rfl]
  try exact Idealize.SL.BI.Entails.refl _

/-- After the last point the invariant gives the scoped rest back: the accumulators' contents forgotten. -/
theorem Φ_out1 (c : Dev nD) : (dat1 V c).Φ (Fin.last cfg1.N) ⊢ (Pipeline.scopedRest (Ix := Unit) (Name := ℕ) (U := UR sig nD τ) (Lvl := ℕ) (Val := Elt F) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 25 := N_1; omega), scopedRest1_owns]
  iintro ⟨⟨HS0, HS1⟩, HR⟩
  isplitl [HS0 HS1]
  · isplitl [HS0]
    · iexists _; iexact HS0
    iexists _; iexact HS1
  iexact HR

/-! ## What each window's staging buffer holds when the body runs -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The body obligation -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem acc1_succ_fst (c : Dev nD) (t : Fin cfg1.N) :
    (acc1 V c (t.val + 1) t.isLt).1 = k1_pay4 (iblk1 V c 0 t) (iblk1 V c 1 t) (iblk1 V c 2 t) (iblk1 V c 3 t) (acc1 V c t.val (Nat.le_of_lt t.isLt)).1 := rfl
theorem acc1_succ_snd (c : Dev nD) (t : Fin cfg1.N) :
    (acc1 V c (t.val + 1) t.isLt).2 = k1_pay5 (iblk1 V c 0 t) (iblk1 V c 1 t) (iblk1 V c 2 t) (iblk1 V c 3 t) (acc1 V c t.val (Nat.le_of_lt t.isLt)).2 := rfl
theorem acc1_zero_fst (c : Dev nD) (n : ℕ) (h : n ≤ cfg1.N) (hz : n = 0) : (acc1 V c n h).1 = k1_pay1 := by subst hz; rfl
theorem acc1_zero_snd (c : Dev nD) (n : ℕ) (h : n ≤ cfg1.N) (hz : n = 0) : (acc1 V c n h).2 = k1_pay2 := by subst hz; rfl

set_option maxHeartbeats 4000000 in
/-- The body at any point: the inputs' buffers hold their blocks; the point is the first, a middle one or the last;
    the invariant hands the body the accumulators at what the points before left (at anything at the first point) and
    takes them back at this point's sums; the two sums' output buffers pass through untouched except at the last point,
    where they end at the final sums; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_pos V c _ _ (Nat.succ_ne_zero _), acc1_succ_fst, acc1_succ_snd]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  unfold tblk1
  have hN : t.val < 25 := lt_of_lt_of_eq t.isLt (show cfg1.N = 25 from N_1)
  by_cases h1 : t.val = 24
  · have hc1 : cond1_1 (grid1.coords t) := (hcond1_1 t).mpr h1
    have hc0 : ¬cond1_0 (grid1.coords t) := fun h => by have := (hcond1_0 t).mp h; omega
    rw [show (dat1 V c).leavesExact 5 t = owns (c : Thread nD τ) (ms1_5 t) fullShare ((dat1 V c).after 5 t) from by
      unfold Dat.leavesExact; rw [liveAt1_5 t hc1], after1_5, acc1_succ_fst]
    rw [show (dat1 V c).leavesExact 6 t = owns (c : Thread nD τ) (ms1_6 t) fullShare ((dat1 V c).after 6 t) from by
      unfold Dat.leavesExact; rw [liveAt1_6 t hc1], after1_6, acc1_succ_snd]
    rw [Phi1_castSucc, Phi1_pos V c _ _ (by omega)]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
    iapply (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬cond1_1 (grid1.coords t) := fun h => h1 ((hcond1_1 t).mp h)
    rw [Dat.leavesExact_idle (dat1 V c) 5 t (idleAt1_5 t hc1) (noFlush1_5 t hc1), Dat.leavesExact_idle (dat1 V c) 6 t (idleAt1_6 t hc1) (noFlush1_6 t hc1)]
    by_cases h0 : t.val = 0
    · have hc0 : cond1_0 (grid1.coords t) := (hcond1_0 t).mpr h0
      rw [Phi1_castSucc, Phi1_zero V c _ _ h0, scopedRest1_owns, acc1_zero_fst V c _ _ h0, acc1_zero_snd V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond1_0 (grid1.coords t) := fun h => h0 ((hcond1_0 t).mp h)
      rw [Phi1_castSucc, Phi1_pos V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation1 (c : Dev nD) : Pipeline.BodyObligation (dat1 V c) (defs₀ (F := F)) Variants.none () Set.univ := fun t => by
  rw [bigSep_W1, bigSep_W1]
  exact sound_body1 V c t

end Cert.Kernel.Hand

end
-- ==== Proof.BitsRegBn2.lean ====
/-
  Region 2 of @main: the batch-normalisation kernel with given statistics followed by the rectifier
  (custom_call 2, pipeline 2), a grid of 25 points over row-blocks of 2000 rows of a 50000×256 array.

  Stated at a PARAMETER `V` — what every unscoped buffer of the TensorCore holds when the region is entered —:
  the windows' blocks, what the body leaves in the output's staging buffer as a function of the input blocks
  (its one store as a canonical piece over the skeleton's payload), the body's triple, the proof data, and the
  body obligation. The invariant between points is the scoped rest, carried through unread.
-/
import proofs.«142371_j48498770706497_2_alg».proof.Proof.Gen.Kernel.Launch
import proofs.«142371_j48498770706497_2_alg».proof.Proof.Gen.Kernel.Skeleton
import proofs.«142371_j48498770706497_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every unscoped buffer of the TensorCore holds when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    window's block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    window's block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    window's block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched
    window's block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched
    window's block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the whole block, the whole row of parameters -/

abbrev rBlk2 : Rect S2000x256 := Rect.unit (s := S2000x256) ![0, 0] S2000x256.size inb_S2000x256_S2000x256_0_0
abbrev rRow2 : Rect S1x256 := Rect.unit (s := S1x256) ![0, 0] S1x256.size inb_S1x256_S1x256_0_0

/-- The literal offsets of both rectangles are zero on every axis. -/
theorem hz2 : (![0, 0] : Fin 2 → Nat) = fun _ => 0 := funext fun a => by fin_cases a <;> rfl

/-! ## What the body leaves in the output window's buffer -/

/-- Window 5's staging buffer after the body, from the input windows' blocks `x0` (the aggregate), `x1` (scale),
    `x2` (shift), `x3` (mean), `x4` (variance): its one store, over the whole block, of the normalised and
    rectified block. -/
def out2_5 (x0 : Vec F S2000x256 .f32) (x1 x2 x3 x4 : Vec F S1x256 .f32) : Vec F S2000x256 .f32 :=
  View.canon [⟨rBlk2, k2_pay1 (View.ld x0 rBlk2) (View.ld x1 rRow2) (View.ld x3 rRow2) (View.ld x4 rRow2) (View.ld x2 rRow2)⟩]

/-- The one store covers the buffer: its rectangle is the whole block. -/
theorem cover2_5 (p0 : Vec F S2000x256 .f32) (y : S2000x256.Idx) :
    ∃ pc ∈ ([⟨rBlk2, p0⟩] : List (View.Piece (Elt F) S2000x256 .f32)), y ∈ pc.1.set :=
  ⟨_, List.mem_singleton_self _, View.mem_set_unit_zero hz2 inb_S2000x256_S2000x256_0_0 y⟩

/-! ## The body's triple -/

set_option maxHeartbeats 1000000 in
/-- The kernel body on whole staging memrefs, the inputs' at read contents `x0 … x4` and the output's at anything,
    runs to the continuation holding the inputs' as they were and the output's at `out2_5` of them. -/
theorem sound_kernel2 (c : Dev nD) (E : Set ℕ) (i : grid2.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The invariant between the region's points: the scoped buffers the pipeline does not stage, held at something. -/
abbrev Φ2 (c : Dev nD) : sProp 𝕄 :=
  Pipeline.scopedRest (Ix := Unit) (Name := ℕ) (U := UR sig nD τ) (Lvl := ℕ) (Val := Elt F) spec2 c

/-- The proof data of pipeline 2 on core `c`: the arrays as the region finds them; after the body at point `t` each
    input's buffer at its block and the output's at `out2_5` of the input blocks; the invariant the scoped rest;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Φ2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- Every array is held whole. -/
theorem q_eq2 (c : Dev nD) (w : Fin cfg2.W) : (dat2 V c).q w = fullShare := by
  dsimp only [dat2]

/-- The core owes nothing at any point. -/
theorem owed_eq2 (c : Dev nD) : ∀ x, (dat2 V c).owed x = 0 := fun _ => by
  dsimp only [dat2]

/-- The invariant at the first point is the scoped rest the region is entered with, -/
theorem Φ_in2 (c : Dev nD) :
    (Pipeline.scopedRest (Ix := Unit) (Name := ℕ) (U := UR sig nD τ) (Lvl := ℕ) (Val := Elt F) spec2 c) ⊢ (dat2 V c).Φ 0 := by
  dsimp only [dat2]; exact .rfl

/-- and at the last point it is given back. -/
theorem Φ_out2 (c : Dev nD) :
    (dat2 V c).Φ (Fin.last cfg2.N) ⊢ (Pipeline.scopedRest (Ix := Unit) (Name := ℕ) (U := UR sig nD τ) (Lvl := ℕ) (Val := Elt F) spec2 c) := by
  dsimp only [dat2]; exact .rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRegMatmul3.lean ====
/-
  The second matrix product of the program (pipeline 3 of @main), as a region entered from any contents `V` of the
  unscoped buffers.

  The kernel runs on a grid of 25 points over the rows. At point t it is handed three staging buffers: rows
  2000·t … 2000·t + 1999 of x (2000 × 256), all of w (256 × 256, fetched once, its block index never moves),
  and the result's block (2000 × 256), which is written back at every point. The body loads the two input
  blocks whole, and stores into the result's buffer — whole, through one rectangle that covers it — the product
  of the two blocks, each first truncated to bf16, accumulated from zero.

  This module gives: what the body leaves in the result's buffer as a function of the input blocks; the body's
  triple; the proof data of the pipeline (arrays at `V`, nothing owed, full shares, the invariant the scoped
  buffers the pipeline does not stage, carried through untouched); the two ends of that invariant; and the body
  obligation at every point. Nothing here depends on the float model.
-/
import proofs.«142371_j48498770706497_2_alg».proof.Proof.Gen.Kernel.Launch
import proofs.«142371_j48498770706497_2_alg».proof.Proof.Gen.Kernel.Skeleton
import proofs.«142371_j48498770706497_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership in a rectangle of these extents is looked at once per coordinate of the long axis
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of x holds x's block of the point whenever the body runs, for any proof data whose array
    is `V`'s and whose body leaves the block in place: the window is an input, never idle and not cut, so what it
    holds is what a fetch at the point puts there, fetched at the point or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for w, which is fetched at the first point only: its block index is the same at every point, and the
    body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging buffer whole, through the rectangle at offset zero of its own extents -/

abbrev rx3 : Rect S2000x256 := Rect.unit (s := S2000x256) ![0, 0] S2000x256.size inb_S2000x256_S2000x256_0_0
abbrev rw3 : Rect S256x256 := Rect.unit (s := S256x256) ![0, 0] S256x256.size inb_S256x256_S256x256_0_0
abbrev ro3 : Rect S2000x256 := Rect.unit (s := S2000x256) ![0, 0] S2000x256.size inb_S2000x256_S2000x256_0_0

/-- The two offsets are zero. -/
theorem zeros3 : (![0, 0] : Fin 2 → Nat) = fun _ => 0 := funext fun a => by fin_cases a <;> rfl

/-! ## What the body leaves in the result's buffer -/

/-- The result's staging buffer after the body, from the two input blocks: its one store, a piece over the whole
    buffer whose payload is the product of the loaded blocks. -/
def out3_2 (x0 : Vec F S2000x256 .f32) (x1 : Vec F S256x256 .f32) : Vec F S2000x256 .f32 :=
  View.canon [⟨ro3, k3_pay1 (View.ld x0 rx3) (View.ld x1 rw3)⟩]

/-- The store's rectangle is the whole buffer, so it covers it. -/
theorem cover3_2 (p0 : Vec F S2000x256 .f32) (y : S2000x256.Idx) :
    ∃ pc ∈ ([⟨ro3, p0⟩] : List (View.Piece (Elt F) S2000x256 .f32)), y ∈ pc.1.set :=
  ⟨_, List.mem_singleton_self _, View.mem_set_unit_zero (S := S2000x256) zeros3 inb_S2000x256_S2000x256_0_0 y⟩

/-- One covering store of whole loads: the buffer is left at the payload of the blocks themselves. -/
theorem out3_2_eq (x0 : Vec F S2000x256 .f32) (x1 : Vec F S256x256 .f32) : out3_2 x0 x1 = k3_pay1 x0 x1 := by
  unfold out3_2
  rw [View.canon_unit_zero (S := S2000x256) zeros3]
  rw [View.ld_unit_zero (S := S2000x256) zeros3, View.ld_unit_zero (S := S256x256) zeros3]

/-! ## The body's triple -/

set_option maxHeartbeats 1000000 in
/-- The kernel body on whole staging memrefs, the inputs' at contents `x0`, `x1` and the result's at anything, runs
    to its return holding the inputs' as they were and the result's at `out3_2 x0 x1`: two loads, a load of the
    result's buffer whose value is not used, and the covering store. -/
theorem sound_kernel3 (c : Dev nD) (E : Set ℕ) (i : grid3.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`, entered at `V`: the three arrays as the region finds them; after the
    body at point `t` each input's buffer at its block and the result's at `out3_2` of the two blocks; the invariant
    the scoped buffers the pipeline does not stage, held at something, the same between any two points; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.scopedRest (Ix := Unit) (Name := ℕ) (U := UR sig nD τ) (Lvl := ℕ) (Val := Elt F) spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- Every input array is held whole. -/
theorem q_eq3 (c : Dev nD) (w : Fin cfg3.W) : (dat3 V c).q w = fullShare := by
  dsimp only [dat3]

/-- The core owes nothing between any two points. -/
theorem owed_eq3 (c : Dev nD) : ∀ x, (dat3 V c).owed x = 0 := fun _ => by
  dsimp only [dat3]

/-- The invariant between any two points is the scoped rest. -/
theorem Φ_eq3 (c : Dev nD) (x : Fin (cfg3.N + 1)) :
    (dat3 V c).Φ x = Pipeline.scopedRest (Ix := Unit) (Name := ℕ) (U := UR sig nD τ) (Lvl := ℕ) (Val := Elt F) spec3 c := by
  dsimp only [dat3]

/-- Entering the region, the scoped rest is the invariant before the first point. -/
theorem Φ_in3 (c : Dev nD) :
    (Pipeline.scopedRest (Ix := Unit) (Name := ℕ) (U := UR sig nD τ) (Lvl := ℕ) (Val := Elt F) spec3 c) ⊢ (dat3 V c).Φ 0 := by
  rw [Φ_eq3]

/-- Leaving it, the invariant after the last point is the scoped rest. -/
theorem Φ_out3 (c : Dev nD) :
    (dat3 V c).Φ (Fin.last cfg3.N) ⊢ (Pipeline.scopedRest (Ix := Unit) (Name := ℕ) (U := UR sig nD τ) (Lvl := ℕ) (Val := Elt F) spec3 c) := by
  rw [Φ_eq3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`: the invariant, what the core owes, and the three current staging
    buffers, one by one. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : Pipeline.BodyObligation (dat3 (F := F) V c) (defs₀ (F := F)) Variants.none () Set.univ := fun t => by
  rw [bigSep_W3, bigSep_W3]
  exact sound_body3 V c t

end Cert.Kernel.Hand

end
-- ==== Proof.BitsRegStats4Body.lean ====
/-
  Region 4 (the aggregation-plus-bias-and-statistics kernel), the body's runs.  The kernel visits 25 row blocks; it
  keeps two 1×256 accumulators across the points.  Three control cases: the first point zeroes the accumulators
  before adding; a middle point only adds; the last point adds and copies the accumulators to the two outputs.
  Each case's triple states what every buffer the case stores into ends holding, as the payload of its covering store.
-/
import proofs.«142371_j48498770706497_2_alg».proof.Proof.Gen.Kernel.Launch
import proofs.«142371_j48498770706497_2_alg».proof.Proof.Gen.Kernel.Skeleton
import proofs.«142371_j48498770706497_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (zero the two accumulators) is taken where the grid coordinate is zero. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The second branch (copy the accumulators out) is taken at the last point. -/
abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

/-- The two zero offsets, however spelt. -/
private theorem hz2 : (![0, 0] : Fin 2 → Nat) = fun _ => 0 := funext fun a => by fin_cases a <;> rfl

set_option maxHeartbeats 2000000 in
/-- THE FIRST point (the accumulators zeroed, then added to): from the four input blocks, the output block and the two accumulators at anything, the body leaves the block T = agg + xw·d2 + b in the output and the accumulators at zero + the column sums of T, zero + the column sums of T·T. -/
theorem kernelRun4_A (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond4_0 i) (hc1 : ¬cond4_1 i)
    (x0 x1 : Vec F S2000x256 .f32) (x2 : Vec F S2000x1 .f32) (x3 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k4_pay3 x0 x1 x2 x3) ∗ owns (c : Thread nD τ) arg8 fullShare (k4_pay4 x0 x1 x2 x3 k4_pay1) ∗ owns (c : Thread nD τ) arg9 fullShare (k4_pay5 x0 x1 x2 x3 k4_pay2)) -∗ K ⟨⟩))
      ⊢ wp frame (wpE (defs₀ (F := F)) Variants.none c none) E (cc4__agg_bias_stats_kernel i arg1 harg1 arg2 harg2 arg3 harg3 arg4 harg4 arg5 harg5 arg6 harg6 arg7 harg7 arg8 harg8 arg9 harg9) K := by
  sl_unfold [cc4__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- A MIDDLE point (neither branch taken): from the four input blocks, the output block at anything and the two accumulators at xs0, xs1, the body leaves the block T in the output and the accumulators at xs0 + the column sums of T, xs1 + the column sums of T·T (the payloads of its three stores, each one covering store). -/
theorem kernelRun4_B (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond4_0 i) (hc1 : ¬cond4_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k4_pay3 x0 x1 x2 x3) ∗ owns (c : Thread nD τ) arg8 fullShare (k4_pay4 x0 x1 x2 x3 xs0) ∗ owns (c : Thread nD τ) arg9 fullShare (k4_pay5 x0 x1 x2 x3 xs1)) -∗ K ⟨⟩))
      ⊢ wp frame (wpE (defs₀ (F := F)) Variants.none c none) E (cc4__agg_bias_stats_kernel i arg1 harg1 arg2 harg2 arg3 harg3 arg4 harg4 arg5 harg5 arg6 harg6 arg7 harg7 arg8 harg8 arg9 harg9) K := by
  sl_unfold [cc4__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- THE LAST point (the accumulators added to, then copied out): as a middle point, and the two sums' output buffers, at anything before, end at the accumulators' final contents. -/
theorem kernelRun4_C (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond4_0 i) (hc1 : cond4_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k4_pay3 x0 x1 x2 x3) ∗ owns (c : Thread nD τ) arg6 fullShare (k4_pay4 x0 x1 x2 x3 xs0) ∗ owns (c : Thread nD τ) arg7 fullShare (k4_pay5 x0 x1 x2 x3 xs1) ∗ owns (c : Thread nD τ) arg8 fullShare (k4_pay4 x0 x1 x2 x3 xs0) ∗ owns (c : Thread nD τ) arg9 fullShare (k4_pay5 x0 x1 x2 x3 xs1)) -∗ K ⟨⟩))
      ⊢ wp frame (wpE (defs₀ (F := F)) Variants.none c none) E (cc4__agg_bias_stats_kernel i arg1 harg1 arg2 harg2 arg3 harg3 arg4 harg4 arg5 harg5 arg6 harg6 arg7 harg7 arg8 harg8 arg9 harg9) K := by
  sl_unfold [cc4__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H6]
  · iexists _; isplitr
    swap; · iexact H6
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H7]
  · iexists _; isplitr
    swap; · iexact H7
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

end Cert.Kernel.Hand

end
-- ==== Proof.BitsRegStats4.lean ====
/-
  Region 4 (the aggregation-plus-bias-and-statistics kernel) as a pipeline: its proof data, the invariant carrying the
  two accumulators, and the body obligation.  T = agg + xw·d2 + b is stored block by block; the accumulators hold,
  after n points, zero plus the column sums of T (of T·T) over the first n row blocks, added block by block; the two
  sums' outputs are stored at the last point only and idle before it.
-/
import proofs.«142371_j48498770706497_2_alg».proof.Proof.BitsRegStats4Body
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the block of T, the two running column sums -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of T = agg + xw·d2 + b the body stores at point t. -/
def tblk4 (c : Dev nD) (t : Fin cfg4.N) : Vec F S2000x256 .f32 := k4_pay3 (iblk4 V c 0 t) (iblk4 V c 1 t) (iblk4 V c 2 t) (iblk4 V c 3 t)

/-- The two accumulators after n points: zero, then at each point the block's column sums of T (of T·T) added. -/
def acc4 (c : Dev nD) : (n : ℕ) → n ≤ cfg4.N → Vec F S1x256 .f32 × Vec F S1x256 .f32
  | 0, _ => (k4_pay1, k4_pay2)
  | n + 1, hn => (k4_pay4 (iblk4 V c 0 ⟨n, Nat.lt_of_succ_le hn⟩) (iblk4 V c 1 ⟨n, Nat.lt_of_succ_le hn⟩) (iblk4 V c 2 ⟨n, Nat.lt_of_succ_le hn⟩) (iblk4 V c 3 ⟨n, Nat.lt_of_succ_le hn⟩) (acc4 c n (Nat.le_of_succ_le hn)).1,
      k4_pay5 (iblk4 V c 0 ⟨n, Nat.lt_of_succ_le hn⟩) (iblk4 V c 1 ⟨n, Nat.lt_of_succ_le hn⟩) (iblk4 V c 2 ⟨n, Nat.lt_of_succ_le hn⟩) (iblk4 V c 3 ⟨n, Nat.lt_of_succ_le hn⟩) (acc4 c n (Nat.le_of_succ_le hn)).2)

theorem acc4_zero (c : Dev nD) (n : ℕ) (h : n ≤ cfg4.N) (hz : n = 0) : acc4 V c n h = (k4_pay1, k4_pay2) := by
  subst hz; rfl

theorem acc4_succ (c : Dev nD) (t : Fin cfg4.N) :
    acc4 V c (t.val + 1) t.isLt = (k4_pay4 (iblk4 V c 0 t) (iblk4 V c 1 t) (iblk4 V c 2 t) (iblk4 V c 3 t) (acc4 V c t.val (Nat.le_of_lt t.isLt)).1,
      k4_pay5 (iblk4 V c 0 t) (iblk4 V c 1 t) (iblk4 V c 2 t) (iblk4 V c 3 t) (acc4 V c t.val (Nat.le_of_lt t.isLt)).2) := rfl

/-! ## The invariant: the two scratch accumulators at their running sums, beside the rest of the scoped buffers -/

abbrev scM4_0 : Memref sig .tc .vmem S1x256 .f32 := Memref.whole cc4_scratch0
abbrev scM4_1 : Memref sig .tc .vmem S1x256 .f32 := Memref.whole cc4_scratch1

/-- Before the first point the scoped rest as the region finds it (the accumulators at anything: the first point
    zeroes them); after n + 1 points the accumulators at acc4 (n + 1). -/
def Phi4 (c : Dev nD) : (n : ℕ) → n ≤ cfg4.N → sProp 𝕄
  | 0, _ => (Pipeline.scopedRest (Ix := Unit) (Name := ℕ) (U := UR sig nD τ) (Lvl := ℕ) (Val := Elt F) spec4 c)
  | n + 1, hn => iprop(iprop(owns (c : Thread nD τ) scM4_0 fullShare (acc4 V c (n + 1) hn).1 ∗ owns (c : Thread nD τ) scM4_1 fullShare (acc4 V c (n + 1) hn).2)
      ∗ (Pipeline.scopedRestBut (Ix := Unit) (Name := ℕ) (U := UR sig nD τ) (Lvl := ℕ) (Val := Elt F) spec4 c [cc4_scratch0, cc4_scratch1]))

theorem Phi4_zero (c : Dev nD) (n : ℕ) (h : n ≤ cfg4.N) (hz : n = 0) : Phi4 V c n h = (Pipeline.scopedRest (Ix := Unit) (Name := ℕ) (U := UR sig nD τ) (Lvl := ℕ) (Val := Elt F) spec4 c) := by
  subst hz; rfl

theorem Phi4_pos (c : Dev nD) (n : ℕ) (h : n ≤ cfg4.N) (hz : n ≠ 0) :
    Phi4 V c n h = iprop(iprop(owns (c : Thread nD τ) scM4_0 fullShare (acc4 V c n h).1 ∗ owns (c : Thread nD τ) scM4_1 fullShare (acc4 V c n h).2)
      ∗ (Pipeline.scopedRestBut (Ix := Unit) (Name := ℕ) (U := UR sig nD τ) (Lvl := ℕ) (Val := Elt F) spec4 c [cc4_scratch0, cc4_scratch1])) := by
  cases n with
  | zero => exact absurd rfl hz
  | succ n => rfl

/-- The scoped rest with the two accumulators as memrefs owned at some contents. -/
theorem scopedRest4_owns (c : Dev nD) :
    ((Pipeline.scopedRest (Ix := Unit) (Name := ℕ) (U := UR sig nD τ) (Lvl := ℕ) (Val := Elt F) spec4 c) : sProp 𝕄)
      = iprop(iprop((∃ d, owns (c : Thread nD τ) scM4_0 fullShare d) ∗ (∃ d, owns (c : Thread nD τ) scM4_1 fullShare d)) ∗ (Pipeline.scopedRestBut (Ix := Unit) (Name := ℕ) (U := UR sig nD τ) (Lvl := ℕ) (Val := Elt F) spec4 c [cc4_scratch0, cc4_scratch1])) := by
  rw [scopedRest4_split]; simp only [scM4_0, scM4_1, owns_whole]; rfl

/-! ## The proof data -/

/-- The proof data of region 4 on core c: the arrays as the region finds them; after the body at point t each input's
    buffer at its block, the first output's at the block of T, the two sums' outputs at the accumulators after t + 1
    points (consulted at the last point only: idle before); the invariant above; nothing owed; full shares. -/
def dat4 (c : Dev nD) : Pipeline.Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => tblk4 V c t
    | ⟨5, _⟩ => (acc4 V c (t.val + 1) t.isLt).1
    | ⟨6, _⟩ => (acc4 V c (t.val + 1) t.isLt).2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by dsimp only [dat4]
theorem owed_eq4 (c : Dev nD) : ∀ x, (dat4 V c).owed x = 0 := fun _ => by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = tblk4 V c t := by dsimp only [dat4]
theorem after4_5 (c : Dev nD) (t : Fin cfg4.N) : (dat4 V c).after 5 t = (acc4 V c (t.val + 1) t.isLt).1 := by dsimp only [dat4]
theorem after4_6 (c : Dev nD) (t : Fin cfg4.N) : (dat4 V c).after 6 t = (acc4 V c (t.val + 1) t.isLt).2 := by dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

/-- What the region is handed is the invariant before the first point. -/
theorem Φ_in4 (c : Dev nD) : (Pipeline.scopedRest (Ix := Unit) (Name := ℕ) (U := UR sig nD τ) (Lvl := ℕ) (Val := Elt F) spec4 c) ⊢ (dat4 V c).Φ 0 := by
  rw [show (dat4 V c).Φ 0 = Phi4 V c 0 (Nat.zero_le _) from rfl, Phi4_zero V c 0 _ rfl]
  try exact Idealize.SL.BI.Entails.refl _

/-- After the last point the invariant gives the scoped rest back: the accumulators' contents forgotten. -/
theorem Φ_out4 (c : Dev nD) : (dat4 V c).Φ (Fin.last cfg4.N) ⊢ (Pipeline.scopedRest (Ix := Unit) (Name := ℕ) (U := UR sig nD τ) (Lvl := ℕ) (Val := Elt F) spec4 c) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 25 := N_4; omega), scopedRest4_owns]
  iintro ⟨⟨HS0, HS1⟩, HR⟩
  isplitl [HS0 HS1]
  · isplitl [HS0]
    · iexists _; iexact HS0
    iexists _; iexact HS1
  iexact HR

/-! ## What each window's staging buffer holds when the body runs -/

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

/-! ## The body obligation -/

abbrev ms4_0 (t : Fin cfg4.N) := win4_0.stage (cfg4.slots t 0)
abbrev hs4_0 (t : Fin cfg4.N) : (ms4_0 t).IsWhole := hstage4_0 ((cfg4.slots t 0).cast nbuf4_0)
abbrev ms4_1 (t : Fin cfg4.N) := win4_1.stage (cfg4.slots t 1)
abbrev hs4_1 (t : Fin cfg4.N) : (ms4_1 t).IsWhole := hstage4_1 ((cfg4.slots t 1).cast nbuf4_1)
abbrev ms4_2 (t : Fin cfg4.N) := win4_2.stage (cfg4.slots t 2)
abbrev hs4_2 (t : Fin cfg4.N) : (ms4_2 t).IsWhole := hstage4_2 ((cfg4.slots t 2).cast nbuf4_2)
abbrev ms4_3 (t : Fin cfg4.N) := win4_3.stage (cfg4.slots t 3)
abbrev hs4_3 (t : Fin cfg4.N) : (ms4_3 t).IsWhole := hstage4_3 ((cfg4.slots t 3).cast nbuf4_3)
abbrev ms4_4 (t : Fin cfg4.N) := win4_4.stage (cfg4.slots t 4)
abbrev hs4_4 (t : Fin cfg4.N) : (ms4_4 t).IsWhole := hstage4_4 ((cfg4.slots t 4).cast nbuf4_4)
abbrev ms4_5 (t : Fin cfg4.N) := win4_5.stage (cfg4.slots t 5)
abbrev hs4_5 (t : Fin cfg4.N) : (ms4_5 t).IsWhole := hstage4_5 ((cfg4.slots t 5).cast nbuf4_5)
abbrev ms4_6 (t : Fin cfg4.N) := win4_6.stage (cfg4.slots t 6)
abbrev hs4_6 (t : Fin cfg4.N) : (ms4_6 t).IsWhole := hstage4_6 ((cfg4.slots t 6).cast nbuf4_6)

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

theorem acc4_succ_fst (c : Dev nD) (t : Fin cfg4.N) :
    (acc4 V c (t.val + 1) t.isLt).1 = k4_pay4 (iblk4 V c 0 t) (iblk4 V c 1 t) (iblk4 V c 2 t) (iblk4 V c 3 t) (acc4 V c t.val (Nat.le_of_lt t.isLt)).1 := rfl
theorem acc4_succ_snd (c : Dev nD) (t : Fin cfg4.N) :
    (acc4 V c (t.val + 1) t.isLt).2 = k4_pay5 (iblk4 V c 0 t) (iblk4 V c 1 t) (iblk4 V c 2 t) (iblk4 V c 3 t) (acc4 V c t.val (Nat.le_of_lt t.isLt)).2 := rfl
theorem acc4_zero_fst (c : Dev nD) (n : ℕ) (h : n ≤ cfg4.N) (hz : n = 0) : (acc4 V c n h).1 = k4_pay1 := by subst hz; rfl
theorem acc4_zero_snd (c : Dev nD) (n : ℕ) (h : n ≤ cfg4.N) (hz : n = 0) : (acc4 V c n h).2 = k4_pay2 := by subst hz; rfl

set_option maxHeartbeats 4000000 in
/-- The body at any point: the inputs' buffers hold their blocks; the point is the first, a middle one or the last;
    the invariant hands the body the accumulators at what the points before left (at anything at the first point) and
    takes them back at this point's sums; the two sums' output buffers pass through untouched except at the last point,
    where they end at the final sums; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_pos V c _ _ (Nat.succ_ne_zero _), acc4_succ_fst, acc4_succ_snd]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  unfold tblk4
  have hN : t.val < 25 := lt_of_lt_of_eq t.isLt (show cfg4.N = 25 from N_4)
  by_cases h1 : t.val = 24
  · have hc1 : cond4_1 (grid4.coords t) := (hcond4_1 t).mpr h1
    have hc0 : ¬cond4_0 (grid4.coords t) := fun h => by have := (hcond4_0 t).mp h; omega
    rw [show (dat4 V c).leavesExact 5 t = owns (c : Thread nD τ) (ms4_5 t) fullShare ((dat4 V c).after 5 t) from by
      unfold Dat.leavesExact; rw [liveAt4_5 t hc1], after4_5, acc4_succ_fst]
    rw [show (dat4 V c).leavesExact 6 t = owns (c : Thread nD τ) (ms4_6 t) fullShare ((dat4 V c).after 6 t) from by
      unfold Dat.leavesExact; rw [liveAt4_6 t hc1], after4_6, acc4_succ_snd]
    rw [Phi4_castSucc, Phi4_pos V c _ _ (by omega)]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
    iapply (kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) hc0 hc1 (iblk4 V c 0 t) (iblk4 V c 1 t) (iblk4 V c 2 t) (iblk4 V c 3 t) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬cond4_1 (grid4.coords t) := fun h => h1 ((hcond4_1 t).mp h)
    rw [Dat.leavesExact_idle (dat4 V c) 5 t (idleAt4_5 t hc1) (noFlush4_5 t hc1), Dat.leavesExact_idle (dat4 V c) 6 t (idleAt4_6 t hc1) (noFlush4_6 t hc1)]
    by_cases h0 : t.val = 0
    · have hc0 : cond4_0 (grid4.coords t) := (hcond4_0 t).mpr h0
      rw [Phi4_castSucc, Phi4_zero V c _ _ h0, scopedRest4_owns, acc4_zero_fst V c _ _ h0, acc4_zero_snd V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) hc0 hc1 (iblk4 V c 0 t) (iblk4 V c 1 t) (iblk4 V c 2 t) (iblk4 V c 3 t) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond4_0 (grid4.coords t) := fun h => h0 ((hcond4_0 t).mp h)
      rw [Phi4_castSucc, Phi4_pos V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) hc0 hc1 (iblk4 V c 0 t) (iblk4 V c 1 t) (iblk4 V c 2 t) (iblk4 V c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation4 (c : Dev nD) : Pipeline.BodyObligation (dat4 V c) (defs₀ (F := F)) Variants.none () Set.univ := fun t => by
  rw [bigSep_W4, bigSep_W4]
  exact sound_body4 V c t

end Cert.Kernel.Hand

end
-- ==== Proof.BitsRegBnRes5.lean ====
/-
  Region 5 of @main: the batch-normalisation kernel with given statistics followed by the rectifier, with the
  residual block added after the rectifier (custom_call 5, pipeline 5), a grid of 25 points over row-blocks of
  2000 rows of a 50000×256 array.

  Stated at a PARAMETER `V` — what every unscoped buffer of the TensorCore holds when the region is entered —:
  the windows' blocks, what the body leaves in the output's staging buffer as a function of the input blocks
  (its one store as a canonical piece over the skeleton's payload), the body's triple, the proof data, and the
  body obligation. The invariant between points is the scoped rest, carried through unread.
-/
import proofs.«142371_j48498770706497_2_alg».proof.Proof.Gen.Kernel.Launch
import proofs.«142371_j48498770706497_2_alg».proof.Proof.Gen.Kernel.Skeleton
import proofs.«142371_j48498770706497_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every unscoped buffer of the TensorCore holds when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: an unfetched
    window's block index has not moved, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: an unfetched
    window's block index has not moved, and the body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: an unfetched
    window's block index has not moved, and the body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not: an unfetched
    window's block index has not moved, and the body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not: an unfetched
    window's block index has not moved, and the body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not: an unfetched
    window's block index has not moved, and the body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: the whole block, the whole row of parameters -/

abbrev rBlk5 : Rect S2000x256 := Rect.unit (s := S2000x256) ![0, 0] S2000x256.size inb_S2000x256_S2000x256_0_0
abbrev rRow5 : Rect S1x256 := Rect.unit (s := S1x256) ![0, 0] S1x256.size inb_S1x256_S1x256_0_0

/-- The literal offsets of both rectangles are zero on every axis. -/
theorem hz5 : (![0, 0] : Fin 2 → Nat) = fun _ => 0 := funext fun a => by fin_cases a <;> rfl

/-! ## What the body leaves in the output window's buffer -/

/-- Window 6's staging buffer after the body, from the input windows' blocks `x0` (the aggregate), `x1` (the
    residual), `x2` (scale), `x3` (shift), `x4` (mean), `x5` (variance): its one store, over the whole block, of
    the normalised and rectified block plus the residual block. -/
def out5_6 (x0 x1 : Vec F S2000x256 .f32) (x2 x3 x4 x5 : Vec F S1x256 .f32) : Vec F S2000x256 .f32 :=
  View.canon [⟨rBlk5, k5_pay1 (View.ld x0 rBlk5) (View.ld x2 rRow5) (View.ld x4 rRow5) (View.ld x5 rRow5) (View.ld x3 rRow5) (View.ld x1 rBlk5)⟩]

/-- The one store covers the buffer: its rectangle is the whole block. -/
theorem cover5_6 (p0 : Vec F S2000x256 .f32) (y : S2000x256.Idx) :
    ∃ pc ∈ ([⟨rBlk5, p0⟩] : List (View.Piece (Elt F) S2000x256 .f32)), y ∈ pc.1.set :=
  ⟨_, List.mem_singleton_self _, View.mem_set_unit_zero hz5 inb_S2000x256_S2000x256_0_0 y⟩

/-! ## The body's triple -/

set_option maxHeartbeats 1000000 in
/-- The kernel body on whole staging memrefs, the inputs' at read contents `x0 … x5` and the output's at anything,
    runs to the continuation holding the inputs' as they were and the output's at `out5_6` of them. -/
theorem sound_kernel5 (c : Dev nD) (E : Set ℕ) (i : grid5.Coords)
    (arg1 : Memref sig .tc .vmem S2000x256 .f32) (harg1 : arg1.IsWhole) (arg2 : Memref sig .tc .vmem S2000x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S2000x256 .f32) (harg7 : arg7.IsWhole)
    (x0 x1 : Vec F S2000x256 .f32) (x2 x3 x4 x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E
          (cc5__bn_relu_residual_kernel i arg1 harg1 arg2 harg2 arg3 harg3 arg4 harg4 arg5 harg5 arg6 harg6 arg7 harg7) K := by
  simp only [cc5__bn_relu_residual_kernel_eq_skeleton]; unfold cc5__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The invariant between the region's points: the scoped buffers the pipeline does not stage, held at something. -/
abbrev Φ5 (c : Dev nD) : sProp 𝕄 :=
  Pipeline.scopedRest (Ix := Unit) (Name := ℕ) (U := UR sig nD τ) (Lvl := ℕ) (Val := Elt F) spec5 c

/-- The proof data of pipeline 5 on core `c`: the arrays as the region finds them; after the body at point `t` each
    input's buffer at its block and the output's at `out5_6` of the input blocks; the invariant the scoped rest;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Φ5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- Every array is held whole. -/
theorem q_eq5 (c : Dev nD) (w : Fin cfg5.W) : (dat5 V c).q w = fullShare := by
  dsimp only [dat5]

/-- The core owes nothing at any point. -/
theorem owed_eq5 (c : Dev nD) : ∀ x, (dat5 V c).owed x = 0 := fun _ => by
  dsimp only [dat5]

/-- The invariant at the first point is the scoped rest the region is entered with, -/
theorem Φ_in5 (c : Dev nD) :
    (Pipeline.scopedRest (Ix := Unit) (Name := ℕ) (U := UR sig nD τ) (Lvl := ℕ) (Val := Elt F) spec5 c) ⊢ (dat5 V c).Φ 0 := by
  dsimp only [dat5]; exact .rfl

/-- and at the last point it is given back. -/
theorem Φ_out5 (c : Dev nD) :
    (dat5 V c).Φ (Fin.last cfg5.N) ⊢ (Pipeline.scopedRest (Ix := Unit) (Name := ℕ) (U := UR sig nD τ) (Lvl := ℕ) (Val := Elt F) spec5 c) := by
  dsimp only [dat5]; exact .rfl

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant and
    the core's tallies pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.BitsRegMatmul6.lean ====
/-
  The third matrix product of the program (pipeline 6 of @main), as a region entered from any contents `V` of the
  unscoped buffers.

  The kernel runs on a grid of 25 points over the rows. At point t it is handed three staging buffers: rows
  2000·t … 2000·t + 1999 of x (2000 × 256), all of w (256 × 256, fetched once, its block index never moves),
  and the result's block (2000 × 256), which is written back at every point. The body loads the two input
  blocks whole, and stores into the result's buffer — whole, through one rectangle that covers it — the product
  of the two blocks, each first truncated to bf16, accumulated from zero.

  This module gives: what the body leaves in the result's buffer as a function of the input blocks; the body's
  triple; the proof data of the pipeline (arrays at `V`, nothing owed, full shares, the invariant the scoped
  buffers the pipeline does not stage, carried through untouched); the two ends of that invariant; and the body
  obligation at every point. Nothing here depends on the float model.
-/
import proofs.«142371_j48498770706497_2_alg».proof.Proof.Gen.Kernel.Launch
import proofs.«142371_j48498770706497_2_alg».proof.Proof.Gen.Kernel.Skeleton
import proofs.«142371_j48498770706497_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership in a rectangle of these extents is looked at once per coordinate of the long axis
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The staging buffer of x holds x's block of the point whenever the body runs, for any proof data whose array
    is `V`'s and whose body leaves the block in place: the window is an input, never idle and not cut, so what it
    holds is what a fetch at the point puts there, fetched at the point or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The same for w, which is fetched at the first point only: its block index is the same at every point, and the
    body leaves the buffer as it found it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each staging buffer whole, through the rectangle at offset zero of its own extents -/

abbrev rx6 : Rect S2000x256 := Rect.unit (s := S2000x256) ![0, 0] S2000x256.size inb_S2000x256_S2000x256_0_0
abbrev rw6 : Rect S256x256 := Rect.unit (s := S256x256) ![0, 0] S256x256.size inb_S256x256_S256x256_0_0
abbrev ro6 : Rect S2000x256 := Rect.unit (s := S2000x256) ![0, 0] S2000x256.size inb_S2000x256_S2000x256_0_0

/-- The two offsets are zero. -/
theorem zeros6 : (![0, 0] : Fin 2 → Nat) = fun _ => 0 := funext fun a => by fin_cases a <;> rfl

/-! ## What the body leaves in the result's buffer -/

/-- The result's staging buffer after the body, from the two input blocks: its one store, a piece over the whole
    buffer whose payload is the product of the loaded blocks. -/
def out6_2 (x0 : Vec F S2000x256 .f32) (x1 : Vec F S256x256 .f32) : Vec F S2000x256 .f32 :=
  View.canon [⟨ro6, k6_pay1 (View.ld x0 rx6) (View.ld x1 rw6)⟩]

/-- The store's rectangle is the whole buffer, so it covers it. -/
theorem cover6_2 (p0 : Vec F S2000x256 .f32) (y : S2000x256.Idx) :
    ∃ pc ∈ ([⟨ro6, p0⟩] : List (View.Piece (Elt F) S2000x256 .f32)), y ∈ pc.1.set :=
  ⟨_, List.mem_singleton_self _, View.mem_set_unit_zero (S := S2000x256) zeros6 inb_S2000x256_S2000x256_0_0 y⟩

/-- One covering store of whole loads: the buffer is left at the payload of the blocks themselves. -/
theorem out6_2_eq (x0 : Vec F S2000x256 .f32) (x1 : Vec F S256x256 .f32) : out6_2 x0 x1 = k6_pay1 x0 x1 := by
  unfold out6_2
  rw [View.canon_unit_zero (S := S2000x256) zeros6]
  rw [View.ld_unit_zero (S := S2000x256) zeros6, View.ld_unit_zero (S := S256x256) zeros6]

/-! ## The body's triple -/

set_option maxHeartbeats 1000000 in
/-- The kernel body on whole staging memrefs, the inputs' at contents `x0`, `x1` and the result's at anything, runs
    to its return holding the inputs' as they were and the result's at `out6_2 x0 x1`: two loads, a load of the
    result's buffer whose value is not used, and the covering store. -/
theorem sound_kernel6 (c : Dev nD) (E : Set ℕ) (i : grid6.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`, entered at `V`: the three arrays as the region finds them; after the
    body at point `t` each input's buffer at its block and the result's at `out6_2` of the two blocks; the invariant
    the scoped buffers the pipeline does not stage, held at something, the same between any two points; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.scopedRest (Ix := Unit) (Name := ℕ) (U := UR sig nD τ) (Lvl := ℕ) (Val := Elt F) spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- Every input array is held whole. -/
theorem q_eq6 (c : Dev nD) (w : Fin cfg6.W) : (dat6 V c).q w = fullShare := by
  dsimp only [dat6]

/-- The core owes nothing between any two points. -/
theorem owed_eq6 (c : Dev nD) : ∀ x, (dat6 V c).owed x = 0 := fun _ => by
  dsimp only [dat6]

/-- The invariant between any two points is the scoped rest. -/
theorem Φ_eq6 (c : Dev nD) (x : Fin (cfg6.N + 1)) :
    (dat6 V c).Φ x = Pipeline.scopedRest (Ix := Unit) (Name := ℕ) (U := UR sig nD τ) (Lvl := ℕ) (Val := Elt F) spec6 c := by
  dsimp only [dat6]

/-- Entering the region, the scoped rest is the invariant before the first point. -/
theorem Φ_in6 (c : Dev nD) :
    (Pipeline.scopedRest (Ix := Unit) (Name := ℕ) (U := UR sig nD τ) (Lvl := ℕ) (Val := Elt F) spec6 c) ⊢ (dat6 V c).Φ 0 := by
  rw [Φ_eq6]

/-- Leaving it, the invariant after the last point is the scoped rest. -/
theorem Φ_out6 (c : Dev nD) :
    (dat6 V c).Φ (Fin.last cfg6.N) ⊢ (Pipeline.scopedRest (Ix := Unit) (Name := ℕ) (U := UR sig nD τ) (Lvl := ℕ) (Val := Elt F) spec6 c) := by
  rw [Φ_eq6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`: the invariant, what the core owes, and the three current staging
    buffers, one by one. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : Pipeline.BodyObligation (dat6 (F := F) V c) (defs₀ (F := F)) Variants.none () Set.univ := fun t => by
  rw [bigSep_W6, bigSep_W6]
  exact sound_body6 V c t

end Cert.Kernel.Hand

end
-- ==== Proof.BitsRegStats7Body.lean ====
/-
  Region 7 (the aggregation-plus-bias-and-statistics kernel), the body's runs.  The kernel visits 25 row blocks; it
  keeps two 1×256 accumulators across the points.  Three control cases: the first point zeroes the accumulators
  before adding; a middle point only adds; the last point adds and copies the accumulators to the two outputs.
  Each case's triple states what every buffer the case stores into ends holding, as the payload of its covering store.
-/
import proofs.«142371_j48498770706497_2_alg».proof.Proof.Gen.Kernel.Launch
import proofs.«142371_j48498770706497_2_alg».proof.Proof.Gen.Kernel.Skeleton
import proofs.«142371_j48498770706497_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (zero the two accumulators) is taken where the grid coordinate is zero. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)
/-- The second branch (copy the accumulators out) is taken at the last point. -/
abbrev cond7_1 (i : grid7.Coords) : Prop := k7_cond2 i = 1#1
theorem hcond7_1 : ∀ t : Fin cfg7.N, cond7_1 (grid7.coords t) ↔ t.val = 24 :=
  (by decide +kernel : ∀ t : Fin grid7.N, cond7_1 (grid7.coords t) ↔ t.val = 24)

/-- The two zero offsets, however spelt. -/
private theorem hz2 : (![0, 0] : Fin 2 → Nat) = fun _ => 0 := funext fun a => by fin_cases a <;> rfl

set_option maxHeartbeats 2000000 in
/-- THE FIRST point (the accumulators zeroed, then added to): from the four input blocks, the output block and the two accumulators at anything, the body leaves the block T = agg + xw·d2 + b in the output and the accumulators at zero + the column sums of T, zero + the column sums of T·T. -/
theorem kernelRun7_A (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond7_0 i) (hc1 : ¬cond7_1 i)
    (x0 x1 : Vec F S2000x256 .f32) (x2 : Vec F S2000x1 .f32) (x3 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k7_pay3 x0 x1 x2 x3) ∗ owns (c : Thread nD τ) arg8 fullShare (k7_pay4 x0 x1 x2 x3 k7_pay1) ∗ owns (c : Thread nD τ) arg9 fullShare (k7_pay5 x0 x1 x2 x3 k7_pay2)) -∗ K ⟨⟩))
      ⊢ wp frame (wpE (defs₀ (F := F)) Variants.none c none) E (cc7__agg_bias_stats_kernel i arg1 harg1 arg2 harg2 arg3 harg3 arg4 harg4 arg5 harg5 arg6 harg6 arg7 harg7 arg8 harg8 arg9 harg9) K := by
  sl_unfold [cc7__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- A MIDDLE point (neither branch taken): from the four input blocks, the output block at anything and the two accumulators at xs0, xs1, the body leaves the block T in the output and the accumulators at xs0 + the column sums of T, xs1 + the column sums of T·T (the payloads of its three stores, each one covering store). -/
theorem kernelRun7_B (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : ¬cond7_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k7_pay3 x0 x1 x2 x3) ∗ owns (c : Thread nD τ) arg8 fullShare (k7_pay4 x0 x1 x2 x3 xs0) ∗ owns (c : Thread nD τ) arg9 fullShare (k7_pay5 x0 x1 x2 x3 xs1)) -∗ K ⟨⟩))
      ⊢ wp frame (wpE (defs₀ (F := F)) Variants.none c none) E (cc7__agg_bias_stats_kernel i arg1 harg1 arg2 harg2 arg3 harg3 arg4 harg4 arg5 harg5 arg6 harg6 arg7 harg7 arg8 harg8 arg9 harg9) K := by
  sl_unfold [cc7__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- THE LAST point (the accumulators added to, then copied out): as a middle point, and the two sums' output buffers, at anything before, end at the accumulators' final contents. -/
theorem kernelRun7_C (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : cond7_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k7_pay3 x0 x1 x2 x3) ∗ owns (c : Thread nD τ) arg6 fullShare (k7_pay4 x0 x1 x2 x3 xs0) ∗ owns (c : Thread nD τ) arg7 fullShare (k7_pay5 x0 x1 x2 x3 xs1) ∗ owns (c : Thread nD τ) arg8 fullShare (k7_pay4 x0 x1 x2 x3 xs0) ∗ owns (c : Thread nD τ) arg9 fullShare (k7_pay5 x0 x1 x2 x3 xs1)) -∗ K ⟨⟩))
      ⊢ wp frame (wpE (defs₀ (F := F)) Variants.none c none) E (cc7__agg_bias_stats_kernel i arg1 harg1 arg2 harg2 arg3 harg3 arg4 harg4 arg5 harg5 arg6 harg6 arg7 harg7 arg8 harg8 arg9 harg9) K := by
  sl_unfold [cc7__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H6]
  · iexists _; isplitr
    swap; · iexact H6
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H7]
  · iexists _; isplitr
    swap; · iexact H7
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

end Cert.Kernel.Hand

end
-- ==== Proof.BitsRegStats7.lean ====
/-
  Region 7 (the aggregation-plus-bias-and-statistics kernel) as a pipeline: its proof data, the invariant carrying the
  two accumulators, and the body obligation.  T = agg + xw·d2 + b is stored block by block; the accumulators hold,
  after n points, zero plus the column sums of T (of T·T) over the first n row blocks, added block by block; the two
  sums' outputs are stored at the last point only and idle before it.
-/
import proofs.«142371_j48498770706497_2_alg».proof.Proof.BitsRegStats7Body
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the block of T, the two running column sums -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The block of T = agg + xw·d2 + b the body stores at point t. -/
def tblk7 (c : Dev nD) (t : Fin cfg7.N) : Vec F S2000x256 .f32 := k7_pay3 (iblk7 V c 0 t) (iblk7 V c 1 t) (iblk7 V c 2 t) (iblk7 V c 3 t)

/-- The two accumulators after n points: zero, then at each point the block's column sums of T (of T·T) added. -/
def acc7 (c : Dev nD) : (n : ℕ) → n ≤ cfg7.N → Vec F S1x256 .f32 × Vec F S1x256 .f32
  | 0, _ => (k7_pay1, k7_pay2)
  | n + 1, hn => (k7_pay4 (iblk7 V c 0 ⟨n, Nat.lt_of_succ_le hn⟩) (iblk7 V c 1 ⟨n, Nat.lt_of_succ_le hn⟩) (iblk7 V c 2 ⟨n, Nat.lt_of_succ_le hn⟩) (iblk7 V c 3 ⟨n, Nat.lt_of_succ_le hn⟩) (acc7 c n (Nat.le_of_succ_le hn)).1,
      k7_pay5 (iblk7 V c 0 ⟨n, Nat.lt_of_succ_le hn⟩) (iblk7 V c 1 ⟨n, Nat.lt_of_succ_le hn⟩) (iblk7 V c 2 ⟨n, Nat.lt_of_succ_le hn⟩) (iblk7 V c 3 ⟨n, Nat.lt_of_succ_le hn⟩) (acc7 c n (Nat.le_of_succ_le hn)).2)

theorem acc7_zero (c : Dev nD) (n : ℕ) (h : n ≤ cfg7.N) (hz : n = 0) : acc7 V c n h = (k7_pay1, k7_pay2) := by
  subst hz; rfl

theorem acc7_succ (c : Dev nD) (t : Fin cfg7.N) :
    acc7 V c (t.val + 1) t.isLt = (k7_pay4 (iblk7 V c 0 t) (iblk7 V c 1 t) (iblk7 V c 2 t) (iblk7 V c 3 t) (acc7 V c t.val (Nat.le_of_lt t.isLt)).1,
      k7_pay5 (iblk7 V c 0 t) (iblk7 V c 1 t) (iblk7 V c 2 t) (iblk7 V c 3 t) (acc7 V c t.val (Nat.le_of_lt t.isLt)).2) := rfl

/-! ## The invariant: the two scratch accumulators at their running sums, beside the rest of the scoped buffers -/

abbrev scM7_0 : Memref sig .tc .vmem S1x256 .f32 := Memref.whole cc7_scratch0
abbrev scM7_1 : Memref sig .tc .vmem S1x256 .f32 := Memref.whole cc7_scratch1

/-- Before the first point the scoped rest as the region finds it (the accumulators at anything: the first point
    zeroes them); after n + 1 points the accumulators at acc7 (n + 1). -/
def Phi7 (c : Dev nD) : (n : ℕ) → n ≤ cfg7.N → sProp 𝕄
  | 0, _ => (Pipeline.scopedRest (Ix := Unit) (Name := ℕ) (U := UR sig nD τ) (Lvl := ℕ) (Val := Elt F) spec7 c)
  | n + 1, hn => iprop(iprop(owns (c : Thread nD τ) scM7_0 fullShare (acc7 V c (n + 1) hn).1 ∗ owns (c : Thread nD τ) scM7_1 fullShare (acc7 V c (n + 1) hn).2)
      ∗ (Pipeline.scopedRestBut (Ix := Unit) (Name := ℕ) (U := UR sig nD τ) (Lvl := ℕ) (Val := Elt F) spec7 c [cc7_scratch0, cc7_scratch1]))

theorem Phi7_zero (c : Dev nD) (n : ℕ) (h : n ≤ cfg7.N) (hz : n = 0) : Phi7 V c n h = (Pipeline.scopedRest (Ix := Unit) (Name := ℕ) (U := UR sig nD τ) (Lvl := ℕ) (Val := Elt F) spec7 c) := by
  subst hz; rfl

theorem Phi7_pos (c : Dev nD) (n : ℕ) (h : n ≤ cfg7.N) (hz : n ≠ 0) :
    Phi7 V c n h = iprop(iprop(owns (c : Thread nD τ) scM7_0 fullShare (acc7 V c n h).1 ∗ owns (c : Thread nD τ) scM7_1 fullShare (acc7 V c n h).2)
      ∗ (Pipeline.scopedRestBut (Ix := Unit) (Name := ℕ) (U := UR sig nD τ) (Lvl := ℕ) (Val := Elt F) spec7 c [cc7_scratch0, cc7_scratch1])) := by
  cases n with
  | zero => exact absurd rfl hz
  | succ n => rfl

/-- The scoped rest with the two accumulators as memrefs owned at some contents. -/
theorem scopedRest7_owns (c : Dev nD) :
    ((Pipeline.scopedRest (Ix := Unit) (Name := ℕ) (U := UR sig nD τ) (Lvl := ℕ) (Val := Elt F) spec7 c) : sProp 𝕄)
      = iprop(iprop((∃ d, owns (c : Thread nD τ) scM7_0 fullShare d) ∗ (∃ d, owns (c : Thread nD τ) scM7_1 fullShare d)) ∗ (Pipeline.scopedRestBut (Ix := Unit) (Name := ℕ) (U := UR sig nD τ) (Lvl := ℕ) (Val := Elt F) spec7 c [cc7_scratch0, cc7_scratch1])) := by
  rw [scopedRest7_split]; simp only [scM7_0, scM7_1, owns_whole]; rfl

/-! ## The proof data -/

/-- The proof data of region 7 on core c: the arrays as the region finds them; after the body at point t each input's
    buffer at its block, the first output's at the block of T, the two sums' outputs at the accumulators after t + 1
    points (consulted at the last point only: idle before); the invariant above; nothing owed; full shares. -/
def dat7 (c : Dev nD) : Pipeline.Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => tblk7 V c t
    | ⟨5, _⟩ => (acc7 V c (t.val + 1) t.isLt).1
    | ⟨6, _⟩ => (acc7 V c (t.val + 1) t.isLt).2
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem q_eq7 (c : Dev nD) (w : Fin cfg7.W) : (dat7 V c).q w = fullShare := by dsimp only [dat7]
theorem owed_eq7 (c : Dev nD) : ∀ x, (dat7 V c).owed x = 0 := fun _ => by dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = tblk7 V c t := by dsimp only [dat7]
theorem after7_5 (c : Dev nD) (t : Fin cfg7.N) : (dat7 V c).after 5 t = (acc7 V c (t.val + 1) t.isLt).1 := by dsimp only [dat7]
theorem after7_6 (c : Dev nD) (t : Fin cfg7.N) : (dat7 V c).after 6 t = (acc7 V c (t.val + 1) t.isLt).2 := by dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

/-- What the region is handed is the invariant before the first point. -/
theorem Φ_in7 (c : Dev nD) : (Pipeline.scopedRest (Ix := Unit) (Name := ℕ) (U := UR sig nD τ) (Lvl := ℕ) (Val := Elt F) spec7 c) ⊢ (dat7 V c).Φ 0 := by
  rw [show (dat7 V c).Φ 0 = Phi7 V c 0 (Nat.zero_le _) from rfl, Phi7_zero V c 0 _ rfl]
  try exact Idealize.SL.BI.Entails.refl _

/-- After the last point the invariant gives the scoped rest back: the accumulators' contents forgotten. -/
theorem Φ_out7 (c : Dev nD) : (dat7 V c).Φ (Fin.last cfg7.N) ⊢ (Pipeline.scopedRest (Ix := Unit) (Name := ℕ) (U := UR sig nD τ) (Lvl := ℕ) (Val := Elt F) spec7 c) := by
  rw [show (dat7 V c).Φ (Fin.last cfg7.N) = Phi7 V c (Fin.last cfg7.N).val (Nat.le_of_lt_succ (Fin.last cfg7.N).isLt) from rfl,
    Phi7_pos V c _ _ (by rw [Fin.val_last]; have : cfg7.N = 25 := N_7; omega), scopedRest7_owns]
  iintro ⟨⟨HS0, HS1⟩, HR⟩
  isplitl [HS0 HS1]
  · isplitl [HS0]
    · iexists _; iexact HS0
    iexists _; iexact HS1
  iexact HR

/-! ## What each window's staging buffer holds when the body runs -/

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)

/-! ## Where the windows are idle -/

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem liveAt7_3 : ∀ t : Fin cfg7.N, cfg7.idle 3 (grid7.coords t) = false := fun _ => rfl
theorem liveAt7_4 : ∀ t : Fin cfg7.N, cfg7.idle 4 (grid7.coords t) = false := fun _ => rfl
theorem idleAt7_5 : ∀ t : Fin cfg7.N, ¬cond7_1 (grid7.coords t) → cfg7.idle 5 (grid7.coords t) = true := by decide +kernel
theorem noFlush7_5 : ∀ t : Fin cfg7.N, ¬cond7_1 (grid7.coords t) → (cfg7.win 5).flush t = false := by decide +kernel
theorem liveAt7_5 : ∀ t : Fin cfg7.N, cond7_1 (grid7.coords t) → cfg7.idle 5 (grid7.coords t) = false := by decide +kernel
theorem idleAt7_6 : ∀ t : Fin cfg7.N, ¬cond7_1 (grid7.coords t) → cfg7.idle 6 (grid7.coords t) = true := by decide +kernel
theorem noFlush7_6 : ∀ t : Fin cfg7.N, ¬cond7_1 (grid7.coords t) → (cfg7.win 6).flush t = false := by decide +kernel
theorem liveAt7_6 : ∀ t : Fin cfg7.N, cond7_1 (grid7.coords t) → cfg7.idle 6 (grid7.coords t) = false := by decide +kernel

/-! ## The body obligation -/

abbrev ms7_0 (t : Fin cfg7.N) := win7_0.stage (cfg7.slots t 0)
abbrev hs7_0 (t : Fin cfg7.N) : (ms7_0 t).IsWhole := hstage7_0 ((cfg7.slots t 0).cast nbuf7_0)
abbrev ms7_1 (t : Fin cfg7.N) := win7_1.stage (cfg7.slots t 1)
abbrev hs7_1 (t : Fin cfg7.N) : (ms7_1 t).IsWhole := hstage7_1 ((cfg7.slots t 1).cast nbuf7_1)
abbrev ms7_2 (t : Fin cfg7.N) := win7_2.stage (cfg7.slots t 2)
abbrev hs7_2 (t : Fin cfg7.N) : (ms7_2 t).IsWhole := hstage7_2 ((cfg7.slots t 2).cast nbuf7_2)
abbrev ms7_3 (t : Fin cfg7.N) := win7_3.stage (cfg7.slots t 3)
abbrev hs7_3 (t : Fin cfg7.N) : (ms7_3 t).IsWhole := hstage7_3 ((cfg7.slots t 3).cast nbuf7_3)
abbrev ms7_4 (t : Fin cfg7.N) := win7_4.stage (cfg7.slots t 4)
abbrev hs7_4 (t : Fin cfg7.N) : (ms7_4 t).IsWhole := hstage7_4 ((cfg7.slots t 4).cast nbuf7_4)
abbrev ms7_5 (t : Fin cfg7.N) := win7_5.stage (cfg7.slots t 5)
abbrev hs7_5 (t : Fin cfg7.N) : (ms7_5 t).IsWhole := hstage7_5 ((cfg7.slots t 5).cast nbuf7_5)
abbrev ms7_6 (t : Fin cfg7.N) := win7_6.stage (cfg7.slots t 6)
abbrev hs7_6 (t : Fin cfg7.N) : (ms7_6 t).IsWhole := hstage7_6 ((cfg7.slots t 6).cast nbuf7_6)

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

theorem acc7_succ_fst (c : Dev nD) (t : Fin cfg7.N) :
    (acc7 V c (t.val + 1) t.isLt).1 = k7_pay4 (iblk7 V c 0 t) (iblk7 V c 1 t) (iblk7 V c 2 t) (iblk7 V c 3 t) (acc7 V c t.val (Nat.le_of_lt t.isLt)).1 := rfl
theorem acc7_succ_snd (c : Dev nD) (t : Fin cfg7.N) :
    (acc7 V c (t.val + 1) t.isLt).2 = k7_pay5 (iblk7 V c 0 t) (iblk7 V c 1 t) (iblk7 V c 2 t) (iblk7 V c 3 t) (acc7 V c t.val (Nat.le_of_lt t.isLt)).2 := rfl
theorem acc7_zero_fst (c : Dev nD) (n : ℕ) (h : n ≤ cfg7.N) (hz : n = 0) : (acc7 V c n h).1 = k7_pay1 := by subst hz; rfl
theorem acc7_zero_snd (c : Dev nD) (n : ℕ) (h : n ≤ cfg7.N) (hz : n = 0) : (acc7 V c n h).2 = k7_pay2 := by subst hz; rfl

set_option maxHeartbeats 4000000 in
/-- The body at any point: the inputs' buffers hold their blocks; the point is the first, a middle one or the last;
    the invariant hands the body the accumulators at what the points before left (at anything at the first point) and
    takes them back at this point's sums; the two sums' output buffers pass through untouched except at the last point,
    where they end at the final sums; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = Phi7 V c (t.val + 1) t.isLt from rfl, Phi7_pos V c _ _ (Nat.succ_ne_zero _), acc7_succ_fst, acc7_succ_snd]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  unfold tblk7
  have hN : t.val < 25 := lt_of_lt_of_eq t.isLt (show cfg7.N = 25 from N_7)
  by_cases h1 : t.val = 24
  · have hc1 : cond7_1 (grid7.coords t) := (hcond7_1 t).mpr h1
    have hc0 : ¬cond7_0 (grid7.coords t) := fun h => by have := (hcond7_0 t).mp h; omega
    rw [show (dat7 V c).leavesExact 5 t = owns (c : Thread nD τ) (ms7_5 t) fullShare ((dat7 V c).after 5 t) from by
      unfold Dat.leavesExact; rw [liveAt7_5 t hc1], after7_5, acc7_succ_fst]
    rw [show (dat7 V c).leavesExact 6 t = owns (c : Thread nD τ) (ms7_6 t) fullShare ((dat7 V c).after 6 t) from by
      unfold Dat.leavesExact; rw [liveAt7_6 t hc1], after7_6, acc7_succ_snd]
    rw [Phi7_castSucc, Phi7_pos V c _ _ (by omega)]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
    iapply (kernelRun7_C c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) hc0 hc1 (iblk7 V c 0 t) (iblk7 V c 1 t) (iblk7 V c 2 t) (iblk7 V c 3 t) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬cond7_1 (grid7.coords t) := fun h => h1 ((hcond7_1 t).mp h)
    rw [Dat.leavesExact_idle (dat7 V c) 5 t (idleAt7_5 t hc1) (noFlush7_5 t hc1), Dat.leavesExact_idle (dat7 V c) 6 t (idleAt7_6 t hc1) (noFlush7_6 t hc1)]
    by_cases h0 : t.val = 0
    · have hc0 : cond7_0 (grid7.coords t) := (hcond7_0 t).mpr h0
      rw [Phi7_castSucc, Phi7_zero V c _ _ h0, scopedRest7_owns, acc7_zero_fst V c _ _ h0, acc7_zero_snd V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) hc0 hc1 (iblk7 V c 0 t) (iblk7 V c 1 t) (iblk7 V c 2 t) (iblk7 V c 3 t) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond7_0 (grid7.coords t) := fun h => h0 ((hcond7_0 t).mp h)
      rw [Phi7_castSucc, Phi7_pos V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) hc0 hc1 (iblk7 V c 0 t) (iblk7 V c 1 t) (iblk7 V c 2 t) (iblk7 V c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation7 (c : Dev nD) : Pipeline.BodyObligation (dat7 V c) (defs₀ (F := F)) Variants.none () Set.univ := fun t => by
  rw [bigSep_W7, bigSep_W7]
  exact sound_body7 V c t

end Cert.Kernel.Hand

end
-- ==== Proof.BitsRegBnRes8.lean ====
/-
  Region 8 of @main: the batch-normalisation kernel with given statistics followed by the rectifier, with the
  residual block added after the rectifier (custom_call 8, pipeline 8), a grid of 25 points over row-blocks of
  2000 rows of a 50000×256 array.

  Stated at a PARAMETER `V` — what every unscoped buffer of the TensorCore holds when the region is entered —:
  the windows' blocks, what the body leaves in the output's staging buffer as a function of the input blocks
  (its one store as a canonical piece over the skeleton's payload), the body's triple, the proof data, and the
  body obligation. The invariant between points is the scoped rest, carried through unread.
-/
import proofs.«142371_j48498770706497_2_alg».proof.Proof.Gen.Kernel.Launch
import proofs.«142371_j48498770706497_2_alg».proof.Proof.Gen.Kernel.Skeleton
import proofs.«142371_j48498770706497_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every unscoped buffer of the TensorCore holds when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not: an unfetched
    window's block index has not moved, and the body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not: an unfetched
    window's block index has not moved, and the body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not: an unfetched
    window's block index has not moved, and the body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not: an unfetched
    window's block index has not moved, and the body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not: an unfetched
    window's block index has not moved, and the body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not: an unfetched
    window's block index has not moved, and the body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: the whole block, the whole row of parameters -/

abbrev rBlk8 : Rect S2000x256 := Rect.unit (s := S2000x256) ![0, 0] S2000x256.size inb_S2000x256_S2000x256_0_0
abbrev rRow8 : Rect S1x256 := Rect.unit (s := S1x256) ![0, 0] S1x256.size inb_S1x256_S1x256_0_0

/-- The literal offsets of both rectangles are zero on every axis. -/
theorem hz8 : (![0, 0] : Fin 2 → Nat) = fun _ => 0 := funext fun a => by fin_cases a <;> rfl

/-! ## What the body leaves in the output window's buffer -/

/-- Window 6's staging buffer after the body, from the input windows' blocks `x0` (the aggregate), `x1` (the
    residual), `x2` (scale), `x3` (shift), `x4` (mean), `x5` (variance): its one store, over the whole block, of
    the normalised and rectified block plus the residual block. -/
def out8_6 (x0 x1 : Vec F S2000x256 .f32) (x2 x3 x4 x5 : Vec F S1x256 .f32) : Vec F S2000x256 .f32 :=
  View.canon [⟨rBlk8, k8_pay1 (View.ld x0 rBlk8) (View.ld x2 rRow8) (View.ld x4 rRow8) (View.ld x5 rRow8) (View.ld x3 rRow8) (View.ld x1 rBlk8)⟩]

/-- The one store covers the buffer: its rectangle is the whole block. -/
theorem cover8_6 (p0 : Vec F S2000x256 .f32) (y : S2000x256.Idx) :
    ∃ pc ∈ ([⟨rBlk8, p0⟩] : List (View.Piece (Elt F) S2000x256 .f32)), y ∈ pc.1.set :=
  ⟨_, List.mem_singleton_self _, View.mem_set_unit_zero hz8 inb_S2000x256_S2000x256_0_0 y⟩

/-! ## The body's triple -/

set_option maxHeartbeats 1000000 in
/-- The kernel body on whole staging memrefs, the inputs' at read contents `x0 … x5` and the output's at anything,
    runs to the continuation holding the inputs' as they were and the output's at `out8_6` of them. -/
theorem sound_kernel8 (c : Dev nD) (E : Set ℕ) (i : grid8.Coords)
    (arg1 : Memref sig .tc .vmem S2000x256 .f32) (harg1 : arg1.IsWhole) (arg2 : Memref sig .tc .vmem S2000x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S2000x256 .f32) (harg7 : arg7.IsWhole)
    (x0 x1 : Vec F S2000x256 .f32) (x2 x3 x4 x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E
          (cc8__bn_relu_residual_kernel i arg1 harg1 arg2 harg2 arg3 harg3 arg4 harg4 arg5 harg5 arg6 harg6 arg7 harg7) K := by
  simp only [cc8__bn_relu_residual_kernel_eq_skeleton]; unfold cc8__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The invariant between the region's points: the scoped buffers the pipeline does not stage, held at something. -/
abbrev Φ8 (c : Dev nD) : sProp 𝕄 :=
  Pipeline.scopedRest (Ix := Unit) (Name := ℕ) (U := UR sig nD τ) (Lvl := ℕ) (Val := Elt F) spec8 c

/-- The proof data of pipeline 8 on core `c`: the arrays as the region finds them; after the body at point `t` each
    input's buffer at its block and the output's at `out8_6` of the input blocks; the invariant the scoped rest;
    nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Φ8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- Every array is held whole. -/
theorem q_eq8 (c : Dev nD) (w : Fin cfg8.W) : (dat8 V c).q w = fullShare := by
  dsimp only [dat8]

/-- The core owes nothing at any point. -/
theorem owed_eq8 (c : Dev nD) : ∀ x, (dat8 V c).owed x = 0 := fun _ => by
  dsimp only [dat8]

/-- The invariant at the first point is the scoped rest the region is entered with, -/
theorem Φ_in8 (c : Dev nD) :
    (Pipeline.scopedRest (Ix := Unit) (Name := ℕ) (U := UR sig nD τ) (Lvl := ℕ) (Val := Elt F) spec8 c) ⊢ (dat8 V c).Φ 0 := by
  dsimp only [dat8]; exact .rfl

/-- and at the last point it is given back. -/
theorem Φ_out8 (c : Dev nD) :
    (dat8 V c).Φ (Fin.last cfg8.N) ⊢ (Pipeline.scopedRest (Ix := Unit) (Name := ℕ) (U := UR sig nD τ) (Lvl := ℕ) (Val := Elt F) spec8 c) := by
  dsimp only [dat8]; exact .rfl

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) :
    (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks, so the body's triple applies; the invariant and
    the core's tallies pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _
    (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.BitsVals9.lean ====
import proofs.«142371_j48498770706497_2_alg».proof.Proof.Gen.Kernel.Regions
import proofs.«142371_j48498770706497_2_alg».proof.Proof.BitsRegMatmul0
import proofs.«142371_j48498770706497_2_alg».proof.Proof.BitsRegStats1
import proofs.«142371_j48498770706497_2_alg».proof.Proof.BitsRegBn2
import proofs.«142371_j48498770706497_2_alg».proof.Proof.BitsRegMatmul3
import proofs.«142371_j48498770706497_2_alg».proof.Proof.BitsRegStats4
import proofs.«142371_j48498770706497_2_alg».proof.Proof.BitsRegBnRes5
import proofs.«142371_j48498770706497_2_alg».proof.Proof.BitsRegMatmul6
import proofs.«142371_j48498770706497_2_alg».proof.Proof.BitsRegStats7
import proofs.«142371_j48498770706497_2_alg».proof.Proof.BitsRegBnRes8

/-! # The buffers' contents along the program, concretely

The program's nineteen items in order; the contents of every unscoped buffer after each, per core, from the launch
memory. These are the conditional frame's valuations at the unknowns the nine regions' proof data determine. -/

-- decided memberships over the program's references recurse past the default depth
set_option maxRecDepth 1628

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items, concretely

Item by item from the launch memory: a host stretch leaves what its operations compute; a region leaves each of its
output arrays at what its write-backs fold to from the contents it was entered at, and every other buffer as it was. -/

section Vals

variable (m : (ℓ : Loc nD τ sig) → Buf (Elt F) ℓ)

/-- A core's valuations read at the TensorCore's references: what a region's proof data take. -/
abbrev rd (W : Dev nD → Valuation τ sig (Elt F)) : (c : Dev nD) → (b : Ref sig .tc) → Buf (Elt F) ((c : Thread nD τ).loc b) :=
  fun c b => W c b

/-- At launch. -/
def U0 (c : Dev nD) : Valuation τ sig (Elt F) := V0 m c
/-- After the first host stretch: region 0's entry. -/
def U1 (c : Dev nD) : Valuation τ sig (Elt F) := StableHlo.after hostOps0 (U0 m c)
/-- After region 0, which writes `main_v12` (its window 2). -/
def U2 (c : Dev nD) : Valuation τ sig (Elt F) :=
  Function.update (U1 m c) main_v12 ((dat0 (rd (U1 m)) c).arrAt 2 cfg0.N)
/-- Region 1's entry. -/
def U3 (c : Dev nD) : Valuation τ sig (Elt F) := StableHlo.after hostOps1 (U2 m c)
/-- After region 1, which writes `main_v33_0`, `main_v33_1`, `main_v33_2` (its windows 4, 5, 6). -/
def U4 (c : Dev nD) : Valuation τ sig (Elt F) :=
  Function.update (Function.update (Function.update (U3 m c)
    main_v33_0 ((dat1 (rd (U3 m)) c).arrAt 4 cfg1.N))
    main_v33_1 ((dat1 (rd (U3 m)) c).arrAt 5 cfg1.N))
    main_v33_2 ((dat1 (rd (U3 m)) c).arrAt 6 cfg1.N)
/-- Region 2's entry. -/
def U5 (c : Dev nD) : Valuation τ sig (Elt F) := StableHlo.after hostOps2 (U4 m c)
/-- After region 2, which writes `main_v48` (its window 5): region 3's entry. -/
def U6 (c : Dev nD) : Valuation τ sig (Elt F) :=
  Function.update (U5 m c) main_v48 ((dat2 (rd (U5 m)) c).arrAt 5 cfg2.N)
/-- After region 3, which writes `main_v49` (its window 2). -/
def U7 (c : Dev nD) : Valuation τ sig (Elt F) :=
  Function.update (U6 m c) main_v49 ((dat3 (rd (U6 m)) c).arrAt 2 cfg3.N)
/-- Region 4's entry. -/
def U8 (c : Dev nD) : Valuation τ sig (Elt F) := StableHlo.after hostOps4 (U7 m c)
/-- After region 4, which writes `main_v70_0`, `main_v70_1`, `main_v70_2` (its windows 4, 5, 6). -/
def U9 (c : Dev nD) : Valuation τ sig (Elt F) :=
  Function.update (Function.update (Function.update (U8 m c)
    main_v70_0 ((dat4 (rd (U8 m)) c).arrAt 4 cfg4.N))
    main_v70_1 ((dat4 (rd (U8 m)) c).arrAt 5 cfg4.N))
    main_v70_2 ((dat4 (rd (U8 m)) c).arrAt 6 cfg4.N)
/-- Region 5's entry. -/
def U10 (c : Dev nD) : Valuation τ sig (Elt F) := StableHlo.after hostOps5 (U9 m c)
/-- After region 5, which writes `main_v85` (its window 6): region 6's entry. -/
def U11 (c : Dev nD) : Valuation τ sig (Elt F) :=
  Function.update (U10 m c) main_v85 ((dat5 (rd (U10 m)) c).arrAt 6 cfg5.N)
/-- After region 6, which writes `main_v86` (its window 2). -/
def U12 (c : Dev nD) : Valuation τ sig (Elt F) :=
  Function.update (U11 m c) main_v86 ((dat6 (rd (U11 m)) c).arrAt 2 cfg6.N)
/-- Region 7's entry. -/
def U13 (c : Dev nD) : Valuation τ sig (Elt F) := StableHlo.after hostOps7 (U12 m c)
/-- After region 7, which writes `main_v107_0`, `main_v107_1`, `main_v107_2` (its windows 4, 5, 6). -/
def U14 (c : Dev nD) : Valuation τ sig (Elt F) :=
  Function.update (Function.update (Function.update (U13 m c)
    main_v107_0 ((dat7 (rd (U13 m)) c).arrAt 4 cfg7.N))
    main_v107_1 ((dat7 (rd (U13 m)) c).arrAt 5 cfg7.N))
    main_v107_2 ((dat7 (rd (U13 m)) c).arrAt 6 cfg7.N)
/-- Region 8's entry. -/
def U15 (c : Dev nD) : Valuation τ sig (Elt F) := StableHlo.after hostOps8 (U14 m c)
/-- After region 8, which writes `main_v122` (its window 6). -/
def U16 (c : Dev nD) : Valuation τ sig (Elt F) :=
  Function.update (U15 m c) main_v122 ((dat8 (rd (U15 m)) c).arrAt 6 cfg8.N)
/-- After the three closing host stretches. -/
def U17 (c : Dev nD) : Valuation τ sig (Elt F) := StableHlo.after hostOps9 (U16 m c)
def U18 (c : Dev nD) : Valuation τ sig (Elt F) := StableHlo.after hostOps9_1 (U17 m c)
def U19 (c : Dev nD) : Valuation τ sig (Elt F) := StableHlo.after hostOps9_2 (U18 m c)

/-- What the regions leave, as the conditional frame's unknowns: each read off the valuation after its region. -/
def outs : Outs (F := F) := fun J r c =>
  match J with
  | 2 => U2 m c r
  | 4 => U4 m c r
  | 6 => U6 m c r
  | 7 => U7 m c r
  | 9 => U9 m c r
  | 11 => U11 m c r
  | 12 => U12 m c r
  | 14 => U14 m c r
  | 16 => U16 m c r
  | _ => U0 m c r

end Vals

/-! ## The conditional frame's valuations at these unknowns are the concrete ones -/

section ValEqs

variable (m : (ℓ : Loc nD τ sig) → Buf (Elt F) ℓ)

/-- Distinct references are distinct device references. -/
theorem dne {r r' : Ref sig .tc} (h : r ≠ r') : (Proc.devRef .tc r : DevRef τ sig) ≠ Proc.devRef .tc r' :=
  StableHlo.devRef_ne_of_ne h

theorem V0_eq (c : Dev nD) : V0 m c = U0 m c := rfl
theorem V1_eq (c : Dev nD) : V1 m c = U1 m c := rfl

/-- Region 0's output array in the next valuation. -/
theorem U2_out (c : Dev nD) : U2 m c main_v12 = (dat0 (rd (U1 m)) c).arrAt 2 cfg0.N := by
  unfold U2; exact Function.update_self ..
theorem V2_eq (c : Dev nD) : V2 m (outs m) c = U2 m c := by
  show Function.update (V1 m c) main_v12 (U2 m c main_v12) = U2 m c
  rw [U2_out, V1_eq]; rfl
theorem V3_eq (c : Dev nD) : V3 m (outs m) c = U3 m c := by
  show StableHlo.after hostOps1 (V2 m (outs m) c) = U3 m c
  rw [V2_eq]; rfl

/-- Region 1's output arrays in the next valuation. -/
theorem U4_out0 (c : Dev nD) : U4 m c main_v33_0 = (dat1 (rd (U3 m)) c).arrAt 4 cfg1.N := by
  unfold U4
  rw [Function.update_of_ne (dne (by decide)), Function.update_of_ne (dne (by decide))]; exact Function.update_self ..
theorem U4_out1 (c : Dev nD) : U4 m c main_v33_1 = (dat1 (rd (U3 m)) c).arrAt 5 cfg1.N := by
  unfold U4
  rw [Function.update_of_ne (dne (by decide))]; exact Function.update_self ..
theorem U4_out2 (c : Dev nD) : U4 m c main_v33_2 = (dat1 (rd (U3 m)) c).arrAt 6 cfg1.N := by
  unfold U4; exact Function.update_self ..
theorem V4_eq (c : Dev nD) : V4 m (outs m) c = U4 m c := by
  show Function.update (Function.update (Function.update (V3 m (outs m) c) main_v33_0 (U4 m c main_v33_0))
    main_v33_1 (U4 m c main_v33_1)) main_v33_2 (U4 m c main_v33_2) = U4 m c
  rw [U4_out0, U4_out1, U4_out2, V3_eq]; rfl
theorem V5_eq (c : Dev nD) : V5 m (outs m) c = U5 m c := by
  show StableHlo.after hostOps2 (V4 m (outs m) c) = U5 m c
  rw [V4_eq]; rfl

/-- Region 2's output array in the next valuation. -/
theorem U6_out (c : Dev nD) : U6 m c main_v48 = (dat2 (rd (U5 m)) c).arrAt 5 cfg2.N := by
  unfold U6; exact Function.update_self ..
theorem V6_eq (c : Dev nD) : V6 m (outs m) c = U6 m c := by
  show Function.update (V5 m (outs m) c) main_v48 (U6 m c main_v48) = U6 m c
  rw [U6_out, V5_eq]; rfl

/-- Region 3's output array in the next valuation. -/
theorem U7_out (c : Dev nD) : U7 m c main_v49 = (dat3 (rd (U6 m)) c).arrAt 2 cfg3.N := by
  unfold U7; exact Function.update_self ..
theorem V7_eq (c : Dev nD) : V7 m (outs m) c = U7 m c := by
  show Function.update (V6 m (outs m) c) main_v49 (U7 m c main_v49) = U7 m c
  rw [U7_out, V6_eq]; rfl
theorem V8_eq (c : Dev nD) : V8 m (outs m) c = U8 m c := by
  show StableHlo.after hostOps4 (V7 m (outs m) c) = U8 m c
  rw [V7_eq]; rfl

/-- Region 4's output arrays in the next valuation. -/
theorem U9_out0 (c : Dev nD) : U9 m c main_v70_0 = (dat4 (rd (U8 m)) c).arrAt 4 cfg4.N := by
  unfold U9
  rw [Function.update_of_ne (dne (by decide)), Function.update_of_ne (dne (by decide))]; exact Function.update_self ..
theorem U9_out1 (c : Dev nD) : U9 m c main_v70_1 = (dat4 (rd (U8 m)) c).arrAt 5 cfg4.N := by
  unfold U9
  rw [Function.update_of_ne (dne (by decide))]; exact Function.update_self ..
theorem U9_out2 (c : Dev nD) : U9 m c main_v70_2 = (dat4 (rd (U8 m)) c).arrAt 6 cfg4.N := by
  unfold U9; exact Function.update_self ..
theorem V9_eq (c : Dev nD) : V9 m (outs m) c = U9 m c := by
  show Function.update (Function.update (Function.update (V8 m (outs m) c) main_v70_0 (U9 m c main_v70_0))
    main_v70_1 (U9 m c main_v70_1)) main_v70_2 (U9 m c main_v70_2) = U9 m c
  rw [U9_out0, U9_out1, U9_out2, V8_eq]; rfl
theorem V10_eq (c : Dev nD) : V10 m (outs m) c = U10 m c := by
  show StableHlo.after hostOps5 (V9 m (outs m) c) = U10 m c
  rw [V9_eq]; rfl

/-- Region 5's output array in the next valuation. -/
theorem U11_out (c : Dev nD) : U11 m c main_v85 = (dat5 (rd (U10 m)) c).arrAt 6 cfg5.N := by
  unfold U11; exact Function.update_self ..
theorem V11_eq (c : Dev nD) : V11 m (outs m) c = U11 m c := by
  show Function.update (V10 m (outs m) c) main_v85 (U11 m c main_v85) = U11 m c
  rw [U11_out, V10_eq]; rfl

/-- Region 6's output array in the next valuation. -/
theorem U12_out (c : Dev nD) : U12 m c main_v86 = (dat6 (rd (U11 m)) c).arrAt 2 cfg6.N := by
  unfold U12; exact Function.update_self ..
theorem V12_eq (c : Dev nD) : V12 m (outs m) c = U12 m c := by
  show Function.update (V11 m (outs m) c) main_v86 (U12 m c main_v86) = U12 m c
  rw [U12_out, V11_eq]; rfl
theorem V13_eq (c : Dev nD) : V13 m (outs m) c = U13 m c := by
  show StableHlo.after hostOps7 (V12 m (outs m) c) = U13 m c
  rw [V12_eq]; rfl

/-- Region 7's output arrays in the next valuation. -/
theorem U14_out0 (c : Dev nD) : U14 m c main_v107_0 = (dat7 (rd (U13 m)) c).arrAt 4 cfg7.N := by
  unfold U14
  rw [Function.update_of_ne (dne (by decide)), Function.update_of_ne (dne (by decide))]; exact Function.update_self ..
theorem U14_out1 (c : Dev nD) : U14 m c main_v107_1 = (dat7 (rd (U13 m)) c).arrAt 5 cfg7.N := by
  unfold U14
  rw [Function.update_of_ne (dne (by decide))]; exact Function.update_self ..
theorem U14_out2 (c : Dev nD) : U14 m c main_v107_2 = (dat7 (rd (U13 m)) c).arrAt 6 cfg7.N := by
  unfold U14; exact Function.update_self ..
theorem V14_eq (c : Dev nD) : V14 m (outs m) c = U14 m c := by
  show Function.update (Function.update (Function.update (V13 m (outs m) c) main_v107_0 (U14 m c main_v107_0))
    main_v107_1 (U14 m c main_v107_1)) main_v107_2 (U14 m c main_v107_2) = U14 m c
  rw [U14_out0, U14_out1, U14_out2, V13_eq]; rfl
theorem V15_eq (c : Dev nD) : V15 m (outs m) c = U15 m c := by
  show StableHlo.after hostOps8 (V14 m (outs m) c) = U15 m c
  rw [V14_eq]; rfl

/-- Region 8's output array in the next valuation. -/
theorem U16_out (c : Dev nD) : U16 m c main_v122 = (dat8 (rd (U15 m)) c).arrAt 6 cfg8.N := by
  unfold U16; exact Function.update_self ..
theorem V16_eq (c : Dev nD) : V16 m (outs m) c = U16 m c := by
  show Function.update (V15 m (outs m) c) main_v122 (U16 m c main_v122) = U16 m c
  rw [U16_out, V15_eq]; rfl
theorem V17_eq (c : Dev nD) : V17 m (outs m) c = U17 m c := by
  show StableHlo.after hostOps9 (V16 m (outs m) c) = U17 m c
  rw [V16_eq]; rfl
theorem V18_eq (c : Dev nD) : V18 m (outs m) c = U18 m c := by
  show StableHlo.after hostOps9_1 (V17 m (outs m) c) = U18 m c
  rw [V17_eq]; rfl
theorem V19_eq (c : Dev nD) : V19 m (outs m) c = U19 m c := by
  show StableHlo.after hostOps9_2 (V18 m (outs m) c) = U19 m c
  rw [V18_eq]; rfl

end ValEqs

/-! ## What each region leaves unchanged -/

section ValOf

variable (m : (ℓ : Loc nD τ sig) → Buf (Elt F) ℓ)

theorem U2_of (c : Dev nD) (r : Ref sig .tc) (h : r ∉ ([main_v12] : List (Ref sig .tc))) : U2 m c r = U1 m c r := by
  rw [← V2_eq, ← V1_eq]; exact V2_of m (outs m) c r h
theorem U4_of (c : Dev nD) (r : Ref sig .tc) (h : r ∉ ([main_v33_0, main_v33_1, main_v33_2] : List (Ref sig .tc))) :
    U4 m c r = U3 m c r := by
  rw [← V4_eq, ← V3_eq]; exact V4_of m (outs m) c r h
theorem U6_of (c : Dev nD) (r : Ref sig .tc) (h : r ∉ ([main_v48] : List (Ref sig .tc))) : U6 m c r = U5 m c r := by
  rw [← V6_eq, ← V5_eq]; exact V6_of m (outs m) c r h
theorem U7_of (c : Dev nD) (r : Ref sig .tc) (h : r ∉ ([main_v49] : List (Ref sig .tc))) : U7 m c r = U6 m c r := by
  rw [← V7_eq, ← V6_eq]; exact V7_of m (outs m) c r h
theorem U9_of (c : Dev nD) (r : Ref sig .tc) (h : r ∉ ([main_v70_0, main_v70_1, main_v70_2] : List (Ref sig .tc))) :
    U9 m c r = U8 m c r := by
  rw [← V9_eq, ← V8_eq]; exact V9_of m (outs m) c r h
theorem U11_of (c : Dev nD) (r : Ref sig .tc) (h : r ∉ ([main_v85] : List (Ref sig .tc))) : U11 m c r = U10 m c r := by
  rw [← V11_eq, ← V10_eq]; exact V11_of m (outs m) c r h
theorem U12_of (c : Dev nD) (r : Ref sig .tc) (h : r ∉ ([main_v86] : List (Ref sig .tc))) : U12 m c r = U11 m c r := by
  rw [← V12_eq, ← V11_eq]; exact V12_of m (outs m) c r h
theorem U14_of (c : Dev nD) (r : Ref sig .tc) (h : r ∉ ([main_v107_0, main_v107_1, main_v107_2] : List (Ref sig .tc))) :
    U14 m c r = U13 m c r := by
  rw [← V14_eq, ← V13_eq]; exact V14_of m (outs m) c r h
theorem U16_of (c : Dev nD) (r : Ref sig .tc) (h : r ∉ ([main_v122] : List (Ref sig .tc))) : U16 m c r = U15 m c r := by
  rw [← V16_eq, ← V15_eq]; exact V16_of m (outs m) c r h

end ValOf

end Cert.Kernel.Hand

end
-- ==== Proof.BitsSegs9.lean ====
import proofs.«142371_j48498770706497_2_alg».proof.Proof.BitsVals9
import Idealize.ShloMosaic.Lib.Pipeline.RegionsLoop

/-! # The nine kernel regions as segments of the run

One segment record per region, entered from the thread state at the valuation before it and left at the one after. -/

-- decided memberships over the program's references recurse past the default depth
set_option maxRecDepth 1628

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## A kernel region as a segment of the run

Every region of this program has the same protocol: it is entered holding every unscoped buffer whole at the valuation
before it, beside the core's generator register and its dues (none); its windows' arrays are split out of the unscoped
buffers and put back at the valuation after it, which has each array at what the pipeline leaves and agrees with the
entry valuation elsewhere; the scoped buffers no window stages are the whole of the body's invariant at both ends; the
kernel has no semaphore of its own and no prefetched table. -/

section Builder

local notation "𝕄" => MT nD τ sig Unit (Elt F) ℕ (UR sig nD τ) ℕ

/-- No core owes another anything: no level is assigned. -/
abbrev L9 : GSem nD τ sig → Finset Unit := fun _ => ∅
abbrev lv9 : GSem nD τ sig → Unit → ℕ := fun _ _ => 0

/-- What rides beside the buffers through every item: the core's generator register at some state and its dues, none. -/
abbrev R9 (c : Dev nD) : sProp 𝕄 :=
  iprop((∃ r, prngReg c r) ∗ ∃ W, owes (c : Thread nD τ) (0 : CellTallies nD τ sig Unit) W)

/-- The thread state between two items: every unscoped buffer at the valuation `W`, and the rest. -/
abbrev T9 (W : Dev nD → Valuation τ sig (Elt F)) (c : Dev nD) : sProp 𝕄 :=
  iprop(StableHlo.held (c : Thread nD τ) (Pipeline.ucRefs τ sig) (W c) ∗ R9 c)

set_option backward.isDefEq.respectTransparency.types false in
/-- Region `p` as a segment from the thread state at `Vin` to the one at `Vout`. -/
def mkReg (pdats : (p : Fin 9) → (c : Dev nD) → Dat τ (Elt F) Unit ℕ (UR sig nD τ) ℕ (Pipeline.pin (pcfgs (F := F)) adm p) c)
    (p : Fin 9) (lf : Pipeline.LaunchFacts (nD := nD) (τ := τ) cfgs p)
    (hbody : ∀ c, Pipeline.BodyObligation (pdats p c) (defs₀ (F := F)) Variants.none () Set.univ)
    (howed : ∀ c t, (pdats p c).owed t = 0)
    (hrec : ∀ c, (pdats p c).recorded 0 = Set.univ)
    (hq : ∀ c w, (pdats p c).q w = fullShare)
    (Vin Vout : Dev nD → Valuation τ sig (Elt F))
    (hA : ∀ c w, (pdats p c).A w = Vin c (Pipeline.arrRef (Pipeline.pin (pcfgs (F := F)) adm p).spec w))
    (hF : ∀ c w, (pdats p c).arrAt w (Pipeline.pin (pcfgs (F := F)) adm p).N
      = Vout c (Pipeline.arrRef (Pipeline.pin (pcfgs (F := F)) adm p).spec w))
    (hrest : ∀ c (b : Ref sig .tc), b ∉ Finset.univ.image (Pipeline.arrRef (Pipeline.pin (pcfgs (F := F)) adm p).spec)
      → Vout c b = Vin c b)
    (hΦin : ∀ c, (Pipeline.scopedRest (Pipeline.pin (pcfgs (F := F)) adm p).spec c : sProp 𝕄) ⊢ (pdats p c).Φ 0)
    (hΦout : ∀ c, (pdats p c).Φ (Fin.last _) ⊢ (Pipeline.scopedRest (Pipeline.pin (pcfgs (F := F)) adm p).spec c : sProp 𝕄)) :
    RegionSeg (pcfgs (F := F)) adm pdats () defs₀ Variants.none L9 lv9 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero (pcfgs (F := F)) adm pdats () L9 lv9 p howed
  pre := T9 Vin
  post := T9 Vout
  X c := iprop(emp)
  Y c := iprop(emp)
  Z c := iprop(Pipeline.unscopedRest (Pipeline.pin (pcfgs (F := F)) adm p).spec c (fun b => Vin c b) ∗ ∃ r, prngReg c r)
  hentry c := by
    rw [Pipeline.ownSems0_none]
    have hsplit := Pipeline.arrays_of_unscopedBufs (p := p) (pcfgs (F := F)) adm pdats lf.win lf.arr_whole c
      ((pdats p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; unfold Pipeline.Dat.bound; rw [hrec c]; exact fun _ _ => Or.inl trivial
      iexact HO
    isplitr; · iempintro
    isplitl [Hrest]; · iexact Hrest
    iexact Hp
  hin c := by
    iintro ⟨-, -, Hr⟩
    iapply (hΦin c); iexact Hr
  hout c := by
    rw [Pipeline.ownSems0_none]
    iintro H
    isplitr; · iempintro
    isplitr; · iempintro
    iapply (hΦout c); iexact H
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vin c b) (fun b => Vout c b) ((pdats p c).arrAt · (Pipeline.pin (pcfgs (F := F)) adm p).N) (hF c) (hrest c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    rw [howed c (Fin.last _)]
    icases HO with ⟨%W, -, HO⟩; iexists W; iexact HO

end Builder

/-! ## The nine regions' records -/

section Records

variable (m : (ℓ : Loc nD τ sig) → Buf (Elt F) ℓ)

/-- A window's array is among the windows' arrays. -/
theorem mem_arr {gr W : Nat} (win : Fin W → Pipeline.WinSpec sig gr) (w : Fin W) :
    Pipeline.arrRef win w ∈ Finset.univ.image (Pipeline.arrRef win) :=
  Finset.mem_image.mpr ⟨w, Finset.mem_univ _, rfl⟩

/-- Every pipeline's proof data, each at its region's entry contents: a literal match, so that the launch theorem's
    configuration at a numeral reduces to the printed one. -/
def pdats : (p : Fin 9) → (c : Dev nD) → Dat τ (Elt F) Unit ℕ (UR sig nD τ) ℕ (Pipeline.pin (pcfgs (F := F)) adm p) c
  | ⟨0, _⟩ => fun c => dat0 (rd (U1 m)) c
  | ⟨1, _⟩ => fun c => dat1 (rd (U3 m)) c
  | ⟨2, _⟩ => fun c => dat2 (rd (U5 m)) c
  | ⟨3, _⟩ => fun c => dat3 (rd (U6 m)) c
  | ⟨4, _⟩ => fun c => dat4 (rd (U8 m)) c
  | ⟨5, _⟩ => fun c => dat5 (rd (U10 m)) c
  | ⟨6, _⟩ => fun c => dat6 (rd (U11 m)) c
  | ⟨7, _⟩ => fun c => dat7 (rd (U13 m)) c
  | ⟨8, _⟩ => fun c => dat8 (rd (U15 m)) c

/-! ### Region 0: inputs `main_arg0`, `main_arg3`; output `main_v12` -/

-- one comparison of a window's array type with its buffer's per window
set_option maxHeartbeats 1000000 in
theorem hF0 (c : Dev nD) : ∀ w : Fin 3, (dat0 (rd (U1 m)) c).arrAt w cfg0.N = U2 m c (Pipeline.arrRef spec0 w)
  | 0 => ((dat0 (rd (U1 m)) c).arrAt_in 0 rfl _).trans ((A_eq0 (rd (U1 m)) c 0).trans (U2_of m c main_arg0 (by decide)).symm)
  | 1 => ((dat0 (rd (U1 m)) c).arrAt_in 1 rfl _).trans ((A_eq0 (rd (U1 m)) c 1).trans (U2_of m c main_arg3 (by decide)).symm)
  | 2 => (U2_out m c).symm
  | ⟨_ + 3, h⟩ => absurd h (Nat.not_lt.2 (Nat.le_add_left _ _))
theorem hrest0 (c : Dev nD) (b : Ref sig .tc) (hb : b ∉ Finset.univ.image (Pipeline.arrRef spec0)) : U2 m c b = U1 m c b :=
  U2_of m c b fun hmem => by
    simp only [List.mem_cons, List.mem_nil_iff, or_false] at hmem
    subst hmem; exact hb (mem_arr spec0 2)

set_option backward.isDefEq.respectTransparency.types false in
def reg0 : RegionSeg (pcfgs (F := F)) adm (pdats m) () defs₀ Variants.none L9 lv9 0 :=
  mkReg (pdats m) 0 launch0 (fun c => body_obligation0 (rd (U1 m)) c) (fun c t => owed_eq0 (rd (U1 m)) c t)
    (fun c => rfl) (fun c w => q_eq0 (rd (U1 m)) c w) (U1 m) (U2 m)
    (fun c w => A_eq0 (rd (U1 m)) c w) (hF0 m) (hrest0 m)
    (fun c => Φ_in0 (rd (U1 m)) c) (fun c => Φ_out0 (rd (U1 m)) c)

/-! ### Region 1: inputs `main_v30`, `main_v12`, `main_v31`, `main_v32`; outputs `main_v33_0`, `main_v33_1`, `main_v33_2` -/

-- one comparison of a window's array type with its buffer's per window
set_option maxHeartbeats 1000000 in
theorem hF1 (c : Dev nD) : ∀ w : Fin 7, (dat1 (rd (U3 m)) c).arrAt w cfg1.N = U4 m c (Pipeline.arrRef spec1 w)
  | 0 => ((dat1 (rd (U3 m)) c).arrAt_in 0 rfl _).trans ((A_eq1 (rd (U3 m)) c 0).trans (U4_of m c main_v30 (by decide)).symm)
  | 1 => ((dat1 (rd (U3 m)) c).arrAt_in 1 rfl _).trans ((A_eq1 (rd (U3 m)) c 1).trans (U4_of m c main_v12 (by decide)).symm)
  | 2 => ((dat1 (rd (U3 m)) c).arrAt_in 2 rfl _).trans ((A_eq1 (rd (U3 m)) c 2).trans (U4_of m c main_v31 (by decide)).symm)
  | 3 => ((dat1 (rd (U3 m)) c).arrAt_in 3 rfl _).trans ((A_eq1 (rd (U3 m)) c 3).trans (U4_of m c main_v32 (by decide)).symm)
  | 4 => (U4_out0 m c).symm
  | 5 => (U4_out1 m c).symm
  | 6 => (U4_out2 m c).symm
  | ⟨_ + 7, h⟩ => absurd h (Nat.not_lt.2 (Nat.le_add_left _ _))
theorem hrest1 (c : Dev nD) (b : Ref sig .tc) (hb : b ∉ Finset.univ.image (Pipeline.arrRef spec1)) : U4 m c b = U3 m c b :=
  U4_of m c b fun hmem => by
    simp only [List.mem_cons, List.mem_nil_iff, or_false] at hmem
    rcases hmem with rfl | rfl | rfl
    · exact hb (mem_arr spec1 4)
    · exact hb (mem_arr spec1 5)
    · exact hb (mem_arr spec1 6)

set_option backward.isDefEq.respectTransparency.types false in
def reg1 : RegionSeg (pcfgs (F := F)) adm (pdats m) () defs₀ Variants.none L9 lv9 1 :=
  mkReg (pdats m) 1 launch1 (fun c => body_obligation1 (rd (U3 m)) c) (fun c t => owed_eq1 (rd (U3 m)) c t)
    (fun c => rfl) (fun c w => q_eq1 (rd (U3 m)) c w) (U3 m) (U4 m)
    (fun c w => A_eq1 (rd (U3 m)) c w) (hF1 m) (hrest1 m)
    (fun c => Φ_in1 (rd (U3 m)) c) (fun c => Φ_out1 (rd (U3 m)) c)

/-! ### Region 2: inputs `main_v33_0`, `main_v44` … `main_v47`; output `main_v48` -/

-- one comparison of a window's array type with its buffer's per window
set_option maxHeartbeats 1000000 in
theorem hF2 (c : Dev nD) : ∀ w : Fin 6, (dat2 (rd (U5 m)) c).arrAt w cfg2.N = U6 m c (Pipeline.arrRef spec2 w)
  | 0 => ((dat2 (rd (U5 m)) c).arrAt_in 0 rfl _).trans ((A_eq2 (rd (U5 m)) c 0).trans (U6_of m c main_v33_0 (by decide)).symm)
  | 1 => ((dat2 (rd (U5 m)) c).arrAt_in 1 rfl _).trans ((A_eq2 (rd (U5 m)) c 1).trans (U6_of m c main_v44 (by decide)).symm)
  | 2 => ((dat2 (rd (U5 m)) c).arrAt_in 2 rfl _).trans ((A_eq2 (rd (U5 m)) c 2).trans (U6_of m c main_v45 (by decide)).symm)
  | 3 => ((dat2 (rd (U5 m)) c).arrAt_in 3 rfl _).trans ((A_eq2 (rd (U5 m)) c 3).trans (U6_of m c main_v46 (by decide)).symm)
  | 4 => ((dat2 (rd (U5 m)) c).arrAt_in 4 rfl _).trans ((A_eq2 (rd (U5 m)) c 4).trans (U6_of m c main_v47 (by decide)).symm)
  | 5 => (U6_out m c).symm
  | ⟨_ + 6, h⟩ => absurd h (Nat.not_lt.2 (Nat.le_add_left _ _))
theorem hrest2 (c : Dev nD) (b : Ref sig .tc) (hb : b ∉ Finset.univ.image (Pipeline.arrRef spec2)) : U6 m c b = U5 m c b :=
  U6_of m c b fun hmem => by
    simp only [List.mem_cons, List.mem_nil_iff, or_false] at hmem
    subst hmem; exact hb (mem_arr spec2 5)

set_option backward.isDefEq.respectTransparency.types false in
def reg2 : RegionSeg (pcfgs (F := F)) adm (pdats m) () defs₀ Variants.none L9 lv9 2 :=
  mkReg (pdats m) 2 launch2 (fun c => body_obligation2 (rd (U5 m)) c) (fun c t => owed_eq2 (rd (U5 m)) c t)
    (fun c => rfl) (fun c w => q_eq2 (rd (U5 m)) c w) (U5 m) (U6 m)
    (fun c w => A_eq2 (rd (U5 m)) c w) (hF2 m) (hrest2 m)
    (fun c => Φ_in2 (rd (U5 m)) c) (fun c => Φ_out2 (rd (U5 m)) c)

/-! ### Region 3: inputs `main_v48`, `main_arg7`; output `main_v49` -/

-- one comparison of a window's array type with its buffer's per window
set_option maxHeartbeats 1000000 in
theorem hF3 (c : Dev nD) : ∀ w : Fin 3, (dat3 (rd (U6 m)) c).arrAt w cfg3.N = U7 m c (Pipeline.arrRef spec3 w)
  | 0 => ((dat3 (rd (U6 m)) c).arrAt_in 0 rfl _).trans ((A_eq3 (rd (U6 m)) c 0).trans (U7_of m c main_v48 (by decide)).symm)
  | 1 => ((dat3 (rd (U6 m)) c).arrAt_in 1 rfl _).trans ((A_eq3 (rd (U6 m)) c 1).trans (U7_of m c main_arg7 (by decide)).symm)
  | 2 => (U7_out m c).symm
  | ⟨_ + 3, h⟩ => absurd h (Nat.not_lt.2 (Nat.le_add_left _ _))
theorem hrest3 (c : Dev nD) (b : Ref sig .tc) (hb : b ∉ Finset.univ.image (Pipeline.arrRef spec3)) : U7 m c b = U6 m c b :=
  U7_of m c b fun hmem => by
    simp only [List.mem_cons, List.mem_nil_iff, or_false] at hmem
    subst hmem; exact hb (mem_arr spec3 2)

set_option backward.isDefEq.respectTransparency.types false in
def reg3 : RegionSeg (pcfgs (F := F)) adm (pdats m) () defs₀ Variants.none L9 lv9 3 :=
  mkReg (pdats m) 3 launch3 (fun c => body_obligation3 (rd (U6 m)) c) (fun c t => owed_eq3 (rd (U6 m)) c t)
    (fun c => rfl) (fun c w => q_eq3 (rd (U6 m)) c w) (U6 m) (U7 m)
    (fun c w => A_eq3 (rd (U6 m)) c w) (hF3 m) (hrest3 m)
    (fun c => Φ_in3 (rd (U6 m)) c) (fun c => Φ_out3 (rd (U6 m)) c)

/-! ### Region 4: inputs `main_v67`, `main_v49`, `main_v68`, `main_v69`; outputs `main_v70_0`, `main_v70_1`, `main_v70_2` -/

-- one comparison of a window's array type with its buffer's per window
set_option maxHeartbeats 1000000 in
theorem hF4 (c : Dev nD) : ∀ w : Fin 7, (dat4 (rd (U8 m)) c).arrAt w cfg4.N = U9 m c (Pipeline.arrRef spec4 w)
  | 0 => ((dat4 (rd (U8 m)) c).arrAt_in 0 rfl _).trans ((A_eq4 (rd (U8 m)) c 0).trans (U9_of m c main_v67 (by decide)).symm)
  | 1 => ((dat4 (rd (U8 m)) c).arrAt_in 1 rfl _).trans ((A_eq4 (rd (U8 m)) c 1).trans (U9_of m c main_v49 (by decide)).symm)
  | 2 => ((dat4 (rd (U8 m)) c).arrAt_in 2 rfl _).trans ((A_eq4 (rd (U8 m)) c 2).trans (U9_of m c main_v68 (by decide)).symm)
  | 3 => ((dat4 (rd (U8 m)) c).arrAt_in 3 rfl _).trans ((A_eq4 (rd (U8 m)) c 3).trans (U9_of m c main_v69 (by decide)).symm)
  | 4 => (U9_out0 m c).symm
  | 5 => (U9_out1 m c).symm
  | 6 => (U9_out2 m c).symm
  | ⟨_ + 7, h⟩ => absurd h (Nat.not_lt.2 (Nat.le_add_left _ _))
theorem hrest4 (c : Dev nD) (b : Ref sig .tc) (hb : b ∉ Finset.univ.image (Pipeline.arrRef spec4)) : U9 m c b = U8 m c b :=
  U9_of m c b fun hmem => by
    simp only [List.mem_cons, List.mem_nil_iff, or_false] at hmem
    rcases hmem with rfl | rfl | rfl
    · exact hb (mem_arr spec4 4)
    · exact hb (mem_arr spec4 5)
    · exact hb (mem_arr spec4 6)

set_option backward.isDefEq.respectTransparency.types false in
def reg4 : RegionSeg (pcfgs (F := F)) adm (pdats m) () defs₀ Variants.none L9 lv9 4 :=
  mkReg (pdats m) 4 launch4 (fun c => body_obligation4 (rd (U8 m)) c) (fun c t => owed_eq4 (rd (U8 m)) c t)
    (fun c => rfl) (fun c w => q_eq4 (rd (U8 m)) c w) (U8 m) (U9 m)
    (fun c w => A_eq4 (rd (U8 m)) c w) (hF4 m) (hrest4 m)
    (fun c => Φ_in4 (rd (U8 m)) c) (fun c => Φ_out4 (rd (U8 m)) c)

/-! ### Region 5: inputs `main_v70_0`, `main_v48`, `main_v81` … `main_v84`; output `main_v85` -/

-- one comparison of a window's array type with its buffer's per window
set_option maxHeartbeats 1000000 in
theorem hF5 (c : Dev nD) : ∀ w : Fin 7, (dat5 (rd (U10 m)) c).arrAt w cfg5.N = U11 m c (Pipeline.arrRef spec5 w)
  | 0 => ((dat5 (rd (U10 m)) c).arrAt_in 0 rfl _).trans ((A_eq5 (rd (U10 m)) c 0).trans (U11_of m c main_v70_0 (by decide)).symm)
  | 1 => ((dat5 (rd (U10 m)) c).arrAt_in 1 rfl _).trans ((A_eq5 (rd (U10 m)) c 1).trans (U11_of m c main_v48 (by decide)).symm)
  | 2 => ((dat5 (rd (U10 m)) c).arrAt_in 2 rfl _).trans ((A_eq5 (rd (U10 m)) c 2).trans (U11_of m c main_v81 (by decide)).symm)
  | 3 => ((dat5 (rd (U10 m)) c).arrAt_in 3 rfl _).trans ((A_eq5 (rd (U10 m)) c 3).trans (U11_of m c main_v82 (by decide)).symm)
  | 4 => ((dat5 (rd (U10 m)) c).arrAt_in 4 rfl _).trans ((A_eq5 (rd (U10 m)) c 4).trans (U11_of m c main_v83 (by decide)).symm)
  | 5 => ((dat5 (rd (U10 m)) c).arrAt_in 5 rfl _).trans ((A_eq5 (rd (U10 m)) c 5).trans (U11_of m c main_v84 (by decide)).symm)
  | 6 => (U11_out m c).symm
  | ⟨_ + 7, h⟩ => absurd h (Nat.not_lt.2 (Nat.le_add_left _ _))
theorem hrest5 (c : Dev nD) (b : Ref sig .tc) (hb : b ∉ Finset.univ.image (Pipeline.arrRef spec5)) : U11 m c b = U10 m c b :=
  U11_of m c b fun hmem => by
    simp only [List.mem_cons, List.mem_nil_iff, or_false] at hmem
    subst hmem; exact hb (mem_arr spec5 6)

set_option backward.isDefEq.respectTransparency.types false in
def reg5 : RegionSeg (pcfgs (F := F)) adm (pdats m) () defs₀ Variants.none L9 lv9 5 :=
  mkReg (pdats m) 5 launch5 (fun c => body_obligation5 (rd (U10 m)) c) (fun c t => owed_eq5 (rd (U10 m)) c t)
    (fun c => rfl) (fun c w => q_eq5 (rd (U10 m)) c w) (U10 m) (U11 m)
    (fun c w => A_eq5 (rd (U10 m)) c w) (hF5 m) (hrest5 m)
    (fun c => Φ_in5 (rd (U10 m)) c) (fun c => Φ_out5 (rd (U10 m)) c)

/-! ### Region 6: inputs `main_v85`, `main_arg11`; output `main_v86` -/

-- one comparison of a window's array type with its buffer's per window
set_option maxHeartbeats 1000000 in
theorem hF6 (c : Dev nD) : ∀ w : Fin 3, (dat6 (rd (U11 m)) c).arrAt w cfg6.N = U12 m c (Pipeline.arrRef spec6 w)
  | 0 => ((dat6 (rd (U11 m)) c).arrAt_in 0 rfl _).trans ((A_eq6 (rd (U11 m)) c 0).trans (U12_of m c main_v85 (by decide)).symm)
  | 1 => ((dat6 (rd (U11 m)) c).arrAt_in 1 rfl _).trans ((A_eq6 (rd (U11 m)) c 1).trans (U12_of m c main_arg11 (by decide)).symm)
  | 2 => (U12_out m c).symm
  | ⟨_ + 3, h⟩ => absurd h (Nat.not_lt.2 (Nat.le_add_left _ _))
theorem hrest6 (c : Dev nD) (b : Ref sig .tc) (hb : b ∉ Finset.univ.image (Pipeline.arrRef spec6)) : U12 m c b = U11 m c b :=
  U12_of m c b fun hmem => by
    simp only [List.mem_cons, List.mem_nil_iff, or_false] at hmem
    subst hmem; exact hb (mem_arr spec6 2)

set_option backward.isDefEq.respectTransparency.types false in
def reg6 : RegionSeg (pcfgs (F := F)) adm (pdats m) () defs₀ Variants.none L9 lv9 6 :=
  mkReg (pdats m) 6 launch6 (fun c => body_obligation6 (rd (U11 m)) c) (fun c t => owed_eq6 (rd (U11 m)) c t)
    (fun c => rfl) (fun c w => q_eq6 (rd (U11 m)) c w) (U11 m) (U12 m)
    (fun c w => A_eq6 (rd (U11 m)) c w) (hF6 m) (hrest6 m)
    (fun c => Φ_in6 (rd (U11 m)) c) (fun c => Φ_out6 (rd (U11 m)) c)

/-! ### Region 7: inputs `main_v104`, `main_v86`, `main_v105`, `main_v106`; outputs `main_v107_0`, `main_v107_1`, `main_v107_2` -/

-- one comparison of a window's array type with its buffer's per window
set_option maxHeartbeats 1000000 in
theorem hF7 (c : Dev nD) : ∀ w : Fin 7, (dat7 (rd (U13 m)) c).arrAt w cfg7.N = U14 m c (Pipeline.arrRef spec7 w)
  | 0 => ((dat7 (rd (U13 m)) c).arrAt_in 0 rfl _).trans ((A_eq7 (rd (U13 m)) c 0).trans (U14_of m c main_v104 (by decide)).symm)
  | 1 => ((dat7 (rd (U13 m)) c).arrAt_in 1 rfl _).trans ((A_eq7 (rd (U13 m)) c 1).trans (U14_of m c main_v86 (by decide)).symm)
  | 2 => ((dat7 (rd (U13 m)) c).arrAt_in 2 rfl _).trans ((A_eq7 (rd (U13 m)) c 2).trans (U14_of m c main_v105 (by decide)).symm)
  | 3 => ((dat7 (rd (U13 m)) c).arrAt_in 3 rfl _).trans ((A_eq7 (rd (U13 m)) c 3).trans (U14_of m c main_v106 (by decide)).symm)
  | 4 => (U14_out0 m c).symm
  | 5 => (U14_out1 m c).symm
  | 6 => (U14_out2 m c).symm
  | ⟨_ + 7, h⟩ => absurd h (Nat.not_lt.2 (Nat.le_add_left _ _))
theorem hrest7 (c : Dev nD) (b : Ref sig .tc) (hb : b ∉ Finset.univ.image (Pipeline.arrRef spec7)) : U14 m c b = U13 m c b :=
  U14_of m c b fun hmem => by
    simp only [List.mem_cons, List.mem_nil_iff, or_false] at hmem
    rcases hmem with rfl | rfl | rfl
    · exact hb (mem_arr spec7 4)
    · exact hb (mem_arr spec7 5)
    · exact hb (mem_arr spec7 6)

set_option backward.isDefEq.respectTransparency.types false in
def reg7 : RegionSeg (pcfgs (F := F)) adm (pdats m) () defs₀ Variants.none L9 lv9 7 :=
  mkReg (pdats m) 7 launch7 (fun c => body_obligation7 (rd (U13 m)) c) (fun c t => owed_eq7 (rd (U13 m)) c t)
    (fun c => rfl) (fun c w => q_eq7 (rd (U13 m)) c w) (U13 m) (U14 m)
    (fun c w => A_eq7 (rd (U13 m)) c w) (hF7 m) (hrest7 m)
    (fun c => Φ_in7 (rd (U13 m)) c) (fun c => Φ_out7 (rd (U13 m)) c)

/-! ### Region 8: inputs `main_v107_0`, `main_v85`, `main_v118` … `main_v121`; output `main_v122` -/

-- one comparison of a window's array type with its buffer's per window
set_option maxHeartbeats 1000000 in
theorem hF8 (c : Dev nD) : ∀ w : Fin 7, (dat8 (rd (U15 m)) c).arrAt w cfg8.N = U16 m c (Pipeline.arrRef spec8 w)
  | 0 => ((dat8 (rd (U15 m)) c).arrAt_in 0 rfl _).trans ((A_eq8 (rd (U15 m)) c 0).trans (U16_of m c main_v107_0 (by decide)).symm)
  | 1 => ((dat8 (rd (U15 m)) c).arrAt_in 1 rfl _).trans ((A_eq8 (rd (U15 m)) c 1).trans (U16_of m c main_v85 (by decide)).symm)
  | 2 => ((dat8 (rd (U15 m)) c).arrAt_in 2 rfl _).trans ((A_eq8 (rd (U15 m)) c 2).trans (U16_of m c main_v118 (by decide)).symm)
  | 3 => ((dat8 (rd (U15 m)) c).arrAt_in 3 rfl _).trans ((A_eq8 (rd (U15 m)) c 3).trans (U16_of m c main_v119 (by decide)).symm)
  | 4 => ((dat8 (rd (U15 m)) c).arrAt_in 4 rfl _).trans ((A_eq8 (rd (U15 m)) c 4).trans (U16_of m c main_v120 (by decide)).symm)
  | 5 => ((dat8 (rd (U15 m)) c).arrAt_in 5 rfl _).trans ((A_eq8 (rd (U15 m)) c 5).trans (U16_of m c main_v121 (by decide)).symm)
  | 6 => (U16_out m c).symm
  | ⟨_ + 7, h⟩ => absurd h (Nat.not_lt.2 (Nat.le_add_left _ _))
theorem hrest8 (c : Dev nD) (b : Ref sig .tc) (hb : b ∉ Finset.univ.image (Pipeline.arrRef spec8)) : U16 m c b = U15 m c b :=
  U16_of m c b fun hmem => by
    simp only [List.mem_cons, List.mem_nil_iff, or_false] at hmem
    subst hmem; exact hb (mem_arr spec8 6)

set_option backward.isDefEq.respectTransparency.types false in
def reg8 : RegionSeg (pcfgs (F := F)) adm (pdats m) () defs₀ Variants.none L9 lv9 8 :=
  mkReg (pdats m) 8 launch8 (fun c => body_obligation8 (rd (U15 m)) c) (fun c t => owed_eq8 (rd (U15 m)) c t)
    (fun c => rfl) (fun c w => q_eq8 (rd (U15 m)) c w) (U15 m) (U16 m)
    (fun c w => A_eq8 (rd (U15 m)) c w) (hF8 m) (hrest8 m)
    (fun c => Φ_in8 (rd (U15 m)) c) (fun c => Φ_out8 (rd (U15 m)) c)

end Records

end Cert.Kernel.Hand

end
-- ==== Proof.BitsRun9.lean ====
import proofs.«142371_j48498770706497_2_alg».proof.Proof.BitsLaunch9
import proofs.«142371_j48498770706497_2_alg».proof.Proof.BitsSegs9

/-! # The whole-program run at the concrete valuations -/

-- decided memberships over the program's references recurse past the default depth
set_option maxRecDepth 1628

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The run -/

section Run

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- THE RUN. From any memory `m` with zero counters, every weakly fair execution of the program terminates, and every
    final memory holds the result buffer at the last concrete valuation's contents and each argument as launched: the
    conditional run at the nine records, the generic thread states identified with the concrete ones. -/
theorem run9 : θ_run defs (onTc (τ := τ) (main (F := F))) ⟨m, fun _ => 0, ρ⟩ (fun r => ∀ c : Dev nD,
      r.2.mem ((c.tc : Thread nD τ).loc main_v144) = U19 m c main_v144
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  have h := run_cond (F := F) m (Ix := Unit) (U := UR sig nD τ) (Lvl := ℕ) emb₁ () Variants.none L9 lv9 (fun _ _ => rfl) ρ
    (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R9)
    (by
      refine Pipeline.initEach L9 lv9 fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V6_eq]; exact .rfl) (fun c => by rw [V7_eq]; exact .rfl)
    (reg4 m) (fun c => by rw [V8_eq]; exact .rfl) (fun c => by rw [V9_eq]; exact .rfl)
    (reg5 m) (fun c => by rw [V10_eq]; exact .rfl) (fun c => by rw [V11_eq]; exact .rfl)
    (reg6 m) (fun c => by rw [V11_eq]; exact .rfl) (fun c => by rw [V12_eq]; exact .rfl)
    (reg7 m) (fun c => by rw [V13_eq]; exact .rfl) (fun c => by rw [V14_eq]; exact .rfl)
    (reg8 m) (fun c => by rw [V15_eq]; exact .rfl) (fun c => by rw [V16_eq]; exact .rfl)
  -- the last generic valuation is the last concrete one
  exact (congrArg (θ_run defs (onTc (τ := τ) (main (F := F))) ⟨m, fun _ => 0, ρ⟩)
    (funext fun r => propext (forall_congr' fun c => by rw [V19_eq]))).mp h

end Run

end Cert.Kernel.Hand

end
-- ==== Proof.Launch9.lean ====
import proofs.«142371_j48498770706497_2_alg».proof.Proof.Gen.KernelIdeal.Regions

/-! # The whole-program run, given the regions' records

The program is nineteen items: ten host stretches and nine kernel regions. Between two items every core holds each
unscoped buffer whole at a valuation (the launch contents, then the host stretches' results, then what a region leaves at
unknowns) beside a rest state. From one segment record per region, entered from the valuation before it and left at the
one after it, every weakly fair execution from memory `m` with zero counters terminates, and every final memory holds the
result buffer at the LAST valuation's contents and each argument as launched. The result buffer is an unscoped reference,
so it is read off the last thread state like the arguments. -/

-- decided memberships over the program's references recurse past the default depth
set_option maxRecDepth 1628

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- THE CONDITIONAL RUN. For any user algebra, level assignment, launch dues and ghost resources, any rest states `E`
    the launch makes on every core at once and that end owing nothing, any contents the regions leave (`outs`) and any
    proof data: given, per region, a segment record entered from the thread state before it and left at the one after
    it, every weakly fair execution of the program from memory `m` with zero counters terminates, and every final memory
    holds the result buffer at the last valuation's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V8 m outs c) ∗ E 4 c) ⊢ R4.pre c)
    (hpost4 : ∀ c : Dev nD, R4.post c ⊢ iprop(StableHlo.held (c : Thread nD τ) (Pipeline.ucRefs τ sig) (V9 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V10 m outs c) ∗ E 5 c) ⊢ R5.pre c)
    (hpost5 : ∀ c : Dev nD, R5.post c ⊢ iprop(StableHlo.held (c : Thread nD τ) (Pipeline.ucRefs τ sig) (V11 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V11 m outs c) ∗ E 6 c) ⊢ R6.pre c)
    (hpost6 : ∀ c : Dev nD, R6.post c ⊢ iprop(StableHlo.held (c : Thread nD τ) (Pipeline.ucRefs τ sig) (V12 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V13 m outs c) ∗ E 7 c) ⊢ R7.pre c)
    (hpost7 : ∀ c : Dev nD, R7.post c ⊢ iprop(StableHlo.held (c : Thread nD τ) (Pipeline.ucRefs τ sig) (V14 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V15 m outs c) ∗ E 8 c) ⊢ R8.pre c)
    (hpost8 : ∀ c : Dev nD, R8.post c ⊢ iprop(StableHlo.held (c : Thread nD τ) (Pipeline.ucRefs τ sig) (V16 m outs c) ∗ E 9 c)) :
    θ_run defs (onTc (τ := τ) (main (F := F))) ⟨m, fun _ => 0, ρ⟩ (fun r => ∀ c : Dev nD,
      r.2.mem ((c.tc : Thread nD τ).loc main_v144) = V19 m outs c main_v144
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, hpre0 c, hpost0 c, hpre1 c, hpost1 c, hpre2 c, (hpost2 c).trans (hpre3 c), hpost3 c, hpre4 c, hpost4 c, hpre5 c, (hpost5 c).trans (hpre6 c), hpost6 c, hpre7 c, hpost7 c, hpre8 c, hpost8 c, .rfl, .rfl, sep_mono .rfl (hE9 c)⟩)
    (hinit := ?_) (QY := fun c s => s.mem ((c.tc : Thread nD τ).loc main_v144) = V19 m outs c main_v144 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact ⟨h (Proc.devRef .tc main_v144) (Finset.mem_filter.mpr ⟨StableHlo.devRef_mem_tcRefs main_v144, by decide⟩),
        (h (Proc.devRef .tc main_arg0) (Finset.mem_filter.mpr ⟨StableHlo.devRef_mem_tcRefs main_arg0, by decide⟩)).trans (V19_main_arg0 m outs c),
        (h (Proc.devRef .tc main_arg1) (Finset.mem_filter.mpr ⟨StableHlo.devRef_mem_tcRefs main_arg1, by decide⟩)).trans (V19_main_arg1 m outs c),
        (h (Proc.devRef .tc main_arg2) (Finset.mem_filter.mpr ⟨StableHlo.devRef_mem_tcRefs main_arg2, by decide⟩)).trans (V19_main_arg2 m outs c),
        (h (Proc.devRef .tc main_arg3) (Finset.mem_filter.mpr ⟨StableHlo.devRef_mem_tcRefs main_arg3, by decide⟩)).trans (V19_main_arg3 m outs c),
        (h (Proc.devRef .tc main_arg4) (Finset.mem_filter.mpr ⟨StableHlo.devRef_mem_tcRefs main_arg4, by decide⟩)).trans (V19_main_arg4 m outs c),
        (h (Proc.devRef .tc main_arg5) (Finset.mem_filter.mpr ⟨StableHlo.devRef_mem_tcRefs main_arg5, by decide⟩)).trans (V19_main_arg5 m outs c),
        (h (Proc.devRef .tc main_arg6) (Finset.mem_filter.mpr ⟨StableHlo.devRef_mem_tcRefs main_arg6, by decide⟩)).trans (V19_main_arg6 m outs c),
        (h (Proc.devRef .tc main_arg7) (Finset.mem_filter.mpr ⟨StableHlo.devRef_mem_tcRefs main_arg7, by decide⟩)).trans (V19_main_arg7 m outs c),
        (h (Proc.devRef .tc main_arg8) (Finset.mem_filter.mpr ⟨StableHlo.devRef_mem_tcRefs main_arg8, by decide⟩)).trans (V19_main_arg8 m outs c),
        (h (Proc.devRef .tc main_arg9) (Finset.mem_filter.mpr ⟨StableHlo.devRef_mem_tcRefs main_arg9, by decide⟩)).trans (V19_main_arg9 m outs c),
        (h (Proc.devRef .tc main_arg10) (Finset.mem_filter.mpr ⟨StableHlo.devRef_mem_tcRefs main_arg10, by decide⟩)).trans (V19_main_arg10 m outs c),
        (h (Proc.devRef .tc main_arg11) (Finset.mem_filter.mpr ⟨StableHlo.devRef_mem_tcRefs main_arg11, by decide⟩)).trans (V19_main_arg11 m outs c),
        (h (Proc.devRef .tc main_arg12) (Finset.mem_filter.mpr ⟨StableHlo.devRef_mem_tcRefs main_arg12, by decide⟩)).trans (V19_main_arg12 m outs c),
        (h (Proc.devRef .tc main_arg13) (Finset.mem_filter.mpr ⟨StableHlo.devRef_mem_tcRefs main_arg13, by decide⟩)).trans (V19_main_arg13 m outs c),
        (h (Proc.devRef .tc main_arg14) (Finset.mem_filter.mpr ⟨StableHlo.devRef_mem_tcRefs main_arg14, by decide⟩)).trans (V19_main_arg14 m outs c),
        (h (Proc.devRef .tc main_arg15) (Finset.mem_filter.mpr ⟨StableHlo.devRef_mem_tcRefs main_arg15, by decide⟩)).trans (V19_main_arg15 m outs c),
        (h (Proc.devRef .tc main_arg16) (Finset.mem_filter.mpr ⟨StableHlo.devRef_mem_tcRefs main_arg16, by decide⟩)).trans (V19_main_arg16 m outs c),
        (h (Proc.devRef .tc main_arg17) (Finset.mem_filter.mpr ⟨StableHlo.devRef_mem_tcRefs main_arg17, by decide⟩)).trans (V19_main_arg17 m outs c),
        (h (Proc.devRef .tc main_arg18) (Finset.mem_filter.mpr ⟨StableHlo.devRef_mem_tcRefs main_arg18, by decide⟩)).trans (V19_main_arg18 m outs c)⟩
    · iexact HSI

end Cert.KernelIdeal.Hand

end
-- ==== Proof.RegMatmul0.lean ====
/-
  The first matrix product of the program (pipeline 0 of @main), as a region entered from any contents `V` of the
  unscoped buffers.

  The kernel runs on a grid of 25 points over the rows. At point t it is handed three staging buffers: rows
  2000·t … 2000·t + 1999 of x (2000 × 128), all of w (128 × 256, fetched once, its block index never moves),
  and the result's block (2000 × 256), which is written back at every point. The body loads the two input
  blocks whole, and stores into the result's buffer — whole, through one rectangle that covers it — the product
  of the two blocks, each first truncated to bf16, accumulated from zero.

  This module gives: what the body leaves in the result's buffer as a function of the input blocks; the body's
  triple; the proof data of the pipeline (arrays at `V`, nothing owed, full shares, the invariant the scoped
  buffers the pipeline does not stage, carried through untouched); the two ends of that invariant; and the body
  obligation at every point. Nothing here depends on the float model.
-/
import proofs.«142371_j48498770706497_2_alg».proof.Proof.Gen.KernelIdeal.Launch
import proofs.«142371_j48498770706497_2_alg».proof.Proof.Gen.KernelIdeal.Skeleton
import proofs.«142371_j48498770706497_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of these extents is looked at once per coordinate of the long axis
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of x holds x's block of the point whenever the body runs, for any proof data whose array
    is `V`'s and whose body leaves the block in place: the window is an input, never idle and not cut, so what it
    holds is what a fetch at the point puts there, fetched at the point or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for w, which is fetched at the first point only: its block index is the same at every point, and the
    body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole, through the rectangle at offset zero of its own extents -/

abbrev rx0 : Rect S2000x128 := Rect.unit (s := S2000x128) ![0, 0] S2000x128.size inb_S2000x128_S2000x128_0_0
abbrev rw0 : Rect S128x256 := Rect.unit (s := S128x256) ![0, 0] S128x256.size inb_S128x256_S128x256_0_0
abbrev ro0 : Rect S2000x256 := Rect.unit (s := S2000x256) ![0, 0] S2000x256.size inb_S2000x256_S2000x256_0_0

/-- The two offsets are zero. -/
theorem zeros0 : (![0, 0] : Fin 2 → Nat) = fun _ => 0 := funext fun a => by fin_cases a <;> rfl

/-! ## What the body leaves in the result's buffer -/

/-- The result's staging buffer after the body, from the two input blocks: its one store, a piece over the whole
    buffer whose payload is the product of the loaded blocks. -/
def out0_2 (x0 : Vec F S2000x128 .f32) (x1 : Vec F S128x256 .f32) : Vec F S2000x256 .f32 :=
  View.canon [⟨ro0, k0_pay1 (View.ld x0 rx0) (View.ld x1 rw0)⟩]

/-- The store's rectangle is the whole buffer, so it covers it. -/
theorem cover0_2 (p0 : Vec F S2000x256 .f32) (y : S2000x256.Idx) :
    ∃ pc ∈ ([⟨ro0, p0⟩] : List (View.Piece (Elt F) S2000x256 .f32)), y ∈ pc.1.set :=
  ⟨_, List.mem_singleton_self _, View.mem_set_unit_zero (S := S2000x256) zeros0 inb_S2000x256_S2000x256_0_0 y⟩

/-- One covering store of whole loads: the buffer is left at the payload of the blocks themselves. -/
theorem out0_2_eq (x0 : Vec F S2000x128 .f32) (x1 : Vec F S128x256 .f32) : out0_2 x0 x1 = k0_pay1 x0 x1 := by
  unfold out0_2
  rw [View.canon_unit_zero (S := S2000x256) zeros0]
  rw [View.ld_unit_zero (S := S2000x128) zeros0, View.ld_unit_zero (S := S128x256) zeros0]

/-! ## The body's triple -/

set_option maxHeartbeats 1000000 in
/-- The kernel body on whole staging memrefs, the inputs' at contents `x0`, `x1` and the result's at anything, runs
    to its return holding the inputs' as they were and the result's at `out0_2 x0 x1`: two loads, a load of the
    result's buffer whose value is not used, and the covering store. -/
theorem sound_kernel0 (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`, entered at `V`: the three arrays as the region finds them; after the
    body at point `t` each input's buffer at its block and the result's at `out0_2` of the two blocks; the invariant
    the scoped buffers the pipeline does not stage, held at something, the same between any two points; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.scopedRest (Ix := Unit) (Name := ℕ) (U := UR sig nD τ) (Lvl := ℕ) (Val := Elt F) spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Every input array is held whole. -/
theorem q_eq0 (c : Dev nD) (w : Fin cfg0.W) : (dat0 V c).q w = fullShare := by
  dsimp only [dat0]

/-- The core owes nothing between any two points. -/
theorem owed_eq0 (c : Dev nD) : ∀ x, (dat0 V c).owed x = 0 := fun _ => by
  dsimp only [dat0]

/-- The invariant between any two points is the scoped rest. -/
theorem Φ_eq0 (c : Dev nD) (x : Fin (cfg0.N + 1)) :
    (dat0 V c).Φ x = Pipeline.scopedRest (Ix := Unit) (Name := ℕ) (U := UR sig nD τ) (Lvl := ℕ) (Val := Elt F) spec0 c := by
  dsimp only [dat0]

/-- Entering the region, the scoped rest is the invariant before the first point. -/
theorem Φ_in0 (c : Dev nD) :
    (Pipeline.scopedRest (Ix := Unit) (Name := ℕ) (U := UR sig nD τ) (Lvl := ℕ) (Val := Elt F) spec0 c) ⊢ (dat0 V c).Φ 0 := by
  rw [Φ_eq0]

/-- Leaving it, the invariant after the last point is the scoped rest. -/
theorem Φ_out0 (c : Dev nD) :
    (dat0 V c).Φ (Fin.last cfg0.N) ⊢ (Pipeline.scopedRest (Ix := Unit) (Name := ℕ) (U := UR sig nD τ) (Lvl := ℕ) (Val := Elt F) spec0 c) := by
  rw [Φ_eq0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, what the core owes, and the three current staging
    buffers, one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : Pipeline.BodyObligation (dat0 (F := F) V c) (defs₀ (F := F)) Variants.none () Set.univ := fun t => by
  rw [bigSep_W0, bigSep_W0]
  exact sound_body0 V c t

end Cert.KernelIdeal.Hand

end
-- ==== Proof.RegStats1Body.lean ====
/-
  Region 1 (the aggregation-plus-bias-and-statistics kernel), the body's runs.  The kernel visits 25 row blocks; it
  keeps two 1×256 accumulators across the points.  Three control cases: the first point zeroes the accumulators
  before adding; a middle point only adds; the last point adds and copies the accumulators to the two outputs.
  Each case's triple states what every buffer the case stores into ends holding, as the payload of its covering store.
-/
import proofs.«142371_j48498770706497_2_alg».proof.Proof.Gen.KernelIdeal.Launch
import proofs.«142371_j48498770706497_2_alg».proof.Proof.Gen.KernelIdeal.Skeleton
import proofs.«142371_j48498770706497_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (zero the two accumulators) is taken where the grid coordinate is zero. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second branch (copy the accumulators out) is taken at the last point. -/
abbrev cond1_1 (i : grid1.Coords) : Prop := k1_cond2 i = 1#1
theorem hcond1_1 : ∀ t : Fin cfg1.N, cond1_1 (grid1.coords t) ↔ t.val = 24 :=
  (by decide +kernel : ∀ t : Fin grid1.N, cond1_1 (grid1.coords t) ↔ t.val = 24)

/-- The two zero offsets, however spelt. -/
private theorem hz2 : (![0, 0] : Fin 2 → Nat) = fun _ => 0 := funext fun a => by fin_cases a <;> rfl

set_option maxHeartbeats 2000000 in
/-- THE FIRST point (the accumulators zeroed, then added to): from the four input blocks, the output block and the two accumulators at anything, the body leaves the block T = agg + xw·d2 + b in the output and the accumulators at zero + the column sums of T, zero + the column sums of T·T. -/
theorem kernelRun1_A (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond1_0 i) (hc1 : ¬cond1_1 i)
    (x0 x1 : Vec F S2000x256 .f32) (x2 : Vec F S2000x1 .f32) (x3 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay3 x0 x1 x2 x3) ∗ owns (c : Thread nD τ) arg8 fullShare (k1_pay4 x0 x1 x2 x3 k1_pay1) ∗ owns (c : Thread nD τ) arg9 fullShare (k1_pay5 x0 x1 x2 x3 k1_pay2)) -∗ K ⟨⟩))
      ⊢ wp frame (wpE (defs₀ (F := F)) Variants.none c none) E (cc1__agg_bias_stats_kernel i arg1 harg1 arg2 harg2 arg3 harg3 arg4 harg4 arg5 harg5 arg6 harg6 arg7 harg7 arg8 harg8 arg9 harg9) K := by
  sl_unfold [cc1__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- A MIDDLE point (neither branch taken): from the four input blocks, the output block at anything and the two accumulators at xs0, xs1, the body leaves the block T in the output and the accumulators at xs0 + the column sums of T, xs1 + the column sums of T·T (the payloads of its three stores, each one covering store). -/
theorem kernelRun1_B (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond1_0 i) (hc1 : ¬cond1_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay3 x0 x1 x2 x3) ∗ owns (c : Thread nD τ) arg8 fullShare (k1_pay4 x0 x1 x2 x3 xs0) ∗ owns (c : Thread nD τ) arg9 fullShare (k1_pay5 x0 x1 x2 x3 xs1)) -∗ K ⟨⟩))
      ⊢ wp frame (wpE (defs₀ (F := F)) Variants.none c none) E (cc1__agg_bias_stats_kernel i arg1 harg1 arg2 harg2 arg3 harg3 arg4 harg4 arg5 harg5 arg6 harg6 arg7 harg7 arg8 harg8 arg9 harg9) K := by
  sl_unfold [cc1__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- THE LAST point (the accumulators added to, then copied out): as a middle point, and the two sums' output buffers, at anything before, end at the accumulators' final contents. -/
theorem kernelRun1_C (c : Dev nD) (i : grid1.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond1_0 i) (hc1 : cond1_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay3 x0 x1 x2 x3) ∗ owns (c : Thread nD τ) arg6 fullShare (k1_pay4 x0 x1 x2 x3 xs0) ∗ owns (c : Thread nD τ) arg7 fullShare (k1_pay5 x0 x1 x2 x3 xs1) ∗ owns (c : Thread nD τ) arg8 fullShare (k1_pay4 x0 x1 x2 x3 xs0) ∗ owns (c : Thread nD τ) arg9 fullShare (k1_pay5 x0 x1 x2 x3 xs1)) -∗ K ⟨⟩))
      ⊢ wp frame (wpE (defs₀ (F := F)) Variants.none c none) E (cc1__agg_bias_stats_kernel i arg1 harg1 arg2 harg2 arg3 harg3 arg4 harg4 arg5 harg5 arg6 harg6 arg7 harg7 arg8 harg8 arg9 harg9) K := by
  sl_unfold [cc1__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H6]
  · iexists _; isplitr
    swap; · iexact H6
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H7]
  · iexists _; isplitr
    swap; · iexact H7
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

end Cert.KernelIdeal.Hand

end
-- ==== Proof.RegStats1.lean ====
/-
  Region 1 (the aggregation-plus-bias-and-statistics kernel) as a pipeline: its proof data, the invariant carrying the
  two accumulators, and the body obligation.  T = agg + xw·d2 + b is stored block by block; the accumulators hold,
  after n points, zero plus the column sums of T (of T·T) over the first n row blocks, added block by block; the two
  sums' outputs are stored at the last point only and idle before it.
-/
import proofs.«142371_j48498770706497_2_alg».proof.Proof.RegStats1Body
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the block of T, the two running column sums -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of T = agg + xw·d2 + b the body stores at point t. -/
def tblk1 (c : Dev nD) (t : Fin cfg1.N) : Vec F S2000x256 .f32 := k1_pay3 (iblk1 V c 0 t) (iblk1 V c 1 t) (iblk1 V c 2 t) (iblk1 V c 3 t)

/-- The two accumulators after n points: zero, then at each point the block's column sums of T (of T·T) added. -/
def acc1 (c : Dev nD) : (n : ℕ) → n ≤ cfg1.N → Vec F S1x256 .f32 × Vec F S1x256 .f32
  | 0, _ => (k1_pay1, k1_pay2)
  | n + 1, hn => (k1_pay4 (iblk1 V c 0 ⟨n, Nat.lt_of_succ_le hn⟩) (iblk1 V c 1 ⟨n, Nat.lt_of_succ_le hn⟩) (iblk1 V c 2 ⟨n, Nat.lt_of_succ_le hn⟩) (iblk1 V c 3 ⟨n, Nat.lt_of_succ_le hn⟩) (acc1 c n (Nat.le_of_succ_le hn)).1,
      k1_pay5 (iblk1 V c 0 ⟨n, Nat.lt_of_succ_le hn⟩) (iblk1 V c 1 ⟨n, Nat.lt_of_succ_le hn⟩) (iblk1 V c 2 ⟨n, Nat.lt_of_succ_le hn⟩) (iblk1 V c 3 ⟨n, Nat.lt_of_succ_le hn⟩) (acc1 c n (Nat.le_of_succ_le hn)).2)

theorem acc1_zero (c : Dev nD) (n : ℕ) (h : n ≤ cfg1.N) (hz : n = 0) : acc1 V c n h = (k1_pay1, k1_pay2) := by
  subst hz; rfl

theorem acc1_succ (c : Dev nD) (t : Fin cfg1.N) :
    acc1 V c (t.val + 1) t.isLt = (k1_pay4 (iblk1 V c 0 t) (iblk1 V c 1 t) (iblk1 V c 2 t) (iblk1 V c 3 t) (acc1 V c t.val (Nat.le_of_lt t.isLt)).1,
      k1_pay5 (iblk1 V c 0 t) (iblk1 V c 1 t) (iblk1 V c 2 t) (iblk1 V c 3 t) (acc1 V c t.val (Nat.le_of_lt t.isLt)).2) := rfl

/-! ## The invariant: the two scratch accumulators at their running sums, beside the rest of the scoped buffers -/

abbrev scM1_0 : Memref sig .tc .vmem S1x256 .f32 := Memref.whole cc1_scratch0
abbrev scM1_1 : Memref sig .tc .vmem S1x256 .f32 := Memref.whole cc1_scratch1

/-- Before the first point the scoped rest as the region finds it (the accumulators at anything: the first point
    zeroes them); after n + 1 points the accumulators at acc1 (n + 1). -/
def Phi1 (c : Dev nD) : (n : ℕ) → n ≤ cfg1.N → sProp 𝕄
  | 0, _ => (Pipeline.scopedRest (Ix := Unit) (Name := ℕ) (U := UR sig nD τ) (Lvl := ℕ) (Val := Elt F) spec1 c)
  | n + 1, hn => iprop(iprop(owns (c : Thread nD τ) scM1_0 fullShare (acc1 V c (n + 1) hn).1 ∗ owns (c : Thread nD τ) scM1_1 fullShare (acc1 V c (n + 1) hn).2)
      ∗ (Pipeline.scopedRestBut (Ix := Unit) (Name := ℕ) (U := UR sig nD τ) (Lvl := ℕ) (Val := Elt F) spec1 c [cc1_scratch0, cc1_scratch1]))

theorem Phi1_zero (c : Dev nD) (n : ℕ) (h : n ≤ cfg1.N) (hz : n = 0) : Phi1 V c n h = (Pipeline.scopedRest (Ix := Unit) (Name := ℕ) (U := UR sig nD τ) (Lvl := ℕ) (Val := Elt F) spec1 c) := by
  subst hz; rfl

theorem Phi1_pos (c : Dev nD) (n : ℕ) (h : n ≤ cfg1.N) (hz : n ≠ 0) :
    Phi1 V c n h = iprop(iprop(owns (c : Thread nD τ) scM1_0 fullShare (acc1 V c n h).1 ∗ owns (c : Thread nD τ) scM1_1 fullShare (acc1 V c n h).2)
      ∗ (Pipeline.scopedRestBut (Ix := Unit) (Name := ℕ) (U := UR sig nD τ) (Lvl := ℕ) (Val := Elt F) spec1 c [cc1_scratch0, cc1_scratch1])) := by
  cases n with
  | zero => exact absurd rfl hz
  | succ n => rfl

/-- The scoped rest with the two accumulators as memrefs owned at some contents. -/
theorem scopedRest1_owns (c : Dev nD) :
    ((Pipeline.scopedRest (Ix := Unit) (Name := ℕ) (U := UR sig nD τ) (Lvl := ℕ) (Val := Elt F) spec1 c) : sProp 𝕄)
      = iprop(iprop((∃ d, owns (c : Thread nD τ) scM1_0 fullShare d) ∗ (∃ d, owns (c : Thread nD τ) scM1_1 fullShare d)) ∗ (Pipeline.scopedRestBut (Ix := Unit) (Name := ℕ) (U := UR sig nD τ) (Lvl := ℕ) (Val := Elt F) spec1 c [cc1_scratch0, cc1_scratch1])) := by
  rw [scopedRest1_split]; simp only [scM1_0, scM1_1, owns_whole]; rfl

/-! ## The proof data -/

/-- The proof data of region 1 on core c: the arrays as the region finds them; after the body at point t each input's
    buffer at its block, the first output's at the block of T, the two sums' outputs at the accumulators after t + 1
    points (consulted at the last point only: idle before); the invariant above; nothing owed; full shares. -/
def dat1 (c : Dev nD) : Pipeline.Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => tblk1 V c t
    | ⟨5, _⟩ => (acc1 V c (t.val + 1) t.isLt).1
    | ⟨6, _⟩ => (acc1 V c (t.val + 1) t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by dsimp only [dat1]
theorem owed_eq1 (c : Dev nD) : ∀ x, (dat1 V c).owed x = 0 := fun _ => by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = tblk1 V c t := by dsimp only [dat1]
theorem after1_5 (c : Dev nD) (t : Fin cfg1.N) : (dat1 V c).after 5 t = (acc1 V c (t.val + 1) t.isLt).1 := by dsimp only [dat1]
theorem after1_6 (c : Dev nD) (t : Fin cfg1.N) : (dat1 V c).after 6 t = (acc1 V c (t.val + 1) t.isLt).2 := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

/-- What the region is handed is the invariant before the first point. -/
theorem Φ_in1 (c : Dev nD) : (Pipeline.scopedRest (Ix := Unit) (Name := ℕ) (U := UR sig nD τ) (Lvl := ℕ) (Val := Elt F) spec1 c) ⊢ (dat1 V c).Φ 0 := by
  rw [show (dat1 V c).Φ 0 = Phi1 V c 0 (Nat.zero_le _) from rfl, Phi1_zero V c 0 _ rfl]
  try exact Idealize.SL.BI.Entails.refl _

/-- After the last point the invariant gives the scoped rest back: the accumulators' contents forgotten. -/
theorem Φ_out1 (c : Dev nD) : (dat1 V c).Φ (Fin.last cfg1.N) ⊢ (Pipeline.scopedRest (Ix := Unit) (Name := ℕ) (U := UR sig nD τ) (Lvl := ℕ) (Val := Elt F) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 25 := N_1; omega), scopedRest1_owns]
  iintro ⟨⟨HS0, HS1⟩, HR⟩
  isplitl [HS0 HS1]
  · isplitl [HS0]
    · iexists _; iexact HS0
    iexists _; iexact HS1
  iexact HR

/-! ## What each window's staging buffer holds when the body runs -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The body obligation -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem acc1_succ_fst (c : Dev nD) (t : Fin cfg1.N) :
    (acc1 V c (t.val + 1) t.isLt).1 = k1_pay4 (iblk1 V c 0 t) (iblk1 V c 1 t) (iblk1 V c 2 t) (iblk1 V c 3 t) (acc1 V c t.val (Nat.le_of_lt t.isLt)).1 := rfl
theorem acc1_succ_snd (c : Dev nD) (t : Fin cfg1.N) :
    (acc1 V c (t.val + 1) t.isLt).2 = k1_pay5 (iblk1 V c 0 t) (iblk1 V c 1 t) (iblk1 V c 2 t) (iblk1 V c 3 t) (acc1 V c t.val (Nat.le_of_lt t.isLt)).2 := rfl
theorem acc1_zero_fst (c : Dev nD) (n : ℕ) (h : n ≤ cfg1.N) (hz : n = 0) : (acc1 V c n h).1 = k1_pay1 := by subst hz; rfl
theorem acc1_zero_snd (c : Dev nD) (n : ℕ) (h : n ≤ cfg1.N) (hz : n = 0) : (acc1 V c n h).2 = k1_pay2 := by subst hz; rfl

set_option maxHeartbeats 4000000 in
/-- The body at any point: the inputs' buffers hold their blocks; the point is the first, a middle one or the last;
    the invariant hands the body the accumulators at what the points before left (at anything at the first point) and
    takes them back at this point's sums; the two sums' output buffers pass through untouched except at the last point,
    where they end at the final sums; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_pos V c _ _ (Nat.succ_ne_zero _), acc1_succ_fst, acc1_succ_snd]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  unfold tblk1
  have hN : t.val < 25 := lt_of_lt_of_eq t.isLt (show cfg1.N = 25 from N_1)
  by_cases h1 : t.val = 24
  · have hc1 : cond1_1 (grid1.coords t) := (hcond1_1 t).mpr h1
    have hc0 : ¬cond1_0 (grid1.coords t) := fun h => by have := (hcond1_0 t).mp h; omega
    rw [show (dat1 V c).leavesExact 5 t = owns (c : Thread nD τ) (ms1_5 t) fullShare ((dat1 V c).after 5 t) from by
      unfold Dat.leavesExact; rw [liveAt1_5 t hc1], after1_5, acc1_succ_fst]
    rw [show (dat1 V c).leavesExact 6 t = owns (c : Thread nD τ) (ms1_6 t) fullShare ((dat1 V c).after 6 t) from by
      unfold Dat.leavesExact; rw [liveAt1_6 t hc1], after1_6, acc1_succ_snd]
    rw [Phi1_castSucc, Phi1_pos V c _ _ (by omega)]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
    iapply (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬cond1_1 (grid1.coords t) := fun h => h1 ((hcond1_1 t).mp h)
    rw [Dat.leavesExact_idle (dat1 V c) 5 t (idleAt1_5 t hc1) (noFlush1_5 t hc1), Dat.leavesExact_idle (dat1 V c) 6 t (idleAt1_6 t hc1) (noFlush1_6 t hc1)]
    by_cases h0 : t.val = 0
    · have hc0 : cond1_0 (grid1.coords t) := (hcond1_0 t).mpr h0
      rw [Phi1_castSucc, Phi1_zero V c _ _ h0, scopedRest1_owns, acc1_zero_fst V c _ _ h0, acc1_zero_snd V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond1_0 (grid1.coords t) := fun h => h0 ((hcond1_0 t).mp h)
      rw [Phi1_castSucc, Phi1_pos V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation1 (c : Dev nD) : Pipeline.BodyObligation (dat1 V c) (defs₀ (F := F)) Variants.none () Set.univ := fun t => by
  rw [bigSep_W1, bigSep_W1]
  exact sound_body1 V c t

end Cert.KernelIdeal.Hand

end
-- ==== Proof.RegBn2.lean ====
/-
  Region 2 of @main: the batch-normalisation kernel with given statistics followed by the rectifier
  (custom_call 2, pipeline 2), a grid of 25 points over row-blocks of 2000 rows of a 50000×256 array.

  Stated at a PARAMETER `V` — what every unscoped buffer of the TensorCore holds when the region is entered —:
  the windows' blocks, what the body leaves in the output's staging buffer as a function of the input blocks
  (its one store as a canonical piece over the skeleton's payload), the body's triple, the proof data, and the
  body obligation. The invariant between points is the scoped rest, carried through unread.
-/
import proofs.«142371_j48498770706497_2_alg».proof.Proof.Gen.KernelIdeal.Launch
import proofs.«142371_j48498770706497_2_alg».proof.Proof.Gen.KernelIdeal.Skeleton
import proofs.«142371_j48498770706497_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every unscoped buffer of the TensorCore holds when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    window's block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched
    window's block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched
    window's block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched
    window's block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched
    window's block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: the whole block, the whole row of parameters -/

abbrev rBlk2 : Rect S2000x256 := Rect.unit (s := S2000x256) ![0, 0] S2000x256.size inb_S2000x256_S2000x256_0_0
abbrev rRow2 : Rect S1x256 := Rect.unit (s := S1x256) ![0, 0] S1x256.size inb_S1x256_S1x256_0_0

/-- The literal offsets of both rectangles are zero on every axis. -/
theorem hz2 : (![0, 0] : Fin 2 → Nat) = fun _ => 0 := funext fun a => by fin_cases a <;> rfl

/-! ## What the body leaves in the output window's buffer -/

/-- Window 5's staging buffer after the body, from the input windows' blocks `x0` (the aggregate), `x1` (scale),
    `x2` (shift), `x3` (mean), `x4` (variance): its one store, over the whole block, of the normalised and
    rectified block. -/
def out2_5 (x0 : Vec F S2000x256 .f32) (x1 x2 x3 x4 : Vec F S1x256 .f32) : Vec F S2000x256 .f32 :=
  View.canon [⟨rBlk2, k2_pay1 (View.ld x0 rBlk2) (View.ld x1 rRow2) (View.ld x3 rRow2) (View.ld x4 rRow2) (View.ld x2 rRow2)⟩]

/-- The one store covers the buffer: its rectangle is the whole block. -/
theorem cover2_5 (p0 : Vec F S2000x256 .f32) (y : S2000x256.Idx) :
    ∃ pc ∈ ([⟨rBlk2, p0⟩] : List (View.Piece (Elt F) S2000x256 .f32)), y ∈ pc.1.set :=
  ⟨_, List.mem_singleton_self _, View.mem_set_unit_zero hz2 inb_S2000x256_S2000x256_0_0 y⟩

/-! ## The body's triple -/

set_option maxHeartbeats 1000000 in
/-- The kernel body on whole staging memrefs, the inputs' at read contents `x0 … x4` and the output's at anything,
    runs to the continuation holding the inputs' as they were and the output's at `out2_5` of them. -/
theorem sound_kernel2 (c : Dev nD) (E : Set ℕ) (i : grid2.Coords)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The invariant between the region's points: the scoped buffers the pipeline does not stage, held at something. -/
abbrev Φ2 (c : Dev nD) : sProp 𝕄 :=
  Pipeline.scopedRest (Ix := Unit) (Name := ℕ) (U := UR sig nD τ) (Lvl := ℕ) (Val := Elt F) spec2 c

/-- The proof data of pipeline 2 on core `c`: the arrays as the region finds them; after the body at point `t` each
    input's buffer at its block and the output's at `out2_5` of the input blocks; the invariant the scoped rest;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Φ2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- Every array is held whole. -/
theorem q_eq2 (c : Dev nD) (w : Fin cfg2.W) : (dat2 V c).q w = fullShare := by
  dsimp only [dat2]

/-- The core owes nothing at any point. -/
theorem owed_eq2 (c : Dev nD) : ∀ x, (dat2 V c).owed x = 0 := fun _ => by
  dsimp only [dat2]

/-- The invariant at the first point is the scoped rest the region is entered with, -/
theorem Φ_in2 (c : Dev nD) :
    (Pipeline.scopedRest (Ix := Unit) (Name := ℕ) (U := UR sig nD τ) (Lvl := ℕ) (Val := Elt F) spec2 c) ⊢ (dat2 V c).Φ 0 := by
  dsimp only [dat2]; exact .rfl

/-- and at the last point it is given back. -/
theorem Φ_out2 (c : Dev nD) :
    (dat2 V c).Φ (Fin.last cfg2.N) ⊢ (Pipeline.scopedRest (Ix := Unit) (Name := ℕ) (U := UR sig nD τ) (Lvl := ℕ) (Val := Elt F) spec2 c) := by
  dsimp only [dat2]; exact .rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.RegMatmul3.lean ====
/-
  The second matrix product of the program (pipeline 3 of @main), as a region entered from any contents `V` of the
  unscoped buffers.

  The kernel runs on a grid of 25 points over the rows. At point t it is handed three staging buffers: rows
  2000·t … 2000·t + 1999 of x (2000 × 256), all of w (256 × 256, fetched once, its block index never moves),
  and the result's block (2000 × 256), which is written back at every point. The body loads the two input
  blocks whole, and stores into the result's buffer — whole, through one rectangle that covers it — the product
  of the two blocks, each first truncated to bf16, accumulated from zero.

  This module gives: what the body leaves in the result's buffer as a function of the input blocks; the body's
  triple; the proof data of the pipeline (arrays at `V`, nothing owed, full shares, the invariant the scoped
  buffers the pipeline does not stage, carried through untouched); the two ends of that invariant; and the body
  obligation at every point. Nothing here depends on the float model.
-/
import proofs.«142371_j48498770706497_2_alg».proof.Proof.Gen.KernelIdeal.Launch
import proofs.«142371_j48498770706497_2_alg».proof.Proof.Gen.KernelIdeal.Skeleton
import proofs.«142371_j48498770706497_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of these extents is looked at once per coordinate of the long axis
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of x holds x's block of the point whenever the body runs, for any proof data whose array
    is `V`'s and whose body leaves the block in place: the window is an input, never idle and not cut, so what it
    holds is what a fetch at the point puts there, fetched at the point or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for w, which is fetched at the first point only: its block index is the same at every point, and the
    body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging buffer whole, through the rectangle at offset zero of its own extents -/

abbrev rx3 : Rect S2000x256 := Rect.unit (s := S2000x256) ![0, 0] S2000x256.size inb_S2000x256_S2000x256_0_0
abbrev rw3 : Rect S256x256 := Rect.unit (s := S256x256) ![0, 0] S256x256.size inb_S256x256_S256x256_0_0
abbrev ro3 : Rect S2000x256 := Rect.unit (s := S2000x256) ![0, 0] S2000x256.size inb_S2000x256_S2000x256_0_0

/-- The two offsets are zero. -/
theorem zeros3 : (![0, 0] : Fin 2 → Nat) = fun _ => 0 := funext fun a => by fin_cases a <;> rfl

/-! ## What the body leaves in the result's buffer -/

/-- The result's staging buffer after the body, from the two input blocks: its one store, a piece over the whole
    buffer whose payload is the product of the loaded blocks. -/
def out3_2 (x0 : Vec F S2000x256 .f32) (x1 : Vec F S256x256 .f32) : Vec F S2000x256 .f32 :=
  View.canon [⟨ro3, k3_pay1 (View.ld x0 rx3) (View.ld x1 rw3)⟩]

/-- The store's rectangle is the whole buffer, so it covers it. -/
theorem cover3_2 (p0 : Vec F S2000x256 .f32) (y : S2000x256.Idx) :
    ∃ pc ∈ ([⟨ro3, p0⟩] : List (View.Piece (Elt F) S2000x256 .f32)), y ∈ pc.1.set :=
  ⟨_, List.mem_singleton_self _, View.mem_set_unit_zero (S := S2000x256) zeros3 inb_S2000x256_S2000x256_0_0 y⟩

/-- One covering store of whole loads: the buffer is left at the payload of the blocks themselves. -/
theorem out3_2_eq (x0 : Vec F S2000x256 .f32) (x1 : Vec F S256x256 .f32) : out3_2 x0 x1 = k3_pay1 x0 x1 := by
  unfold out3_2
  rw [View.canon_unit_zero (S := S2000x256) zeros3]
  rw [View.ld_unit_zero (S := S2000x256) zeros3, View.ld_unit_zero (S := S256x256) zeros3]

/-! ## The body's triple -/

set_option maxHeartbeats 1000000 in
/-- The kernel body on whole staging memrefs, the inputs' at contents `x0`, `x1` and the result's at anything, runs
    to its return holding the inputs' as they were and the result's at `out3_2 x0 x1`: two loads, a load of the
    result's buffer whose value is not used, and the covering store. -/
theorem sound_kernel3 (c : Dev nD) (E : Set ℕ) (i : grid3.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`, entered at `V`: the three arrays as the region finds them; after the
    body at point `t` each input's buffer at its block and the result's at `out3_2` of the two blocks; the invariant
    the scoped buffers the pipeline does not stage, held at something, the same between any two points; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.scopedRest (Ix := Unit) (Name := ℕ) (U := UR sig nD τ) (Lvl := ℕ) (Val := Elt F) spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- Every input array is held whole. -/
theorem q_eq3 (c : Dev nD) (w : Fin cfg3.W) : (dat3 V c).q w = fullShare := by
  dsimp only [dat3]

/-- The core owes nothing between any two points. -/
theorem owed_eq3 (c : Dev nD) : ∀ x, (dat3 V c).owed x = 0 := fun _ => by
  dsimp only [dat3]

/-- The invariant between any two points is the scoped rest. -/
theorem Φ_eq3 (c : Dev nD) (x : Fin (cfg3.N + 1)) :
    (dat3 V c).Φ x = Pipeline.scopedRest (Ix := Unit) (Name := ℕ) (U := UR sig nD τ) (Lvl := ℕ) (Val := Elt F) spec3 c := by
  dsimp only [dat3]

/-- Entering the region, the scoped rest is the invariant before the first point. -/
theorem Φ_in3 (c : Dev nD) :
    (Pipeline.scopedRest (Ix := Unit) (Name := ℕ) (U := UR sig nD τ) (Lvl := ℕ) (Val := Elt F) spec3 c) ⊢ (dat3 V c).Φ 0 := by
  rw [Φ_eq3]

/-- Leaving it, the invariant after the last point is the scoped rest. -/
theorem Φ_out3 (c : Dev nD) :
    (dat3 V c).Φ (Fin.last cfg3.N) ⊢ (Pipeline.scopedRest (Ix := Unit) (Name := ℕ) (U := UR sig nD τ) (Lvl := ℕ) (Val := Elt F) spec3 c) := by
  rw [Φ_eq3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`: the invariant, what the core owes, and the three current staging
    buffers, one by one. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : Pipeline.BodyObligation (dat3 (F := F) V c) (defs₀ (F := F)) Variants.none () Set.univ := fun t => by
  rw [bigSep_W3, bigSep_W3]
  exact sound_body3 V c t

end Cert.KernelIdeal.Hand

end
-- ==== Proof.RegStats4Body.lean ====
/-
  Region 4 (the aggregation-plus-bias-and-statistics kernel), the body's runs.  The kernel visits 25 row blocks; it
  keeps two 1×256 accumulators across the points.  Three control cases: the first point zeroes the accumulators
  before adding; a middle point only adds; the last point adds and copies the accumulators to the two outputs.
  Each case's triple states what every buffer the case stores into ends holding, as the payload of its covering store.
-/
import proofs.«142371_j48498770706497_2_alg».proof.Proof.Gen.KernelIdeal.Launch
import proofs.«142371_j48498770706497_2_alg».proof.Proof.Gen.KernelIdeal.Skeleton
import proofs.«142371_j48498770706497_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (zero the two accumulators) is taken where the grid coordinate is zero. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The second branch (copy the accumulators out) is taken at the last point. -/
abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

/-- The two zero offsets, however spelt. -/
private theorem hz2 : (![0, 0] : Fin 2 → Nat) = fun _ => 0 := funext fun a => by fin_cases a <;> rfl

set_option maxHeartbeats 2000000 in
/-- THE FIRST point (the accumulators zeroed, then added to): from the four input blocks, the output block and the two accumulators at anything, the body leaves the block T = agg + xw·d2 + b in the output and the accumulators at zero + the column sums of T, zero + the column sums of T·T. -/
theorem kernelRun4_A (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond4_0 i) (hc1 : ¬cond4_1 i)
    (x0 x1 : Vec F S2000x256 .f32) (x2 : Vec F S2000x1 .f32) (x3 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k4_pay3 x0 x1 x2 x3) ∗ owns (c : Thread nD τ) arg8 fullShare (k4_pay4 x0 x1 x2 x3 k4_pay1) ∗ owns (c : Thread nD τ) arg9 fullShare (k4_pay5 x0 x1 x2 x3 k4_pay2)) -∗ K ⟨⟩))
      ⊢ wp frame (wpE (defs₀ (F := F)) Variants.none c none) E (cc4__agg_bias_stats_kernel i arg1 harg1 arg2 harg2 arg3 harg3 arg4 harg4 arg5 harg5 arg6 harg6 arg7 harg7 arg8 harg8 arg9 harg9) K := by
  sl_unfold [cc4__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- A MIDDLE point (neither branch taken): from the four input blocks, the output block at anything and the two accumulators at xs0, xs1, the body leaves the block T in the output and the accumulators at xs0 + the column sums of T, xs1 + the column sums of T·T (the payloads of its three stores, each one covering store). -/
theorem kernelRun4_B (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond4_0 i) (hc1 : ¬cond4_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k4_pay3 x0 x1 x2 x3) ∗ owns (c : Thread nD τ) arg8 fullShare (k4_pay4 x0 x1 x2 x3 xs0) ∗ owns (c : Thread nD τ) arg9 fullShare (k4_pay5 x0 x1 x2 x3 xs1)) -∗ K ⟨⟩))
      ⊢ wp frame (wpE (defs₀ (F := F)) Variants.none c none) E (cc4__agg_bias_stats_kernel i arg1 harg1 arg2 harg2 arg3 harg3 arg4 harg4 arg5 harg5 arg6 harg6 arg7 harg7 arg8 harg8 arg9 harg9) K := by
  sl_unfold [cc4__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- THE LAST point (the accumulators added to, then copied out): as a middle point, and the two sums' output buffers, at anything before, end at the accumulators' final contents. -/
theorem kernelRun4_C (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond4_0 i) (hc1 : cond4_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k4_pay3 x0 x1 x2 x3) ∗ owns (c : Thread nD τ) arg6 fullShare (k4_pay4 x0 x1 x2 x3 xs0) ∗ owns (c : Thread nD τ) arg7 fullShare (k4_pay5 x0 x1 x2 x3 xs1) ∗ owns (c : Thread nD τ) arg8 fullShare (k4_pay4 x0 x1 x2 x3 xs0) ∗ owns (c : Thread nD τ) arg9 fullShare (k4_pay5 x0 x1 x2 x3 xs1)) -∗ K ⟨⟩))
      ⊢ wp frame (wpE (defs₀ (F := F)) Variants.none c none) E (cc4__agg_bias_stats_kernel i arg1 harg1 arg2 harg2 arg3 harg3 arg4 harg4 arg5 harg5 arg6 harg6 arg7 harg7 arg8 harg8 arg9 harg9) K := by
  sl_unfold [cc4__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H6]
  · iexists _; isplitr
    swap; · iexact H6
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H7]
  · iexists _; isplitr
    swap; · iexact H7
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

end Cert.KernelIdeal.Hand

end
-- ==== Proof.RegStats4.lean ====
/-
  Region 4 (the aggregation-plus-bias-and-statistics kernel) as a pipeline: its proof data, the invariant carrying the
  two accumulators, and the body obligation.  T = agg + xw·d2 + b is stored block by block; the accumulators hold,
  after n points, zero plus the column sums of T (of T·T) over the first n row blocks, added block by block; the two
  sums' outputs are stored at the last point only and idle before it.
-/
import proofs.«142371_j48498770706497_2_alg».proof.Proof.RegStats4Body
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the block of T, the two running column sums -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of T = agg + xw·d2 + b the body stores at point t. -/
def tblk4 (c : Dev nD) (t : Fin cfg4.N) : Vec F S2000x256 .f32 := k4_pay3 (iblk4 V c 0 t) (iblk4 V c 1 t) (iblk4 V c 2 t) (iblk4 V c 3 t)

/-- The two accumulators after n points: zero, then at each point the block's column sums of T (of T·T) added. -/
def acc4 (c : Dev nD) : (n : ℕ) → n ≤ cfg4.N → Vec F S1x256 .f32 × Vec F S1x256 .f32
  | 0, _ => (k4_pay1, k4_pay2)
  | n + 1, hn => (k4_pay4 (iblk4 V c 0 ⟨n, Nat.lt_of_succ_le hn⟩) (iblk4 V c 1 ⟨n, Nat.lt_of_succ_le hn⟩) (iblk4 V c 2 ⟨n, Nat.lt_of_succ_le hn⟩) (iblk4 V c 3 ⟨n, Nat.lt_of_succ_le hn⟩) (acc4 c n (Nat.le_of_succ_le hn)).1,
      k4_pay5 (iblk4 V c 0 ⟨n, Nat.lt_of_succ_le hn⟩) (iblk4 V c 1 ⟨n, Nat.lt_of_succ_le hn⟩) (iblk4 V c 2 ⟨n, Nat.lt_of_succ_le hn⟩) (iblk4 V c 3 ⟨n, Nat.lt_of_succ_le hn⟩) (acc4 c n (Nat.le_of_succ_le hn)).2)

theorem acc4_zero (c : Dev nD) (n : ℕ) (h : n ≤ cfg4.N) (hz : n = 0) : acc4 V c n h = (k4_pay1, k4_pay2) := by
  subst hz; rfl

theorem acc4_succ (c : Dev nD) (t : Fin cfg4.N) :
    acc4 V c (t.val + 1) t.isLt = (k4_pay4 (iblk4 V c 0 t) (iblk4 V c 1 t) (iblk4 V c 2 t) (iblk4 V c 3 t) (acc4 V c t.val (Nat.le_of_lt t.isLt)).1,
      k4_pay5 (iblk4 V c 0 t) (iblk4 V c 1 t) (iblk4 V c 2 t) (iblk4 V c 3 t) (acc4 V c t.val (Nat.le_of_lt t.isLt)).2) := rfl

/-! ## The invariant: the two scratch accumulators at their running sums, beside the rest of the scoped buffers -/

abbrev scM4_0 : Memref sig .tc .vmem S1x256 .f32 := Memref.whole cc4_scratch0
abbrev scM4_1 : Memref sig .tc .vmem S1x256 .f32 := Memref.whole cc4_scratch1

/-- Before the first point the scoped rest as the region finds it (the accumulators at anything: the first point
    zeroes them); after n + 1 points the accumulators at acc4 (n + 1). -/
def Phi4 (c : Dev nD) : (n : ℕ) → n ≤ cfg4.N → sProp 𝕄
  | 0, _ => (Pipeline.scopedRest (Ix := Unit) (Name := ℕ) (U := UR sig nD τ) (Lvl := ℕ) (Val := Elt F) spec4 c)
  | n + 1, hn => iprop(iprop(owns (c : Thread nD τ) scM4_0 fullShare (acc4 V c (n + 1) hn).1 ∗ owns (c : Thread nD τ) scM4_1 fullShare (acc4 V c (n + 1) hn).2)
      ∗ (Pipeline.scopedRestBut (Ix := Unit) (Name := ℕ) (U := UR sig nD τ) (Lvl := ℕ) (Val := Elt F) spec4 c [cc4_scratch0, cc4_scratch1]))

theorem Phi4_zero (c : Dev nD) (n : ℕ) (h : n ≤ cfg4.N) (hz : n = 0) : Phi4 V c n h = (Pipeline.scopedRest (Ix := Unit) (Name := ℕ) (U := UR sig nD τ) (Lvl := ℕ) (Val := Elt F) spec4 c) := by
  subst hz; rfl

theorem Phi4_pos (c : Dev nD) (n : ℕ) (h : n ≤ cfg4.N) (hz : n ≠ 0) :
    Phi4 V c n h = iprop(iprop(owns (c : Thread nD τ) scM4_0 fullShare (acc4 V c n h).1 ∗ owns (c : Thread nD τ) scM4_1 fullShare (acc4 V c n h).2)
      ∗ (Pipeline.scopedRestBut (Ix := Unit) (Name := ℕ) (U := UR sig nD τ) (Lvl := ℕ) (Val := Elt F) spec4 c [cc4_scratch0, cc4_scratch1])) := by
  cases n with
  | zero => exact absurd rfl hz
  | succ n => rfl

/-- The scoped rest with the two accumulators as memrefs owned at some contents. -/
theorem scopedRest4_owns (c : Dev nD) :
    ((Pipeline.scopedRest (Ix := Unit) (Name := ℕ) (U := UR sig nD τ) (Lvl := ℕ) (Val := Elt F) spec4 c) : sProp 𝕄)
      = iprop(iprop((∃ d, owns (c : Thread nD τ) scM4_0 fullShare d) ∗ (∃ d, owns (c : Thread nD τ) scM4_1 fullShare d)) ∗ (Pipeline.scopedRestBut (Ix := Unit) (Name := ℕ) (U := UR sig nD τ) (Lvl := ℕ) (Val := Elt F) spec4 c [cc4_scratch0, cc4_scratch1])) := by
  rw [scopedRest4_split]; simp only [scM4_0, scM4_1, owns_whole]; rfl

/-! ## The proof data -/

/-- The proof data of region 4 on core c: the arrays as the region finds them; after the body at point t each input's
    buffer at its block, the first output's at the block of T, the two sums' outputs at the accumulators after t + 1
    points (consulted at the last point only: idle before); the invariant above; nothing owed; full shares. -/
def dat4 (c : Dev nD) : Pipeline.Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => tblk4 V c t
    | ⟨5, _⟩ => (acc4 V c (t.val + 1) t.isLt).1
    | ⟨6, _⟩ => (acc4 V c (t.val + 1) t.isLt).2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by dsimp only [dat4]
theorem owed_eq4 (c : Dev nD) : ∀ x, (dat4 V c).owed x = 0 := fun _ => by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = tblk4 V c t := by dsimp only [dat4]
theorem after4_5 (c : Dev nD) (t : Fin cfg4.N) : (dat4 V c).after 5 t = (acc4 V c (t.val + 1) t.isLt).1 := by dsimp only [dat4]
theorem after4_6 (c : Dev nD) (t : Fin cfg4.N) : (dat4 V c).after 6 t = (acc4 V c (t.val + 1) t.isLt).2 := by dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

/-- What the region is handed is the invariant before the first point. -/
theorem Φ_in4 (c : Dev nD) : (Pipeline.scopedRest (Ix := Unit) (Name := ℕ) (U := UR sig nD τ) (Lvl := ℕ) (Val := Elt F) spec4 c) ⊢ (dat4 V c).Φ 0 := by
  rw [show (dat4 V c).Φ 0 = Phi4 V c 0 (Nat.zero_le _) from rfl, Phi4_zero V c 0 _ rfl]
  try exact Idealize.SL.BI.Entails.refl _

/-- After the last point the invariant gives the scoped rest back: the accumulators' contents forgotten. -/
theorem Φ_out4 (c : Dev nD) : (dat4 V c).Φ (Fin.last cfg4.N) ⊢ (Pipeline.scopedRest (Ix := Unit) (Name := ℕ) (U := UR sig nD τ) (Lvl := ℕ) (Val := Elt F) spec4 c) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 25 := N_4; omega), scopedRest4_owns]
  iintro ⟨⟨HS0, HS1⟩, HR⟩
  isplitl [HS0 HS1]
  · isplitl [HS0]
    · iexists _; iexact HS0
    iexists _; iexact HS1
  iexact HR

/-! ## What each window's staging buffer holds when the body runs -/

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5 : ∀ t : Fin cfg4.N, cond4_1 (grid4.coords t) → cfg4.idle 5 (grid4.coords t) = false := by decide +kernel
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

/-! ## The body obligation -/

abbrev ms4_0 (t : Fin cfg4.N) := win4_0.stage (cfg4.slots t 0)
abbrev hs4_0 (t : Fin cfg4.N) : (ms4_0 t).IsWhole := hstage4_0 ((cfg4.slots t 0).cast nbuf4_0)
abbrev ms4_1 (t : Fin cfg4.N) := win4_1.stage (cfg4.slots t 1)
abbrev hs4_1 (t : Fin cfg4.N) : (ms4_1 t).IsWhole := hstage4_1 ((cfg4.slots t 1).cast nbuf4_1)
abbrev ms4_2 (t : Fin cfg4.N) := win4_2.stage (cfg4.slots t 2)
abbrev hs4_2 (t : Fin cfg4.N) : (ms4_2 t).IsWhole := hstage4_2 ((cfg4.slots t 2).cast nbuf4_2)
abbrev ms4_3 (t : Fin cfg4.N) := win4_3.stage (cfg4.slots t 3)
abbrev hs4_3 (t : Fin cfg4.N) : (ms4_3 t).IsWhole := hstage4_3 ((cfg4.slots t 3).cast nbuf4_3)
abbrev ms4_4 (t : Fin cfg4.N) := win4_4.stage (cfg4.slots t 4)
abbrev hs4_4 (t : Fin cfg4.N) : (ms4_4 t).IsWhole := hstage4_4 ((cfg4.slots t 4).cast nbuf4_4)
abbrev ms4_5 (t : Fin cfg4.N) := win4_5.stage (cfg4.slots t 5)
abbrev hs4_5 (t : Fin cfg4.N) : (ms4_5 t).IsWhole := hstage4_5 ((cfg4.slots t 5).cast nbuf4_5)
abbrev ms4_6 (t : Fin cfg4.N) := win4_6.stage (cfg4.slots t 6)
abbrev hs4_6 (t : Fin cfg4.N) : (ms4_6 t).IsWhole := hstage4_6 ((cfg4.slots t 6).cast nbuf4_6)

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

theorem acc4_succ_fst (c : Dev nD) (t : Fin cfg4.N) :
    (acc4 V c (t.val + 1) t.isLt).1 = k4_pay4 (iblk4 V c 0 t) (iblk4 V c 1 t) (iblk4 V c 2 t) (iblk4 V c 3 t) (acc4 V c t.val (Nat.le_of_lt t.isLt)).1 := rfl
theorem acc4_succ_snd (c : Dev nD) (t : Fin cfg4.N) :
    (acc4 V c (t.val + 1) t.isLt).2 = k4_pay5 (iblk4 V c 0 t) (iblk4 V c 1 t) (iblk4 V c 2 t) (iblk4 V c 3 t) (acc4 V c t.val (Nat.le_of_lt t.isLt)).2 := rfl
theorem acc4_zero_fst (c : Dev nD) (n : ℕ) (h : n ≤ cfg4.N) (hz : n = 0) : (acc4 V c n h).1 = k4_pay1 := by subst hz; rfl
theorem acc4_zero_snd (c : Dev nD) (n : ℕ) (h : n ≤ cfg4.N) (hz : n = 0) : (acc4 V c n h).2 = k4_pay2 := by subst hz; rfl

set_option maxHeartbeats 4000000 in
/-- The body at any point: the inputs' buffers hold their blocks; the point is the first, a middle one or the last;
    the invariant hands the body the accumulators at what the points before left (at anything at the first point) and
    takes them back at this point's sums; the two sums' output buffers pass through untouched except at the last point,
    where they end at the final sums; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_pos V c _ _ (Nat.succ_ne_zero _), acc4_succ_fst, acc4_succ_snd]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  unfold tblk4
  have hN : t.val < 25 := lt_of_lt_of_eq t.isLt (show cfg4.N = 25 from N_4)
  by_cases h1 : t.val = 24
  · have hc1 : cond4_1 (grid4.coords t) := (hcond4_1 t).mpr h1
    have hc0 : ¬cond4_0 (grid4.coords t) := fun h => by have := (hcond4_0 t).mp h; omega
    rw [show (dat4 V c).leavesExact 5 t = owns (c : Thread nD τ) (ms4_5 t) fullShare ((dat4 V c).after 5 t) from by
      unfold Dat.leavesExact; rw [liveAt4_5 t hc1], after4_5, acc4_succ_fst]
    rw [show (dat4 V c).leavesExact 6 t = owns (c : Thread nD τ) (ms4_6 t) fullShare ((dat4 V c).after 6 t) from by
      unfold Dat.leavesExact; rw [liveAt4_6 t hc1], after4_6, acc4_succ_snd]
    rw [Phi4_castSucc, Phi4_pos V c _ _ (by omega)]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
    iapply (kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) hc0 hc1 (iblk4 V c 0 t) (iblk4 V c 1 t) (iblk4 V c 2 t) (iblk4 V c 3 t) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬cond4_1 (grid4.coords t) := fun h => h1 ((hcond4_1 t).mp h)
    rw [Dat.leavesExact_idle (dat4 V c) 5 t (idleAt4_5 t hc1) (noFlush4_5 t hc1), Dat.leavesExact_idle (dat4 V c) 6 t (idleAt4_6 t hc1) (noFlush4_6 t hc1)]
    by_cases h0 : t.val = 0
    · have hc0 : cond4_0 (grid4.coords t) := (hcond4_0 t).mpr h0
      rw [Phi4_castSucc, Phi4_zero V c _ _ h0, scopedRest4_owns, acc4_zero_fst V c _ _ h0, acc4_zero_snd V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) hc0 hc1 (iblk4 V c 0 t) (iblk4 V c 1 t) (iblk4 V c 2 t) (iblk4 V c 3 t) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond4_0 (grid4.coords t) := fun h => h0 ((hcond4_0 t).mp h)
      rw [Phi4_castSucc, Phi4_pos V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) hc0 hc1 (iblk4 V c 0 t) (iblk4 V c 1 t) (iblk4 V c 2 t) (iblk4 V c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation4 (c : Dev nD) : Pipeline.BodyObligation (dat4 V c) (defs₀ (F := F)) Variants.none () Set.univ := fun t => by
  rw [bigSep_W4, bigSep_W4]
  exact sound_body4 V c t

end Cert.KernelIdeal.Hand

end
-- ==== Proof.RegBnRes5.lean ====
/-
  Region 5 of @main: the batch-normalisation kernel with given statistics followed by the rectifier, with the
  residual block added after the rectifier (custom_call 5, pipeline 5), a grid of 25 points over row-blocks of
  2000 rows of a 50000×256 array.

  Stated at a PARAMETER `V` — what every unscoped buffer of the TensorCore holds when the region is entered —:
  the windows' blocks, what the body leaves in the output's staging buffer as a function of the input blocks
  (its one store as a canonical piece over the skeleton's payload), the body's triple, the proof data, and the
  body obligation. The invariant between points is the scoped rest, carried through unread.
-/
import proofs.«142371_j48498770706497_2_alg».proof.Proof.Gen.KernelIdeal.Launch
import proofs.«142371_j48498770706497_2_alg».proof.Proof.Gen.KernelIdeal.Skeleton
import proofs.«142371_j48498770706497_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every unscoped buffer of the TensorCore holds when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: an unfetched
    window's block index has not moved, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: an unfetched
    window's block index has not moved, and the body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: an unfetched
    window's block index has not moved, and the body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not: an unfetched
    window's block index has not moved, and the body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not: an unfetched
    window's block index has not moved, and the body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not: an unfetched
    window's block index has not moved, and the body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: the whole block, the whole row of parameters -/

abbrev rBlk5 : Rect S2000x256 := Rect.unit (s := S2000x256) ![0, 0] S2000x256.size inb_S2000x256_S2000x256_0_0
abbrev rRow5 : Rect S1x256 := Rect.unit (s := S1x256) ![0, 0] S1x256.size inb_S1x256_S1x256_0_0

/-- The literal offsets of both rectangles are zero on every axis. -/
theorem hz5 : (![0, 0] : Fin 2 → Nat) = fun _ => 0 := funext fun a => by fin_cases a <;> rfl

/-! ## What the body leaves in the output window's buffer -/

/-- Window 6's staging buffer after the body, from the input windows' blocks `x0` (the aggregate), `x1` (the
    residual), `x2` (scale), `x3` (shift), `x4` (mean), `x5` (variance): its one store, over the whole block, of
    the normalised and rectified block plus the residual block. -/
def out5_6 (x0 x1 : Vec F S2000x256 .f32) (x2 x3 x4 x5 : Vec F S1x256 .f32) : Vec F S2000x256 .f32 :=
  View.canon [⟨rBlk5, k5_pay1 (View.ld x0 rBlk5) (View.ld x2 rRow5) (View.ld x4 rRow5) (View.ld x5 rRow5) (View.ld x3 rRow5) (View.ld x1 rBlk5)⟩]

/-- The one store covers the buffer: its rectangle is the whole block. -/
theorem cover5_6 (p0 : Vec F S2000x256 .f32) (y : S2000x256.Idx) :
    ∃ pc ∈ ([⟨rBlk5, p0⟩] : List (View.Piece (Elt F) S2000x256 .f32)), y ∈ pc.1.set :=
  ⟨_, List.mem_singleton_self _, View.mem_set_unit_zero hz5 inb_S2000x256_S2000x256_0_0 y⟩

/-! ## The body's triple -/

set_option maxHeartbeats 1000000 in
/-- The kernel body on whole staging memrefs, the inputs' at read contents `x0 … x5` and the output's at anything,
    runs to the continuation holding the inputs' as they were and the output's at `out5_6` of them. -/
theorem sound_kernel5 (c : Dev nD) (E : Set ℕ) (i : grid5.Coords)
    (arg1 : Memref sig .tc .vmem S2000x256 .f32) (harg1 : arg1.IsWhole) (arg2 : Memref sig .tc .vmem S2000x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S2000x256 .f32) (harg7 : arg7.IsWhole)
    (x0 x1 : Vec F S2000x256 .f32) (x2 x3 x4 x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E
          (cc5__bn_relu_residual_kernel i arg1 harg1 arg2 harg2 arg3 harg3 arg4 harg4 arg5 harg5 arg6 harg6 arg7 harg7) K := by
  simp only [cc5__bn_relu_residual_kernel_eq_skeleton]; unfold cc5__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The invariant between the region's points: the scoped buffers the pipeline does not stage, held at something. -/
abbrev Φ5 (c : Dev nD) : sProp 𝕄 :=
  Pipeline.scopedRest (Ix := Unit) (Name := ℕ) (U := UR sig nD τ) (Lvl := ℕ) (Val := Elt F) spec5 c

/-- The proof data of pipeline 5 on core `c`: the arrays as the region finds them; after the body at point `t` each
    input's buffer at its block and the output's at `out5_6` of the input blocks; the invariant the scoped rest;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Φ5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- Every array is held whole. -/
theorem q_eq5 (c : Dev nD) (w : Fin cfg5.W) : (dat5 V c).q w = fullShare := by
  dsimp only [dat5]

/-- The core owes nothing at any point. -/
theorem owed_eq5 (c : Dev nD) : ∀ x, (dat5 V c).owed x = 0 := fun _ => by
  dsimp only [dat5]

/-- The invariant at the first point is the scoped rest the region is entered with, -/
theorem Φ_in5 (c : Dev nD) :
    (Pipeline.scopedRest (Ix := Unit) (Name := ℕ) (U := UR sig nD τ) (Lvl := ℕ) (Val := Elt F) spec5 c) ⊢ (dat5 V c).Φ 0 := by
  dsimp only [dat5]; exact .rfl

/-- and at the last point it is given back. -/
theorem Φ_out5 (c : Dev nD) :
    (dat5 V c).Φ (Fin.last cfg5.N) ⊢ (Pipeline.scopedRest (Ix := Unit) (Name := ℕ) (U := UR sig nD τ) (Lvl := ℕ) (Val := Elt F) spec5 c) := by
  dsimp only [dat5]; exact .rfl

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant and
    the core's tallies pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.RegMatmul6.lean ====
/-
  The third matrix product of the program (pipeline 6 of @main), as a region entered from any contents `V` of the
  unscoped buffers.

  The kernel runs on a grid of 25 points over the rows. At point t it is handed three staging buffers: rows
  2000·t … 2000·t + 1999 of x (2000 × 256), all of w (256 × 256, fetched once, its block index never moves),
  and the result's block (2000 × 256), which is written back at every point. The body loads the two input
  blocks whole, and stores into the result's buffer — whole, through one rectangle that covers it — the product
  of the two blocks, each first truncated to bf16, accumulated from zero.

  This module gives: what the body leaves in the result's buffer as a function of the input blocks; the body's
  triple; the proof data of the pipeline (arrays at `V`, nothing owed, full shares, the invariant the scoped
  buffers the pipeline does not stage, carried through untouched); the two ends of that invariant; and the body
  obligation at every point. Nothing here depends on the float model.
-/
import proofs.«142371_j48498770706497_2_alg».proof.Proof.Gen.KernelIdeal.Launch
import proofs.«142371_j48498770706497_2_alg».proof.Proof.Gen.KernelIdeal.Skeleton
import proofs.«142371_j48498770706497_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of these extents is looked at once per coordinate of the long axis
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's unscoped buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The staging buffer of x holds x's block of the point whenever the body runs, for any proof data whose array
    is `V`'s and whose body leaves the block in place: the window is an input, never idle and not cut, so what it
    holds is what a fetch at the point puts there, fetched at the point or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The same for w, which is fetched at the first point only: its block index is the same at every point, and the
    body leaves the buffer as it found it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each staging buffer whole, through the rectangle at offset zero of its own extents -/

abbrev rx6 : Rect S2000x256 := Rect.unit (s := S2000x256) ![0, 0] S2000x256.size inb_S2000x256_S2000x256_0_0
abbrev rw6 : Rect S256x256 := Rect.unit (s := S256x256) ![0, 0] S256x256.size inb_S256x256_S256x256_0_0
abbrev ro6 : Rect S2000x256 := Rect.unit (s := S2000x256) ![0, 0] S2000x256.size inb_S2000x256_S2000x256_0_0

/-- The two offsets are zero. -/
theorem zeros6 : (![0, 0] : Fin 2 → Nat) = fun _ => 0 := funext fun a => by fin_cases a <;> rfl

/-! ## What the body leaves in the result's buffer -/

/-- The result's staging buffer after the body, from the two input blocks: its one store, a piece over the whole
    buffer whose payload is the product of the loaded blocks. -/
def out6_2 (x0 : Vec F S2000x256 .f32) (x1 : Vec F S256x256 .f32) : Vec F S2000x256 .f32 :=
  View.canon [⟨ro6, k6_pay1 (View.ld x0 rx6) (View.ld x1 rw6)⟩]

/-- The store's rectangle is the whole buffer, so it covers it. -/
theorem cover6_2 (p0 : Vec F S2000x256 .f32) (y : S2000x256.Idx) :
    ∃ pc ∈ ([⟨ro6, p0⟩] : List (View.Piece (Elt F) S2000x256 .f32)), y ∈ pc.1.set :=
  ⟨_, List.mem_singleton_self _, View.mem_set_unit_zero (S := S2000x256) zeros6 inb_S2000x256_S2000x256_0_0 y⟩

/-- One covering store of whole loads: the buffer is left at the payload of the blocks themselves. -/
theorem out6_2_eq (x0 : Vec F S2000x256 .f32) (x1 : Vec F S256x256 .f32) : out6_2 x0 x1 = k6_pay1 x0 x1 := by
  unfold out6_2
  rw [View.canon_unit_zero (S := S2000x256) zeros6]
  rw [View.ld_unit_zero (S := S2000x256) zeros6, View.ld_unit_zero (S := S256x256) zeros6]

/-! ## The body's triple -/

set_option maxHeartbeats 1000000 in
/-- The kernel body on whole staging memrefs, the inputs' at contents `x0`, `x1` and the result's at anything, runs
    to its return holding the inputs' as they were and the result's at `out6_2 x0 x1`: two loads, a load of the
    result's buffer whose value is not used, and the covering store. -/
theorem sound_kernel6 (c : Dev nD) (E : Set ℕ) (i : grid6.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`, entered at `V`: the three arrays as the region finds them; after the
    body at point `t` each input's buffer at its block and the result's at `out6_2` of the two blocks; the invariant
    the scoped buffers the pipeline does not stage, held at something, the same between any two points; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.scopedRest (Ix := Unit) (Name := ℕ) (U := UR sig nD τ) (Lvl := ℕ) (Val := Elt F) spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- Every input array is held whole. -/
theorem q_eq6 (c : Dev nD) (w : Fin cfg6.W) : (dat6 V c).q w = fullShare := by
  dsimp only [dat6]

/-- The core owes nothing between any two points. -/
theorem owed_eq6 (c : Dev nD) : ∀ x, (dat6 V c).owed x = 0 := fun _ => by
  dsimp only [dat6]

/-- The invariant between any two points is the scoped rest. -/
theorem Φ_eq6 (c : Dev nD) (x : Fin (cfg6.N + 1)) :
    (dat6 V c).Φ x = Pipeline.scopedRest (Ix := Unit) (Name := ℕ) (U := UR sig nD τ) (Lvl := ℕ) (Val := Elt F) spec6 c := by
  dsimp only [dat6]

/-- Entering the region, the scoped rest is the invariant before the first point. -/
theorem Φ_in6 (c : Dev nD) :
    (Pipeline.scopedRest (Ix := Unit) (Name := ℕ) (U := UR sig nD τ) (Lvl := ℕ) (Val := Elt F) spec6 c) ⊢ (dat6 V c).Φ 0 := by
  rw [Φ_eq6]

/-- Leaving it, the invariant after the last point is the scoped rest. -/
theorem Φ_out6 (c : Dev nD) :
    (dat6 V c).Φ (Fin.last cfg6.N) ⊢ (Pipeline.scopedRest (Ix := Unit) (Name := ℕ) (U := UR sig nD τ) (Lvl := ℕ) (Val := Elt F) spec6 c) := by
  rw [Φ_eq6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`: the invariant, what the core owes, and the three current staging
    buffers, one by one. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : Pipeline.BodyObligation (dat6 (F := F) V c) (defs₀ (F := F)) Variants.none () Set.univ := fun t => by
  rw [bigSep_W6, bigSep_W6]
  exact sound_body6 V c t

end Cert.KernelIdeal.Hand

end
-- ==== Proof.RegStats7Body.lean ====
/-
  Region 7 (the aggregation-plus-bias-and-statistics kernel), the body's runs.  The kernel visits 25 row blocks; it
  keeps two 1×256 accumulators across the points.  Three control cases: the first point zeroes the accumulators
  before adding; a middle point only adds; the last point adds and copies the accumulators to the two outputs.
  Each case's triple states what every buffer the case stores into ends holding, as the payload of its covering store.
-/
import proofs.«142371_j48498770706497_2_alg».proof.Proof.Gen.KernelIdeal.Launch
import proofs.«142371_j48498770706497_2_alg».proof.Proof.Gen.KernelIdeal.Skeleton
import proofs.«142371_j48498770706497_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (zero the two accumulators) is taken where the grid coordinate is zero. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)
/-- The second branch (copy the accumulators out) is taken at the last point. -/
abbrev cond7_1 (i : grid7.Coords) : Prop := k7_cond2 i = 1#1
theorem hcond7_1 : ∀ t : Fin cfg7.N, cond7_1 (grid7.coords t) ↔ t.val = 24 :=
  (by decide +kernel : ∀ t : Fin grid7.N, cond7_1 (grid7.coords t) ↔ t.val = 24)

/-- The two zero offsets, however spelt. -/
private theorem hz2 : (![0, 0] : Fin 2 → Nat) = fun _ => 0 := funext fun a => by fin_cases a <;> rfl

set_option maxHeartbeats 2000000 in
/-- THE FIRST point (the accumulators zeroed, then added to): from the four input blocks, the output block and the two accumulators at anything, the body leaves the block T = agg + xw·d2 + b in the output and the accumulators at zero + the column sums of T, zero + the column sums of T·T. -/
theorem kernelRun7_A (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond7_0 i) (hc1 : ¬cond7_1 i)
    (x0 x1 : Vec F S2000x256 .f32) (x2 : Vec F S2000x1 .f32) (x3 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k7_pay3 x0 x1 x2 x3) ∗ owns (c : Thread nD τ) arg8 fullShare (k7_pay4 x0 x1 x2 x3 k7_pay1) ∗ owns (c : Thread nD τ) arg9 fullShare (k7_pay5 x0 x1 x2 x3 k7_pay2)) -∗ K ⟨⟩))
      ⊢ wp frame (wpE (defs₀ (F := F)) Variants.none c none) E (cc7__agg_bias_stats_kernel i arg1 harg1 arg2 harg2 arg3 harg3 arg4 harg4 arg5 harg5 arg6 harg6 arg7 harg7 arg8 harg8 arg9 harg9) K := by
  sl_unfold [cc7__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- A MIDDLE point (neither branch taken): from the four input blocks, the output block at anything and the two accumulators at xs0, xs1, the body leaves the block T in the output and the accumulators at xs0 + the column sums of T, xs1 + the column sums of T·T (the payloads of its three stores, each one covering store). -/
theorem kernelRun7_B (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : ¬cond7_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k7_pay3 x0 x1 x2 x3) ∗ owns (c : Thread nD τ) arg8 fullShare (k7_pay4 x0 x1 x2 x3 xs0) ∗ owns (c : Thread nD τ) arg9 fullShare (k7_pay5 x0 x1 x2 x3 xs1)) -∗ K ⟨⟩))
      ⊢ wp frame (wpE (defs₀ (F := F)) Variants.none c none) E (cc7__agg_bias_stats_kernel i arg1 harg1 arg2 harg2 arg3 harg3 arg4 harg4 arg5 harg5 arg6 harg6 arg7 harg7 arg8 harg8 arg9 harg9) K := by
  sl_unfold [cc7__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

set_option maxHeartbeats 2000000 in
/-- THE LAST point (the accumulators added to, then copied out): as a middle point, and the two sums' output buffers, at anything before, end at the accumulators' final contents. -/
theorem kernelRun7_C (c : Dev nD) (i : grid7.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond7_0 i) (hc1 : cond7_1 i)
    (x0 x1 : Vec F S2000x256 .f32) (x2 : Vec F S2000x1 .f32) (x3 xs0 xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k7_pay3 x0 x1 x2 x3) ∗ owns (c : Thread nD τ) arg6 fullShare (k7_pay4 x0 x1 x2 x3 xs0) ∗ owns (c : Thread nD τ) arg7 fullShare (k7_pay5 x0 x1 x2 x3 xs1) ∗ owns (c : Thread nD τ) arg8 fullShare (k7_pay4 x0 x1 x2 x3 xs0) ∗ owns (c : Thread nD τ) arg9 fullShare (k7_pay5 x0 x1 x2 x3 xs1)) -∗ K ⟨⟩))
      ⊢ wp frame (wpE (defs₀ (F := F)) Variants.none c none) E (cc7__agg_bias_stats_kernel i arg1 harg1 arg2 harg2 arg3 harg3 arg4 harg4 arg5 harg5 arg6 harg6 arg7 harg7 arg8 harg8 arg9 harg9) K := by
  sl_unfold [cc7__agg_bias_stats_kernel]
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    sl_unfold_words
    rw [View.read_writes_eq_canon _ _ _ (fun y => ⟨_, List.Mem.head _, View.mem_set_unit_zero hz2 inb_S2000x256_S2000x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H6]
  · iexists _; isplitr
    swap; · iexact H6
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [H7]
  · iexists _; isplitr
    swap; · iexact H7
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  isplitl [HS0]
  · iexists _; isplitr
    swap; · iexact HS0
    ipureintro
    sl_unfold_words
    rw [View.read_writes_eq_canon _ _ _ (fun y => ⟨_, List.Mem.head _, View.mem_set_unit_zero hz2 inb_S1x256_S1x256_0_0 y⟩), View.canon_cons_unit_zero hz2]
    simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]
  iexists _; isplitr
  swap; · iexact HS1
  ipureintro
  sl_unfold_words
  rw [View.read_writes_eq_canon _ _ _ (fun y => ⟨_, List.Mem.head _, View.mem_set_unit_zero hz2 inb_S1x256_S1x256_0_0 y⟩), View.canon_cons_unit_zero hz2]
  simp only [View.readAt_eq_ld, harg1.read_unread, harg2.read_unread, harg3.read_unread, harg4.read_unread, harg8.read_unread, harg9.read_unread, View.ld_unit_zero (S := S2000x256) hz2, View.ld_unit_zero (S := S2000x1) hz2, View.ld_unit_zero (S := S1x256) hz2, View.readCov_unit_zero (S := S1x256) _ hz2]

end Cert.KernelIdeal.Hand

end
-- ==== Proof.RegStats7.lean ====
/-
  Region 7 (the aggregation-plus-bias-and-statistics kernel) as a pipeline: its proof data, the invariant carrying the
  two accumulators, and the body obligation.  T = agg + xw·d2 + b is stored block by block; the accumulators hold,
  after n points, zero plus the column sums of T (of T·T) over the first n row blocks, added block by block; the two
  sums' outputs are stored at the last point only and idle before it.
-/
import proofs.«142371_j48498770706497_2_alg».proof.Proof.RegStats7Body
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the block of T, the two running column sums -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The block of T = agg + xw·d2 + b the body stores at point t. -/
def tblk7 (c : Dev nD) (t : Fin cfg7.N) : Vec F S2000x256 .f32 := k7_pay3 (iblk7 V c 0 t) (iblk7 V c 1 t) (iblk7 V c 2 t) (iblk7 V c 3 t)

/-- The two accumulators after n points: zero, then at each point the block's column sums of T (of T·T) added. -/
def acc7 (c : Dev nD) : (n : ℕ) → n ≤ cfg7.N → Vec F S1x256 .f32 × Vec F S1x256 .f32
  | 0, _ => (k7_pay1, k7_pay2)
  | n + 1, hn => (k7_pay4 (iblk7 V c 0 ⟨n, Nat.lt_of_succ_le hn⟩) (iblk7 V c 1 ⟨n, Nat.lt_of_succ_le hn⟩) (iblk7 V c 2 ⟨n, Nat.lt_of_succ_le hn⟩) (iblk7 V c 3 ⟨n, Nat.lt_of_succ_le hn⟩) (acc7 c n (Nat.le_of_succ_le hn)).1,
      k7_pay5 (iblk7 V c 0 ⟨n, Nat.lt_of_succ_le hn⟩) (iblk7 V c 1 ⟨n, Nat.lt_of_succ_le hn⟩) (iblk7 V c 2 ⟨n, Nat.lt_of_succ_le hn⟩) (iblk7 V c 3 ⟨n, Nat.lt_of_succ_le hn⟩) (acc7 c n (Nat.le_of_succ_le hn)).2)

theorem acc7_zero (c : Dev nD) (n : ℕ) (h : n ≤ cfg7.N) (hz : n = 0) : acc7 V c n h = (k7_pay1, k7_pay2) := by
  subst hz; rfl

theorem acc7_succ (c : Dev nD) (t : Fin cfg7.N) :
    acc7 V c (t.val + 1) t.isLt = (k7_pay4 (iblk7 V c 0 t) (iblk7 V c 1 t) (iblk7 V c 2 t) (iblk7 V c 3 t) (acc7 V c t.val (Nat.le_of_lt t.isLt)).1,
      k7_pay5 (iblk7 V c 0 t) (iblk7 V c 1 t) (iblk7 V c 2 t) (iblk7 V c 3 t) (acc7 V c t.val (Nat.le_of_lt t.isLt)).2) := rfl

/-! ## The invariant: the two scratch accumulators at their running sums, beside the rest of the scoped buffers -/

abbrev scM7_0 : Memref sig .tc .vmem S1x256 .f32 := Memref.whole cc7_scratch0
abbrev scM7_1 : Memref sig .tc .vmem S1x256 .f32 := Memref.whole cc7_scratch1

/-- Before the first point the scoped rest as the region finds it (the accumulators at anything: the first point
    zeroes them); after n + 1 points the accumulators at acc7 (n + 1). -/
def Phi7 (c : Dev nD) : (n : ℕ) → n ≤ cfg7.N → sProp 𝕄
  | 0, _ => (Pipeline.scopedRest (Ix := Unit) (Name := ℕ) (U := UR sig nD τ) (Lvl := ℕ) (Val := Elt F) spec7 c)
  | n + 1, hn => iprop(iprop(owns (c : Thread nD τ) scM7_0 fullShare (acc7 V c (n + 1) hn).1 ∗ owns (c : Thread nD τ) scM7_1 fullShare (acc7 V c (n + 1) hn).2)
      ∗ (Pipeline.scopedRestBut (Ix := Unit) (Name := ℕ) (U := UR sig nD τ) (Lvl := ℕ) (Val := Elt F) spec7 c [cc7_scratch0, cc7_scratch1]))

theorem Phi7_zero (c : Dev nD) (n : ℕ) (h : n ≤ cfg7.N) (hz : n = 0) : Phi7 V c n h = (Pipeline.scopedRest (Ix := Unit) (Name := ℕ) (U := UR sig nD τ) (Lvl := ℕ) (Val := Elt F) spec7 c) := by
  subst hz; rfl

theorem Phi7_pos (c : Dev nD) (n : ℕ) (h : n ≤ cfg7.N) (hz : n ≠ 0) :
    Phi7 V c n h = iprop(iprop(owns (c : Thread nD τ) scM7_0 fullShare (acc7 V c n h).1 ∗ owns (c : Thread nD τ) scM7_1 fullShare (acc7 V c n h).2)
      ∗ (Pipeline.scopedRestBut (Ix := Unit) (Name := ℕ) (U := UR sig nD τ) (Lvl := ℕ) (Val := Elt F) spec7 c [cc7_scratch0, cc7_scratch1])) := by
  cases n with
  | zero => exact absurd rfl hz
  | succ n => rfl

/-- The scoped rest with the two accumulators as memrefs owned at some contents. -/
theorem scopedRest7_owns (c : Dev nD) :
    ((Pipeline.scopedRest (Ix := Unit) (Name := ℕ) (U := UR sig nD τ) (Lvl := ℕ) (Val := Elt F) spec7 c) : sProp 𝕄)
      = iprop(iprop((∃ d, owns (c : Thread nD τ) scM7_0 fullShare d) ∗ (∃ d, owns (c : Thread nD τ) scM7_1 fullShare d)) ∗ (Pipeline.scopedRestBut (Ix := Unit) (Name := ℕ) (U := UR sig nD τ) (Lvl := ℕ) (Val := Elt F) spec7 c [cc7_scratch0, cc7_scratch1])) := by
  rw [scopedRest7_split]; simp only [scM7_0, scM7_1, owns_whole]; rfl

/-! ## The proof data -/

/-- The proof data of region 7 on core c: the arrays as the region finds them; after the body at point t each input's
    buffer at its block, the first output's at the block of T, the two sums' outputs at the accumulators after t + 1
    points (consulted at the last point only: idle before); the invariant above; nothing owed; full shares. -/
def dat7 (c : Dev nD) : Pipeline.Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => tblk7 V c t
    | ⟨5, _⟩ => (acc7 V c (t.val + 1) t.isLt).1
    | ⟨6, _⟩ => (acc7 V c (t.val + 1) t.isLt).2
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem q_eq7 (c : Dev nD) (w : Fin cfg7.W) : (dat7 V c).q w = fullShare := by dsimp only [dat7]
theorem owed_eq7 (c : Dev nD) : ∀ x, (dat7 V c).owed x = 0 := fun _ => by dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = tblk7 V c t := by dsimp only [dat7]
theorem after7_5 (c : Dev nD) (t : Fin cfg7.N) : (dat7 V c).after 5 t = (acc7 V c (t.val + 1) t.isLt).1 := by dsimp only [dat7]
theorem after7_6 (c : Dev nD) (t : Fin cfg7.N) : (dat7 V c).after 6 t = (acc7 V c (t.val + 1) t.isLt).2 := by dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

/-- What the region is handed is the invariant before the first point. -/
theorem Φ_in7 (c : Dev nD) : (Pipeline.scopedRest (Ix := Unit) (Name := ℕ) (U := UR sig nD τ) (Lvl := ℕ) (Val := Elt F) spec7 c) ⊢ (dat7 V c).Φ 0 := by
  rw [show (dat7 V c).Φ 0 = Phi7 V c 0 (Nat.zero_le _) from rfl, Phi7_zero V c 0 _ rfl]
  try exact Idealize.SL.BI.Entails.refl _

/-- After the last point the invariant gives the scoped rest back: the accumulators' contents forgotten. -/
theorem Φ_out7 (c : Dev nD) : (dat7 V c).Φ (Fin.last cfg7.N) ⊢ (Pipeline.scopedRest (Ix := Unit) (Name := ℕ) (U := UR sig nD τ) (Lvl := ℕ) (Val := Elt F) spec7 c) := by
  rw [show (dat7 V c).Φ (Fin.last cfg7.N) = Phi7 V c (Fin.last cfg7.N).val (Nat.le_of_lt_succ (Fin.last cfg7.N).isLt) from rfl,
    Phi7_pos V c _ _ (by rw [Fin.val_last]; have : cfg7.N = 25 := N_7; omega), scopedRest7_owns]
  iintro ⟨⟨HS0, HS1⟩, HR⟩
  isplitl [HS0 HS1]
  · isplitl [HS0]
    · iexists _; iexact HS0
    iexists _; iexact HS1
  iexact HR

/-! ## What each window's staging buffer holds when the body runs -/

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)

/-! ## Where the windows are idle -/

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem liveAt7_3 : ∀ t : Fin cfg7.N, cfg7.idle 3 (grid7.coords t) = false := fun _ => rfl
theorem liveAt7_4 : ∀ t : Fin cfg7.N, cfg7.idle 4 (grid7.coords t) = false := fun _ => rfl
theorem idleAt7_5 : ∀ t : Fin cfg7.N, ¬cond7_1 (grid7.coords t) → cfg7.idle 5 (grid7.coords t) = true := by decide +kernel
theorem noFlush7_5 : ∀ t : Fin cfg7.N, ¬cond7_1 (grid7.coords t) → (cfg7.win 5).flush t = false := by decide +kernel
theorem liveAt7_5 : ∀ t : Fin cfg7.N, cond7_1 (grid7.coords t) → cfg7.idle 5 (grid7.coords t) = false := by decide +kernel
theorem idleAt7_6 : ∀ t : Fin cfg7.N, ¬cond7_1 (grid7.coords t) → cfg7.idle 6 (grid7.coords t) = true := by decide +kernel
theorem noFlush7_6 : ∀ t : Fin cfg7.N, ¬cond7_1 (grid7.coords t) → (cfg7.win 6).flush t = false := by decide +kernel
theorem liveAt7_6 : ∀ t : Fin cfg7.N, cond7_1 (grid7.coords t) → cfg7.idle 6 (grid7.coords t) = false := by decide +kernel

/-! ## The body obligation -/

abbrev ms7_0 (t : Fin cfg7.N) := win7_0.stage (cfg7.slots t 0)
abbrev hs7_0 (t : Fin cfg7.N) : (ms7_0 t).IsWhole := hstage7_0 ((cfg7.slots t 0).cast nbuf7_0)
abbrev ms7_1 (t : Fin cfg7.N) := win7_1.stage (cfg7.slots t 1)
abbrev hs7_1 (t : Fin cfg7.N) : (ms7_1 t).IsWhole := hstage7_1 ((cfg7.slots t 1).cast nbuf7_1)
abbrev ms7_2 (t : Fin cfg7.N) := win7_2.stage (cfg7.slots t 2)
abbrev hs7_2 (t : Fin cfg7.N) : (ms7_2 t).IsWhole := hstage7_2 ((cfg7.slots t 2).cast nbuf7_2)
abbrev ms7_3 (t : Fin cfg7.N) := win7_3.stage (cfg7.slots t 3)
abbrev hs7_3 (t : Fin cfg7.N) : (ms7_3 t).IsWhole := hstage7_3 ((cfg7.slots t 3).cast nbuf7_3)
abbrev ms7_4 (t : Fin cfg7.N) := win7_4.stage (cfg7.slots t 4)
abbrev hs7_4 (t : Fin cfg7.N) : (ms7_4 t).IsWhole := hstage7_4 ((cfg7.slots t 4).cast nbuf7_4)
abbrev ms7_5 (t : Fin cfg7.N) := win7_5.stage (cfg7.slots t 5)
abbrev hs7_5 (t : Fin cfg7.N) : (ms7_5 t).IsWhole := hstage7_5 ((cfg7.slots t 5).cast nbuf7_5)
abbrev ms7_6 (t : Fin cfg7.N) := win7_6.stage (cfg7.slots t 6)
abbrev hs7_6 (t : Fin cfg7.N) : (ms7_6 t).IsWhole := hstage7_6 ((cfg7.slots t 6).cast nbuf7_6)

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

theorem acc7_succ_fst (c : Dev nD) (t : Fin cfg7.N) :
    (acc7 V c (t.val + 1) t.isLt).1 = k7_pay4 (iblk7 V c 0 t) (iblk7 V c 1 t) (iblk7 V c 2 t) (iblk7 V c 3 t) (acc7 V c t.val (Nat.le_of_lt t.isLt)).1 := rfl
theorem acc7_succ_snd (c : Dev nD) (t : Fin cfg7.N) :
    (acc7 V c (t.val + 1) t.isLt).2 = k7_pay5 (iblk7 V c 0 t) (iblk7 V c 1 t) (iblk7 V c 2 t) (iblk7 V c 3 t) (acc7 V c t.val (Nat.le_of_lt t.isLt)).2 := rfl
theorem acc7_zero_fst (c : Dev nD) (n : ℕ) (h : n ≤ cfg7.N) (hz : n = 0) : (acc7 V c n h).1 = k7_pay1 := by subst hz; rfl
theorem acc7_zero_snd (c : Dev nD) (n : ℕ) (h : n ≤ cfg7.N) (hz : n = 0) : (acc7 V c n h).2 = k7_pay2 := by subst hz; rfl

set_option maxHeartbeats 4000000 in
/-- The body at any point: the inputs' buffers hold their blocks; the point is the first, a middle one or the last;
    the invariant hands the body the accumulators at what the points before left (at anything at the first point) and
    takes them back at this point's sums; the two sums' output buffers pass through untouched except at the last point,
    where they end at the final sums; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = Phi7 V c (t.val + 1) t.isLt from rfl, Phi7_pos V c _ _ (Nat.succ_ne_zero _), acc7_succ_fst, acc7_succ_snd]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  unfold tblk7
  have hN : t.val < 25 := lt_of_lt_of_eq t.isLt (show cfg7.N = 25 from N_7)
  by_cases h1 : t.val = 24
  · have hc1 : cond7_1 (grid7.coords t) := (hcond7_1 t).mpr h1
    have hc0 : ¬cond7_0 (grid7.coords t) := fun h => by have := (hcond7_0 t).mp h; omega
    rw [show (dat7 V c).leavesExact 5 t = owns (c : Thread nD τ) (ms7_5 t) fullShare ((dat7 V c).after 5 t) from by
      unfold Dat.leavesExact; rw [liveAt7_5 t hc1], after7_5, acc7_succ_fst]
    rw [show (dat7 V c).leavesExact 6 t = owns (c : Thread nD τ) (ms7_6 t) fullShare ((dat7 V c).after 6 t) from by
      unfold Dat.leavesExact; rw [liveAt7_6 t hc1], after7_6, acc7_succ_snd]
    rw [Phi7_castSucc, Phi7_pos V c _ _ (by omega)]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
    iapply (kernelRun7_C c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) hc0 hc1 (iblk7 V c 0 t) (iblk7 V c 1 t) (iblk7 V c 2 t) (iblk7 V c 3 t) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬cond7_1 (grid7.coords t) := fun h => h1 ((hcond7_1 t).mp h)
    rw [Dat.leavesExact_idle (dat7 V c) 5 t (idleAt7_5 t hc1) (noFlush7_5 t hc1), Dat.leavesExact_idle (dat7 V c) 6 t (idleAt7_6 t hc1) (noFlush7_6 t hc1)]
    by_cases h0 : t.val = 0
    · have hc0 : cond7_0 (grid7.coords t) := (hcond7_0 t).mpr h0
      rw [Phi7_castSucc, Phi7_zero V c _ _ h0, scopedRest7_owns, acc7_zero_fst V c _ _ h0, acc7_zero_snd V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) hc0 hc1 (iblk7 V c 0 t) (iblk7 V c 1 t) (iblk7 V c 2 t) (iblk7 V c 3 t) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond7_0 (grid7.coords t) := fun h => h0 ((hcond7_0 t).mp h)
      rw [Phi7_castSucc, Phi7_pos V c _ _ h0]
      iintro ⟨⟨⟨HS0, HS1⟩, HR⟩, Ho, ⟨%d0, H0⟩, ⟨%d1, H1⟩, ⟨%d2, H2⟩, ⟨%d3, H3⟩, ⟨%d4, H4⟩, H5, H6⟩
      iapply (kernelRun7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) hc0 hc1 (iblk7 V c 0 t) (iblk7 V c 1 t) (iblk7 V c 2 t) (iblk7 V c 3 t) _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR]
      · isplitl [HS0 HS1]
        · isplitl [HS0]; · iexact HS0
          iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation7 (c : Dev nD) : Pipeline.BodyObligation (dat7 V c) (defs₀ (F := F)) Variants.none () Set.univ := fun t => by
  rw [bigSep_W7, bigSep_W7]
  exact sound_body7 V c t

end Cert.KernelIdeal.Hand

end
-- ==== Proof.RegBnRes8.lean ====
/-
  Region 8 of @main: the batch-normalisation kernel with given statistics followed by the rectifier, with the
  residual block added after the rectifier (custom_call 8, pipeline 8), a grid of 25 points over row-blocks of
  2000 rows of a 50000×256 array.

  Stated at a PARAMETER `V` — what every unscoped buffer of the TensorCore holds when the region is entered —:
  the windows' blocks, what the body leaves in the output's staging buffer as a function of the input blocks
  (its one store as a canonical piece over the skeleton's payload), the body's triple, the proof data, and the
  body obligation. The invariant between points is the scoped rest, carried through unread.
-/
import proofs.«142371_j48498770706497_2_alg».proof.Proof.Gen.KernelIdeal.Launch
import proofs.«142371_j48498770706497_2_alg».proof.Proof.Gen.KernelIdeal.Skeleton
import proofs.«142371_j48498770706497_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every unscoped buffer of the TensorCore holds when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not: an unfetched
    window's block index has not moved, and the body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not: an unfetched
    window's block index has not moved, and the body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not: an unfetched
    window's block index has not moved, and the body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not: an unfetched
    window's block index has not moved, and the body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not: an unfetched
    window's block index has not moved, and the body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not: an unfetched
    window's block index has not moved, and the body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: the whole block, the whole row of parameters -/

abbrev rBlk8 : Rect S2000x256 := Rect.unit (s := S2000x256) ![0, 0] S2000x256.size inb_S2000x256_S2000x256_0_0
abbrev rRow8 : Rect S1x256 := Rect.unit (s := S1x256) ![0, 0] S1x256.size inb_S1x256_S1x256_0_0

/-- The literal offsets of both rectangles are zero on every axis. -/
theorem hz8 : (![0, 0] : Fin 2 → Nat) = fun _ => 0 := funext fun a => by fin_cases a <;> rfl

/-! ## What the body leaves in the output window's buffer -/

/-- Window 6's staging buffer after the body, from the input windows' blocks `x0` (the aggregate), `x1` (the
    residual), `x2` (scale), `x3` (shift), `x4` (mean), `x5` (variance): its one store, over the whole block, of
    the normalised and rectified block plus the residual block. -/
def out8_6 (x0 x1 : Vec F S2000x256 .f32) (x2 x3 x4 x5 : Vec F S1x256 .f32) : Vec F S2000x256 .f32 :=
  View.canon [⟨rBlk8, k8_pay1 (View.ld x0 rBlk8) (View.ld x2 rRow8) (View.ld x4 rRow8) (View.ld x5 rRow8) (View.ld x3 rRow8) (View.ld x1 rBlk8)⟩]

/-- The one store covers the buffer: its rectangle is the whole block. -/
theorem cover8_6 (p0 : Vec F S2000x256 .f32) (y : S2000x256.Idx) :
    ∃ pc ∈ ([⟨rBlk8, p0⟩] : List (View.Piece (Elt F) S2000x256 .f32)), y ∈ pc.1.set :=
  ⟨_, List.mem_singleton_self _, View.mem_set_unit_zero hz8 inb_S2000x256_S2000x256_0_0 y⟩

/-! ## The body's triple -/

set_option maxHeartbeats 1000000 in
/-- The kernel body on whole staging memrefs, the inputs' at read contents `x0 … x5` and the output's at anything,
    runs to the continuation holding the inputs' as they were and the output's at `out8_6` of them. -/
theorem sound_kernel8 (c : Dev nD) (E : Set ℕ) (i : grid8.Coords)
    (arg1 : Memref sig .tc .vmem S2000x256 .f32) (harg1 : arg1.IsWhole) (arg2 : Memref sig .tc .vmem S2000x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S2000x256 .f32) (harg7 : arg7.IsWhole)
    (x0 x1 : Vec F S2000x256 .f32) (x2 x3 x4 x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E
          (cc8__bn_relu_residual_kernel i arg1 harg1 arg2 harg2 arg3 harg3 arg4 harg4 arg5 harg5 arg6 harg6 arg7 harg7) K := by
  simp only [cc8__bn_relu_residual_kernel_eq_skeleton]; unfold cc8__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The invariant between the region's points: the scoped buffers the pipeline does not stage, held at something. -/
abbrev Φ8 (c : Dev nD) : sProp 𝕄 :=
  Pipeline.scopedRest (Ix := Unit) (Name := ℕ) (U := UR sig nD τ) (Lvl := ℕ) (Val := Elt F) spec8 c

/-- The proof data of pipeline 8 on core `c`: the arrays as the region finds them; after the body at point `t` each
    input's buffer at its block and the output's at `out8_6` of the input blocks; the invariant the scoped rest;
    nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Φ8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- Every array is held whole. -/
theorem q_eq8 (c : Dev nD) (w : Fin cfg8.W) : (dat8 V c).q w = fullShare := by
  dsimp only [dat8]

/-- The core owes nothing at any point. -/
theorem owed_eq8 (c : Dev nD) : ∀ x, (dat8 V c).owed x = 0 := fun _ => by
  dsimp only [dat8]

/-- The invariant at the first point is the scoped rest the region is entered with, -/
theorem Φ_in8 (c : Dev nD) :
    (Pipeline.scopedRest (Ix := Unit) (Name := ℕ) (U := UR sig nD τ) (Lvl := ℕ) (Val := Elt F) spec8 c) ⊢ (dat8 V c).Φ 0 := by
  dsimp only [dat8]; exact .rfl

/-- and at the last point it is given back. -/
theorem Φ_out8 (c : Dev nD) :
    (dat8 V c).Φ (Fin.last cfg8.N) ⊢ (Pipeline.scopedRest (Ix := Unit) (Name := ℕ) (U := UR sig nD τ) (Lvl := ℕ) (Val := Elt F) spec8 c) := by
  dsimp only [dat8]; exact .rfl

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) :
    (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks, so the body's triple applies; the invariant and
    the core's tallies pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _
    (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.Vals9.lean ====
import proofs.«142371_j48498770706497_2_alg».proof.Proof.Gen.KernelIdeal.Regions
import proofs.«142371_j48498770706497_2_alg».proof.Proof.RegMatmul0
import proofs.«142371_j48498770706497_2_alg».proof.Proof.RegStats1
import proofs.«142371_j48498770706497_2_alg».proof.Proof.RegBn2
import proofs.«142371_j48498770706497_2_alg».proof.Proof.RegMatmul3
import proofs.«142371_j48498770706497_2_alg».proof.Proof.RegStats4
import proofs.«142371_j48498770706497_2_alg».proof.Proof.RegBnRes5
import proofs.«142371_j48498770706497_2_alg».proof.Proof.RegMatmul6
import proofs.«142371_j48498770706497_2_alg».proof.Proof.RegStats7
import proofs.«142371_j48498770706497_2_alg».proof.Proof.RegBnRes8

/-! # The buffers' contents along the program, concretely

The program's nineteen items in order; the contents of every unscoped buffer after each, per core, from the launch
memory. These are the conditional frame's valuations at the unknowns the nine regions' proof data determine. -/

-- decided memberships over the program's references recurse past the default depth
set_option maxRecDepth 1628

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items, concretely

Item by item from the launch memory: a host stretch leaves what its operations compute; a region leaves each of its
output arrays at what its write-backs fold to from the contents it was entered at, and every other buffer as it was. -/

section Vals

variable (m : (ℓ : Loc nD τ sig) → Buf (Elt F) ℓ)

/-- A core's valuations read at the TensorCore's references: what a region's proof data take. -/
abbrev rd (W : Dev nD → Valuation τ sig (Elt F)) : (c : Dev nD) → (b : Ref sig .tc) → Buf (Elt F) ((c : Thread nD τ).loc b) :=
  fun c b => W c b

/-- At launch. -/
def U0 (c : Dev nD) : Valuation τ sig (Elt F) := V0 m c
/-- After the first host stretch: region 0's entry. -/
def U1 (c : Dev nD) : Valuation τ sig (Elt F) := StableHlo.after hostOps0 (U0 m c)
/-- After region 0, which writes `main_v12` (its window 2). -/
def U2 (c : Dev nD) : Valuation τ sig (Elt F) :=
  Function.update (U1 m c) main_v12 ((dat0 (rd (U1 m)) c).arrAt 2 cfg0.N)
/-- Region 1's entry. -/
def U3 (c : Dev nD) : Valuation τ sig (Elt F) := StableHlo.after hostOps1 (U2 m c)
/-- After region 1, which writes `main_v33_0`, `main_v33_1`, `main_v33_2` (its windows 4, 5, 6). -/
def U4 (c : Dev nD) : Valuation τ sig (Elt F) :=
  Function.update (Function.update (Function.update (U3 m c)
    main_v33_0 ((dat1 (rd (U3 m)) c).arrAt 4 cfg1.N))
    main_v33_1 ((dat1 (rd (U3 m)) c).arrAt 5 cfg1.N))
    main_v33_2 ((dat1 (rd (U3 m)) c).arrAt 6 cfg1.N)
/-- Region 2's entry. -/
def U5 (c : Dev nD) : Valuation τ sig (Elt F) := StableHlo.after hostOps2 (U4 m c)
/-- After region 2, which writes `main_v48` (its window 5): region 3's entry. -/
def U6 (c : Dev nD) : Valuation τ sig (Elt F) :=
  Function.update (U5 m c) main_v48 ((dat2 (rd (U5 m)) c).arrAt 5 cfg2.N)
/-- After region 3, which writes `main_v49` (its window 2). -/
def U7 (c : Dev nD) : Valuation τ sig (Elt F) :=
  Function.update (U6 m c) main_v49 ((dat3 (rd (U6 m)) c).arrAt 2 cfg3.N)
/-- Region 4's entry. -/
def U8 (c : Dev nD) : Valuation τ sig (Elt F) := StableHlo.after hostOps4 (U7 m c)
/-- After region 4, which writes `main_v70_0`, `main_v70_1`, `main_v70_2` (its windows 4, 5, 6). -/
def U9 (c : Dev nD) : Valuation τ sig (Elt F) :=
  Function.update (Function.update (Function.update (U8 m c)
    main_v70_0 ((dat4 (rd (U8 m)) c).arrAt 4 cfg4.N))
    main_v70_1 ((dat4 (rd (U8 m)) c).arrAt 5 cfg4.N))
    main_v70_2 ((dat4 (rd (U8 m)) c).arrAt 6 cfg4.N)
/-- Region 5's entry. -/
def U10 (c : Dev nD) : Valuation τ sig (Elt F) := StableHlo.after hostOps5 (U9 m c)
/-- After region 5, which writes `main_v85` (its window 6): region 6's entry. -/
def U11 (c : Dev nD) : Valuation τ sig (Elt F) :=
  Function.update (U10 m c) main_v85 ((dat5 (rd (U10 m)) c).arrAt 6 cfg5.N)
/-- After region 6, which writes `main_v86` (its window 2). -/
def U12 (c : Dev nD) : Valuation τ sig (Elt F) :=
  Function.update (U11 m c) main_v86 ((dat6 (rd (U11 m)) c).arrAt 2 cfg6.N)
/-- Region 7's entry. -/
def U13 (c : Dev nD) : Valuation τ sig (Elt F) := StableHlo.after hostOps7 (U12 m c)
/-- After region 7, which writes `main_v107_0`, `main_v107_1`, `main_v107_2` (its windows 4, 5, 6). -/
def U14 (c : Dev nD) : Valuation τ sig (Elt F) :=
  Function.update (Function.update (Function.update (U13 m c)
    main_v107_0 ((dat7 (rd (U13 m)) c).arrAt 4 cfg7.N))
    main_v107_1 ((dat7 (rd (U13 m)) c).arrAt 5 cfg7.N))
    main_v107_2 ((dat7 (rd (U13 m)) c).arrAt 6 cfg7.N)
/-- Region 8's entry. -/
def U15 (c : Dev nD) : Valuation τ sig (Elt F) := StableHlo.after hostOps8 (U14 m c)
/-- After region 8, which writes `main_v122` (its window 6). -/
def U16 (c : Dev nD) : Valuation τ sig (Elt F) :=
  Function.update (U15 m c) main_v122 ((dat8 (rd (U15 m)) c).arrAt 6 cfg8.N)
/-- After the three closing host stretches. -/
def U17 (c : Dev nD) : Valuation τ sig (Elt F) := StableHlo.after hostOps9 (U16 m c)
def U18 (c : Dev nD) : Valuation τ sig (Elt F) := StableHlo.after hostOps9_1 (U17 m c)
def U19 (c : Dev nD) : Valuation τ sig (Elt F) := StableHlo.after hostOps9_2 (U18 m c)

/-- What the regions leave, as the conditional frame's unknowns: each read off the valuation after its region. -/
def outs : Outs (F := F) := fun J r c =>
  match J with
  | 2 => U2 m c r
  | 4 => U4 m c r
  | 6 => U6 m c r
  | 7 => U7 m c r
  | 9 => U9 m c r
  | 11 => U11 m c r
  | 12 => U12 m c r
  | 14 => U14 m c r
  | 16 => U16 m c r
  | _ => U0 m c r

end Vals

/-! ## The conditional frame's valuations at these unknowns are the concrete ones -/

section ValEqs

variable (m : (ℓ : Loc nD τ sig) → Buf (Elt F) ℓ)

/-- Distinct references are distinct device references. -/
theorem dne {r r' : Ref sig .tc} (h : r ≠ r') : (Proc.devRef .tc r : DevRef τ sig) ≠ Proc.devRef .tc r' :=
  StableHlo.devRef_ne_of_ne h

theorem V0_eq (c : Dev nD) : V0 m c = U0 m c := rfl
theorem V1_eq (c : Dev nD) : V1 m c = U1 m c := rfl

/-- Region 0's output array in the next valuation. -/
theorem U2_out (c : Dev nD) : U2 m c main_v12 = (dat0 (rd (U1 m)) c).arrAt 2 cfg0.N := by
  unfold U2; exact Function.update_self ..
theorem V2_eq (c : Dev nD) : V2 m (outs m) c = U2 m c := by
  show Function.update (V1 m c) main_v12 (U2 m c main_v12) = U2 m c
  rw [U2_out, V1_eq]; rfl
theorem V3_eq (c : Dev nD) : V3 m (outs m) c = U3 m c := by
  show StableHlo.after hostOps1 (V2 m (outs m) c) = U3 m c
  rw [V2_eq]; rfl

/-- Region 1's output arrays in the next valuation. -/
theorem U4_out0 (c : Dev nD) : U4 m c main_v33_0 = (dat1 (rd (U3 m)) c).arrAt 4 cfg1.N := by
  unfold U4
  rw [Function.update_of_ne (dne (by decide)), Function.update_of_ne (dne (by decide))]; exact Function.update_self ..
theorem U4_out1 (c : Dev nD) : U4 m c main_v33_1 = (dat1 (rd (U3 m)) c).arrAt 5 cfg1.N := by
  unfold U4
  rw [Function.update_of_ne (dne (by decide))]; exact Function.update_self ..
theorem U4_out2 (c : Dev nD) : U4 m c main_v33_2 = (dat1 (rd (U3 m)) c).arrAt 6 cfg1.N := by
  unfold U4; exact Function.update_self ..
theorem V4_eq (c : Dev nD) : V4 m (outs m) c = U4 m c := by
  show Function.update (Function.update (Function.update (V3 m (outs m) c) main_v33_0 (U4 m c main_v33_0))
    main_v33_1 (U4 m c main_v33_1)) main_v33_2 (U4 m c main_v33_2) = U4 m c
  rw [U4_out0, U4_out1, U4_out2, V3_eq]; rfl
theorem V5_eq (c : Dev nD) : V5 m (outs m) c = U5 m c := by
  show StableHlo.after hostOps2 (V4 m (outs m) c) = U5 m c
  rw [V4_eq]; rfl

/-- Region 2's output array in the next valuation. -/
theorem U6_out (c : Dev nD) : U6 m c main_v48 = (dat2 (rd (U5 m)) c).arrAt 5 cfg2.N := by
  unfold U6; exact Function.update_self ..
theorem V6_eq (c : Dev nD) : V6 m (outs m) c = U6 m c := by
  show Function.update (V5 m (outs m) c) main_v48 (U6 m c main_v48) = U6 m c
  rw [U6_out, V5_eq]; rfl

/-- Region 3's output array in the next valuation. -/
theorem U7_out (c : Dev nD) : U7 m c main_v49 = (dat3 (rd (U6 m)) c).arrAt 2 cfg3.N := by
  unfold U7; exact Function.update_self ..
theorem V7_eq (c : Dev nD) : V7 m (outs m) c = U7 m c := by
  show Function.update (V6 m (outs m) c) main_v49 (U7 m c main_v49) = U7 m c
  rw [U7_out, V6_eq]; rfl
theorem V8_eq (c : Dev nD) : V8 m (outs m) c = U8 m c := by
  show StableHlo.after hostOps4 (V7 m (outs m) c) = U8 m c
  rw [V7_eq]; rfl

/-- Region 4's output arrays in the next valuation. -/
theorem U9_out0 (c : Dev nD) : U9 m c main_v70_0 = (dat4 (rd (U8 m)) c).arrAt 4 cfg4.N := by
  unfold U9
  rw [Function.update_of_ne (dne (by decide)), Function.update_of_ne (dne (by decide))]; exact Function.update_self ..
theorem U9_out1 (c : Dev nD) : U9 m c main_v70_1 = (dat4 (rd (U8 m)) c).arrAt 5 cfg4.N := by
  unfold U9
  rw [Function.update_of_ne (dne (by decide))]; exact Function.update_self ..
theorem U9_out2 (c : Dev nD) : U9 m c main_v70_2 = (dat4 (rd (U8 m)) c).arrAt 6 cfg4.N := by
  unfold U9; exact Function.update_self ..
theorem V9_eq (c : Dev nD) : V9 m (outs m) c = U9 m c := by
  show Function.update (Function.update (Function.update (V8 m (outs m) c) main_v70_0 (U9 m c main_v70_0))
    main_v70_1 (U9 m c main_v70_1)) main_v70_2 (U9 m c main_v70_2) = U9 m c
  rw [U9_out0, U9_out1, U9_out2, V8_eq]; rfl
theorem V10_eq (c : Dev nD) : V10 m (outs m) c = U10 m c := by
  show StableHlo.after hostOps5 (V9 m (outs m) c) = U10 m c
  rw [V9_eq]; rfl

/-- Region 5's output array in the next valuation. -/
theorem U11_out (c : Dev nD) : U11 m c main_v85 = (dat5 (rd (U10 m)) c).arrAt 6 cfg5.N := by
  unfold U11; exact Function.update_self ..
theorem V11_eq (c : Dev nD) : V11 m (outs m) c = U11 m c := by
  show Function.update (V10 m (outs m) c) main_v85 (U11 m c main_v85) = U11 m c
  rw [U11_out, V10_eq]; rfl

/-- Region 6's output array in the next valuation. -/
theorem U12_out (c : Dev nD) : U12 m c main_v86 = (dat6 (rd (U11 m)) c).arrAt 2 cfg6.N := by
  unfold U12; exact Function.update_self ..
theorem V12_eq (c : Dev nD) : V12 m (outs m) c = U12 m c := by
  show Function.update (V11 m (outs m) c) main_v86 (U12 m c main_v86) = U12 m c
  rw [U12_out, V11_eq]; rfl
theorem V13_eq (c : Dev nD) : V13 m (outs m) c = U13 m c := by
  show StableHlo.after hostOps7 (V12 m (outs m) c) = U13 m c
  rw [V12_eq]; rfl

/-- Region 7's output arrays in the next valuation. -/
theorem U14_out0 (c : Dev nD) : U14 m c main_v107_0 = (dat7 (rd (U13 m)) c).arrAt 4 cfg7.N := by
  unfold U14
  rw [Function.update_of_ne (dne (by decide)), Function.update_of_ne (dne (by decide))]; exact Function.update_self ..
theorem U14_out1 (c : Dev nD) : U14 m c main_v107_1 = (dat7 (rd (U13 m)) c).arrAt 5 cfg7.N := by
  unfold U14
  rw [Function.update_of_ne (dne (by decide))]; exact Function.update_self ..
theorem U14_out2 (c : Dev nD) : U14 m c main_v107_2 = (dat7 (rd (U13 m)) c).arrAt 6 cfg7.N := by
  unfold U14; exact Function.update_self ..
theorem V14_eq (c : Dev nD) : V14 m (outs m) c = U14 m c := by
  show Function.update (Function.update (Function.update (V13 m (outs m) c) main_v107_0 (U14 m c main_v107_0))
    main_v107_1 (U14 m c main_v107_1)) main_v107_2 (U14 m c main_v107_2) = U14 m c
  rw [U14_out0, U14_out1, U14_out2, V13_eq]; rfl
theorem V15_eq (c : Dev nD) : V15 m (outs m) c = U15 m c := by
  show StableHlo.after hostOps8 (V14 m (outs m) c) = U15 m c
  rw [V14_eq]; rfl

/-- Region 8's output array in the next valuation. -/
theorem U16_out (c : Dev nD) : U16 m c main_v122 = (dat8 (rd (U15 m)) c).arrAt 6 cfg8.N := by
  unfold U16; exact Function.update_self ..
theorem V16_eq (c : Dev nD) : V16 m (outs m) c = U16 m c := by
  show Function.update (V15 m (outs m) c) main_v122 (U16 m c main_v122) = U16 m c
  rw [U16_out, V15_eq]; rfl
theorem V17_eq (c : Dev nD) : V17 m (outs m) c = U17 m c := by
  show StableHlo.after hostOps9 (V16 m (outs m) c) = U17 m c
  rw [V16_eq]; rfl
theorem V18_eq (c : Dev nD) : V18 m (outs m) c = U18 m c := by
  show StableHlo.after hostOps9_1 (V17 m (outs m) c) = U18 m c
  rw [V17_eq]; rfl
theorem V19_eq (c : Dev nD) : V19 m (outs m) c = U19 m c := by
  show StableHlo.after hostOps9_2 (V18 m (outs m) c) = U19 m c
  rw [V18_eq]; rfl

end ValEqs

/-! ## What each region leaves unchanged -/

section ValOf

variable (m : (ℓ : Loc nD τ sig) → Buf (Elt F) ℓ)

theorem U2_of (c : Dev nD) (r : Ref sig .tc) (h : r ∉ ([main_v12] : List (Ref sig .tc))) : U2 m c r = U1 m c r := by
  rw [← V2_eq, ← V1_eq]; exact V2_of m (outs m) c r h
theorem U4_of (c : Dev nD) (r : Ref sig .tc) (h : r ∉ ([main_v33_0, main_v33_1, main_v33_2] : List (Ref sig .tc))) :
    U4 m c r = U3 m c r := by
  rw [← V4_eq, ← V3_eq]; exact V4_of m (outs m) c r h
theorem U6_of (c : Dev nD) (r : Ref sig .tc) (h : r ∉ ([main_v48] : List (Ref sig .tc))) : U6 m c r = U5 m c r := by
  rw [← V6_eq, ← V5_eq]; exact V6_of m (outs m) c r h
theorem U7_of (c : Dev nD) (r : Ref sig .tc) (h : r ∉ ([main_v49] : List (Ref sig .tc))) : U7 m c r = U6 m c r := by
  rw [← V7_eq, ← V6_eq]; exact V7_of m (outs m) c r h
theorem U9_of (c : Dev nD) (r : Ref sig .tc) (h : r ∉ ([main_v70_0, main_v70_1, main_v70_2] : List (Ref sig .tc))) :
    U9 m c r = U8 m c r := by
  rw [← V9_eq, ← V8_eq]; exact V9_of m (outs m) c r h
theorem U11_of (c : Dev nD) (r : Ref sig .tc) (h : r ∉ ([main_v85] : List (Ref sig .tc))) : U11 m c r = U10 m c r := by
  rw [← V11_eq, ← V10_eq]; exact V11_of m (outs m) c r h
theorem U12_of (c : Dev nD) (r : Ref sig .tc) (h : r ∉ ([main_v86] : List (Ref sig .tc))) : U12 m c r = U11 m c r := by
  rw [← V12_eq, ← V11_eq]; exact V12_of m (outs m) c r h
theorem U14_of (c : Dev nD) (r : Ref sig .tc) (h : r ∉ ([main_v107_0, main_v107_1, main_v107_2] : List (Ref sig .tc))) :
    U14 m c r = U13 m c r := by
  rw [← V14_eq, ← V13_eq]; exact V14_of m (outs m) c r h
theorem U16_of (c : Dev nD) (r : Ref sig .tc) (h : r ∉ ([main_v122] : List (Ref sig .tc))) : U16 m c r = U15 m c r := by
  rw [← V16_eq, ← V15_eq]; exact V16_of m (outs m) c r h

end ValOf

end Cert.KernelIdeal.Hand

end
-- ==== Proof.Segs9.lean ====
import proofs.«142371_j48498770706497_2_alg».proof.Proof.Vals9
import Idealize.ShloMosaic.Lib.Pipeline.RegionsLoop

/-! # The nine kernel regions as segments of the run

One segment record per region, entered from the thread state at the valuation before it and left at the one after. -/

-- decided memberships over the program's references recurse past the default depth
set_option maxRecDepth 1628

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## A kernel region as a segment of the run

Every region of this program has the same protocol: it is entered holding every unscoped buffer whole at the valuation
before it, beside the core's generator register and its dues (none); its windows' arrays are split out of the unscoped
buffers and put back at the valuation after it, which has each array at what the pipeline leaves and agrees with the
entry valuation elsewhere; the scoped buffers no window stages are the whole of the body's invariant at both ends; the
kernel has no semaphore of its own and no prefetched table. -/

section Builder

local notation "𝕄" => MT nD τ sig Unit (Elt F) ℕ (UR sig nD τ) ℕ

/-- No core owes another anything: no level is assigned. -/
abbrev L9 : GSem nD τ sig → Finset Unit := fun _ => ∅
abbrev lv9 : GSem nD τ sig → Unit → ℕ := fun _ _ => 0

/-- What rides beside the buffers through every item: the core's generator register at some state and its dues, none. -/
abbrev R9 (c : Dev nD) : sProp 𝕄 :=
  iprop((∃ r, prngReg c r) ∗ ∃ W, owes (c : Thread nD τ) (0 : CellTallies nD τ sig Unit) W)

/-- The thread state between two items: every unscoped buffer at the valuation `W`, and the rest. -/
abbrev T9 (W : Dev nD → Valuation τ sig (Elt F)) (c : Dev nD) : sProp 𝕄 :=
  iprop(StableHlo.held (c : Thread nD τ) (Pipeline.ucRefs τ sig) (W c) ∗ R9 c)

set_option backward.isDefEq.respectTransparency.types false in
/-- Region `p` as a segment from the thread state at `Vin` to the one at `Vout`. -/
def mkReg (pdats : (p : Fin 9) → (c : Dev nD) → Dat τ (Elt F) Unit ℕ (UR sig nD τ) ℕ (Pipeline.pin (pcfgs (F := F)) adm p) c)
    (p : Fin 9) (lf : Pipeline.LaunchFacts (nD := nD) (τ := τ) cfgs p)
    (hbody : ∀ c, Pipeline.BodyObligation (pdats p c) (defs₀ (F := F)) Variants.none () Set.univ)
    (howed : ∀ c t, (pdats p c).owed t = 0)
    (hrec : ∀ c, (pdats p c).recorded 0 = Set.univ)
    (hq : ∀ c w, (pdats p c).q w = fullShare)
    (Vin Vout : Dev nD → Valuation τ sig (Elt F))
    (hA : ∀ c w, (pdats p c).A w = Vin c (Pipeline.arrRef (Pipeline.pin (pcfgs (F := F)) adm p).spec w))
    (hF : ∀ c w, (pdats p c).arrAt w (Pipeline.pin (pcfgs (F := F)) adm p).N
      = Vout c (Pipeline.arrRef (Pipeline.pin (pcfgs (F := F)) adm p).spec w))
    (hrest : ∀ c (b : Ref sig .tc), b ∉ Finset.univ.image (Pipeline.arrRef (Pipeline.pin (pcfgs (F := F)) adm p).spec)
      → Vout c b = Vin c b)
    (hΦin : ∀ c, (Pipeline.scopedRest (Pipeline.pin (pcfgs (F := F)) adm p).spec c : sProp 𝕄) ⊢ (pdats p c).Φ 0)
    (hΦout : ∀ c, (pdats p c).Φ (Fin.last _) ⊢ (Pipeline.scopedRest (Pipeline.pin (pcfgs (F := F)) adm p).spec c : sProp 𝕄)) :
    RegionSeg (pcfgs (F := F)) adm pdats () defs₀ Variants.none L9 lv9 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero (pcfgs (F := F)) adm pdats () L9 lv9 p howed
  pre := T9 Vin
  post := T9 Vout
  X c := iprop(emp)
  Y c := iprop(emp)
  Z c := iprop(Pipeline.unscopedRest (Pipeline.pin (pcfgs (F := F)) adm p).spec c (fun b => Vin c b) ∗ ∃ r, prngReg c r)
  hentry c := by
    rw [Pipeline.ownSems0_none]
    have hsplit := Pipeline.arrays_of_unscopedBufs (p := p) (pcfgs (F := F)) adm pdats lf.win lf.arr_whole c
      ((pdats p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; unfold Pipeline.Dat.bound; rw [hrec c]; exact fun _ _ => Or.inl trivial
      iexact HO
    isplitr; · iempintro
    isplitl [Hrest]; · iexact Hrest
    iexact Hp
  hin c := by
    iintro ⟨-, -, Hr⟩
    iapply (hΦin c); iexact Hr
  hout c := by
    rw [Pipeline.ownSems0_none]
    iintro H
    isplitr; · iempintro
    isplitr; · iempintro
    iapply (hΦout c); iexact H
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vin c b) (fun b => Vout c b) ((pdats p c).arrAt · (Pipeline.pin (pcfgs (F := F)) adm p).N) (hF c) (hrest c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    rw [howed c (Fin.last _)]
    icases HO with ⟨%W, -, HO⟩; iexists W; iexact HO

end Builder

/-! ## The nine regions' records -/

section Records

variable (m : (ℓ : Loc nD τ sig) → Buf (Elt F) ℓ)

/-- A window's array is among the windows' arrays. -/
theorem mem_arr {gr W : Nat} (win : Fin W → Pipeline.WinSpec sig gr) (w : Fin W) :
    Pipeline.arrRef win w ∈ Finset.univ.image (Pipeline.arrRef win) :=
  Finset.mem_image.mpr ⟨w, Finset.mem_univ _, rfl⟩

/-- Every pipeline's proof data, each at its region's entry contents: a literal match, so that the launch theorem's
    configuration at a numeral reduces to the printed one. -/
def pdats : (p : Fin 9) → (c : Dev nD) → Dat τ (Elt F) Unit ℕ (UR sig nD τ) ℕ (Pipeline.pin (pcfgs (F := F)) adm p) c
  | ⟨0, _⟩ => fun c => dat0 (rd (U1 m)) c
  | ⟨1, _⟩ => fun c => dat1 (rd (U3 m)) c
  | ⟨2, _⟩ => fun c => dat2 (rd (U5 m)) c
  | ⟨3, _⟩ => fun c => dat3 (rd (U6 m)) c
  | ⟨4, _⟩ => fun c => dat4 (rd (U8 m)) c
  | ⟨5, _⟩ => fun c => dat5 (rd (U10 m)) c
  | ⟨6, _⟩ => fun c => dat6 (rd (U11 m)) c
  | ⟨7, _⟩ => fun c => dat7 (rd (U13 m)) c
  | ⟨8, _⟩ => fun c => dat8 (rd (U15 m)) c

/-! ### Region 0: inputs `main_arg0`, `main_arg3`; output `main_v12` -/

-- one comparison of a window's array type with its buffer's per window
set_option maxHeartbeats 1000000 in
theorem hF0 (c : Dev nD) : ∀ w : Fin 3, (dat0 (rd (U1 m)) c).arrAt w cfg0.N = U2 m c (Pipeline.arrRef spec0 w)
  | 0 => ((dat0 (rd (U1 m)) c).arrAt_in 0 rfl _).trans ((A_eq0 (rd (U1 m)) c 0).trans (U2_of m c main_arg0 (by decide)).symm)
  | 1 => ((dat0 (rd (U1 m)) c).arrAt_in 1 rfl _).trans ((A_eq0 (rd (U1 m)) c 1).trans (U2_of m c main_arg3 (by decide)).symm)
  | 2 => (U2_out m c).symm
  | ⟨_ + 3, h⟩ => absurd h (Nat.not_lt.2 (Nat.le_add_left _ _))
theorem hrest0 (c : Dev nD) (b : Ref sig .tc) (hb : b ∉ Finset.univ.image (Pipeline.arrRef spec0)) : U2 m c b = U1 m c b :=
  U2_of m c b fun hmem => by
    simp only [List.mem_cons, List.mem_nil_iff, or_false] at hmem
    subst hmem; exact hb (mem_arr spec0 2)

set_option backward.isDefEq.respectTransparency.types false in
def reg0 : RegionSeg (pcfgs (F := F)) adm (pdats m) () defs₀ Variants.none L9 lv9 0 :=
  mkReg (pdats m) 0 launch0 (fun c => body_obligation0 (rd (U1 m)) c) (fun c t => owed_eq0 (rd (U1 m)) c t)
    (fun c => rfl) (fun c w => q_eq0 (rd (U1 m)) c w) (U1 m) (U2 m)
    (fun c w => A_eq0 (rd (U1 m)) c w) (hF0 m) (hrest0 m)
    (fun c => Φ_in0 (rd (U1 m)) c) (fun c => Φ_out0 (rd (U1 m)) c)

/-! ### Region 1: inputs `main_v30`, `main_v12`, `main_v31`, `main_v32`; outputs `main_v33_0`, `main_v33_1`, `main_v33_2` -/

-- one comparison of a window's array type with its buffer's per window
set_option maxHeartbeats 1000000 in
theorem hF1 (c : Dev nD) : ∀ w : Fin 7, (dat1 (rd (U3 m)) c).arrAt w cfg1.N = U4 m c (Pipeline.arrRef spec1 w)
  | 0 => ((dat1 (rd (U3 m)) c).arrAt_in 0 rfl _).trans ((A_eq1 (rd (U3 m)) c 0).trans (U4_of m c main_v30 (by decide)).symm)
  | 1 => ((dat1 (rd (U3 m)) c).arrAt_in 1 rfl _).trans ((A_eq1 (rd (U3 m)) c 1).trans (U4_of m c main_v12 (by decide)).symm)
  | 2 => ((dat1 (rd (U3 m)) c).arrAt_in 2 rfl _).trans ((A_eq1 (rd (U3 m)) c 2).trans (U4_of m c main_v31 (by decide)).symm)
  | 3 => ((dat1 (rd (U3 m)) c).arrAt_in 3 rfl _).trans ((A_eq1 (rd (U3 m)) c 3).trans (U4_of m c main_v32 (by decide)).symm)
  | 4 => (U4_out0 m c).symm
  | 5 => (U4_out1 m c).symm
  | 6 => (U4_out2 m c).symm
  | ⟨_ + 7, h⟩ => absurd h (Nat.not_lt.2 (Nat.le_add_left _ _))
theorem hrest1 (c : Dev nD) (b : Ref sig .tc) (hb : b ∉ Finset.univ.image (Pipeline.arrRef spec1)) : U4 m c b = U3 m c b :=
  U4_of m c b fun hmem => by
    simp only [List.mem_cons, List.mem_nil_iff, or_false] at hmem
    rcases hmem with rfl | rfl | rfl
    · exact hb (mem_arr spec1 4)
    · exact hb (mem_arr spec1 5)
    · exact hb (mem_arr spec1 6)

set_option backward.isDefEq.respectTransparency.types false in
def reg1 : RegionSeg (pcfgs (F := F)) adm (pdats m) () defs₀ Variants.none L9 lv9 1 :=
  mkReg (pdats m) 1 launch1 (fun c => body_obligation1 (rd (U3 m)) c) (fun c t => owed_eq1 (rd (U3 m)) c t)
    (fun c => rfl) (fun c w => q_eq1 (rd (U3 m)) c w) (U3 m) (U4 m)
    (fun c w => A_eq1 (rd (U3 m)) c w) (hF1 m) (hrest1 m)
    (fun c => Φ_in1 (rd (U3 m)) c) (fun c => Φ_out1 (rd (U3 m)) c)

/-! ### Region 2: inputs `main_v33_0`, `main_v44` … `main_v47`; output `main_v48` -/

-- one comparison of a window's array type with its buffer's per window
set_option maxHeartbeats 1000000 in
theorem hF2 (c : Dev nD) : ∀ w : Fin 6, (dat2 (rd (U5 m)) c).arrAt w cfg2.N = U6 m c (Pipeline.arrRef spec2 w)
  | 0 => ((dat2 (rd (U5 m)) c).arrAt_in 0 rfl _).trans ((A_eq2 (rd (U5 m)) c 0).trans (U6_of m c main_v33_0 (by decide)).symm)
  | 1 => ((dat2 (rd (U5 m)) c).arrAt_in 1 rfl _).trans ((A_eq2 (rd (U5 m)) c 1).trans (U6_of m c main_v44 (by decide)).symm)
  | 2 => ((dat2 (rd (U5 m)) c).arrAt_in 2 rfl _).trans ((A_eq2 (rd (U5 m)) c 2).trans (U6_of m c main_v45 (by decide)).symm)
  | 3 => ((dat2 (rd (U5 m)) c).arrAt_in 3 rfl _).trans ((A_eq2 (rd (U5 m)) c 3).trans (U6_of m c main_v46 (by decide)).symm)
  | 4 => ((dat2 (rd (U5 m)) c).arrAt_in 4 rfl _).trans ((A_eq2 (rd (U5 m)) c 4).trans (U6_of m c main_v47 (by decide)).symm)
  | 5 => (U6_out m c).symm
  | ⟨_ + 6, h⟩ => absurd h (Nat.not_lt.2 (Nat.le_add_left _ _))
theorem hrest2 (c : Dev nD) (b : Ref sig .tc) (hb : b ∉ Finset.univ.image (Pipeline.arrRef spec2)) : U6 m c b = U5 m c b :=
  U6_of m c b fun hmem => by
    simp only [List.mem_cons, List.mem_nil_iff, or_false] at hmem
    subst hmem; exact hb (mem_arr spec2 5)

set_option backward.isDefEq.respectTransparency.types false in
def reg2 : RegionSeg (pcfgs (F := F)) adm (pdats m) () defs₀ Variants.none L9 lv9 2 :=
  mkReg (pdats m) 2 launch2 (fun c => body_obligation2 (rd (U5 m)) c) (fun c t => owed_eq2 (rd (U5 m)) c t)
    (fun c => rfl) (fun c w => q_eq2 (rd (U5 m)) c w) (U5 m) (U6 m)
    (fun c w => A_eq2 (rd (U5 m)) c w) (hF2 m) (hrest2 m)
    (fun c => Φ_in2 (rd (U5 m)) c) (fun c => Φ_out2 (rd (U5 m)) c)

/-! ### Region 3: inputs `main_v48`, `main_arg7`; output `main_v49` -/

-- one comparison of a window's array type with its buffer's per window
set_option maxHeartbeats 1000000 in
theorem hF3 (c : Dev nD) : ∀ w : Fin 3, (dat3 (rd (U6 m)) c).arrAt w cfg3.N = U7 m c (Pipeline.arrRef spec3 w)
  | 0 => ((dat3 (rd (U6 m)) c).arrAt_in 0 rfl _).trans ((A_eq3 (rd (U6 m)) c 0).trans (U7_of m c main_v48 (by decide)).symm)
  | 1 => ((dat3 (rd (U6 m)) c).arrAt_in 1 rfl _).trans ((A_eq3 (rd (U6 m)) c 1).trans (U7_of m c main_arg7 (by decide)).symm)
  | 2 => (U7_out m c).symm
  | ⟨_ + 3, h⟩ => absurd h (Nat.not_lt.2 (Nat.le_add_left _ _))
theorem hrest3 (c : Dev nD) (b : Ref sig .tc) (hb : b ∉ Finset.univ.image (Pipeline.arrRef spec3)) : U7 m c b = U6 m c b :=
  U7_of m c b fun hmem => by
    simp only [List.mem_cons, List.mem_nil_iff, or_false] at hmem
    subst hmem; exact hb (mem_arr spec3 2)

set_option backward.isDefEq.respectTransparency.types false in
def reg3 : RegionSeg (pcfgs (F := F)) adm (pdats m) () defs₀ Variants.none L9 lv9 3 :=
  mkReg (pdats m) 3 launch3 (fun c => body_obligation3 (rd (U6 m)) c) (fun c t => owed_eq3 (rd (U6 m)) c t)
    (fun c => rfl) (fun c w => q_eq3 (rd (U6 m)) c w) (U6 m) (U7 m)
    (fun c w => A_eq3 (rd (U6 m)) c w) (hF3 m) (hrest3 m)
    (fun c => Φ_in3 (rd (U6 m)) c) (fun c => Φ_out3 (rd (U6 m)) c)

/-! ### Region 4: inputs `main_v67`, `main_v49`, `main_v68`, `main_v69`; outputs `main_v70_0`, `main_v70_1`, `main_v70_2` -/

-- one comparison of a window's array type with its buffer's per window
set_option maxHeartbeats 1000000 in
theorem hF4 (c : Dev nD) : ∀ w : Fin 7, (dat4 (rd (U8 m)) c).arrAt w cfg4.N = U9 m c (Pipeline.arrRef spec4 w)
  | 0 => ((dat4 (rd (U8 m)) c).arrAt_in 0 rfl _).trans ((A_eq4 (rd (U8 m)) c 0).trans (U9_of m c main_v67 (by decide)).symm)
  | 1 => ((dat4 (rd (U8 m)) c).arrAt_in 1 rfl _).trans ((A_eq4 (rd (U8 m)) c 1).trans (U9_of m c main_v49 (by decide)).symm)
  | 2 => ((dat4 (rd (U8 m)) c).arrAt_in 2 rfl _).trans ((A_eq4 (rd (U8 m)) c 2).trans (U9_of m c main_v68 (by decide)).symm)
  | 3 => ((dat4 (rd (U8 m)) c).arrAt_in 3 rfl _).trans ((A_eq4 (rd (U8 m)) c 3).trans (U9_of m c main_v69 (by decide)).symm)
  | 4 => (U9_out0 m c).symm
  | 5 => (U9_out1 m c).symm
  | 6 => (U9_out2 m c).symm
  | ⟨_ + 7, h⟩ => absurd h (Nat.not_lt.2 (Nat.le_add_left _ _))
theorem hrest4 (c : Dev nD) (b : Ref sig .tc) (hb : b ∉ Finset.univ.image (Pipeline.arrRef spec4)) : U9 m c b = U8 m c b :=
  U9_of m c b fun hmem => by
    simp only [List.mem_cons, List.mem_nil_iff, or_false] at hmem
    rcases hmem with rfl | rfl | rfl
    · exact hb (mem_arr spec4 4)
    · exact hb (mem_arr spec4 5)
    · exact hb (mem_arr spec4 6)

set_option backward.isDefEq.respectTransparency.types false in
def reg4 : RegionSeg (pcfgs (F := F)) adm (pdats m) () defs₀ Variants.none L9 lv9 4 :=
  mkReg (pdats m) 4 launch4 (fun c => body_obligation4 (rd (U8 m)) c) (fun c t => owed_eq4 (rd (U8 m)) c t)
    (fun c => rfl) (fun c w => q_eq4 (rd (U8 m)) c w) (U8 m) (U9 m)
    (fun c w => A_eq4 (rd (U8 m)) c w) (hF4 m) (hrest4 m)
    (fun c => Φ_in4 (rd (U8 m)) c) (fun c => Φ_out4 (rd (U8 m)) c)

/-! ### Region 5: inputs `main_v70_0`, `main_v48`, `main_v81` … `main_v84`; output `main_v85` -/

-- one comparison of a window's array type with its buffer's per window
set_option maxHeartbeats 1000000 in
theorem hF5 (c : Dev nD) : ∀ w : Fin 7, (dat5 (rd (U10 m)) c).arrAt w cfg5.N = U11 m c (Pipeline.arrRef spec5 w)
  | 0 => ((dat5 (rd (U10 m)) c).arrAt_in 0 rfl _).trans ((A_eq5 (rd (U10 m)) c 0).trans (U11_of m c main_v70_0 (by decide)).symm)
  | 1 => ((dat5 (rd (U10 m)) c).arrAt_in 1 rfl _).trans ((A_eq5 (rd (U10 m)) c 1).trans (U11_of m c main_v48 (by decide)).symm)
  | 2 => ((dat5 (rd (U10 m)) c).arrAt_in 2 rfl _).trans ((A_eq5 (rd (U10 m)) c 2).trans (U11_of m c main_v81 (by decide)).symm)
  | 3 => ((dat5 (rd (U10 m)) c).arrAt_in 3 rfl _).trans ((A_eq5 (rd (U10 m)) c 3).trans (U11_of m c main_v82 (by decide)).symm)
  | 4 => ((dat5 (rd (U10 m)) c).arrAt_in 4 rfl _).trans ((A_eq5 (rd (U10 m)) c 4).trans (U11_of m c main_v83 (by decide)).symm)
  | 5 => ((dat5 (rd (U10 m)) c).arrAt_in 5 rfl _).trans ((A_eq5 (rd (U10 m)) c 5).trans (U11_of m c main_v84 (by decide)).symm)
  | 6 => (U11_out m c).symm
  | ⟨_ + 7, h⟩ => absurd h (Nat.not_lt.2 (Nat.le_add_left _ _))
theorem hrest5 (c : Dev nD) (b : Ref sig .tc) (hb : b ∉ Finset.univ.image (Pipeline.arrRef spec5)) : U11 m c b = U10 m c b :=
  U11_of m c b fun hmem => by
    simp only [List.mem_cons, List.mem_nil_iff, or_false] at hmem
    subst hmem; exact hb (mem_arr spec5 6)

set_option backward.isDefEq.respectTransparency.types false in
def reg5 : RegionSeg (pcfgs (F := F)) adm (pdats m) () defs₀ Variants.none L9 lv9 5 :=
  mkReg (pdats m) 5 launch5 (fun c => body_obligation5 (rd (U10 m)) c) (fun c t => owed_eq5 (rd (U10 m)) c t)
    (fun c => rfl) (fun c w => q_eq5 (rd (U10 m)) c w) (U10 m) (U11 m)
    (fun c w => A_eq5 (rd (U10 m)) c w) (hF5 m) (hrest5 m)
    (fun c => Φ_in5 (rd (U10 m)) c) (fun c => Φ_out5 (rd (U10 m)) c)

/-! ### Region 6: inputs `main_v85`, `main_arg11`; output `main_v86` -/

-- one comparison of a window's array type with its buffer's per window
set_option maxHeartbeats 1000000 in
theorem hF6 (c : Dev nD) : ∀ w : Fin 3, (dat6 (rd (U11 m)) c).arrAt w cfg6.N = U12 m c (Pipeline.arrRef spec6 w)
  | 0 => ((dat6 (rd (U11 m)) c).arrAt_in 0 rfl _).trans ((A_eq6 (rd (U11 m)) c 0).trans (U12_of m c main_v85 (by decide)).symm)
  | 1 => ((dat6 (rd (U11 m)) c).arrAt_in 1 rfl _).trans ((A_eq6 (rd (U11 m)) c 1).trans (U12_of m c main_arg11 (by decide)).symm)
  | 2 => (U12_out m c).symm
  | ⟨_ + 3, h⟩ => absurd h (Nat.not_lt.2 (Nat.le_add_left _ _))
theorem hrest6 (c : Dev nD) (b : Ref sig .tc) (hb : b ∉ Finset.univ.image (Pipeline.arrRef spec6)) : U12 m c b = U11 m c b :=
  U12_of m c b fun hmem => by
    simp only [List.mem_cons, List.mem_nil_iff, or_false] at hmem
    subst hmem; exact hb (mem_arr spec6 2)

set_option backward.isDefEq.respectTransparency.types false in
def reg6 : RegionSeg (pcfgs (F := F)) adm (pdats m) () defs₀ Variants.none L9 lv9 6 :=
  mkReg (pdats m) 6 launch6 (fun c => body_obligation6 (rd (U11 m)) c) (fun c t => owed_eq6 (rd (U11 m)) c t)
    (fun c => rfl) (fun c w => q_eq6 (rd (U11 m)) c w) (U11 m) (U12 m)
    (fun c w => A_eq6 (rd (U11 m)) c w) (hF6 m) (hrest6 m)
    (fun c => Φ_in6 (rd (U11 m)) c) (fun c => Φ_out6 (rd (U11 m)) c)

/-! ### Region 7: inputs `main_v104`, `main_v86`, `main_v105`, `main_v106`; outputs `main_v107_0`, `main_v107_1`, `main_v107_2` -/

-- one comparison of a window's array type with its buffer's per window
set_option maxHeartbeats 1000000 in
theorem hF7 (c : Dev nD) : ∀ w : Fin 7, (dat7 (rd (U13 m)) c).arrAt w cfg7.N = U14 m c (Pipeline.arrRef spec7 w)
  | 0 => ((dat7 (rd (U13 m)) c).arrAt_in 0 rfl _).trans ((A_eq7 (rd (U13 m)) c 0).trans (U14_of m c main_v104 (by decide)).symm)
  | 1 => ((dat7 (rd (U13 m)) c).arrAt_in 1 rfl _).trans ((A_eq7 (rd (U13 m)) c 1).trans (U14_of m c main_v86 (by decide)).symm)
  | 2 => ((dat7 (rd (U13 m)) c).arrAt_in 2 rfl _).trans ((A_eq7 (rd (U13 m)) c 2).trans (U14_of m c main_v105 (by decide)).symm)
  | 3 => ((dat7 (rd (U13 m)) c).arrAt_in 3 rfl _).trans ((A_eq7 (rd (U13 m)) c 3).trans (U14_of m c main_v106 (by decide)).symm)
  | 4 => (U14_out0 m c).symm
  | 5 => (U14_out1 m c).symm
  | 6 => (U14_out2 m c).symm
  | ⟨_ + 7, h⟩ => absurd h (Nat.not_lt.2 (Nat.le_add_left _ _))
theorem hrest7 (c : Dev nD) (b : Ref sig .tc) (hb : b ∉ Finset.univ.image (Pipeline.arrRef spec7)) : U14 m c b = U13 m c b :=
  U14_of m c b fun hmem => by
    simp only [List.mem_cons, List.mem_nil_iff, or_false] at hmem
    rcases hmem with rfl | rfl | rfl
    · exact hb (mem_arr spec7 4)
    · exact hb (mem_arr spec7 5)
    · exact hb (mem_arr spec7 6)

set_option backward.isDefEq.respectTransparency.types false in
def reg7 : RegionSeg (pcfgs (F := F)) adm (pdats m) () defs₀ Variants.none L9 lv9 7 :=
  mkReg (pdats m) 7 launch7 (fun c => body_obligation7 (rd (U13 m)) c) (fun c t => owed_eq7 (rd (U13 m)) c t)
    (fun c => rfl) (fun c w => q_eq7 (rd (U13 m)) c w) (U13 m) (U14 m)
    (fun c w => A_eq7 (rd (U13 m)) c w) (hF7 m) (hrest7 m)
    (fun c => Φ_in7 (rd (U13 m)) c) (fun c => Φ_out7 (rd (U13 m)) c)

/-! ### Region 8: inputs `main_v107_0`, `main_v85`, `main_v118` … `main_v121`; output `main_v122` -/

-- one comparison of a window's array type with its buffer's per window
set_option maxHeartbeats 1000000 in
theorem hF8 (c : Dev nD) : ∀ w : Fin 7, (dat8 (rd (U15 m)) c).arrAt w cfg8.N = U16 m c (Pipeline.arrRef spec8 w)
  | 0 => ((dat8 (rd (U15 m)) c).arrAt_in 0 rfl _).trans ((A_eq8 (rd (U15 m)) c 0).trans (U16_of m c main_v107_0 (by decide)).symm)
  | 1 => ((dat8 (rd (U15 m)) c).arrAt_in 1 rfl _).trans ((A_eq8 (rd (U15 m)) c 1).trans (U16_of m c main_v85 (by decide)).symm)
  | 2 => ((dat8 (rd (U15 m)) c).arrAt_in 2 rfl _).trans ((A_eq8 (rd (U15 m)) c 2).trans (U16_of m c main_v118 (by decide)).symm)
  | 3 => ((dat8 (rd (U15 m)) c).arrAt_in 3 rfl _).trans ((A_eq8 (rd (U15 m)) c 3).trans (U16_of m c main_v119 (by decide)).symm)
  | 4 => ((dat8 (rd (U15 m)) c).arrAt_in 4 rfl _).trans ((A_eq8 (rd (U15 m)) c 4).trans (U16_of m c main_v120 (by decide)).symm)
  | 5 => ((dat8 (rd (U15 m)) c).arrAt_in 5 rfl _).trans ((A_eq8 (rd (U15 m)) c 5).trans (U16_of m c main_v121 (by decide)).symm)
  | 6 => (U16_out m c).symm
  | ⟨_ + 7, h⟩ => absurd h (Nat.not_lt.2 (Nat.le_add_left _ _))
theorem hrest8 (c : Dev nD) (b : Ref sig .tc) (hb : b ∉ Finset.univ.image (Pipeline.arrRef spec8)) : U16 m c b = U15 m c b :=
  U16_of m c b fun hmem => by
    simp only [List.mem_cons, List.mem_nil_iff, or_false] at hmem
    subst hmem; exact hb (mem_arr spec8 6)

set_option backward.isDefEq.respectTransparency.types false in
def reg8 : RegionSeg (pcfgs (F := F)) adm (pdats m) () defs₀ Variants.none L9 lv9 8 :=
  mkReg (pdats m) 8 launch8 (fun c => body_obligation8 (rd (U15 m)) c) (fun c t => owed_eq8 (rd (U15 m)) c t)
    (fun c => rfl) (fun c w => q_eq8 (rd (U15 m)) c w) (U15 m) (U16 m)
    (fun c w => A_eq8 (rd (U15 m)) c w) (hF8 m) (hrest8 m)
    (fun c => Φ_in8 (rd (U15 m)) c) (fun c => Φ_out8 (rd (U15 m)) c)

end Records

end Cert.KernelIdeal.Hand

end
-- ==== Proof.Run9.lean ====
import proofs.«142371_j48498770706497_2_alg».proof.Proof.Launch9
import proofs.«142371_j48498770706497_2_alg».proof.Proof.Segs9

/-! # The whole-program run at the concrete valuations -/

-- decided memberships over the program's references recurse past the default depth
set_option maxRecDepth 1628

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The run -/

section Run

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- THE RUN. From any memory `m` with zero counters, every weakly fair execution of the program terminates, and every
    final memory holds the result buffer at the last concrete valuation's contents and each argument as launched: the
    conditional run at the nine records, the generic thread states identified with the concrete ones. -/
theorem run9 : θ_run defs (onTc (τ := τ) (main (F := F))) ⟨m, fun _ => 0, ρ⟩ (fun r => ∀ c : Dev nD,
      r.2.mem ((c.tc : Thread nD τ).loc main_v144) = U19 m c main_v144
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  have h := run_cond (F := F) m (Ix := Unit) (U := UR sig nD τ) (Lvl := ℕ) emb₁ () Variants.none L9 lv9 (fun _ _ => rfl) ρ
    (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R9)
    (by
      refine Pipeline.initEach L9 lv9 fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V6_eq]; exact .rfl) (fun c => by rw [V7_eq]; exact .rfl)
    (reg4 m) (fun c => by rw [V8_eq]; exact .rfl) (fun c => by rw [V9_eq]; exact .rfl)
    (reg5 m) (fun c => by rw [V10_eq]; exact .rfl) (fun c => by rw [V11_eq]; exact .rfl)
    (reg6 m) (fun c => by rw [V11_eq]; exact .rfl) (fun c => by rw [V12_eq]; exact .rfl)
    (reg7 m) (fun c => by rw [V13_eq]; exact .rfl) (fun c => by rw [V14_eq]; exact .rfl)
    (reg8 m) (fun c => by rw [V15_eq]; exact .rfl) (fun c => by rw [V16_eq]; exact .rfl)
  -- the last generic valuation is the last concrete one
  exact (congrArg (θ_run defs (onTc (τ := τ) (main (F := F))) ⟨m, fun _ => 0, ρ⟩)
    (funext fun r => propext (forall_congr' fun c => by rw [V19_eq]))).mp h

end Run

end Cert.KernelIdeal.Hand

end
-- ==== Proof.RefRunHand0.lean ====
/-
  The reference's run, piece 1 of 5: operations 1 … 60 of @main's 275 (window main_part0), the contents after them,
  and each buffer still needed at its stage function of the arguments.
-/
import proofs.«142371_j48498770706497_2_alg».proof.Proof.RefRead
import Idealize.ShloMosaic.Lib.StableHlo.Run

noncomputable section

namespace Cert.ReferenceIdeal.RunHand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The device's buffer contents before the first operation. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl

/-- Operations 1 … 60, in order. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    binary main_arg0 main_arg3 main_v11 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v10 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v10 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v27 (broadcastInDim S800000 ![] bcast_S_S800000 : (⟨S_, .i32⟩ : BufTy).Contents (Elt F) → (⟨S800000, .i32⟩ : BufTy).Contents (Elt F)),
    binary main_v1 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v29 (broadcastInDim S800000 ![] bcast_S_S800000 : (⟨S_, .i32⟩ : BufTy).Contents (Elt F) → (⟨S800000, .i32⟩ : BufTy).Contents (Elt F)),
    binary main_v1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v11 main_v32 main_v33 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v26 main_v34 (broadcastInDim S800000x1 ![0] bcast_S800000_S800000x1_0 : (⟨S800000, .f32⟩ : BufTy).Contents (Elt F) → (⟨S800000x1, .f32⟩ : BufTy).Contents (Elt F)),
    unary main_v34 main_v35 (broadcastInDim S800000x256 ![0, 1] bcast_S800000x1_S800000x256_0_1 : (⟨S800000x1, .f32⟩ : BufTy).Contents (Elt F) → (⟨S800000x256, .f32⟩ : BufTy).Contents (Elt F)),
    binary main_v33 main_v35 main_v36 (mulf : (⟨S800000x256, .f32⟩ : BufTy).Contents (Elt F) → (⟨S800000x256, .f32⟩ : BufTy).Contents (Elt F) → (⟨S800000x256, .f32⟩ : BufTy).Contents (Elt F)),
    nullary main_cst_7 (constant S_ .f32 0x00000000#32),
    unary main_cst_7 main_v37 (broadcastInDim S50000x256 ![] bcast_S_S50000x256 : (⟨S_, .f32⟩ : BufTy).Contents (Elt F) → (⟨S50000x256, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v10 main_v10 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x256 ![0, 1] bcast_S50000x1_S50000x256_0_1 : (⟨S50000x1, .f32⟩ : BufTy).Contents (Elt F) → (⟨S50000x256, .f32⟩ : BufTy).Contents (Elt F)),
    binary main_v11 main_v42 main_v43 (mulf : (⟨S50000x256, .f32⟩ : BufTy).Contents (Elt F) → (⟨S50000x256, .f32⟩ : BufTy).Contents (Elt F) → (⟨S50000x256, .f32⟩ : BufTy).Contents (Elt F)),
    binary main_v39 main_v43 main_v44 (addf : (⟨S50000x256, .f32⟩ : BufTy).Contents (Elt F) → (⟨S50000x256, .f32⟩ : BufTy).Contents (Elt F) → (⟨S50000x256, .f32⟩ : BufTy).Contents (Elt F)),
    unary main_arg4 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)),
    nullary main_cst_8 (constant S_ .f32 0x00000000#32),
    binary main_v47 main_cst_8 main_v48 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) ]

set_option maxRecDepth 8192 in
/-- Every operation's buffers are TensorCore buffers. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub ..⟩

set_option maxRecDepth 8192 in
/-- No operation allocates: each determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev ops0_W : List (Ref sig .tc) := [main_v0, main_v1, main_v2, main_v3, main_cst, main_v4, main_cst_0, main_v5, main_v6, main_v7, main_cst_1, main_v8, main_v9, main_v10, main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47, main_cst_8, main_v48]
set_option maxRecDepth 8192 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The device's buffer contents after operation 60. -/
def val1 (V0 : Valuation τ sig (Elt F)) : Valuation τ sig (Elt F) := after ops0 (val0 V0)
/-- A buffer these operations do not write keeps its contents. -/
theorem val1_keep (V0 : Valuation τ sig (Elt F)) (r : Ref sig .tc) (h : r ∉ ops0_W) :
    val1 V0 (Proc.devRef .tc r) = val0 V0 (Proc.devRef .tc r) :=
  after_of_writes_sub ops0 _ ops0_writes h

theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
set_option maxRecDepth 8192 in
set_option maxHeartbeats 4000000 in
theorem val1_main_v1 (V0 : Valuation τ sig (Elt F)) : val1 V0 (no_index (Proc.devRef .tc main_v1)) = val_main_v1 (F := F) (V0 (Proc.devRef .tc main_arg1)) := by
  unfold val1
  simp only [ops0]
  after_results_simp
  simp only [val0_main_arg1] <;> rfl
set_option maxRecDepth 8192 in
set_option maxHeartbeats 4000000 in
theorem val1_main_v3 (V0 : Valuation τ sig (Elt F)) : val1 V0 (no_index (Proc.devRef .tc main_v3)) = val_main_v3 (F := F) (V0 (Proc.devRef .tc main_arg1)) := by
  unfold val1
  simp only [ops0]
  after_results_simp
  simp only [val0_main_arg1] <;> rfl
set_option maxRecDepth 8192 in
set_option maxHeartbeats 4000000 in
theorem val1_main_v10 (V0 : Valuation τ sig (Elt F)) : val1 V0 (no_index (Proc.devRef .tc main_v10)) = val_main_v10 (F := F) (V0 (Proc.devRef .tc main_arg1)) := by
  unfold val1
  simp only [ops0]
  after_results_simp
  simp only [val0_main_arg1] <;> rfl
set_option maxRecDepth 8192 in
set_option maxHeartbeats 4000000 in
theorem val1_main_v47 (V0 : Valuation τ sig (Elt F)) : val1 V0 (no_index (Proc.devRef .tc main_v47)) = val_main_v47 (F := F) (V0 (Proc.devRef .tc main_arg0)) (V0 (Proc.devRef .tc main_arg1)) (V0 (Proc.devRef .tc main_arg3)) (V0 (Proc.devRef .tc main_arg4)) := by
  unfold val1
  simp only [ops0]
  after_results_simp
  simp only [val0_main_arg4, val0_main_arg1, val0_main_arg3, val0_main_arg0] <;> rfl
set_option maxRecDepth 8192 in
set_option maxHeartbeats 4000000 in
theorem val1_main_v48 (V0 : Valuation τ sig (Elt F)) : val1 V0 (no_index (Proc.devRef .tc main_v48)) = val_main_v48 (F := F) (V0 (Proc.devRef .tc main_arg0)) (V0 (Proc.devRef .tc main_arg1)) (V0 (Proc.devRef .tc main_arg3)) (V0 (Proc.devRef .tc main_arg4)) := by
  unfold val1
  simp only [ops0]
  after_results_simp
  simp only [val0_main_arg4, val0_main_arg1, val0_main_arg3, val0_main_arg0] <;> rfl

end Cert.ReferenceIdeal.RunHand

end
-- ==== Proof.RefRunHand1.lean ====
/-
  The reference's run, piece 2 of 5: operations 61 … 122 of @main's 275 (window main_part1), the contents after them,
  and each buffer still needed at its stage function of the arguments.
-/
import proofs.«142371_j48498770706497_2_alg».proof.Proof.RefRunHand0
import Idealize.ShloMosaic.Lib.StableHlo.Run

noncomputable section

namespace Cert.ReferenceIdeal.RunHand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 61 … 122, in order. -/
abbrev ops1 : List (HloOp τ sig (Elt F)) :=
  [ nullary main_cst_9 (constant S_ .f32 0x47435000#32),
    unary main_cst_9 main_v49 (broadcastInDim S256 ![] bcast_S_S256 : (⟨S_, .f32⟩ : BufTy).Contents (Elt F) → (⟨S256, .f32⟩ : BufTy).Contents (Elt F)),
    binary main_v48 main_v49 main_v50 (Host.divf : (⟨S256, .f32⟩ : BufTy).Contents (Elt F) → (⟨S256, .f32⟩ : BufTy).Contents (Elt F) → (⟨S256, .f32⟩ : BufTy).Contents (Elt F)),
    unary main_v50 main_v51 (broadcastInDim S1x256 ![1] bcast_S256_S1x256_1 : (⟨S256, .f32⟩ : BufTy).Contents (Elt F) → (⟨S1x256, .f32⟩ : BufTy).Contents (Elt F)),
    unary main_v51 main_v52 (broadcastInDim S50000x256 ![0, 1] bcast_S1x256_S50000x256_0_1 : (⟨S1x256, .f32⟩ : BufTy).Contents (Elt F) → (⟨S50000x256, .f32⟩ : BufTy).Contents (Elt F)),
    binary main_v47 main_v52 main_v53 (subf : (⟨S50000x256, .f32⟩ : BufTy).Contents (Elt F) → (⟨S50000x256, .f32⟩ : BufTy).Contents (Elt F) → (⟨S50000x256, .f32⟩ : BufTy).Contents (Elt F)),
    binary main_v53 main_v53 main_v54 (mulf : (⟨S50000x256, .f32⟩ : BufTy).Contents (Elt F) → (⟨S50000x256, .f32⟩ : BufTy).Contents (Elt F) → (⟨S50000x256, .f32⟩ : BufTy).Contents (Elt F)),
    nullary main_cst_10 (constant S_ .f32 0x00000000#32),
    binary main_v54 main_cst_10 main_v55 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_11 (constant S_ .f32 0x47435000#32),
    unary main_cst_11 main_v56 (broadcastInDim S256 ![] bcast_S_S256 : (⟨S_, .f32⟩ : BufTy).Contents (Elt F) → (⟨S256, .f32⟩ : BufTy).Contents (Elt F)),
    binary main_v55 main_v56 main_v57 (Host.divf : (⟨S256, .f32⟩ : BufTy).Contents (Elt F) → (⟨S256, .f32⟩ : BufTy).Contents (Elt F) → (⟨S256, .f32⟩ : BufTy).Contents (Elt F)),
    unary main_v50 main_v58 (broadcastInDim S1x256 ![1] bcast_S256_S1x256_1 : (⟨S256, .f32⟩ : BufTy).Contents (Elt F) → (⟨S1x256, .f32⟩ : BufTy).Contents (Elt F)),
    unary main_v58 main_v59 (broadcastInDim S50000x256 ![0, 1] bcast_S1x256_S50000x256_0_1 : (⟨S1x256, .f32⟩ : BufTy).Contents (Elt F) → (⟨S50000x256, .f32⟩ : BufTy).Contents (Elt F)),
    binary main_v47 main_v59 main_v60 (subf : (⟨S50000x256, .f32⟩ : BufTy).Contents (Elt F) → (⟨S50000x256, .f32⟩ : BufTy).Contents (Elt F) → (⟨S50000x256, .f32⟩ : BufTy).Contents (Elt F)),
    unary main_arg5 main_v61 (broadcastInDim S1x256 ![1] bcast_S256_S1x256_1 : (⟨S256, .f32⟩ : BufTy).Contents (Elt F) → (⟨S1x256, .f32⟩ : BufTy).Contents (Elt F)),
    unary main_v61 main_v62 (broadcastInDim S50000x256 ![0, 1] bcast_S1x256_S50000x256_0_1 : (⟨S1x256, .f32⟩ : BufTy).Contents (Elt F) → (⟨S50000x256, .f32⟩ : BufTy).Contents (Elt F)),
    binary main_v62 main_v60 main_v63 (mulf : (⟨S50000x256, .f32⟩ : BufTy).Contents (Elt F) → (⟨S50000x256, .f32⟩ : BufTy).Contents (Elt F) → (⟨S50000x256, .f32⟩ : BufTy).Contents (Elt F)),
    nullary main_cst_12 (constant S_ .f32 0x3727C5AC#32),
    unary main_cst_12 main_v64 (broadcastInDim S256 ![] bcast_S_S256 : (⟨S_, .f32⟩ : BufTy).Contents (Elt F) → (⟨S256, .f32⟩ : BufTy).Contents (Elt F)),
    binary main_v57 main_v64 main_v65 (addf : (⟨S256, .f32⟩ : BufTy).Contents (Elt F) → (⟨S256, .f32⟩ : BufTy).Contents (Elt F) → (⟨S256, .f32⟩ : BufTy).Contents (Elt F)),
    unary main_v65 main_v66 (Host.rsqrt : (⟨S256, .f32⟩ : BufTy).Contents (Elt F) → (⟨S256, .f32⟩ : BufTy).Contents (Elt F)),
    unary main_v66 main_v67 (broadcastInDim S1x256 ![1] bcast_S256_S1x256_1 : (⟨S256, .f32⟩ : BufTy).Contents (Elt F) → (⟨S1x256, .f32⟩ : BufTy).Contents (Elt F)),
    unary main_v67 main_v68 (broadcastInDim S50000x256 ![0, 1] bcast_S1x256_S50000x256_0_1 : (⟨S1x256, .f32⟩ : BufTy).Contents (Elt F) → (⟨S50000x256, .f32⟩ : BufTy).Contents (Elt F)),
    binary main_v63 main_v68 main_v69 (mulf : (⟨S50000x256, .f32⟩ : BufTy).Contents (Elt F) → (⟨S50000x256, .f32⟩ : BufTy).Contents (Elt F) → (⟨S50000x256, .f32⟩ : BufTy).Contents (Elt F)),
    unary main_arg6 main_v70 (broadcastInDim S1x256 ![1] bcast_S256_S1x256_1 : (⟨S256, .f32⟩ : BufTy).Contents (Elt F) → (⟨S1x256, .f32⟩ : BufTy).Contents (Elt F)),
    unary main_v70 main_v71 (broadcastInDim S50000x256 ![0, 1] bcast_S1x256_S50000x256_0_1 : (⟨S1x256, .f32⟩ : BufTy).Contents (Elt F) → (⟨S50000x256, .f32⟩ : BufTy).Contents (Elt F)),
    binary main_v69 main_v71 main_v72 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v72) (TRef.of (T := ⟨S50000x256, .f32⟩) main_call0_v0) (TRef.of (T := ⟨S50000x256, .f32⟩) main_v73) maximumf,
    binary main_v73 main_arg7 main_v74 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_13 (constantI S_ 32 0#32),
    unary main_c_13 main_v75 (broadcastInDim S800000 ![] bcast_S_S800000 : (⟨S_, .i32⟩ : BufTy).Contents (Elt F) → (⟨S800000, .i32⟩ : BufTy).Contents (Elt F)),
    binary main_v1 main_v75 main_v76 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v77 (broadcastInDim S800000 ![] bcast_S_S800000 : (⟨S_, .i32⟩ : BufTy).Contents (Elt F) → (⟨S800000, .i32⟩ : BufTy).Contents (Elt F)),
    binary main_v1 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_v1 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    binary main_v10 main_v80 main_v81 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_15 (constantI S_ 32 0#32),
    unary main_c_15 main_v82 (broadcastInDim S800000 ![] bcast_S_S800000 : (⟨S_, .i32⟩ : BufTy).Contents (Elt F) → (⟨S800000, .i32⟩ : BufTy).Contents (Elt F)),
    binary main_v3 main_v82 main_v83 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v84 (broadcastInDim S800000 ![] bcast_S_S800000 : (⟨S_, .i32⟩ : BufTy).Contents (Elt F) → (⟨S800000, .i32⟩ : BufTy).Contents (Elt F)),
    binary main_v3 main_v84 main_v85 (addi : (⟨S800000, .i32⟩ : BufTy).Contents (Elt F) → (⟨S800000, .i32⟩ : BufTy).Contents (Elt F) → (⟨S800000, .i32⟩ : BufTy).Contents (Elt F)),
    ternary main_v83 main_v85 main_v3 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v86 main_v87 (broadcastInDim S800000x1 ![0] bcast_S800000_S800000x1_0 : (⟨S800000, .i32⟩ : BufTy).Contents (Elt F) → (⟨S800000x1, .i32⟩ : BufTy).Contents (Elt F)),
    binary main_v10 main_v87 main_v88 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v81 main_v88 main_v89 (mulf : (⟨S800000, .f32⟩ : BufTy).Contents (Elt F) → (⟨S800000, .f32⟩ : BufTy).Contents (Elt F) → (⟨S800000, .f32⟩ : BufTy).Contents (Elt F)),
    nullary main_c_17 (constantI S_ 32 0#32),
    unary main_c_17 main_v90 (broadcastInDim S800000 ![] bcast_S_S800000 : (⟨S_, .i32⟩ : BufTy).Contents (Elt F) → (⟨S800000, .i32⟩ : BufTy).Contents (Elt F)),
    binary main_v1 main_v90 main_v91 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v92 (broadcastInDim S800000 ![] bcast_S_S800000 : (⟨S_, .i32⟩ : BufTy).Contents (Elt F) → (⟨S800000, .i32⟩ : BufTy).Contents (Elt F)),
    binary main_v1 main_v92 main_v93 (addi : (⟨S800000, .i32⟩ : BufTy).Contents (Elt F) → (⟨S800000, .i32⟩ : BufTy).Contents (Elt F) → (⟨S800000, .i32⟩ : BufTy).Contents (Elt F)),
    ternary main_v91 main_v93 main_v1 main_v94 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v94 main_v95 (broadcastInDim S800000x1 ![0] bcast_S800000_S800000x1_0 : (⟨S800000, .i32⟩ : BufTy).Contents (Elt F) → (⟨S800000x1, .i32⟩ : BufTy).Contents (Elt F)),
    binary main_v74 main_v95 main_v96 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v89 main_v97 (broadcastInDim S800000x1 ![0] bcast_S800000_S800000x1_0 : (⟨S800000, .f32⟩ : BufTy).Contents (Elt F) → (⟨S800000x1, .f32⟩ : BufTy).Contents (Elt F)),
    unary main_v97 main_v98 (broadcastInDim S800000x256 ![0, 1] bcast_S800000x1_S800000x256_0_1 : (⟨S800000x1, .f32⟩ : BufTy).Contents (Elt F) → (⟨S800000x256, .f32⟩ : BufTy).Contents (Elt F)) ]

set_option maxRecDepth 8192 in
/-- Every operation's buffers are TensorCore buffers. -/
theorem ops1_sub : (ops1 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩

set_option maxRecDepth 8192 in
/-- No operation allocates: each determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev ops1_W : List (Ref sig .tc) := [main_cst_9, main_v49, main_v50, main_v51, main_v52, main_v53, main_v54, main_cst_10, main_v55, main_cst_11, main_v56, main_v57, main_v58, main_v59, main_v60, main_v61, main_v62, main_v63, main_cst_12, main_v64, main_v65, main_v66, main_v67, main_v68, main_v69, main_v70, main_v71, main_v72, main_call0_cst, main_call0_v0, main_v73, main_v74, main_c_13, main_v75, main_v76, main_c_14, main_v77, main_v78, main_v79, main_v80, main_v81, main_c_15, main_v82, main_v83, main_c_16, main_v84, main_v85, main_v86, main_v87, main_v88, main_v89, main_c_17, main_v90, main_v91, main_c_18, main_v92, main_v93, main_v94, main_v95, main_v96, main_v97, main_v98]
set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The device's buffer contents after operation 122. -/
def val2 (V0 : Valuation τ sig (Elt F)) : Valuation τ sig (Elt F) := after ops1 (val1 V0)
/-- A buffer these operations do not write keeps its contents. -/
theorem val2_keep (V0 : Valuation τ sig (Elt F)) (r : Ref sig .tc) (h : r ∉ ops1_W) :
    val2 V0 (Proc.devRef .tc r) = val1 V0 (Proc.devRef .tc r) :=
  after_of_writes_sub ops1 _ ops1_writes h

theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_v1 (V0 : Valuation τ sig (Elt F)) : val2 V0 (no_index (Proc.devRef .tc main_v1)) = val_main_v1 (F := F) (V0 (Proc.devRef .tc main_arg1)) :=
  (val2_keep V0 main_v1 (by decide)).trans (val1_main_v1 V0)
theorem val2_main_v3 (V0 : Valuation τ sig (Elt F)) : val2 V0 (no_index (Proc.devRef .tc main_v3)) = val_main_v3 (F := F) (V0 (Proc.devRef .tc main_arg1)) :=
  (val2_keep V0 main_v3 (by decide)).trans (val1_main_v3 V0)
theorem val2_main_v10 (V0 : Valuation τ sig (Elt F)) : val2 V0 (no_index (Proc.devRef .tc main_v10)) = val_main_v10 (F := F) (V0 (Proc.devRef .tc main_arg1)) :=
  (val2_keep V0 main_v10 (by decide)).trans (val1_main_v10 V0)
set_option maxRecDepth 8192 in
set_option maxHeartbeats 4000000 in
theorem val2_main_v73 (V0 : Valuation τ sig (Elt F)) : val2 V0 (no_index (Proc.devRef .tc main_v73)) = val_main_v73 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold val2
  simp only [ops1]
  after_results_simp
  simp only [val1_main_arg6, val1_main_v48, val1_main_v47, val1_main_arg5] <;> rfl
set_option maxRecDepth 8192 in
set_option maxHeartbeats 4000000 in
theorem val2_main_v74 (V0 : Valuation τ sig (Elt F)) : val2 V0 (no_index (Proc.devRef .tc main_v74)) = val_main_v74 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) := by
  unfold val2
  simp only [ops1]
  after_results_simp
  simp only [val1_main_arg7, val1_main_arg6, val1_main_v48, val1_main_v47, val1_main_arg5] <;> rfl
set_option maxRecDepth 8192 in
set_option maxHeartbeats 4000000 in
theorem val2_main_v96 (V0 : Valuation τ sig (Elt F)) : val2 V0 (no_index (Proc.devRef .tc main_v96)) = val_main_v96 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) := by
  unfold val2
  simp only [ops1]
  after_results_simp
  simp only [val1_main_v1, val1_main_arg7, val1_main_arg6, val1_main_v48, val1_main_v47, val1_main_arg5] <;> rfl
set_option maxRecDepth 8192 in
set_option maxHeartbeats 4000000 in
theorem val2_main_v98 (V0 : Valuation τ sig (Elt F)) : val2 V0 (no_index (Proc.devRef .tc main_v98)) = val_main_v98 (F := F) (V0 (Proc.devRef .tc main_arg1)) := by
  unfold val2
  simp only [ops1]
  after_results_simp
  simp only [val1_main_v3, val1_main_v10, val1_main_v1] <;> rfl

end Cert.ReferenceIdeal.RunHand

end
-- ==== Proof.RefRunHand2.lean ====
/-
  The reference's run, piece 3 of 5: operations 123 … 184 of @main's 275 (window main_part2), the contents after them,
  and each buffer still needed at its stage function of the arguments.
-/
import proofs.«142371_j48498770706497_2_alg».proof.Proof.RefRunHand1
import Idealize.ShloMosaic.Lib.StableHlo.Run

noncomputable section

namespace Cert.ReferenceIdeal.RunHand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 123 … 184, in order. -/
abbrev ops2 : List (HloOp τ sig (Elt F)) :=
  [ binary main_v96 main_v98 main_v99 (mulf : (⟨S800000x256, .f32⟩ : BufTy).Contents (Elt F) → (⟨S800000x256, .f32⟩ : BufTy).Contents (Elt F) → (⟨S800000x256, .f32⟩ : BufTy).Contents (Elt F)),
    nullary main_cst_19 (constant S_ .f32 0x00000000#32),
    unary main_cst_19 main_v100 (broadcastInDim S50000x256 ![] bcast_S_S50000x256 : (⟨S_, .f32⟩ : BufTy).Contents (Elt F) → (⟨S50000x256, .f32⟩ : BufTy).Contents (Elt F)),
    unary main_v3 main_v101 (broadcastInDim S800000x1 ![0] bcast_S800000_S800000x1_0 : (⟨S800000, .i32⟩ : BufTy).Contents (Elt F) → (⟨S800000x1, .i32⟩ : BufTy).Contents (Elt F)),
    ternary main_v100 main_v101 main_v99 main_v102 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v10 main_v10 main_v103 (mulf : (⟨S50000, .f32⟩ : BufTy).Contents (Elt F) → (⟨S50000, .f32⟩ : BufTy).Contents (Elt F) → (⟨S50000, .f32⟩ : BufTy).Contents (Elt F)),
    unary main_v103 main_v104 (broadcastInDim S50000x1 ![0] bcast_S50000_S50000x1_0 : (⟨S50000, .f32⟩ : BufTy).Contents (Elt F) → (⟨S50000x1, .f32⟩ : BufTy).Contents (Elt F)),
    unary main_v104 main_v105 (broadcastInDim S50000x256 ![0, 1] bcast_S50000x1_S50000x256_0_1 : (⟨S50000x1, .f32⟩ : BufTy).Contents (Elt F) → (⟨S50000x256, .f32⟩ : BufTy).Contents (Elt F)),
    binary main_v74 main_v105 main_v106 (mulf : (⟨S50000x256, .f32⟩ : BufTy).Contents (Elt F) → (⟨S50000x256, .f32⟩ : BufTy).Contents (Elt F) → (⟨S50000x256, .f32⟩ : BufTy).Contents (Elt F)),
    binary main_v102 main_v106 main_v107 (addf : (⟨S50000x256, .f32⟩ : BufTy).Contents (Elt F) → (⟨S50000x256, .f32⟩ : BufTy).Contents (Elt F) → (⟨S50000x256, .f32⟩ : BufTy).Contents (Elt F)),
    unary main_arg8 main_v108 (broadcastInDim S1x256 ![1] bcast_S256_S1x256_1 : (⟨S256, .f32⟩ : BufTy).Contents (Elt F) → (⟨S1x256, .f32⟩ : BufTy).Contents (Elt F)),
    unary main_v108 main_v109 (broadcastInDim S50000x256 ![0, 1] bcast_S1x256_S50000x256_0_1 : (⟨S1x256, .f32⟩ : BufTy).Contents (Elt F) → (⟨S50000x256, .f32⟩ : BufTy).Contents (Elt F)),
    binary main_v107 main_v109 main_v110 (addf : (⟨S50000x256, .f32⟩ : BufTy).Contents (Elt F) → (⟨S50000x256, .f32⟩ : BufTy).Contents (Elt F) → (⟨S50000x256, .f32⟩ : BufTy).Contents (Elt F)),
    nullary main_cst_20 (constant S_ .f32 0x00000000#32),
    binary main_v110 main_cst_20 main_v111 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_21 (constant S_ .f32 0x47435000#32),
    unary main_cst_21 main_v112 (broadcastInDim S256 ![] bcast_S_S256 : (⟨S_, .f32⟩ : BufTy).Contents (Elt F) → (⟨S256, .f32⟩ : BufTy).Contents (Elt F)),
    binary main_v111 main_v112 main_v113 (Host.divf : (⟨S256, .f32⟩ : BufTy).Contents (Elt F) → (⟨S256, .f32⟩ : BufTy).Contents (Elt F) → (⟨S256, .f32⟩ : BufTy).Contents (Elt F)),
    unary main_v113 main_v114 (broadcastInDim S1x256 ![1] bcast_S256_S1x256_1 : (⟨S256, .f32⟩ : BufTy).Contents (Elt F) → (⟨S1x256, .f32⟩ : BufTy).Contents (Elt F)),
    unary main_v114 main_v115 (broadcastInDim S50000x256 ![0, 1] bcast_S1x256_S50000x256_0_1 : (⟨S1x256, .f32⟩ : BufTy).Contents (Elt F) → (⟨S50000x256, .f32⟩ : BufTy).Contents (Elt F)),
    binary main_v110 main_v115 main_v116 (subf : (⟨S50000x256, .f32⟩ : BufTy).Contents (Elt F) → (⟨S50000x256, .f32⟩ : BufTy).Contents (Elt F) → (⟨S50000x256, .f32⟩ : BufTy).Contents (Elt F)),
    binary main_v116 main_v116 main_v117 (mulf : (⟨S50000x256, .f32⟩ : BufTy).Contents (Elt F) → (⟨S50000x256, .f32⟩ : BufTy).Contents (Elt F) → (⟨S50000x256, .f32⟩ : BufTy).Contents (Elt F)),
    nullary main_cst_22 (constant S_ .f32 0x00000000#32),
    binary main_v117 main_cst_22 main_v118 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_23 (constant S_ .f32 0x47435000#32),
    unary main_cst_23 main_v119 (broadcastInDim S256 ![] bcast_S_S256 : (⟨S_, .f32⟩ : BufTy).Contents (Elt F) → (⟨S256, .f32⟩ : BufTy).Contents (Elt F)),
    binary main_v118 main_v119 main_v120 (Host.divf : (⟨S256, .f32⟩ : BufTy).Contents (Elt F) → (⟨S256, .f32⟩ : BufTy).Contents (Elt F) → (⟨S256, .f32⟩ : BufTy).Contents (Elt F)),
    unary main_v113 main_v121 (broadcastInDim S1x256 ![1] bcast_S256_S1x256_1 : (⟨S256, .f32⟩ : BufTy).Contents (Elt F) → (⟨S1x256, .f32⟩ : BufTy).Contents (Elt F)),
    unary main_v121 main_v122 (broadcastInDim S50000x256 ![0, 1] bcast_S1x256_S50000x256_0_1 : (⟨S1x256, .f32⟩ : BufTy).Contents (Elt F) → (⟨S50000x256, .f32⟩ : BufTy).Contents (Elt F)),
    binary main_v110 main_v122 main_v123 (subf : (⟨S50000x256, .f32⟩ : BufTy).Contents (Elt F) → (⟨S50000x256, .f32⟩ : BufTy).Contents (Elt F) → (⟨S50000x256, .f32⟩ : BufTy).Contents (Elt F)),
    unary main_arg9 main_v124 (broadcastInDim S1x256 ![1] bcast_S256_S1x256_1 : (⟨S256, .f32⟩ : BufTy).Contents (Elt F) → (⟨S1x256, .f32⟩ : BufTy).Contents (Elt F)),
    unary main_v124 main_v125 (broadcastInDim S50000x256 ![0, 1] bcast_S1x256_S50000x256_0_1 : (⟨S1x256, .f32⟩ : BufTy).Contents (Elt F) → (⟨S50000x256, .f32⟩ : BufTy).Contents (Elt F)),
    binary main_v125 main_v123 main_v126 (mulf : (⟨S50000x256, .f32⟩ : BufTy).Contents (Elt F) → (⟨S50000x256, .f32⟩ : BufTy).Contents (Elt F) → (⟨S50000x256, .f32⟩ : BufTy).Contents (Elt F)),
    nullary main_cst_24 (constant S_ .f32 0x3727C5AC#32),
    unary main_cst_24 main_v127 (broadcastInDim S256 ![] bcast_S_S256 : (⟨S_, .f32⟩ : BufTy).Contents (Elt F) → (⟨S256, .f32⟩ : BufTy).Contents (Elt F)),
    binary main_v120 main_v127 main_v128 (addf : (⟨S256, .f32⟩ : BufTy).Contents (Elt F) → (⟨S256, .f32⟩ : BufTy).Contents (Elt F) → (⟨S256, .f32⟩ : BufTy).Contents (Elt F)),
    unary main_v128 main_v129 (Host.rsqrt : (⟨S256, .f32⟩ : BufTy).Contents (Elt F) → (⟨S256, .f32⟩ : BufTy).Contents (Elt F)),
    unary main_v129 main_v130 (broadcastInDim S1x256 ![1] bcast_S256_S1x256_1 : (⟨S256, .f32⟩ : BufTy).Contents (Elt F) → (⟨S1x256, .f32⟩ : BufTy).Contents (Elt F)),
    unary main_v130 main_v131 (broadcastInDim S50000x256 ![0, 1] bcast_S1x256_S50000x256_0_1 : (⟨S1x256, .f32⟩ : BufTy).Contents (Elt F) → (⟨S50000x256, .f32⟩ : BufTy).Contents (Elt F)),
    binary main_v126 main_v131 main_v132 (mulf : (⟨S50000x256, .f32⟩ : BufTy).Contents (Elt F) → (⟨S50000x256, .f32⟩ : BufTy).Contents (Elt F) → (⟨S50000x256, .f32⟩ : BufTy).Contents (Elt F)),
    unary main_arg10 main_v133 (broadcastInDim S1x256 ![1] bcast_S256_S1x256_1 : (⟨S256, .f32⟩ : BufTy).Contents (Elt F) → (⟨S1x256, .f32⟩ : BufTy).Contents (Elt F)),
    unary main_v133 main_v134 (broadcastInDim S50000x256 ![0, 1] bcast_S1x256_S50000x256_0_1 : (⟨S1x256, .f32⟩ : BufTy).Contents (Elt F) → (⟨S50000x256, .f32⟩ : BufTy).Contents (Elt F)),
    binary main_v132 main_v134 main_v135 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v135) (TRef.of (T := ⟨S50000x256, .f32⟩) main_call1_v0) (TRef.of (T := ⟨S50000x256, .f32⟩) main_v136) maximumf,
    binary main_v73 main_v136 main_v137 (addf : (⟨S50000x256, .f32⟩ : BufTy).Contents (Elt F) → (⟨S50000x256, .f32⟩ : BufTy).Contents (Elt F) → (⟨S50000x256, .f32⟩ : BufTy).Contents (Elt F)),
    binary main_v137 main_arg11 main_v138 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_25 (constantI S_ 32 0#32),
    unary main_c_25 main_v139 (broadcastInDim S800000 ![] bcast_S_S800000 : (⟨S_, .i32⟩ : BufTy).Contents (Elt F) → (⟨S800000, .i32⟩ : BufTy).Contents (Elt F)),
    binary main_v1 main_v139 main_v140 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v141 (broadcastInDim S800000 ![] bcast_S_S800000 : (⟨S_, .i32⟩ : BufTy).Contents (Elt F) → (⟨S800000, .i32⟩ : BufTy).Contents (Elt F)),
    binary main_v1 main_v141 main_v142 (addi : (⟨S800000, .i32⟩ : BufTy).Contents (Elt F) → (⟨S800000, .i32⟩ : BufTy).Contents (Elt F) → (⟨S800000, .i32⟩ : BufTy).Contents (Elt F)),
    ternary main_v140 main_v142 main_v1 main_v143 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v143 main_v144 (broadcastInDim S800000x1 ![0] bcast_S800000_S800000x1_0 : (⟨S800000, .i32⟩ : BufTy).Contents (Elt F) → (⟨S800000x1, .i32⟩ : BufTy).Contents (Elt F)),
    binary main_v10 main_v144 main_v145 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_27 (constantI S_ 32 0#32),
    unary main_c_27 main_v146 (broadcastInDim S800000 ![] bcast_S_S800000 : (⟨S_, .i32⟩ : BufTy).Contents (Elt F) → (⟨S800000, .i32⟩ : BufTy).Contents (Elt F)),
    binary main_v3 main_v146 main_v147 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v148 (broadcastInDim S800000 ![] bcast_S_S800000 : (⟨S_, .i32⟩ : BufTy).Contents (Elt F) → (⟨S800000, .i32⟩ : BufTy).Contents (Elt F)) ]

set_option maxRecDepth 8192 in
/-- Every operation's buffers are TensorCore buffers. -/
theorem ops2_sub : (ops2 : List (HloOp τ sig (Elt F))).Forall fun op => op.bufs ⊆ tcRefs τ sig :=
  ⟨binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩

set_option maxRecDepth 8192 in
/-- No operation allocates: each determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev ops2_W : List (Ref sig .tc) := [main_v99, main_cst_19, main_v100, main_v101, main_v102, main_v103, main_v104, main_v105, main_v106, main_v107, main_v108, main_v109, main_v110, main_cst_20, main_v111, main_cst_21, main_v112, main_v113, main_v114, main_v115, main_v116, main_v117, main_cst_22, main_v118, main_cst_23, main_v119, main_v120, main_v121, main_v122, main_v123, main_v124, main_v125, main_v126, main_cst_24, main_v127, main_v128, main_v129, main_v130, main_v131, main_v132, main_v133, main_v134, main_v135, main_call1_cst, main_call1_v0, main_v136, main_v137, main_v138, main_c_25, main_v139, main_v140, main_c_26, main_v141, main_v142, main_v143, main_v144, main_v145, main_c_27, main_v146, main_v147, main_c_28, main_v148]
set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The device's buffer contents after operation 184. -/
def val3 (V0 : Valuation τ sig (Elt F)) : Valuation τ sig (Elt F) := after ops2 (val2 V0)
/-- A buffer these operations do not write keeps its contents. -/
theorem val3_keep (V0 : Valuation τ sig (Elt F)) (r : Ref sig .tc) (h : r ∉ ops2_W) :
    val3 V0 (Proc.devRef .tc r) = val2 V0 (Proc.devRef .tc r) :=
  after_of_writes_sub ops2 _ ops2_writes h

theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_v1 (V0 : Valuation τ sig (Elt F)) : val3 V0 (no_index (Proc.devRef .tc main_v1)) = val_main_v1 (F := F) (V0 (Proc.devRef .tc main_arg1)) :=
  (val3_keep V0 main_v1 (by decide)).trans (val2_main_v1 V0)
theorem val3_main_v3 (V0 : Valuation τ sig (Elt F)) : val3 V0 (no_index (Proc.devRef .tc main_v3)) = val_main_v3 (F := F) (V0 (Proc.devRef .tc main_arg1)) :=
  (val3_keep V0 main_v3 (by decide)).trans (val2_main_v3 V0)
theorem val3_main_v10 (V0 : Valuation τ sig (Elt F)) : val3 V0 (no_index (Proc.devRef .tc main_v10)) = val_main_v10 (F := F) (V0 (Proc.devRef .tc main_arg1)) :=
  (val3_keep V0 main_v10 (by decide)).trans (val2_main_v10 V0)
set_option maxRecDepth 8192 in
set_option maxHeartbeats 4000000 in
theorem val3_main_v137 (V0 : Valuation τ sig (Elt F)) : val3 V0 (no_index (Proc.devRef .tc main_v137)) = val_main_v137 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val3
  simp only [ops2]
  after_results_simp
  simp only [val2_main_arg10, val2_main_arg8, val2_main_v10, val2_main_v74, val2_main_v98, val2_main_v96, val2_main_v3, val2_main_arg9, val2_main_v73] <;> rfl
set_option maxRecDepth 8192 in
set_option maxHeartbeats 4000000 in
theorem val3_main_v138 (V0 : Valuation τ sig (Elt F)) : val3 V0 (no_index (Proc.devRef .tc main_v138)) = val_main_v138 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold val3
  simp only [ops2]
  after_results_simp
  simp only [val2_main_arg11, val2_main_arg10, val2_main_arg8, val2_main_v10, val2_main_v74, val2_main_v98, val2_main_v96, val2_main_v3, val2_main_arg9, val2_main_v73] <;> rfl
set_option maxRecDepth 8192 in
set_option maxHeartbeats 4000000 in
theorem val3_main_v145 (V0 : Valuation τ sig (Elt F)) : val3 V0 (no_index (Proc.devRef .tc main_v145)) = val_main_v145 (F := F) (V0 (Proc.devRef .tc main_arg1)) := by
  unfold val3
  simp only [ops2]
  after_results_simp
  simp only [val2_main_v1, val2_main_v10] <;> rfl
set_option maxRecDepth 8192 in
set_option maxHeartbeats 4000000 in
theorem val3_main_v147 (V0 : Valuation τ sig (Elt F)) : val3 V0 (no_index (Proc.devRef .tc main_v147)) = val_main_v147 (F := F) (V0 (Proc.devRef .tc main_arg1)) := by
  unfold val3
  simp only [ops2]
  after_results_simp
  simp only [val2_main_v3] <;> rfl
set_option maxRecDepth 8192 in
set_option maxHeartbeats 4000000 in
theorem val3_main_v148 (V0 : Valuation τ sig (Elt F)) : val3 V0 (no_index (Proc.devRef .tc main_v148)) = val_main_v148 (F := F) := by
  unfold val3
  simp only [ops2]
  after_results_simp
  all_goals rfl

end Cert.ReferenceIdeal.RunHand

end
-- ==== Proof.RefRunHand3.lean ====
/-
  The reference's run, piece 4 of 5: operations 185 … 246 of @main's 275 (window main_part3), the contents after them,
  and each buffer still needed at its stage function of the arguments.
-/
import proofs.«142371_j48498770706497_2_alg».proof.Proof.RefRunHand2
import Idealize.ShloMosaic.Lib.StableHlo.Run

noncomputable section

namespace Cert.ReferenceIdeal.RunHand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 185 … 246, in order. -/
abbrev ops3 : List (HloOp τ sig (Elt F)) :=
  [ binary main_v3 main_v148 main_v149 (addi : (⟨S800000, .i32⟩ : BufTy).Contents (Elt F) → (⟨S800000, .i32⟩ : BufTy).Contents (Elt F) → (⟨S800000, .i32⟩ : BufTy).Contents (Elt F)),
    ternary main_v147 main_v149 main_v3 main_v150 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v150 main_v151 (broadcastInDim S800000x1 ![0] bcast_S800000_S800000x1_0 : (⟨S800000, .i32⟩ : BufTy).Contents (Elt F) → (⟨S800000x1, .i32⟩ : BufTy).Contents (Elt F)),
    binary main_v10 main_v151 main_v152 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v145 main_v152 main_v153 (mulf : (⟨S800000, .f32⟩ : BufTy).Contents (Elt F) → (⟨S800000, .f32⟩ : BufTy).Contents (Elt F) → (⟨S800000, .f32⟩ : BufTy).Contents (Elt F)),
    nullary main_c_29 (constantI S_ 32 0#32),
    unary main_c_29 main_v154 (broadcastInDim S800000 ![] bcast_S_S800000 : (⟨S_, .i32⟩ : BufTy).Contents (Elt F) → (⟨S800000, .i32⟩ : BufTy).Contents (Elt F)),
    binary main_v1 main_v154 main_v155 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v156 (broadcastInDim S800000 ![] bcast_S_S800000 : (⟨S_, .i32⟩ : BufTy).Contents (Elt F) → (⟨S800000, .i32⟩ : BufTy).Contents (Elt F)),
    binary main_v1 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v138 main_v159 main_v160 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v153 main_v161 (broadcastInDim S800000x1 ![0] bcast_S800000_S800000x1_0 : (⟨S800000, .f32⟩ : BufTy).Contents (Elt F) → (⟨S800000x1, .f32⟩ : BufTy).Contents (Elt F)),
    unary main_v161 main_v162 (broadcastInDim S800000x256 ![0, 1] bcast_S800000x1_S800000x256_0_1 : (⟨S800000x1, .f32⟩ : BufTy).Contents (Elt F) → (⟨S800000x256, .f32⟩ : BufTy).Contents (Elt F)),
    binary main_v160 main_v162 main_v163 (mulf : (⟨S800000x256, .f32⟩ : BufTy).Contents (Elt F) → (⟨S800000x256, .f32⟩ : BufTy).Contents (Elt F) → (⟨S800000x256, .f32⟩ : BufTy).Contents (Elt F)),
    nullary main_cst_31 (constant S_ .f32 0x00000000#32),
    unary main_cst_31 main_v164 (broadcastInDim S50000x256 ![] bcast_S_S50000x256 : (⟨S_, .f32⟩ : BufTy).Contents (Elt F) → (⟨S50000x256, .f32⟩ : BufTy).Contents (Elt F)),
    unary main_v3 main_v165 (broadcastInDim S800000x1 ![0] bcast_S800000_S800000x1_0 : (⟨S800000, .i32⟩ : BufTy).Contents (Elt F) → (⟨S800000x1, .i32⟩ : BufTy).Contents (Elt F)),
    ternary main_v164 main_v165 main_v163 main_v166 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v10 main_v10 main_v167 (mulf : (⟨S50000, .f32⟩ : BufTy).Contents (Elt F) → (⟨S50000, .f32⟩ : BufTy).Contents (Elt F) → (⟨S50000, .f32⟩ : BufTy).Contents (Elt F)),
    unary main_v167 main_v168 (broadcastInDim S50000x1 ![0] bcast_S50000_S50000x1_0 : (⟨S50000, .f32⟩ : BufTy).Contents (Elt F) → (⟨S50000x1, .f32⟩ : BufTy).Contents (Elt F)),
    unary main_v168 main_v169 (broadcastInDim S50000x256 ![0, 1] bcast_S50000x1_S50000x256_0_1 : (⟨S50000x1, .f32⟩ : BufTy).Contents (Elt F) → (⟨S50000x256, .f32⟩ : BufTy).Contents (Elt F)),
    binary main_v138 main_v169 main_v170 (mulf : (⟨S50000x256, .f32⟩ : BufTy).Contents (Elt F) → (⟨S50000x256, .f32⟩ : BufTy).Contents (Elt F) → (⟨S50000x256, .f32⟩ : BufTy).Contents (Elt F)),
    binary main_v166 main_v170 main_v171 (addf : (⟨S50000x256, .f32⟩ : BufTy).Contents (Elt F) → (⟨S50000x256, .f32⟩ : BufTy).Contents (Elt F) → (⟨S50000x256, .f32⟩ : BufTy).Contents (Elt F)),
    unary main_arg12 main_v172 (broadcastInDim S1x256 ![1] bcast_S256_S1x256_1 : (⟨S256, .f32⟩ : BufTy).Contents (Elt F) → (⟨S1x256, .f32⟩ : BufTy).Contents (Elt F)),
    unary main_v172 main_v173 (broadcastInDim S50000x256 ![0, 1] bcast_S1x256_S50000x256_0_1 : (⟨S1x256, .f32⟩ : BufTy).Contents (Elt F) → (⟨S50000x256, .f32⟩ : BufTy).Contents (Elt F)),
    binary main_v171 main_v173 main_v174 (addf : (⟨S50000x256, .f32⟩ : BufTy).Contents (Elt F) → (⟨S50000x256, .f32⟩ : BufTy).Contents (Elt F) → (⟨S50000x256, .f32⟩ : BufTy).Contents (Elt F)),
    nullary main_cst_32 (constant S_ .f32 0x00000000#32),
    binary main_v174 main_cst_32 main_v175 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_33 (constant S_ .f32 0x47435000#32),
    unary main_cst_33 main_v176 (broadcastInDim S256 ![] bcast_S_S256 : (⟨S_, .f32⟩ : BufTy).Contents (Elt F) → (⟨S256, .f32⟩ : BufTy).Contents (Elt F)),
    binary main_v175 main_v176 main_v177 (Host.divf : (⟨S256, .f32⟩ : BufTy).Contents (Elt F) → (⟨S256, .f32⟩ : BufTy).Contents (Elt F) → (⟨S256, .f32⟩ : BufTy).Contents (Elt F)),
    unary main_v177 main_v178 (broadcastInDim S1x256 ![1] bcast_S256_S1x256_1 : (⟨S256, .f32⟩ : BufTy).Contents (Elt F) → (⟨S1x256, .f32⟩ : BufTy).Contents (Elt F)),
    unary main_v178 main_v179 (broadcastInDim S50000x256 ![0, 1] bcast_S1x256_S50000x256_0_1 : (⟨S1x256, .f32⟩ : BufTy).Contents (Elt F) → (⟨S50000x256, .f32⟩ : BufTy).Contents (Elt F)),
    binary main_v174 main_v179 main_v180 (subf : (⟨S50000x256, .f32⟩ : BufTy).Contents (Elt F) → (⟨S50000x256, .f32⟩ : BufTy).Contents (Elt F) → (⟨S50000x256, .f32⟩ : BufTy).Contents (Elt F)),
    binary main_v180 main_v180 main_v181 (mulf : (⟨S50000x256, .f32⟩ : BufTy).Contents (Elt F) → (⟨S50000x256, .f32⟩ : BufTy).Contents (Elt F) → (⟨S50000x256, .f32⟩ : BufTy).Contents (Elt F)),
    nullary main_cst_34 (constant S_ .f32 0x00000000#32),
    binary main_v181 main_cst_34 main_v182 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_35 (constant S_ .f32 0x47435000#32),
    unary main_cst_35 main_v183 (broadcastInDim S256 ![] bcast_S_S256 : (⟨S_, .f32⟩ : BufTy).Contents (Elt F) → (⟨S256, .f32⟩ : BufTy).Contents (Elt F)),
    binary main_v182 main_v183 main_v184 (Host.divf : (⟨S256, .f32⟩ : BufTy).Contents (Elt F) → (⟨S256, .f32⟩ : BufTy).Contents (Elt F) → (⟨S256, .f32⟩ : BufTy).Contents (Elt F)),
    unary main_v177 main_v185 (broadcastInDim S1x256 ![1] bcast_S256_S1x256_1 : (⟨S256, .f32⟩ : BufTy).Contents (Elt F) → (⟨S1x256, .f32⟩ : BufTy).Contents (Elt F)),
    unary main_v185 main_v186 (broadcastInDim S50000x256 ![0, 1] bcast_S1x256_S50000x256_0_1 : (⟨S1x256, .f32⟩ : BufTy).Contents (Elt F) → (⟨S50000x256, .f32⟩ : BufTy).Contents (Elt F)),
    binary main_v174 main_v186 main_v187 (subf : (⟨S50000x256, .f32⟩ : BufTy).Contents (Elt F) → (⟨S50000x256, .f32⟩ : BufTy).Contents (Elt F) → (⟨S50000x256, .f32⟩ : BufTy).Contents (Elt F)),
    unary main_arg13 main_v188 (broadcastInDim S1x256 ![1] bcast_S256_S1x256_1 : (⟨S256, .f32⟩ : BufTy).Contents (Elt F) → (⟨S1x256, .f32⟩ : BufTy).Contents (Elt F)),
    unary main_v188 main_v189 (broadcastInDim S50000x256 ![0, 1] bcast_S1x256_S50000x256_0_1 : (⟨S1x256, .f32⟩ : BufTy).Contents (Elt F) → (⟨S50000x256, .f32⟩ : BufTy).Contents (Elt F)),
    binary main_v189 main_v187 main_v190 (mulf : (⟨S50000x256, .f32⟩ : BufTy).Contents (Elt F) → (⟨S50000x256, .f32⟩ : BufTy).Contents (Elt F) → (⟨S50000x256, .f32⟩ : BufTy).Contents (Elt F)),
    nullary main_cst_36 (constant S_ .f32 0x3727C5AC#32),
    unary main_cst_36 main_v191 (broadcastInDim S256 ![] bcast_S_S256 : (⟨S_, .f32⟩ : BufTy).Contents (Elt F) → (⟨S256, .f32⟩ : BufTy).Contents (Elt F)),
    binary main_v184 main_v191 main_v192 (addf : (⟨S256, .f32⟩ : BufTy).Contents (Elt F) → (⟨S256, .f32⟩ : BufTy).Contents (Elt F) → (⟨S256, .f32⟩ : BufTy).Contents (Elt F)),
    unary main_v192 main_v193 (Host.rsqrt : (⟨S256, .f32⟩ : BufTy).Contents (Elt F) → (⟨S256, .f32⟩ : BufTy).Contents (Elt F)),
    unary main_v193 main_v194 (broadcastInDim S1x256 ![1] bcast_S256_S1x256_1 : (⟨S256, .f32⟩ : BufTy).Contents (Elt F) → (⟨S1x256, .f32⟩ : BufTy).Contents (Elt F)),
    unary main_v194 main_v195 (broadcastInDim S50000x256 ![0, 1] bcast_S1x256_S50000x256_0_1 : (⟨S1x256, .f32⟩ : BufTy).Contents (Elt F) → (⟨S50000x256, .f32⟩ : BufTy).Contents (Elt F)),
    binary main_v190 main_v195 main_v196 (mulf : (⟨S50000x256, .f32⟩ : BufTy).Contents (Elt F) → (⟨S50000x256, .f32⟩ : BufTy).Contents (Elt F) → (⟨S50000x256, .f32⟩ : BufTy).Contents (Elt F)),
    unary main_arg14 main_v197 (broadcastInDim S1x256 ![1] bcast_S256_S1x256_1 : (⟨S256, .f32⟩ : BufTy).Contents (Elt F) → (⟨S1x256, .f32⟩ : BufTy).Contents (Elt F)),
    unary main_v197 main_v198 (broadcastInDim S50000x256 ![0, 1] bcast_S1x256_S50000x256_0_1 : (⟨S1x256, .f32⟩ : BufTy).Contents (Elt F) → (⟨S50000x256, .f32⟩ : BufTy).Contents (Elt F)),
    binary main_v196 main_v198 main_v199 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v199) (TRef.of (T := ⟨S50000x256, .f32⟩) main_call2_v0) (TRef.of (T := ⟨S50000x256, .f32⟩) main_v200) maximumf ]

set_option maxRecDepth 8192 in
/-- Every operation's buffers are TensorCore buffers. -/
theorem ops3_sub : (ops3 : List (HloOp τ sig (Elt F))).Forall fun op => op.bufs ⊆ tcRefs τ sig :=
  ⟨binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
/-- No operation allocates: each determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev ops3_W : List (Ref sig .tc) := [main_v149, main_v150, main_v151, main_v152, main_v153, main_c_29, main_v154, main_v155, main_c_30, main_v156, main_v157, main_v158, main_v159, main_v160, main_v161, main_v162, main_v163, main_cst_31, main_v164, main_v165, main_v166, main_v167, main_v168, main_v169, main_v170, main_v171, main_v172, main_v173, main_v174, main_cst_32, main_v175, main_cst_33, main_v176, main_v177, main_v178, main_v179, main_v180, main_v181, main_cst_34, main_v182, main_cst_35, main_v183, main_v184, main_v185, main_v186, main_v187, main_v188, main_v189, main_v190, main_cst_36, main_v191, main_v192, main_v193, main_v194, main_v195, main_v196, main_v197, main_v198, main_v199, main_call2_cst, main_call2_v0, main_v200]
set_option maxRecDepth 8192 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The device's buffer contents after operation 246. -/
def val4 (V0 : Valuation τ sig (Elt F)) : Valuation τ sig (Elt F) := after ops3 (val3 V0)
/-- A buffer these operations do not write keeps its contents. -/
theorem val4_keep (V0 : Valuation τ sig (Elt F)) (r : Ref sig .tc) (h : r ∉ ops3_W) :
    val4 V0 (Proc.devRef .tc r) = val3 V0 (Proc.devRef .tc r) :=
  after_of_writes_sub ops3 _ ops3_writes h

theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_v137 (V0 : Valuation τ sig (Elt F)) : val4 V0 (no_index (Proc.devRef .tc main_v137)) = val_main_v137 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (val4_keep V0 main_v137 (by decide)).trans (val3_main_v137 V0)
set_option maxRecDepth 8192 in
set_option maxHeartbeats 4000000 in
theorem val4_main_v200 (V0 : Valuation τ sig (Elt F)) : val4 V0 (no_index (Proc.devRef .tc main_v200)) = val_main_v200 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold val4
  simp only [ops3]
  after_results_simp
  simp only [val3_main_arg14, val3_main_arg12, val3_main_v10, val3_main_v138, val3_main_v3, val3_main_v148, val3_main_v147, val3_main_v145, val3_main_v1, val3_main_arg13] <;> rfl

end Cert.ReferenceIdeal.RunHand

end
-- ==== Proof.RefRunHand4.lean ====
/-
  The reference's run, piece 5 of 5: operations 247 … 275 of @main's 275 (window main_part4), the contents after them,
  and each buffer still needed at its stage function of the arguments.
-/
import proofs.«142371_j48498770706497_2_alg».proof.Proof.RefRunHand3
import Idealize.ShloMosaic.Lib.StableHlo.Run

noncomputable section

namespace Cert.ReferenceIdeal.RunHand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 247 … 275, in order. -/
abbrev ops4 : List (HloOp τ sig (Elt F)) :=
  [ binary main_v137 main_v200 main_v201 (addf : (⟨S50000x256, .f32⟩ : BufTy).Contents (Elt F) → (⟨S50000x256, .f32⟩ : BufTy).Contents (Elt F) → (⟨S50000x256, .f32⟩ : BufTy).Contents (Elt F)),
    nullary main_cst_37 (constant S_ .f32 0x3F800000#32),
    unary main_cst_37 main_v202 (broadcastInDim S50000 ![] bcast_S_S50000 : (⟨S_, .f32⟩ : BufTy).Contents (Elt F) → (⟨S50000, .f32⟩ : BufTy).Contents (Elt F)),
    nullary main_cst_38 (constant S_ .f32 0x00000000#32),
    unary main_cst_38 main_v203 (broadcastInDim S256 ![] bcast_S_S256 : (⟨S_, .f32⟩ : BufTy).Contents (Elt F) → (⟨S256, .f32⟩ : BufTy).Contents (Elt F)),
    unary main_arg2 main_v204 (broadcastInDim S50000x1 ![0] bcast_S50000_S50000x1_0 : (⟨S50000, .i32⟩ : BufTy).Contents (Elt F) → (⟨S50000x1, .i32⟩ : BufTy).Contents (Elt F)),
    ternary main_v203 main_v204 main_v202 main_v205 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_39 (constant S_ .f32 0x00000000#32),
    unary main_cst_39 main_v206 (broadcastInDim S256x256 ![] bcast_S_S256x256 : (⟨S_, .f32⟩ : BufTy).Contents (Elt F) → (⟨S256x256, .f32⟩ : BufTy).Contents (Elt F)),
    unary main_arg2 main_v207 (broadcastInDim S50000x1 ![0] bcast_S50000_S50000x1_0 : (⟨S50000, .i32⟩ : BufTy).Contents (Elt F) → (⟨S50000x1, .i32⟩ : BufTy).Contents (Elt F)),
    ternary main_v206 main_v207 main_v201 main_v208 ((fun x i u => Host.scatterAdd scatter_S256x256_S50000x1_S50000x256_1_0_0_1 x i u) : (⟨S256x256, .f32⟩ : BufTy).Contents (Elt F) → (⟨S50000x1, .i32⟩ : BufTy).Contents (Elt F) → (⟨S50000x256, .f32⟩ : BufTy).Contents (Elt F) → (⟨S256x256, .f32⟩ : BufTy).Contents (Elt F)),
    nullary main_cst_40 (constant S_ .f32 0x3F800000#32),
    unary main_cst_40 main_v209 (broadcastInDim S256 ![] bcast_S_S256 : (⟨S_, .f32⟩ : BufTy).Contents (Elt F) → (⟨S256, .f32⟩ : BufTy).Contents (Elt F)),
    binary main_v205 main_v209 main_v210 (maximumf : (⟨S256, .f32⟩ : BufTy).Contents (Elt F) → (⟨S256, .f32⟩ : BufTy).Contents (Elt F) → (⟨S256, .f32⟩ : BufTy).Contents (Elt F)),
    unary main_v210 main_v211 (broadcastInDim S256x1 ![0] bcast_S256_S256x1_0 : (⟨S256, .f32⟩ : BufTy).Contents (Elt F) → (⟨S256x1, .f32⟩ : BufTy).Contents (Elt F)),
    unary main_v211 main_v212 (broadcastInDim S256x256 ![0, 1] bcast_S256x1_S256x256_0_1 : (⟨S256x1, .f32⟩ : BufTy).Contents (Elt F) → (⟨S256x256, .f32⟩ : BufTy).Contents (Elt F)),
    binary main_v208 main_v212 main_v213 (Host.divf : (⟨S256x256, .f32⟩ : BufTy).Contents (Elt F) → (⟨S256x256, .f32⟩ : BufTy).Contents (Elt F) → (⟨S256x256, .f32⟩ : BufTy).Contents (Elt F)),
    binary main_v213 main_v208 main_v214 (addf : (⟨S256x256, .f32⟩ : BufTy).Contents (Elt F) → (⟨S256x256, .f32⟩ : BufTy).Contents (Elt F) → (⟨S256x256, .f32⟩ : BufTy).Contents (Elt F)),
    binary main_v214 main_arg15 main_v215 ((fun l r => Host.dotGeneral dot_S256x256_S256x128_S256x128_1_0_0_1_n_n none l r) : (⟨S256x256, .f32⟩ : BufTy).Contents (Elt F) → (⟨S256x128, .f32⟩ : BufTy).Contents (Elt F) → (⟨S256x128, .f32⟩ : BufTy).Contents (Elt F)),
    unary main_arg16 main_v216 (broadcastInDim S1x128 ![1] bcast_S128_S1x128_1 : (⟨S128, .f32⟩ : BufTy).Contents (Elt F) → (⟨S1x128, .f32⟩ : BufTy).Contents (Elt F)),
    unary main_v216 main_v217 (broadcastInDim S256x128 ![0, 1] bcast_S1x128_S256x128_0_1 : (⟨S1x128, .f32⟩ : BufTy).Contents (Elt F) → (⟨S256x128, .f32⟩ : BufTy).Contents (Elt F)),
    binary main_v215 main_v217 main_v218 (addf : (⟨S256x128, .f32⟩ : BufTy).Contents (Elt F) → (⟨S256x128, .f32⟩ : BufTy).Contents (Elt F) → (⟨S256x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S256x128, .f32⟩) main_call3_v0) (broadcastInDim S256x128 ![] bcast_S_S256x128),
    TRef.binary (TRef.of (T := ⟨S256x128, .f32⟩) main_v218) (TRef.of (T := ⟨S256x128, .f32⟩) main_call3_v0) (TRef.of (T := ⟨S256x128, .f32⟩) main_v219) maximumf,
    binary main_v219 main_arg17 main_v220 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    unary main_arg18 main_v221 (broadcastInDim S1x1 ![1] bcast_S1_S1x1_1 : (⟨S1, .f32⟩ : BufTy).Contents (Elt F) → (⟨S1x1, .f32⟩ : BufTy).Contents (Elt F)),
    unary main_v221 main_v222 (broadcastInDim S256x1 ![0, 1] bcast_S1x1_S256x1_0_1 : (⟨S1x1, .f32⟩ : BufTy).Contents (Elt F) → (⟨S256x1, .f32⟩ : BufTy).Contents (Elt F)),
    binary main_v220 main_v222 main_v223 (addf : (⟨S256x1, .f32⟩ : BufTy).Contents (Elt F) → (⟨S256x1, .f32⟩ : BufTy).Contents (Elt F) → (⟨S256x1, .f32⟩ : BufTy).Contents (Elt F)) ]

set_option maxRecDepth 8192 in
/-- Every operation's buffers are TensorCore buffers. -/
theorem ops4_sub : (ops4 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
/-- No operation allocates: each determines its results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers these operations write. -/
abbrev ops4_W : List (Ref sig .tc) := [main_v201, main_cst_37, main_v202, main_cst_38, main_v203, main_v204, main_v205, main_cst_39, main_v206, main_v207, main_v208, main_cst_40, main_v209, main_v210, main_v211, main_v212, main_v213, main_v214, main_v215, main_v216, main_v217, main_v218, main_call3_cst, main_call3_v0, main_v219, main_v220, main_v221, main_v222, main_v223]
set_option maxRecDepth 8192 in
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The device's buffer contents after operation 275. -/
def val5 (V0 : Valuation τ sig (Elt F)) : Valuation τ sig (Elt F) := after ops4 (val4 V0)
/-- A buffer these operations do not write keeps its contents. -/
theorem val5_keep (V0 : Valuation τ sig (Elt F)) (r : Ref sig .tc) (h : r ∉ ops4_W) :
    val5 V0 (Proc.devRef .tc r) = val4 V0 (Proc.devRef .tc r) :=
  after_of_writes_sub ops4 _ ops4_writes h

theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
set_option maxRecDepth 8192 in
set_option maxHeartbeats 2900000 in
theorem val5_main_v223 (V0 : Valuation τ sig (Elt F)) : val5 V0 (no_index (Proc.devRef .tc main_v223)) = val_main_v223 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold val5
  simp only [ops4]
  after_results_simp
  simp only [val4_main_arg18, val4_main_arg17, val4_main_arg16, val4_main_arg15, val4_main_v200, val4_main_v137, val4_main_arg2] <;> rfl

end Cert.ReferenceIdeal.RunHand

end
-- ==== Proof.RefRunHand.lean ====
/-
  The reference's run: @main is the 5 pieces one after the other, so every weakly fair execution ends with the
  result at its stage function of the arguments as launched, and the arguments unchanged.
-/
import proofs.«142371_j48498770706497_2_alg».proof.Proof.RefRunHand4
import Idealize.ShloMosaic.Lib.Pipeline.Frame

noncomputable section

namespace Cert.ReferenceIdeal.RunHand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- @main's 275 operations: the pieces, in order. -/
abbrev ops : List (HloOp τ sig (Elt F)) := ops0 ++ ops1 ++ ops2 ++ ops3 ++ ops4

set_option maxRecDepth 8192 in
set_option maxHeartbeats 4000000 in
theorem main_part0_eq (c : Dev nD) : main_part0 (F := F) c = seq (ops0) := rfl
set_option maxRecDepth 8192 in
set_option maxHeartbeats 4000000 in
theorem main_part1_eq (c : Dev nD) : main_part1 (F := F) c = seq (ops1) := rfl
set_option maxRecDepth 8192 in
set_option maxHeartbeats 4000000 in
theorem main_part2_eq (c : Dev nD) : main_part2 (F := F) c = seq (ops2) := rfl
set_option maxRecDepth 8192 in
set_option maxHeartbeats 4000000 in
theorem main_part3_eq (c : Dev nD) : main_part3 (F := F) c = seq (ops3) := rfl
set_option maxRecDepth 8192 in
set_option maxHeartbeats 4000000 in
theorem main_part4_eq (c : Dev nD) : main_part4 (F := F) c = seq (ops4) := rfl

set_option maxRecDepth 8192 in
theorem main_eq (c : Dev nD) : main (F := F) c = seq ops := by
  simp only [ops, List.append_assoc, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.2 fun op h => (List.mem_append.1 h).elim (fun h => (List.mem_append.1 h).elim (fun h => (List.mem_append.1 h).elim (fun h => (List.mem_append.1 h).elim (List.forall_iff_forall_mem.1 ops0_sub op) (List.forall_iff_forall_mem.1 ops1_sub op)) (List.forall_iff_forall_mem.1 ops2_sub op)) (List.forall_iff_forall_mem.1 ops3_sub op)) (List.forall_iff_forall_mem.1 ops4_sub op)

theorem ops_fresh : ∀ op ∈ (ops : List (HloOp τ sig (Elt F))), op.fresh = ∅ := fun op h =>
  (List.mem_append.1 h).elim (fun h => (List.mem_append.1 h).elim (fun h => (List.mem_append.1 h).elim (fun h => (List.mem_append.1 h).elim (List.forall_iff_forall_mem.1 ops0_fresh op) (List.forall_iff_forall_mem.1 ops1_fresh op)) (List.forall_iff_forall_mem.1 ops2_fresh op)) (List.forall_iff_forall_mem.1 ops3_fresh op)) (List.forall_iff_forall_mem.1 ops4_fresh op)

/-- The contents after all of @main are the last level. -/
theorem after_ops (V0 : Valuation τ sig (Elt F)) : after ops V0 = val5 V0 := by
  simp only [ops, after_append]
  rfl

/-- On every device, for any float values, from any memory with zero counters: every weakly fair execution of @main
    terminates with the result at its stage function of the arguments and the arguments unchanged. -/
theorem run_hand (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v223) = val_main_v223 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v223).trans ((congrFun (after_ops _) _).trans (val5_main_v223 _)),
      (h c main_arg0).trans ((congrFun (after_ops _) _).trans (val5_main_arg0 _)),
      (h c main_arg1).trans ((congrFun (after_ops _) _).trans (val5_main_arg1 _)),
      (h c main_arg2).trans ((congrFun (after_ops _) _).trans (val5_main_arg2 _)),
      (h c main_arg3).trans ((congrFun (after_ops _) _).trans (val5_main_arg3 _)),
      (h c main_arg4).trans ((congrFun (after_ops _) _).trans (val5_main_arg4 _)),
      (h c main_arg5).trans ((congrFun (after_ops _) _).trans (val5_main_arg5 _)),
      (h c main_arg6).trans ((congrFun (after_ops _) _).trans (val5_main_arg6 _)),
      (h c main_arg7).trans ((congrFun (after_ops _) _).trans (val5_main_arg7 _)),
      (h c main_arg8).trans ((congrFun (after_ops _) _).trans (val5_main_arg8 _)),
      (h c main_arg9).trans ((congrFun (after_ops _) _).trans (val5_main_arg9 _)),
      (h c main_arg10).trans ((congrFun (after_ops _) _).trans (val5_main_arg10 _)),
      (h c main_arg11).trans ((congrFun (after_ops _) _).trans (val5_main_arg11 _)),
      (h c main_arg12).trans ((congrFun (after_ops _) _).trans (val5_main_arg12 _)),
      (h c main_arg13).trans ((congrFun (after_ops _) _).trans (val5_main_arg13 _)),
      (h c main_arg14).trans ((congrFun (after_ops _) _).trans (val5_main_arg14 _)),
      (h c main_arg15).trans ((congrFun (after_ops _) _).trans (val5_main_arg15 _)),
      (h c main_arg16).trans ((congrFun (after_ops _) _).trans (val5_main_arg16 _)),
      (h c main_arg17).trans ((congrFun (after_ops _) _).trans (val5_main_arg17 _)),
      (h c main_arg18).trans ((congrFun (after_ops _) _).trans (val5_main_arg18 _))⟩)
    (run_seq scopedRefs_eq scopedSems_eq defs main (fun _ => ops) main_eq (fun _ => ops_sub) m ρ (fun _ => ops_fresh))

end Cert.ReferenceIdeal.RunHand

end
-- ==== Proof.Frames.lean ====
/-
  The three frame claims: each program runs to the end without fault and leaves every argument array as launched.
  Each is the program's run statement with the conjunct about the result dropped.
-/
import proofs.«142371_j48498770706497_2_alg».proof.Defs
import proofs.«142371_j48498770706497_2_alg».proof.Proof.Gen.Kernel
import proofs.«142371_j48498770706497_2_alg».proof.Proof.Gen.KernelIdeal
import proofs.«142371_j48498770706497_2_alg».proof.Proof.Gen.ReferenceIdeal
import proofs.«142371_j48498770706497_2_alg».proof.Proof.Gen.Pre_finite_inputs
import proofs.«142371_j48498770706497_2_alg».proof.Proof.BitsRun9
import proofs.«142371_j48498770706497_2_alg».proof.Proof.Run9
import proofs.«142371_j48498770706497_2_alg».proof.Proof.RefRunHand

noncomputable section

namespace Cert.Proof.Frames

open Idealize.ShloMosaic Idealize.SL.Sem

/-- The word-level program runs to the end and leaves every argument as launched: its run's statement, the result dropped. -/
theorem frame_k : Cert.frame_Kernel := fun m ρ _ =>
  (θ_run Cert.Kernel.defs _ _).mono (fun _ h c => (h c).2) (Cert.Kernel.Hand.run9 (F := Bits) m ρ)

/-- The same program read at the ideal numbers: the same run. -/
theorem frame_ki : Cert.frame_KernelIdeal := fun m ρ _ =>
  (θ_run Cert.KernelIdeal.defs _ _).mono (fun _ h c => (h c).2) (Cert.KernelIdeal.Hand.run9 (F := Ideal) m ρ)

/-- The reference is host operations only: its run, the result dropped. -/
theorem frame_ri : Cert.frame_ReferenceIdeal := fun m ρ _ =>
  (θ_run Cert.ReferenceIdeal.defs _ _).mono (fun _ h c => (h c).2) (Cert.ReferenceIdeal.RunHand.run_hand (F := Ideal) m ρ)

end Cert.Proof.Frames

end
-- ==== Proof.Spec.lean ====
/-
  The mathematics both programs compute, as functions of real-valued tables, with no program in sight.

  A graph-convolution layer over N = 50000 nodes and E = 800000 edges.  For an edge e, `rowc e` is the node its
  features are read from, `land e` the node its message is added to (none when the edge's target lies outside the
  node range: such a message is dropped), and `colc e` the node whose degree scale the reference reads for the target
  (equal to the landing node whenever the edge lands: `Lands`).

  The degree of a node counts the edges landing on it, plus one for the self loop; `dinv` is its inverse square root.
  One side scales each message by dinv(source)·dinv(target) before summing (`aggR`); the other scales by dinv(source),
  sums, and scales the sum by dinv(target) once (`aggK`): equal by distributivity, which on the extended reals needs
  every term to be a real number.  One side takes the variance as the mean of squared deviations (`varR`), the other
  as max(mean of squares − mean², 0) (`varK`): equal over the reals, the maximum being idle since a variance is ≥ 0.
-/
import Idealize.ShloMosaic.PureOps.Ideal

noncomputable section

namespace Cert.Spec

open Idealize.ShloMosaic

/-- An extended real that is a real number. -/
def IsR (x : EReal) : Prop := ∃ r : ℝ, x = (r : EReal)

abbrev Nn : ℕ := 50000
abbrev Hh : ℕ := 256
abbrev Ee : ℕ := 800000

/-- The landing node of an edge that lands is the node the target's scale is read at. -/
def Lands (colc : Fin Ee → Fin Nn) (land : Fin Ee → Option (Fin Nn)) : Prop := ∀ e n, land e = some n → colc e = n

section Layer

variable (rowc colc : Fin Ee → Fin Nn) (land : Fin Ee → Option (Fin Nn))
variable (nF eps : EReal)

/-- Edges landing on node n, plus the self loop. -/
def deg (n : Fin Nn) : EReal := (∑ _e ∈ Finset.univ.filter (fun e => land e = some n), (1 : EReal)) + 1

def dinv (n : Fin Nn) : EReal := Ideal.rsqrt (deg land n)

/-- A dense product: row p of h against column q of W. -/
def mm {K : ℕ} (h : Fin Nn → Fin K → EReal) (W : Fin K → Fin Hh → EReal) (p : Fin Nn) (q : Fin Hh) : EReal :=
  ∑ k : Fin K, h p k * W k q

/-- Messages scaled at the source, summed, the sum scaled at the target. -/
def aggK (xw : Fin Nn → Fin Hh → EReal) (n : Fin Nn) (q : Fin Hh) : EReal :=
  (∑ e ∈ Finset.univ.filter (fun e => land e = some n), xw (rowc e) q * dinv land (rowc e)) * dinv land n

/-- Messages scaled at both ends, then summed. -/
def aggR (xw : Fin Nn → Fin Hh → EReal) (n : Fin Nn) (q : Fin Hh) : EReal :=
  ∑ e ∈ Finset.univ.filter (fun e => land e = some n), xw (rowc e) q * (dinv land (rowc e) * dinv land (colc e))

def totK (xw : Fin Nn → Fin Hh → EReal) (b : Fin Hh → EReal) (n : Fin Nn) (q : Fin Hh) : EReal :=
  aggK rowc land xw n q + xw n q * (dinv land n * dinv land n) + b q

def totR (xw : Fin Nn → Fin Hh → EReal) (b : Fin Hh → EReal) (n : Fin Nn) (q : Fin Hh) : EReal :=
  aggR rowc colc land xw n q + xw n q * (dinv land n * dinv land n) + b q

/-- Column mean over the nodes. -/
def meanOf (T : Fin Nn → Fin Hh → EReal) (q : Fin Hh) : EReal := Ideal.div (∑ n : Fin Nn, T n q) nF

def varK (T : Fin Nn → Fin Hh → EReal) (q : Fin Hh) : EReal :=
  max (Ideal.div (∑ n : Fin Nn, T n q * T n q) nF - meanOf nF T q * meanOf nF T q) 0

def varR (T : Fin Nn → Fin Hh → EReal) (q : Fin Hh) : EReal :=
  Ideal.div (∑ n : Fin Nn, (T n q - meanOf nF T q) * (T n q - meanOf nF T q)) nF

/-- Normalise by a given mean and variance, scale and shift, clamp at zero. -/
def bnrelu (g be mu var : Fin Hh → EReal) (T : Fin Nn → Fin Hh → EReal) (n : Fin Nn) (q : Fin Hh) : EReal :=
  max (g q * (T n q - mu q) * Ideal.rsqrt (var q + eps) + be q) 0

def layerK {K : ℕ} (h : Fin Nn → Fin K → EReal) (W : Fin K → Fin Hh → EReal) (b g be : Fin Hh → EReal) :
    Fin Nn → Fin Hh → EReal :=
  bnrelu eps g be (meanOf nF (totK rowc land (mm h W) b)) (varK nF (totK rowc land (mm h W) b)) (totK rowc land (mm h W) b)

def layerR {K : ℕ} (h : Fin Nn → Fin K → EReal) (W : Fin K → Fin Hh → EReal) (b g be : Fin Hh → EReal) :
    Fin Nn → Fin Hh → EReal :=
  bnrelu eps g be (meanOf nF (totR rowc colc land (mm h W) b)) (varR nF (totR rowc colc land (mm h W) b)) (totR rowc colc land (mm h W) b)

/-- Three layers, the second and third with a residual: new + old on one side, -/
def netK (x : Fin Nn → Fin 128 → EReal) (W0 : Fin 128 → Fin Hh → EReal) (b0 g0 be0 : Fin Hh → EReal)
    (W1 : Fin Hh → Fin Hh → EReal) (b1 g1 be1 : Fin Hh → EReal) (W2 : Fin Hh → Fin Hh → EReal) (b2 g2 be2 : Fin Hh → EReal) :
    Fin Nn → Fin Hh → EReal :=
  let h1 := layerK rowc land nF eps x W0 b0 g0 be0
  let h2 : Fin Nn → Fin Hh → EReal := fun n q => layerK rowc land nF eps h1 W1 b1 g1 be1 n q + h1 n q
  fun n q => layerK rowc land nF eps h2 W2 b2 g2 be2 n q + h2 n q

/-- old + new on the other. -/
def netR (x : Fin Nn → Fin 128 → EReal) (W0 : Fin 128 → Fin Hh → EReal) (b0 g0 be0 : Fin Hh → EReal)
    (W1 : Fin Hh → Fin Hh → EReal) (b1 g1 be1 : Fin Hh → EReal) (W2 : Fin Hh → Fin Hh → EReal) (b2 g2 be2 : Fin Hh → EReal) :
    Fin Nn → Fin Hh → EReal :=
  let h1 := layerR rowc colc land nF eps x W0 b0 g0 be0
  let h2 : Fin Nn → Fin Hh → EReal := fun n q => h1 n q + layerR rowc colc land nF eps h1 W1 b1 g1 be1 n q
  fun n q => h2 n q + layerR rowc colc land nF eps h2 W2 b2 g2 be2 n q

end Layer

end Cert.Spec

end
-- ==== Proof.SpecLaw.lean ====
/-
  The two arrangements of the three-layer network agree on real-valued tables: distributivity of a real factor over a
  finite sum of reals, and the identity  mean of squared deviations = mean of squares − mean²  (≥ 0, so the maximum
  with zero is idle).
-/
import proofs.«142371_j48498770706497_2_alg».proof.Proof.Spec
import Mathlib.Data.EReal.Operations
import Mathlib.Algebra.BigOperators.Ring.Finset
import Mathlib.Algebra.Order.BigOperators.Ring.Finset
import Mathlib.Tactic.Ring
import Mathlib.Tactic.Linarith
import Mathlib.Tactic.NormNum

noncomputable section

namespace Cert.Spec

open Idealize.ShloMosaic

/-! ### The reals inside the extended reals are closed under the operations used -/

/-- The coercion commutes with finite sums. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsR.coe (r : ℝ) : IsR (r : EReal) := ⟨r, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem coe_max (r s : ℝ) : ((max r s : ℝ) : EReal) = max (r : EReal) (s : EReal) :=
  EReal.coe_strictMono.monotone.map_max

theorem IsR.max {a b : EReal} (ha : IsR a) (hb : IsR b) : IsR (Max.max a b) := by
  obtain ⟨r, rfl⟩ := ha; obtain ⟨s, rfl⟩ := hb; exact ⟨Max.max r s, (coe_max r s).symm⟩

theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- Division by a nonzero real keeps a real real. -/
theorem IsR.div_coe {a : EReal} (ha : IsR a) {y : ℝ} (hy : y ≠ 0) : IsR (Ideal.div a (y : EReal)) := by
  rw [Ideal.div_coe hy]; exact ha.mul ⟨_, rfl⟩

/-- The inverse square root of a positive real is the real inverse square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

section Layer

variable (rowc colc : Fin Ee → Fin Nn) (land : Fin Ee → Option (Fin Nn))

/-! ### Degrees and their inverse square roots are real -/

/-- A degree is a real number, at least one (the self loop). -/
theorem deg_coe (n : Fin Nn) : ∃ d : ℝ, 1 ≤ d ∧ deg land n = (d : EReal) := by
  refine ⟨(∑ _e ∈ Finset.univ.filter (fun e => land e = some n), (1 : ℝ)) + 1, ?_, ?_⟩
  · have h : (0 : ℝ) ≤ ∑ _e ∈ Finset.univ.filter (fun e => land e = some n), (1 : ℝ) :=
      Finset.sum_nonneg (fun _ _ => zero_le_one)
    linarith
  · simp only [deg, EReal.coe_add, ← coe_sum, EReal.coe_one]

theorem dinv_isR (n : Fin Nn) : IsR (dinv land n) := by
  obtain ⟨d, hd, e⟩ := deg_coe land n
  unfold dinv
  rw [e, rsqrt_coe_pos (by linarith)]
  exact ⟨_, rfl⟩

/-- A dense product of real tables is real. -/
theorem mm_isR {K : ℕ} (h : Fin Nn → Fin K → EReal) (W : Fin K → Fin Hh → EReal) (hh : ∀ p k, IsR (h p k))
    (hW : ∀ k q, IsR (W k q)) (p : Fin Nn) (q : Fin Hh) : IsR (mm h W p q) :=
  IsR.sum _ _ fun k _ => (hh p k).mul (hW k q)

/-! ### Aggregation: a real factor moves across a finite sum of reals -/

theorem agg_eq (hl : Lands colc land) (xw : Fin Nn → Fin Hh → EReal) (hxw : ∀ p q, IsR (xw p q)) (n : Fin Nn)
    (q : Fin Hh) : aggK rowc land xw n q = aggR rowc colc land xw n q := by
  choose xr hxr using hxw
  choose dr hdr using dinv_isR land
  unfold aggK aggR
  have hR : ∀ e ∈ Finset.univ.filter (fun e => land e = some n),
      xw (rowc e) q * (dinv land (rowc e) * dinv land (colc e)) = ((xr (rowc e) q * dr (rowc e) * dr n : ℝ) : EReal) := by
    intro e he
    rw [hl e n (Finset.mem_filter.mp he).2, hxr, hdr, hdr, ← EReal.coe_mul, ← EReal.coe_mul, mul_assoc]
  have hK : ∀ e ∈ Finset.univ.filter (fun e => land e = some n),
      xw (rowc e) q * dinv land (rowc e) = ((xr (rowc e) q * dr (rowc e) : ℝ) : EReal) := by
    intro e _
    rw [hxr, hdr, ← EReal.coe_mul]
  rw [Finset.sum_congr rfl hR, Finset.sum_congr rfl hK, coe_sum, coe_sum, hdr n, ← EReal.coe_mul, Finset.sum_mul]

theorem aggK_isR (xw : Fin Nn → Fin Hh → EReal) (hxw : ∀ p q, IsR (xw p q)) (n : Fin Nn) (q : Fin Hh) :
    IsR (aggK rowc land xw n q) :=
  (IsR.sum _ _ fun e _ => (hxw (rowc e) q).mul (dinv_isR land (rowc e))).mul (dinv_isR land n)

theorem tot_eq (hl : Lands colc land) (xw : Fin Nn → Fin Hh → EReal) (hxw : ∀ p q, IsR (xw p q)) (b : Fin Hh → EReal) :
    totK rowc land xw b = totR rowc colc land xw b := by
  funext n q
  unfold totK totR
  rw [agg_eq rowc colc land hl xw hxw n q]

theorem totK_isR (xw : Fin Nn → Fin Hh → EReal) (hxw : ∀ p q, IsR (xw p q)) (b : Fin Hh → EReal) (hb : ∀ q, IsR (b q))
    (n : Fin Nn) (q : Fin Hh) : IsR (totK rowc land xw b n q) :=
  ((aggK_isR rowc land xw hxw n q).add ((hxw n q).mul ((dinv_isR land n).mul (dinv_isR land n)))).add (hb q)

end Layer

/-! ### Mean and variance over the N = 50000 nodes -/

/-- Over the reals: the mean of squared deviations is the mean of squares less the squared mean. -/
theorem var_real (t : Fin Nn → ℝ) (m : ℝ) (hm : m = (∑ n, t n) * (1 / 50000)) :
    (∑ n, (t n - m) * (t n - m)) * (1 / 50000) = (∑ n, t n * t n) * (1 / 50000) - m * m := by
  have hS : ∑ n, t n = 50000 * m := by rw [hm]; ring
  have h1 : ∑ n : Fin Nn, (t n - m) * (t n - m) = (∑ n, t n * t n) - 2 * m * (∑ n, t n) + 50000 * (m * m) := by
    have h2 : ∀ n : Fin Nn, (t n - m) * (t n - m) = t n * t n - 2 * m * t n + m * m := fun n => by ring
    simp only [h2, Finset.sum_add_distrib, Finset.sum_sub_distrib, ← Finset.mul_sum, Finset.sum_const,
      Finset.card_univ, Fintype.card_fin, nsmul_eq_mul]
    push_cast
    ring
  rw [h1, hS]; ring

section Stats

variable (nF : EReal) (hn : nF = ((50000 : ℝ) : EReal))
include hn

theorem meanOf_coe (t : Fin Nn → Fin Hh → ℝ) (q : Fin Hh) :
    meanOf nF (fun n q => ((t n q : ℝ) : EReal)) q = (((∑ n, t n q) * (1 / 50000) : ℝ) : EReal) := by
  simp only [meanOf, hn, Ideal.div_coe (by norm_num : (50000 : ℝ) ≠ 0), coe_sum, ← EReal.coe_mul]

theorem varR_coe (t : Fin Nn → Fin Hh → ℝ) (q : Fin Hh) :
    varR nF (fun n q => ((t n q : ℝ) : EReal)) q
      = (((∑ n, (t n q - (∑ n, t n q) * (1 / 50000)) * (t n q - (∑ n, t n q) * (1 / 50000))) * (1 / 50000) : ℝ) : EReal) := by
  unfold varR
  rw [meanOf_coe nF hn]
  simp only [hn, Ideal.div_coe (by norm_num : (50000 : ℝ) ≠ 0), ← EReal.coe_sub, ← EReal.coe_mul, coe_sum]

theorem varK_coe (t : Fin Nn → Fin Hh → ℝ) (q : Fin Hh) :
    varK nF (fun n q => ((t n q : ℝ) : EReal)) q
      = max (((∑ n, t n q * t n q) * (1 / 50000) - (∑ n, t n q) * (1 / 50000) * ((∑ n, t n q) * (1 / 50000)) : ℝ) : EReal) 0 := by
  unfold varK
  rw [meanOf_coe nF hn]
  simp only [hn, Ideal.div_coe (by norm_num : (50000 : ℝ) ≠ 0), ← EReal.coe_sub, ← EReal.coe_mul, coe_sum]

theorem meanOf_isR (T : Fin Nn → Fin Hh → EReal) (hT : ∀ n q, IsR (T n q)) (q : Fin Hh) : IsR (meanOf nF T q) := by
  unfold meanOf
  rw [hn]
  exact (IsR.sum _ _ fun n _ => hT n q).div_coe (by norm_num)

/-- The two variances agree on a real table, and their value is a real ≥ 0. -/
theorem var_eq (T : Fin Nn → Fin Hh → EReal) (hT : ∀ n q, IsR (T n q)) (q : Fin Hh) :
    varK nF T q = varR nF T q ∧ ∃ v : ℝ, 0 ≤ v ∧ varR nF T q = (v : EReal) := by
  choose t ht using hT
  obtain rfl : T = fun n q => ((t n q : ℝ) : EReal) := funext fun n => funext fun q => ht n q
  rw [varK_coe nF hn, varR_coe nF hn]
  have hnn : 0 ≤ (∑ n, (t n q - (∑ n, t n q) * (1 / 50000)) * (t n q - (∑ n, t n q) * (1 / 50000))) * (1 / 50000 : ℝ) :=
    mul_nonneg (Finset.sum_nonneg fun n _ => mul_self_nonneg _) (by norm_num)
  refine ⟨?_, _, hnn, rfl⟩
  rw [← var_real (fun n => t n q) _ rfl, ← EReal.coe_zero, ← coe_max, max_eq_left hnn]

end Stats

/-- Normalising a real table by real statistics, the variance ≥ 0 and the offset > 0, gives a real table. -/
theorem bnrelu_isR (eps : EReal) (he : ∃ r : ℝ, 0 < r ∧ eps = (r : EReal)) (g be mu var : Fin Hh → EReal)
    (T : Fin Nn → Fin Hh → EReal) (hg : ∀ q, IsR (g q)) (hbe : ∀ q, IsR (be q)) (hmu : ∀ q, IsR (mu q))
    (hvar : ∀ q, ∃ v : ℝ, 0 ≤ v ∧ var q = (v : EReal)) (hT : ∀ n q, IsR (T n q)) (n : Fin Nn) (q : Fin Hh) :
    IsR (bnrelu eps g be mu var T n q) := by
  obtain ⟨r, hr, rfl⟩ := he
  obtain ⟨v, hv, e⟩ := hvar q
  unfold bnrelu
  rw [e, ← EReal.coe_add, rsqrt_coe_pos (by linarith)]
  exact ((((hg q).mul ((hT n q).sub (hmu q))).mul ⟨_, rfl⟩).add (hbe q)).max ⟨0, rfl⟩

/-! ### One layer, then three -/

section Net

variable (rowc colc : Fin Ee → Fin Nn) (land : Fin Ee → Option (Fin Nn)) (hl : Lands colc land)
variable (nF eps : EReal) (hn : nF = ((50000 : ℝ) : EReal)) (he : ∃ r : ℝ, 0 < r ∧ eps = (r : EReal))
include hl hn he

/-- On real tables the two arrangements of a layer agree, and the layer's output is real. -/
theorem layer_eq {K : ℕ} (h : Fin Nn → Fin K → EReal) (W : Fin K → Fin Hh → EReal) (b g be : Fin Hh → EReal)
    (hh : ∀ p k, IsR (h p k)) (hW : ∀ k q, IsR (W k q)) (hb : ∀ q, IsR (b q)) (hg : ∀ q, IsR (g q))
    (hbe : ∀ q, IsR (be q)) :
    layerK rowc land nF eps h W b g be = layerR rowc colc land nF eps h W b g be
      ∧ ∀ n q, IsR (layerK rowc land nF eps h W b g be n q) := by
  have hxw : ∀ p q, IsR (mm h W p q) := mm_isR h W hh hW
  have htot : totK rowc land (mm h W) b = totR rowc colc land (mm h W) b := tot_eq rowc colc land hl _ hxw b
  have hT : ∀ n q, IsR (totK rowc land (mm h W) b n q) := totK_isR rowc land _ hxw b hb
  have hvar : varK nF (totK rowc land (mm h W) b) = varR nF (totK rowc land (mm h W) b) :=
    funext fun q => (var_eq nF hn _ hT q).1
  refine ⟨?_, fun n q => ?_⟩
  · unfold layerK layerR
    rw [← htot, hvar]
  · unfold layerK
    refine bnrelu_isR eps he g be _ _ _ hg hbe (meanOf_isR nF hn _ hT) (fun q => ?_) hT n q
    rw [hvar]
    exact (var_eq nF hn _ hT q).2

end Net

/-- The two arrangements agree on real-valued tables. -/
theorem netK_eq_netR (rowc colc : Fin Ee → Fin Nn) (land : Fin Ee → Option (Fin Nn)) (hl : Lands colc land)
    (nF eps : EReal) (hn : nF = ((50000 : ℝ) : EReal)) (he : ∃ r : ℝ, 0 < r ∧ eps = (r : EReal))
    (x : Fin Nn → Fin 128 → EReal) (W0 : Fin 128 → Fin Hh → EReal) (b0 g0 be0 : Fin Hh → EReal)
    (W1 : Fin Hh → Fin Hh → EReal) (b1 g1 be1 : Fin Hh → EReal) (W2 : Fin Hh → Fin Hh → EReal) (b2 g2 be2 : Fin Hh → EReal)
    (hx : ∀ p k, IsR (x p k)) (hW0 : ∀ k q, IsR (W0 k q)) (hb0 : ∀ q, IsR (b0 q)) (hg0 : ∀ q, IsR (g0 q)) (hbe0 : ∀ q, IsR (be0 q))
    (hW1 : ∀ k q, IsR (W1 k q)) (hb1 : ∀ q, IsR (b1 q)) (hg1 : ∀ q, IsR (g1 q)) (hbe1 : ∀ q, IsR (be1 q))
    (hW2 : ∀ k q, IsR (W2 k q)) (hb2 : ∀ q, IsR (b2 q)) (hg2 : ∀ q, IsR (g2 q)) (hbe2 : ∀ q, IsR (be2 q)) :
    netK rowc land nF eps x W0 b0 g0 be0 W1 b1 g1 be1 W2 b2 g2 be2
      = netR rowc colc land nF eps x W0 b0 g0 be0 W1 b1 g1 be1 W2 b2 g2 be2 := by
  obtain ⟨e1, r1⟩ := layer_eq rowc colc land hl nF eps hn he x W0 b0 g0 be0 hx hW0 hb0 hg0 hbe0
  obtain ⟨e2, r2⟩ := layer_eq rowc colc land hl nF eps hn he (layerK rowc land nF eps x W0 b0 g0 be0) W1 b1 g1 be1
    r1 hW1 hb1 hg1 hbe1
  obtain ⟨e3, _⟩ := layer_eq rowc colc land hl nF eps hn he
    (fun n q => layerK rowc land nF eps (layerK rowc land nF eps x W0 b0 g0 be0) W1 b1 g1 be1 n q
      + layerK rowc land nF eps x W0 b0 g0 be0 n q) W2 b2 g2 be2
    (fun n q => (r2 n q).add (r1 n q)) hW2 hb2 hg2 hbe2
  simp only [netK, netR]
  rw [← e1, ← e2]
  have h2eq : (fun n q => layerK rowc land nF eps x W0 b0 g0 be0 n q
        + layerK rowc land nF eps (layerK rowc land nF eps x W0 b0 g0 be0) W1 b1 g1 be1 n q)
      = (fun n q => layerK rowc land nF eps (layerK rowc land nF eps x W0 b0 g0 be0) W1 b1 g1 be1 n q
        + layerK rowc land nF eps x W0 b0 g0 be0 n q) := by
    funext n q
    exact add_comm _ _
  rw [h2eq, ← e3]
  funext n q
  rw [add_comm (layerK rowc land nF eps x W0 b0 g0 be0 n q)]
  exact add_comm _ _

end Cert.Spec

end
-- ==== Proof.EdgeIdx.lean ====
/-
  How the integer-index operations both programs print read at an index.

  Both programs hold the graph's edges as two vectors of 800000 signed 32-bit words (sources and targets) and a table of
  50000 nodes.  A gather reads the table at an edge's endpoint after "wrapping" it (a negative endpoint has 50000 added:
  an index counted from the end) and then clamps the start so that the one-row slice fits: row `gidx v e`.  An
  accumulating scatter adds update e to the row named by the raw endpoint, read signed and NOT clamped: an endpoint
  outside [0, 50000) is dropped, so update e lands on `landOf v e`.  Whenever an edge lands, the wrapped-and-clamped row
  is the landing row (`lands`).

  Every statement is over an arbitrary record of dimension numbers with its list fields fixed by hypotheses, and over an
  arbitrary column of indices described row by row, so that it serves either program.
-/
import Idealize.ShloMosaic.PureOps.Ideal
import Idealize.ShloMosaic.PureOps.Dims
import Idealize.ShloMosaic.Lib.ValueIdx
import Idealize.ShloMosaic.Lib.StableHlo.Predicate
import Idealize.ShloMosaic.Lib.Pipeline.Value
import proofs.«142371_j48498770706497_2_alg».proof.Proof.Spec

noncomputable section

namespace Cert.EdgeIdx

open Idealize.ShloMosaic Idealize.ShloMosaic.ValueIdx Idealize.ShloMosaic.StableHlo.Predicate
open scoped BigOperators

-- The shapes in play: the node table (one entry or a row of 256 per node), the edge vector, the column of indices
-- (one index per edge), the edge-by-column updates.
local notation "S50000" => (⟨1, ![50000]⟩ : Shape)
local notation "S800000" => (⟨1, ![800000]⟩ : Shape)
local notation "S_" => (⟨0, ![]⟩ : Shape)
local notation "S800000x1" => (⟨2, ![800000, 1]⟩ : Shape)
local notation "S50000x256" => (⟨2, ![50000, 256]⟩ : Shape)
local notation "S800000x256" => (⟨2, ![800000, 256]⟩ : Shape)

/-! ## One endpoint: wrapping a signed word -/

/-- A negative endpoint has the node count added (an index counted from the end). -/
def wrapInt (z : Int) : Int := if z < 0 then z + 50000 else z

/-- The same on the 32-bit word, as the programs compute it: compare with zero (signed), add 50000, select. -/
def wrap (w : BitVec 32) : BitVec 32 := Scalar.select (IntOp.cmpi .slt w 0#32) (IntOp.addi w 50000#32) w

/-- The word computation is the integer one: adding 50000 to a negative 32-bit word does not overflow. -/
theorem toInt_wrap (a : BitVec 32) : (wrap a).toInt = wrapInt a.toInt := by
  have hlo : -(2 ^ 31 : Int) ≤ a.toInt := by have := BitVec.le_toInt a; simpa using this
  have hhi : a.toInt < (2 ^ 31 : Int) := by have := BitVec.toInt_lt (x := a); simpa using this
  unfold wrap wrapInt Scalar.select IntOp.cmpi IntOp.addi
  by_cases hneg : a.toInt < 0
  · have hs : a.slt 0#32 = true := by simp [BitVec.slt, hneg]
    rw [hs, if_pos hneg]
    simp only [BitVec.ofBool_true, if_true]
    rw [BitVec.toInt_add]
    have h5 : (50000#32 : BitVec 32).toInt = 50000 := by decide
    rw [h5]
    have hb : (a.toInt + 50000).bmod (2 ^ 32) = a.toInt + 50000 := by
      apply Int.bmod_eq_of_le <;> omega
    exact hb
  · have hs : a.slt 0#32 = false := by simp [BitVec.slt, hneg]
    rw [hs, if_neg hneg]
    simp

/-! ## The two edge maps -/

/-- The table row a gather reads for edge entry `e`: the endpoint read signed, wrapped, and clamped into the table. -/
def gidx (v : IVec S800000 32) (e : Fin 800000) : Fin 50000 :=
  ⟨min (wrapInt (v (ix1 e)).toInt).toNat 49999, by omega⟩

/-- The table row update `e` of an accumulating scatter lands on: the endpoint read signed, when it is a row of the table. -/
def landOf (v : IVec S800000 32) (e : Fin 800000) : Option (Fin 50000) :=
  if h : 0 ≤ (v (ix1 e)).toInt ∧ (v (ix1 e)).toInt < 50000 then some ⟨(v (ix1 e)).toInt.toNat, by omega⟩ else none

theorem landOf_eq_some_iff (v : IVec S800000 32) (e : Fin 800000) (n : Fin 50000) :
    landOf v e = some n ↔ (v (ix1 e)).toInt = (n.val : Int) := by
  unfold landOf
  have hn := n.isLt
  constructor
  · intro h
    split at h
    · next hr => have := congrArg Fin.val (Option.some.inj h); simp only at this; omega
    · cases h
  · intro h
    rw [dif_pos (by omega)]
    congr 1
    apply Fin.ext
    show (v (ix1 e)).toInt.toNat = n.val
    omega

/-- An edge that lands is gathered at its landing row. -/
theorem lands (v : IVec S800000 32) : Cert.Spec.Lands (gidx v) (landOf v) := by
  intro e n h
  have hz := (landOf_eq_some_iff v e n).1 h
  have hn := n.isLt
  apply Fin.ext
  show min (wrapInt (v (ix1 e)).toInt).toNat 49999 = n.val
  unfold wrapInt
  rw [hz, if_neg (by omega)]
  omega

/-! ## Indices and the printed index columns -/

/-- The rank-1 index at a coordinate, in the two spellings in use. -/
theorem ofFin_eq_ix1 {n : Nat} (p : Fin n) : Shape.Idx.ofFin p = ix1 p := by
  funext a; match a with | ⟨0, _⟩ => rfl

/-- Row `p` of a one-column table, in the two spellings in use. -/
theorem ixP_eq_ix2 {n : Nat} (p : Fin n) : ixP p = ix2 p (0 : Fin 1) := by
  funext a; match a with | ⟨0, _⟩ => rfl | ⟨1, _⟩ => rfl

/-- A coordinate read at equal axes. -/
theorem val_congr {t : Shape} (j : t.Idx) {a b : Fin t.rank} (h : a = b) : (j a).val = (j b).val := by
  subst h; rfl

/-- The column of indices made from a vector: row `e` holds the vector's entry `e`. -/
theorem col_apply {α : Type} (h : (S800000).BroadcastsInDim S800000x1 ![0]) (w : (S800000).Idx → α) (e : Fin 800000) :
    broadcastInDim S800000x1 ![0] h w (ix2 e 0) = w (ix1 e) := by
  rw [← ixP_eq_ix2, bcast_col1, ofFin_eq_ix1]

/-- The wrapped endpoints as both programs print them: compare with a vector of zeros, add a vector of 50000s, select. -/
abbrev wrapV (hb : (S_).BroadcastsInDim S800000 ![]) (v : IVec S800000 32) : IVec S800000 32 :=
  select (cmpi .slt v (broadcastInDim S800000 ![] hb (constantI S_ 32 0#32)))
    (addi v (broadcastInDim S800000 ![] hb (constantI S_ 32 50000#32))) v

/-- Entry by entry it is the one-word wrap. -/
theorem wrapV_apply (hb : (S_).BroadcastsInDim S800000 ![]) (v : IVec S800000 32) (i : (S800000).Idx) :
    wrapV hb v i = wrap (v i) := rfl

/-- The printed column of wrapped endpoints holds, row by row, the wrapped word: the hypothesis the gathers below ask. -/
theorem wrapCol_printed (hb : (S_).BroadcastsInDim S800000 ![]) (h : (S800000).BroadcastsInDim S800000x1 ![0])
    (v : IVec S800000 32) (e : Fin 800000) :
    broadcastInDim S800000x1 ![0] h (wrapV hb v) (ix2 e 0) = wrap (v (ix1 e)) := by
  rw [col_apply]; rfl

/-- The printed column of raw endpoints holds, row by row, the word itself: the hypothesis the scatters below ask. -/
theorem rawCol_printed (h : (S800000).BroadcastsInDim S800000x1 ![0]) (v : IVec S800000 32) (e : Fin 800000) :
    broadcastInDim S800000x1 ![0] h v (ix2 e 0) = v (ix1 e) := col_apply h v e

/-- A start-index column `idx` IS the wrapped endpoints of `v` when each row holds the wrapped word. -/
def IsWrapCol (v : IVec S800000 32) (idx : IVec S800000x1 32) : Prop :=
  ∀ e : Fin 800000, idx (ix2 e 0) = wrap (v (ix1 e))

/-- A scatter-index column `idx` IS the raw endpoints of `v` when each row holds the word itself. -/
def IsRawCol (v : IVec S800000 32) (idx : IVec S800000x1 32) : Prop :=
  ∀ e : Fin 800000, idx (ix2 e 0) = v (ix1 e)

/-- The printed wrapped column is one. -/
theorem isWrapCol_printed (hb : (S_).BroadcastsInDim S800000 ![]) (h : (S800000).BroadcastsInDim S800000x1 ![0])
    (v : IVec S800000 32) : IsWrapCol v (broadcastInDim S800000x1 ![0] h (wrapV hb v)) :=
  wrapCol_printed hb h v

/-- The printed raw column is one. -/
theorem isRawCol_printed (h : (S800000).BroadcastsInDim S800000x1 ![0]) (v : IVec S800000 32) :
    IsRawCol v (broadcastInDim S800000x1 ![0] h v) :=
  rawCol_printed h v

/-- The clamped start of a row holding a wrapped endpoint is `gidx`. -/
theorem clamp_wrap {v : IVec S800000 32} {idx : IVec S800000x1 32}
    (h : ∀ e : Fin 800000, idx (ix2 e 0) = wrap (v (ix1 e))) (e : Fin 800000) :
    min (idx (ix2 e 0)).toInt.toNat 49999 = (gidx v e).val := by
  rw [h e, toInt_wrap]; rfl

/-! ## The gathers -/

/-- A gather of single entries of a 50000-entry table at a column of start indices: entry `e` of the result is the
    table's entry at row `e`'s start, read signed and clamped into the table. -/
theorem gather1_col {α : Type} (d : GatherDims S50000 S800000x1 S800000)
    (hcoll : d.collapsedSliceDims = [0]) (hob : d.operandBatchingDims = [])
    (hsim : d.startIndexMap = [0]) (hivd : d.indexVectorDim = 1)
    (x : (S50000).Idx → α) (idx : IVec S800000x1 32) (e : Fin 800000) :
    Host.gather d x idx (ix1 e) = x (ix1 ⟨min (idx (ix2 e 0)).toInt.toNat 49999, by omega⟩) := by
  have h := gather_take d hcoll hob hsim hivd x idx e (by omega)
  rw [ofFin_eq_ix1, ofFin_eq_ix1] at h
  rw [h]
  congr 2
  apply Fin.ext
  show min (idx (ixP e)).toInt.toNat (50000 - 1) = min (idx (ix2 e 0)).toInt.toNat 49999
  rw [ixP_eq_ix2]

/-- The same at the wrapped endpoints of `v`: entry `e` reads row `gidx v e`. -/
theorem gather1_apply {α : Type} (d : GatherDims S50000 S800000x1 S800000)
    (hcoll : d.collapsedSliceDims = [0]) (hob : d.operandBatchingDims = [])
    (hsim : d.startIndexMap = [0]) (hivd : d.indexVectorDim = 1)
    (x : (S50000).Idx → α) (v : IVec S800000 32) (idx : IVec S800000x1 32)
    (h : ∀ e : Fin 800000, idx (ix2 e 0) = wrap (v (ix1 e))) (e : Fin 800000) :
    Host.gather d x idx (ix1 e) = x (ix1 (gidx v e)) := by
  rw [gather1_col d hcoll hob hsim hivd]
  congr 2
  exact Fin.ext (clamp_wrap h e)

/-- The same, the hypothesis given as `IsWrapCol`. -/
theorem gather1_apply' {α : Type} (d : GatherDims S50000 S800000x1 S800000)
    (hcoll : d.collapsedSliceDims = [0]) (hob : d.operandBatchingDims = [])
    (hsim : d.startIndexMap = [0]) (hivd : d.indexVectorDim = 1)
    (x : (S50000).Idx → α) (v : IVec S800000 32) (idx : IVec S800000x1 32) (hw : IsWrapCol v idx) (e : Fin 800000) :
    Host.gather d x idx (ix1 e) = x (ix1 (gidx v e)) :=
  gather1_apply d hcoll hob hsim hivd x v idx hw e

/-- A gather of whole rows of a 50000 × 256 table at a column of start indices: entry (e, q) of the result is the
    table's entry at (row `e`'s start, read signed and clamped into the table; column q). -/
theorem gather2_col {α : Type} (d : GatherDims S50000x256 S800000x1 S800000x256)
    (hoff : d.offsetDims = [1]) (hcoll : d.collapsedSliceDims = [0]) (hob : d.operandBatchingDims = [])
    (hsim : d.startIndexMap = [0]) (hivd : d.indexVectorDim = 1)
    (x : (S50000x256).Idx → α) (idx : IVec S800000x1 32) (e : Fin 800000) (q : Fin 256) :
    Host.gather d x idx (ix2 e q) = x (ix2 ⟨min (idx (ix2 e 0)).toInt.toNat 49999, by omega⟩ q) := by
  unfold Host.gather
  congr 1
  funext a
  apply Fin.ext
  have hb : ∀ a : Fin 2, a ∉ d.operandBatchingDims := by intro a; rw [hob]; exact List.not_mem_nil
  match a with
  | ⟨0, _⟩ =>
    -- the row axis: collapsed and start-indexed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e 0)).toInt.toNat 49999
    rw [GatherDims.batchCoord_eq_zero _ _ _ (hb 0), GatherDims.offCoord_eq_zero _ _ _ hk]
    simp only [Nat.add_zero, GatherDims.start, dif_pos hm]
    show min (idx _).toInt.toNat (50000 - d.sliceSizes 0) = _
    rw [hsl]
    congr 3
    congr 1
    funext b
    match b with
    | ⟨0, _⟩ =>
      -- the start indices' row is the result's batch coordinate, which sits on the result's axis 0
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; decide
      refine (val_congr (ix2 e q) ?_).trans (rfl : ((ix2 e q) 0).val = e.val)
      rw [List.getElem_of_eq hbd]; simp
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: neither collapsed nor start-indexed, so the offset coordinate alone
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1)]
    simp only [GatherDims.start, dif_neg hm, GatherDims.offCoord, dif_pos hk, Nat.zero_add, Nat.add_zero]
    refine (val_congr (ix2 e q) ?_).trans (rfl : ((ix2 e q) 1).val = q.val)
    rw [List.getElem_of_eq hoff]; simp

/-- The same at the wrapped endpoints of `v`: entry (e, q) reads row `gidx v e`, column q. -/
theorem gather2_apply {α : Type} (d : GatherDims S50000x256 S800000x1 S800000x256)
    (hoff : d.offsetDims = [1]) (hcoll : d.collapsedSliceDims = [0]) (hob : d.operandBatchingDims = [])
    (hsim : d.startIndexMap = [0]) (hivd : d.indexVectorDim = 1)
    (x : (S50000x256).Idx → α) (v : IVec S800000 32) (idx : IVec S800000x1 32)
    (h : ∀ e : Fin 800000, idx (ix2 e 0) = wrap (v (ix1 e))) (e : Fin 800000) (q : Fin 256) :
    Host.gather d x idx (ix2 e q) = x (ix2 (gidx v e) q) := by
  rw [gather2_col d hoff hcoll hob hsim hivd]
  congr 2
  exact Fin.ext (clamp_wrap h e)

/-- The same, the hypothesis given as `IsWrapCol`. -/
theorem gather2_apply' {α : Type} (d : GatherDims S50000x256 S800000x1 S800000x256)
    (hoff : d.offsetDims = [1]) (hcoll : d.collapsedSliceDims = [0]) (hob : d.operandBatchingDims = [])
    (hsim : d.startIndexMap = [0]) (hivd : d.indexVectorDim = 1)
    (x : (S50000x256).Idx → α) (v : IVec S800000 32) (idx : IVec S800000x1 32) (hw : IsWrapCol v idx)
    (e : Fin 800000) (q : Fin 256) :
    Host.gather d x idx (ix2 e q) = x (ix2 (gidx v e) q) :=
  gather2_apply d hoff hcoll hob hsim hivd x v idx hw e q

/-! ## The accumulating scatters -/

/-- An update lands on table index `i` exactly when, on every axis, its start (read signed, not clamped) plus its
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro hs a
      have hv := congrArg Fin.val (congrFun (Option.some.inj hs) a)
      simp only at hv
      have := (h a).1
      omega
    · intro hall
      congr 1
      funext a
      apply Fin.ext
      show (d.start j idx a + d.window j a).toNat = (i a).val
      have := hall a
      omega
  · rw [dif_neg h]
    constructor
    · intro hs; cases hs
    · intro hall
      exfalso; apply h; intro a
      have := hall a
      have := (i a).isLt
      omega

/-- Updates that are single entries: update `e` starts, on the table's one axis, at row `e` of the index column. -/
theorem scatter1_start (d : ScatterDims S50000 S800000x1 S800000)
    (hsd : d.scatterDimsToOperandDims = [0]) (hivd : d.indexVectorDim = 1)
    (idx : IVec S800000x1 32) (e : Fin 800000) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, ((ix1 e : (S800000).Idx) X).val = e.val := fun X => by
      have hX : X = 0 := Subsingleton.elim _ _
      subst hX; rfl
    exact e1 _
  | ⟨1, _⟩ =>
    unfold ScatterDims.siIdx
    rw [dif_pos (by rw [hivd])]
    apply Fin.ext
    show List.idxOf (0 : Fin 1) d.scatterDimsToOperandDims = 0
    rw [hsd]; simp

/-- … and has no window coordinate: the table's one axis is an inserted one. -/
theorem scatter1_window (d : ScatterDims S50000 S800000x1 S800000)
    (hins : d.insertedWindowDims = [0]) (e : Fin 800000) : d.window (ix1 e) 0 = 0 := by
  have hk : (0 : Fin 1) ∉ d.sKept := by
    show (0 : Fin 1) ∉ Shape.kept _ d.insertedWindowDims
    rw [hins]; decide
  unfold ScatterDims.window
  rw [dif_neg hk]

/-- So update `e` lands on row `n` exactly when row `e` of the index column reads `n`. -/
theorem scatter1_lands (d : ScatterDims S50000 S800000x1 S800000)
    (hins : d.insertedWindowDims = [0]) (hsd : d.scatterDimsToOperandDims = [0]) (hivd : d.indexVectorDim = 1)
    (idx : IVec S800000x1 32) (e : Fin 800000) (n : Fin 50000) :
    d.resultIdx? (ix1 e) idx = some (ix1 n) ↔ (idx (ix2 e 0)).toInt = (n.val : Int) := by
  rw [resultIdx?_eq_some_iff]
  constructor
  · intro h
    have h0 := h 0
    rw [scatter1_start d hsd hivd, scatter1_window d hins] at h0
    simpa using h0
  · intro h a
    obtain rfl : a = 0 := Subsingleton.elim _ _
    rw [scatter1_start d hsd hivd, scatter1_window d hins]
    simpa using h

/-- An accumulating scatter of single entries into a 50000-entry table at the raw endpoints of `v`: row `n` gains the
    updates of the edges landing on it. -/
theorem scatter1_apply (d : ScatterDims S50000 S800000x1 S800000)
    (hins : d.insertedWindowDims = [0]) (hsd : d.scatterDimsToOperandDims = [0]) (hivd : d.indexVectorDim = 1)
    (x : (S50000).Idx → EReal) (v : IVec S800000 32) (idx : IVec S800000x1 32) (u : (S800000).Idx → EReal)
    (h : ∀ e : Fin 800000, idx (ix2 e 0) = v (ix1 e)) (n : Fin 50000) :
    Host.scatterAdd (F := Ideal) (φ := .f32) d x idx u (ix1 n)
      = x (ix1 n) + ∑ e ∈ Finset.univ.filter (fun e => landOf v e = some n), u (ix1 e) := by
  show x (ix1 n) + ∑ j ∈ Finset.univ.filter (fun j => d.resultIdx? j idx = some (ix1 n)), u j = _
  refine congrArg (fun s => x (ix1 n) + s) ?_
  have key : ∀ e : Fin 800000, d.resultIdx? (ix1 e) idx = some (ix1 n) ↔ landOf v e = some n := fun e => by
    rw [scatter1_lands d hins hsd hivd, landOf_eq_some_iff, h e]
  refine Finset.sum_bij' (fun j _ => (j 0 : Fin 800000)) (fun e _ => ix1 e) ?_ ?_ ?_ ?_ ?_
  · intro j hj
    obtain ⟨e, rfl⟩ : ∃ e : Fin 800000, j = ix1 e := ⟨j 0, eq_ix1 j⟩
    exact Finset.mem_filter.2 ⟨Finset.mem_univ e, (key e).1 (Finset.mem_filter.1 hj).2⟩
  · intro e he
    exact Finset.mem_filter.2 ⟨Finset.mem_univ _, (key e).2 (Finset.mem_filter.1 he).2⟩
  · intro j _; exact (eq_ix1 j).symm
  · intro e _; rfl
  · intro j _; exact congrArg u (eq_ix1 j)

/-- The same, the hypothesis given as `IsRawCol` and the record's fields checked last (by computation when omitted). -/
theorem scatter1_apply' (d : ScatterDims S50000 S800000x1 S800000)
    (x : (S50000).Idx → EReal) (v : IVec S800000 32) (idx : IVec S800000x1 32) (hr : IsRawCol v idx)
    (u : (S800000).Idx → EReal) (n : Fin 50000)
    (hins : d.insertedWindowDims = [0] := by rfl) (hsd : d.scatterDimsToOperandDims = [0] := by rfl)
    (hivd : d.indexVectorDim = 1 := by rfl) :
    Host.scatterAdd (F := Ideal) (φ := .f32) d x idx u (ix1 n)
      = x (ix1 n) + ∑ e ∈ Finset.univ.filter (fun e => landOf v e = some n), u (ix1 e) :=
  scatter1_apply d hins hsd hivd x v idx u hr n

/-- Updates that are rows of 256: update (e, q) starts, on the table's row axis, at row `e` of the index column … -/
theorem scatter2_start0 (d : ScatterDims S50000x256 S800000x1 S800000x256)
    (hupd : d.updateWindowDims = [1]) (hsd : d.scatterDimsToOperandDims = [0]) (hivd : d.indexVectorDim = 1)
    (idx : IVec S800000x1 32) (e : Fin 800000) (q : Fin 256) :
    d.start (ix2 e q) idx 0 = (idx (ix2 e 0)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    -- the index column's row is the update's scatter coordinate, which sits on the updates' axis 0
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [hupd]; decide
    refine (val_congr (ix2 e q) ?_).trans (rfl : ((ix2 e q) 0).val = e.val)
    rw [List.getElem_of_eq hus]; simp
  | ⟨1, _⟩ =>
    unfold ScatterDims.siIdx
    rw [dif_pos (by rw [hivd])]
    apply Fin.ext
    show List.idxOf (0 : Fin 2) d.scatterDimsToOperandDims = 0
    rw [hsd]; simp

/-- … and at 0 on the column axis, which the index map does not name; -/
theorem scatter2_start1 (d : ScatterDims S50000x256 S800000x1 S800000x256)
    (hsd : d.scatterDimsToOperandDims = [0]) (idx : IVec S800000x1 32) (j : (S800000x256).Idx) :
    d.start j idx 1 = 0 := by
  have hm : (1 : Fin 2) ∉ d.scatterDimsToOperandDims := by rw [hsd]; simp
  unfold ScatterDims.start
  rw [dif_neg hm]

/-- its window coordinate is 0 on the row axis (an inserted one) … -/
theorem scatter2_window0 (d : ScatterDims S50000x256 S800000x1 S800000x256)
    (hins : d.insertedWindowDims = [0]) (j : (S800000x256).Idx) : d.window j 0 = 0 := by
  have hk : (0 : Fin 2) ∉ d.sKept := by
    show (0 : Fin 2) ∉ Shape.kept _ d.insertedWindowDims
    rw [hins]; decide
  unfold ScatterDims.window
  rw [dif_neg hk]

/-- … and its own column on the column axis. -/
theorem scatter2_window1 (d : ScatterDims S50000x256 S800000x1 S800000x256)
    (hupd : d.updateWindowDims = [1]) (hins : d.insertedWindowDims = [0]) (e : Fin 800000) (q : Fin 256) :
    d.window (ix2 e q) 1 = q.val := by
  have hk : (1 : Fin 2) ∈ d.sKept := by
    show (1 : Fin 2) ∈ Shape.kept _ d.insertedWindowDims
    rw [hins]; decide
  unfold ScatterDims.window
  rw [dif_pos hk]
  refine (val_congr (ix2 e q) ?_).trans (rfl : ((ix2 e q) 1).val = q.val)
  rw [List.getElem_of_eq hupd]; simp

/-- So update (e, q') lands on (n, q) exactly when row `e` of the index column reads `n` and the columns agree. -/
theorem scatter2_lands (d : ScatterDims S50000x256 S800000x1 S800000x256)
    (hupd : d.updateWindowDims = [1]) (hins : d.insertedWindowDims = [0])
    (hsd : d.scatterDimsToOperandDims = [0]) (hivd : d.indexVectorDim = 1)
    (idx : IVec S800000x1 32) (e : Fin 800000) (q' : Fin 256) (n : Fin 50000) (q : Fin 256) :
    d.resultIdx? (ix2 e q') idx = some (ix2 n q) ↔ (idx (ix2 e 0)).toInt = (n.val : Int) ∧ q' = q := by
  rw [resultIdx?_eq_some_iff]
  constructor
  · intro h
    have h0 : d.start (ix2 e q') idx 0 + (d.window (ix2 e q') 0 : Int) = (n.val : Int) := h 0
    have h1 : d.start (ix2 e q') idx 1 + (d.window (ix2 e q') 1 : Int) = (q.val : Int) := h 1
    rw [scatter2_start0 d hupd hsd hivd, scatter2_window0 d hins] at h0
    rw [scatter2_start1 d hsd, scatter2_window1 d hupd hins] at h1
    refine ⟨by simpa using h0, Fin.ext ?_⟩
    omega
  · rintro ⟨h0, rfl⟩ a
    match a with
    | ⟨0, _⟩ =>
      show d.start (ix2 e q') idx 0 + (d.window (ix2 e q') 0 : Int) = (n.val : Int)
      rw [scatter2_start0 d hupd hsd hivd, scatter2_window0 d hins]
      simpa using h0
    | ⟨1, _⟩ =>
      show d.start (ix2 e q') idx 1 + (d.window (ix2 e q') 1 : Int) = (q'.val : Int)
      rw [scatter2_start1 d hsd, scatter2_window1 d hupd hins]
      simp

/-- An accumulating scatter of rows of 256 into a 50000 × 256 table at the raw endpoints of `v`: entry (n, q) gains
    column q of the updates of the edges landing on row n. -/
theorem scatter2_apply (d : ScatterDims S50000x256 S800000x1 S800000x256)
    (hupd : d.updateWindowDims = [1]) (hins : d.insertedWindowDims = [0])
    (hsd : d.scatterDimsToOperandDims = [0]) (hivd : d.indexVectorDim = 1)
    (x : (S50000x256).Idx → EReal) (v : IVec S800000 32) (idx : IVec S800000x1 32) (u : (S800000x256).Idx → EReal)
    (h : ∀ e : Fin 800000, idx (ix2 e 0) = v (ix1 e)) (n : Fin 50000) (q : Fin 256) :
    Host.scatterAdd (F := Ideal) (φ := .f32) d x idx u (ix2 n q)
      = x (ix2 n q) + ∑ e ∈ Finset.univ.filter (fun e => landOf v e = some n), u (ix2 e q) := by
  show x (ix2 n q) + ∑ j ∈ Finset.univ.filter (fun j => d.resultIdx? j idx = some (ix2 n q)), u j = _
  refine congrArg (fun s => x (ix2 n q) + s) ?_
  have key : ∀ (e : Fin 800000) (q' : Fin 256),
      d.resultIdx? (ix2 e q') idx = some (ix2 n q) ↔ landOf v e = some n ∧ q' = q := fun e q' => by
    rw [scatter2_lands d hupd hins hsd hivd, landOf_eq_some_iff, h e]
  refine Finset.sum_bij' (fun j _ => (j 0 : Fin 800000)) (fun e _ => ix2 e q) ?_ ?_ ?_ ?_ ?_
  · intro j hj
    obtain ⟨e, q', rfl⟩ : ∃ (e : Fin 800000) (q' : Fin 256), j = ix2 e q' := ⟨j 0, j 1, eq_ix2 j⟩
    exact Finset.mem_filter.2 ⟨Finset.mem_univ e, ((key e q').1 (Finset.mem_filter.1 hj).2).1⟩
  · intro e he
    exact Finset.mem_filter.2 ⟨Finset.mem_univ _, (key e q).2 ⟨(Finset.mem_filter.1 he).2, rfl⟩⟩
  · intro j hj
    obtain ⟨e, q', rfl⟩ : ∃ (e : Fin 800000) (q' : Fin 256), j = ix2 e q' := ⟨j 0, j 1, eq_ix2 j⟩
    obtain rfl : q' = q := ((key e q').1 (Finset.mem_filter.1 hj).2).2
    rfl
  · intro e _; rfl
  · intro j hj
    obtain ⟨e, q', rfl⟩ : ∃ (e : Fin 800000) (q' : Fin 256), j = ix2 e q' := ⟨j 0, j 1, eq_ix2 j⟩
    obtain rfl : q' = q := ((key e q').1 (Finset.mem_filter.1 hj).2).2
    rfl

/-- The same, the hypothesis given as `IsRawCol` and the record's fields checked last (by computation when omitted). -/
theorem scatter2_apply' (d : ScatterDims S50000x256 S800000x1 S800000x256)
    (x : (S50000x256).Idx → EReal) (v : IVec S800000 32) (idx : IVec S800000x1 32) (hr : IsRawCol v idx)
    (u : (S800000x256).Idx → EReal) (n : Fin 50000) (q : Fin 256)
    (hupd : d.updateWindowDims = [1] := by rfl) (hins : d.insertedWindowDims = [0] := by rfl)
    (hsd : d.scatterDimsToOperandDims = [0] := by rfl) (hivd : d.indexVectorDim = 1 := by rfl) :
    Host.scatterAdd (F := Ideal) (φ := .f32) d x idx u (ix2 n q)
      = x (ix2 n q) + ∑ e ∈ Finset.univ.filter (fun e => landOf v e = some n), u (ix2 e q) :=
  scatter2_apply d hupd hins hsd hivd x v idx u hr n q

end Cert.EdgeIdx

end
-- ==== Proof.Finite.lean ====
/-
  From the finiteness precondition to "every entry of every float argument is a real number".
-/
import proofs.«142371_j48498770706497_2_alg».proof.Pre_finite_inputs
import proofs.«142371_j48498770706497_2_alg».proof.Proof.Spec
import Idealize.ShloMosaic.Lib.ReduceAll
import Idealize.ShloMosaic.Lib.ValueIdx
import Idealize.ShloMosaic.PureOps.Ideal

noncomputable section

namespace Cert.Finite

open Idealize.ShloMosaic Cert.Pre_finite_inputs Cert.Spec

/-- The rank-0 shape has one index. -/
instance : Subsingleton S_.Idx := ⟨fun a b => funext fun d => d.elim0⟩

/-- The one-bit word of a Boolean is 1 exactly when the Boolean is true. -/
theorem ofBool_eq_one (b : Bool) : BitVec.ofBool b = 1#1 ↔ b = true := by cases b <;> decide

/-- An extended real whose absolute value max x (-x) lies strictly below +∞ is a real number. -/
theorem isR_of_abs_lt_top (x : EReal) (h : max x (-x) < ⊤) : IsR x := by
  induction x using EReal.rec with
  | bot => simp at h
  | top => simp at h
  | coe r => exact ⟨r, rfl⟩

/-- One test of the precondition: the conjunction over all entries of |a| < +∞ being true says every entry of a
    is a real number. -/
theorem isR_of_all {s : Shape} {axes : List (Fin s.rank)} (hb : S_.BroadcastsInDim s (![] : Fin 0 → Fin s.rank))
    (hr : s.ReducesTo axes S_) (hu : 0 < S_.numel) (a : FVec Ideal s .f32) (j : S_.Idx)
    (e : Host.reduce IntOp.andi (cmpf .olt (Host.absf a) (broadcastInDim s ![] hb (constant S_ .f32 0x7F800000#32)))
          (constantI S_ 1 1#1) hr hu j = 1#1) (i : s.Idx) : IsR (a i) := by
  have h1 := Host.reduce_andi_all _ _ hr hu j e i
  have h2 : Ideal.cmp .olt (max (a i) (-(a i))) (Ideal.ofBits .f32 0x7F800000#32) = 1#1 := h1
  apply isR_of_abs_lt_top
  simpa [Ideal.cmp, Ideal.ofBits, Ideal.ieee, ofBool_eq_one] using h2

variable [Facts]
open Facts

/-- The last part of the chain: its result being true says the two carried bits were true and the entries of the
    last three arguments are real numbers. -/
theorem part4 (a16 : FVec Ideal S128 .f32) (a17 : FVec Ideal S128x1 .f32) (a18 : FVec Ideal S1 .f32)
    (v63 v67 : IVec S_ 1) (j : S_.Idx) (h : fn_part4 (F := Ideal) a16 a17 a18 v63 v67 j = 1#1) :
    v63 j = 1#1 ∧ v67 j = 1#1 ∧ (∀ i, IsR (a16 i)) ∧ (∀ i, IsR (a17 i)) ∧ (∀ i, IsR (a18 i)) := by
  dsimp only [fn_part4, Idealize.ShloMosaic.andi] at h
  simp only [IntOp.andi_eq_one] at h
  obtain ⟨⟨⟨⟨h63, h67⟩, h16⟩, h17⟩, h18⟩ := h
  exact ⟨h63, h67, isR_of_all _ _ _ _ j h16, isR_of_all _ _ _ _ j h17, isR_of_all _ _ _ _ j h18⟩

/-- The third part: it is handed the carried bit and the two sides of a comparison begun before it. -/
theorem part3 (a13 a14 : FVec Ideal S256 .f32) (a15 : FVec Ideal S256x128 .f32) (a16 : FVec Ideal S128 .f32)
    (a17 : FVec Ideal S128x1 .f32) (a18 : FVec Ideal S1 .f32) (v48 : IVec S_ 1) (v49 v50 : FVec Ideal S256 .f32) (j : S_.Idx)
    (h : fn_part3 (F := Ideal) a13 a14 a15 a16 a17 a18 v48 v49 v50 j = 1#1) :
    v48 j = 1#1 ∧ Host.reduce IntOp.andi (cmpf .olt v49 v50) (constantI S_ 1 1#1) reducesTo_S256_S_d0 h_S_ j = 1#1
      ∧ (∀ i, IsR (a13 i)) ∧ (∀ i, IsR (a14 i)) ∧ (∀ i, IsR (a15 i))
      ∧ (∀ i, IsR (a16 i)) ∧ (∀ i, IsR (a17 i)) ∧ (∀ i, IsR (a18 i)) := by
  dsimp only [fn_part3] at h
  obtain ⟨h63, h15, r16, r17, r18⟩ := part4 _ _ _ _ _ j h
  dsimp only [Idealize.ShloMosaic.andi] at h63
  simp only [IntOp.andi_eq_one] at h63
  obtain ⟨⟨⟨h48, h12⟩, h13⟩, h14⟩ := h63
  exact ⟨h48, h12, isR_of_all _ _ _ _ j h13, isR_of_all _ _ _ _ j h14, isR_of_all _ _ _ _ j h15, r16, r17, r18⟩

/-- The second part. -/
theorem part2 (a9 a10 : FVec Ideal S256 .f32) (a11 : FVec Ideal S256x256 .f32) (a12 a13 a14 : FVec Ideal S256 .f32)
    (a15 : FVec Ideal S256x128 .f32) (a16 : FVec Ideal S128 .f32) (a17 : FVec Ideal S128x1 .f32) (a18 : FVec Ideal S1 .f32)
    (v33 : IVec S_ 1) (j : S_.Idx)
    (h : fn_part2 (F := Ideal) a9 a10 a11 a12 a13 a14 a15 a16 a17 a18 v33 j = 1#1) :
    v33 j = 1#1 ∧ (∀ i, IsR (a9 i)) ∧ (∀ i, IsR (a10 i)) ∧ (∀ i, IsR (a11 i)) ∧ (∀ i, IsR (a12 i))
      ∧ (∀ i, IsR (a13 i)) ∧ (∀ i, IsR (a14 i)) ∧ (∀ i, IsR (a15 i))
      ∧ (∀ i, IsR (a16 i)) ∧ (∀ i, IsR (a17 i)) ∧ (∀ i, IsR (a18 i)) := by
  dsimp only [fn_part2] at h
  obtain ⟨h48, h12, r13, r14, r15, r16, r17, r18⟩ := part3 _ _ _ _ _ _ _ _ _ j h
  dsimp only [Idealize.ShloMosaic.andi] at h48
  simp only [IntOp.andi_eq_one] at h48
  obtain ⟨⟨⟨h33, h9⟩, h10⟩, h11⟩ := h48
  exact ⟨h33, isR_of_all _ _ _ _ j h9, isR_of_all _ _ _ _ j h10, isR_of_all _ _ _ _ j h11, isR_of_all _ _ _ _ j h12,
    r13, r14, r15, r16, r17, r18⟩

/-- The first part: it is handed the carried bit and a comparison made before it. -/
theorem part1 (a6 : FVec Ideal S256 .f32) (a7 : FVec Ideal S256x256 .f32) (a8 a9 a10 : FVec Ideal S256 .f32)
    (a11 : FVec Ideal S256x256 .f32) (a12 a13 a14 : FVec Ideal S256 .f32)
    (a15 : FVec Ideal S256x128 .f32) (a16 : FVec Ideal S128 .f32) (a17 : FVec Ideal S128x1 .f32) (a18 : FVec Ideal S1 .f32)
    (v13 : IVec S_ 1) (v16 : IVec S256 1) (j : S_.Idx)
    (h : fn_part1 (F := Ideal) a6 a7 a8 a9 a10 a11 a12 a13 a14 a15 a16 a17 a18 v13 v16 j = 1#1) :
    v13 j = 1#1 ∧ Host.reduce IntOp.andi v16 (constantI S_ 1 1#1) reducesTo_S256_S_d0 h_S_ j = 1#1
      ∧ (∀ i, IsR (a6 i)) ∧ (∀ i, IsR (a7 i)) ∧ (∀ i, IsR (a8 i))
      ∧ (∀ i, IsR (a9 i)) ∧ (∀ i, IsR (a10 i)) ∧ (∀ i, IsR (a11 i)) ∧ (∀ i, IsR (a12 i))
      ∧ (∀ i, IsR (a13 i)) ∧ (∀ i, IsR (a14 i)) ∧ (∀ i, IsR (a15 i))
      ∧ (∀ i, IsR (a16 i)) ∧ (∀ i, IsR (a17 i)) ∧ (∀ i, IsR (a18 i)) := by
  dsimp only [fn_part1] at h
  obtain ⟨h33, r9, r10, r11, r12, r13, r14, r15, r16, r17, r18⟩ := part2 _ _ _ _ _ _ _ _ _ _ _ j h
  dsimp only [Idealize.ShloMosaic.andi] at h33
  simp only [IntOp.andi_eq_one] at h33
  obtain ⟨⟨⟨⟨h13, h5⟩, h6⟩, h7⟩, h8⟩ := h33
  exact ⟨h13, h5, isR_of_all _ _ _ _ j h6, isR_of_all _ _ _ _ j h7, isR_of_all _ _ _ _ j h8,
    r9, r10, r11, r12, r13, r14, r15, r16, r17, r18⟩

/-- The precondition holding says every entry of each of the sixteen float arguments is a real number. -/
theorem real_of_pre (a0 : FVec Ideal S50000x128 .f32) (a1 : IVec S2x800000 32) (a2 : IVec S50000 32)
    (a3 : FVec Ideal S128x256 .f32) (a4 a5 a6 : FVec Ideal S256 .f32) (a7 : FVec Ideal S256x256 .f32)
    (a8 a9 a10 : FVec Ideal S256 .f32) (a11 : FVec Ideal S256x256 .f32) (a12 a13 a14 : FVec Ideal S256 .f32)
    (a15 : FVec Ideal S256x128 .f32) (a16 : FVec Ideal S128 .f32) (a17 : FVec Ideal S128x1 .f32) (a18 : FVec Ideal S1 .f32)
    (h : fn (F := Ideal) a0 a1 a2 a3 a4 a5 a6 a7 a8 a9 a10 a11 a12 a13 a14 a15 a16 a17 a18 = fun _ => 1#1) :
    (∀ i, IsR (a0 i)) ∧ (∀ i, IsR (a3 i)) ∧ (∀ i, IsR (a4 i)) ∧ (∀ i, IsR (a5 i)) ∧ (∀ i, IsR (a6 i))
      ∧ (∀ i, IsR (a7 i)) ∧ (∀ i, IsR (a8 i)) ∧ (∀ i, IsR (a9 i)) ∧ (∀ i, IsR (a10 i)) ∧ (∀ i, IsR (a11 i))
      ∧ (∀ i, IsR (a12 i)) ∧ (∀ i, IsR (a13 i)) ∧ (∀ i, IsR (a14 i)) ∧ (∀ i, IsR (a15 i))
      ∧ (∀ i, IsR (a16 i)) ∧ (∀ i, IsR (a17 i)) ∧ (∀ i, IsR (a18 i)) := by
  have h0 := congrFun h ValueIdx.ix0
  dsimp only [fn] at h0
  obtain ⟨h13, h5, r6, r7, r8, r9, r10, r11, r12, r13, r14, r15, r16, r17, r18⟩ :=
    part1 _ _ _ _ _ _ _ _ _ _ _ _ _ _ _ ValueIdx.ix0 h0
  dsimp only [Idealize.ShloMosaic.andi] at h13
  simp only [IntOp.andi_eq_one] at h13
  obtain ⟨⟨h0', h3⟩, h4⟩ := h13
  exact ⟨isR_of_all _ _ _ _ _ h0', isR_of_all _ _ _ _ _ h3, isR_of_all _ _ _ _ _ h4, isR_of_all _ _ _ _ _ h5,
    r6, r7, r8, r9, r10, r11, r12, r13, r14, r15, r16, r17, r18⟩

end Cert.Finite
-- ==== Proof.KHost0.lean ====
/-
  The first host stretch of the kernel-side program, read at an index over the extended reals.

  From the edge table (two rows of 800000 node numbers) it takes the two rows as flat vectors, counts for every node
  the edges landing on it (a sum of ones scattered by the second row, onto an array of zeros), adds one for the self
  loop and takes the inverse square root: the degree scale dinv; then its square.
-/
import proofs.«142371_j48498770706497_2_alg».proof.Proof.Gen.KernelIdeal.Launch
import proofs.«142371_j48498770706497_2_alg».proof.Proof.Spec
import proofs.«142371_j48498770706497_2_alg».proof.Proof.EdgeIdx
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

set_option maxRecDepth 1628

noncomputable section

namespace Cert.KHost0

open Idealize.ShloMosaic Idealize.ShloMosaic.TcCoe Idealize.ShloMosaic.ValueIdx
open Cert.KernelIdeal Cert.KernelIdeal.Gen
open Cert.EdgeIdx (gidx landOf)

/-- Row 0 of the edge table, flat: the node each edge reads its features from. -/
def rowOf (ei : IVec S2x800000 32) : IVec S800000 32 :=
  shapeCast S800000 (extractStridedSlice S1x800000 ![0, 0] ei slices_S2x800000_S1x800000_0_0) shapeCasts_S1x800000_S800000

/-- Row 1 of the edge table, flat: the node each edge sends its message to. -/
def colOf (ei : IVec S2x800000 32) : IVec S800000 32 :=
  shapeCast S800000 (extractStridedSlice S1x800000 ![1, 0] ei slices_S2x800000_S1x800000_1_0) shapeCasts_S1x800000_S800000

section
variable (Vin : Valuation τ sig (Elt Ideal))

theorem v1_eq : (StableHlo.after (hostOps0 (F := Ideal)) Vin (Proc.devRef .tc main_v1) : IVec S800000 32)
    = rowOf (Vin (Proc.devRef .tc main_arg1)) := by
  dsimp only [hostOps0]; after_results; rfl

theorem v3_eq : (StableHlo.after (hostOps0 (F := Ideal)) Vin (Proc.devRef .tc main_v3) : IVec S800000 32)
    = colOf (Vin (Proc.devRef .tc main_arg1)) := by
  dsimp only [hostOps0]; after_results; rfl

/-- The degree scale as the stretch's operations spell it. -/
def dinvTerm (col : IVec S800000 32) : FVec Ideal S50000 .f32 :=
  Host.rsqrt
    (addf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 col)
        (broadcastInDim S800000 ![] bcast_S_S800000 (constant (F := Ideal) S_ .f32 0x3F800000#32)))
      (broadcastInDim S50000 ![] bcast_S_S50000 (constant (F := Ideal) S_ .f32 0x3F800000#32)))

theorem v10_eq : (StableHlo.after (hostOps0 (F := Ideal)) Vin (Proc.devRef .tc main_v10) : FVec Ideal S50000 .f32)
    = dinvTerm (colOf (Vin (Proc.devRef .tc main_arg1))) := by
  dsimp only [hostOps0]; after_results; rfl

theorem v11_eq : (StableHlo.after (hostOps0 (F := Ideal)) Vin (Proc.devRef .tc main_v11) : FVec Ideal S50000 .f32)
    = mulf (dinvTerm (colOf (Vin (Proc.devRef .tc main_arg1)))) (dinvTerm (colOf (Vin (Proc.devRef .tc main_arg1)))) := by
  dsimp only [hostOps0]; after_results; rfl
end

theorem zeroN_apply (j : S50000.Idx) :
    broadcastInDim S50000 ![] bcast_S_S50000 (constant (F := Ideal) S_ .f32 0x00000000#32) j = 0 := Ideal.ofBits_zero_f32
theorem oneN_apply (j : S50000.Idx) :
    broadcastInDim S50000 ![] bcast_S_S50000 (constant (F := Ideal) S_ .f32 0x3F800000#32) j = 1 := Ideal.ofBits_one_f32
theorem oneE_apply (j : S800000.Idx) :
    broadcastInDim S800000 ![] bcast_S_S800000 (constant (F := Ideal) S_ .f32 0x3F800000#32) j = 1 := Ideal.ofBits_one_f32

theorem hostRsqrt_apply {s : Shape} (x : FVec Ideal s .f32) (i : s.Idx) : Host.rsqrt x i = Ideal.rsqrt (x i) := rfl

/-- The accumulating scatter of one value per edge, through the column of raw target nodes: each entry plus the values
    of the edges landing on its node. -/
theorem scatterN (x : FVec Ideal S50000 .f32) (v : IVec S800000 32) (u : FVec Ideal S800000 .f32) (n : Fin 50000) :
    Host.scatterAdd (F := Ideal) scatter_S50000_S800000x1_S800000_n_0_0_1 x
        (broadcastInDim S800000x1 ![0] bcast_S800000_S800000x1_0 v) u (ix1 n)
      = x (ix1 n) + ∑ e ∈ Finset.univ.filter (fun e => landOf v e = some n), u (ix1 e) :=
  Cert.EdgeIdx.scatter1_apply' scatter_S50000_S800000x1_S800000_n_0_0_1 x v _
    (Cert.EdgeIdx.isRawCol_printed bcast_S800000_S800000x1_0 v) u n

section

/-- The spelled degree scale at node n is the inverse square root of the node's degree. -/
theorem dinvTerm_apply (col : IVec S800000 32) (n : Fin 50000) :
    dinvTerm col (ix1 n) = Cert.Spec.dinv (landOf col) n := by
  unfold dinvTerm Cert.Spec.dinv Cert.Spec.deg
  rw [hostRsqrt_apply, addf_apply, scatterN]
  rw [zeroN_apply, oneN_apply, zero_add]
  have hsum : (∑ e ∈ Finset.univ.filter (fun e => landOf col e = some n),
        broadcastInDim S800000 ![] bcast_S_S800000 (constant (F := Ideal) S_ .f32 0x3F800000#32) (ix1 e))
      = ∑ _e ∈ Finset.univ.filter (fun e => landOf col e = some n), (1 : EReal) :=
    Finset.sum_congr rfl fun e _ => oneE_apply _
  rw [hsum]

/-- After the stretch the degree-scale array holds dinv at every node. -/
theorem v10_apply (Vin : Valuation τ sig (Elt Ideal)) (n : Fin 50000) :
    (StableHlo.after (hostOps0 (F := Ideal)) Vin (Proc.devRef .tc main_v10) : FVec Ideal S50000 .f32) (ix1 n)
      = Cert.Spec.dinv (landOf (colOf (Vin (Proc.devRef .tc main_arg1)))) n := by
  rw [v10_eq]; exact dinvTerm_apply _ n

/-- And the next array its square. -/
theorem v11_apply (Vin : Valuation τ sig (Elt Ideal)) (n : Fin 50000) :
    (StableHlo.after (hostOps0 (F := Ideal)) Vin (Proc.devRef .tc main_v11) : FVec Ideal S50000 .f32) (ix1 n)
      = Cert.Spec.dinv (landOf (colOf (Vin (Proc.devRef .tc main_arg1)))) n
        * Cert.Spec.dinv (landOf (colOf (Vin (Proc.devRef .tc main_arg1)))) n := by
  rw [v11_eq, mulf_apply, dinvTerm_apply]
end

end Cert.KHost0
end
-- ==== Proof.KTail.lean ====
/-
  The last three host stretches of the kernel-side program, read as one function of the buffers they start from:
  per-graph counts and sums by scatter-add, the pooled table  sums / max(counts, 1) + sums,  a dense layer with
  bias, the clamp at zero, and the final dense layer with bias.
-/
import proofs.«142371_j48498770706497_2_alg».proof.Proof.Gen.KernelIdeal.Regions
import Idealize.ShloMosaic.Lib.StableHlo.Run
import Idealize.ShloMosaic.PureOps.Ideal

set_option maxRecDepth 16384

noncomputable section

namespace Cert.KTail

open Idealize.ShloMosaic
open Cert.KernelIdeal Cert.KernelIdeal.Gen

/-- Contents of a buffer of the given shape and element type, at the ideal numbers. -/
abbrev Tab (s : Shape) (e : EltTy) : Type := (⟨s, e⟩ : BufTy).Contents (Elt Ideal)

/-- How many nodes each graph has: one added at every node's graph index, from zero. -/
def counts (x2 : Tab S50000 .i32) : Tab S256 .f32 :=
  Host.scatterAdd (F := Ideal) scatter_S256_S50000x1_S50000_n_0_0_1
    (broadcastInDim S256 ![] bcast_S_S256 (constant (F := Ideal) S_ .f32 0x00000000#32))
    (broadcastInDim S50000x1 ![0] bcast_S50000_S50000x1_0 x2)
    (broadcastInDim S50000 ![] bcast_S_S50000 (constant (F := Ideal) S_ .f32 0x3F800000#32))

/-- Each graph's sum of its nodes' rows, from zero. -/
def sums (h3 : Tab S50000x256 .f32) (x2 : Tab S50000 .i32) : Tab S256x256 .f32 :=
  Host.scatterAdd (F := Ideal) scatter_S256x256_S50000x1_S50000x256_1_0_0_1
    (broadcastInDim S256x256 ![] bcast_S_S256x256 (constant (F := Ideal) S_ .f32 0x00000000#32))
    (broadcastInDim S50000x1 ![0] bcast_S50000_S50000x1_0 x2)
    h3

/-- sums / max(counts, 1) + sums. -/
def pooled (h3 : Tab S50000x256 .f32) (x2 : Tab S50000 .i32) : Tab S256x256 .f32 :=
  addf (F := Ideal)
    (Host.divf (F := Ideal) (sums h3 x2)
      (broadcastInDim S256x256 ![0, 1] bcast_S256x1_S256x256_0_1
        (broadcastInDim S256x1 ![0] bcast_S256_S256x1_0
          (maximumf (F := Ideal) (counts x2) (broadcastInDim S256 ![] bcast_S_S256 (constant (F := Ideal) S_ .f32 0x3F800000#32))))))
    (sums h3 x2)

/-- pooled · x15 + x16, before the clamp. -/
def hidden (h3 : Tab S50000x256 .f32) (x2 : Tab S50000 .i32) (x15 : Tab S256x128 .f32) (x16 : Tab S128 .f32) :
    Tab S256x128 .f32 :=
  addf (F := Ideal) (Host.dotGeneral (F := Ideal) (φ₁ := .f32) (φ₂ := .f32) dot_S256x256_S256x128_S256x128_1_0_0_1_n_n none (pooled h3 x2) x15)
    (broadcastInDim S256x128 ![0, 1] bcast_S1x128_S256x128_0_1 (broadcastInDim S1x128 ![1] bcast_S128_S1x128_1 x16))

/-- max(hidden, 0) · x17 + x18. -/
def ktail (h3 : Tab S50000x256 .f32) (x2 : Tab S50000 .i32) (x15 : Tab S256x128 .f32) (x16 : Tab S128 .f32)
    (x17 : Tab S128x1 .f32) (x18 : Tab S1 .f32) : Tab S256x1 .f32 :=
  addf (F := Ideal)
    (Host.dotGeneral (F := Ideal) (φ₁ := .f32) (φ₂ := .f32) dot_S256x128_S128x1_S256x1_1_0_0_1_n_n none
      (maximumf (F := Ideal) (hidden h3 x2 x15 x16) (broadcastInDim S256x128 ![] bcast_S_S256x128 (constant (F := Ideal) S_ .f32 0x00000000#32)))
      x17)
    (broadcastInDim S256x1 ![0, 1] bcast_S1x1_S256x1_0_1 (broadcastInDim S1x1 ![1] bcast_S1_S1x1_1 x18))

/-! ### The three stretches, one at a time -/

set_option maxHeartbeats 2000000 in
/-- The first stretch leaves the dense layer's sum (before the clamp) in its last buffer. -/
theorem after9 (V : Valuation τ sig (Elt Ideal)) :
    (StableHlo.after (hostOps9 (F := Ideal)) V (Proc.devRef .tc main_v139) : Tab S256x128 .f32)
      = hidden (V (Proc.devRef .tc main_v122)) (V (Proc.devRef .tc main_arg2)) (V (Proc.devRef .tc main_arg15))
          (V (Proc.devRef .tc main_arg16)) := by
  delta hostOps9
  after_results_simp
  rfl

/-- The second stretch clamps that buffer at zero. -/
theorem after9_1 (V : Valuation τ sig (Elt Ideal)) :
    (StableHlo.after (hostOps9_1 (F := Ideal)) V (Proc.devRef .tc main_v140) : Tab S256x128 .f32)
      = maximumf (F := Ideal) (V (Proc.devRef .tc main_v139) : Tab S256x128 .f32)
          (broadcastInDim S256x128 ![] bcast_S_S256x128 (constant (F := Ideal) S_ .f32 0x00000000#32)) := by
  delta hostOps9_1
  after_results
  rfl

/-- The third stretch is the final dense layer with its bias. -/
theorem after9_2 (V : Valuation τ sig (Elt Ideal)) :
    (StableHlo.after (hostOps9_2 (F := Ideal)) V (Proc.devRef .tc main_v144) : Tab S256x1 .f32)
      = addf (F := Ideal)
          (Host.dotGeneral (F := Ideal) (φ₁ := .f32) (φ₂ := .f32) dot_S256x128_S128x1_S256x1_1_0_0_1_n_n none (V (Proc.devRef .tc main_v140))
            (V (Proc.devRef .tc main_arg17)))
          (broadcastInDim S256x1 ![0, 1] bcast_S1x1_S256x1_0_1
            (broadcastInDim S1x1 ![1] bcast_S1_S1x1_1 (V (Proc.devRef .tc main_arg18)))) := by
  delta hostOps9_2
  after_results

/-! ### What a stretch does not write it leaves alone -/

theorem keep9 (V : Valuation τ sig (Elt Ideal)) (r : Ref sig .tc) (h : r ∉ hostOps9_W) :
    StableHlo.after (hostOps9 (F := Ideal)) V (Proc.devRef .tc r) = V (Proc.devRef .tc r) :=
  StableHlo.after_of_writes_sub hostOps9 V hostOps9_writes h

theorem keep9_1 (V : Valuation τ sig (Elt Ideal)) (r : Ref sig .tc) (h : r ∉ hostOps9_1_W) :
    StableHlo.after (hostOps9_1 (F := Ideal)) V (Proc.devRef .tc r) = V (Proc.devRef .tc r) :=
  StableHlo.after_of_writes_sub hostOps9_1 V hostOps9_1_writes h

/-- The three stretches in a row leave the tail of the starting buffers in the result buffer. -/
theorem after_tail (V : Valuation τ sig (Elt Ideal)) :
    (StableHlo.after (hostOps9_2 (F := Ideal)) (StableHlo.after (hostOps9_1 (F := Ideal)) (StableHlo.after (hostOps9 (F := Ideal)) V))
        (Proc.devRef .tc main_v144) : Tab S256x1 .f32)
      = ktail (V (Proc.devRef .tc main_v122)) (V (Proc.devRef .tc main_arg2)) (V (Proc.devRef .tc main_arg15))
          (V (Proc.devRef .tc main_arg16)) (V (Proc.devRef .tc main_arg17)) (V (Proc.devRef .tc main_arg18)) := by
  rw [after9_2, after9_1, after9,
    keep9_1 _ main_arg17 (by decide), keep9 _ main_arg17 (by decide),
    keep9_1 _ main_arg18 (by decide), keep9 _ main_arg18 (by decide)]
  rfl

end Cert.KTail

end
-- ==== Proof.RTailDef.lean ====
/-
  The reference program's tail after the third layer, as one function of the third layer's output and the arguments it
  uses: per-graph counts and sums by scatter-add, the pooled table  sums / max(counts, 1) + sums,  a dense layer with
  bias, the clamp at zero, and the final dense layer with bias.
-/
import proofs.«142371_j48498770706497_2_alg».proof.Proof.Gen.ReferenceIdeal
import Idealize.ShloMosaic.PureOps.Ideal

noncomputable section

namespace Cert.RTail

open Idealize.ShloMosaic
open Cert.ReferenceIdeal Cert.ReferenceIdeal.Gen

/-- Contents of a buffer of the given shape and element type, at the ideal numbers. -/
abbrev Tab (s : Shape) (e : EltTy) : Type := (⟨s, e⟩ : BufTy).Contents (Elt Ideal)

/-- How many nodes each graph has: one added at every node's graph index, from zero. -/
def counts (x2 : Tab S50000 .i32) : Tab S256 .f32 :=
  Host.scatterAdd (F := Ideal) scatter_S256_S50000x1_S50000_n_0_0_1
    (broadcastInDim S256 ![] bcast_S_S256 (constant (F := Ideal) S_ .f32 0x00000000#32))
    (broadcastInDim S50000x1 ![0] bcast_S50000_S50000x1_0 x2)
    (broadcastInDim S50000 ![] bcast_S_S50000 (constant (F := Ideal) S_ .f32 0x3F800000#32))

/-- Each graph's sum of its nodes' rows, from zero. -/
def sums (h3 : Tab S50000x256 .f32) (x2 : Tab S50000 .i32) : Tab S256x256 .f32 :=
  Host.scatterAdd (F := Ideal) scatter_S256x256_S50000x1_S50000x256_1_0_0_1
    (broadcastInDim S256x256 ![] bcast_S_S256x256 (constant (F := Ideal) S_ .f32 0x00000000#32))
    (broadcastInDim S50000x1 ![0] bcast_S50000_S50000x1_0 x2)
    h3

/-- sums / max(counts, 1) + sums. -/
def pooled (h3 : Tab S50000x256 .f32) (x2 : Tab S50000 .i32) : Tab S256x256 .f32 :=
  addf (F := Ideal)
    (Host.divf (F := Ideal) (sums h3 x2)
      (broadcastInDim S256x256 ![0, 1] bcast_S256x1_S256x256_0_1
        (broadcastInDim S256x1 ![0] bcast_S256_S256x1_0
          (maximumf (F := Ideal) (counts x2) (broadcastInDim S256 ![] bcast_S_S256 (constant (F := Ideal) S_ .f32 0x3F800000#32))))))
    (sums h3 x2)

/-- pooled · x15 + x16, before the clamp. -/
def hidden (h3 : Tab S50000x256 .f32) (x2 : Tab S50000 .i32) (x15 : Tab S256x128 .f32) (x16 : Tab S128 .f32) :
    Tab S256x128 .f32 :=
  addf (F := Ideal) (Host.dotGeneral (F := Ideal) (φ₁ := .f32) (φ₂ := .f32) dot_S256x256_S256x128_S256x128_1_0_0_1_n_n none (pooled h3 x2) x15)
    (broadcastInDim S256x128 ![0, 1] bcast_S1x128_S256x128_0_1 (broadcastInDim S1x128 ![1] bcast_S128_S1x128_1 x16))

/-- max(hidden, 0) · x17 + x18. -/
def rtail (h3 : Tab S50000x256 .f32) (x2 : Tab S50000 .i32) (x15 : Tab S256x128 .f32) (x16 : Tab S128 .f32)
    (x17 : Tab S128x1 .f32) (x18 : Tab S1 .f32) : Tab S256x1 .f32 :=
  addf (F := Ideal)
    (Host.dotGeneral (F := Ideal) (φ₁ := .f32) (φ₂ := .f32) dot_S256x128_S128x1_S256x1_1_0_0_1_n_n none
      (maximumf (F := Ideal) (hidden h3 x2 x15 x16) (broadcastInDim S256x128 ![] bcast_S_S256x128 (constant (F := Ideal) S_ .f32 0x00000000#32)))
      x17)
    (broadcastInDim S256x1 ![0, 1] bcast_S1x1_S256x1_0_1 (broadcastInDim S1x1 ![1] bcast_S1_S1x1_1 x18))

end Cert.RTail

end
-- ==== Proof.RTail.lean ====
/-
  The reference program's last stages compose to the tail function applied to its third layer's output.
-/
import proofs.«142371_j48498770706497_2_alg».proof.Proof.RTailDef
import proofs.«142371_j48498770706497_2_alg».proof.Proof.RefRead

set_option maxRecDepth 16384

noncomputable section

namespace Cert.RTail

open Idealize.ShloMosaic
open Cert.ReferenceIdeal Cert.ReferenceIdeal.Gen Cert.ReferenceIdeal.Read

/-- The reference's result is the tail of its third layer's output: each stage is one operation over earlier stages, and
    the stages after the third layer are the tail's operations in order. -/
theorem val223_eq_rtail (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x256, .f32⟩ : BufTy).Contents (Elt Ideal)) (x12 x13 x14 : (⟨S256, .f32⟩ : BufTy).Contents (Elt Ideal)) (x15 : (⟨S256x128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal)) :
    val_main_v223 (F := Ideal) x0 x1 x2 x3 x4 x5 x6 x7 x8 x9 x10 x11 x12 x13 x14 x15 x16 x17 x18
      = rtail (val_main_v201 (F := Ideal) x0 x1 x3 x4 x5 x6 x7 x8 x9 x10 x11 x12 x13 x14) x2 x15 x16 x17 x18 := by
  unfold val_main_v223 val_main_v220 val_main_v219 val_main_v218 val_main_v215 val_main_v214 val_main_v213 val_main_v208
  generalize val_main_v201 (F := Ideal) x0 x1 x3 x4 x5 x6 x7 x8 x9 x10 x11 x12 x13 x14 = h3
  rfl

end Cert.RTail

end
-- ==== Proof.TailEq.lean ====
/-
  The two programs' tails are the same function: the same operations over the same literal shapes, whose dimension
  records differ only in their proof fields.
-/
import proofs.«142371_j48498770706497_2_alg».proof.Proof.KTail
import proofs.«142371_j48498770706497_2_alg».proof.Proof.RTailDef

set_option maxRecDepth 16384

noncomputable section

namespace Cert.TailEq

open Idealize.ShloMosaic

theorem ktail_eq_rtail (h3 : Cert.KTail.Tab Cert.KernelIdeal.S50000x256 .f32) (x2 : Cert.KTail.Tab Cert.KernelIdeal.S50000 .i32)
    (x15 : Cert.KTail.Tab Cert.KernelIdeal.S256x128 .f32) (x16 : Cert.KTail.Tab Cert.KernelIdeal.S128 .f32)
    (x17 : Cert.KTail.Tab Cert.KernelIdeal.S128x1 .f32) (x18 : Cert.KTail.Tab Cert.KernelIdeal.S1 .f32) :
    Cert.KTail.ktail h3 x2 x15 x16 x17 x18 = Cert.RTail.rtail h3 x2 x15 x16 x17 x18 := rfl

end Cert.TailEq

end
-- ==== Proof.RefDinv.lean ====
/-
  The reference's degree scale, read as the specification's function.

  The reference adds a one at the target word of every edge into a table of zeros over the nodes (an edge whose
  target word is not a node index adds nothing), adds one for the self loop, and takes the inverse square root.
  Read at a node n this is: the number of edges landing on n, plus one, under the inverse square root, which is
  the specification's `dinv`.
-/
import proofs.«142371_j48498770706497_2_alg».proof.Proof.RefRead
import proofs.«142371_j48498770706497_2_alg».proof.Proof.Spec
import proofs.«142371_j48498770706497_2_alg».proof.Proof.EdgeIdx

noncomputable section

namespace Cert.RefValue

open Cert.ReferenceIdeal Cert.ReferenceIdeal.Gen Cert.ReferenceIdeal.Read Idealize.ShloMosaic Idealize.ShloMosaic.ValueIdx Idealize.ShloMosaic.StableHlo
open scoped BigOperators

/-- The edge table: two rows of 800000 words. -/
abbrev EdgeArr : Type := (⟨S2x800000, .i32⟩ : BufTy).Contents (Elt Ideal)

/-- Row 0 of the edge table: the source words. -/
abbrev rowV (x1 : EdgeArr) : IVec ⟨1, ![800000]⟩ 32 := val_main_v1 (F := Ideal) x1
/-- Row 1 of the edge table: the target words. -/
abbrev colV (x1 : EdgeArr) : IVec ⟨1, ![800000]⟩ 32 := val_main_v3 (F := Ideal) x1
/-- The node an edge's features and source scale are read from. -/
abbrev rowc (x1 : EdgeArr) : Fin 800000 → Fin 50000 := Cert.EdgeIdx.gidx (rowV x1)
/-- The node an edge's target scale is read from. -/
abbrev colc (x1 : EdgeArr) : Fin 800000 → Fin 50000 := Cert.EdgeIdx.gidx (colV x1)
/-- The node an edge's message is added to, if any. -/
abbrev land (x1 : EdgeArr) : Fin 800000 → Option (Fin 50000) := Cert.EdgeIdx.landOf (colV x1)

/-- The node count as the reference carries it: the word of 5.0e4. -/
abbrev nF : EReal := Ideal.ofBits .f32 0x47435000#32
/-- The variance guard as the reference carries it: the word nearest 1e-5. -/
abbrev eps : EReal := Ideal.ofBits .f32 0x3727C5AC#32

/-- The source word of edge entry e is row 0 of the edge table at e. -/
theorem rowV_apply (x1 : EdgeArr) (e : Fin 800000) : val_main_v1 (F := Ideal) x1 (ix1 e) = x1 (ix2 0 e) := by
  rw [val_main_v1_apply, val_main_v0_apply]
  exact congrArg x1 (funext fun a => Fin.ext (by
    match a with
    | ⟨0, _⟩ => rfl
    | ⟨1, _⟩ => exact Nat.mod_eq_of_lt e.isLt))

/-- The target word of edge entry e is row 1 of the edge table at e. -/
theorem colV_apply (x1 : EdgeArr) (e : Fin 800000) : val_main_v3 (F := Ideal) x1 (ix1 e) = x1 (ix2 1 e) := by
  rw [val_main_v3_apply, val_main_v2_apply]
  exact congrArg x1 (funext fun a => Fin.ext (by
    match a with
    | ⟨0, _⟩ => rfl
    | ⟨1, _⟩ => exact Nat.mod_eq_of_lt e.isLt))

/-- The word of 1.0 is the real number one. -/
theorem one_word : Ideal.ofBits .f32 0x3F800000#32 = 1 := by
  simp [Ideal.ofBits, Ideal.ieee, -EReal.coe_mul]; norm_num

/-- The first scatter's index column holds the target words. -/
theorem rawCol6 (x1 : EdgeArr) : Cert.EdgeIdx.IsRawCol (colV x1) (val_main_v6 (F := Ideal) x1) :=
  Cert.EdgeIdx.isRawCol_printed bcast_S800000_S800000x1_0 (colV x1)

/-- The degree: ones added at the landing nodes of the edges, plus one. -/
theorem deg_apply (x1 : EdgeArr) (n : Fin 50000) :
    val_main_v9 (F := Ideal) x1 (ix1 n) = Cert.Spec.deg (land x1) n := by
  rw [val_main_v9_apply, val_main_v8_apply, val_main_cst_1_apply]
  unfold val_main_v7
  rw [Cert.EdgeIdx.scatter1_apply' scatter_S50000_S800000x1_S800000_n_0_0_1 (val_main_v5 (F := Ideal)) (colV x1) _ (rawCol6 x1)
    (val_main_v4 (F := Ideal)) n, val_main_v5_apply, val_main_cst_0_apply]
  simp only [val_main_v4_apply, val_main_cst_apply, Ideal.addf_def, Ideal.ofBits_def, Ideal.ofBits_zero_f32, zero_add, one_word]
  rfl

/-- The degree scale of the reference is the inverse square root of the degree. -/
theorem dinv_apply (x1 : EdgeArr) (n : Fin 50000) :
    val_main_v10 (F := Ideal) x1 (ix1 n) = Cert.Spec.dinv (land x1) n := by
  rw [val_main_v10_apply, deg_apply, Ideal.hostUnary_rsqrt_def]
  rfl

end Cert.RefValue

end
-- ==== Proof.RefLayer0.lean ====
/-
  The reference's first layer, read as the specification's layer.

  Stage by stage, at an index: the dense product of the features with the first weight table; the degree scale
  gathered at each edge's source and target node and their product, the edge's weight; the product's row gathered at
  the source node and scaled by the weight, the edge's message; the messages added at their landing nodes; the self
  term and the bias; the column mean and the mean of squared deviations over the nodes; the normalisation, scale,
  shift and clamp at zero. Each stage is the specification's function of the same name, so the layer's output at
  (n, q) is `layerR` there.
-/
import proofs.«142371_j48498770706497_2_alg».proof.Proof.RefDinv

noncomputable section

namespace Cert.RefValue

open Cert.ReferenceIdeal Cert.ReferenceIdeal.Gen Cert.ReferenceIdeal.Read Idealize.ShloMosaic Idealize.ShloMosaic.ValueIdx Idealize.ShloMosaic.StableHlo
open scoped BigOperators

/-! ## The index columns the gathers and the scatter read through -/

/-- The first gather's start column holds the wrapped source words. -/
theorem wrapCol17 (x1 : EdgeArr) : Cert.EdgeIdx.IsWrapCol (rowV x1) (val_main_v17 (F := Ideal) x1) :=
  Cert.EdgeIdx.isWrapCol_printed bcast_S_S800000 bcast_S800000_S800000x1_0 (rowV x1)

/-- The second gather's start column holds the wrapped target words. -/
theorem wrapCol24 (x1 : EdgeArr) : Cert.EdgeIdx.IsWrapCol (colV x1) (val_main_v24 (F := Ideal) x1) :=
  Cert.EdgeIdx.isWrapCol_printed bcast_S_S800000 bcast_S800000_S800000x1_0 (colV x1)

/-- The row gather's start column holds the wrapped source words. -/
theorem wrapCol32 (x1 : EdgeArr) : Cert.EdgeIdx.IsWrapCol (rowV x1) (val_main_v32 (F := Ideal) x1) :=
  Cert.EdgeIdx.isWrapCol_printed bcast_S_S800000 bcast_S800000_S800000x1_0 (rowV x1)

/-- The message scatter's index column holds the target words. -/
theorem rawCol38 (x1 : EdgeArr) : Cert.EdgeIdx.IsRawCol (colV x1) (val_main_v38 (F := Ideal) x1) :=
  Cert.EdgeIdx.isRawCol_printed bcast_S800000_S800000x1_0 (colV x1)

section Layer0

variable (x0 : (⟨S50000x128, .f32⟩ : BufTy).Contents (Elt Ideal)) (x1 : EdgeArr)
  (x3 : (⟨S128x256, .f32⟩ : BufTy).Contents (Elt Ideal)) (x4 x5 x6 : (⟨S256, .f32⟩ : BufTy).Contents (Elt Ideal))

/-- The features times the first weight table. -/
abbrev xw0 : Fin 50000 → Fin 256 → EReal :=
  Cert.Spec.mm (fun p k => x0 (ix2 p k)) (fun k q => x3 (ix2 k q))

/-- The first layer before normalisation: aggregated messages, self term, bias. -/
abbrev tot0 : Fin 50000 → Fin 256 → EReal :=
  Cert.Spec.totR (rowc x1) (colc x1) (land x1) (xw0 x0 x3) (fun q => x4 (ix1 q))

/-- The dense product at (p, q). -/
theorem xw_apply (p : Fin 50000) (q : Fin 256) :
    val_main_v11 (F := Ideal) x0 x3 (ix2 p q) = xw0 x0 x3 p q := by
  rw [val_main_v11_apply]
  show _ = ∑ k : Fin 128, x0 (ix2 p k) * x3 (ix2 k q)
  refine Finset.sum_congr rfl fun k _ => ?_
  have el : lidx_main_v11 (ix2 p q) k = ix2 p k := funext fun a => by match a with | ⟨0, _⟩ => rfl | ⟨1, _⟩ => rfl
  have er : ridx_main_v11 (ix2 p q) k = ix2 k q := funext fun a => by match a with | ⟨0, _⟩ => rfl | ⟨1, _⟩ => rfl
  rw [el, er]

/-- The degree scale read at an edge's source node. -/
theorem dinvRow_apply (e : Fin 800000) :
    val_main_v18 (F := Ideal) x1 (ix1 e) = Cert.Spec.dinv (land x1) (rowc x1 e) := by
  unfold val_main_v18
  rw [Cert.EdgeIdx.gather1_apply' gather_S50000_S800000x1_S800000_n_0_n_n_0_1_1 rfl rfl rfl rfl
    (val_main_v10 (F := Ideal) x1) (rowV x1) _ (wrapCol17 x1) e, dinv_apply]

/-- The degree scale read at an edge's target node. -/
theorem dinvCol_apply (e : Fin 800000) :
    val_main_v25 (F := Ideal) x1 (ix1 e) = Cert.Spec.dinv (land x1) (colc x1 e) := by
  unfold val_main_v25
  rw [Cert.EdgeIdx.gather1_apply' gather_S50000_S800000x1_S800000_n_0_n_n_0_1_1 rfl rfl rfl rfl
    (val_main_v10 (F := Ideal) x1) (colV x1) _ (wrapCol24 x1) e, dinv_apply]

/-- An edge's weight: the product of the two scales. -/
theorem norm_apply (e : Fin 800000) :
    val_main_v26 (F := Ideal) x1 (ix1 e)
      = Cert.Spec.dinv (land x1) (rowc x1 e) * Cert.Spec.dinv (land x1) (colc x1 e) := by
  rw [val_main_v26_apply, dinvRow_apply, dinvCol_apply]; rfl

/-- The product's row read at an edge's source node. -/
theorem feat_apply (e : Fin 800000) (q : Fin 256) :
    val_main_v33 (F := Ideal) x0 x1 x3 (ix2 e q) = xw0 x0 x3 (rowc x1 e) q := by
  unfold val_main_v33
  rw [Cert.EdgeIdx.gather2_apply' gather_S50000x256_S800000x1_S800000x256_1_0_n_n_0_1_1256 rfl rfl rfl rfl rfl
    (val_main_v11 (F := Ideal) x0 x3) (rowV x1) _ (wrapCol32 x1) e q, xw_apply]

/-- An edge's message: the source row times the edge's weight. -/
theorem msg_apply (e : Fin 800000) (q : Fin 256) :
    val_main_v36 (F := Ideal) x0 x1 x3 (ix2 e q)
      = xw0 x0 x3 (rowc x1 e) q * (Cert.Spec.dinv (land x1) (rowc x1 e) * Cert.Spec.dinv (land x1) (colc x1 e)) := by
  rw [val_main_v36_apply, feat_apply, val_main_v35_apply, val_main_v34_apply]
  have hi : idx_main_v34 (idx_main_v35 (ix2 e q)) = ix1 e := funext fun a => by match a with | ⟨0, _⟩ => rfl
  rw [hi, norm_apply]; rfl

/-- The messages summed at their landing nodes. -/
theorem agg_apply (n : Fin 50000) (q : Fin 256) :
    val_main_v39 (F := Ideal) x0 x1 x3 (ix2 n q)
      = Cert.Spec.aggR (rowc x1) (colc x1) (land x1) (xw0 x0 x3) n q := by
  unfold val_main_v39
  rw [Cert.EdgeIdx.scatter2_apply' scatter_S50000x256_S800000x1_S800000x256_1_0_0_1 (val_main_v37 (F := Ideal)) (colV x1) _
    (rawCol38 x1) (val_main_v36 (F := Ideal) x0 x1 x3) n q, val_main_v37_apply, val_main_cst_7_apply,
    Ideal.ofBits_def, Ideal.ofBits_zero_f32, zero_add]
  exact Finset.sum_congr rfl fun e _ => msg_apply x0 x1 x3 e q

/-- Aggregated messages plus the self term plus the bias. -/
theorem tot_apply (n : Fin 50000) (q : Fin 256) :
    val_main_v47 (F := Ideal) x0 x1 x3 x4 (ix2 n q) = tot0 x0 x1 x3 x4 n q := by
  rw [val_main_v47_apply, val_main_v44_apply, agg_apply, val_main_v43_apply, xw_apply, val_main_v42_apply,
    val_main_v41_apply, val_main_v46_apply, val_main_v45_apply]
  have h1 : idx_main_v41 (idx_main_v42 (ix2 n q)) = ix1 n := funext fun a => by match a with | ⟨0, _⟩ => rfl
  have h2 : idx_main_v45 (idx_main_v46 (ix2 n q)) = ix1 q := funext fun a => by match a with | ⟨0, _⟩ => rfl
  rw [h1, h2, val_main_v40_apply, dinv_apply]
  rfl

/-- The column mean over the nodes. -/
theorem mean_apply (q : Fin 256) :
    val_main_v50 (F := Ideal) x0 x1 x3 x4 (ix1 q) = Cert.Spec.meanOf nF (tot0 x0 x1 x3 x4) q := by
  rw [val_main_v50_apply, val_main_v48_apply, val_main_cst_8_apply, val_main_v49_apply, val_main_cst_9_apply]
  have hs : ∑ k : Fin 50000, val_main_v47 (F := Ideal) x0 x1 x3 x4 (idx_main_v48 (ix1 q) k)
      = ∑ n : Fin 50000, tot0 x0 x1 x3 x4 n q :=
    Finset.sum_congr rfl fun k _ => by
      have hi : idx_main_v48 (ix1 q) k = ix2 k q := funext fun a => by match a with | ⟨0, _⟩ => rfl | ⟨1, _⟩ => rfl
      rw [hi, tot_apply]
  rw [hs]
  simp only [Ideal.ofBits_def, Ideal.ofBits_zero_f32, zero_add, Ideal.hostDivf_def]
  rfl

/-- A deviation from the column mean. -/
theorem cent_apply (n : Fin 50000) (q : Fin 256) :
    val_main_v53 (F := Ideal) x0 x1 x3 x4 (ix2 n q)
      = tot0 x0 x1 x3 x4 n q - Cert.Spec.meanOf nF (tot0 x0 x1 x3 x4) q := by
  rw [val_main_v53_apply, tot_apply, val_main_v52_apply, val_main_v51_apply]
  have hi : idx_main_v51 (idx_main_v52 (ix2 n q)) = ix1 q := funext fun a => by match a with | ⟨0, _⟩ => rfl
  rw [hi, mean_apply]; rfl

/-- The column variance: the mean of the squared deviations. -/
theorem var_apply (q : Fin 256) :
    val_main_v57 (F := Ideal) x0 x1 x3 x4 (ix1 q) = Cert.Spec.varR nF (tot0 x0 x1 x3 x4) q := by
  rw [val_main_v57_apply, val_main_v55_apply, val_main_cst_10_apply, val_main_v56_apply, val_main_cst_11_apply]
  have hs : ∑ k : Fin 50000, val_main_v54 (F := Ideal) x0 x1 x3 x4 (idx_main_v55 (ix1 q) k)
      = ∑ n : Fin 50000, (tot0 x0 x1 x3 x4 n q - Cert.Spec.meanOf nF (tot0 x0 x1 x3 x4) q)
          * (tot0 x0 x1 x3 x4 n q - Cert.Spec.meanOf nF (tot0 x0 x1 x3 x4) q) :=
    Finset.sum_congr rfl fun k _ => by
      have hi : idx_main_v55 (ix1 q) k = ix2 k q := funext fun a => by match a with | ⟨0, _⟩ => rfl | ⟨1, _⟩ => rfl
      rw [hi, val_main_v54_apply, cent_apply]; rfl
  rw [hs]
  simp only [Ideal.ofBits_def, Ideal.ofBits_zero_f32, zero_add, Ideal.hostDivf_def]
  rfl

/-- The first layer of the reference is the specification's layer. -/
theorem layer0_apply (n : Fin 50000) (q : Fin 256) :
    val_main_v73 (F := Ideal) x0 x1 x3 x4 x5 x6 (ix2 n q)
      = Cert.Spec.layerR (rowc x1) (colc x1) (land x1) nF eps (fun p k => x0 (ix2 p k)) (fun k q => x3 (ix2 k q))
          (fun q => x4 (ix1 q)) (fun q => x5 (ix1 q)) (fun q => x6 (ix1 q)) n q := by
  rw [val_main_v73_apply, val_main_v72_apply, val_main_v69_apply, val_main_v63_apply, val_main_v62_apply,
    val_main_v61_apply, val_main_v60_apply, tot_apply, val_main_v59_apply, val_main_v58_apply, val_main_v68_apply,
    val_main_v67_apply, val_main_v66_apply, val_main_v65_apply, val_main_v64_apply, val_main_cst_12_apply,
    val_main_v71_apply, val_main_v70_apply, val_main_call0_v0_apply, val_main_call0_cst_apply]
  have h1 : idx_main_v61 (idx_main_v62 (ix2 n q)) = ix1 q := funext fun a => by match a with | ⟨0, _⟩ => rfl
  have h2 : idx_main_v58 (idx_main_v59 (ix2 n q)) = ix1 q := funext fun a => by match a with | ⟨0, _⟩ => rfl
  have h3 : idx_main_v67 (idx_main_v68 (ix2 n q)) = ix1 q := funext fun a => by match a with | ⟨0, _⟩ => rfl
  have h4 : idx_main_v70 (idx_main_v71 (ix2 n q)) = ix1 q := funext fun a => by match a with | ⟨0, _⟩ => rfl
  rw [h1, h2, h3, h4, mean_apply, var_apply]
  simp only [Ideal.ofBits_def, Ideal.ofBits_zero_f32, Ideal.maximumf_def, Ideal.addf_def, Ideal.mulf_def, Ideal.subf_def,
    Ideal.hostUnary_rsqrt_def]
  rfl

/-- The same as an equation between tables: what the second layer takes as its input. -/
theorem layer0_eq :
    (fun (n : Fin 50000) (q : Fin 256) => val_main_v73 (F := Ideal) x0 x1 x3 x4 x5 x6 (ix2 n q))
      = Cert.Spec.layerR (rowc x1) (colc x1) (land x1) nF eps (fun p k => x0 (ix2 p k)) (fun k q => x3 (ix2 k q))
          (fun q => x4 (ix1 q)) (fun q => x5 (ix1 q)) (fun q => x6 (ix1 q)) :=
  funext fun n => funext fun q => layer0_apply x0 x1 x3 x4 x5 x6 n q

end Layer0

end Cert.RefValue

end
-- ==== Proof.RefLayer1.lean ====
/-
  The reference's second layer, read as the specification's layer function of the first layer's output.

  With h the first layer's output (a 50000 × 256 table), W, b, g, be the second layer's weight, bias, scale and shift,
  the program forms  xw = h · W,  gathers xw at each edge's source row and the degree scale at both ends, multiplies,
  adds the messages into their landing rows (a sum over the edges landing on a row, started from zero), adds the self
  loop term  xw · dinv²  and the bias; then takes the column mean, the mean of squared deviations, normalises, scales,
  shifts, clamps at zero, and adds the result to h.  Each of these is one function of the specification
  (mm, aggR, totR, meanOf, varR, bnrelu, layerR), met here stage by stage at an index.

  The gathers and the scatter read the edge index arrays: what they do is taken here as four facts about those arrays
  (Reads1, Reads2, Lands2), together with the degree scale's value at a node.
-/
import proofs.«142371_j48498770706497_2_alg».proof.Proof.RefRead
import proofs.«142371_j48498770706497_2_alg».proof.Proof.Spec
import proofs.«142371_j48498770706497_2_alg».proof.Proof.RefDinv
import Idealize.ShloMosaic.Lib.ValueIdx

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Gathering a node vector through the index array idx reads, for edge e, the vector at node r e. -/
def Reads1 (idx : (⟨S800000x1, .i32⟩ : BufTy).Contents (Elt Ideal)) (r : Fin 800000 → Fin 50000) : Prop :=
  ∀ (x : (⟨S50000, .f32⟩ : BufTy).Contents (Elt Ideal)) (e : Fin 800000),
    Host.gather gather_S50000_S800000x1_S800000_n_0_n_n_0_1_1 x idx (ix1 e) = x (ix1 (r e))

/-- Gathering the rows of a node table through the index array idx reads, for edge e, row r e. -/
def Reads2 (idx : (⟨S800000x1, .i32⟩ : BufTy).Contents (Elt Ideal)) (r : Fin 800000 → Fin 50000) : Prop :=
  ∀ (x : (⟨S50000x256, .f32⟩ : BufTy).Contents (Elt Ideal)) (e : Fin 800000) (q : Fin 256),
    Host.gather gather_S50000x256_S800000x1_S800000x256_1_0_n_n_0_1_1256 x idx (ix2 e q) = x (ix2 (r e) q)

/-- Adding edge rows into a node table through the index array idx: row n receives the rows of the edges that land
    on n (l e = some n); an edge that lands nowhere is dropped. -/
def Lands2 (idx : (⟨S800000x1, .i32⟩ : BufTy).Contents (Elt Ideal)) (l : Fin 800000 → Option (Fin 50000)) : Prop :=
  ∀ (x : (⟨S50000x256, .f32⟩ : BufTy).Contents (Elt Ideal)) (u : (⟨S800000x256, .f32⟩ : BufTy).Contents (Elt Ideal))
    (n : Fin 50000) (q : Fin 256),
    Host.scatterAdd (F := Ideal) (φ := .f32) scatter_S50000x256_S800000x1_S800000x256_1_0_0_1 x idx u (ix2 n q)
      = x (ix2 n q) + ∑ e ∈ Finset.univ.filter (fun e : Fin 800000 => l e = some n), u (ix2 e q)

section Layer1

variable (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal))
variable (rowc colc : Fin 800000 → Fin 50000) (land : Fin 800000 → Option (Fin 50000))

/-- The dense product  xw = h · W  at (p, q): the sum over k of h(p, k) · W(k, q). -/
theorem xw1 (p : Fin 50000) (q : Fin 256) :
    (val_main_v74 (F := Ideal) x0 x1 x3 x4 x5 x6 x7 (ix2 p q) : EReal) = (Cert.Spec.mm (fun (p : Fin 50000) (k : Fin 256) => (val_main_v73 (F := Ideal) x0 x1 x3 x4 x5 x6 (ix2 p k) : EReal)) (fun (k : Fin 256) (q : Fin 256) => (x7 (ix2 k q) : EReal))) p q := by
  rw [val_main_v74_apply]
  unfold Cert.Spec.mm
  refine Finset.sum_congr rfl fun k _ => ?_
  have el : lidx_main_v74 (ix2 p q) k = ix2 p k := funext fun a => Fin.ext (by match a with | ⟨0, _⟩ => rfl | ⟨1, _⟩ => rfl)
  have er : ridx_main_v74 (ix2 p q) k = ix2 k q := funext fun a => Fin.ext (by match a with | ⟨0, _⟩ => rfl | ⟨1, _⟩ => rfl)
  rw [el, er]

/-- The edge weight: the degree scale at the edge's source times the degree scale at its target. -/
theorem norm1 (hr : Reads1 (val_main_v80 (F := Ideal) x1) rowc) (hc : Reads1 (val_main_v87 (F := Ideal) x1) colc) (e : Fin 800000) :
    (val_main_v89 (F := Ideal) x1 (ix1 e) : EReal) = val_main_v10 (F := Ideal) x1 (ix1 (rowc e)) * val_main_v10 (F := Ideal) x1 (ix1 (colc e)) := by
  rw [val_main_v89_apply]
  unfold val_main_v81 val_main_v88
  rw [hr, hc]
  simp only [Ideal.mulf_def]

/-- The message of edge e in column q: xw at the source row, times the edge weight. -/
theorem msg1 (hr2 : Reads2 (val_main_v95 (F := Ideal) x1) rowc) (e : Fin 800000) (q : Fin 256) :
    (val_main_v99 (F := Ideal) x0 x1 x3 x4 x5 x6 x7 (ix2 e q) : EReal) = val_main_v74 (F := Ideal) x0 x1 x3 x4 x5 x6 x7 (ix2 (rowc e) q) * val_main_v89 (F := Ideal) x1 (ix1 e) := by
  rw [val_main_v99_apply, val_main_v98_apply, val_main_v97_apply]
  unfold val_main_v96
  rw [hr2]
  have e1 : idx_main_v97 (idx_main_v98 (ix2 e q)) = ix1 e := funext fun a => Fin.ext (by match a with | ⟨0, _⟩ => rfl)
  rw [e1]
  simp only [Ideal.mulf_def]

/-- The aggregation: row n sums the messages of the edges landing on n, starting from zero. -/
theorem agg1 (hr : Reads1 (val_main_v80 (F := Ideal) x1) rowc) (hc : Reads1 (val_main_v87 (F := Ideal) x1) colc) (hr2 : Reads2 (val_main_v95 (F := Ideal) x1) rowc) (hs : Lands2 (val_main_v101 (F := Ideal) x1) land) (n : Fin 50000) (q : Fin 256) :
    (val_main_v102 (F := Ideal) x0 x1 x3 x4 x5 x6 x7 (ix2 n q) : EReal)
      = ∑ e ∈ Finset.univ.filter (fun e : Fin 800000 => land e = some n),
          val_main_v74 (F := Ideal) x0 x1 x3 x4 x5 x6 x7 (ix2 (rowc e) q) * (val_main_v10 (F := Ideal) x1 (ix1 (rowc e)) * val_main_v10 (F := Ideal) x1 (ix1 (colc e))) := by
  unfold val_main_v102
  rw [hs, val_main_v100_apply, val_main_cst_19_apply, Ideal.ofBits_def, Ideal.ofBits_zero_f32, zero_add]
  refine Finset.sum_congr rfl fun e _ => ?_
  rw [msg1 x0 x1 x3 x4 x5 x6 x7 rowc hr2, norm1 x1 rowc colc hr hc]

/-- Aggregation, self loop term and bias: the specification's totR of xw. -/
theorem tot1 (hr : Reads1 (val_main_v80 (F := Ideal) x1) rowc) (hc : Reads1 (val_main_v87 (F := Ideal) x1) colc) (hr2 : Reads2 (val_main_v95 (F := Ideal) x1) rowc) (hs : Lands2 (val_main_v101 (F := Ideal) x1) land) (hd : ∀ n : Fin 50000, (val_main_v10 (F := Ideal) x1 (ix1 n) : EReal) = Cert.Spec.dinv land n) (n : Fin 50000) (q : Fin 256) :
    (val_main_v110 (F := Ideal) x0 x1 x3 x4 x5 x6 x7 x8 (ix2 n q) : EReal) = (Cert.Spec.totR rowc colc land (Cert.Spec.mm (fun (p : Fin 50000) (k : Fin 256) => (val_main_v73 (F := Ideal) x0 x1 x3 x4 x5 x6 (ix2 p k) : EReal)) (fun (k : Fin 256) (q : Fin 256) => (x7 (ix2 k q) : EReal))) (fun (q : Fin 256) => (x8 (ix1 q) : EReal))) n q := by
  rw [val_main_v110_apply, val_main_v107_apply, val_main_v106_apply, val_main_v105_apply, val_main_v104_apply, val_main_v103_apply, val_main_v109_apply,
    val_main_v108_apply, agg1 x0 x1 x3 x4 x5 x6 x7 rowc colc land hr hc hr2 hs]
  have e1 : idx_main_v104 (idx_main_v105 (ix2 n q)) = ix1 n := funext fun a => Fin.ext (by match a with | ⟨0, _⟩ => rfl)
  have e2 : idx_main_v108 (idx_main_v109 (ix2 n q)) = ix1 q := funext fun a => Fin.ext (by match a with | ⟨0, _⟩ => rfl)
  rw [e1, e2]
  simp only [xw1, hd, Ideal.addf_def, Ideal.mulf_def]
  rfl

/-- The column mean of the layer's pre-normalisation table. -/
theorem mean1 (q : Fin 256) :
    (val_main_v113 (F := Ideal) x0 x1 x3 x4 x5 x6 x7 x8 (ix1 q) : EReal) = Cert.Spec.meanOf nF (fun (n : Fin 50000) (q : Fin 256) => (val_main_v110 (F := Ideal) x0 x1 x3 x4 x5 x6 x7 x8 (ix2 n q) : EReal)) q := by
  rw [val_main_v113_apply, val_main_v111_apply, val_main_v112_apply, val_main_cst_20_apply, val_main_cst_21_apply]
  simp only [Ideal.hostDivf_def, Ideal.ofBits_def, Ideal.ofBits_zero_f32, zero_add]
  unfold Cert.Spec.meanOf
  refine congrArg (fun s => Ideal.div s nF) (Finset.sum_congr rfl fun k _ => ?_)
  show val_main_v110 (F := Ideal) x0 x1 x3 x4 x5 x6 x7 x8 (idx_main_v111 (ix1 q) k) = val_main_v110 (F := Ideal) x0 x1 x3 x4 x5 x6 x7 x8 (ix2 k q)
  exact congrArg _ (funext fun a => Fin.ext (by match a with | ⟨0, _⟩ => rfl | ⟨1, _⟩ => rfl))

/-- The column variance: the mean of the squared deviations from the column mean. -/
theorem var1 (q : Fin 256) :
    (val_main_v120 (F := Ideal) x0 x1 x3 x4 x5 x6 x7 x8 (ix1 q) : EReal) = Cert.Spec.varR nF (fun (n : Fin 50000) (q : Fin 256) => (val_main_v110 (F := Ideal) x0 x1 x3 x4 x5 x6 x7 x8 (ix2 n q) : EReal)) q := by
  rw [val_main_v120_apply, val_main_v118_apply, val_main_v119_apply, val_main_cst_22_apply, val_main_cst_23_apply]
  simp only [Ideal.hostDivf_def, Ideal.ofBits_def, Ideal.ofBits_zero_f32, zero_add]
  unfold Cert.Spec.varR
  refine congrArg (fun s => Ideal.div s nF) (Finset.sum_congr rfl fun k _ => ?_)
  rw [val_main_v117_apply, val_main_v116_apply, val_main_v115_apply, val_main_v114_apply]
  have e1 : idx_main_v118 (ix1 q) k = ix2 k q := funext fun a => Fin.ext (by match a with | ⟨0, _⟩ => rfl | ⟨1, _⟩ => rfl)
  have e2 : idx_main_v114 (idx_main_v115 (ix2 k q)) = ix1 q := funext fun a => Fin.ext (by match a with | ⟨0, _⟩ => rfl)
  rw [e1, e2, mean1]
  simp only [Ideal.mulf_def, Ideal.subf_def]

/-- Normalise by the column mean and variance, scale and shift. -/
theorem bn1 (n : Fin 50000) (q : Fin 256) :
    (val_main_v135 (F := Ideal) x0 x1 x3 x4 x5 x6 x7 x8 x9 x10 (ix2 n q) : EReal)
      = x9 (ix1 q) * (val_main_v110 (F := Ideal) x0 x1 x3 x4 x5 x6 x7 x8 (ix2 n q) - Cert.Spec.meanOf nF (fun (n : Fin 50000) (q : Fin 256) => (val_main_v110 (F := Ideal) x0 x1 x3 x4 x5 x6 x7 x8 (ix2 n q) : EReal)) q)
          * Ideal.rsqrt (Cert.Spec.varR nF (fun (n : Fin 50000) (q : Fin 256) => (val_main_v110 (F := Ideal) x0 x1 x3 x4 x5 x6 x7 x8 (ix2 n q) : EReal)) q + eps) + x10 (ix1 q) := by
  rw [val_main_v135_apply, val_main_v132_apply, val_main_v126_apply, val_main_v125_apply, val_main_v124_apply, val_main_v123_apply, val_main_v122_apply,
    val_main_v121_apply, val_main_v131_apply, val_main_v130_apply, val_main_v129_apply, val_main_v128_apply, val_main_v127_apply, val_main_cst_24_apply,
    val_main_v134_apply, val_main_v133_apply]
  have e1 : idx_main_v124 (idx_main_v125 (ix2 n q)) = ix1 q := funext fun a => Fin.ext (by match a with | ⟨0, _⟩ => rfl)
  have e2 : idx_main_v121 (idx_main_v122 (ix2 n q)) = ix1 q := funext fun a => Fin.ext (by match a with | ⟨0, _⟩ => rfl)
  have e3 : idx_main_v130 (idx_main_v131 (ix2 n q)) = ix1 q := funext fun a => Fin.ext (by match a with | ⟨0, _⟩ => rfl)
  have e4 : idx_main_v133 (idx_main_v134 (ix2 n q)) = ix1 q := funext fun a => Fin.ext (by match a with | ⟨0, _⟩ => rfl)
  rw [e1, e2, e3, e4, mean1, var1]
  simp only [Ideal.addf_def, Ideal.mulf_def, Ideal.subf_def, Ideal.hostUnary_rsqrt_def, Ideal.ofBits_def]

/-- The layer with its residual: the previous table plus the specification's layerR of it (old + new, in that order). -/
theorem layer1 (hr : Reads1 (val_main_v80 (F := Ideal) x1) rowc) (hc : Reads1 (val_main_v87 (F := Ideal) x1) colc) (hr2 : Reads2 (val_main_v95 (F := Ideal) x1) rowc) (hs : Lands2 (val_main_v101 (F := Ideal) x1) land) (hd : ∀ n : Fin 50000, (val_main_v10 (F := Ideal) x1 (ix1 n) : EReal) = Cert.Spec.dinv land n) (n : Fin 50000) (q : Fin 256) :
    (val_main_v137 (F := Ideal) x0 x1 x3 x4 x5 x6 x7 x8 x9 x10 (ix2 n q) : EReal)
      = val_main_v73 (F := Ideal) x0 x1 x3 x4 x5 x6 (ix2 n q)
        + Cert.Spec.layerR rowc colc land nF eps (fun (p : Fin 50000) (k : Fin 256) => (val_main_v73 (F := Ideal) x0 x1 x3 x4 x5 x6 (ix2 p k) : EReal)) (fun (k : Fin 256) (q : Fin 256) => (x7 (ix2 k q) : EReal)) (fun (q : Fin 256) => (x8 (ix1 q) : EReal)) (fun (q : Fin 256) => (x9 (ix1 q) : EReal)) (fun (q : Fin 256) => (x10 (ix1 q) : EReal)) n q := by
  rw [val_main_v137_apply, val_main_v136_apply, val_main_call1_v0_apply, val_main_call1_cst_apply, bn1]
  have hT : (fun (n : Fin 50000) (q : Fin 256) => (val_main_v110 (F := Ideal) x0 x1 x3 x4 x5 x6 x7 x8 (ix2 n q) : EReal)) = (Cert.Spec.totR rowc colc land (Cert.Spec.mm (fun (p : Fin 50000) (k : Fin 256) => (val_main_v73 (F := Ideal) x0 x1 x3 x4 x5 x6 (ix2 p k) : EReal)) (fun (k : Fin 256) (q : Fin 256) => (x7 (ix2 k q) : EReal))) (fun (q : Fin 256) => (x8 (ix1 q) : EReal))) :=
    funext fun n => funext fun q => tot1 x0 x1 x3 x4 x5 x6 x7 x8 rowc colc land hr hc hr2 hs hd n q
  rw [hT, tot1 x0 x1 x3 x4 x5 x6 x7 x8 rowc colc land hr hc hr2 hs hd]
  simp only [Ideal.addf_def, Ideal.maximumf_def, Ideal.ofBits_def, Ideal.ofBits_zero_f32]
  rfl

end Layer1

section Edges1

variable (x1 : EdgeArr)

/-- The source scale of the second layer is gathered at the wrapped and clamped source words. -/
theorem reads80 : Reads1 (val_main_v80 (F := Ideal) x1) (rowc x1) := fun x e =>
  Cert.EdgeIdx.gather1_apply gather_S50000_S800000x1_S800000_n_0_n_n_0_1_1 rfl rfl rfl rfl x (rowV x1)
    (val_main_v80 (F := Ideal) x1) (Cert.EdgeIdx.wrapCol_printed bcast_S_S800000 bcast_S800000_S800000x1_0 (rowV x1)) e

/-- The target scale is gathered at the wrapped and clamped target words. -/
theorem reads87 : Reads1 (val_main_v87 (F := Ideal) x1) (colc x1) := fun x e =>
  Cert.EdgeIdx.gather1_apply gather_S50000_S800000x1_S800000_n_0_n_n_0_1_1 rfl rfl rfl rfl x (colV x1)
    (val_main_v87 (F := Ideal) x1) (Cert.EdgeIdx.wrapCol_printed bcast_S_S800000 bcast_S800000_S800000x1_0 (colV x1)) e

/-- The rows of the dense product are gathered at the wrapped and clamped source words. -/
theorem reads95 : Reads2 (val_main_v95 (F := Ideal) x1) (rowc x1) := fun x e q =>
  Cert.EdgeIdx.gather2_apply gather_S50000x256_S800000x1_S800000x256_1_0_n_n_0_1_1256 rfl rfl rfl rfl rfl x (rowV x1)
    (val_main_v95 (F := Ideal) x1) (Cert.EdgeIdx.wrapCol_printed bcast_S_S800000 bcast_S800000_S800000x1_0 (rowV x1)) e q

/-- The messages are added at the raw target words: an edge whose target word is not a node lands nowhere. -/
theorem lands101 : Lands2 (val_main_v101 (F := Ideal) x1) (land x1) := fun x u n q =>
  Cert.EdgeIdx.scatter2_apply scatter_S50000x256_S800000x1_S800000x256_1_0_0_1 rfl rfl rfl rfl x (colV x1)
    (val_main_v101 (F := Ideal) x1) u (Cert.EdgeIdx.rawCol_printed bcast_S800000_S800000x1_0 (colV x1)) n q

end Edges1

/-- The second layer of the reference, with its residual, over the edge maps read off the edge table. -/
theorem layer1_apply (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (n : Fin 50000) (q : Fin 256) :
    (val_main_v137 (F := Ideal) x0 x1 x3 x4 x5 x6 x7 x8 x9 x10 (ix2 n q) : EReal)
      = val_main_v73 (F := Ideal) x0 x1 x3 x4 x5 x6 (ix2 n q)
        + Cert.Spec.layerR (rowc x1) (colc x1) (land x1) nF eps (fun (p : Fin 50000) (k : Fin 256) => (val_main_v73 (F := Ideal) x0 x1 x3 x4 x5 x6 (ix2 p k) : EReal)) (fun (k : Fin 256) (q : Fin 256) => (x7 (ix2 k q) : EReal)) (fun (q : Fin 256) => (x8 (ix1 q) : EReal)) (fun (q : Fin 256) => (x9 (ix1 q) : EReal)) (fun (q : Fin 256) => (x10 (ix1 q) : EReal)) n q :=
  layer1 x0 x1 x3 x4 x5 x6 x7 x8 x9 x10 (rowc x1) (colc x1) (land x1) (reads80 x1) (reads87 x1) (reads95 x1)
    (lands101 x1) (dinv_apply x1) n q

end Cert.RefValue

end
-- ==== Proof.RefLayer2.lean ====
/-
  The reference's third layer, read as the specification's layer function of the second layer's output: the same
  stages as the second layer (dense product, edge messages summed at their landing rows, self loop term and bias, column
  mean and variance, normalisation, scale, shift, clamp at zero, residual), with the third layer's weight, bias, scale
  and shift, over the table the second layer left.
-/
import proofs.«142371_j48498770706497_2_alg».proof.Proof.RefLayer1

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

section Layer2

variable (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x256, .f32⟩ : BufTy).Contents (Elt Ideal)) (x12 x13 x14 : (⟨S256, .f32⟩ : BufTy).Contents (Elt Ideal))
variable (rowc colc : Fin 800000 → Fin 50000) (land : Fin 800000 → Option (Fin 50000))

/-- The dense product  xw = h · W  at (p, q): the sum over k of h(p, k) · W(k, q). -/
theorem xw2 (p : Fin 50000) (q : Fin 256) :
    (val_main_v138 (F := Ideal) x0 x1 x3 x4 x5 x6 x7 x8 x9 x10 x11 (ix2 p q) : EReal) = (Cert.Spec.mm (fun (p : Fin 50000) (k : Fin 256) => (val_main_v137 (F := Ideal) x0 x1 x3 x4 x5 x6 x7 x8 x9 x10 (ix2 p k) : EReal)) (fun (k : Fin 256) (q : Fin 256) => (x11 (ix2 k q) : EReal))) p q := by
  rw [val_main_v138_apply]
  unfold Cert.Spec.mm
  refine Finset.sum_congr rfl fun k _ => ?_
  have el : lidx_main_v138 (ix2 p q) k = ix2 p k := funext fun a => Fin.ext (by match a with | ⟨0, _⟩ => rfl | ⟨1, _⟩ => rfl)
  have er : ridx_main_v138 (ix2 p q) k = ix2 k q := funext fun a => Fin.ext (by match a with | ⟨0, _⟩ => rfl | ⟨1, _⟩ => rfl)
  rw [el, er]

/-- The edge weight: the degree scale at the edge's source times the degree scale at its target. -/
theorem norm2 (hr : Reads1 (val_main_v144 (F := Ideal) x1) rowc) (hc : Reads1 (val_main_v151 (F := Ideal) x1) colc) (e : Fin 800000) :
    (val_main_v153 (F := Ideal) x1 (ix1 e) : EReal) = val_main_v10 (F := Ideal) x1 (ix1 (rowc e)) * val_main_v10 (F := Ideal) x1 (ix1 (colc e)) := by
  rw [val_main_v153_apply]
  unfold val_main_v145 val_main_v152
  rw [hr, hc]
  simp only [Ideal.mulf_def]

/-- The message of edge e in column q: xw at the source row, times the edge weight. -/
theorem msg2 (hr2 : Reads2 (val_main_v159 (F := Ideal) x1) rowc) (e : Fin 800000) (q : Fin 256) :
    (val_main_v163 (F := Ideal) x0 x1 x3 x4 x5 x6 x7 x8 x9 x10 x11 (ix2 e q) : EReal) = val_main_v138 (F := Ideal) x0 x1 x3 x4 x5 x6 x7 x8 x9 x10 x11 (ix2 (rowc e) q) * val_main_v153 (F := Ideal) x1 (ix1 e) := by
  rw [val_main_v163_apply, val_main_v162_apply, val_main_v161_apply]
  unfold val_main_v160
  rw [hr2]
  have e1 : idx_main_v161 (idx_main_v162 (ix2 e q)) = ix1 e := funext fun a => Fin.ext (by match a with | ⟨0, _⟩ => rfl)
  rw [e1]
  simp only [Ideal.mulf_def]

/-- The aggregation: row n sums the messages of the edges landing on n, starting from zero. -/
theorem agg2 (hr : Reads1 (val_main_v144 (F := Ideal) x1) rowc) (hc : Reads1 (val_main_v151 (F := Ideal) x1) colc) (hr2 : Reads2 (val_main_v159 (F := Ideal) x1) rowc) (hs : Lands2 (val_main_v165 (F := Ideal) x1) land) (n : Fin 50000) (q : Fin 256) :
    (val_main_v166 (F := Ideal) x0 x1 x3 x4 x5 x6 x7 x8 x9 x10 x11 (ix2 n q) : EReal)
      = ∑ e ∈ Finset.univ.filter (fun e : Fin 800000 => land e = some n),
          val_main_v138 (F := Ideal) x0 x1 x3 x4 x5 x6 x7 x8 x9 x10 x11 (ix2 (rowc e) q) * (val_main_v10 (F := Ideal) x1 (ix1 (rowc e)) * val_main_v10 (F := Ideal) x1 (ix1 (colc e))) := by
  unfold val_main_v166
  rw [hs, val_main_v164_apply, val_main_cst_31_apply, Ideal.ofBits_def, Ideal.ofBits_zero_f32, zero_add]
  refine Finset.sum_congr rfl fun e _ => ?_
  rw [msg2 x0 x1 x3 x4 x5 x6 x7 x8 x9 x10 x11 rowc hr2, norm2 x1 rowc colc hr hc]

/-- Aggregation, self loop term and bias: the specification's totR of xw. -/
theorem tot2 (hr : Reads1 (val_main_v144 (F := Ideal) x1) rowc) (hc : Reads1 (val_main_v151 (F := Ideal) x1) colc) (hr2 : Reads2 (val_main_v159 (F := Ideal) x1) rowc) (hs : Lands2 (val_main_v165 (F := Ideal) x1) land) (hd : ∀ n : Fin 50000, (val_main_v10 (F := Ideal) x1 (ix1 n) : EReal) = Cert.Spec.dinv land n) (n : Fin 50000) (q : Fin 256) :
    (val_main_v174 (F := Ideal) x0 x1 x3 x4 x5 x6 x7 x8 x9 x10 x11 x12 (ix2 n q) : EReal) = (Cert.Spec.totR rowc colc land (Cert.Spec.mm (fun (p : Fin 50000) (k : Fin 256) => (val_main_v137 (F := Ideal) x0 x1 x3 x4 x5 x6 x7 x8 x9 x10 (ix2 p k) : EReal)) (fun (k : Fin 256) (q : Fin 256) => (x11 (ix2 k q) : EReal))) (fun (q : Fin 256) => (x12 (ix1 q) : EReal))) n q := by
  rw [val_main_v174_apply, val_main_v171_apply, val_main_v170_apply, val_main_v169_apply, val_main_v168_apply, val_main_v167_apply, val_main_v173_apply,
    val_main_v172_apply, agg2 x0 x1 x3 x4 x5 x6 x7 x8 x9 x10 x11 rowc colc land hr hc hr2 hs]
  have e1 : idx_main_v168 (idx_main_v169 (ix2 n q)) = ix1 n := funext fun a => Fin.ext (by match a with | ⟨0, _⟩ => rfl)
  have e2 : idx_main_v172 (idx_main_v173 (ix2 n q)) = ix1 q := funext fun a => Fin.ext (by match a with | ⟨0, _⟩ => rfl)
  rw [e1, e2]
  simp only [xw2, hd, Ideal.addf_def, Ideal.mulf_def]
  rfl

/-- The column mean of the layer's pre-normalisation table. -/
theorem mean2 (q : Fin 256) :
    (val_main_v177 (F := Ideal) x0 x1 x3 x4 x5 x6 x7 x8 x9 x10 x11 x12 (ix1 q) : EReal) = Cert.Spec.meanOf nF (fun (n : Fin 50000) (q : Fin 256) => (val_main_v174 (F := Ideal) x0 x1 x3 x4 x5 x6 x7 x8 x9 x10 x11 x12 (ix2 n q) : EReal)) q := by
  rw [val_main_v177_apply, val_main_v175_apply, val_main_v176_apply, val_main_cst_32_apply, val_main_cst_33_apply]
  simp only [Ideal.hostDivf_def, Ideal.ofBits_def, Ideal.ofBits_zero_f32, zero_add]
  unfold Cert.Spec.meanOf
  refine congrArg (fun s => Ideal.div s nF) (Finset.sum_congr rfl fun k _ => ?_)
  show val_main_v174 (F := Ideal) x0 x1 x3 x4 x5 x6 x7 x8 x9 x10 x11 x12 (idx_main_v175 (ix1 q) k) = val_main_v174 (F := Ideal) x0 x1 x3 x4 x5 x6 x7 x8 x9 x10 x11 x12 (ix2 k q)
  exact congrArg _ (funext fun a => Fin.ext (by match a with | ⟨0, _⟩ => rfl | ⟨1, _⟩ => rfl))

/-- The column variance: the mean of the squared deviations from the column mean. -/
theorem var2 (q : Fin 256) :
    (val_main_v184 (F := Ideal) x0 x1 x3 x4 x5 x6 x7 x8 x9 x10 x11 x12 (ix1 q) : EReal) = Cert.Spec.varR nF (fun (n : Fin 50000) (q : Fin 256) => (val_main_v174 (F := Ideal) x0 x1 x3 x4 x5 x6 x7 x8 x9 x10 x11 x12 (ix2 n q) : EReal)) q := by
  rw [val_main_v184_apply, val_main_v182_apply, val_main_v183_apply, val_main_cst_34_apply, val_main_cst_35_apply]
  simp only [Ideal.hostDivf_def, Ideal.ofBits_def, Ideal.ofBits_zero_f32, zero_add]
  unfold Cert.Spec.varR
  refine congrArg (fun s => Ideal.div s nF) (Finset.sum_congr rfl fun k _ => ?_)
  rw [val_main_v181_apply, val_main_v180_apply, val_main_v179_apply, val_main_v178_apply]
  have e1 : idx_main_v182 (ix1 q) k = ix2 k q := funext fun a => Fin.ext (by match a with | ⟨0, _⟩ => rfl | ⟨1, _⟩ => rfl)
  have e2 : idx_main_v178 (idx_main_v179 (ix2 k q)) = ix1 q := funext fun a => Fin.ext (by match a with | ⟨0, _⟩ => rfl)
  rw [e1, e2, mean2]
  simp only [Ideal.mulf_def, Ideal.subf_def]

/-- Normalise by the column mean and variance, scale and shift. -/
theorem bn2 (n : Fin 50000) (q : Fin 256) :
    (val_main_v199 (F := Ideal) x0 x1 x3 x4 x5 x6 x7 x8 x9 x10 x11 x12 x13 x14 (ix2 n q) : EReal)
      = x13 (ix1 q) * (val_main_v174 (F := Ideal) x0 x1 x3 x4 x5 x6 x7 x8 x9 x10 x11 x12 (ix2 n q) - Cert.Spec.meanOf nF (fun (n : Fin 50000) (q : Fin 256) => (val_main_v174 (F := Ideal) x0 x1 x3 x4 x5 x6 x7 x8 x9 x10 x11 x12 (ix2 n q) : EReal)) q)
          * Ideal.rsqrt (Cert.Spec.varR nF (fun (n : Fin 50000) (q : Fin 256) => (val_main_v174 (F := Ideal) x0 x1 x3 x4 x5 x6 x7 x8 x9 x10 x11 x12 (ix2 n q) : EReal)) q + eps) + x14 (ix1 q) := by
  rw [val_main_v199_apply, val_main_v196_apply, val_main_v190_apply, val_main_v189_apply, val_main_v188_apply, val_main_v187_apply, val_main_v186_apply,
    val_main_v185_apply, val_main_v195_apply, val_main_v194_apply, val_main_v193_apply, val_main_v192_apply, val_main_v191_apply, val_main_cst_36_apply,
    val_main_v198_apply, val_main_v197_apply]
  have e1 : idx_main_v188 (idx_main_v189 (ix2 n q)) = ix1 q := funext fun a => Fin.ext (by match a with | ⟨0, _⟩ => rfl)
  have e2 : idx_main_v185 (idx_main_v186 (ix2 n q)) = ix1 q := funext fun a => Fin.ext (by match a with | ⟨0, _⟩ => rfl)
  have e3 : idx_main_v194 (idx_main_v195 (ix2 n q)) = ix1 q := funext fun a => Fin.ext (by match a with | ⟨0, _⟩ => rfl)
  have e4 : idx_main_v197 (idx_main_v198 (ix2 n q)) = ix1 q := funext fun a => Fin.ext (by match a with | ⟨0, _⟩ => rfl)
  rw [e1, e2, e3, e4, mean2, var2]
  simp only [Ideal.addf_def, Ideal.mulf_def, Ideal.subf_def, Ideal.hostUnary_rsqrt_def, Ideal.ofBits_def]

/-- The layer with its residual: the previous table plus the specification's layerR of it (old + new, in that order). -/
theorem layer2 (hr : Reads1 (val_main_v144 (F := Ideal) x1) rowc) (hc : Reads1 (val_main_v151 (F := Ideal) x1) colc) (hr2 : Reads2 (val_main_v159 (F := Ideal) x1) rowc) (hs : Lands2 (val_main_v165 (F := Ideal) x1) land) (hd : ∀ n : Fin 50000, (val_main_v10 (F := Ideal) x1 (ix1 n) : EReal) = Cert.Spec.dinv land n) (n : Fin 50000) (q : Fin 256) :
    (val_main_v201 (F := Ideal) x0 x1 x3 x4 x5 x6 x7 x8 x9 x10 x11 x12 x13 x14 (ix2 n q) : EReal)
      = val_main_v137 (F := Ideal) x0 x1 x3 x4 x5 x6 x7 x8 x9 x10 (ix2 n q)
        + Cert.Spec.layerR rowc colc land nF eps (fun (p : Fin 50000) (k : Fin 256) => (val_main_v137 (F := Ideal) x0 x1 x3 x4 x5 x6 x7 x8 x9 x10 (ix2 p k) : EReal)) (fun (k : Fin 256) (q : Fin 256) => (x11 (ix2 k q) : EReal)) (fun (q : Fin 256) => (x12 (ix1 q) : EReal)) (fun (q : Fin 256) => (x13 (ix1 q) : EReal)) (fun (q : Fin 256) => (x14 (ix1 q) : EReal)) n q := by
  rw [val_main_v201_apply, val_main_v200_apply, val_main_call2_v0_apply, val_main_call2_cst_apply, bn2]
  have hT : (fun (n : Fin 50000) (q : Fin 256) => (val_main_v174 (F := Ideal) x0 x1 x3 x4 x5 x6 x7 x8 x9 x10 x11 x12 (ix2 n q) : EReal)) = (Cert.Spec.totR rowc colc land (Cert.Spec.mm (fun (p : Fin 50000) (k : Fin 256) => (val_main_v137 (F := Ideal) x0 x1 x3 x4 x5 x6 x7 x8 x9 x10 (ix2 p k) : EReal)) (fun (k : Fin 256) (q : Fin 256) => (x11 (ix2 k q) : EReal))) (fun (q : Fin 256) => (x12 (ix1 q) : EReal))) :=
    funext fun n => funext fun q => tot2 x0 x1 x3 x4 x5 x6 x7 x8 x9 x10 x11 x12 rowc colc land hr hc hr2 hs hd n q
  rw [hT, tot2 x0 x1 x3 x4 x5 x6 x7 x8 x9 x10 x11 x12 rowc colc land hr hc hr2 hs hd]
  simp only [Ideal.addf_def, Ideal.maximumf_def, Ideal.ofBits_def, Ideal.ofBits_zero_f32]
  rfl

end Layer2

section Edges2

variable (x1 : EdgeArr)

/-- The source scale of the third layer is gathered at the wrapped and clamped source words. -/
theorem reads144 : Reads1 (val_main_v144 (F := Ideal) x1) (rowc x1) := fun x e =>
  Cert.EdgeIdx.gather1_apply gather_S50000_S800000x1_S800000_n_0_n_n_0_1_1 rfl rfl rfl rfl x (rowV x1)
    (val_main_v144 (F := Ideal) x1) (Cert.EdgeIdx.wrapCol_printed bcast_S_S800000 bcast_S800000_S800000x1_0 (rowV x1)) e

/-- The target scale is gathered at the wrapped and clamped target words. -/
theorem reads151 : Reads1 (val_main_v151 (F := Ideal) x1) (colc x1) := fun x e =>
  Cert.EdgeIdx.gather1_apply gather_S50000_S800000x1_S800000_n_0_n_n_0_1_1 rfl rfl rfl rfl x (colV x1)
    (val_main_v151 (F := Ideal) x1) (Cert.EdgeIdx.wrapCol_printed bcast_S_S800000 bcast_S800000_S800000x1_0 (colV x1)) e

/-- The rows of the dense product are gathered at the wrapped and clamped source words. -/
theorem reads159 : Reads2 (val_main_v159 (F := Ideal) x1) (rowc x1) := fun x e q =>
  Cert.EdgeIdx.gather2_apply gather_S50000x256_S800000x1_S800000x256_1_0_n_n_0_1_1256 rfl rfl rfl rfl rfl x (rowV x1)
    (val_main_v159 (F := Ideal) x1) (Cert.EdgeIdx.wrapCol_printed bcast_S_S800000 bcast_S800000_S800000x1_0 (rowV x1)) e q

/-- The messages are added at the raw target words: an edge whose target word is not a node lands nowhere. -/
theorem lands165 : Lands2 (val_main_v165 (F := Ideal) x1) (land x1) := fun x u n q =>
  Cert.EdgeIdx.scatter2_apply scatter_S50000x256_S800000x1_S800000x256_1_0_0_1 rfl rfl rfl rfl x (colV x1)
    (val_main_v165 (F := Ideal) x1) u (Cert.EdgeIdx.rawCol_printed bcast_S800000_S800000x1_0 (colV x1)) n q

end Edges2

/-- The third layer of the reference, with its residual, over the edge maps read off the edge table. -/
theorem layer2_apply (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x256, .f32⟩ : BufTy).Contents (Elt Ideal)) (x12 x13 x14 : (⟨S256, .f32⟩ : BufTy).Contents (Elt Ideal)) (n : Fin 50000) (q : Fin 256) :
    (val_main_v201 (F := Ideal) x0 x1 x3 x4 x5 x6 x7 x8 x9 x10 x11 x12 x13 x14 (ix2 n q) : EReal)
      = val_main_v137 (F := Ideal) x0 x1 x3 x4 x5 x6 x7 x8 x9 x10 (ix2 n q)
        + Cert.Spec.layerR (rowc x1) (colc x1) (land x1) nF eps (fun (p : Fin 50000) (k : Fin 256) => (val_main_v137 (F := Ideal) x0 x1 x3 x4 x5 x6 x7 x8 x9 x10 (ix2 p k) : EReal)) (fun (k : Fin 256) (q : Fin 256) => (x11 (ix2 k q) : EReal)) (fun (q : Fin 256) => (x12 (ix1 q) : EReal)) (fun (q : Fin 256) => (x13 (ix1 q) : EReal)) (fun (q : Fin 256) => (x14 (ix1 q) : EReal)) n q :=
  layer2 x0 x1 x3 x4 x5 x6 x7 x8 x9 x10 x11 x12 x13 x14 (rowc x1) (colc x1) (land x1) (reads144 x1) (reads151 x1) (reads159 x1)
    (lands165 x1) (dinv_apply x1) n q

end Cert.RefValue

end
-- ==== Proof.RNet.lean ====
/-
  The reference's three layers, composed. Its first layer is the specification's layerR of the arguments; its second
  and third each add, to the table before them, layerR of that table (old + new); so its last table is the
  specification's network netR of the arguments. Also the two constants the layers carry: the node count is the
  real number 50000, and the variance guard is a positive real number.
-/
import proofs.«142371_j48498770706497_2_alg».proof.Proof.RefLayer0
import proofs.«142371_j48498770706497_2_alg».proof.Proof.RefLayer1
import proofs.«142371_j48498770706497_2_alg».proof.Proof.RefLayer2

noncomputable section

namespace Cert.RefValue

open Cert.ReferenceIdeal Cert.ReferenceIdeal.Gen Cert.ReferenceIdeal.Read Idealize.ShloMosaic Idealize.ShloMosaic.ValueIdx

/-- The node count's word denotes the real number 50000: (2²³ + 4411392) · 2⁻⁸. -/
theorem nF_eq : nF = ((50000 : ℝ) : EReal) := by
  simp [Ideal.ofBits, Ideal.ieee, -EReal.coe_mul]; norm_num

/-- The variance guard's word denotes (2²³ + 2606508) · 2⁻⁴⁰, the single-precision number nearest 10⁻⁵. -/
theorem eps_eq : eps = ((10995116 * (2 : ℝ) ^ (-40 : Int) : ℝ) : EReal) := by
  simp [Ideal.ofBits, Ideal.ieee, -EReal.coe_mul]

/-- The variance guard is a positive real number. -/
theorem eps_pos : ∃ r : ℝ, 0 < r ∧ eps = (r : EReal) :=
  ⟨_, by positivity, eps_eq⟩

section Compose

variable {I : Type} (ix : Fin 50000 → Fin 256 → I) (V1 V2 V3 : I → EReal)
variable (R C : Fin 800000 → Fin 50000) (L : Fin 800000 → Option (Fin 50000)) (cN cE : EReal)
variable (X : Fin 50000 → Fin 128 → EReal) (W0 : Fin 128 → Fin 256 → EReal) (b0 g0 be0 : Fin 256 → EReal)
  (W1 : Fin 256 → Fin 256 → EReal) (b1 g1 be1 : Fin 256 → EReal)
  (W2 : Fin 256 → Fin 256 → EReal) (b2 g2 be2 : Fin 256 → EReal)

/-- Three tables, the first a layer of the input and each later one the table before it plus a layer of that table,
    end in the network: substitute the first into the second and the second into the third. -/
theorem net_of_layers
    (h0 : ∀ n q, V1 (ix n q) = Cert.Spec.layerR R C L cN cE X W0 b0 g0 be0 n q)
    (h1 : ∀ n q, V2 (ix n q)
      = V1 (ix n q) + Cert.Spec.layerR R C L cN cE (fun p k => V1 (ix p k)) W1 b1 g1 be1 n q)
    (h2 : ∀ n q, V3 (ix n q)
      = V2 (ix n q) + Cert.Spec.layerR R C L cN cE (fun p k => V2 (ix p k)) W2 b2 g2 be2 n q)
    (n : Fin 50000) (q : Fin 256) :
    V3 (ix n q) = Cert.Spec.netR R C L cN cE X W0 b0 g0 be0 W1 b1 g1 be1 W2 b2 g2 be2 n q := by
  have e1 : (fun p k => V1 (ix p k)) = Cert.Spec.layerR R C L cN cE X W0 b0 g0 be0 :=
    funext fun p => funext fun k => h0 p k
  have e2' : ∀ p k, V2 (ix p k) = Cert.Spec.layerR R C L cN cE X W0 b0 g0 be0 p k
      + Cert.Spec.layerR R C L cN cE (Cert.Spec.layerR R C L cN cE X W0 b0 g0 be0) W1 b1 g1 be1 p k :=
    fun p k => by rw [h1 p k, e1, h0 p k]
  have e2 : (fun p k => V2 (ix p k)) = fun p k => Cert.Spec.layerR R C L cN cE X W0 b0 g0 be0 p k
      + Cert.Spec.layerR R C L cN cE (Cert.Spec.layerR R C L cN cE X W0 b0 g0 be0) W1 b1 g1 be1 p k :=
    funext fun p => funext fun k => e2' p k
  rw [h2 n q, e2, e2' n q]
  rfl

end Compose

/-- The reference's last table is the specification's network of the arguments. -/
theorem ref_h3 (x0 : (⟨S50000x128, .f32⟩ : BufTy).Contents (Elt Ideal)) (x1 : EdgeArr)
    (x3 : (⟨S128x256, .f32⟩ : BufTy).Contents (Elt Ideal)) (x4 x5 x6 : (⟨S256, .f32⟩ : BufTy).Contents (Elt Ideal))
    (x7 : (⟨S256x256, .f32⟩ : BufTy).Contents (Elt Ideal)) (x8 x9 x10 : (⟨S256, .f32⟩ : BufTy).Contents (Elt Ideal))
    (x11 : (⟨S256x256, .f32⟩ : BufTy).Contents (Elt Ideal)) (x12 x13 x14 : (⟨S256, .f32⟩ : BufTy).Contents (Elt Ideal))
    (n : Fin 50000) (q : Fin 256) :
    val_main_v201 (F := Ideal) x0 x1 x3 x4 x5 x6 x7 x8 x9 x10 x11 x12 x13 x14 (ix2 n q)
      = Cert.Spec.netR (rowc x1) (colc x1) (land x1) nF eps (fun p k => x0 (ix2 p k)) (fun k q => x3 (ix2 k q))
          (fun q => x4 (ix1 q)) (fun q => x5 (ix1 q)) (fun q => x6 (ix1 q))
          (fun k q => x7 (ix2 k q)) (fun q => x8 (ix1 q)) (fun q => x9 (ix1 q)) (fun q => x10 (ix1 q))
          (fun k q => x11 (ix2 k q)) (fun q => x12 (ix1 q)) (fun q => x13 (ix1 q)) (fun q => x14 (ix1 q)) n q :=
  net_of_layers (fun n q => ix2 n q)
    (val_main_v73 (F := Ideal) x0 x1 x3 x4 x5 x6)
    (val_main_v137 (F := Ideal) x0 x1 x3 x4 x5 x6 x7 x8 x9 x10)
    (val_main_v201 (F := Ideal) x0 x1 x3 x4 x5 x6 x7 x8 x9 x10 x11 x12 x13 x14)
    (rowc x1) (colc x1) (land x1) nF eps (fun p k => x0 (ix2 p k)) (fun k q => x3 (ix2 k q))
    (fun q => x4 (ix1 q)) (fun q => x5 (ix1 q)) (fun q => x6 (ix1 q))
    (fun k q => x7 (ix2 k q)) (fun q => x8 (ix1 q)) (fun q => x9 (ix1 q)) (fun q => x10 (ix1 q))
    (fun k q => x11 (ix2 k q)) (fun q => x12 (ix1 q)) (fun q => x13 (ix1 q)) (fun q => x14 (ix1 q))
    (layer0_apply x0 x1 x3 x4 x5 x6)
    (layer1_apply x0 x1 x3 x4 x5 x6 x7 x8 x9 x10)
    (layer2_apply x0 x1 x3 x4 x5 x6 x7 x8 x9 x10 x11 x12 x13 x14)
    n q

end Cert.RefValue

end
-- ==== Proof.KPieces.lean ====
/-
  The scale-once arrangement of one layer, put together from the values its pieces hold: the dense product, the
  aggregated messages, the squared degree scale, the total, the two column sums, the mean and variance taken from
  them, and the normalised, scaled, shifted and clamped output. Each piece is given by an equation at every index;
  together they say the output is the specification's layerK. Then three such layers, the second and third adding
  the table before them on the right, are the specification's netK.
-/
import proofs.«142371_j48498770706497_2_alg».proof.Proof.Spec

noncomputable section

namespace Cert.Spec

open Idealize.ShloMosaic

section Pieces

variable (rowc : Fin Ee → Fin Nn) (land : Fin Ee → Option (Fin Nn)) (nF eps : EReal)
variable {K : ℕ} (h : Fin Nn → Fin K → EReal) (W : Fin K → Fin Hh → EReal) (b g be : Fin Hh → EReal)
variable (XW AG T : Fin Nn → Fin Hh → EReal) (D2 : Fin Nn → EReal) (S1 S2 MU VAR : Fin Hh → EReal)

/-- The pieces up to the variance determine the clamped, normalised total: it is layerK. -/
theorem bnrelu_of_pieces
    (hxw : ∀ p q, XW p q = ∑ k : Fin K, h p k * W k q)
    (hag : ∀ n q, AG n q = aggK rowc land XW n q)
    (hd2 : ∀ n, D2 n = dinv land n * dinv land n)
    (hT : ∀ n q, T n q = AG n q + XW n q * D2 n + b q)
    (hS1 : ∀ q, S1 q = ∑ n : Fin Nn, T n q) (hS2 : ∀ q, S2 q = ∑ n : Fin Nn, T n q * T n q)
    (hmu : ∀ q, MU q = Ideal.div (S1 q) nF)
    (hvar : ∀ q, VAR q = max (Ideal.div (S2 q) nF - Ideal.div (S1 q) nF * Ideal.div (S1 q) nF) 0)
    (n : Fin Nn) (q : Fin Hh) :
    max (g q * (T n q - MU q) * Ideal.rsqrt (VAR q + eps) + be q) 0 = layerK rowc land nF eps h W b g be n q := by
  have eXW : XW = mm h W := funext fun p => funext fun q => hxw p q
  have eT : T = totK rowc land (mm h W) b := funext fun n => funext fun q => by
    rw [hT n q, hag n q, hd2 n, eXW]; rfl
  have eMU : MU = meanOf nF T := funext fun q => by rw [hmu q, hS1 q]; rfl
  have eVAR : VAR = varK nF T := funext fun q => by rw [hvar q, hS2 q, hS1 q]; rfl
  rw [eMU, eVAR, eT]
  rfl

variable (OUT RES : Fin Nn → Fin Hh → EReal)

/-- One layer from its pieces. -/
theorem layerK_of_pieces
    (hxw : ∀ p q, XW p q = ∑ k : Fin K, h p k * W k q)
    (hag : ∀ n q, AG n q = aggK rowc land XW n q)
    (hd2 : ∀ n, D2 n = dinv land n * dinv land n)
    (hT : ∀ n q, T n q = AG n q + XW n q * D2 n + b q)
    (hS1 : ∀ q, S1 q = ∑ n : Fin Nn, T n q) (hS2 : ∀ q, S2 q = ∑ n : Fin Nn, T n q * T n q)
    (hmu : ∀ q, MU q = Ideal.div (S1 q) nF)
    (hvar : ∀ q, VAR q = max (Ideal.div (S2 q) nF - Ideal.div (S1 q) nF * Ideal.div (S1 q) nF) 0)
    (hout : ∀ n q, OUT n q = max (g q * (T n q - MU q) * Ideal.rsqrt (VAR q + eps) + be q) 0)
    (n : Fin Nn) (q : Fin Hh) : OUT n q = layerK rowc land nF eps h W b g be n q := by
  rw [hout n q]
  exact bnrelu_of_pieces rowc land nF eps h W b g be XW AG T D2 S1 S2 MU VAR hxw hag hd2 hT hS1 hS2 hmu hvar n q

/-- One layer from its pieces, a residual table added on the right. -/
theorem layerK_of_pieces_res
    (hxw : ∀ p q, XW p q = ∑ k : Fin K, h p k * W k q)
    (hag : ∀ n q, AG n q = aggK rowc land XW n q)
    (hd2 : ∀ n, D2 n = dinv land n * dinv land n)
    (hT : ∀ n q, T n q = AG n q + XW n q * D2 n + b q)
    (hS1 : ∀ q, S1 q = ∑ n : Fin Nn, T n q) (hS2 : ∀ q, S2 q = ∑ n : Fin Nn, T n q * T n q)
    (hmu : ∀ q, MU q = Ideal.div (S1 q) nF)
    (hvar : ∀ q, VAR q = max (Ideal.div (S2 q) nF - Ideal.div (S1 q) nF * Ideal.div (S1 q) nF) 0)
    (hout : ∀ n q, OUT n q = max (g q * (T n q - MU q) * Ideal.rsqrt (VAR q + eps) + be q) 0 + RES n q)
    (n : Fin Nn) (q : Fin Hh) : OUT n q = layerK rowc land nF eps h W b g be n q + RES n q := by
  rw [hout n q,
    bnrelu_of_pieces rowc land nF eps h W b g be XW AG T D2 S1 S2 MU VAR hxw hag hd2 hT hS1 hS2 hmu hvar n q]

end Pieces

section Net

variable (rowc : Fin Ee → Fin Nn) (land : Fin Ee → Option (Fin Nn)) (nF eps : EReal)
variable (X : Fin Nn → Fin 128 → EReal) (W0 : Fin 128 → Fin Hh → EReal) (b0 g0 be0 : Fin Hh → EReal)
  (W1 : Fin Hh → Fin Hh → EReal) (b1 g1 be1 : Fin Hh → EReal)
  (W2 : Fin Hh → Fin Hh → EReal) (b2 g2 be2 : Fin Hh → EReal)
variable (V1 V2 V3 : Fin Nn → Fin Hh → EReal)

/-- Three tables, the first a layer of the input and each later one a layer of the table before it plus that
    table (new + old), end in the network: substitute the first into the second and the second into the third. -/
theorem netK_of_layers
    (h0 : ∀ n q, V1 n q = layerK rowc land nF eps X W0 b0 g0 be0 n q)
    (h1 : ∀ n q, V2 n q = layerK rowc land nF eps V1 W1 b1 g1 be1 n q + V1 n q)
    (h2 : ∀ n q, V3 n q = layerK rowc land nF eps V2 W2 b2 g2 be2 n q + V2 n q) :
    ∀ n q, V3 n q = netK rowc land nF eps X W0 b0 g0 be0 W1 b1 g1 be1 W2 b2 g2 be2 n q := by
  have e1 : V1 = layerK rowc land nF eps X W0 b0 g0 be0 := funext fun n => funext fun q => h0 n q
  have e2' : ∀ n q, V2 n q = layerK rowc land nF eps (layerK rowc land nF eps X W0 b0 g0 be0) W1 b1 g1 be1 n q
      + layerK rowc land nF eps X W0 b0 g0 be0 n q := fun n q => by rw [h1 n q, e1]
  have e2 : V2 = fun n q => layerK rowc land nF eps (layerK rowc land nF eps X W0 b0 g0 be0) W1 b1 g1 be1 n q
      + layerK rowc land nF eps X W0 b0 g0 be0 n q := funext fun n => funext fun q => e2' n q
  intro n q
  rw [h2 n q, e2]
  rfl

end Net

end Cert.Spec

end
-- ==== Proof.KHost1.lean ====
/-
  The second host stretch of the kernel-side program (and, with other array names, the same stretch of the two later
  layers), read at an index over the extended reals.

  It scales every row of the dense product xw by the degree scale of its node, rounds to the short float format and
  back (the identity over the extended reals), reads for every edge the row of its source node (a negative node number
  wraps around by 50000), sums the rows of the edges landing on each node onto an array of zeros, and scales the sum by
  the node's degree scale: the aggregate aggK.  Beside it the squared scale becomes a column and the bias a row.
-/
import proofs.«142371_j48498770706497_2_alg».proof.Proof.Gen.KernelIdeal.Launch
import proofs.«142371_j48498770706497_2_alg».proof.Proof.Spec
import proofs.«142371_j48498770706497_2_alg».proof.Proof.EdgeIdx
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

set_option maxRecDepth 1628

noncomputable section

namespace Cert.KHost1

open Idealize.ShloMosaic Idealize.ShloMosaic.TcCoe Idealize.ShloMosaic.ValueIdx
open Cert.KernelIdeal Cert.KernelIdeal.Gen
open Cert.EdgeIdx (gidx landOf)

/-- The gather index as the stretch spells it: a negative node number has 50000 added; one column. -/
def wrapIdx (row : IVec S800000 32) : IVec S800000x1 32 :=
  broadcastInDim S800000x1 ![0] bcast_S800000_S800000x1_0
    (select (cmpi .slt row (broadcastInDim S800000 ![] bcast_S_S800000 (constantI S_ 32 0#32)))
      (addi row (broadcastInDim S800000 ![] bcast_S_S800000 (constantI S_ 32 50000#32))) row)

/-- A per-node vector repeated along the 256 columns. -/
def bcastN (d : FVec Ideal S50000 .f32) : FVec Ideal S50000x256 .f32 :=
  broadcastInDim S50000x256 ![0, 1] bcast_S50000x1_S50000x256_0_1 (broadcastInDim S50000x1 ![0] bcast_S50000_S50000x1_0 d)

/-- The aggregate as the stretch's operations spell it. -/
def aggTerm (xw : FVec Ideal S50000x256 .f32) (d : FVec Ideal S50000 .f32) (row col : IVec S800000 32) :
    FVec Ideal S50000x256 .f32 :=
  mulf
    (Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 col)
      (extf .f32
        (Host.gather gather_S50000x256_S800000x1_S800000x256_1_0_n_n_0_1_1256
          (truncf .bf16 (mulf xw (bcastN d)) bitsLt_bf16_f32) (wrapIdx row))
        bitsLt_bf16_f32))
    (bcastN d)

theorem bcastN_apply (d : FVec Ideal S50000 .f32) (n : Fin 50000) (q : Fin 256) : bcastN d (ix2 n q) = d (ix1 n) := by
  unfold bcastN
  rw [broadcastInDim_apply _ _ _ (ix2 n q) (ix2 n (0 : Fin 1)) (fun a => by fin_cases a <;> rfl),
    broadcastInDim_apply _ _ _ (ix2 n (0 : Fin 1)) (ix1 n) (fun a => by fin_cases a; rfl)]

theorem zeroNH_apply (j : S50000x256.Idx) :
    broadcastInDim S50000x256 ![] bcast_S_S50000x256 (constant (F := Ideal) S_ .f32 0x00000000#32) j = 0 := Ideal.ofBits_zero_f32

/-- A row gather through the wrapped index reads the table's row at the edge's source node. -/
theorem gatherRow (x : FVec Ideal S50000x256 .bf16) (v : IVec S800000 32) (e : Fin 800000) (q : Fin 256) :
    Host.gather gather_S50000x256_S800000x1_S800000x256_1_0_n_n_0_1_1256 x (wrapIdx v) (ix2 e q) = x (ix2 (gidx v e) q) :=
  Cert.EdgeIdx.gather2_apply' gather_S50000x256_S800000x1_S800000x256_1_0_n_n_0_1_1256 rfl rfl rfl rfl rfl x v (wrapIdx v)
    (Cert.EdgeIdx.isWrapCol_printed bcast_S_S800000 bcast_S800000_S800000x1_0 v) e q

/-- The accumulating row scatter through the column of raw target nodes leaves each entry plus the rows of the edges
    landing on its node. -/
theorem scatterRow (x : FVec Ideal S50000x256 .f32) (v : IVec S800000 32) (u : FVec Ideal S800000x256 .f32) (n : Fin 50000)
    (q : Fin 256) :
    Host.scatterAdd (F := Ideal) scatter_S50000x256_S800000x1_S800000x256_1_0_0_1 x
        (broadcastInDim S800000x1 ![0] bcast_S800000_S800000x1_0 v) u (ix2 n q)
      = x (ix2 n q) + ∑ e ∈ Finset.univ.filter (fun e => landOf v e = some n), u (ix2 e q) :=
  Cert.EdgeIdx.scatter2_apply' scatter_S50000x256_S800000x1_S800000x256_1_0_0_1 x v _
    (Cert.EdgeIdx.isRawCol_printed bcast_S800000_S800000x1_0 v) u n q

section
/-- The spelled aggregate, when d holds the degree scale, is aggK of the table xw. -/
theorem aggTerm_apply (xw : FVec Ideal S50000x256 .f32) (d : FVec Ideal S50000 .f32) (row col : IVec S800000 32)
    (hd : ∀ n : Fin 50000, d (ix1 n) = Cert.Spec.dinv (landOf col) n) (n : Fin 50000) (q : Fin 256) :
    aggTerm xw d row col (ix2 n q)
      = Cert.Spec.aggK (gidx row) (landOf col) (fun p q => xw (ix2 p q)) n q := by
  unfold aggTerm Cert.Spec.aggK
  rw [mulf_apply, scatterRow, zeroNH_apply, zero_add, bcastN_apply, hd]
  have hsum : (∑ e ∈ Finset.univ.filter (fun e => landOf col e = some n),
        extf .f32 (Host.gather gather_S50000x256_S800000x1_S800000x256_1_0_n_n_0_1_1256
          (truncf .bf16 (mulf xw (bcastN d)) bitsLt_bf16_f32) (wrapIdx row)) bitsLt_bf16_f32 (ix2 e q))
      = ∑ e ∈ Finset.univ.filter (fun e => landOf col e = some n),
          xw (ix2 (gidx row e) q) * Cert.Spec.dinv (landOf col) (gidx row e) :=
    Finset.sum_congr rfl fun e _ => by
      rw [extf_apply, gatherRow, truncf_apply, mulf_apply, bcastN_apply, hd]
  rw [hsum]
end

/-- A vector of 50000 entries cast to one column: entry (n, 0) is entry n. -/
theorem col_apply (x : FVec Ideal S50000 .f32) (n : Fin 50000) :
    shapeCast S50000x1 x shapeCasts_S50000_S50000x1 (ix2 n (0 : Fin 1)) = x (ix1 n) :=
  shapeCast_apply x _ _ _ (by
    rw [Shape.rowMajor_val_two, Shape.rowMajor_val_one]
    show n.val = n.val * 1 + 0
    omega)

/-! ## The first layer's stretch -/

section
variable (Vin : Valuation τ sig (Elt Ideal))

set_option maxHeartbeats 1000000 in
theorem v30_eq : (StableHlo.after (hostOps1 (F := Ideal)) Vin (Proc.devRef .tc main_v30) : FVec Ideal S50000x256 .f32)
    = aggTerm (Vin (Proc.devRef .tc main_v12)) (Vin (Proc.devRef .tc main_v10)) (Vin (Proc.devRef .tc main_v1))
        (Vin (Proc.devRef .tc main_v3)) := by
  dsimp only [hostOps1]; after_results_simp; rfl

set_option maxHeartbeats 1000000 in
theorem v31_eq : (StableHlo.after (hostOps1 (F := Ideal)) Vin (Proc.devRef .tc main_v31) : FVec Ideal S50000x1 .f32)
    = shapeCast S50000x1 (Vin (Proc.devRef .tc main_v11) : FVec Ideal S50000 .f32) shapeCasts_S50000_S50000x1 := by
  dsimp only [hostOps1]; after_results_simp; rfl

set_option maxHeartbeats 1000000 in
theorem v32_eq : (StableHlo.after (hostOps1 (F := Ideal)) Vin (Proc.devRef .tc main_v32) : FVec Ideal S1x256 .f32)
    = shapeCast S1x256 (Vin (Proc.devRef .tc main_arg4) : FVec Ideal S256 .f32) shapeCasts_S256_S1x256 := by
  dsimp only [hostOps1]; after_results_simp; rfl

/-- The squared scale as a column. -/
theorem v31_apply (n : Fin 50000) :
    (StableHlo.after (hostOps1 (F := Ideal)) Vin (Proc.devRef .tc main_v31) : FVec Ideal S50000x1 .f32) (ix2 n (0 : Fin 1))
      = (Vin (Proc.devRef .tc main_v11) : FVec Ideal S50000 .f32) (ix1 n) := by
  rw [v31_eq]
  exact col_apply _ n

/-- The bias as a row: entry (0, q) is entry q. -/
theorem v32_apply (q : Fin 256) :
    (StableHlo.after (hostOps1 (F := Ideal)) Vin (Proc.devRef .tc main_v32) : FVec Ideal S1x256 .f32) (ix2 (0 : Fin 1) q)
      = (Vin (Proc.devRef .tc main_arg4) : FVec Ideal S256 .f32) (ix1 q) := by
  rw [v32_eq]
  exact shapeCast_a_1a_apply _ _ _ _

/-- The aggregate of the first layer's dense product, when the scale array holds dinv. -/
theorem v30_apply (row col : IVec S800000 32)
    (h1 : (Vin (Proc.devRef .tc main_v1) : IVec S800000 32) = row)
    (h3 : (Vin (Proc.devRef .tc main_v3) : IVec S800000 32) = col)
    (hd : ∀ n : Fin 50000, (Vin (Proc.devRef .tc main_v10) : FVec Ideal S50000 .f32) (ix1 n) = Cert.Spec.dinv (landOf col) n)
    (n : Fin 50000) (q : Fin 256) :
    (StableHlo.after (hostOps1 (F := Ideal)) Vin (Proc.devRef .tc main_v30) : FVec Ideal S50000x256 .f32) (ix2 n q)
      = Cert.Spec.aggK (gidx row) (landOf col)
          (fun p q => (Vin (Proc.devRef .tc main_v12) : FVec Ideal S50000x256 .f32) (ix2 p q)) n q := by
  subst h1 h3
  rw [v30_eq]
  exact aggTerm_apply _ _ _ _ hd n q
end

/-! ## The second layer's stretch -/

section
variable (Vin : Valuation τ sig (Elt Ideal))

set_option maxHeartbeats 1000000 in
theorem v67_eq : (StableHlo.after (hostOps4 (F := Ideal)) Vin (Proc.devRef .tc main_v67) : FVec Ideal S50000x256 .f32)
    = aggTerm (Vin (Proc.devRef .tc main_v49)) (Vin (Proc.devRef .tc main_v10)) (Vin (Proc.devRef .tc main_v1))
        (Vin (Proc.devRef .tc main_v3)) := by
  dsimp only [hostOps4]; after_results_simp; rfl

set_option maxHeartbeats 1000000 in
theorem v68_eq : (StableHlo.after (hostOps4 (F := Ideal)) Vin (Proc.devRef .tc main_v68) : FVec Ideal S50000x1 .f32)
    = shapeCast S50000x1 (Vin (Proc.devRef .tc main_v11) : FVec Ideal S50000 .f32) shapeCasts_S50000_S50000x1 := by
  dsimp only [hostOps4]; after_results_simp; rfl

set_option maxHeartbeats 1000000 in
theorem v69_eq : (StableHlo.after (hostOps4 (F := Ideal)) Vin (Proc.devRef .tc main_v69) : FVec Ideal S1x256 .f32)
    = shapeCast S1x256 (Vin (Proc.devRef .tc main_arg8) : FVec Ideal S256 .f32) shapeCasts_S256_S1x256 := by
  dsimp only [hostOps4]; after_results_simp; rfl

/-- The squared scale as a column. -/
theorem v68_apply (n : Fin 50000) :
    (StableHlo.after (hostOps4 (F := Ideal)) Vin (Proc.devRef .tc main_v68) : FVec Ideal S50000x1 .f32) (ix2 n (0 : Fin 1))
      = (Vin (Proc.devRef .tc main_v11) : FVec Ideal S50000 .f32) (ix1 n) := by
  rw [v68_eq]
  exact col_apply _ n

/-- The bias as a row: entry (0, q) is entry q. -/
theorem v69_apply (q : Fin 256) :
    (StableHlo.after (hostOps4 (F := Ideal)) Vin (Proc.devRef .tc main_v69) : FVec Ideal S1x256 .f32) (ix2 (0 : Fin 1) q)
      = (Vin (Proc.devRef .tc main_arg8) : FVec Ideal S256 .f32) (ix1 q) := by
  rw [v69_eq]
  exact shapeCast_a_1a_apply _ _ _ _

/-- The aggregate of the second layer's dense product, when the scale array holds dinv. -/
theorem v67_apply (row col : IVec S800000 32)
    (h1 : (Vin (Proc.devRef .tc main_v1) : IVec S800000 32) = row)
    (h3 : (Vin (Proc.devRef .tc main_v3) : IVec S800000 32) = col)
    (hd : ∀ n : Fin 50000, (Vin (Proc.devRef .tc main_v10) : FVec Ideal S50000 .f32) (ix1 n) = Cert.Spec.dinv (landOf col) n)
    (n : Fin 50000) (q : Fin 256) :
    (StableHlo.after (hostOps4 (F := Ideal)) Vin (Proc.devRef .tc main_v67) : FVec Ideal S50000x256 .f32) (ix2 n q)
      = Cert.Spec.aggK (gidx row) (landOf col)
          (fun p q => (Vin (Proc.devRef .tc main_v49) : FVec Ideal S50000x256 .f32) (ix2 p q)) n q := by
  subst h1 h3
  rw [v67_eq]
  exact aggTerm_apply _ _ _ _ hd n q
end

/-! ## The third layer's stretch -/

section
variable (Vin : Valuation τ sig (Elt Ideal))

set_option maxHeartbeats 1000000 in
theorem v104_eq : (StableHlo.after (hostOps7 (F := Ideal)) Vin (Proc.devRef .tc main_v104) : FVec Ideal S50000x256 .f32)
    = aggTerm (Vin (Proc.devRef .tc main_v86)) (Vin (Proc.devRef .tc main_v10)) (Vin (Proc.devRef .tc main_v1))
        (Vin (Proc.devRef .tc main_v3)) := by
  dsimp only [hostOps7]; after_results_simp; rfl

set_option maxHeartbeats 1000000 in
theorem v105_eq : (StableHlo.after (hostOps7 (F := Ideal)) Vin (Proc.devRef .tc main_v105) : FVec Ideal S50000x1 .f32)
    = shapeCast S50000x1 (Vin (Proc.devRef .tc main_v11) : FVec Ideal S50000 .f32) shapeCasts_S50000_S50000x1 := by
  dsimp only [hostOps7]; after_results_simp; rfl

set_option maxHeartbeats 1000000 in
theorem v106_eq : (StableHlo.after (hostOps7 (F := Ideal)) Vin (Proc.devRef .tc main_v106) : FVec Ideal S1x256 .f32)
    = shapeCast S1x256 (Vin (Proc.devRef .tc main_arg12) : FVec Ideal S256 .f32) shapeCasts_S256_S1x256 := by
  dsimp only [hostOps7]; after_results_simp; rfl

/-- The squared scale as a column. -/
theorem v105_apply (n : Fin 50000) :
    (StableHlo.after (hostOps7 (F := Ideal)) Vin (Proc.devRef .tc main_v105) : FVec Ideal S50000x1 .f32) (ix2 n (0 : Fin 1))
      = (Vin (Proc.devRef .tc main_v11) : FVec Ideal S50000 .f32) (ix1 n) := by
  rw [v105_eq]
  exact col_apply _ n

/-- The bias as a row: entry (0, q) is entry q. -/
theorem v106_apply (q : Fin 256) :
    (StableHlo.after (hostOps7 (F := Ideal)) Vin (Proc.devRef .tc main_v106) : FVec Ideal S1x256 .f32) (ix2 (0 : Fin 1) q)
      = (Vin (Proc.devRef .tc main_arg12) : FVec Ideal S256 .f32) (ix1 q) := by
  rw [v106_eq]
  exact shapeCast_a_1a_apply _ _ _ _

/-- The aggregate of the third layer's dense product, when the scale array holds dinv. -/
theorem v104_apply (row col : IVec S800000 32)
    (h1 : (Vin (Proc.devRef .tc main_v1) : IVec S800000 32) = row)
    (h3 : (Vin (Proc.devRef .tc main_v3) : IVec S800000 32) = col)
    (hd : ∀ n : Fin 50000, (Vin (Proc.devRef .tc main_v10) : FVec Ideal S50000 .f32) (ix1 n) = Cert.Spec.dinv (landOf col) n)
    (n : Fin 50000) (q : Fin 256) :
    (StableHlo.after (hostOps7 (F := Ideal)) Vin (Proc.devRef .tc main_v104) : FVec Ideal S50000x256 .f32) (ix2 n q)
      = Cert.Spec.aggK (gidx row) (landOf col)
          (fun p q => (Vin (Proc.devRef .tc main_v86) : FVec Ideal S50000x256 .f32) (ix2 p q)) n q := by
  subst h1 h3
  rw [v104_eq]
  exact aggTerm_apply _ _ _ _ hd n q
end

end Cert.KHost1
end
-- ==== Proof.KHost2.lean ====
/-
  The third host stretch of the kernel-side program (and, with other array names, the same stretch of the two later
  layers), read at an index over the extended reals.

  From the column sums S1 (of the entries) and S2 (of their squares) it forms, per column, the mean S1/N and the
  variance max(S2/N − mean², 0), N the node count 50000 as a float word; the scale and shift vectors become rows.
-/
import proofs.«142371_j48498770706497_2_alg».proof.Proof.Gen.KernelIdeal.Launch
import proofs.«142371_j48498770706497_2_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

set_option maxRecDepth 1628

noncomputable section

namespace Cert.KHost2

open Idealize.ShloMosaic Idealize.ShloMosaic.TcCoe Idealize.ShloMosaic.ValueIdx
open Cert.KernelIdeal Cert.KernelIdeal.Gen

/-- The node count as the stretch's float word. -/
def nF : EReal := Ideal.ofBits .f32 0x47435000#32

/-- The node count repeated along the 256 columns. -/
def nFvec : FVec Ideal S256 .f32 := broadcastInDim S256 ![] bcast_S_S256 (constant (F := Ideal) S_ .f32 0x47435000#32)

/-- The column means as the stretch spells them. -/
def meanTerm (s1 : FVec Ideal S1x256 .f32) : FVec Ideal S256 .f32 :=
  Host.divf (shapeCast S256 s1 shapeCasts_S1x256_S256) nFvec

/-- The column variances as the stretch spells them. -/
def varTerm (s1 s2 : FVec Ideal S1x256 .f32) : FVec Ideal S256 .f32 :=
  maximumf
    (subf (Host.divf (shapeCast S256 s2 shapeCasts_S1x256_S256) nFvec) (mulf (meanTerm s1) (meanTerm s1)))
    (broadcastInDim S256 ![] bcast_S_S256 (constant (F := Ideal) S_ .f32 0x00000000#32))

theorem hostDivf_apply {s : Shape} (x y : FVec Ideal s .f32) (i : s.Idx) : Host.divf x y i = Ideal.div (x i) (y i) := rfl

theorem nFvec_apply (j : S256.Idx) : nFvec j = nF := rfl

theorem zeroH_apply (j : S256.Idx) :
    broadcastInDim S256 ![] bcast_S_S256 (constant (F := Ideal) S_ .f32 0x00000000#32) j = 0 := Ideal.ofBits_zero_f32

/-- A row cast to a flat vector: entry q is entry (0, q). -/
theorem flat_apply (x : FVec Ideal S1x256 .f32) (q : Fin 256) :
    shapeCast S256 x shapeCasts_S1x256_S256 (ix1 q) = x (ix2 (0 : Fin 1) q) := shapeCast_1a_a_apply _ _ _

/-- A flat vector cast to a row: entry (0, q) is entry q. -/
theorem row_apply (x : FVec Ideal S256 .f32) (q : Fin 256) :
    shapeCast S1x256 x shapeCasts_S256_S1x256 (ix2 (0 : Fin 1) q) = x (ix1 q) := shapeCast_a_1a_apply _ _ _ _

theorem meanTerm_apply (s1 : FVec Ideal S1x256 .f32) (q : Fin 256) :
    meanTerm s1 (ix1 q) = Ideal.div (s1 (ix2 (0 : Fin 1) q)) nF := by
  unfold meanTerm
  rw [hostDivf_apply, flat_apply, nFvec_apply]

theorem varTerm_apply (s1 s2 : FVec Ideal S1x256 .f32) (q : Fin 256) :
    varTerm s1 s2 (ix1 q)
      = max (Ideal.div (s2 (ix2 (0 : Fin 1) q)) nF
          - Ideal.div (s1 (ix2 (0 : Fin 1) q)) nF * Ideal.div (s1 (ix2 (0 : Fin 1) q)) nF) 0 := by
  unfold varTerm
  rw [maximumf_apply, subf_apply, mulf_apply, hostDivf_apply, flat_apply, nFvec_apply, meanTerm_apply, zeroH_apply]

/-! ## The first layer's stretch -/

section
variable (Vin : Valuation τ sig (Elt Ideal))

theorem v46_eq : (StableHlo.after (hostOps2 (F := Ideal)) Vin (Proc.devRef .tc main_v46) : FVec Ideal S1x256 .f32)
    = shapeCast S1x256 (meanTerm (Vin (Proc.devRef .tc main_v33_1))) shapeCasts_S256_S1x256 := by
  dsimp only [hostOps2]; after_results_simp; rfl

theorem v47_eq : (StableHlo.after (hostOps2 (F := Ideal)) Vin (Proc.devRef .tc main_v47) : FVec Ideal S1x256 .f32)
    = shapeCast S1x256 (varTerm (Vin (Proc.devRef .tc main_v33_1)) (Vin (Proc.devRef .tc main_v33_2))) shapeCasts_S256_S1x256 := by
  dsimp only [hostOps2]; after_results_simp; rfl

theorem v44_eq : (StableHlo.after (hostOps2 (F := Ideal)) Vin (Proc.devRef .tc main_v44) : FVec Ideal S1x256 .f32)
    = shapeCast S1x256 (Vin (Proc.devRef .tc main_arg5) : FVec Ideal S256 .f32) shapeCasts_S256_S1x256 := by
  dsimp only [hostOps2]; after_results_simp; rfl

theorem v45_eq : (StableHlo.after (hostOps2 (F := Ideal)) Vin (Proc.devRef .tc main_v45) : FVec Ideal S1x256 .f32)
    = shapeCast S1x256 (Vin (Proc.devRef .tc main_arg6) : FVec Ideal S256 .f32) shapeCasts_S256_S1x256 := by
  dsimp only [hostOps2]; after_results_simp; rfl

/-- The mean row: the column sum over the node count. -/
theorem v46_apply (q : Fin 256) :
    (StableHlo.after (hostOps2 (F := Ideal)) Vin (Proc.devRef .tc main_v46) : FVec Ideal S1x256 .f32) (ix2 (0 : Fin 1) q)
      = Ideal.div ((Vin (Proc.devRef .tc main_v33_1) : FVec Ideal S1x256 .f32) (ix2 (0 : Fin 1) q)) nF := by
  rw [v46_eq, row_apply, meanTerm_apply]

/-- The variance row: the mean of squares less the squared mean, kept at or above zero. -/
theorem v47_apply (q : Fin 256) :
    (StableHlo.after (hostOps2 (F := Ideal)) Vin (Proc.devRef .tc main_v47) : FVec Ideal S1x256 .f32) (ix2 (0 : Fin 1) q)
      = max (Ideal.div ((Vin (Proc.devRef .tc main_v33_2) : FVec Ideal S1x256 .f32) (ix2 (0 : Fin 1) q)) nF
          - Ideal.div ((Vin (Proc.devRef .tc main_v33_1) : FVec Ideal S1x256 .f32) (ix2 (0 : Fin 1) q)) nF
            * Ideal.div ((Vin (Proc.devRef .tc main_v33_1) : FVec Ideal S1x256 .f32) (ix2 (0 : Fin 1) q)) nF) 0 := by
  rw [v47_eq, row_apply, varTerm_apply]

/-- The scale vector as a row. -/
theorem v44_apply (q : Fin 256) :
    (StableHlo.after (hostOps2 (F := Ideal)) Vin (Proc.devRef .tc main_v44) : FVec Ideal S1x256 .f32) (ix2 (0 : Fin 1) q)
      = (Vin (Proc.devRef .tc main_arg5) : FVec Ideal S256 .f32) (ix1 q) := by
  rw [v44_eq, row_apply]

/-- The shift vector as a row. -/
theorem v45_apply (q : Fin 256) :
    (StableHlo.after (hostOps2 (F := Ideal)) Vin (Proc.devRef .tc main_v45) : FVec Ideal S1x256 .f32) (ix2 (0 : Fin 1) q)
      = (Vin (Proc.devRef .tc main_arg6) : FVec Ideal S256 .f32) (ix1 q) := by
  rw [v45_eq, row_apply]
end

/-! ## The second layer's stretch -/

section
variable (Vin : Valuation τ sig (Elt Ideal))

theorem v83_eq : (StableHlo.after (hostOps5 (F := Ideal)) Vin (Proc.devRef .tc main_v83) : FVec Ideal S1x256 .f32)
    = shapeCast S1x256 (meanTerm (Vin (Proc.devRef .tc main_v70_1))) shapeCasts_S256_S1x256 := by
  dsimp only [hostOps5]; after_results_simp; rfl

theorem v84_eq : (StableHlo.after (hostOps5 (F := Ideal)) Vin (Proc.devRef .tc main_v84) : FVec Ideal S1x256 .f32)
    = shapeCast S1x256 (varTerm (Vin (Proc.devRef .tc main_v70_1)) (Vin (Proc.devRef .tc main_v70_2))) shapeCasts_S256_S1x256 := by
  dsimp only [hostOps5]; after_results_simp; rfl

theorem v81_eq : (StableHlo.after (hostOps5 (F := Ideal)) Vin (Proc.devRef .tc main_v81) : FVec Ideal S1x256 .f32)
    = shapeCast S1x256 (Vin (Proc.devRef .tc main_arg9) : FVec Ideal S256 .f32) shapeCasts_S256_S1x256 := by
  dsimp only [hostOps5]; after_results_simp; rfl

theorem v82_eq : (StableHlo.after (hostOps5 (F := Ideal)) Vin (Proc.devRef .tc main_v82) : FVec Ideal S1x256 .f32)
    = shapeCast S1x256 (Vin (Proc.devRef .tc main_arg10) : FVec Ideal S256 .f32) shapeCasts_S256_S1x256 := by
  dsimp only [hostOps5]; after_results_simp; rfl

/-- The mean row: the column sum over the node count. -/
theorem v83_apply (q : Fin 256) :
    (StableHlo.after (hostOps5 (F := Ideal)) Vin (Proc.devRef .tc main_v83) : FVec Ideal S1x256 .f32) (ix2 (0 : Fin 1) q)
      = Ideal.div ((Vin (Proc.devRef .tc main_v70_1) : FVec Ideal S1x256 .f32) (ix2 (0 : Fin 1) q)) nF := by
  rw [v83_eq, row_apply, meanTerm_apply]

/-- The variance row: the mean of squares less the squared mean, kept at or above zero. -/
theorem v84_apply (q : Fin 256) :
    (StableHlo.after (hostOps5 (F := Ideal)) Vin (Proc.devRef .tc main_v84) : FVec Ideal S1x256 .f32) (ix2 (0 : Fin 1) q)
      = max (Ideal.div ((Vin (Proc.devRef .tc main_v70_2) : FVec Ideal S1x256 .f32) (ix2 (0 : Fin 1) q)) nF
          - Ideal.div ((Vin (Proc.devRef .tc main_v70_1) : FVec Ideal S1x256 .f32) (ix2 (0 : Fin 1) q)) nF
            * Ideal.div ((Vin (Proc.devRef .tc main_v70_1) : FVec Ideal S1x256 .f32) (ix2 (0 : Fin 1) q)) nF) 0 := by
  rw [v84_eq, row_apply, varTerm_apply]

/-- The scale vector as a row. -/
theorem v81_apply (q : Fin 256) :
    (StableHlo.after (hostOps5 (F := Ideal)) Vin (Proc.devRef .tc main_v81) : FVec Ideal S1x256 .f32) (ix2 (0 : Fin 1) q)
      = (Vin (Proc.devRef .tc main_arg9) : FVec Ideal S256 .f32) (ix1 q) := by
  rw [v81_eq, row_apply]

/-- The shift vector as a row. -/
theorem v82_apply (q : Fin 256) :
    (StableHlo.after (hostOps5 (F := Ideal)) Vin (Proc.devRef .tc main_v82) : FVec Ideal S1x256 .f32) (ix2 (0 : Fin 1) q)
      = (Vin (Proc.devRef .tc main_arg10) : FVec Ideal S256 .f32) (ix1 q) := by
  rw [v82_eq, row_apply]
end

/-! ## The third layer's stretch -/

section
variable (Vin : Valuation τ sig (Elt Ideal))

theorem v120_eq : (StableHlo.after (hostOps8 (F := Ideal)) Vin (Proc.devRef .tc main_v120) : FVec Ideal S1x256 .f32)
    = shapeCast S1x256 (meanTerm (Vin (Proc.devRef .tc main_v107_1))) shapeCasts_S256_S1x256 := by
  dsimp only [hostOps8]; after_results_simp; rfl

theorem v121_eq : (StableHlo.after (hostOps8 (F := Ideal)) Vin (Proc.devRef .tc main_v121) : FVec Ideal S1x256 .f32)
    = shapeCast S1x256 (varTerm (Vin (Proc.devRef .tc main_v107_1)) (Vin (Proc.devRef .tc main_v107_2))) shapeCasts_S256_S1x256 := by
  dsimp only [hostOps8]; after_results_simp; rfl

theorem v118_eq : (StableHlo.after (hostOps8 (F := Ideal)) Vin (Proc.devRef .tc main_v118) : FVec Ideal S1x256 .f32)
    = shapeCast S1x256 (Vin (Proc.devRef .tc main_arg13) : FVec Ideal S256 .f32) shapeCasts_S256_S1x256 := by
  dsimp only [hostOps8]; after_results_simp; rfl

theorem v119_eq : (StableHlo.after (hostOps8 (F := Ideal)) Vin (Proc.devRef .tc main_v119) : FVec Ideal S1x256 .f32)
    = shapeCast S1x256 (Vin (Proc.devRef .tc main_arg14) : FVec Ideal S256 .f32) shapeCasts_S256_S1x256 := by
  dsimp only [hostOps8]; after_results_simp; rfl

/-- The mean row: the column sum over the node count. -/
theorem v120_apply (q : Fin 256) :
    (StableHlo.after (hostOps8 (F := Ideal)) Vin (Proc.devRef .tc main_v120) : FVec Ideal S1x256 .f32) (ix2 (0 : Fin 1) q)
      = Ideal.div ((Vin (Proc.devRef .tc main_v107_1) : FVec Ideal S1x256 .f32) (ix2 (0 : Fin 1) q)) nF := by
  rw [v120_eq, row_apply, meanTerm_apply]

/-- The variance row: the mean of squares less the squared mean, kept at or above zero. -/
theorem v121_apply (q : Fin 256) :
    (StableHlo.after (hostOps8 (F := Ideal)) Vin (Proc.devRef .tc main_v121) : FVec Ideal S1x256 .f32) (ix2 (0 : Fin 1) q)
      = max (Ideal.div ((Vin (Proc.devRef .tc main_v107_2) : FVec Ideal S1x256 .f32) (ix2 (0 : Fin 1) q)) nF
          - Ideal.div ((Vin (Proc.devRef .tc main_v107_1) : FVec Ideal S1x256 .f32) (ix2 (0 : Fin 1) q)) nF
            * Ideal.div ((Vin (Proc.devRef .tc main_v107_1) : FVec Ideal S1x256 .f32) (ix2 (0 : Fin 1) q)) nF) 0 := by
  rw [v121_eq, row_apply, varTerm_apply]

/-- The scale vector as a row. -/
theorem v118_apply (q : Fin 256) :
    (StableHlo.after (hostOps8 (F := Ideal)) Vin (Proc.devRef .tc main_v118) : FVec Ideal S1x256 .f32) (ix2 (0 : Fin 1) q)
      = (Vin (Proc.devRef .tc main_arg13) : FVec Ideal S256 .f32) (ix1 q) := by
  rw [v118_eq, row_apply]

/-- The shift vector as a row. -/
theorem v119_apply (q : Fin 256) :
    (StableHlo.after (hostOps8 (F := Ideal)) Vin (Proc.devRef .tc main_v119) : FVec Ideal S1x256 .f32) (ix2 (0 : Fin 1) q)
      = (Vin (Proc.devRef .tc main_arg14) : FVec Ideal S256 .f32) (ix1 q) := by
  rw [v119_eq, row_apply]
end

end Cert.KHost2
end
-- ==== Proof.KNet0.lean ====
/-
  The first layer of the kernel-side program, along the chain of buffer contents.

  The program alternates host stretches and kernel regions. Between two items every buffer holds known contents;
  an item is described by what it leaves in the buffers it writes and by leaving every other buffer alone. Followed
  from the launch contents through the first host stretch (edge endpoints, degree scale and its square), the dense
  product, the second host stretch (messages scaled at the source, summed at the landing node, the sum scaled at the
  target; the squared scale as a column; the bias as a row), the totals with their column sums and sums of squares,
  the third host stretch (mean, and mean of squares less squared mean, kept at or above zero) and the normalising
  region, the output is the specification's scale-once layer of the launch arrays.
-/
import proofs.«142371_j48498770706497_2_alg».proof.Proof.Gen.KernelIdeal.Regions
import proofs.«142371_j48498770706497_2_alg».proof.Proof.Spec
import proofs.«142371_j48498770706497_2_alg».proof.Proof.EdgeIdx
import proofs.«142371_j48498770706497_2_alg».proof.Proof.KPieces
import proofs.«142371_j48498770706497_2_alg».proof.Proof.KHost0
import proofs.«142371_j48498770706497_2_alg».proof.Proof.KHost1
import proofs.«142371_j48498770706497_2_alg».proof.Proof.KHost2
import Idealize.ShloMosaic.Lib.StableHlo.Run
import Idealize.ShloMosaic.Lib.ValueIdx

set_option maxRecDepth 1628

noncomputable section

namespace Cert.KNet

open Idealize.ShloMosaic Idealize.ShloMosaic.TcCoe Idealize.ShloMosaic.ValueIdx
open Cert.KernelIdeal Cert.KernelIdeal.Gen
open scoped BigOperators

/-! ## What a host stretch does not write it leaves alone -/

theorem keep0 (V : Valuation τ sig (Elt Ideal)) (r : Ref sig .tc) (h : r ∉ hostOps0_W) :
    StableHlo.after (hostOps0 (F := Ideal)) V (Proc.devRef .tc r) = V (Proc.devRef .tc r) :=
  StableHlo.after_of_writes_sub hostOps0 V hostOps0_writes h

theorem keep1 (V : Valuation τ sig (Elt Ideal)) (r : Ref sig .tc) (h : r ∉ hostOps1_W) :
    StableHlo.after (hostOps1 (F := Ideal)) V (Proc.devRef .tc r) = V (Proc.devRef .tc r) :=
  StableHlo.after_of_writes_sub hostOps1 V hostOps1_writes h

theorem keep2 (V : Valuation τ sig (Elt Ideal)) (r : Ref sig .tc) (h : r ∉ hostOps2_W) :
    StableHlo.after (hostOps2 (F := Ideal)) V (Proc.devRef .tc r) = V (Proc.devRef .tc r) :=
  StableHlo.after_of_writes_sub hostOps2 V hostOps2_writes h

/-! ## The first layer along the chain of buffer contents -/

/-- One entry of the total: the aggregate, plus the product's entry times the squared scale, plus the bias. -/
def totAt (a x d b : EReal) : EReal := a + x * d + b

/-- One entry normalised by a mean and a variance, scaled, shifted and clamped at zero. -/
def bnAt (g t mu var be : EReal) : EReal :=
  max (g * (t - mu) * Ideal.rsqrt (var + Ideal.ofBits .f32 0x3727C5AC#32) + be) 0

section Layer0

variable (W0 W1 W2 W3 W4 W5 : Valuation τ sig (Elt Ideal))
variable (T : Fin 50000 → Fin 256 → EReal) (OUT : S50000x256.Idx → EReal)

/-- From the launch contents W0: the first host stretch (W1), the dense product (W2), the second host stretch (W3),
    the totals and their column sums (W4), the third host stretch (W5), and the normalised, clamped output OUT.
    Each step is given by what it leaves where it writes and by leaving every other buffer alone; the output is
    the scale-once layer of the launch arrays. -/
theorem layer0_chain
    (e1 : W1 = StableHlo.after (hostOps0 (F := Ideal)) W0)
    (f2 : ∀ r : Ref sig .tc, r ∉ ([main_v12] : List (Ref sig .tc)) → W2 (Proc.devRef .tc r) = W1 (Proc.devRef .tc r))
    (o2 : ∀ (p : Fin 50000) (q : Fin 256), (W2 (Proc.devRef .tc main_v12) : S50000x256.Idx → EReal) (ix2 p q)
        = Cert.Spec.mm (fun p k => (W1 (Proc.devRef .tc main_arg0) : S50000x128.Idx → EReal) (ix2 p k))
            (fun k q => (W1 (Proc.devRef .tc main_arg3) : S128x256.Idx → EReal) (ix2 k q)) p q)
    (e3 : W3 = StableHlo.after (hostOps1 (F := Ideal)) W2)
    (f4 : ∀ r : Ref sig .tc, r ∉ ([main_v33_0, main_v33_1, main_v33_2] : List (Ref sig .tc)) →
        W4 (Proc.devRef .tc r) = W3 (Proc.devRef .tc r))
    (hT : ∀ (p : Fin 50000) (q : Fin 256), T p q
        = totAt ((W3 (Proc.devRef .tc main_v30) : S50000x256.Idx → EReal) (ix2 p q))
            ((W3 (Proc.devRef .tc main_v12) : S50000x256.Idx → EReal) (ix2 p q))
            ((W3 (Proc.devRef .tc main_v31) : S50000x1.Idx → EReal) (ix2 p (0 : Fin 1)))
            ((W3 (Proc.devRef .tc main_v32) : S1x256.Idx → EReal) (ix2 (0 : Fin 1) q)))
    (o4 : ∀ (p : Fin 50000) (q : Fin 256), (W4 (Proc.devRef .tc main_v33_0) : S50000x256.Idx → EReal) (ix2 p q) = T p q)
    (o4s : ∀ q : Fin 256, (W4 (Proc.devRef .tc main_v33_1) : S1x256.Idx → EReal) (ix2 (0 : Fin 1) q) = ∑ p : Fin 50000, T p q)
    (o4q : ∀ q : Fin 256, (W4 (Proc.devRef .tc main_v33_2) : S1x256.Idx → EReal) (ix2 (0 : Fin 1) q)
        = ∑ p : Fin 50000, T p q * T p q)
    (e5 : W5 = StableHlo.after (hostOps2 (F := Ideal)) W4)
    (o6 : ∀ (p : Fin 50000) (q : Fin 256), OUT (ix2 p q)
        = bnAt ((W5 (Proc.devRef .tc main_v44) : S1x256.Idx → EReal) (ix2 (0 : Fin 1) q))
            ((W5 (Proc.devRef .tc main_v33_0) : S50000x256.Idx → EReal) (ix2 p q))
            ((W5 (Proc.devRef .tc main_v46) : S1x256.Idx → EReal) (ix2 (0 : Fin 1) q))
            ((W5 (Proc.devRef .tc main_v47) : S1x256.Idx → EReal) (ix2 (0 : Fin 1) q))
            ((W5 (Proc.devRef .tc main_v45) : S1x256.Idx → EReal) (ix2 (0 : Fin 1) q)))
    (n : Fin 50000) (q : Fin 256) :
    OUT (ix2 n q)
      = Cert.Spec.layerK (Cert.EdgeIdx.gidx (Cert.KHost0.rowOf (W0 (Proc.devRef .tc main_arg1))))
          (Cert.EdgeIdx.landOf (Cert.KHost0.colOf (W0 (Proc.devRef .tc main_arg1))))
          (Ideal.ofBits .f32 0x47435000#32) (Ideal.ofBits .f32 0x3727C5AC#32)
          (fun p k => (W0 (Proc.devRef .tc main_arg0) : S50000x128.Idx → EReal) (ix2 p k))
          (fun k q => (W0 (Proc.devRef .tc main_arg3) : S128x256.Idx → EReal) (ix2 k q))
          (fun q => (W0 (Proc.devRef .tc main_arg4) : S256.Idx → EReal) (ix1 q))
          (fun q => (W0 (Proc.devRef .tc main_arg5) : S256.Idx → EReal) (ix1 q))
          (fun q => (W0 (Proc.devRef .tc main_arg6) : S256.Idx → EReal) (ix1 q)) n q := by
  subst e1 e3 e5
  -- the edge endpoints and the degree scale, as the later steps find them
  have hrow : (W2 (Proc.devRef .tc main_v1) : IVec S800000 32) = Cert.KHost0.rowOf (W0 (Proc.devRef .tc main_arg1)) := by
    rw [f2 main_v1 (by decide)]; exact Cert.KHost0.v1_eq W0
  have hcol : (W2 (Proc.devRef .tc main_v3) : IVec S800000 32) = Cert.KHost0.colOf (W0 (Proc.devRef .tc main_arg1)) := by
    rw [f2 main_v3 (by decide)]; exact Cert.KHost0.v3_eq W0
  have hd : ∀ n : Fin 50000, (W2 (Proc.devRef .tc main_v10) : FVec Ideal S50000 .f32) (ix1 n)
      = Cert.Spec.dinv (Cert.EdgeIdx.landOf (Cert.KHost0.colOf (W0 (Proc.devRef .tc main_arg1)))) n := by
    intro n; rw [f2 main_v10 (by decide)]; exact Cert.KHost0.v10_apply W0 n
  refine Cert.Spec.layerK_of_pieces _ _ Cert.KHost2.nF _ _ _ _ _ _
    (fun p q => (W2 (Proc.devRef .tc main_v12) : S50000x256.Idx → EReal) (ix2 p q))
    (fun n q => (StableHlo.after (hostOps1 (F := Ideal)) W2 (Proc.devRef .tc main_v30) : S50000x256.Idx → EReal) (ix2 n q))
    T
    (fun n => (StableHlo.after (hostOps1 (F := Ideal)) W2 (Proc.devRef .tc main_v31) : S50000x1.Idx → EReal) (ix2 n (0 : Fin 1)))
    (fun q => (W4 (Proc.devRef .tc main_v33_1) : S1x256.Idx → EReal) (ix2 (0 : Fin 1) q))
    (fun q => (W4 (Proc.devRef .tc main_v33_2) : S1x256.Idx → EReal) (ix2 (0 : Fin 1) q))
    (fun q => (StableHlo.after (hostOps2 (F := Ideal)) W4 (Proc.devRef .tc main_v46) : S1x256.Idx → EReal) (ix2 (0 : Fin 1) q))
    (fun q => (StableHlo.after (hostOps2 (F := Ideal)) W4 (Proc.devRef .tc main_v47) : S1x256.Idx → EReal) (ix2 (0 : Fin 1) q))
    (fun n q => OUT (ix2 n q)) ?hxw ?hag ?hd2 ?hT ?hS1 ?hS2 ?hmu ?hvar ?hout n q
  case hxw =>
    intro p q
    have h := o2 p q
    rw [keep0 W0 main_arg0 (by decide), keep0 W0 main_arg3 (by decide)] at h
    exact h
  case hag =>
    intro n q
    exact Cert.KHost1.v30_apply W2 _ _ hrow hcol hd n q
  case hd2 =>
    intro n
    refine (Cert.KHost1.v31_apply W2 n).trans ?_
    rw [f2 main_v11 (by decide)]
    exact Cert.KHost0.v11_apply W0 n
  case hT =>
    intro n q
    have h := hT n q
    rw [keep1 W2 main_v12 (by decide), Cert.KHost1.v32_apply W2 q, f2 main_arg4 (by decide),
      keep0 W0 main_arg4 (by decide)] at h
    exact h
  case hS1 => exact o4s
  case hS2 => exact o4q
  case hmu => intro q; exact Cert.KHost2.v46_apply W4 q
  case hvar => intro q; exact Cert.KHost2.v47_apply W4 q
  case hout =>
    intro n q
    have h := o6 n q
    rw [Cert.KHost2.v44_apply W4 q, f4 main_arg5 (by decide), keep1 W2 main_arg5 (by decide), f2 main_arg5 (by decide),
      keep0 W0 main_arg5 (by decide),
      Cert.KHost2.v45_apply W4 q, f4 main_arg6 (by decide), keep1 W2 main_arg6 (by decide), f2 main_arg6 (by decide),
      keep0 W0 main_arg6 (by decide),
      keep2 W4 main_v33_0 (by decide), o4 n q] at h
    exact h

end Layer0

end Cert.KNet

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.RegMatmul0Value.lean ====
/-
  The first matrix product's result, index by index, at the ideal model.

  At the ideal model a change of format is the identity and the product into a zero accumulator is the plain sum,
  so what the body leaves in the result's buffer at point t, at (a, q), is the sum over k of x-block(a, k) · w(k, q).
  Block t of x is rows 2000·t … of x, w's block is all of w, and block t of the result is rows 2000·t … of the
  result; so what point t writes back is block t of ONE function of the two arrays,
      G(p, q) = ∑ k, x(p, k) · w(k, q),
  and since the 25 blocks cover the 50000 rows (row p is in block p / 2000), the result's array ends holding G.
-/
import proofs.«142371_j48498770706497_2_alg».proof.Proof.RegMatmul0
import proofs.«142371_j48498770706497_2_alg».proof.Proof.LibPlainDot
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen

open Idealize.ShloMosaic Idealize.ShloMosaic.TcCoe Idealize.ShloMosaic.ValueIdx Idealize.SL.Sem
open Idealize.ShloMosaic.Pipeline (Dat)

-- the TensorCore's unscoped buffer contents when the region is entered, at the ideal model
variable (V : (c : Dev nD) → (b : Ref sig .tc) → Buf (Elt Ideal) ((c : Thread nD τ).loc b))

/-! ## The payload at an index -/

/-- The body's payload at (a, q): the change of format is the identity, the accumulator is zero, the contraction is
    rows by columns — the sum over the inner coordinate of the products. -/
theorem pay_apply0 (x0 : Vec Ideal S2000x128 .f32) (x1 : Vec Ideal S128x256 .f32) (j : S2000x256.Idx) :
    k0_pay1 x0 x1 j = ∑ k : Fin 128, x0 (ix2 (j 0) k) * x1 (ix2 k (j 1)) := by
  unfold k0_pay1
  -- a reshape to the same shape, where the payload has one, is the identity
  try rw [shapeCast_self]
  exact LibPlainDot.matmul_zero_apply (M := 2000) (K := 128) (N := 256) none _ _ j

/-! ## From the blocks to the array -/

/-- The product of the two arrays, index by index. -/
def G0 (a0 : S50000x128.Idx → EReal) (a1 : S128x256.Idx → EReal) : S50000x256.Idx → EReal :=
  fun i => ∑ k : Fin 128, a0 (ix2 (i 0) k) * a1 (ix2 k (i 1))

/-- The three index maps over the grid: x's and the result's row-block is the point, every column-block is 0, and w
    does not move. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of G of the two arrays as the region finds them. -/
theorem flushed_eq0 (c : Dev nD) (t : Fin cfg0.N) :
    (dat0 V c).flushed 2 t = ((cfg0.win 2).blk t).view.read (Elt Ideal) (G0 (V c main_arg0) (V c main_arg3)) := by
  show (cfg0.win 2).cut (grid0.coords t) ((dat0 V c).after 2 t) = _
  rw [after0_2, out0_2_eq]
  obtain ⟨e0, e1, e2, e3, e4, e5⟩ := idx_facts0 t
  funext j
  obtain ⟨a, q, rfl⟩ : ∃ (a : Fin 2000) (q : Fin 256), j = ix2 a q := ⟨j 0, j 1, eq_ix2 j⟩
  show k0_pay1 (iblk0 V c 0 t) (iblk0 V c 1 t) (ix2 a q) = G0 (V c main_arg0) (V c main_arg3) (((cfg0.win 2).blk t).view.emb (ix2 a q))
  rw [pay_apply0]
  unfold G0
  refine Finset.sum_congr rfl fun k _ => ?_
  -- x's block at (a, k) is x at (2000·t + a, k); w's block at (k, q) is w at (k, q)
  have h0 : ((cfg0.win 0).blk t).view.emb (ix2 a k) = ix2 ((((cfg0.win 2).blk t).view.emb (ix2 a q)) 0) k := by
    funext d; apply Fin.ext
    match d with
    | ⟨0, _⟩ => show win0_0.index t (0 : Fin 2) * 2000 + 1 * a.val = win0_2.index t (0 : Fin 2) * 2000 + 1 * a.val; omega
    | ⟨1, _⟩ => show win0_0.index t (1 : Fin 2) * 128 + 1 * k.val = k.val; omega
  have h1 : ((cfg0.win 1).blk t).view.emb (ix2 k q) = ix2 k ((((cfg0.win 2).blk t).view.emb (ix2 a q)) 1) := by
    funext d; apply Fin.ext
    match d with
    | ⟨0, _⟩ => show win0_1.index t (0 : Fin 2) * 128 + 1 * k.val = k.val; omega
    | ⟨1, _⟩ => show win0_1.index t (1 : Fin 2) * 256 + 1 * q.val = win0_2.index t (1 : Fin 2) * 256 + 1 * q.val; omega
  exact congrArg₂ (fun u v : EReal => u * v)
    (congrArg (V c main_arg0 : S50000x128.Idx → EReal) h0) (congrArg (V c main_arg3 : S128x256.Idx → EReal) h1)

/-- An index of the result's array is in point t's block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v12).slice (win0_2.rect t)).set ↔ _
  rw [View.set_slice_whole, Rect.mem_set_unit]
  exact Iff.rfl

/-- Every index of the result's array is in some point's block: row p is in block p / 2000. -/
theorem cover_all0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, e4, e5⟩ := idx_facts0 t
  refine ⟨t, flush0_2 t, ?_⟩
  rw [mem_blk0]
  intro d
  match d with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The result's array after the region is G of the two arrays as the region finds them. -/
theorem final0 (c : Dev nD) : (dat0 V c).arrAt 2 cfg0.N = G0 (V c main_arg0) (V c main_arg3) :=
  (dat0 V c).arrAt_eq_of_cover 2 (G0 (V c main_arg0) (V c main_arg3)) (fun t _ => flushed_eq0 V c t) cover_all0

/-- G at (p, q). -/
theorem G0_apply (a0 : S50000x128.Idx → EReal) (a1 : S128x256.Idx → EReal) (p : Fin 50000) (q : Fin 256) :
    G0 a0 a1 (ix2 p q) = ∑ k : Fin 128, a0 (ix2 p k) * a1 (ix2 k q) := rfl

/-- The result's array after the region, at (p, q): the sum over k of x(p, k) · w(k, q), for x and w the two input
    arrays as the region finds them. -/
theorem out0_apply (c : Dev nD) (x : S50000x128.Idx → EReal) (w : S128x256.Idx → EReal)
    (hx : (V c main_arg0 : S50000x128.Idx → EReal) = x) (hw : (V c main_arg3 : S128x256.Idx → EReal) = w)
    (p : Fin 50000) (q : Fin 256) :
    (dat0 (F := Ideal) V c).arrAt 2 cfg0.N (ix2 p q) = ∑ k : Fin 128, x (ix2 p k) * w (ix2 k q) := by
  rw [final0, hx, hw, G0_apply]

end Cert.KernelIdeal.Hand

end
-- ==== Proof.BlockSum.lean ====
/-
  Column sums of a table of 50000 rows taken 2000 rows at a time: the 25 block sums add up to the whole sum, and an
  accumulator that starts at zero and adds one block at a time holds, after t blocks, the sum over the first 2000·t rows.
  Stated over any commutative additive monoid; the extended reals are one.
-/
import Mathlib.Algebra.BigOperators.Group.Finset.Basic
import Mathlib.Algebra.BigOperators.Fin
import Mathlib.Data.Fintype.BigOperators
import Mathlib.Data.EReal.Basic

namespace Cert.BlockSum

open Finset

/-- Row r of block t: the row 2000·t + r of the table. -/
def rowOf (t : Fin 25) (r : Fin 2000) : Fin 50000 := ⟨2000 * t.val + r.val, by omega⟩

@[simp] theorem rowOf_val (t : Fin 25) (r : Fin 2000) : (rowOf t r).val = 2000 * t.val + r.val := rfl

/-- The block of a row is its quotient by 2000. -/
theorem rowOf_div (t : Fin 25) (r : Fin 2000) : (rowOf t r).val / 2000 = t.val := by
  rw [rowOf_val]; omega

/-- The place of a row in its block is its remainder by 2000. -/
theorem rowOf_mod (t : Fin 25) (r : Fin 2000) : (rowOf t r).val % 2000 = r.val := by
  rw [rowOf_val]; omega

theorem div_lt (p : Fin 50000) : p.val / 2000 < 25 := by omega

theorem mod_lt (p : Fin 50000) : p.val % 2000 < 2000 := by omega

/-- Every row is the row of its quotient and remainder. -/
theorem eq_rowOf (p : Fin 50000) : p = rowOf ⟨p.val / 2000, div_lt p⟩ ⟨p.val % 2000, mod_lt p⟩ := by
  apply Fin.ext; rw [rowOf_val]; simp only; omega

theorem rowOf_injective (t : Fin 25) : Function.Injective (rowOf t) := by
  intro r1 r2 e
  have := congrArg Fin.val e
  simp only [rowOf_val] at this
  exact Fin.ext (by omega)

/-- Blocks and places against rows: a bijection. -/
def blockEquiv : Fin 25 × Fin 2000 ≃ Fin 50000 where
  toFun q := rowOf q.1 q.2
  invFun p := (⟨p.val / 2000, div_lt p⟩, ⟨p.val % 2000, mod_lt p⟩)
  left_inv := by
    rintro ⟨t, r⟩
    exact Prod.ext (Fin.ext (rowOf_div t r)) (Fin.ext (rowOf_mod t r))
  right_inv := fun p => (eq_rowOf p).symm

section Monoid

variable {M : Type*} [AddCommMonoid M]

/-- The sum of the 25 block sums is the sum over all rows. -/
theorem sum_blocks (f : Fin 50000 → M) : ∑ t : Fin 25, ∑ r : Fin 2000, f (rowOf t r) = ∑ p : Fin 50000, f p :=
  (Fintype.sum_prod_type' (fun t r => f (rowOf t r))).symm.trans (Equiv.sum_comp blockEquiv f)

/-- The accumulator: zero, then one block sum added per step, for the 25 steps there are. -/
def accTo (f : Fin 50000 → M) : ℕ → M
  | 0 => 0
  | t + 1 => accTo f t + (if h : t < 25 then ∑ r : Fin 2000, f (rowOf ⟨t, h⟩ r) else 0)

@[simp] theorem accTo_zero (f : Fin 50000 → M) : accTo f 0 = 0 := rfl

theorem accTo_succ (f : Fin 50000 → M) (t : ℕ) :
    accTo f (t + 1) = accTo f t + (if h : t < 25 then ∑ r : Fin 2000, f (rowOf ⟨t, h⟩ r) else 0) := rfl

theorem accTo_succ_of_lt (f : Fin 50000 → M) (t : ℕ) (h : t < 25) :
    accTo f (t + 1) = accTo f t + ∑ r : Fin 2000, f (rowOf ⟨t, h⟩ r) := by
  rw [accTo_succ, dif_pos h]

/-- The rows below 2000·(t+1) are the rows below 2000·t and the rows of block t. -/
theorem sum_below_succ (f : Fin 50000 → M) (t : ℕ) (h : t < 25) :
    ∑ p ∈ univ.filter (fun p : Fin 50000 => p.val < 2000 * (t + 1)), f p
      = ∑ p ∈ univ.filter (fun p : Fin 50000 => p.val < 2000 * t), f p + ∑ r : Fin 2000, f (rowOf ⟨t, h⟩ r) := by
  have hsplit : univ.filter (fun p : Fin 50000 => p.val < 2000 * (t + 1))
      = univ.filter (fun p : Fin 50000 => p.val < 2000 * t)
        ∪ univ.filter (fun p : Fin 50000 => 2000 * t ≤ p.val ∧ p.val < 2000 * (t + 1)) := by
    ext p
    simp only [mem_union, mem_filter, mem_univ, true_and]
    omega
  have hdisj : Disjoint (univ.filter (fun p : Fin 50000 => p.val < 2000 * t))
      (univ.filter (fun p : Fin 50000 => 2000 * t ≤ p.val ∧ p.val < 2000 * (t + 1))) := by
    rw [disjoint_filter]
    intro p _ h1 h2
    omega
  have hblock : ∑ r : Fin 2000, f (rowOf ⟨t, h⟩ r)
      = ∑ p ∈ univ.filter (fun p : Fin 50000 => 2000 * t ≤ p.val ∧ p.val < 2000 * (t + 1)), f p := by
    refine sum_bij (fun r _ => rowOf ⟨t, h⟩ r) ?_ ?_ ?_ ?_
    · intro r _
      have := r.isLt
      simp only [mem_filter, mem_univ, true_and, rowOf_val]
      omega
    · intro r1 _ r2 _ e
      exact rowOf_injective _ e
    · intro p hp
      simp only [mem_filter, mem_univ, true_and] at hp
      refine ⟨⟨p.val - 2000 * t, by omega⟩, mem_univ _, ?_⟩
      apply Fin.ext
      simp only [rowOf_val]
      omega
    · intro r _
      rfl
  rw [hsplit, sum_union hdisj, hblock]

/-- After t of the 25 steps the accumulator holds the sum over the rows below 2000·t. -/
theorem accTo_eq_partial (f : Fin 50000 → M) (t : ℕ) (ht : t ≤ 25) :
    accTo f t = ∑ p ∈ univ.filter (fun p : Fin 50000 => p.val < 2000 * t), f p := by
  induction t with
  | zero =>
    rw [accTo_zero]
    symm
    apply sum_eq_zero
    intro p hp
    simp only [mem_filter, mem_univ, true_and] at hp
    omega
  | succ t ih =>
    have h : t < 25 := by omega
    rw [accTo_succ_of_lt f t h, ih (by omega), sum_below_succ f t h]

/-- After all 25 steps the accumulator holds the sum over all rows. -/
theorem accTo_eq (f : Fin 50000 → M) : accTo f 25 = ∑ p : Fin 50000, f p := by
  have hall : univ.filter (fun p : Fin 50000 => p.val < 2000 * 25) = univ :=
    filter_true_of_mem (fun p _ => by have := p.isLt; omega)
  rw [accTo_eq_partial f 25 le_rfl, hall]

end Monoid

/-! The extended reals: their addition is associative and commutative with zero, so all of the above holds of them. -/

theorem sum_blocks_ereal (f : Fin 50000 → EReal) :
    ∑ t : Fin 25, ∑ r : Fin 2000, f (rowOf t r) = ∑ p : Fin 50000, f p := sum_blocks f

theorem accTo_eq_ereal (f : Fin 50000 → EReal) : accTo f 25 = ∑ p : Fin 50000, f p := accTo_eq f

theorem accTo_eq_partial_ereal (f : Fin 50000 → EReal) (t : ℕ) (ht : t ≤ 25) :
    accTo f t = ∑ p ∈ univ.filter (fun p : Fin 50000 => p.val < 2000 * t), f p := accTo_eq_partial f t ht

end Cert.BlockSum
-- ==== Proof.RegStats1Value.lean ====
/-
  Region 1 of the kernel-side program, its VALUE at the ideal model: what the three output arrays hold after the
  region, as functions of the four arrays the region finds.

  At every grid point the body forms the block of the total
      T(p, q) = agg(p, q) + xw(p, q) · d2(p) + b(q)
  (the aggregate, plus the product's entry times the row's squared scale, plus the column's bias), stores it to the
  first output's block, and adds the block's column sums of T and of T·T to two accumulators that start at zero.
  The 25 row-blocks cover the 50000 rows, so the first output ends holding T. The accumulators after n points hold
  the sums over the rows below 2000·n (induction on the point), so after the last point they hold the column sums
  over all rows; that is what the last point copies to the second and third outputs, whose one block is the array.
-/
import proofs.«142371_j48498770706497_2_alg».proof.Proof.RegStats1
import proofs.«142371_j48498770706497_2_alg».proof.Proof.BlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem

open scoped BigOperators
open Idealize.ShloMosaic.ValueIdx
open Idealize.ShloMosaic.Pipeline (Dat)

section AtIdeal

/-! ## The payloads at an index -/

/-- The block's total at (a, q): the aggregate, plus the product's entry times the row's scale, plus the column's bias. -/
theorem k1_pay3_apply (x0 x1 : Vec Ideal S2000x256 .f32) (x2 : Vec Ideal S2000x1 .f32) (x3 : Vec Ideal S1x256 .f32)
    (a : Fin 2000) (q : Fin 256) :
    k1_pay3 x0 x1 x2 x3 (ix2 a q)
      = (x0 (ix2 a q) : EReal) + x1 (ix2 a q) * x2 (ix2 a (0 : Fin 1)) + x3 (ix2 (0 : Fin 1) q) := by
  unfold k1_pay3
  simp only [shapeCast_self, addf, mulf]
  rw [broadcastTo_apply x2 broadcasts_S2000x1_S2000x256 (ix2 a q) (ix2 a (0 : Fin 1))
      (fun d => by match d with | ⟨0, _⟩ => rfl | ⟨1, _⟩ => rfl),
    broadcastTo_apply x3 broadcasts_S1x256_S2000x256 (ix2 a q) (ix2 (0 : Fin 1) q)
      (fun d => by match d with | ⟨0, _⟩ => rfl | ⟨1, _⟩ => rfl)]
  rfl

/-- The first accumulator's reset value is zero. -/
theorem k1_pay1_apply (q : Fin 256) : (k1_pay1 (F := Ideal) (ix2 (0 : Fin 1) q) : EReal) = 0 := by
  unfold k1_pay1
  simp only [shapeCast_self]
  exact Ideal.ofBits_zero_f32

/-- The second accumulator's reset value is zero. -/
theorem k1_pay2_apply (q : Fin 256) : (k1_pay2 (F := Ideal) (ix2 (0 : Fin 1) q) : EReal) = 0 := by
  unfold k1_pay2
  simp only [shapeCast_self]
  exact Ideal.ofBits_zero_f32

/-- The index the reduction over the rows reads for row k of column q. -/
theorem lift_col1 (q : Fin 256) (k : Fin 2000) : reduces_S2000x256_S256.lift (ix1 q) k = ix2 k q := by
  funext d
  match d with
  | ⟨0, _⟩ => rfl
  | ⟨1, _⟩ => rfl

/-- The reduction over the rows, at column q: the sum over the 2000 rows of the block. -/
theorem colsum1_apply (src : FVec Ideal S2000x256 .f32) (hφ : FKind.Formats FTy.f32)
    (hacc : (0x00000000#32 : BitVec FTy.f32.bits) = FKind.add.neutral FTy.f32 hφ) (q : Fin 256) :
    multiReduction .add [0] S256 src 0x00000000#32 reduces_S2000x256_S256 hφ hacc (ix1 q)
      = ∑ a : Fin 2000, (src (ix2 a q) : EReal) :=
  (Ideal.multiReduction_add_single src _ reduces_S2000x256_S256 hφ hacc (ix1 q)).trans
    (Finset.sum_congr rfl fun k _ => congrArg src (lift_col1 q k))

/-- The first accumulator's update at column q: what it held plus the block's column sum of the total. -/
theorem k1_pay4_apply (x0 x1 : Vec Ideal S2000x256 .f32) (x2 : Vec Ideal S2000x1 .f32) (x3 xs : Vec Ideal S1x256 .f32)
    (q : Fin 256) :
    k1_pay4 x0 x1 x2 x3 xs (ix2 (0 : Fin 1) q)
      = (xs (ix2 (0 : Fin 1) q) : EReal) + ∑ a : Fin 2000, (k1_pay3 x0 x1 x2 x3 (ix2 a q) : EReal) := by
  unfold k1_pay4
  simp only [shapeCast_self, addf]
  rw [shapeCast_a_1a_apply _ shapeCasts_S256_S1x256 (0 : Fin 1) q]
  exact congrArg (fun u : EReal => (xs (ix2 (0 : Fin 1) q) : EReal) + u) (colsum1_apply _ _ _ q)

/-- The second accumulator's update at column q: what it held plus the block's column sum of the total's square. -/
theorem k1_pay5_apply (x0 x1 : Vec Ideal S2000x256 .f32) (x2 : Vec Ideal S2000x1 .f32) (x3 xs : Vec Ideal S1x256 .f32)
    (q : Fin 256) :
    k1_pay5 x0 x1 x2 x3 xs (ix2 (0 : Fin 1) q)
      = (xs (ix2 (0 : Fin 1) q) : EReal)
        + ∑ a : Fin 2000, (k1_pay3 x0 x1 x2 x3 (ix2 a q) : EReal) * (k1_pay3 x0 x1 x2 x3 (ix2 a q) : EReal) := by
  unfold k1_pay5
  simp only [shapeCast_self, addf]
  rw [shapeCast_a_1a_apply _ shapeCasts_S256_S1x256 (0 : Fin 1) q]
  exact congrArg (fun u : EReal => (xs (ix2 (0 : Fin 1) q) : EReal) + u) (colsum1_apply _ _ _ q)

/-! ## The total, and the grid's index maps -/

/-- The total, index by index: the aggregate, plus the product's entry times the row's scale, plus the column's bias. -/
def T1 (agg xw : S50000x256.Idx → EReal) (d2 : S50000x1.Idx → EReal) (b : S1x256.Idx → EReal) :
    S50000x256.Idx → EReal :=
  fun i => agg i + xw i * d2 (ix2 (i 0) (0 : Fin 1)) + b (ix2 (0 : Fin 1) (i 1))

theorem T1_apply (agg xw : S50000x256.Idx → EReal) (d2 : S50000x1.Idx → EReal) (b : S1x256.Idx → EReal)
    (p : Fin 50000) (q : Fin 256) :
    T1 agg xw d2 b (ix2 p q) = agg (ix2 p q) + xw (ix2 p q) * d2 (ix2 p (0 : Fin 1)) + b (ix2 (0 : Fin 1) q) := rfl

/-- The column sums of a table, as a one-row table. -/
def colSum1 (T : S50000x256.Idx → EReal) : S1x256.Idx → EReal := fun j => ∑ p : Fin 50000, T (ix2 p (j 1))

theorem colSum1_apply (T : S50000x256.Idx → EReal) (q : Fin 256) :
    colSum1 T (ix2 (0 : Fin 1) q) = ∑ p : Fin 50000, T (ix2 p q) := rfl

/-- The grid has 25 points. -/
theorem N1_eq : cfg1.N = 25 := N_1

/-- A grid point as one of the 25 row-blocks. -/
abbrev pt1 (t : Fin cfg1.N) : Fin 25 := ⟨t.val, by have h : cfg1.N = 25 := N_1; have := t.isLt; omega⟩

/-- The index maps over the grid: the three row-blocked inputs and the first output sit at row-block t, column-block
    0; the bias and the two sums' outputs do not move. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

-- the TensorCore's unscoped buffer contents when the region is entered, at the ideal model
variable (V : (c : Dev nD) → (b : Ref sig .tc) → Buf (Elt Ideal) ((c : Thread nD τ).loc b))

/-- The four arrays the region finds, as functions into the extended reals, and the total of them. -/
abbrev agg1 (c : Dev nD) : S50000x256.Idx → EReal := V c main_v30
abbrev xw1 (c : Dev nD) : S50000x256.Idx → EReal := V c main_v12
abbrev dsq1 (c : Dev nD) : S50000x1.Idx → EReal := V c main_v31
abbrev bias1 (c : Dev nD) : S1x256.Idx → EReal := V c main_v32
abbrev tot1 (c : Dev nD) : S50000x256.Idx → EReal := T1 (agg1 V c) (xw1 V c) (dsq1 V c) (bias1 V c)

/-! ## The block of the total -/

/-- The first output's block at point t sits at rows 2000·t …, all columns. -/
theorem emb1_4 (t : Fin cfg1.N) (a : Fin 2000) (q : Fin 256) :
    ((cfg1.win 4).blk t).view.emb (ix2 a q) = ix2 (Cert.BlockSum.rowOf (pt1 t) a) q := by
  obtain ⟨-, -, -, -, -, -, -, -, e40, e41, -⟩ := idx_facts1 t
  funext d; apply Fin.ext
  match d with
  | ⟨0, _⟩ => show win1_4.index t (0 : Fin 2) * 2000 + 1 * a.val = 2000 * t.val + a.val; omega
  | ⟨1, _⟩ => show win1_4.index t (1 : Fin 2) * 256 + 1 * q.val = q.val; omega

/-- What the body stores at point t, at (a, q), is the total at the index's place in the array. -/
theorem tblk1_apply (c : Dev nD) (t : Fin cfg1.N) (a : Fin 2000) (q : Fin 256) :
    (tblk1 V c t (ix2 a q) : EReal) = tot1 V c (((cfg1.win 4).blk t).view.emb (ix2 a q)) := by
  obtain ⟨e00, e01, e10, e11, e20, e21, e30, e31, e40, e41, -⟩ := idx_facts1 t
  have h0 : ((cfg1.win 0).blk t).view.emb (ix2 a q) = ((cfg1.win 4).blk t).view.emb (ix2 a q) := by
    funext d; apply Fin.ext
    match d with
    | ⟨0, _⟩ => show win1_0.index t (0 : Fin 2) * 2000 + 1 * a.val = win1_4.index t (0 : Fin 2) * 2000 + 1 * a.val; omega
    | ⟨1, _⟩ => show win1_0.index t (1 : Fin 2) * 256 + 1 * q.val = win1_4.index t (1 : Fin 2) * 256 + 1 * q.val; omega
  have h1 : ((cfg1.win 1).blk t).view.emb (ix2 a q) = ((cfg1.win 4).blk t).view.emb (ix2 a q) := by
    funext d; apply Fin.ext
    match d with
    | ⟨0, _⟩ => show win1_1.index t (0 : Fin 2) * 2000 + 1 * a.val = win1_4.index t (0 : Fin 2) * 2000 + 1 * a.val; omega
    | ⟨1, _⟩ => show win1_1.index t (1 : Fin 2) * 256 + 1 * q.val = win1_4.index t (1 : Fin 2) * 256 + 1 * q.val; omega
  have h2 : ((cfg1.win 2).blk t).view.emb (ix2 a (0 : Fin 1))
      = ix2 ((((cfg1.win 4).blk t).view.emb (ix2 a q)) 0) (0 : Fin 1) := by
    funext d; apply Fin.ext
    match d with
    | ⟨0, _⟩ => show win1_2.index t (0 : Fin 2) * 2000 + 1 * a.val = win1_4.index t (0 : Fin 2) * 2000 + 1 * a.val; omega
    | ⟨1, _⟩ => show win1_2.index t (1 : Fin 2) * 1 + 1 * 0 = 0; omega
  have h3 : ((cfg1.win 3).blk t).view.emb (ix2 (0 : Fin 1) q)
      = ix2 (0 : Fin 1) ((((cfg1.win 4).blk t).view.emb (ix2 a q)) 1) := by
    funext d; apply Fin.ext
    match d with
    | ⟨0, _⟩ => show win1_3.index t (0 : Fin 2) * 1 + 1 * 0 = 0; omega
    | ⟨1, _⟩ => show win1_3.index t (1 : Fin 2) * 256 + 1 * q.val = win1_4.index t (1 : Fin 2) * 256 + 1 * q.val; omega
  refine (k1_pay3_apply (iblk1 V c 0 t) (iblk1 V c 1 t) (iblk1 V c 2 t) (iblk1 V c 3 t) a q).trans ?_
  exact congrArg₂ (fun u v : EReal => u + v)
    (congrArg₂ (fun u v : EReal => u + v) (congrArg (agg1 V c) h0)
      (congrArg₂ (fun u v : EReal => u * v) (congrArg (xw1 V c) h1) (congrArg (dsq1 V c) h2)))
    (congrArg (bias1 V c) h3)

/-- The same, with the row named: row a of block t is row 2000·t + a. -/
theorem tblk1_row (c : Dev nD) (t : Fin cfg1.N) (a : Fin 2000) (q : Fin 256) :
    (tblk1 V c t (ix2 a q) : EReal) = tot1 V c (ix2 (Cert.BlockSum.rowOf (pt1 t) a) q) :=
  (tblk1_apply V c t a q).trans (congrArg (tot1 V c) (emb1_4 t a q))

/-! ## The accumulators after n points -/

/-- The first accumulator after n points, at column q: the sum of the total over the rows below 2000·n. -/
theorem acc1_fst_apply (c : Dev nD) : ∀ (n : ℕ) (h : n ≤ cfg1.N) (q : Fin 256),
    ((acc1 V c n h).1 (ix2 (0 : Fin 1) q) : EReal) = Cert.BlockSum.accTo (fun p => tot1 V c (ix2 p q)) n
  | 0, h, q => (congrFun (acc1_zero_fst V c 0 h rfl) (ix2 (0 : Fin 1) q)).trans (k1_pay1_apply q)
  | n + 1, h, q => by
    have hn : n < cfg1.N := Nat.lt_of_succ_le h
    have h25 : n < 25 := by have e : cfg1.N = 25 := N_1; omega
    refine (congrFun (acc1_succ_fst V c ⟨n, hn⟩) (ix2 (0 : Fin 1) q)).trans ?_
    refine (k1_pay4_apply (iblk1 V c 0 ⟨n, hn⟩) (iblk1 V c 1 ⟨n, hn⟩) (iblk1 V c 2 ⟨n, hn⟩) (iblk1 V c 3 ⟨n, hn⟩)
      (acc1 V c n (Nat.le_of_lt hn)).1 q).trans ?_
    rw [Cert.BlockSum.accTo_succ_of_lt _ n h25]
    exact congrArg₂ (fun u v : EReal => u + v) (acc1_fst_apply c n (Nat.le_of_lt hn) q)
      (Finset.sum_congr rfl fun a _ => tblk1_row V c ⟨n, hn⟩ a q)

/-- The second accumulator after n points, at column q: the sum of the total's square over the rows below 2000·n. -/
theorem acc1_snd_apply (c : Dev nD) : ∀ (n : ℕ) (h : n ≤ cfg1.N) (q : Fin 256),
    ((acc1 V c n h).2 (ix2 (0 : Fin 1) q) : EReal)
      = Cert.BlockSum.accTo (fun p => tot1 V c (ix2 p q) * tot1 V c (ix2 p q)) n
  | 0, h, q => (congrFun (acc1_zero_snd V c 0 h rfl) (ix2 (0 : Fin 1) q)).trans (k1_pay2_apply q)
  | n + 1, h, q => by
    have hn : n < cfg1.N := Nat.lt_of_succ_le h
    have h25 : n < 25 := by have e : cfg1.N = 25 := N_1; omega
    refine (congrFun (acc1_succ_snd V c ⟨n, hn⟩) (ix2 (0 : Fin 1) q)).trans ?_
    refine (k1_pay5_apply (iblk1 V c 0 ⟨n, hn⟩) (iblk1 V c 1 ⟨n, hn⟩) (iblk1 V c 2 ⟨n, hn⟩) (iblk1 V c 3 ⟨n, hn⟩)
      (acc1 V c n (Nat.le_of_lt hn)).2 q).trans ?_
    rw [Cert.BlockSum.accTo_succ_of_lt _ n h25]
    exact congrArg₂ (fun u v : EReal => u + v) (acc1_snd_apply c n (Nat.le_of_lt hn) q)
      (Finset.sum_congr rfl fun a _ => congrArg₂ (fun u v : EReal => u * v) (tblk1_row V c ⟨n, hn⟩ a q)
        (tblk1_row V c ⟨n, hn⟩ a q))

/-! ## From the blocks to the first output's array -/

/-- What point t writes back to the first output is block t of the total. -/
theorem flushed1_4 (c : Dev nD) (t : Fin cfg1.N) :
    (dat1 V c).flushed 4 t = ((cfg1.win 4).blk t).view.read (Elt Ideal) (tot1 V c) := by
  show (cfg1.win 4).cut (grid1.coords t) ((dat1 V c).after 4 t) = _
  rw [after1_4]
  funext j
  obtain ⟨a, q, rfl⟩ : ∃ (a : Fin 2000) (q : Fin 256), j = ix2 a q := ⟨j 0, j 1, eq_ix2 j⟩
  exact tblk1_apply V c t a q

/-- An index of the first output's array is in point t's block iff each coordinate is in the block's range. -/
theorem mem_blk1_4 (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v33_0).slice (win1_4.rect t)).set ↔ _
  rw [View.set_slice_whole, Rect.mem_set_unit]
  exact Iff.rfl

/-- Every index of the first output's array is in some point's block: row p is in block p / 2000. -/
theorem cover1_4 (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, e40, e41, -⟩ := idx_facts1 t
  refine ⟨t, flush1_4 t, ?_⟩
  rw [mem_blk1_4]
  intro d
  match d with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- The first output's array after the region is the total of the four arrays as the region finds them. -/
theorem final1_4 (c : Dev nD) : (dat1 V c).arrAt 4 cfg1.N = tot1 V c :=
  (dat1 V c).arrAt_eq_of_cover 4 (tot1 V c) (fun t _ => flushed1_4 V c t) cover1_4

/-! ## The two sums' arrays: written once, at the last point, whole -/

/-- The one row of a sums' output sits where it is: block (0, 0) of a 1×256 array is the array. -/
theorem emb1_5 (t : Fin cfg1.N) (q : Fin 256) :
    ((cfg1.win 5).blk t).view.emb (ix2 (0 : Fin 1) q) = ix2 (0 : Fin 1) q := by
  obtain ⟨-, -, -, -, -, -, -, -, -, -, e50, e51, -⟩ := idx_facts1 t
  funext d; apply Fin.ext
  match d with
  | ⟨0, _⟩ => show win1_5.index t (0 : Fin 2) * 1 + 1 * 0 = 0; omega
  | ⟨1, _⟩ => show win1_5.index t (1 : Fin 2) * 256 + 1 * q.val = q.val; omega

theorem emb1_6 (t : Fin cfg1.N) (q : Fin 256) :
    ((cfg1.win 6).blk t).view.emb (ix2 (0 : Fin 1) q) = ix2 (0 : Fin 1) q := by
  obtain ⟨-, -, -, -, -, -, -, -, -, -, -, -, e60, e61⟩ := idx_facts1 t
  funext d; apply Fin.ext
  match d with
  | ⟨0, _⟩ => show win1_6.index t (0 : Fin 2) * 1 + 1 * 0 = 0; omega
  | ⟨1, _⟩ => show win1_6.index t (1 : Fin 2) * 256 + 1 * q.val = q.val; omega

/-- The point that writes the sums back is the last one. -/
theorem last_of_flush1_5 (t : Fin cfg1.N) (hf : (cfg1.win 5).flush t = true) : t.val + 1 = 25 := by
  have h1 := (flush1_5 t).mp hf
  have h2 := t.isLt
  have h3 : cfg1.N = 25 := N_1
  omega

theorem last_of_flush1_6 (t : Fin cfg1.N) (hf : (cfg1.win 6).flush t = true) : t.val + 1 = 25 := by
  have h1 := (flush1_6 t).mp hf
  have h2 := t.isLt
  have h3 : cfg1.N = 25 := N_1
  omega

/-- What the last point writes back to the second output: the column sums of the total. -/
theorem flushed1_5 (c : Dev nD) (t : Fin cfg1.N) (hf : (cfg1.win 5).flush t = true) :
    (dat1 V c).flushed 5 t = ((cfg1.win 5).blk t).view.read (Elt Ideal) (colSum1 (tot1 V c)) := by
  have hl := last_of_flush1_5 t hf
  show (cfg1.win 5).cut (grid1.coords t) ((dat1 V c).after 5 t) = _
  rw [after1_5]
  funext j
  obtain ⟨a, q, rfl⟩ : ∃ (a : Fin 1) (q : Fin 256), j = ix2 a q := ⟨j 0, j 1, eq_ix2 j⟩
  obtain rfl : a = 0 := Subsingleton.elim _ _
  -- the left side is the accumulator at (0, q); the right side reads the sums' table at the block's place
  refine Eq.trans (b := ((acc1 V c (t.val + 1) t.isLt).1 (ix2 (0 : Fin 1) q) : EReal)) rfl ?_
  rw [acc1_fst_apply V c (t.val + 1) t.isLt q, hl, Cert.BlockSum.accTo_eq]
  refine Eq.trans ?_ (View.read_apply (v := ((cfg1.win 5).blk t).view) (Val := Elt Ideal) (colSum1 (tot1 V c))
    (ix2 (0 : Fin 1) q)).symm
  rw [cast_eq, emb1_5 t q, colSum1_apply]

/-- What the last point writes back to the third output: the column sums of the total's square. -/
theorem flushed1_6 (c : Dev nD) (t : Fin cfg1.N) (hf : (cfg1.win 6).flush t = true) :
    (dat1 V c).flushed 6 t
      = ((cfg1.win 6).blk t).view.read (Elt Ideal) (colSum1 (fun i => tot1 V c i * tot1 V c i)) := by
  have hl := last_of_flush1_6 t hf
  show (cfg1.win 6).cut (grid1.coords t) ((dat1 V c).after 6 t) = _
  rw [after1_6]
  funext j
  obtain ⟨a, q, rfl⟩ : ∃ (a : Fin 1) (q : Fin 256), j = ix2 a q := ⟨j 0, j 1, eq_ix2 j⟩
  obtain rfl : a = 0 := Subsingleton.elim _ _
  refine Eq.trans (b := ((acc1 V c (t.val + 1) t.isLt).2 (ix2 (0 : Fin 1) q) : EReal)) rfl ?_
  rw [acc1_snd_apply V c (t.val + 1) t.isLt q, hl, Cert.BlockSum.accTo_eq]
  refine Eq.trans ?_ (View.read_apply (v := ((cfg1.win 6).blk t).view) (Val := Elt Ideal)
    (colSum1 (fun i => tot1 V c i * tot1 V c i)) (ix2 (0 : Fin 1) q)).symm
  rw [cast_eq, emb1_6 t q, colSum1_apply]

/-- The last point. -/
abbrev t1_last : Fin cfg1.N := ⟨24, by rw [show cfg1.N = 25 from N_1]; decide⟩

theorem mem_blk1_5 (t : Fin cfg1.N) (i : S1x256.Idx) :
    i ∈ ((cfg1.win 5).blk t).view.set ↔ ∀ a : Fin 2, win1_5.index t a * S1x256.size a ≤ (i a).val
      ∧ (i a).val < win1_5.index t a * S1x256.size a + S1x256.size a := by
  show i ∈ ((View.whole main_v33_1).slice (win1_5.rect t)).set ↔ _
  rw [View.set_slice_whole, Rect.mem_set_unit]
  exact Iff.rfl

theorem mem_blk1_6 (t : Fin cfg1.N) (i : S1x256.Idx) :
    i ∈ ((cfg1.win 6).blk t).view.set ↔ ∀ a : Fin 2, win1_6.index t a * S1x256.size a ≤ (i a).val
      ∧ (i a).val < win1_6.index t a * S1x256.size a + S1x256.size a := by
  show i ∈ ((View.whole main_v33_2).slice (win1_6.rect t)).set ↔ _
  rw [View.set_slice_whole, Rect.mem_set_unit]
  exact Iff.rfl

/-- Every index of the second output's array is in the last point's block. -/
theorem cover1_5 (i : S1x256.Idx) :
    ∃ t : Fin cfg1.N, (cfg1.win 5).flush t = true ∧ i ∈ ((cfg1.win 5).blk t).view.set := by
  have hi0 : (i 0).val < 1 := (i 0).isLt
  have hi1 : (i 1).val < 256 := (i 1).isLt
  obtain ⟨-, -, -, -, -, -, -, -, -, -, e50, e51, -⟩ := idx_facts1 t1_last
  refine ⟨t1_last, (flush1_5 t1_last).mpr rfl, ?_⟩
  rw [mem_blk1_5]
  intro d
  match d with
  | ⟨0, _⟩ => show win1_5.index t1_last (0 : Fin 2) * 1 ≤ (i 0).val ∧ (i 0).val < win1_5.index t1_last (0 : Fin 2) * 1 + 1; omega
  | ⟨1, _⟩ => show win1_5.index t1_last (1 : Fin 2) * 256 ≤ (i 1).val ∧ (i 1).val < win1_5.index t1_last (1 : Fin 2) * 256 + 256; omega

/-- Every index of the third output's array is in the last point's block. -/
theorem cover1_6 (i : S1x256.Idx) :
    ∃ t : Fin cfg1.N, (cfg1.win 6).flush t = true ∧ i ∈ ((cfg1.win 6).blk t).view.set := by
  have hi0 : (i 0).val < 1 := (i 0).isLt
  have hi1 : (i 1).val < 256 := (i 1).isLt
  obtain ⟨-, -, -, -, -, -, -, -, -, -, -, -, e60, e61⟩ := idx_facts1 t1_last
  refine ⟨t1_last, (flush1_6 t1_last).mpr rfl, ?_⟩
  rw [mem_blk1_6]
  intro d
  match d with
  | ⟨0, _⟩ => show win1_6.index t1_last (0 : Fin 2) * 1 ≤ (i 0).val ∧ (i 0).val < win1_6.index t1_last (0 : Fin 2) * 1 + 1; omega
  | ⟨1, _⟩ => show win1_6.index t1_last (1 : Fin 2) * 256 ≤ (i 1).val ∧ (i 1).val < win1_6.index t1_last (1 : Fin 2) * 256 + 256; omega

/-- The second output's array after the region: the column sums of the total. -/
theorem final1_5 (c : Dev nD) : (dat1 V c).arrAt 5 cfg1.N = colSum1 (tot1 V c) :=
  (dat1 V c).arrAt_eq_of_cover 5 (colSum1 (tot1 V c)) (flushed1_5 V c) cover1_5

/-- The third output's array after the region: the column sums of the total's square. -/
theorem final1_6 (c : Dev nD) : (dat1 V c).arrAt 6 cfg1.N = colSum1 (fun i => tot1 V c i * tot1 V c i) :=
  (dat1 V c).arrAt_eq_of_cover 6 (colSum1 (fun i => tot1 V c i * tot1 V c i)) (flushed1_6 V c) cover1_6

/-! ## The three outputs, index by index, over named arrays -/

/-- The first output at (p, q): the total of the four arrays as the region finds them. -/
theorem out1_4_apply (c : Dev nD) (agg xw : S50000x256.Idx → EReal) (d2 : S50000x1.Idx → EReal) (b : S1x256.Idx → EReal)
    (hagg : (V c main_v30 : S50000x256.Idx → EReal) = agg) (hxw : (V c main_v12 : S50000x256.Idx → EReal) = xw)
    (hd2 : (V c main_v31 : S50000x1.Idx → EReal) = d2) (hb : (V c main_v32 : S1x256.Idx → EReal) = b)
    (p : Fin 50000) (q : Fin 256) :
    (dat1 (F := Ideal) V c).arrAt 4 cfg1.N (ix2 p q) = T1 agg xw d2 b (ix2 p q) := by
  rw [final1_4]
  show T1 (V c main_v30) (V c main_v12) (V c main_v31) (V c main_v32) (ix2 p q) = _
  rw [hagg, hxw, hd2, hb]

/-- The second output at column q: the sum over all rows of the total. -/
theorem out1_5_apply (c : Dev nD) (agg xw : S50000x256.Idx → EReal) (d2 : S50000x1.Idx → EReal) (b : S1x256.Idx → EReal)
    (hagg : (V c main_v30 : S50000x256.Idx → EReal) = agg) (hxw : (V c main_v12 : S50000x256.Idx → EReal) = xw)
    (hd2 : (V c main_v31 : S50000x1.Idx → EReal) = d2) (hb : (V c main_v32 : S1x256.Idx → EReal) = b)
    (q : Fin 256) :
    (dat1 (F := Ideal) V c).arrAt 5 cfg1.N (ix2 (0 : Fin 1) q) = ∑ p : Fin 50000, T1 agg xw d2 b (ix2 p q) := by
  rw [final1_5, colSum1_apply]
  show ∑ p : Fin 50000, T1 (V c main_v30) (V c main_v12) (V c main_v31) (V c main_v32) (ix2 p q) = _
  rw [hagg, hxw, hd2, hb]

/-- The third output at column q: the sum over all rows of the total's square. -/
theorem out1_6_apply (c : Dev nD) (agg xw : S50000x256.Idx → EReal) (d2 : S50000x1.Idx → EReal) (b : S1x256.Idx → EReal)
    (hagg : (V c main_v30 : S50000x256.Idx → EReal) = agg) (hxw : (V c main_v12 : S50000x256.Idx → EReal) = xw)
    (hd2 : (V c main_v31 : S50000x1.Idx → EReal) = d2) (hb : (V c main_v32 : S1x256.Idx → EReal) = b)
    (q : Fin 256) :
    (dat1 (F := Ideal) V c).arrAt 6 cfg1.N (ix2 (0 : Fin 1) q)
      = ∑ p : Fin 50000, T1 agg xw d2 b (ix2 p q) * T1 agg xw d2 b (ix2 p q) := by
  rw [final1_6, colSum1_apply]
  show ∑ p : Fin 50000, T1 (V c main_v30) (V c main_v12) (V c main_v31) (V c main_v32) (ix2 p q)
    * T1 (V c main_v30) (V c main_v12) (V c main_v31) (V c main_v32) (ix2 p q) = _
  rw [hagg, hxw, hd2, hb]

end AtIdeal

end Cert.KernelIdeal.Hand

end
-- ==== Proof.RegBn2Value.lean ====
/-
  Region 2 of @main, its VALUE: what the output array holds after the region, as one function of the arrays the
  region finds — at any float instance the kernel's tree of operations element by element (the aggregate centred at
  the column's mean, scaled, multiplied by the reciprocal square root of the variance plus the stabiliser, shifted,
  rectified), then at the extended reals index by index.

  The body's payload is read at a block index; the printed index maps are decided over the grid (the aggregate's
  block moves with the output's, the parameter rows stay put); the output's 25 row-blocks cover the array.
-/
import proofs.«142371_j48498770706497_2_alg».proof.Proof.RegBn2
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

section AnyInstance

variable {F : FTy → Type} [FloatOps F]

-- what every unscoped buffer of the TensorCore holds when the region is entered
variable (V : (c : Dev nD) → (b : Ref sig .tc) → Buf (Elt F) ((c : Thread nD τ).loc b))

/-! ## The closed form -/

/-- The row of parameters a block index reads: row 0 at the index's column. -/
abbrev brow2 (j : S2000x256.Idx) : S1x256.Idx := ix2 (0 : Fin 1) (⟨(j 1).val, idx2_lt1 j⟩ : Fin 256)
/-- The row of parameters an index of the array reads: row 0 at the index's column. -/
abbrev prow2 (i : S50000x256.Idx) : S1x256.Idx := ix2 (0 : Fin 1) (⟨(i 1).val, idx2_lt1 i⟩ : Fin 256)

/-- What the region computes, index by index, at any float instance: the aggregate `T` centred at the mean,
    scaled by `g` and by the reciprocal square root of the variance plus the stabiliser, shifted by `be`, and
    rectified. -/
def bnRelu2 (T : S50000x256.Idx → Elt F .f32) (g be mu var : S1x256.Idx → Elt F .f32) : S50000x256.Idx → Elt F .f32 :=
  fun i => FloatOps.maximumf
    (FloatOps.addf (FloatOps.mulf (FloatOps.mulf (g (prow2 i)) (FloatOps.subf (T i) (mu (prow2 i))))
        (FloatOps.rsqrt (FloatOps.addf (var (prow2 i)) (Scalar.ofBits .f32 0x3727C5AC#32)))) (be (prow2 i)))
    (Scalar.ofBits .f32 0x00000000#32)

/-- A row of parameters broadcast over the block reads, at a block index, the row at the index's column. -/
theorem bcast_row2 (x : Vec F S1x256 .f32) (j : S2000x256.Idx) :
    broadcastTo S2000x256 x broadcasts_S1x256_S2000x256 j = x (brow2 j) :=
  broadcastTo_apply x _ j (brow2 j) (fun a => by match a with | ⟨0, _⟩ => rfl | ⟨1, _⟩ => rfl)

/-- The body's payload at a block index: the same tree of operations on the elements. -/
theorem pay2_apply (x0 : Vec F S2000x256 .f32) (x1 x3 x4 x2 : Vec F S1x256 .f32) (j : S2000x256.Idx) :
    k2_pay1 x0 x1 x3 x4 x2 j = FloatOps.maximumf
      (FloatOps.addf (FloatOps.mulf (FloatOps.mulf (x1 (brow2 j)) (FloatOps.subf (x0 j) (x3 (brow2 j))))
          (FloatOps.rsqrt (FloatOps.addf (x4 (brow2 j)) (Scalar.ofBits .f32 0x3727C5AC#32)))) (x2 (brow2 j)))
      (Scalar.ofBits .f32 0x00000000#32) := by
  unfold k2_pay1
  simp only [shapeCast_self, maximumf, addf, mulf, subf]
  rw [bcast_row2 x1 j, bcast_row2 x3 j, bcast_row2 x2 j, bcast_row2 _ j]
  rfl

/-! ## From blocks to the array -/

/-- The printed index maps, decided over the grid: the aggregate's block moves with the output's, the four
    parameter rows stay at block zero, and the output's block indices stay in their ranges. -/
theorem idx_facts2 : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 24 ∧ win2_5.index t (1 : Fin 2) = 0 :=
  (by decide +kernel : ∀ t : Fin grid2.N, _)

/-- Every row-block is some point's. -/
theorem idx_onto2 : ∀ q0 : Fin 25, ∃ t : Fin cfg2.N, win2_5.index t (0 : Fin 2) = q0.val :=
  (by decide +kernel : ∀ q0 : Fin 25, ∃ t : Fin grid2.N, win2_5.index t (0 : Fin 2) = q0.val)

/-- The body's result at point `t`, at a block index, is the closed form at the index's place in the array. -/
theorem block_eq2 (c : Dev nD) (t : Fin cfg2.N) (j : S2000x256.Idx) :
    k2_pay1 (iblk2 V c 0 t) (iblk2 V c 1 t) (iblk2 V c 3 t) (iblk2 V c 4 t) (iblk2 V c 2 t) j
      = bnRelu2 (V c main_v33_0) (V c main_v44) (V c main_v45) (V c main_v46) (V c main_v47) (((cfg2.win 5).blk t).view.emb j) := by
  obtain ⟨e00, e01, e10, e11, e20, e21, e30, e31, e40, e41, -, e51⟩ := idx_facts2 t
  have hj0 : (j 0).val < 2000 := (j 0).isLt
  have hj1 : (j 1).val < 256 := (j 1).isLt
  have h0 : ((cfg2.win 0).blk t).view.emb j = ((cfg2.win 5).blk t).view.emb j := by
    funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 256 + 1 * (j 1).val = win2_5.index t (1 : Fin 2) * 256 + 1 * (j 1).val; omega
  have h1 : ((cfg2.win 1).blk t).view.emb (brow2 j) = prow2 (((cfg2.win 5).blk t).view.emb j) := by
    funext a; apply Fin.ext
    match a with
    | ⟨0, _⟩ => show win2_1.index t (0 : Fin 2) * 1 + 1 * 0 = 0; omega
    | ⟨1, _⟩ => show win2_1.index t (1 : Fin 2) * 256 + 1 * (j 1).val = win2_5.index t (1 : Fin 2) * 256 + 1 * (j 1).val; omega
  have h2 : ((cfg2.win 2).blk t).view.emb (brow2 j) = prow2 (((cfg2.win 5).blk t).view.emb j) := by
    funext a; apply Fin.ext
    match a with
    | ⟨0, _⟩ => show win2_2.index t (0 : Fin 2) * 1 + 1 * 0 = 0; omega
    | ⟨1, _⟩ => show win2_2.index t (1 : Fin 2) * 256 + 1 * (j 1).val = win2_5.index t (1 : Fin 2) * 256 + 1 * (j 1).val; omega
  have h3 : ((cfg2.win 3).blk t).view.emb (brow2 j) = prow2 (((cfg2.win 5).blk t).view.emb j) := by
    funext a; apply Fin.ext
    match a with
    | ⟨0, _⟩ => show win2_3.index t (0 : Fin 2) * 1 + 1 * 0 = 0; omega
    | ⟨1, _⟩ => show win2_3.index t (1 : Fin 2) * 256 + 1 * (j 1).val = win2_5.index t (1 : Fin 2) * 256 + 1 * (j 1).val; omega
  have h4 : ((cfg2.win 4).blk t).view.emb (brow2 j) = prow2 (((cfg2.win 5).blk t).view.emb j) := by
    funext a; apply Fin.ext
    match a with
    | ⟨0, _⟩ => show win2_4.index t (0 : Fin 2) * 1 + 1 * 0 = 0; omega
    | ⟨1, _⟩ => show win2_4.index t (1 : Fin 2) * 256 + 1 * (j 1).val = win2_5.index t (1 : Fin 2) * 256 + 1 * (j 1).val; omega
  rw [pay2_apply]
  unfold bnRelu2
  show FloatOps.maximumf
      (FloatOps.addf (FloatOps.mulf (FloatOps.mulf (V c main_v44 (((cfg2.win 1).blk t).view.emb (brow2 j)))
            (FloatOps.subf (V c main_v33_0 (((cfg2.win 0).blk t).view.emb j)) (V c main_v46 (((cfg2.win 3).blk t).view.emb (brow2 j)))))
          (FloatOps.rsqrt (FloatOps.addf (V c main_v47 (((cfg2.win 4).blk t).view.emb (brow2 j))) (Scalar.ofBits .f32 0x3727C5AC#32))))
        (V c main_v45 (((cfg2.win 2).blk t).view.emb (brow2 j))))
      (Scalar.ofBits .f32 0x00000000#32) = _
  rw [h0, h1, h2, h3, h4]

/-- What point `t` writes back is block `t` of the closed form of the arrays as the region finds them. -/
theorem flushed2_eq (c : Dev nD) (t : Fin cfg2.N) :
    (dat2 V c).flushed 5 t = ((cfg2.win 5).blk t).view.read (Elt F)
      (bnRelu2 (V c main_v33_0) (V c main_v44) (V c main_v45) (V c main_v46) (V c main_v47)) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S1x256) hz2]
  funext j
  exact block_eq2 V c t j

/-- An index of the array is in point `t`'s block iff each coordinate is in the block's range on its axis. -/
theorem mem_blk2 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v48).slice (win2_5.rect t)).set ↔ _
  rw [View.set_slice_whole, Rect.mem_set_unit]
  exact Iff.rfl

/-- Every index of the output array is in some point's block: row `r` is in row-block `r / 2000`. -/
theorem cover2 (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ := idx_onto2 ⟨(i 0).val / 2000, by omega⟩
  have ht' : win2_5.index t (0 : Fin 2) = (i 0).val / 2000 := ht
  obtain ⟨-, -, -, -, -, -, -, -, -, -, -, e1⟩ := idx_facts2 t
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- THE OUTPUT ARRAY after the region, at any float instance: the closed form of the arrays as the region finds them. -/
theorem out_eq2 (c : Dev nD) :
    (dat2 V c).arrAt 5 cfg2.N = bnRelu2 (V c main_v33_0) (V c main_v44) (V c main_v45) (V c main_v46) (V c main_v47) :=
  (dat2 V c).arrAt_eq_of_cover 5 _ (fun t _ => flushed2_eq V c t) cover2

end AnyInstance

/-! ## At the extended reals, index by index -/

/-- The closed form at the ideal instance, at row `p` and column `q`: the aggregate centred at the column's mean,
    times the column's scale, times the reciprocal square root of the column's variance plus the stabiliser, plus
    the column's shift, rectified. -/
theorem bnRelu2_apply (T : S50000x256.Idx → EReal) (g be mu var : S1x256.Idx → EReal) (p : Fin 50000) (q : Fin 256) :
    bnRelu2 (F := Ideal) T g be mu var (ix2 p q)
      = max (g (ix2 (0 : Fin 1) q) * (T (ix2 p q) - mu (ix2 (0 : Fin 1) q))
            * Ideal.rsqrt (var (ix2 (0 : Fin 1) q) + Ideal.ofBits .f32 0x3727C5AC#32) + be (ix2 (0 : Fin 1) q)) 0 := by
  unfold bnRelu2
  show max _ (Ideal.ofBits .f32 0x00000000#32) = _
  rw [Ideal.ofBits_zero_f32]
  rfl

section AtIdeal

variable (V : (c : Dev nD) → (b : Ref sig .tc) → Buf (Elt Ideal) ((c : Thread nD τ).loc b)) (c : Dev nD)

/-- The region's arrays at the ideal instance as functions into the extended reals: the aggregate, the scale, the
    shift, the mean, the variance as the region finds them, and the output as the region leaves it. -/
abbrev agg2 : S50000x256.Idx → EReal := V c main_v33_0
abbrev scale2 : S1x256.Idx → EReal := V c main_v44
abbrev shift2 : S1x256.Idx → EReal := V c main_v45
abbrev mean2 : S1x256.Idx → EReal := V c main_v46
abbrev var2 : S1x256.Idx → EReal := V c main_v47
abbrev res2 : S50000x256.Idx → EReal := (dat2 V c).arrAt 5 cfg2.N

/-- THE OUTPUT ARRAY after the region at the ideal instance, at row `p` and column `q`. -/
theorem out_apply2 (p : Fin 50000) (q : Fin 256) :
    res2 V c (ix2 p q)
      = max (scale2 V c (ix2 (0 : Fin 1) q) * (agg2 V c (ix2 p q) - mean2 V c (ix2 (0 : Fin 1) q))
            * Ideal.rsqrt (var2 V c (ix2 (0 : Fin 1) q) + Ideal.ofBits .f32 0x3727C5AC#32) + shift2 V c (ix2 (0 : Fin 1) q)) 0 :=
  (congrFun (out_eq2 V c) (ix2 p q)).trans (bnRelu2_apply _ _ _ _ _ p q)

end AtIdeal

end Cert.KernelIdeal.Hand

end
-- ==== Proof.KKeep.lean ====
/-
  Bookkeeping along the kernel-side program's items: which buffers each item leaves alone.

  A host stretch rewrites only the buffers its operations name as results; a kernel region only its output arrays.  So the
  edge rows, the degree scale and its square (written by the first stretch) and the arguments (written by nobody) are, at
  every later item, what the first stretch left; and each region's output array reaches the item that reads it unchanged.
-/
import proofs.«142371_j48498770706497_2_alg».proof.Proof.Gen.KernelIdeal.Regions
import proofs.«142371_j48498770706497_2_alg».proof.Proof.Vals9

set_option maxRecDepth 1628

noncomputable section

namespace Cert.KKeep

open Cert.KernelIdeal Cert.KernelIdeal.Gen Cert.KernelIdeal.Hand
open Idealize.ShloMosaic Idealize.ShloMosaic.TcCoe

variable {F : FTy → Type} [FloatOps F]

/-! ## What a host stretch does not write it leaves alone -/

theorem keep0 (V : Valuation τ sig (Elt F)) (r : Ref sig .tc) (h : r ∉ hostOps0_W) :
    StableHlo.after (hostOps0 (F := F)) V (Proc.devRef .tc r) = V (Proc.devRef .tc r) :=
  StableHlo.after_of_writes_sub hostOps0 V hostOps0_writes h

theorem keep1 (V : Valuation τ sig (Elt F)) (r : Ref sig .tc) (h : r ∉ hostOps1_W) :
    StableHlo.after (hostOps1 (F := F)) V (Proc.devRef .tc r) = V (Proc.devRef .tc r) :=
  StableHlo.after_of_writes_sub hostOps1 V hostOps1_writes h

theorem keep2 (V : Valuation τ sig (Elt F)) (r : Ref sig .tc) (h : r ∉ hostOps2_W) :
    StableHlo.after (hostOps2 (F := F)) V (Proc.devRef .tc r) = V (Proc.devRef .tc r) :=
  StableHlo.after_of_writes_sub hostOps2 V hostOps2_writes h

theorem keep4 (V : Valuation τ sig (Elt F)) (r : Ref sig .tc) (h : r ∉ hostOps4_W) :
    StableHlo.after (hostOps4 (F := F)) V (Proc.devRef .tc r) = V (Proc.devRef .tc r) :=
  StableHlo.after_of_writes_sub hostOps4 V hostOps4_writes h

theorem keep5 (V : Valuation τ sig (Elt F)) (r : Ref sig .tc) (h : r ∉ hostOps5_W) :
    StableHlo.after (hostOps5 (F := F)) V (Proc.devRef .tc r) = V (Proc.devRef .tc r) :=
  StableHlo.after_of_writes_sub hostOps5 V hostOps5_writes h

theorem keep7 (V : Valuation τ sig (Elt F)) (r : Ref sig .tc) (h : r ∉ hostOps7_W) :
    StableHlo.after (hostOps7 (F := F)) V (Proc.devRef .tc r) = V (Proc.devRef .tc r) :=
  StableHlo.after_of_writes_sub hostOps7 V hostOps7_writes h

theorem keep8 (V : Valuation τ sig (Elt F)) (r : Ref sig .tc) (h : r ∉ hostOps8_W) :
    StableHlo.after (hostOps8 (F := F)) V (Proc.devRef .tc r) = V (Proc.devRef .tc r) :=
  StableHlo.after_of_writes_sub hostOps8 V hostOps8_writes h

/-! ## One item of the program at a reference it does not write

A host stretch leaves what it does not write; a kernel region changes its output arrays only. -/

section Steps
variable (m : (ℓ : Loc nD τ sig) → Buf (Elt F) ℓ) (c : Dev nD)

theorem step1 (r : Ref sig .tc) (h : r ∉ hostOps0_W) : U1 m c r = U0 m c r := by
  unfold U1; exact keep0 _ r h

theorem step2 (r : Ref sig .tc) (h0 : r ≠ main_v12) : U2 m c r = U1 m c r := by
  unfold U2; rw [Function.update_of_ne (StableHlo.devRef_ne_of_ne h0)]

theorem step3 (r : Ref sig .tc) (h : r ∉ hostOps1_W) : U3 m c r = U2 m c r := by
  unfold U3; exact keep1 _ r h

theorem step4 (r : Ref sig .tc) (h0 : r ≠ main_v33_0) (h1 : r ≠ main_v33_1) (h2 : r ≠ main_v33_2) : U4 m c r = U3 m c r := by
  unfold U4; rw [Function.update_of_ne (StableHlo.devRef_ne_of_ne h2), Function.update_of_ne (StableHlo.devRef_ne_of_ne h1), Function.update_of_ne (StableHlo.devRef_ne_of_ne h0)]

theorem step5 (r : Ref sig .tc) (h : r ∉ hostOps2_W) : U5 m c r = U4 m c r := by
  unfold U5; exact keep2 _ r h

theorem step6 (r : Ref sig .tc) (h0 : r ≠ main_v48) : U6 m c r = U5 m c r := by
  unfold U6; rw [Function.update_of_ne (StableHlo.devRef_ne_of_ne h0)]

theorem step7 (r : Ref sig .tc) (h0 : r ≠ main_v49) : U7 m c r = U6 m c r := by
  unfold U7; rw [Function.update_of_ne (StableHlo.devRef_ne_of_ne h0)]

theorem step8 (r : Ref sig .tc) (h : r ∉ hostOps4_W) : U8 m c r = U7 m c r := by
  unfold U8; exact keep4 _ r h

theorem step9 (r : Ref sig .tc) (h0 : r ≠ main_v70_0) (h1 : r ≠ main_v70_1) (h2 : r ≠ main_v70_2) : U9 m c r = U8 m c r := by
  unfold U9; rw [Function.update_of_ne (StableHlo.devRef_ne_of_ne h2), Function.update_of_ne (StableHlo.devRef_ne_of_ne h1), Function.update_of_ne (StableHlo.devRef_ne_of_ne h0)]

theorem step10 (r : Ref sig .tc) (h : r ∉ hostOps5_W) : U10 m c r = U9 m c r := by
  unfold U10; exact keep5 _ r h

theorem step11 (r : Ref sig .tc) (h0 : r ≠ main_v85) : U11 m c r = U10 m c r := by
  unfold U11; rw [Function.update_of_ne (StableHlo.devRef_ne_of_ne h0)]

theorem step12 (r : Ref sig .tc) (h0 : r ≠ main_v86) : U12 m c r = U11 m c r := by
  unfold U12; rw [Function.update_of_ne (StableHlo.devRef_ne_of_ne h0)]

theorem step13 (r : Ref sig .tc) (h : r ∉ hostOps7_W) : U13 m c r = U12 m c r := by
  unfold U13; exact keep7 _ r h

theorem step14 (r : Ref sig .tc) (h0 : r ≠ main_v107_0) (h1 : r ≠ main_v107_1) (h2 : r ≠ main_v107_2) : U14 m c r = U13 m c r := by
  unfold U14; rw [Function.update_of_ne (StableHlo.devRef_ne_of_ne h2), Function.update_of_ne (StableHlo.devRef_ne_of_ne h1), Function.update_of_ne (StableHlo.devRef_ne_of_ne h0)]

theorem step15 (r : Ref sig .tc) (h : r ∉ hostOps8_W) : U15 m c r = U14 m c r := by
  unfold U15; exact keep8 _ r h

theorem step16 (r : Ref sig .tc) (h0 : r ≠ main_v122) : U16 m c r = U15 m c r := by
  unfold U16; rw [Function.update_of_ne (StableHlo.devRef_ne_of_ne h0)]
end Steps

/-! ## The long-lived buffers

The edge rows, the degree scale and its square are written by the first stretch and the arguments by nobody: every later
item finds them as the first stretch left them. -/

/-- The program's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- What every layer reads and no item after the first stretch writes. -/
abbrev longRefs : List (Ref sig .tc) := [main_v1, main_v3, main_v10, main_v11, main_arg0, main_arg1, main_arg2, main_arg3, main_arg4, main_arg5, main_arg6, main_arg7, main_arg8, main_arg9, main_arg10, main_arg11, main_arg12, main_arg13, main_arg14, main_arg15, main_arg16, main_arg17, main_arg18]

theorem arg_W0 : ∀ r ∈ argRefs, r ∉ hostOps0_W := by decide
theorem long_W1 : ∀ r ∈ longRefs, r ∉ hostOps1_W := by decide
theorem long_W2 : ∀ r ∈ longRefs, r ∉ hostOps2_W := by decide
theorem long_W4 : ∀ r ∈ longRefs, r ∉ hostOps4_W := by decide
theorem long_W5 : ∀ r ∈ longRefs, r ∉ hostOps5_W := by decide
theorem long_W7 : ∀ r ∈ longRefs, r ∉ hostOps7_W := by decide
theorem long_W8 : ∀ r ∈ longRefs, r ∉ hostOps8_W := by decide
theorem long_ne : ∀ r ∈ longRefs, r ≠ main_v12 ∧ r ≠ main_v33_0 ∧ r ≠ main_v33_1 ∧ r ≠ main_v33_2 ∧ r ≠ main_v48 ∧ r ≠ main_v49 ∧ r ≠ main_v70_0 ∧ r ≠ main_v70_1 ∧ r ≠ main_v70_2 ∧ r ≠ main_v85 ∧ r ≠ main_v86 ∧ r ≠ main_v107_0 ∧ r ≠ main_v107_1 ∧ r ≠ main_v107_2 ∧ r ≠ main_v122 := by decide

section Long
variable (m : (ℓ : Loc nD τ sig) → Buf (Elt F) ℓ) (c : Dev nD)

/-- An argument is at the first region's entry what it was at launch. -/
theorem U1_arg (r : Ref sig .tc) (h : r ∈ argRefs) : U1 m c r = U0 m c r := step1 m c r (arg_W0 r h)

/-- At launch a buffer holds the launch memory's contents. -/
theorem U0_apply (r : Ref sig .tc) : U0 m c r = m (c, Proc.devRef .tc r) := rfl

theorem U2_long (r : Ref sig .tc) (h : r ∈ longRefs) : U2 m c r = U1 m c r :=
  (step2 m c r (long_ne r h).1)

theorem U3_long (r : Ref sig .tc) (h : r ∈ longRefs) : U3 m c r = U1 m c r :=
  (step3 m c r (long_W1 r h)).trans (U2_long m c r h)

theorem U4_long (r : Ref sig .tc) (h : r ∈ longRefs) : U4 m c r = U1 m c r :=
  (step4 m c r (long_ne r h).2.1 (long_ne r h).2.2.1 (long_ne r h).2.2.2.1).trans (U3_long m c r h)

theorem U5_long (r : Ref sig .tc) (h : r ∈ longRefs) : U5 m c r = U1 m c r :=
  (step5 m c r (long_W2 r h)).trans (U4_long m c r h)

theorem U6_long (r : Ref sig .tc) (h : r ∈ longRefs) : U6 m c r = U1 m c r :=
  (step6 m c r (long_ne r h).2.2.2.2.1).trans (U5_long m c r h)

theorem U7_long (r : Ref sig .tc) (h : r ∈ longRefs) : U7 m c r = U1 m c r :=
  (step7 m c r (long_ne r h).2.2.2.2.2.1).trans (U6_long m c r h)

theorem U8_long (r : Ref sig .tc) (h : r ∈ longRefs) : U8 m c r = U1 m c r :=
  (step8 m c r (long_W4 r h)).trans (U7_long m c r h)

theorem U9_long (r : Ref sig .tc) (h : r ∈ longRefs) : U9 m c r = U1 m c r :=
  (step9 m c r (long_ne r h).2.2.2.2.2.2.1 (long_ne r h).2.2.2.2.2.2.2.1 (long_ne r h).2.2.2.2.2.2.2.2.1).trans (U8_long m c r h)

theorem U10_long (r : Ref sig .tc) (h : r ∈ longRefs) : U10 m c r = U1 m c r :=
  (step10 m c r (long_W5 r h)).trans (U9_long m c r h)

theorem U11_long (r : Ref sig .tc) (h : r ∈ longRefs) : U11 m c r = U1 m c r :=
  (step11 m c r (long_ne r h).2.2.2.2.2.2.2.2.2.1).trans (U10_long m c r h)

theorem U12_long (r : Ref sig .tc) (h : r ∈ longRefs) : U12 m c r = U1 m c r :=
  (step12 m c r (long_ne r h).2.2.2.2.2.2.2.2.2.2.1).trans (U11_long m c r h)

theorem U13_long (r : Ref sig .tc) (h : r ∈ longRefs) : U13 m c r = U1 m c r :=
  (step13 m c r (long_W7 r h)).trans (U12_long m c r h)

theorem U14_long (r : Ref sig .tc) (h : r ∈ longRefs) : U14 m c r = U1 m c r :=
  (step14 m c r (long_ne r h).2.2.2.2.2.2.2.2.2.2.2.1 (long_ne r h).2.2.2.2.2.2.2.2.2.2.2.2.1 (long_ne r h).2.2.2.2.2.2.2.2.2.2.2.2.2.1).trans (U13_long m c r h)

theorem U15_long (r : Ref sig .tc) (h : r ∈ longRefs) : U15 m c r = U1 m c r :=
  (step15 m c r (long_W8 r h)).trans (U14_long m c r h)

theorem U16_long (r : Ref sig .tc) (h : r ∈ longRefs) : U16 m c r = U1 m c r :=
  (step16 m c r (long_ne r h).2.2.2.2.2.2.2.2.2.2.2.2.2.2).trans (U15_long m c r h)
end Long

/-! ## A region's output carried to where it is read -/

section Carry
variable (m : (ℓ : Loc nD τ sig) → Buf (Elt F) ℓ) (c : Dev nD)

/-- The first dense product reaches the second stretch. -/
theorem U3_v12 : U3 m c main_v12 = U2 m c main_v12 := step3 m c main_v12 (by decide)

/-- The first layer's pre-normalisation table and its column sums reach the third stretch and the region after it. -/
theorem U5_v33_0 : U5 m c main_v33_0 = U4 m c main_v33_0 := step5 m c main_v33_0 (by decide)
theorem U5_v33_1 : U5 m c main_v33_1 = U4 m c main_v33_1 := step5 m c main_v33_1 (by decide)
theorem U5_v33_2 : U5 m c main_v33_2 = U4 m c main_v33_2 := step5 m c main_v33_2 (by decide)

/-- The first layer's output stays until the second layer's residual reads it. -/
theorem U7_v48 : U7 m c main_v48 = U6 m c main_v48 := step7 m c main_v48 (by decide)
theorem U8_v48 : U8 m c main_v48 = U6 m c main_v48 := (step8 m c main_v48 (by decide)).trans (U7_v48 m c)
theorem U9_v48 : U9 m c main_v48 = U6 m c main_v48 :=
  (step9 m c main_v48 (by decide) (by decide) (by decide)).trans (U8_v48 m c)
theorem U10_v48 : U10 m c main_v48 = U6 m c main_v48 := (step10 m c main_v48 (by decide)).trans (U9_v48 m c)

/-- The second dense product reaches its stretch. -/
theorem U8_v49 : U8 m c main_v49 = U7 m c main_v49 := step8 m c main_v49 (by decide)

/-- The second layer's pre-normalisation table and its column sums. -/
theorem U10_v70_0 : U10 m c main_v70_0 = U9 m c main_v70_0 := step10 m c main_v70_0 (by decide)
theorem U10_v70_1 : U10 m c main_v70_1 = U9 m c main_v70_1 := step10 m c main_v70_1 (by decide)
theorem U10_v70_2 : U10 m c main_v70_2 = U9 m c main_v70_2 := step10 m c main_v70_2 (by decide)

/-- The second layer's output stays until the third layer's residual reads it. -/
theorem U12_v85 : U12 m c main_v85 = U11 m c main_v85 := step12 m c main_v85 (by decide)
theorem U13_v85 : U13 m c main_v85 = U11 m c main_v85 := (step13 m c main_v85 (by decide)).trans (U12_v85 m c)
theorem U14_v85 : U14 m c main_v85 = U11 m c main_v85 :=
  (step14 m c main_v85 (by decide) (by decide) (by decide)).trans (U13_v85 m c)
theorem U15_v85 : U15 m c main_v85 = U11 m c main_v85 := (step15 m c main_v85 (by decide)).trans (U14_v85 m c)

/-- The third dense product reaches its stretch. -/
theorem U13_v86 : U13 m c main_v86 = U12 m c main_v86 := step13 m c main_v86 (by decide)

/-- The third layer's pre-normalisation table and its column sums. -/
theorem U15_v107_0 : U15 m c main_v107_0 = U14 m c main_v107_0 := step15 m c main_v107_0 (by decide)
theorem U15_v107_1 : U15 m c main_v107_1 = U14 m c main_v107_1 := step15 m c main_v107_1 (by decide)
theorem U15_v107_2 : U15 m c main_v107_2 = U14 m c main_v107_2 := step15 m c main_v107_2 (by decide)
end Carry

end Cert.KKeep
end
-- ==== Proof.KNet1.lean ====
/-
  The kernel-side program's second layer along the chain of its buffers' contents.

  The layer is five steps: a dense product of the previous table with the layer's weights, a host stretch that scales
  the product's rows by the degree scale, gathers them at the edges' sources, sums them at the edges' landing nodes and
  scales the sums again (the scale-once aggregate), a step that forms the total (aggregate + self term + bias) and its
  column sums of values and of squares, a host stretch that turns the sums into mean and variance (mean of squares less
  squared mean, kept at or above zero), and a step that normalises, scales, shifts, clamps at zero and adds the
  previous table.  Each step is taken as what it leaves in the buffers it writes, every other buffer being left alone;
  put together they are the specification's scale-once layer of the previous table, plus that table.
-/
import proofs.«142371_j48498770706497_2_alg».proof.Proof.Gen.KernelIdeal.Regions
import proofs.«142371_j48498770706497_2_alg».proof.Proof.Spec
import proofs.«142371_j48498770706497_2_alg».proof.Proof.EdgeIdx
import proofs.«142371_j48498770706497_2_alg».proof.Proof.KPieces
import proofs.«142371_j48498770706497_2_alg».proof.Proof.KHost1
import proofs.«142371_j48498770706497_2_alg».proof.Proof.KHost2
import Idealize.ShloMosaic.Lib.StableHlo.Run
import Idealize.ShloMosaic.Lib.ValueIdx

set_option maxRecDepth 1628

noncomputable section

namespace Cert.KNet

open Idealize.ShloMosaic Idealize.ShloMosaic.TcCoe Idealize.ShloMosaic.ValueIdx
open Cert.KernelIdeal Cert.KernelIdeal.Gen
open scoped BigOperators

/-- An entry of a float array at the ideal model is an extended real; this names it as one, so that the sums and
    products of entries written below are the extended reals'. -/
abbrev er (x : EReal) : EReal := x

/-! ## What the two host stretches of the second layer do not write they leave alone -/

theorem keep4 (V : Valuation τ sig (Elt Ideal)) (r : Ref sig .tc) (h : r ∉ hostOps4_W) :
    StableHlo.after (hostOps4 (F := Ideal)) V (Proc.devRef .tc r) = V (Proc.devRef .tc r) :=
  StableHlo.after_of_writes_sub hostOps4 V hostOps4_writes h

theorem keep5 (V : Valuation τ sig (Elt Ideal)) (r : Ref sig .tc) (h : r ∉ hostOps5_W) :
    StableHlo.after (hostOps5 (F := Ideal)) V (Proc.devRef .tc r) = V (Proc.devRef .tc r) :=
  StableHlo.after_of_writes_sub hostOps5 V hostOps5_writes h

/-! ## The second layer along the chain of buffer contents -/

section Layer1

variable (W6 W7 W8 W9 W10 : Valuation τ sig (Elt Ideal))
variable (T : Fin 50000 → Fin 256 → EReal) (OUT : S50000x256.Idx → EReal)
variable (row col : IVec S800000 32)

/-- From the contents W6 the second layer is entered at (the previous layer's table at main_v48, the edge endpoints, the degree
    scale and its square): the dense product (W7), the host stretch that aggregates (W8), the totals and their column
    sums (W9), the host stretch that takes mean and variance (W10), and the normalised, clamped output with the
    previous table added, OUT.  Each step is given by what it leaves where it writes and by leaving every other buffer
    alone; the output is the scale-once layer of the previous table, plus that table. -/
theorem layer1_chain
    (h1 : (W6 (Proc.devRef .tc main_v1) : IVec S800000 32) = row)
    (h3 : (W6 (Proc.devRef .tc main_v3) : IVec S800000 32) = col)
    (hd10 : ∀ n : Fin 50000, (W6 (Proc.devRef .tc main_v10) : FVec Ideal S50000 .f32) (ix1 n)
        = Cert.Spec.dinv (Cert.EdgeIdx.landOf col) n)
    (hd11 : ∀ n : Fin 50000, (W6 (Proc.devRef .tc main_v11) : FVec Ideal S50000 .f32) (ix1 n)
        = Cert.Spec.dinv (Cert.EdgeIdx.landOf col) n * Cert.Spec.dinv (Cert.EdgeIdx.landOf col) n)
    (f7 : ∀ r : Ref sig .tc, r ∉ ([main_v49] : List (Ref sig .tc)) → W7 (Proc.devRef .tc r) = W6 (Proc.devRef .tc r))
    (o7 : ∀ (p : Fin 50000) (q : Fin 256), er ((W7 (Proc.devRef .tc main_v49) : S50000x256.Idx → EReal) (ix2 p q))
        = ∑ k : Fin 256, er ((W6 (Proc.devRef .tc main_v48) : S50000x256.Idx → EReal) (ix2 p k))
            * er ((W6 (Proc.devRef .tc main_arg7) : S256x256.Idx → EReal) (ix2 k q)))
    (e8 : W8 = StableHlo.after (hostOps4 (F := Ideal)) W7)
    (f9 : ∀ r : Ref sig .tc, r ∉ ([main_v70_0, main_v70_1, main_v70_2] : List (Ref sig .tc)) →
        W9 (Proc.devRef .tc r) = W8 (Proc.devRef .tc r))
    (hT : ∀ (p : Fin 50000) (q : Fin 256), T p q
        = er ((W8 (Proc.devRef .tc main_v67) : S50000x256.Idx → EReal) (ix2 p q))
          + er ((W8 (Proc.devRef .tc main_v49) : S50000x256.Idx → EReal) (ix2 p q))
            * er ((W8 (Proc.devRef .tc main_v68) : S50000x1.Idx → EReal) (ix2 p (0 : Fin 1)))
          + er ((W8 (Proc.devRef .tc main_v69) : S1x256.Idx → EReal) (ix2 (0 : Fin 1) q)))
    (o9 : ∀ (p : Fin 50000) (q : Fin 256), er ((W9 (Proc.devRef .tc main_v70_0) : S50000x256.Idx → EReal) (ix2 p q)) = T p q)
    (o9s : ∀ q : Fin 256, er ((W9 (Proc.devRef .tc main_v70_1) : S1x256.Idx → EReal) (ix2 (0 : Fin 1) q)) = ∑ p : Fin 50000, T p q)
    (o9q : ∀ q : Fin 256, er ((W9 (Proc.devRef .tc main_v70_2) : S1x256.Idx → EReal) (ix2 (0 : Fin 1) q))
        = ∑ p : Fin 50000, T p q * T p q)
    (e10 : W10 = StableHlo.after (hostOps5 (F := Ideal)) W9)
    (o11 : ∀ (p : Fin 50000) (q : Fin 256), OUT (ix2 p q)
        = max (er ((W10 (Proc.devRef .tc main_v81) : S1x256.Idx → EReal) (ix2 (0 : Fin 1) q))
              * (er ((W10 (Proc.devRef .tc main_v70_0) : S50000x256.Idx → EReal) (ix2 p q))
                  - er ((W10 (Proc.devRef .tc main_v83) : S1x256.Idx → EReal) (ix2 (0 : Fin 1) q)))
              * Ideal.rsqrt (er ((W10 (Proc.devRef .tc main_v84) : S1x256.Idx → EReal) (ix2 (0 : Fin 1) q))
                  + Ideal.ofBits .f32 0x3727C5AC#32)
            + er ((W10 (Proc.devRef .tc main_v82) : S1x256.Idx → EReal) (ix2 (0 : Fin 1) q))) 0
          + er ((W10 (Proc.devRef .tc main_v48) : S50000x256.Idx → EReal) (ix2 p q)))
    (n : Fin 50000) (q : Fin 256) :
    OUT (ix2 n q)
      = Cert.Spec.layerK (Cert.EdgeIdx.gidx row) (Cert.EdgeIdx.landOf col)
          (Ideal.ofBits .f32 0x47435000#32) (Ideal.ofBits .f32 0x3727C5AC#32)
          (fun p k => (W6 (Proc.devRef .tc main_v48) : S50000x256.Idx → EReal) (ix2 p k))
          (fun k q => (W6 (Proc.devRef .tc main_arg7) : S256x256.Idx → EReal) (ix2 k q))
          (fun q => (W6 (Proc.devRef .tc main_arg8) : S256.Idx → EReal) (ix1 q))
          (fun q => (W6 (Proc.devRef .tc main_arg9) : S256.Idx → EReal) (ix1 q))
          (fun q => (W6 (Proc.devRef .tc main_arg10) : S256.Idx → EReal) (ix1 q)) n q
        + er ((W6 (Proc.devRef .tc main_v48) : S50000x256.Idx → EReal) (ix2 n q)) := by
  subst e8 e10
  -- the edge endpoints and the degree scale, as the aggregating stretch finds them
  have hrow : (W7 (Proc.devRef .tc main_v1) : IVec S800000 32) = row := by
    rw [f7 main_v1 (by decide)]; exact h1
  have hcol : (W7 (Proc.devRef .tc main_v3) : IVec S800000 32) = col := by
    rw [f7 main_v3 (by decide)]; exact h3
  have hd : ∀ n : Fin 50000, (W7 (Proc.devRef .tc main_v10) : FVec Ideal S50000 .f32) (ix1 n)
      = Cert.Spec.dinv (Cert.EdgeIdx.landOf col) n := by
    intro n; rw [f7 main_v10 (by decide)]; exact hd10 n
  refine Cert.Spec.layerK_of_pieces_res _ _ Cert.KHost2.nF _ _ _ _ _ _
    (fun p q => (W7 (Proc.devRef .tc main_v49) : S50000x256.Idx → EReal) (ix2 p q))
    (fun n q => (StableHlo.after (hostOps4 (F := Ideal)) W7 (Proc.devRef .tc main_v67) : S50000x256.Idx → EReal) (ix2 n q))
    T
    (fun n => (StableHlo.after (hostOps4 (F := Ideal)) W7 (Proc.devRef .tc main_v68) : S50000x1.Idx → EReal) (ix2 n (0 : Fin 1)))
    (fun q => (W9 (Proc.devRef .tc main_v70_1) : S1x256.Idx → EReal) (ix2 (0 : Fin 1) q))
    (fun q => (W9 (Proc.devRef .tc main_v70_2) : S1x256.Idx → EReal) (ix2 (0 : Fin 1) q))
    (fun q => (StableHlo.after (hostOps5 (F := Ideal)) W9 (Proc.devRef .tc main_v83) : S1x256.Idx → EReal) (ix2 (0 : Fin 1) q))
    (fun q => (StableHlo.after (hostOps5 (F := Ideal)) W9 (Proc.devRef .tc main_v84) : S1x256.Idx → EReal) (ix2 (0 : Fin 1) q))
    (fun n q => OUT (ix2 n q))
    (fun n q => (W6 (Proc.devRef .tc main_v48) : S50000x256.Idx → EReal) (ix2 n q)) ?hxw ?hag ?hd2 ?hT ?hS1 ?hS2 ?hmu ?hvar ?hout n q
  case hxw => exact o7
  case hag =>
    intro n q
    exact Cert.KHost1.v67_apply W7 row col hrow hcol hd n q
  case hd2 =>
    intro n
    refine (Cert.KHost1.v68_apply W7 n).trans ?_
    rw [f7 main_v11 (by decide)]
    exact hd11 n
  case hT =>
    intro n q
    have h := hT n q
    rw [keep4 W7 main_v49 (by decide), Cert.KHost1.v69_apply W7 q, f7 main_arg8 (by decide)] at h
    exact h
  case hS1 => exact o9s
  case hS2 => exact o9q
  case hmu => intro q; exact Cert.KHost2.v83_apply W9 q
  case hvar => intro q; exact Cert.KHost2.v84_apply W9 q
  case hout =>
    intro n q
    have h := o11 n q
    rw [Cert.KHost2.v81_apply W9 q, f9 main_arg9 (by decide), keep4 W7 main_arg9 (by decide), f7 main_arg9 (by decide),
      Cert.KHost2.v82_apply W9 q, f9 main_arg10 (by decide), keep4 W7 main_arg10 (by decide), f7 main_arg10 (by decide),
      keep5 W9 main_v70_0 (by decide), o9 n q,
      keep5 W9 main_v48 (by decide), f9 main_v48 (by decide), keep4 W7 main_v48 (by decide), f7 main_v48 (by decide)] at h
    exact h

end Layer1

end Cert.KNet

end
-- ==== Proof.RegMatmul3Value.lean ====
/-
  The second matrix product's result, index by index, at the ideal model.

  At the ideal model a change of format is the identity and the product into a zero accumulator is the plain sum,
  so what the body leaves in the result's buffer at point t, at (a, q), is the sum over k of x-block(a, k) · w(k, q).
  Block t of x is rows 2000·t … of x, w's block is all of w, and block t of the result is rows 2000·t … of the
  result; so what point t writes back is block t of ONE function of the two arrays,
      G(p, q) = ∑ k, x(p, k) · w(k, q),
  and since the 25 blocks cover the 50000 rows (row p is in block p / 2000), the result's array ends holding G.
-/
import proofs.«142371_j48498770706497_2_alg».proof.Proof.RegMatmul3
import proofs.«142371_j48498770706497_2_alg».proof.Proof.LibPlainDot
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen

open Idealize.ShloMosaic Idealize.ShloMosaic.TcCoe Idealize.ShloMosaic.ValueIdx Idealize.SL.Sem
open Idealize.ShloMosaic.Pipeline (Dat)

-- the TensorCore's unscoped buffer contents when the region is entered, at the ideal model
variable (V : (c : Dev nD) → (b : Ref sig .tc) → Buf (Elt Ideal) ((c : Thread nD τ).loc b))

/-! ## The payload at an index -/

/-- The body's payload at (a, q): the change of format is the identity, the accumulator is zero, the contraction is
    rows by columns — the sum over the inner coordinate of the products. -/
theorem pay_apply3 (x0 : Vec Ideal S2000x256 .f32) (x1 : Vec Ideal S256x256 .f32) (j : S2000x256.Idx) :
    k3_pay1 x0 x1 j = ∑ k : Fin 256, x0 (ix2 (j 0) k) * x1 (ix2 k (j 1)) := by
  unfold k3_pay1
  -- a reshape to the same shape, where the payload has one, is the identity
  try rw [shapeCast_self]
  exact LibPlainDot.matmul_zero_apply (M := 2000) (K := 256) (N := 256) none _ _ j

/-! ## From the blocks to the array -/

/-- The product of the two arrays, index by index. -/
def G3 (a0 : S50000x256.Idx → EReal) (a1 : S256x256.Idx → EReal) : S50000x256.Idx → EReal :=
  fun i => ∑ k : Fin 256, a0 (ix2 (i 0) k) * a1 (ix2 k (i 1))

/-- The three index maps over the grid: x's and the result's row-block is the point, every column-block is 0, and w
    does not move. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of G of the two arrays as the region finds them. -/
theorem flushed_eq3 (c : Dev nD) (t : Fin cfg3.N) :
    (dat3 V c).flushed 2 t = ((cfg3.win 2).blk t).view.read (Elt Ideal) (G3 (V c main_v48) (V c main_arg7)) := by
  show (cfg3.win 2).cut (grid3.coords t) ((dat3 V c).after 2 t) = _
  rw [after3_2, out3_2_eq]
  obtain ⟨e0, e1, e2, e3, e4, e5⟩ := idx_facts3 t
  funext j
  obtain ⟨a, q, rfl⟩ : ∃ (a : Fin 2000) (q : Fin 256), j = ix2 a q := ⟨j 0, j 1, eq_ix2 j⟩
  show k3_pay1 (iblk3 V c 0 t) (iblk3 V c 1 t) (ix2 a q) = G3 (V c main_v48) (V c main_arg7) (((cfg3.win 2).blk t).view.emb (ix2 a q))
  rw [pay_apply3]
  unfold G3
  refine Finset.sum_congr rfl fun k _ => ?_
  -- x's block at (a, k) is x at (2000·t + a, k); w's block at (k, q) is w at (k, q)
  have h0 : ((cfg3.win 0).blk t).view.emb (ix2 a k) = ix2 ((((cfg3.win 2).blk t).view.emb (ix2 a q)) 0) k := by
    funext d; apply Fin.ext
    match d with
    | ⟨0, _⟩ => show win3_0.index t (0 : Fin 2) * 2000 + 1 * a.val = win3_2.index t (0 : Fin 2) * 2000 + 1 * a.val; omega
    | ⟨1, _⟩ => show win3_0.index t (1 : Fin 2) * 256 + 1 * k.val = k.val; omega
  have h1 : ((cfg3.win 1).blk t).view.emb (ix2 k q) = ix2 k ((((cfg3.win 2).blk t).view.emb (ix2 a q)) 1) := by
    funext d; apply Fin.ext
    match d with
    | ⟨0, _⟩ => show win3_1.index t (0 : Fin 2) * 256 + 1 * k.val = k.val; omega
    | ⟨1, _⟩ => show win3_1.index t (1 : Fin 2) * 256 + 1 * q.val = win3_2.index t (1 : Fin 2) * 256 + 1 * q.val; omega
  exact congrArg₂ (fun u v : EReal => u * v)
    (congrArg (V c main_v48 : S50000x256.Idx → EReal) h0) (congrArg (V c main_arg7 : S256x256.Idx → EReal) h1)

/-- An index of the result's array is in point t's block iff each coordinate is in the block's range on its axis. -/
theorem mem_blk3 (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v49).slice (win3_2.rect t)).set ↔ _
  rw [View.set_slice_whole, Rect.mem_set_unit]
  exact Iff.rfl

/-- Every index of the result's array is in some point's block: row p is in block p / 2000. -/
theorem cover_all3 (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, by rw [show cfg3.N = 25 from N_3]; omega⟩, rfl⟩
  obtain ⟨-, -, -, -, e4, e5⟩ := idx_facts3 t
  refine ⟨t, flush3_2 t, ?_⟩
  rw [mem_blk3]
  intro d
  match d with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- The result's array after the region is G of the two arrays as the region finds them. -/
theorem final3 (c : Dev nD) : (dat3 V c).arrAt 2 cfg3.N = G3 (V c main_v48) (V c main_arg7) :=
  (dat3 V c).arrAt_eq_of_cover 2 (G3 (V c main_v48) (V c main_arg7)) (fun t _ => flushed_eq3 V c t) cover_all3

/-- G at (p, q). -/
theorem G3_apply (a0 : S50000x256.Idx → EReal) (a1 : S256x256.Idx → EReal) (p : Fin 50000) (q : Fin 256) :
    G3 a0 a1 (ix2 p q) = ∑ k : Fin 256, a0 (ix2 p k) * a1 (ix2 k q) := rfl

/-- The result's array after the region, at (p, q): the sum over k of x(p, k) · w(k, q), for x and w the two input
    arrays as the region finds them. -/
theorem out3_apply (c : Dev nD) (x : S50000x256.Idx → EReal) (w : S256x256.Idx → EReal)
    (hx : (V c main_v48 : S50000x256.Idx → EReal) = x) (hw : (V c main_arg7 : S256x256.Idx → EReal) = w)
    (p : Fin 50000) (q : Fin 256) :
    (dat3 (F := Ideal) V c).arrAt 2 cfg3.N (ix2 p q) = ∑ k : Fin 256, x (ix2 p k) * w (ix2 k q) := by
  rw [final3, hx, hw, G3_apply]

end Cert.KernelIdeal.Hand

end
-- ==== Proof.RegStats4Value.lean ====
/-
  Region 4 of the kernel-side program, its VALUE at the ideal model: what the three output arrays hold after the
  region, as functions of the four arrays the region finds.

  At every grid point the body forms the block of the total
      T(p, q) = agg(p, q) + xw(p, q) · d2(p) + b(q)
  (the aggregate, plus the product's entry times the row's squared scale, plus the column's bias), stores it to the
  first output's block, and adds the block's column sums of T and of T·T to two accumulators that start at zero.
  The 25 row-blocks cover the 50000 rows, so the first output ends holding T. The accumulators after n points hold
  the sums over the rows below 2000·n (induction on the point), so after the last point they hold the column sums
  over all rows; that is what the last point copies to the second and third outputs, whose one block is the array.
-/
import proofs.«142371_j48498770706497_2_alg».proof.Proof.RegStats4
import proofs.«142371_j48498770706497_2_alg».proof.Proof.BlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem

open scoped BigOperators
open Idealize.ShloMosaic.ValueIdx
open Idealize.ShloMosaic.Pipeline (Dat)

section AtIdeal

/-! ## The payloads at an index -/

/-- The block's total at (a, q): the aggregate, plus the product's entry times the row's scale, plus the column's bias. -/
theorem k4_pay3_apply (x0 x1 : Vec Ideal S2000x256 .f32) (x2 : Vec Ideal S2000x1 .f32) (x3 : Vec Ideal S1x256 .f32)
    (a : Fin 2000) (q : Fin 256) :
    k4_pay3 x0 x1 x2 x3 (ix2 a q)
      = (x0 (ix2 a q) : EReal) + x1 (ix2 a q) * x2 (ix2 a (0 : Fin 1)) + x3 (ix2 (0 : Fin 1) q) := by
  unfold k4_pay3
  simp only [shapeCast_self, addf, mulf]
  rw [broadcastTo_apply x2 broadcasts_S2000x1_S2000x256 (ix2 a q) (ix2 a (0 : Fin 1))
      (fun d => by match d with | ⟨0, _⟩ => rfl | ⟨1, _⟩ => rfl),
    broadcastTo_apply x3 broadcasts_S1x256_S2000x256 (ix2 a q) (ix2 (0 : Fin 1) q)
      (fun d => by match d with | ⟨0, _⟩ => rfl | ⟨1, _⟩ => rfl)]
  rfl

/-- The first accumulator's reset value is zero. -/
theorem k4_pay1_apply (q : Fin 256) : (k4_pay1 (F := Ideal) (ix2 (0 : Fin 1) q) : EReal) = 0 := by
  unfold k4_pay1
  simp only [shapeCast_self]
  exact Ideal.ofBits_zero_f32

/-- The second accumulator's reset value is zero. -/
theorem k4_pay2_apply (q : Fin 256) : (k4_pay2 (F := Ideal) (ix2 (0 : Fin 1) q) : EReal) = 0 := by
  unfold k4_pay2
  simp only [shapeCast_self]
  exact Ideal.ofBits_zero_f32

/-- The index the reduction over the rows reads for row k of column q. -/
theorem lift_col4 (q : Fin 256) (k : Fin 2000) : reduces_S2000x256_S256.lift (ix1 q) k = ix2 k q := by
  funext d
  match d with
  | ⟨0, _⟩ => rfl
  | ⟨1, _⟩ => rfl

/-- The reduction over the rows, at column q: the sum over the 2000 rows of the block. -/
theorem colsum4_apply (src : FVec Ideal S2000x256 .f32) (hφ : FKind.Formats FTy.f32)
    (hacc : (0x00000000#32 : BitVec FTy.f32.bits) = FKind.add.neutral FTy.f32 hφ) (q : Fin 256) :
    multiReduction .add [0] S256 src 0x00000000#32 reduces_S2000x256_S256 hφ hacc (ix1 q)
      = ∑ a : Fin 2000, (src (ix2 a q) : EReal) :=
  (Ideal.multiReduction_add_single src _ reduces_S2000x256_S256 hφ hacc (ix1 q)).trans
    (Finset.sum_congr rfl fun k _ => congrArg src (lift_col4 q k))

/-- The first accumulator's update at column q: what it held plus the block's column sum of the total. -/
theorem k4_pay4_apply (x0 x1 : Vec Ideal S2000x256 .f32) (x2 : Vec Ideal S2000x1 .f32) (x3 xs : Vec Ideal S1x256 .f32)
    (q : Fin 256) :
    k4_pay4 x0 x1 x2 x3 xs (ix2 (0 : Fin 1) q)
      = (xs (ix2 (0 : Fin 1) q) : EReal) + ∑ a : Fin 2000, (k4_pay3 x0 x1 x2 x3 (ix2 a q) : EReal) := by
  unfold k4_pay4
  simp only [shapeCast_self, addf]
  rw [shapeCast_a_1a_apply _ shapeCasts_S256_S1x256 (0 : Fin 1) q]
  exact congrArg (fun u : EReal => (xs (ix2 (0 : Fin 1) q) : EReal) + u) (colsum4_apply _ _ _ q)

/-- The second accumulator's update at column q: what it held plus the block's column sum of the total's square. -/
theorem k4_pay5_apply (x0 x1 : Vec Ideal S2000x256 .f32) (x2 : Vec Ideal S2000x1 .f32) (x3 xs : Vec Ideal S1x256 .f32)
    (q : Fin 256) :
    k4_pay5 x0 x1 x2 x3 xs (ix2 (0 : Fin 1) q)
      = (xs (ix2 (0 : Fin 1) q) : EReal)
        + ∑ a : Fin 2000, (k4_pay3 x0 x1 x2 x3 (ix2 a q) : EReal) * (k4_pay3 x0 x1 x2 x3 (ix2 a q) : EReal) := by
  unfold k4_pay5
  simp only [shapeCast_self, addf]
  rw [shapeCast_a_1a_apply _ shapeCasts_S256_S1x256 (0 : Fin 1) q]
  exact congrArg (fun u : EReal => (xs (ix2 (0 : Fin 1) q) : EReal) + u) (colsum4_apply _ _ _ q)

/-! ## The total, and the grid's index maps -/

/-- The total, index by index: the aggregate, plus the product's entry times the row's scale, plus the column's bias. -/
def T4 (agg xw : S50000x256.Idx → EReal) (d2 : S50000x1.Idx → EReal) (b : S1x256.Idx → EReal) :
    S50000x256.Idx → EReal :=
  fun i => agg i + xw i * d2 (ix2 (i 0) (0 : Fin 1)) + b (ix2 (0 : Fin 1) (i 1))

theorem T4_apply (agg xw : S50000x256.Idx → EReal) (d2 : S50000x1.Idx → EReal) (b : S1x256.Idx → EReal)
    (p : Fin 50000) (q : Fin 256) :
    T4 agg xw d2 b (ix2 p q) = agg (ix2 p q) + xw (ix2 p q) * d2 (ix2 p (0 : Fin 1)) + b (ix2 (0 : Fin 1) q) := rfl

/-- The column sums of a table, as a one-row table. -/
def colSum4 (T : S50000x256.Idx → EReal) : S1x256.Idx → EReal := fun j => ∑ p : Fin 50000, T (ix2 p (j 1))

theorem colSum4_apply (T : S50000x256.Idx → EReal) (q : Fin 256) :
    colSum4 T (ix2 (0 : Fin 1) q) = ∑ p : Fin 50000, T (ix2 p q) := rfl

/-- The grid has 25 points. -/
theorem N4_eq : cfg4.N = 25 := N_4

/-- A grid point as one of the 25 row-blocks. -/
abbrev pt4 (t : Fin cfg4.N) : Fin 25 := ⟨t.val, by have h : cfg4.N = 25 := N_4; have := t.isLt; omega⟩

/-- The index maps over the grid: the three row-blocked inputs and the first output sit at row-block t, column-block
    0; the bias and the two sums' outputs do not move. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

-- the TensorCore's unscoped buffer contents when the region is entered, at the ideal model
variable (V : (c : Dev nD) → (b : Ref sig .tc) → Buf (Elt Ideal) ((c : Thread nD τ).loc b))

/-- The four arrays the region finds, as functions into the extended reals, and the total of them. -/
abbrev agg4 (c : Dev nD) : S50000x256.Idx → EReal := V c main_v67
abbrev xw4 (c : Dev nD) : S50000x256.Idx → EReal := V c main_v49
abbrev dsq4 (c : Dev nD) : S50000x1.Idx → EReal := V c main_v68
abbrev bias4 (c : Dev nD) : S1x256.Idx → EReal := V c main_v69
abbrev tot4 (c : Dev nD) : S50000x256.Idx → EReal := T4 (agg4 V c) (xw4 V c) (dsq4 V c) (bias4 V c)

/-! ## The block of the total -/

/-- The first output's block at point t sits at rows 2000·t …, all columns. -/
theorem emb4_4 (t : Fin cfg4.N) (a : Fin 2000) (q : Fin 256) :
    ((cfg4.win 4).blk t).view.emb (ix2 a q) = ix2 (Cert.BlockSum.rowOf (pt4 t) a) q := by
  obtain ⟨-, -, -, -, -, -, -, -, e40, e41, -⟩ := idx_facts4 t
  funext d; apply Fin.ext
  match d with
  | ⟨0, _⟩ => show win4_4.index t (0 : Fin 2) * 2000 + 1 * a.val = 2000 * t.val + a.val; omega
  | ⟨1, _⟩ => show win4_4.index t (1 : Fin 2) * 256 + 1 * q.val = q.val; omega

/-- What the body stores at point t, at (a, q), is the total at the index's place in the array. -/
theorem tblk4_apply (c : Dev nD) (t : Fin cfg4.N) (a : Fin 2000) (q : Fin 256) :
    (tblk4 V c t (ix2 a q) : EReal) = tot4 V c (((cfg4.win 4).blk t).view.emb (ix2 a q)) := by
  obtain ⟨e00, e01, e10, e11, e20, e21, e30, e31, e40, e41, -⟩ := idx_facts4 t
  have h0 : ((cfg4.win 0).blk t).view.emb (ix2 a q) = ((cfg4.win 4).blk t).view.emb (ix2 a q) := by
    funext d; apply Fin.ext
    match d with
    | ⟨0, _⟩ => show win4_0.index t (0 : Fin 2) * 2000 + 1 * a.val = win4_4.index t (0 : Fin 2) * 2000 + 1 * a.val; omega
    | ⟨1, _⟩ => show win4_0.index t (1 : Fin 2) * 256 + 1 * q.val = win4_4.index t (1 : Fin 2) * 256 + 1 * q.val; omega
  have h1 : ((cfg4.win 1).blk t).view.emb (ix2 a q) = ((cfg4.win 4).blk t).view.emb (ix2 a q) := by
    funext d; apply Fin.ext
    match d with
    | ⟨0, _⟩ => show win4_1.index t (0 : Fin 2) * 2000 + 1 * a.val = win4_4.index t (0 : Fin 2) * 2000 + 1 * a.val; omega
    | ⟨1, _⟩ => show win4_1.index t (1 : Fin 2) * 256 + 1 * q.val = win4_4.index t (1 : Fin 2) * 256 + 1 * q.val; omega
  have h2 : ((cfg4.win 2).blk t).view.emb (ix2 a (0 : Fin 1))
      = ix2 ((((cfg4.win 4).blk t).view.emb (ix2 a q)) 0) (0 : Fin 1) := by
    funext d; apply Fin.ext
    match d with
    | ⟨0, _⟩ => show win4_2.index t (0 : Fin 2) * 2000 + 1 * a.val = win4_4.index t (0 : Fin 2) * 2000 + 1 * a.val; omega
    | ⟨1, _⟩ => show win4_2.index t (1 : Fin 2) * 1 + 1 * 0 = 0; omega
  have h3 : ((cfg4.win 3).blk t).view.emb (ix2 (0 : Fin 1) q)
      = ix2 (0 : Fin 1) ((((cfg4.win 4).blk t).view.emb (ix2 a q)) 1) := by
    funext d; apply Fin.ext
    match d with
    | ⟨0, _⟩ => show win4_3.index t (0 : Fin 2) * 1 + 1 * 0 = 0; omega
    | ⟨1, _⟩ => show win4_3.index t (1 : Fin 2) * 256 + 1 * q.val = win4_4.index t (1 : Fin 2) * 256 + 1 * q.val; omega
  refine (k4_pay3_apply (iblk4 V c 0 t) (iblk4 V c 1 t) (iblk4 V c 2 t) (iblk4 V c 3 t) a q).trans ?_
  exact congrArg₂ (fun u v : EReal => u + v)
    (congrArg₂ (fun u v : EReal => u + v) (congrArg (agg4 V c) h0)
      (congrArg₂ (fun u v : EReal => u * v) (congrArg (xw4 V c) h1) (congrArg (dsq4 V c) h2)))
    (congrArg (bias4 V c) h3)

/-- The same, with the row named: row a of block t is row 2000·t + a. -/
theorem tblk4_row (c : Dev nD) (t : Fin cfg4.N) (a : Fin 2000) (q : Fin 256) :
    (tblk4 V c t (ix2 a q) : EReal) = tot4 V c (ix2 (Cert.BlockSum.rowOf (pt4 t) a) q) :=
  (tblk4_apply V c t a q).trans (congrArg (tot4 V c) (emb4_4 t a q))

/-! ## The accumulators after n points -/

/-- The first accumulator after n points, at column q: the sum of the total over the rows below 2000·n. -/
theorem acc4_fst_apply (c : Dev nD) : ∀ (n : ℕ) (h : n ≤ cfg4.N) (q : Fin 256),
    ((acc4 V c n h).1 (ix2 (0 : Fin 1) q) : EReal) = Cert.BlockSum.accTo (fun p => tot4 V c (ix2 p q)) n
  | 0, h, q => (congrFun (acc4_zero_fst V c 0 h rfl) (ix2 (0 : Fin 1) q)).trans (k4_pay1_apply q)
  | n + 1, h, q => by
    have hn : n < cfg4.N := Nat.lt_of_succ_le h
    have h25 : n < 25 := by have e : cfg4.N = 25 := N_4; omega
    refine (congrFun (acc4_succ_fst V c ⟨n, hn⟩) (ix2 (0 : Fin 1) q)).trans ?_
    refine (k4_pay4_apply (iblk4 V c 0 ⟨n, hn⟩) (iblk4 V c 1 ⟨n, hn⟩) (iblk4 V c 2 ⟨n, hn⟩) (iblk4 V c 3 ⟨n, hn⟩)
      (acc4 V c n (Nat.le_of_lt hn)).1 q).trans ?_
    rw [Cert.BlockSum.accTo_succ_of_lt _ n h25]
    exact congrArg₂ (fun u v : EReal => u + v) (acc4_fst_apply c n (Nat.le_of_lt hn) q)
      (Finset.sum_congr rfl fun a _ => tblk4_row V c ⟨n, hn⟩ a q)

/-- The second accumulator after n points, at column q: the sum of the total's square over the rows below 2000·n. -/
theorem acc4_snd_apply (c : Dev nD) : ∀ (n : ℕ) (h : n ≤ cfg4.N) (q : Fin 256),
    ((acc4 V c n h).2 (ix2 (0 : Fin 1) q) : EReal)
      = Cert.BlockSum.accTo (fun p => tot4 V c (ix2 p q) * tot4 V c (ix2 p q)) n
  | 0, h, q => (congrFun (acc4_zero_snd V c 0 h rfl) (ix2 (0 : Fin 1) q)).trans (k4_pay2_apply q)
  | n + 1, h, q => by
    have hn : n < cfg4.N := Nat.lt_of_succ_le h
    have h25 : n < 25 := by have e : cfg4.N = 25 := N_4; omega
    refine (congrFun (acc4_succ_snd V c ⟨n, hn⟩) (ix2 (0 : Fin 1) q)).trans ?_
    refine (k4_pay5_apply (iblk4 V c 0 ⟨n, hn⟩) (iblk4 V c 1 ⟨n, hn⟩) (iblk4 V c 2 ⟨n, hn⟩) (iblk4 V c 3 ⟨n, hn⟩)
      (acc4 V c n (Nat.le_of_lt hn)).2 q).trans ?_
    rw [Cert.BlockSum.accTo_succ_of_lt _ n h25]
    exact congrArg₂ (fun u v : EReal => u + v) (acc4_snd_apply c n (Nat.le_of_lt hn) q)
      (Finset.sum_congr rfl fun a _ => congrArg₂ (fun u v : EReal => u * v) (tblk4_row V c ⟨n, hn⟩ a q)
        (tblk4_row V c ⟨n, hn⟩ a q))

/-! ## From the blocks to the first output's array -/

/-- What point t writes back to the first output is block t of the total. -/
theorem flushed4_4 (c : Dev nD) (t : Fin cfg4.N) :
    (dat4 V c).flushed 4 t = ((cfg4.win 4).blk t).view.read (Elt Ideal) (tot4 V c) := by
  show (cfg4.win 4).cut (grid4.coords t) ((dat4 V c).after 4 t) = _
  rw [after4_4]
  funext j
  obtain ⟨a, q, rfl⟩ : ∃ (a : Fin 2000) (q : Fin 256), j = ix2 a q := ⟨j 0, j 1, eq_ix2 j⟩
  exact tblk4_apply V c t a q

/-- An index of the first output's array is in point t's block iff each coordinate is in the block's range. -/
theorem mem_blk4_4 (t : Fin cfg4.N) (i : S50000x256.Idx) :
    i ∈ ((cfg4.win 4).blk t).view.set ↔ ∀ a : Fin 2, win4_4.index t a * S2000x256.size a ≤ (i a).val
      ∧ (i a).val < win4_4.index t a * S2000x256.size a + S2000x256.size a := by
  show i ∈ ((View.whole main_v70_0).slice (win4_4.rect t)).set ↔ _
  rw [View.set_slice_whole, Rect.mem_set_unit]
  exact Iff.rfl

/-- Every index of the first output's array is in some point's block: row p is in block p / 2000. -/
theorem cover4_4 (i : S50000x256.Idx) :
    ∃ t : Fin cfg4.N, (cfg4.win 4).flush t = true ∧ i ∈ ((cfg4.win 4).blk t).view.set := by
  have hi0 : (i 0).val < 50000 := (i 0).isLt
  have hi1 : (i 1).val < 256 := (i 1).isLt
  obtain ⟨t, ht⟩ : ∃ t : Fin cfg4.N, t.val = (i 0).val / 2000 :=
    ⟨⟨(i 0).val / 2000, by rw [show cfg4.N = 25 from N_4]; omega⟩, rfl⟩
  obtain ⟨-, -, -, -, -, -, -, -, e40, e41, -⟩ := idx_facts4 t
  refine ⟨t, flush4_4 t, ?_⟩
  rw [mem_blk4_4]
  intro d
  match d with
  | ⟨0, _⟩ => show win4_4.index t (0 : Fin 2) * 2000 ≤ (i 0).val ∧ (i 0).val < win4_4.index t (0 : Fin 2) * 2000 + 2000; omega
  | ⟨1, _⟩ => show win4_4.index t (1 : Fin 2) * 256 ≤ (i 1).val ∧ (i 1).val < win4_4.index t (1 : Fin 2) * 256 + 256; omega

/-- The first output's array after the region is the total of the four arrays as the region finds them. -/
theorem final4_4 (c : Dev nD) : (dat4 V c).arrAt 4 cfg4.N = tot4 V c :=
  (dat4 V c).arrAt_eq_of_cover 4 (tot4 V c) (fun t _ => flushed4_4 V c t) cover4_4

/-! ## The two sums' arrays: written once, at the last point, whole -/

/-- The one row of a sums' output sits where it is: block (0, 0) of a 1×256 array is the array. -/
theorem emb4_5 (t : Fin cfg4.N) (q : Fin 256) :
    ((cfg4.win 5).blk t).view.emb (ix2 (0 : Fin 1) q) = ix2 (0 : Fin 1) q := by
  obtain ⟨-, -, -, -, -, -, -, -, -, -, e50, e51, -⟩ := idx_facts4 t
  funext d; apply Fin.ext
  match d with
  | ⟨0, _⟩ => show win4_5.index t (0 : Fin 2) * 1 + 1 * 0 = 0; omega
  | ⟨1, _⟩ => show win4_5.index t (1 : Fin 2) * 256 + 1 * q.val = q.val; omega

theorem emb4_6 (t : Fin cfg4.N) (q : Fin 256) :
    ((cfg4.win 6).blk t).view.emb (ix2 (0 : Fin 1) q) = ix2 (0 : Fin 1) q := by
  obtain ⟨-, -, -, -, -, -, -, -, -, -, -, -, e60, e61⟩ := idx_facts4 t
  funext d; apply Fin.ext
  match d with
  | ⟨0, _⟩ => show win4_6.index t (0 : Fin 2) * 1 + 1 * 0 = 0; omega
  | ⟨1, _⟩ => show win4_6.index t (1 : Fin 2) * 256 + 1 * q.val = q.val; omega

/-- The point that writes the sums back is the last one. -/
theorem last_of_flush4_5 (t : Fin cfg4.N) (hf : (cfg4.win 5).flush t = true) : t.val + 1 = 25 := by
  have h1 := (flush4_5 t).mp hf
  have h2 := t.isLt
  have h3 : cfg4.N = 25 := N_4
  omega

theorem last_of_flush4_6 (t : Fin cfg4.N) (hf : (cfg4.win 6).flush t = true) : t.val + 1 = 25 := by
  have h1 := (flush4_6 t).mp hf
  have h2 := t.isLt
  have h3 : cfg4.N = 25 := N_4
  omega

/-- What the last point writes back to the second output: the column sums of the total. -/
theorem flushed4_5 (c : Dev nD) (t : Fin cfg4.N) (hf : (cfg4.win 5).flush t = true) :
    (dat4 V c).flushed 5 t = ((cfg4.win 5).blk t).view.read (Elt Ideal) (colSum4 (tot4 V c)) := by
  have hl := last_of_flush4_5 t hf
  show (cfg4.win 5).cut (grid4.coords t) ((dat4 V c).after 5 t) = _
  rw [after4_5]
  funext j
  obtain ⟨a, q, rfl⟩ : ∃ (a : Fin 1) (q : Fin 256), j = ix2 a q := ⟨j 0, j 1, eq_ix2 j⟩
  obtain rfl : a = 0 := Subsingleton.elim _ _
  -- the left side is the accumulator at (0, q); the right side reads the sums' table at the block's place
  refine Eq.trans (b := ((acc4 V c (t.val + 1) t.isLt).1 (ix2 (0 : Fin 1) q) : EReal)) rfl ?_
  rw [acc4_fst_apply V c (t.val + 1) t.isLt q, hl, Cert.BlockSum.accTo_eq]
  refine Eq.trans ?_ (View.read_apply (v := ((cfg4.win 5).blk t).view) (Val := Elt Ideal) (colSum4 (tot4 V c))
    (ix2 (0 : Fin 1) q)).symm
  rw [cast_eq, emb4_5 t q, colSum4_apply]

/-- What the last point writes back to the third output: the column sums of the total's square. -/
theorem flushed4_6 (c : Dev nD) (t : Fin cfg4.N) (hf : (cfg4.win 6).flush t = true) :
    (dat4 V c).flushed 6 t
      = ((cfg4.win 6).blk t).view.read (Elt Ideal) (colSum4 (fun i => tot4 V c i * tot4 V c i)) := by
  have hl := last_of_flush4_6 t hf
  show (cfg4.win 6).cut (grid4.coords t) ((dat4 V c).after 6 t) = _
  rw [after4_6]
  funext j
  obtain ⟨a, q, rfl⟩ : ∃ (a : Fin 1) (q : Fin 256), j = ix2 a q := ⟨j 0, j 1, eq_ix2 j⟩
  obtain rfl : a = 0 := Subsingleton.elim _ _
  refine Eq.trans (b := ((acc4 V c (t.val + 1) t.isLt).2 (ix2 (0 : Fin 1) q) : EReal)) rfl ?_
  rw [acc4_snd_apply V c (t.val + 1) t.isLt q, hl, Cert.BlockSum.accTo_eq]
  refine Eq.trans ?_ (View.read_apply (v := ((cfg4.win 6).blk t).view) (Val := Elt Ideal)
    (colSum4 (fun i => tot4 V c i * tot4 V c i)) (ix2 (0 : Fin 1) q)).symm
  rw [cast_eq, emb4_6 t q, colSum4_apply]

/-- The last point. -/
abbrev t4_last : Fin cfg4.N := ⟨24, by rw [show cfg4.N = 25 from N_4]; decide⟩

theorem mem_blk4_5 (t : Fin cfg4.N) (i : S1x256.Idx) :
    i ∈ ((cfg4.win 5).blk t).view.set ↔ ∀ a : Fin 2, win4_5.index t a * S1x256.size a ≤ (i a).val
      ∧ (i a).val < win4_5.index t a * S1x256.size a + S1x256.size a := by
  show i ∈ ((View.whole main_v70_1).slice (win4_5.rect t)).set ↔ _
  rw [View.set_slice_whole, Rect.mem_set_unit]
  exact Iff.rfl

theorem mem_blk4_6 (t : Fin cfg4.N) (i : S1x256.Idx) :
    i ∈ ((cfg4.win 6).blk t).view.set ↔ ∀ a : Fin 2, win4_6.index t a * S1x256.size a ≤ (i a).val
      ∧ (i a).val < win4_6.index t a * S1x256.size a + S1x256.size a := by
  show i ∈ ((View.whole main_v70_2).slice (win4_6.rect t)).set ↔ _
  rw [View.set_slice_whole, Rect.mem_set_unit]
  exact Iff.rfl

/-- Every index of the second output's array is in the last point's block. -/
theorem cover4_5 (i : S1x256.Idx) :
    ∃ t : Fin cfg4.N, (cfg4.win 5).flush t = true ∧ i ∈ ((cfg4.win 5).blk t).view.set := by
  have hi0 : (i 0).val < 1 := (i 0).isLt
  have hi1 : (i 1).val < 256 := (i 1).isLt
  obtain ⟨-, -, -, -, -, -, -, -, -, -, e50, e51, -⟩ := idx_facts4 t4_last
  refine ⟨t4_last, (flush4_5 t4_last).mpr rfl, ?_⟩
  rw [mem_blk4_5]
  intro d
  match d with
  | ⟨0, _⟩ => show win4_5.index t4_last (0 : Fin 2) * 1 ≤ (i 0).val ∧ (i 0).val < win4_5.index t4_last (0 : Fin 2) * 1 + 1; omega
  | ⟨1, _⟩ => show win4_5.index t4_last (1 : Fin 2) * 256 ≤ (i 1).val ∧ (i 1).val < win4_5.index t4_last (1 : Fin 2) * 256 + 256; omega

/-- Every index of the third output's array is in the last point's block. -/
theorem cover4_6 (i : S1x256.Idx) :
    ∃ t : Fin cfg4.N, (cfg4.win 6).flush t = true ∧ i ∈ ((cfg4.win 6).blk t).view.set := by
  have hi0 : (i 0).val < 1 := (i 0).isLt
  have hi1 : (i 1).val < 256 := (i 1).isLt
  obtain ⟨-, -, -, -, -, -, -, -, -, -, -, -, e60, e61⟩ := idx_facts4 t4_last
  refine ⟨t4_last, (flush4_6 t4_last).mpr rfl, ?_⟩
  rw [mem_blk4_6]
  intro d
  match d with
  | ⟨0, _⟩ => show win4_6.index t4_last (0 : Fin 2) * 1 ≤ (i 0).val ∧ (i 0).val < win4_6.index t4_last (0 : Fin 2) * 1 + 1; omega
  | ⟨1, _⟩ => show win4_6.index t4_last (1 : Fin 2) * 256 ≤ (i 1).val ∧ (i 1).val < win4_6.index t4_last (1 : Fin 2) * 256 + 256; omega

/-- The second output's array after the region: the column sums of the total. -/
theorem final4_5 (c : Dev nD) : (dat4 V c).arrAt 5 cfg4.N = colSum4 (tot4 V c) :=
  (dat4 V c).arrAt_eq_of_cover 5 (colSum4 (tot4 V c)) (flushed4_5 V c) cover4_5

/-- The third output's array after the region: the column sums of the total's square. -/
theorem final4_6 (c : Dev nD) : (dat4 V c).arrAt 6 cfg4.N = colSum4 (fun i => tot4 V c i * tot4 V c i) :=
  (dat4 V c).arrAt_eq_of_cover 6 (colSum4 (fun i => tot4 V c i * tot4 V c i)) (flushed4_6 V c) cover4_6

/-! ## The three outputs, index by index, over named arrays -/

/-- The first output at (p, q): the total of the four arrays as the region finds them. -/
theorem out4_4_apply (c : Dev nD) (agg xw : S50000x256.Idx → EReal) (d2 : S50000x1.Idx → EReal) (b : S1x256.Idx → EReal)
    (hagg : (V c main_v67 : S50000x256.Idx → EReal) = agg) (hxw : (V c main_v49 : S50000x256.Idx → EReal) = xw)
    (hd2 : (V c main_v68 : S50000x1.Idx → EReal) = d2) (hb : (V c main_v69 : S1x256.Idx → EReal) = b)
    (p : Fin 50000) (q : Fin 256) :
    (dat4 (F := Ideal) V c).arrAt 4 cfg4.N (ix2 p q) = T4 agg xw d2 b (ix2 p q) := by
  rw [final4_4]
  show T4 (V c main_v67) (V c main_v49) (V c main_v68) (V c main_v69) (ix2 p q) = _
  rw [hagg, hxw, hd2, hb]

/-- The second output at column q: the sum over all rows of the total. -/
theorem out4_5_apply (c : Dev nD) (agg xw : S50000x256.Idx → EReal) (d2 : S50000x1.Idx → EReal) (b : S1x256.Idx → EReal)
    (hagg : (V c main_v67 : S50000x256.Idx → EReal) = agg) (hxw : (V c main_v49 : S50000x256.Idx → EReal) = xw)
    (hd2 : (V c main_v68 : S50000x1.Idx → EReal) = d2) (hb : (V c main_v69 : S1x256.Idx → EReal) = b)
    (q : Fin 256) :
    (dat4 (F := Ideal) V c).arrAt 5 cfg4.N (ix2 (0 : Fin 1) q) = ∑ p : Fin 50000, T4 agg xw d2 b (ix2 p q) := by
  rw [final4_5, colSum4_apply]
  show ∑ p : Fin 50000, T4 (V c main_v67) (V c main_v49) (V c main_v68) (V c main_v69) (ix2 p q) = _
  rw [hagg, hxw, hd2, hb]

/-- The third output at column q: the sum over all rows of the total's square. -/
theorem out4_6_apply (c : Dev nD) (agg xw : S50000x256.Idx → EReal) (d2 : S50000x1.Idx → EReal) (b : S1x256.Idx → EReal)
    (hagg : (V c main_v67 : S50000x256.Idx → EReal) = agg) (hxw : (V c main_v49 : S50000x256.Idx → EReal) = xw)
    (hd2 : (V c main_v68 : S50000x1.Idx → EReal) = d2) (hb : (V c main_v69 : S1x256.Idx → EReal) = b)
    (q : Fin 256) :
    (dat4 (F := Ideal) V c).arrAt 6 cfg4.N (ix2 (0 : Fin 1) q)
      = ∑ p : Fin 50000, T4 agg xw d2 b (ix2 p q) * T4 agg xw d2 b (ix2 p q) := by
  rw [final4_6, colSum4_apply]
  show ∑ p : Fin 50000, T4 (V c main_v67) (V c main_v49) (V c main_v68) (V c main_v69) (ix2 p q)
    * T4 (V c main_v67) (V c main_v49) (V c main_v68) (V c main_v69) (ix2 p q) = _
  rw [hagg, hxw, hd2, hb]

end AtIdeal

end Cert.KernelIdeal.Hand

end
-- ==== Proof.RegBnRes5Value.lean ====
/-
  Region 5 of @main, its VALUE: what the output array holds after the region, as one function of the arrays the
  region finds — at any float instance the kernel's tree of operations element by element (the aggregate centred at
  the column's mean, scaled, multiplied by the reciprocal square root of the variance plus the stabiliser, shifted,
  rectified, the residual then added), then at the extended reals index by index.

  The body's payload is read at a block index; the printed index maps are decided over the grid (the aggregate's
  block moves with the output's, the parameter rows stay put); the output's 25 row-blocks cover the array.
-/
import proofs.«142371_j48498770706497_2_alg».proof.Proof.RegBnRes5
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

section AnyInstance

variable {F : FTy → Type} [FloatOps F]

-- what every unscoped buffer of the TensorCore holds when the region is entered
variable (V : (c : Dev nD) → (b : Ref sig .tc) → Buf (Elt F) ((c : Thread nD τ).loc b))

/-! ## The closed form -/

/-- The row of parameters a block index reads: row 0 at the index's column. -/
abbrev brow5 (j : S2000x256.Idx) : S1x256.Idx := ix2 (0 : Fin 1) (⟨(j 1).val, idx2_lt1 j⟩ : Fin 256)
/-- The row of parameters an index of the array reads: row 0 at the index's column. -/
abbrev prow5 (i : S50000x256.Idx) : S1x256.Idx := ix2 (0 : Fin 1) (⟨(i 1).val, idx2_lt1 i⟩ : Fin 256)

/-- What the region computes, index by index, at any float instance: the aggregate `T` centred at the mean,
    scaled by `g` and by the reciprocal square root of the variance plus the stabiliser, shifted by `be`,
    rectified, and then the residual `R` added. -/
def bnReluRes5 (T R : S50000x256.Idx → Elt F .f32) (g be mu var : S1x256.Idx → Elt F .f32) : S50000x256.Idx → Elt F .f32 :=
  fun i => FloatOps.addf
    (FloatOps.maximumf
      (FloatOps.addf (FloatOps.mulf (FloatOps.mulf (g (prow5 i)) (FloatOps.subf (T i) (mu (prow5 i))))
          (FloatOps.rsqrt (FloatOps.addf (var (prow5 i)) (Scalar.ofBits .f32 0x3727C5AC#32)))) (be (prow5 i)))
      (Scalar.ofBits .f32 0x00000000#32))
    (R i)

/-- A row of parameters broadcast over the block reads, at a block index, the row at the index's column. -/
theorem bcast_row5 (x : Vec F S1x256 .f32) (j : S2000x256.Idx) :
    broadcastTo S2000x256 x broadcasts_S1x256_S2000x256 j = x (brow5 j) :=
  broadcastTo_apply x _ j (brow5 j) (fun a => by match a with | ⟨0, _⟩ => rfl | ⟨1, _⟩ => rfl)

/-- The body's payload at a block index: the same tree of operations on the elements. -/
theorem pay5_apply (a : Vec F S2000x256 .f32) (g mu var be : Vec F S1x256 .f32) (r : Vec F S2000x256 .f32) (j : S2000x256.Idx) :
    k5_pay1 a g mu var be r j = FloatOps.addf
      (FloatOps.maximumf
        (FloatOps.addf (FloatOps.mulf (FloatOps.mulf (g (brow5 j)) (FloatOps.subf (a j) (mu (brow5 j))))
            (FloatOps.rsqrt (FloatOps.addf (var (brow5 j)) (Scalar.ofBits .f32 0x3727C5AC#32)))) (be (brow5 j)))
        (Scalar.ofBits .f32 0x00000000#32))
      (r j) := by
  unfold k5_pay1
  simp only [shapeCast_self, maximumf, addf, mulf, subf]
  rw [bcast_row5 g j, bcast_row5 mu j, bcast_row5 be j, bcast_row5 _ j]
  rfl

/-! ## From blocks to the array -/

/-- The printed index maps, decided over the grid: the aggregate's block and the residual's move with the output's,
    the four parameter rows stay at block zero, and the output's block indices stay in their ranges. -/
theorem idx_facts5 : ∀ t : Fin cfg5.N,
    win5_0.index t (0 : Fin 2) = win5_6.index t (0 : Fin 2) ∧ win5_0.index t (1 : Fin 2) = 0
    ∧ win5_1.index t (0 : Fin 2) = win5_6.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) ≤ 24 ∧ win5_6.index t (1 : Fin 2) = 0 :=
  (by decide +kernel : ∀ t : Fin grid5.N, _)

/-- Every row-block is some point's. -/
theorem idx_onto5 : ∀ q0 : Fin 25, ∃ t : Fin cfg5.N, win5_6.index t (0 : Fin 2) = q0.val :=
  (by decide +kernel : ∀ q0 : Fin 25, ∃ t : Fin grid5.N, win5_6.index t (0 : Fin 2) = q0.val)

/-- The body's result at point `t`, at a block index, is the closed form at the index's place in the array. -/
theorem block_eq5 (c : Dev nD) (t : Fin cfg5.N) (j : S2000x256.Idx) :
    k5_pay1 (iblk5 V c 0 t) (iblk5 V c 2 t) (iblk5 V c 4 t) (iblk5 V c 5 t) (iblk5 V c 3 t) (iblk5 V c 1 t) j
      = bnReluRes5 (V c main_v70_0) (V c main_v48) (V c main_v81) (V c main_v82) (V c main_v83) (V c main_v84)
          (((cfg5.win 6).blk t).view.emb j) := by
  obtain ⟨e00, e01, e10, e11, e20, e21, e30, e31, e40, e41, e50, e51, -, e61⟩ := idx_facts5 t
  have hj0 : (j 0).val < 2000 := (j 0).isLt
  have hj1 : (j 1).val < 256 := (j 1).isLt
  have h0 : ((cfg5.win 0).blk t).view.emb j = ((cfg5.win 6).blk t).view.emb j := by
    funext a; apply Fin.ext
    match a with
    | ⟨0, _⟩ => show win5_0.index t (0 : Fin 2) * 2000 + 1 * (j 0).val = win5_6.index t (0 : Fin 2) * 2000 + 1 * (j 0).val; omega
    | ⟨1, _⟩ => show win5_0.index t (1 : Fin 2) * 256 + 1 * (j 1).val = win5_6.index t (1 : Fin 2) * 256 + 1 * (j 1).val; omega
  have h1 : ((cfg5.win 1).blk t).view.emb j = ((cfg5.win 6).blk t).view.emb j := by
    funext a; apply Fin.ext
    match a with
    | ⟨0, _⟩ => show win5_1.index t (0 : Fin 2) * 2000 + 1 * (j 0).val = win5_6.index t (0 : Fin 2) * 2000 + 1 * (j 0).val; omega
    | ⟨1, _⟩ => show win5_1.index t (1 : Fin 2) * 256 + 1 * (j 1).val = win5_6.index t (1 : Fin 2) * 256 + 1 * (j 1).val; omega
  have h2 : ((cfg5.win 2).blk t).view.emb (brow5 j) = prow5 (((cfg5.win 6).blk t).view.emb j) := by
    funext a; apply Fin.ext
    match a with
    | ⟨0, _⟩ => show win5_2.index t (0 : Fin 2) * 1 + 1 * 0 = 0; omega
    | ⟨1, _⟩ => show win5_2.index t (1 : Fin 2) * 256 + 1 * (j 1).val = win5_6.index t (1 : Fin 2) * 256 + 1 * (j 1).val; omega
  have h3 : ((cfg5.win 3).blk t).view.emb (brow5 j) = prow5 (((cfg5.win 6).blk t).view.emb j) := by
    funext a; apply Fin.ext
    match a with
    | ⟨0, _⟩ => show win5_3.index t (0 : Fin 2) * 1 + 1 * 0 = 0; omega
    | ⟨1, _⟩ => show win5_3.index t (1 : Fin 2) * 256 + 1 * (j 1).val = win5_6.index t (1 : Fin 2) * 256 + 1 * (j 1).val; omega
  have h4 : ((cfg5.win 4).blk t).view.emb (brow5 j) = prow5 (((cfg5.win 6).blk t).view.emb j) := by
    funext a; apply Fin.ext
    match a with
    | ⟨0, _⟩ => show win5_4.index t (0 : Fin 2) * 1 + 1 * 0 = 0; omega
    | ⟨1, _⟩ => show win5_4.index t (1 : Fin 2) * 256 + 1 * (j 1).val = win5_6.index t (1 : Fin 2) * 256 + 1 * (j 1).val; omega
  have h5 : ((cfg5.win 5).blk t).view.emb (brow5 j) = prow5 (((cfg5.win 6).blk t).view.emb j) := by
    funext a; apply Fin.ext
    match a with
    | ⟨0, _⟩ => show win5_5.index t (0 : Fin 2) * 1 + 1 * 0 = 0; omega
    | ⟨1, _⟩ => show win5_5.index t (1 : Fin 2) * 256 + 1 * (j 1).val = win5_6.index t (1 : Fin 2) * 256 + 1 * (j 1).val; omega
  rw [pay5_apply]
  unfold bnReluRes5
  show FloatOps.addf
      (FloatOps.maximumf
        (FloatOps.addf (FloatOps.mulf (FloatOps.mulf (V c main_v81 (((cfg5.win 2).blk t).view.emb (brow5 j)))
              (FloatOps.subf (V c main_v70_0 (((cfg5.win 0).blk t).view.emb j)) (V c main_v83 (((cfg5.win 4).blk t).view.emb (brow5 j)))))
            (FloatOps.rsqrt (FloatOps.addf (V c main_v84 (((cfg5.win 5).blk t).view.emb (brow5 j))) (Scalar.ofBits .f32 0x3727C5AC#32))))
          (V c main_v82 (((cfg5.win 3).blk t).view.emb (brow5 j))))
        (Scalar.ofBits .f32 0x00000000#32))
      (V c main_v48 (((cfg5.win 1).blk t).view.emb j)) = _
  rw [h0, h1, h2, h3, h4, h5]

/-- What point `t` writes back is block `t` of the closed form of the arrays as the region finds them. -/
theorem flushed5_eq (c : Dev nD) (t : Fin cfg5.N) :
    (dat5 V c).flushed 6 t = ((cfg5.win 6).blk t).view.read (Elt F)
      (bnReluRes5 (V c main_v70_0) (V c main_v48) (V c main_v81) (V c main_v82) (V c main_v83) (V c main_v84)) := by
  show (cfg5.win 6).cut (grid5.coords t) ((dat5 V c).after 6 t) = _
  rw [after5_6]
  unfold out5_6
  rw [View.canon_unit_zero hz5]
  simp only [View.ld_unit_zero (S := S2000x256) hz5, View.ld_unit_zero (S := S1x256) hz5]
  funext j
  exact block_eq5 V c t j

/-- An index of the array is in point `t`'s block iff each coordinate is in the block's range on its axis. -/
theorem mem_blk5 (t : Fin cfg5.N) (i : S50000x256.Idx) :
    i ∈ ((cfg5.win 6).blk t).view.set ↔ ∀ a : Fin 2, win5_6.index t a * S2000x256.size a ≤ (i a).val ∧ (i a).val < win5_6.index t a * S2000x256.size a + S2000x256.size a := by
  show i ∈ ((View.whole main_v85).slice (win5_6.rect t)).set ↔ _
  rw [View.set_slice_whole, Rect.mem_set_unit]
  exact Iff.rfl

/-- Every index of the output array is in some point's block: row `r` is in row-block `r / 2000`. -/
theorem cover5 (i : S50000x256.Idx) : ∃ t : Fin cfg5.N, (cfg5.win 6).flush t = true ∧ i ∈ ((cfg5.win 6).blk t).view.set := by
  have hi0 : (i 0).val < 50000 := (i 0).isLt
  have hi1 : (i 1).val < 256 := (i 1).isLt
  obtain ⟨t, ht⟩ := idx_onto5 ⟨(i 0).val / 2000, by omega⟩
  have ht' : win5_6.index t (0 : Fin 2) = (i 0).val / 2000 := ht
  obtain ⟨-, -, -, -, -, -, -, -, -, -, -, -, -, e1⟩ := idx_facts5 t
  refine ⟨t, flush5_6 t, ?_⟩
  rw [mem_blk5]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 256 ≤ (i 1).val ∧ (i 1).val < win5_6.index t (1 : Fin 2) * 256 + 256; omega

/-- THE OUTPUT ARRAY after the region, at any float instance: the closed form of the arrays as the region finds them. -/
theorem out_eq5 (c : Dev nD) :
    (dat5 V c).arrAt 6 cfg5.N
      = bnReluRes5 (V c main_v70_0) (V c main_v48) (V c main_v81) (V c main_v82) (V c main_v83) (V c main_v84) :=
  (dat5 V c).arrAt_eq_of_cover 6 _ (fun t _ => flushed5_eq V c t) cover5

end AnyInstance

/-! ## At the extended reals, index by index -/

/-- The closed form at the ideal instance, at row `p` and column `q`: the aggregate centred at the column's mean,
    times the column's scale, times the reciprocal square root of the column's variance plus the stabiliser, plus
    the column's shift, rectified; then the residual at the same row and column added. -/
theorem bnReluRes5_apply (T R : S50000x256.Idx → EReal) (g be mu var : S1x256.Idx → EReal) (p : Fin 50000) (q : Fin 256) :
    bnReluRes5 (F := Ideal) T R g be mu var (ix2 p q)
      = max (g (ix2 (0 : Fin 1) q) * (T (ix2 p q) - mu (ix2 (0 : Fin 1) q))
            * Ideal.rsqrt (var (ix2 (0 : Fin 1) q) + Ideal.ofBits .f32 0x3727C5AC#32) + be (ix2 (0 : Fin 1) q)) 0
        + R (ix2 p q) := by
  unfold bnReluRes5
  show max _ (Ideal.ofBits .f32 0x00000000#32) + _ = _
  rw [Ideal.ofBits_zero_f32]
  rfl

section AtIdeal

variable (V : (c : Dev nD) → (b : Ref sig .tc) → Buf (Elt Ideal) ((c : Thread nD τ).loc b)) (c : Dev nD)

/-- The region's arrays at the ideal instance as functions into the extended reals: the aggregate, the residual, the
    scale, the shift, the mean, the variance as the region finds them, and the output as the region leaves it. -/
abbrev agg5 : S50000x256.Idx → EReal := V c main_v70_0
abbrev resid5 : S50000x256.Idx → EReal := V c main_v48
abbrev scale5 : S1x256.Idx → EReal := V c main_v81
abbrev shift5 : S1x256.Idx → EReal := V c main_v82
abbrev mean5 : S1x256.Idx → EReal := V c main_v83
abbrev var5 : S1x256.Idx → EReal := V c main_v84
abbrev res5 : S50000x256.Idx → EReal := (dat5 V c).arrAt 6 cfg5.N

/-- THE OUTPUT ARRAY after the region at the ideal instance, at row `p` and column `q`. -/
theorem out_apply5 (p : Fin 50000) (q : Fin 256) :
    res5 V c (ix2 p q)
      = max (scale5 V c (ix2 (0 : Fin 1) q) * (agg5 V c (ix2 p q) - mean5 V c (ix2 (0 : Fin 1) q))
            * Ideal.rsqrt (var5 V c (ix2 (0 : Fin 1) q) + Ideal.ofBits .f32 0x3727C5AC#32) + shift5 V c (ix2 (0 : Fin 1) q)) 0
        + resid5 V c (ix2 p q) :=
  (congrFun (out_eq5 V c) (ix2 p q)).trans (bnReluRes5_apply _ _ _ _ _ _ p q)

end AtIdeal

end Cert.KernelIdeal.Hand

end
-- ==== Proof.KNetU1.lean ====
/-
  The kernel-side program's second layer, read off the contents of its buffers item by item.

  The chain of contents (after the dense product, after the aggregating host stretch, after the totals and their
  column sums, after the host stretch taking mean and variance, after the normalising step) is the program's own: each
  region leaves in its output arrays what its write-backs fold to, each host stretch what its operations compute, and
  every other buffer stays.  The edge endpoints, the degree scale and its square are what the first host stretch
  left; the weights, bias, scale and shift are the launch arrays.  So the table the layer leaves is the scale-once
  layer of the table it found, plus that table.
-/
import proofs.«142371_j48498770706497_2_alg».proof.Proof.Vals9
import proofs.«142371_j48498770706497_2_alg».proof.Proof.KKeep
import proofs.«142371_j48498770706497_2_alg».proof.Proof.KHost0
import proofs.«142371_j48498770706497_2_alg».proof.Proof.KNet1
import proofs.«142371_j48498770706497_2_alg».proof.Proof.RegMatmul3Value
import proofs.«142371_j48498770706497_2_alg».proof.Proof.RegStats4Value
import proofs.«142371_j48498770706497_2_alg».proof.Proof.RegBnRes5Value
import Idealize.ShloMosaic.Lib.ValueIdx

set_option maxRecDepth 1628

noncomputable section
namespace Cert.KNet

open Idealize.ShloMosaic Idealize.ShloMosaic.TcCoe Idealize.ShloMosaic.ValueIdx Idealize.SL.Sem
open Cert.KernelIdeal Cert.KernelIdeal.Gen
open scoped BigOperators

section LayerU1

variable (m : (ℓ : Loc nD τ sig) → Buf (Elt Ideal) ℓ) (c : Dev nD)

/-- The source and target words of the edges, the degree scale and its square, as the second layer finds them: they
    are what the first host stretch left, carried unchanged. -/
theorem row_U6 : (Cert.KernelIdeal.Hand.U6 (F := Ideal) m c (Proc.devRef .tc main_v1) : IVec S800000 32) = (Cert.KHost0.rowOf (Cert.KernelIdeal.Hand.U0 (F := Ideal) m c (Proc.devRef .tc main_arg1))) := by
  rw [Cert.KKeep.U6_long m c main_v1 (by decide)]
  exact Cert.KHost0.v1_eq (Cert.KernelIdeal.Hand.U0 (F := Ideal) m c)

theorem col_U6 : (Cert.KernelIdeal.Hand.U6 (F := Ideal) m c (Proc.devRef .tc main_v3) : IVec S800000 32) = (Cert.KHost0.colOf (Cert.KernelIdeal.Hand.U0 (F := Ideal) m c (Proc.devRef .tc main_arg1))) := by
  rw [Cert.KKeep.U6_long m c main_v3 (by decide)]
  exact Cert.KHost0.v3_eq (Cert.KernelIdeal.Hand.U0 (F := Ideal) m c)

theorem dinv_U6 (n : Fin 50000) : (Cert.KernelIdeal.Hand.U6 (F := Ideal) m c (Proc.devRef .tc main_v10) : FVec Ideal S50000 .f32) (ix1 n)
    = Cert.Spec.dinv (Cert.EdgeIdx.landOf (Cert.KHost0.colOf (Cert.KernelIdeal.Hand.U0 (F := Ideal) m c (Proc.devRef .tc main_arg1)))) n := by
  rw [Cert.KKeep.U6_long m c main_v10 (by decide)]
  exact Cert.KHost0.v10_apply (Cert.KernelIdeal.Hand.U0 (F := Ideal) m c) n

theorem dinv2_U6 (n : Fin 50000) : (Cert.KernelIdeal.Hand.U6 (F := Ideal) m c (Proc.devRef .tc main_v11) : FVec Ideal S50000 .f32) (ix1 n)
    = Cert.Spec.dinv (Cert.EdgeIdx.landOf (Cert.KHost0.colOf (Cert.KernelIdeal.Hand.U0 (F := Ideal) m c (Proc.devRef .tc main_arg1)))) n * Cert.Spec.dinv (Cert.EdgeIdx.landOf (Cert.KHost0.colOf (Cert.KernelIdeal.Hand.U0 (F := Ideal) m c (Proc.devRef .tc main_arg1)))) n := by
  rw [Cert.KKeep.U6_long m c main_v11 (by decide)]
  exact Cert.KHost0.v11_apply (Cert.KernelIdeal.Hand.U0 (F := Ideal) m c) n

/-- The second layer of the kernel-side program: the table it leaves at main_v85 is the scale-once layer of the
    table it found at main_v48, with the launch arrays as weights, bias, scale and shift, plus that table. -/
theorem layer1_U (n : Fin 50000) (q : Fin 256) :
    er ((Cert.KernelIdeal.Hand.U11 (F := Ideal) m c (Proc.devRef .tc main_v85) : S50000x256.Idx → EReal) (ix2 n q))
      = Cert.Spec.layerK (Cert.EdgeIdx.gidx (Cert.KHost0.rowOf (Cert.KernelIdeal.Hand.U0 (F := Ideal) m c (Proc.devRef .tc main_arg1)))) (Cert.EdgeIdx.landOf (Cert.KHost0.colOf (Cert.KernelIdeal.Hand.U0 (F := Ideal) m c (Proc.devRef .tc main_arg1))))
          (Ideal.ofBits .f32 0x47435000#32) (Ideal.ofBits .f32 0x3727C5AC#32)
          (fun p k => (Cert.KernelIdeal.Hand.U6 (F := Ideal) m c (Proc.devRef .tc main_v48) : S50000x256.Idx → EReal) (ix2 p k))
          (fun k q => (Cert.KernelIdeal.Hand.U0 (F := Ideal) m c (Proc.devRef .tc main_arg7) : S256x256.Idx → EReal) (ix2 k q))
          (fun q => (Cert.KernelIdeal.Hand.U0 (F := Ideal) m c (Proc.devRef .tc main_arg8) : S256.Idx → EReal) (ix1 q))
          (fun q => (Cert.KernelIdeal.Hand.U0 (F := Ideal) m c (Proc.devRef .tc main_arg9) : S256.Idx → EReal) (ix1 q))
          (fun q => (Cert.KernelIdeal.Hand.U0 (F := Ideal) m c (Proc.devRef .tc main_arg10) : S256.Idx → EReal) (ix1 q)) n q
        + er ((Cert.KernelIdeal.Hand.U6 (F := Ideal) m c (Proc.devRef .tc main_v48) : S50000x256.Idx → EReal) (ix2 n q)) := by
  have key := layer1_chain (Cert.KernelIdeal.Hand.U6 (F := Ideal) m c) (Cert.KernelIdeal.Hand.U7 (F := Ideal) m c) (Cert.KernelIdeal.Hand.U8 (F := Ideal) m c) (Cert.KernelIdeal.Hand.U9 (F := Ideal) m c) (Cert.KernelIdeal.Hand.U10 (F := Ideal) m c)
    (fun p q => Cert.KernelIdeal.Hand.T4 (Cert.KernelIdeal.Hand.U8 (F := Ideal) m c (Proc.devRef .tc main_v67) : S50000x256.Idx → EReal) (Cert.KernelIdeal.Hand.U8 (F := Ideal) m c (Proc.devRef .tc main_v49) : S50000x256.Idx → EReal)
      (Cert.KernelIdeal.Hand.U8 (F := Ideal) m c (Proc.devRef .tc main_v68) : S50000x1.Idx → EReal) (Cert.KernelIdeal.Hand.U8 (F := Ideal) m c (Proc.devRef .tc main_v69) : S1x256.Idx → EReal) (ix2 p q))
    (Cert.KernelIdeal.Hand.U11 (F := Ideal) m c (Proc.devRef .tc main_v85) : S50000x256.Idx → EReal) (Cert.KHost0.rowOf (Cert.KernelIdeal.Hand.U0 (F := Ideal) m c (Proc.devRef .tc main_arg1))) (Cert.KHost0.colOf (Cert.KernelIdeal.Hand.U0 (F := Ideal) m c (Proc.devRef .tc main_arg1)))
    (row_U6 m c) (col_U6 m c) (dinv_U6 m c) (dinv2_U6 m c)
    (fun r h => Cert.KernelIdeal.Hand.U7_of m c r h)
    (fun p q => by
      show (Cert.KernelIdeal.Hand.U7 (F := Ideal) m c (Proc.devRef .tc main_v49) : S50000x256.Idx → EReal) (ix2 p q) = _
      rw [Cert.KernelIdeal.Hand.U7_out]
      exact Cert.KernelIdeal.Hand.out3_apply (Cert.KernelIdeal.Hand.rd (Cert.KernelIdeal.Hand.U6 (F := Ideal) m)) c _ _ rfl rfl p q)
    rfl
    (fun r h => Cert.KernelIdeal.Hand.U9_of m c r h)
    (fun p q => rfl)
    (fun p q => by
      show (Cert.KernelIdeal.Hand.U9 (F := Ideal) m c (Proc.devRef .tc main_v70_0) : S50000x256.Idx → EReal) (ix2 p q) = _
      rw [Cert.KernelIdeal.Hand.U9_out0]
      exact Cert.KernelIdeal.Hand.out4_4_apply (Cert.KernelIdeal.Hand.rd (Cert.KernelIdeal.Hand.U8 (F := Ideal) m)) c _ _ _ _ rfl rfl rfl rfl p q)
    (fun q => by
      show (Cert.KernelIdeal.Hand.U9 (F := Ideal) m c (Proc.devRef .tc main_v70_1) : S1x256.Idx → EReal) (ix2 (0 : Fin 1) q) = _
      rw [Cert.KernelIdeal.Hand.U9_out1]
      exact Cert.KernelIdeal.Hand.out4_5_apply (Cert.KernelIdeal.Hand.rd (Cert.KernelIdeal.Hand.U8 (F := Ideal) m)) c _ _ _ _ rfl rfl rfl rfl q)
    (fun q => by
      show (Cert.KernelIdeal.Hand.U9 (F := Ideal) m c (Proc.devRef .tc main_v70_2) : S1x256.Idx → EReal) (ix2 (0 : Fin 1) q) = _
      rw [Cert.KernelIdeal.Hand.U9_out2]
      exact Cert.KernelIdeal.Hand.out4_6_apply (Cert.KernelIdeal.Hand.rd (Cert.KernelIdeal.Hand.U8 (F := Ideal) m)) c _ _ _ _ rfl rfl rfl rfl q)
    rfl
    (fun p q => by
      show (Cert.KernelIdeal.Hand.U11 (F := Ideal) m c (Proc.devRef .tc main_v85) : S50000x256.Idx → EReal) (ix2 p q) = _
      rw [Cert.KernelIdeal.Hand.U11_out]
      exact Cert.KernelIdeal.Hand.out_apply5 (Cert.KernelIdeal.Hand.rd (Cert.KernelIdeal.Hand.U10 (F := Ideal) m)) c p q)
    n q
  rw [Cert.KKeep.U6_long m c main_arg7 (by decide), Cert.KKeep.U1_arg m c main_arg7 (by decide),
    Cert.KKeep.U6_long m c main_arg8 (by decide), Cert.KKeep.U1_arg m c main_arg8 (by decide),
    Cert.KKeep.U6_long m c main_arg9 (by decide), Cert.KKeep.U1_arg m c main_arg9 (by decide),
    Cert.KKeep.U6_long m c main_arg10 (by decide), Cert.KKeep.U1_arg m c main_arg10 (by decide)] at key
  exact key

end LayerU1

end Cert.KNet

end
-- ==== Proof.KNet2.lean ====
/-
  The kernel-side program's third layer along the chain of its buffers' contents: the same five steps as the
  second layer (dense product, aggregating host stretch, totals with their column sums, the host stretch taking mean and
  variance, normalisation with the previous table added), over the table the second layer left and the third layer's
  weights, bias, scale and shift.
-/
import proofs.«142371_j48498770706497_2_alg».proof.Proof.Gen.KernelIdeal.Regions
import proofs.«142371_j48498770706497_2_alg».proof.Proof.Spec
import proofs.«142371_j48498770706497_2_alg».proof.Proof.EdgeIdx
import proofs.«142371_j48498770706497_2_alg».proof.Proof.KPieces
import proofs.«142371_j48498770706497_2_alg».proof.Proof.KHost1
import proofs.«142371_j48498770706497_2_alg».proof.Proof.KHost2
import proofs.«142371_j48498770706497_2_alg».proof.Proof.KNet1
import Idealize.ShloMosaic.Lib.StableHlo.Run
import Idealize.ShloMosaic.Lib.ValueIdx

set_option maxRecDepth 1628

noncomputable section

namespace Cert.KNet

open Idealize.ShloMosaic Idealize.ShloMosaic.TcCoe Idealize.ShloMosaic.ValueIdx
open Cert.KernelIdeal Cert.KernelIdeal.Gen
open scoped BigOperators

/-! ## What the two host stretches of the third layer do not write they leave alone -/

theorem keep7 (V : Valuation τ sig (Elt Ideal)) (r : Ref sig .tc) (h : r ∉ hostOps7_W) :
    StableHlo.after (hostOps7 (F := Ideal)) V (Proc.devRef .tc r) = V (Proc.devRef .tc r) :=
  StableHlo.after_of_writes_sub hostOps7 V hostOps7_writes h

theorem keep8 (V : Valuation τ sig (Elt Ideal)) (r : Ref sig .tc) (h : r ∉ hostOps8_W) :
    StableHlo.after (hostOps8 (F := Ideal)) V (Proc.devRef .tc r) = V (Proc.devRef .tc r) :=
  StableHlo.after_of_writes_sub hostOps8 V hostOps8_writes h

/-! ## The third layer along the chain of buffer contents -/

section Layer2

variable (W11 W12 W13 W14 W15 : Valuation τ sig (Elt Ideal))
variable (T : Fin 50000 → Fin 256 → EReal) (OUT : S50000x256.Idx → EReal)
variable (row col : IVec S800000 32)

/-- From the contents W11 the third layer is entered at (the previous layer's table at main_v85, the edge endpoints, the degree
    scale and its square): the dense product (W12), the host stretch that aggregates (W13), the totals and their column
    sums (W14), the host stretch that takes mean and variance (W15), and the normalised, clamped output with the
    previous table added, OUT.  Each step is given by what it leaves where it writes and by leaving every other buffer
    alone; the output is the scale-once layer of the previous table, plus that table. -/
theorem layer2_chain
    (h1 : (W11 (Proc.devRef .tc main_v1) : IVec S800000 32) = row)
    (h3 : (W11 (Proc.devRef .tc main_v3) : IVec S800000 32) = col)
    (hd10 : ∀ n : Fin 50000, (W11 (Proc.devRef .tc main_v10) : FVec Ideal S50000 .f32) (ix1 n)
        = Cert.Spec.dinv (Cert.EdgeIdx.landOf col) n)
    (hd11 : ∀ n : Fin 50000, (W11 (Proc.devRef .tc main_v11) : FVec Ideal S50000 .f32) (ix1 n)
        = Cert.Spec.dinv (Cert.EdgeIdx.landOf col) n * Cert.Spec.dinv (Cert.EdgeIdx.landOf col) n)
    (f7 : ∀ r : Ref sig .tc, r ∉ ([main_v86] : List (Ref sig .tc)) → W12 (Proc.devRef .tc r) = W11 (Proc.devRef .tc r))
    (o7 : ∀ (p : Fin 50000) (q : Fin 256), er ((W12 (Proc.devRef .tc main_v86) : S50000x256.Idx → EReal) (ix2 p q))
        = ∑ k : Fin 256, er ((W11 (Proc.devRef .tc main_v85) : S50000x256.Idx → EReal) (ix2 p k))
            * er ((W11 (Proc.devRef .tc main_arg11) : S256x256.Idx → EReal) (ix2 k q)))
    (e8 : W13 = StableHlo.after (hostOps7 (F := Ideal)) W12)
    (f9 : ∀ r : Ref sig .tc, r ∉ ([main_v107_0, main_v107_1, main_v107_2] : List (Ref sig .tc)) →
        W14 (Proc.devRef .tc r) = W13 (Proc.devRef .tc r))
    (hT : ∀ (p : Fin 50000) (q : Fin 256), T p q
        = er ((W13 (Proc.devRef .tc main_v104) : S50000x256.Idx → EReal) (ix2 p q))
          + er ((W13 (Proc.devRef .tc main_v86) : S50000x256.Idx → EReal) (ix2 p q))
            * er ((W13 (Proc.devRef .tc main_v105) : S50000x1.Idx → EReal) (ix2 p (0 : Fin 1)))
          + er ((W13 (Proc.devRef .tc main_v106) : S1x256.Idx → EReal) (ix2 (0 : Fin 1) q)))
    (o9 : ∀ (p : Fin 50000) (q : Fin 256), er ((W14 (Proc.devRef .tc main_v107_0) : S50000x256.Idx → EReal) (ix2 p q)) = T p q)
    (o9s : ∀ q : Fin 256, er ((W14 (Proc.devRef .tc main_v107_1) : S1x256.Idx → EReal) (ix2 (0 : Fin 1) q)) = ∑ p : Fin 50000, T p q)
    (o9q : ∀ q : Fin 256, er ((W14 (Proc.devRef .tc main_v107_2) : S1x256.Idx → EReal) (ix2 (0 : Fin 1) q))
        = ∑ p : Fin 50000, T p q * T p q)
    (e10 : W15 = StableHlo.after (hostOps8 (F := Ideal)) W14)
    (o11 : ∀ (p : Fin 50000) (q : Fin 256), OUT (ix2 p q)
        = max (er ((W15 (Proc.devRef .tc main_v118) : S1x256.Idx → EReal) (ix2 (0 : Fin 1) q))
              * (er ((W15 (Proc.devRef .tc main_v107_0) : S50000x256.Idx → EReal) (ix2 p q))
                  - er ((W15 (Proc.devRef .tc main_v120) : S1x256.Idx → EReal) (ix2 (0 : Fin 1) q)))
              * Ideal.rsqrt (er ((W15 (Proc.devRef .tc main_v121) : S1x256.Idx → EReal) (ix2 (0 : Fin 1) q))
                  + Ideal.ofBits .f32 0x3727C5AC#32)
            + er ((W15 (Proc.devRef .tc main_v119) : S1x256.Idx → EReal) (ix2 (0 : Fin 1) q))) 0
          + er ((W15 (Proc.devRef .tc main_v85) : S50000x256.Idx → EReal) (ix2 p q)))
    (n : Fin 50000) (q : Fin 256) :
    OUT (ix2 n q)
      = Cert.Spec.layerK (Cert.EdgeIdx.gidx row) (Cert.EdgeIdx.landOf col)
          (Ideal.ofBits .f32 0x47435000#32) (Ideal.ofBits .f32 0x3727C5AC#32)
          (fun p k => (W11 (Proc.devRef .tc main_v85) : S50000x256.Idx → EReal) (ix2 p k))
          (fun k q => (W11 (Proc.devRef .tc main_arg11) : S256x256.Idx → EReal) (ix2 k q))
          (fun q => (W11 (Proc.devRef .tc main_arg12) : S256.Idx → EReal) (ix1 q))
          (fun q => (W11 (Proc.devRef .tc main_arg13) : S256.Idx → EReal) (ix1 q))
          (fun q => (W11 (Proc.devRef .tc main_arg14) : S256.Idx → EReal) (ix1 q)) n q
        + er ((W11 (Proc.devRef .tc main_v85) : S50000x256.Idx → EReal) (ix2 n q)) := by
  subst e8 e10
  -- the edge endpoints and the degree scale, as the aggregating stretch finds them
  have hrow : (W12 (Proc.devRef .tc main_v1) : IVec S800000 32) = row := by
    rw [f7 main_v1 (by decide)]; exact h1
  have hcol : (W12 (Proc.devRef .tc main_v3) : IVec S800000 32) = col := by
    rw [f7 main_v3 (by decide)]; exact h3
  have hd : ∀ n : Fin 50000, (W12 (Proc.devRef .tc main_v10) : FVec Ideal S50000 .f32) (ix1 n)
      = Cert.Spec.dinv (Cert.EdgeIdx.landOf col) n := by
    intro n; rw [f7 main_v10 (by decide)]; exact hd10 n
  refine Cert.Spec.layerK_of_pieces_res _ _ Cert.KHost2.nF _ _ _ _ _ _
    (fun p q => (W12 (Proc.devRef .tc main_v86) : S50000x256.Idx → EReal) (ix2 p q))
    (fun n q => (StableHlo.after (hostOps7 (F := Ideal)) W12 (Proc.devRef .tc main_v104) : S50000x256.Idx → EReal) (ix2 n q))
    T
    (fun n => (StableHlo.after (hostOps7 (F := Ideal)) W12 (Proc.devRef .tc main_v105) : S50000x1.Idx → EReal) (ix2 n (0 : Fin 1)))
    (fun q => (W14 (Proc.devRef .tc main_v107_1) : S1x256.Idx → EReal) (ix2 (0 : Fin 1) q))
    (fun q => (W14 (Proc.devRef .tc main_v107_2) : S1x256.Idx → EReal) (ix2 (0 : Fin 1) q))
    (fun q => (StableHlo.after (hostOps8 (F := Ideal)) W14 (Proc.devRef .tc main_v120) : S1x256.Idx → EReal) (ix2 (0 : Fin 1) q))
    (fun q => (StableHlo.after (hostOps8 (F := Ideal)) W14 (Proc.devRef .tc main_v121) : S1x256.Idx → EReal) (ix2 (0 : Fin 1) q))
    (fun n q => OUT (ix2 n q))
    (fun n q => (W11 (Proc.devRef .tc main_v85) : S50000x256.Idx → EReal) (ix2 n q)) ?hxw ?hag ?hd2 ?hT ?hS1 ?hS2 ?hmu ?hvar ?hout n q
  case hxw => exact o7
  case hag =>
    intro n q
    exact Cert.KHost1.v104_apply W12 row col hrow hcol hd n q
  case hd2 =>
    intro n
    refine (Cert.KHost1.v105_apply W12 n).trans ?_
    rw [f7 main_v11 (by decide)]
    exact hd11 n
  case hT =>
    intro n q
    have h := hT n q
    rw [keep7 W12 main_v86 (by decide), Cert.KHost1.v106_apply W12 q, f7 main_arg12 (by decide)] at h
    exact h
  case hS1 => exact o9s
  case hS2 => exact o9q
  case hmu => intro q; exact Cert.KHost2.v120_apply W14 q
  case hvar => intro q; exact Cert.KHost2.v121_apply W14 q
  case hout =>
    intro n q
    have h := o11 n q
    rw [Cert.KHost2.v118_apply W14 q, f9 main_arg13 (by decide), keep7 W12 main_arg13 (by decide), f7 main_arg13 (by decide),
      Cert.KHost2.v119_apply W14 q, f9 main_arg14 (by decide), keep7 W12 main_arg14 (by decide), f7 main_arg14 (by decide),
      keep8 W14 main_v107_0 (by decide), o9 n q,
      keep8 W14 main_v85 (by decide), f9 main_v85 (by decide), keep7 W12 main_v85 (by decide), f7 main_v85 (by decide)] at h
    exact h

end Layer2

end Cert.KNet

end
-- ==== Proof.RegMatmul6Value.lean ====
/-
  The third matrix product's result, index by index, at the ideal model.

  At the ideal model a change of format is the identity and the product into a zero accumulator is the plain sum,
  so what the body leaves in the result's buffer at point t, at (a, q), is the sum over k of x-block(a, k) · w(k, q).
  Block t of x is rows 2000·t … of x, w's block is all of w, and block t of the result is rows 2000·t … of the
  result; so what point t writes back is block t of ONE function of the two arrays,
      G(p, q) = ∑ k, x(p, k) · w(k, q),
  and since the 25 blocks cover the 50000 rows (row p is in block p / 2000), the result's array ends holding G.
-/
import proofs.«142371_j48498770706497_2_alg».proof.Proof.RegMatmul6
import proofs.«142371_j48498770706497_2_alg».proof.Proof.LibPlainDot
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen

open Idealize.ShloMosaic Idealize.ShloMosaic.TcCoe Idealize.ShloMosaic.ValueIdx Idealize.SL.Sem
open Idealize.ShloMosaic.Pipeline (Dat)

-- the TensorCore's unscoped buffer contents when the region is entered, at the ideal model
variable (V : (c : Dev nD) → (b : Ref sig .tc) → Buf (Elt Ideal) ((c : Thread nD τ).loc b))

/-! ## The payload at an index -/

/-- The body's payload at (a, q): the change of format is the identity, the accumulator is zero, the contraction is
    rows by columns — the sum over the inner coordinate of the products. -/
theorem pay_apply6 (x0 : Vec Ideal S2000x256 .f32) (x1 : Vec Ideal S256x256 .f32) (j : S2000x256.Idx) :
    k6_pay1 x0 x1 j = ∑ k : Fin 256, x0 (ix2 (j 0) k) * x1 (ix2 k (j 1)) := by
  unfold k6_pay1
  -- a reshape to the same shape, where the payload has one, is the identity
  try rw [shapeCast_self]
  exact LibPlainDot.matmul_zero_apply (M := 2000) (K := 256) (N := 256) none _ _ j

/-! ## From the blocks to the array -/

/-- The product of the two arrays, index by index. -/
def G6 (a0 : S50000x256.Idx → EReal) (a1 : S256x256.Idx → EReal) : S50000x256.Idx → EReal :=
  fun i => ∑ k : Fin 256, a0 (ix2 (i 0) k) * a1 (ix2 k (i 1))

/-- The three index maps over the grid: x's and the result's row-block is the point, every column-block is 0, and w
    does not move. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of G of the two arrays as the region finds them. -/
theorem flushed_eq6 (c : Dev nD) (t : Fin cfg6.N) :
    (dat6 V c).flushed 2 t = ((cfg6.win 2).blk t).view.read (Elt Ideal) (G6 (V c main_v85) (V c main_arg11)) := by
  show (cfg6.win 2).cut (grid6.coords t) ((dat6 V c).after 2 t) = _
  rw [after6_2, out6_2_eq]
  obtain ⟨e0, e1, e2, e3, e4, e5⟩ := idx_facts6 t
  funext j
  obtain ⟨a, q, rfl⟩ : ∃ (a : Fin 2000) (q : Fin 256), j = ix2 a q := ⟨j 0, j 1, eq_ix2 j⟩
  show k6_pay1 (iblk6 V c 0 t) (iblk6 V c 1 t) (ix2 a q) = G6 (V c main_v85) (V c main_arg11) (((cfg6.win 2).blk t).view.emb (ix2 a q))
  rw [pay_apply6]
  unfold G6
  refine Finset.sum_congr rfl fun k _ => ?_
  -- x's block at (a, k) is x at (2000·t + a, k); w's block at (k, q) is w at (k, q)
  have h0 : ((cfg6.win 0).blk t).view.emb (ix2 a k) = ix2 ((((cfg6.win 2).blk t).view.emb (ix2 a q)) 0) k := by
    funext d; apply Fin.ext
    match d with
    | ⟨0, _⟩ => show win6_0.index t (0 : Fin 2) * 2000 + 1 * a.val = win6_2.index t (0 : Fin 2) * 2000 + 1 * a.val; omega
    | ⟨1, _⟩ => show win6_0.index t (1 : Fin 2) * 256 + 1 * k.val = k.val; omega
  have h1 : ((cfg6.win 1).blk t).view.emb (ix2 k q) = ix2 k ((((cfg6.win 2).blk t).view.emb (ix2 a q)) 1) := by
    funext d; apply Fin.ext
    match d with
    | ⟨0, _⟩ => show win6_1.index t (0 : Fin 2) * 256 + 1 * k.val = k.val; omega
    | ⟨1, _⟩ => show win6_1.index t (1 : Fin 2) * 256 + 1 * q.val = win6_2.index t (1 : Fin 2) * 256 + 1 * q.val; omega
  exact congrArg₂ (fun u v : EReal => u * v)
    (congrArg (V c main_v85 : S50000x256.Idx → EReal) h0) (congrArg (V c main_arg11 : S256x256.Idx → EReal) h1)

/-- An index of the result's array is in point t's block iff each coordinate is in the block's range on its axis. -/
theorem mem_blk6 (t : Fin cfg6.N) (i : S50000x256.Idx) :
    i ∈ ((cfg6.win 2).blk t).view.set ↔ ∀ a : Fin 2, win6_2.index t a * S2000x256.size a ≤ (i a).val ∧ (i a).val < win6_2.index t a * S2000x256.size a + S2000x256.size a := by
  show i ∈ ((View.whole main_v86).slice (win6_2.rect t)).set ↔ _
  rw [View.set_slice_whole, Rect.mem_set_unit]
  exact Iff.rfl

/-- Every index of the result's array is in some point's block: row p is in block p / 2000. -/
theorem cover_all6 (i : S50000x256.Idx) :
    ∃ t : Fin cfg6.N, (cfg6.win 2).flush t = true ∧ i ∈ ((cfg6.win 2).blk t).view.set := by
  have hi0 : (i 0).val < 50000 := (i 0).isLt
  have hi1 : (i 1).val < 256 := (i 1).isLt
  obtain ⟨t, ht⟩ : ∃ t : Fin cfg6.N, t.val = (i 0).val / 2000 :=
    ⟨⟨(i 0).val / 2000, by rw [show cfg6.N = 25 from N_6]; omega⟩, rfl⟩
  obtain ⟨-, -, -, -, e4, e5⟩ := idx_facts6 t
  refine ⟨t, flush6_2 t, ?_⟩
  rw [mem_blk6]
  intro d
  match d with
  | ⟨0, _⟩ => show win6_2.index t (0 : Fin 2) * 2000 ≤ (i 0).val ∧ (i 0).val < win6_2.index t (0 : Fin 2) * 2000 + 2000; omega
  | ⟨1, _⟩ => show win6_2.index t (1 : Fin 2) * 256 ≤ (i 1).val ∧ (i 1).val < win6_2.index t (1 : Fin 2) * 256 + 256; omega

/-- The result's array after the region is G of the two arrays as the region finds them. -/
theorem final6 (c : Dev nD) : (dat6 V c).arrAt 2 cfg6.N = G6 (V c main_v85) (V c main_arg11) :=
  (dat6 V c).arrAt_eq_of_cover 2 (G6 (V c main_v85) (V c main_arg11)) (fun t _ => flushed_eq6 V c t) cover_all6

/-- G at (p, q). -/
theorem G6_apply (a0 : S50000x256.Idx → EReal) (a1 : S256x256.Idx → EReal) (p : Fin 50000) (q : Fin 256) :
    G6 a0 a1 (ix2 p q) = ∑ k : Fin 256, a0 (ix2 p k) * a1 (ix2 k q) := rfl

/-- The result's array after the region, at (p, q): the sum over k of x(p, k) · w(k, q), for x and w the two input
    arrays as the region finds them. -/
theorem out6_apply (c : Dev nD) (x : S50000x256.Idx → EReal) (w : S256x256.Idx → EReal)
    (hx : (V c main_v85 : S50000x256.Idx → EReal) = x) (hw : (V c main_arg11 : S256x256.Idx → EReal) = w)
    (p : Fin 50000) (q : Fin 256) :
    (dat6 (F := Ideal) V c).arrAt 2 cfg6.N (ix2 p q) = ∑ k : Fin 256, x (ix2 p k) * w (ix2 k q) := by
  rw [final6, hx, hw, G6_apply]

end Cert.KernelIdeal.Hand

end
-- ==== Proof.RegStats7Value.lean ====
/-
  Region 7 of the kernel-side program, its VALUE at the ideal model: what the three output arrays hold after the
  region, as functions of the four arrays the region finds.

  At every grid point the body forms the block of the total
      T(p, q) = agg(p, q) + xw(p, q) · d2(p) + b(q)
  (the aggregate, plus the product's entry times the row's squared scale, plus the column's bias), stores it to the
  first output's block, and adds the block's column sums of T and of T·T to two accumulators that start at zero.
  The 25 row-blocks cover the 50000 rows, so the first output ends holding T. The accumulators after n points hold
  the sums over the rows below 2000·n (induction on the point), so after the last point they hold the column sums
  over all rows; that is what the last point copies to the second and third outputs, whose one block is the array.
-/
import proofs.«142371_j48498770706497_2_alg».proof.Proof.RegStats7
import proofs.«142371_j48498770706497_2_alg».proof.Proof.BlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem

open scoped BigOperators
open Idealize.ShloMosaic.ValueIdx
open Idealize.ShloMosaic.Pipeline (Dat)

section AtIdeal

/-! ## The payloads at an index -/

/-- The block's total at (a, q): the aggregate, plus the product's entry times the row's scale, plus the column's bias. -/
theorem k7_pay3_apply (x0 x1 : Vec Ideal S2000x256 .f32) (x2 : Vec Ideal S2000x1 .f32) (x3 : Vec Ideal S1x256 .f32)
    (a : Fin 2000) (q : Fin 256) :
    k7_pay3 x0 x1 x2 x3 (ix2 a q)
      = (x0 (ix2 a q) : EReal) + x1 (ix2 a q) * x2 (ix2 a (0 : Fin 1)) + x3 (ix2 (0 : Fin 1) q) := by
  unfold k7_pay3
  simp only [shapeCast_self, addf, mulf]
  rw [broadcastTo_apply x2 broadcasts_S2000x1_S2000x256 (ix2 a q) (ix2 a (0 : Fin 1))
      (fun d => by match d with | ⟨0, _⟩ => rfl | ⟨1, _⟩ => rfl),
    broadcastTo_apply x3 broadcasts_S1x256_S2000x256 (ix2 a q) (ix2 (0 : Fin 1) q)
      (fun d => by match d with | ⟨0, _⟩ => rfl | ⟨1, _⟩ => rfl)]
  rfl

/-- The first accumulator's reset value is zero. -/
theorem k7_pay1_apply (q : Fin 256) : (k7_pay1 (F := Ideal) (ix2 (0 : Fin 1) q) : EReal) = 0 := by
  unfold k7_pay1
  simp only [shapeCast_self]
  exact Ideal.ofBits_zero_f32

/-- The second accumulator's reset value is zero. -/
theorem k7_pay2_apply (q : Fin 256) : (k7_pay2 (F := Ideal) (ix2 (0 : Fin 1) q) : EReal) = 0 := by
  unfold k7_pay2
  simp only [shapeCast_self]
  exact Ideal.ofBits_zero_f32

/-- The index the reduction over the rows reads for row k of column q. -/
theorem lift_col7 (q : Fin 256) (k : Fin 2000) : reduces_S2000x256_S256.lift (ix1 q) k = ix2 k q := by
  funext d
  match d with
  | ⟨0, _⟩ => rfl
  | ⟨1, _⟩ => rfl

/-- The reduction over the rows, at column q: the sum over the 2000 rows of the block. -/
theorem colsum7_apply (src : FVec Ideal S2000x256 .f32) (hφ : FKind.Formats FTy.f32)
    (hacc : (0x00000000#32 : BitVec FTy.f32.bits) = FKind.add.neutral FTy.f32 hφ) (q : Fin 256) :
    multiReduction .add [0] S256 src 0x00000000#32 reduces_S2000x256_S256 hφ hacc (ix1 q)
      = ∑ a : Fin 2000, (src (ix2 a q) : EReal) :=
  (Ideal.multiReduction_add_single src _ reduces_S2000x256_S256 hφ hacc (ix1 q)).trans
    (Finset.sum_congr rfl fun k _ => congrArg src (lift_col7 q k))

/-- The first accumulator's update at column q: what it held plus the block's column sum of the total. -/
theorem k7_pay4_apply (x0 x1 : Vec Ideal S2000x256 .f32) (x2 : Vec Ideal S2000x1 .f32) (x3 xs : Vec Ideal S1x256 .f32)
    (q : Fin 256) :
    k7_pay4 x0 x1 x2 x3 xs (ix2 (0 : Fin 1) q)
      = (xs (ix2 (0 : Fin 1) q) : EReal) + ∑ a : Fin 2000, (k7_pay3 x0 x1 x2 x3 (ix2 a q) : EReal) := by
  unfold k7_pay4
  simp only [shapeCast_self, addf]
  rw [shapeCast_a_1a_apply _ shapeCasts_S256_S1x256 (0 : Fin 1) q]
  exact congrArg (fun u : EReal => (xs (ix2 (0 : Fin 1) q) : EReal) + u) (colsum7_apply _ _ _ q)

/-- The second accumulator's update at column q: what it held plus the block's column sum of the total's square. -/
theorem k7_pay5_apply (x0 x1 : Vec Ideal S2000x256 .f32) (x2 : Vec Ideal S2000x1 .f32) (x3 xs : Vec Ideal S1x256 .f32)
    (q : Fin 256) :
    k7_pay5 x0 x1 x2 x3 xs (ix2 (0 : Fin 1) q)
      = (xs (ix2 (0 : Fin 1) q) : EReal)
        + ∑ a : Fin 2000, (k7_pay3 x0 x1 x2 x3 (ix2 a q) : EReal) * (k7_pay3 x0 x1 x2 x3 (ix2 a q) : EReal) := by
  unfold k7_pay5
  simp only [shapeCast_self, addf]
  rw [shapeCast_a_1a_apply _ shapeCasts_S256_S1x256 (0 : Fin 1) q]
  exact congrArg (fun u : EReal => (xs (ix2 (0 : Fin 1) q) : EReal) + u) (colsum7_apply _ _ _ q)

/-! ## The total, and the grid's index maps -/

/-- The total, index by index: the aggregate, plus the product's entry times the row's scale, plus the column's bias. -/
def T7 (agg xw : S50000x256.Idx → EReal) (d2 : S50000x1.Idx → EReal) (b : S1x256.Idx → EReal) :
    S50000x256.Idx → EReal :=
  fun i => agg i + xw i * d2 (ix2 (i 0) (0 : Fin 1)) + b (ix2 (0 : Fin 1) (i 1))

theorem T7_apply (agg xw : S50000x256.Idx → EReal) (d2 : S50000x1.Idx → EReal) (b : S1x256.Idx → EReal)
    (p : Fin 50000) (q : Fin 256) :
    T7 agg xw d2 b (ix2 p q) = agg (ix2 p q) + xw (ix2 p q) * d2 (ix2 p (0 : Fin 1)) + b (ix2 (0 : Fin 1) q) := rfl

/-- The column sums of a table, as a one-row table. -/
def colSum7 (T : S50000x256.Idx → EReal) : S1x256.Idx → EReal := fun j => ∑ p : Fin 50000, T (ix2 p (j 1))

theorem colSum7_apply (T : S50000x256.Idx → EReal) (q : Fin 256) :
    colSum7 T (ix2 (0 : Fin 1) q) = ∑ p : Fin 50000, T (ix2 p q) := rfl

/-- The grid has 25 points. -/
theorem N7_eq : cfg7.N = 25 := N_7

/-- A grid point as one of the 25 row-blocks. -/
abbrev pt7 (t : Fin cfg7.N) : Fin 25 := ⟨t.val, by have h : cfg7.N = 25 := N_7; have := t.isLt; omega⟩

/-- The index maps over the grid: the three row-blocked inputs and the first output sit at row-block t, column-block
    0; the bias and the two sums' outputs do not move. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

-- the TensorCore's unscoped buffer contents when the region is entered, at the ideal model
variable (V : (c : Dev nD) → (b : Ref sig .tc) → Buf (Elt Ideal) ((c : Thread nD τ).loc b))

/-- The four arrays the region finds, as functions into the extended reals, and the total of them. -/
abbrev agg7 (c : Dev nD) : S50000x256.Idx → EReal := V c main_v104
abbrev xw7 (c : Dev nD) : S50000x256.Idx → EReal := V c main_v86
abbrev dsq7 (c : Dev nD) : S50000x1.Idx → EReal := V c main_v105
abbrev bias7 (c : Dev nD) : S1x256.Idx → EReal := V c main_v106
abbrev tot7 (c : Dev nD) : S50000x256.Idx → EReal := T7 (agg7 V c) (xw7 V c) (dsq7 V c) (bias7 V c)

/-! ## The block of the total -/

/-- The first output's block at point t sits at rows 2000·t …, all columns. -/
theorem emb7_4 (t : Fin cfg7.N) (a : Fin 2000) (q : Fin 256) :
    ((cfg7.win 4).blk t).view.emb (ix2 a q) = ix2 (Cert.BlockSum.rowOf (pt7 t) a) q := by
  obtain ⟨-, -, -, -, -, -, -, -, e40, e41, -⟩ := idx_facts7 t
  funext d; apply Fin.ext
  match d with
  | ⟨0, _⟩ => show win7_4.index t (0 : Fin 2) * 2000 + 1 * a.val = 2000 * t.val + a.val; omega
  | ⟨1, _⟩ => show win7_4.index t (1 : Fin 2) * 256 + 1 * q.val = q.val; omega

/-- What the body stores at point t, at (a, q), is the total at the index's place in the array. -/
theorem tblk7_apply (c : Dev nD) (t : Fin cfg7.N) (a : Fin 2000) (q : Fin 256) :
    (tblk7 V c t (ix2 a q) : EReal) = tot7 V c (((cfg7.win 4).blk t).view.emb (ix2 a q)) := by
  obtain ⟨e00, e01, e10, e11, e20, e21, e30, e31, e40, e41, -⟩ := idx_facts7 t
  have h0 : ((cfg7.win 0).blk t).view.emb (ix2 a q) = ((cfg7.win 4).blk t).view.emb (ix2 a q) := by
    funext d; apply Fin.ext
    match d with
    | ⟨0, _⟩ => show win7_0.index t (0 : Fin 2) * 2000 + 1 * a.val = win7_4.index t (0 : Fin 2) * 2000 + 1 * a.val; omega
    | ⟨1, _⟩ => show win7_0.index t (1 : Fin 2) * 256 + 1 * q.val = win7_4.index t (1 : Fin 2) * 256 + 1 * q.val; omega
  have h1 : ((cfg7.win 1).blk t).view.emb (ix2 a q) = ((cfg7.win 4).blk t).view.emb (ix2 a q) := by
    funext d; apply Fin.ext
    match d with
    | ⟨0, _⟩ => show win7_1.index t (0 : Fin 2) * 2000 + 1 * a.val = win7_4.index t (0 : Fin 2) * 2000 + 1 * a.val; omega
    | ⟨1, _⟩ => show win7_1.index t (1 : Fin 2) * 256 + 1 * q.val = win7_4.index t (1 : Fin 2) * 256 + 1 * q.val; omega
  have h2 : ((cfg7.win 2).blk t).view.emb (ix2 a (0 : Fin 1))
      = ix2 ((((cfg7.win 4).blk t).view.emb (ix2 a q)) 0) (0 : Fin 1) := by
    funext d; apply Fin.ext
    match d with
    | ⟨0, _⟩ => show win7_2.index t (0 : Fin 2) * 2000 + 1 * a.val = win7_4.index t (0 : Fin 2) * 2000 + 1 * a.val; omega
    | ⟨1, _⟩ => show win7_2.index t (1 : Fin 2) * 1 + 1 * 0 = 0; omega
  have h3 : ((cfg7.win 3).blk t).view.emb (ix2 (0 : Fin 1) q)
      = ix2 (0 : Fin 1) ((((cfg7.win 4).blk t).view.emb (ix2 a q)) 1) := by
    funext d; apply Fin.ext
    match d with
    | ⟨0, _⟩ => show win7_3.index t (0 : Fin 2) * 1 + 1 * 0 = 0; omega
    | ⟨1, _⟩ => show win7_3.index t (1 : Fin 2) * 256 + 1 * q.val = win7_4.index t (1 : Fin 2) * 256 + 1 * q.val; omega
  refine (k7_pay3_apply (iblk7 V c 0 t) (iblk7 V c 1 t) (iblk7 V c 2 t) (iblk7 V c 3 t) a q).trans ?_
  exact congrArg₂ (fun u v : EReal => u + v)
    (congrArg₂ (fun u v : EReal => u + v) (congrArg (agg7 V c) h0)
      (congrArg₂ (fun u v : EReal => u * v) (congrArg (xw7 V c) h1) (congrArg (dsq7 V c) h2)))
    (congrArg (bias7 V c) h3)

/-- The same, with the row named: row a of block t is row 2000·t + a. -/
theorem tblk7_row (c : Dev nD) (t : Fin cfg7.N) (a : Fin 2000) (q : Fin 256) :
    (tblk7 V c t (ix2 a q) : EReal) = tot7 V c (ix2 (Cert.BlockSum.rowOf (pt7 t) a) q) :=
  (tblk7_apply V c t a q).trans (congrArg (tot7 V c) (emb7_4 t a q))

/-! ## The accumulators after n points -/

/-- The first accumulator after n points, at column q: the sum of the total over the rows below 2000·n. -/
theorem acc7_fst_apply (c : Dev nD) : ∀ (n : ℕ) (h : n ≤ cfg7.N) (q : Fin 256),
    ((acc7 V c n h).1 (ix2 (0 : Fin 1) q) : EReal) = Cert.BlockSum.accTo (fun p => tot7 V c (ix2 p q)) n
  | 0, h, q => (congrFun (acc7_zero_fst V c 0 h rfl) (ix2 (0 : Fin 1) q)).trans (k7_pay1_apply q)
  | n + 1, h, q => by
    have hn : n < cfg7.N := Nat.lt_of_succ_le h
    have h25 : n < 25 := by have e : cfg7.N = 25 := N_7; omega
    refine (congrFun (acc7_succ_fst V c ⟨n, hn⟩) (ix2 (0 : Fin 1) q)).trans ?_
    refine (k7_pay4_apply (iblk7 V c 0 ⟨n, hn⟩) (iblk7 V c 1 ⟨n, hn⟩) (iblk7 V c 2 ⟨n, hn⟩) (iblk7 V c 3 ⟨n, hn⟩)
      (acc7 V c n (Nat.le_of_lt hn)).1 q).trans ?_
    rw [Cert.BlockSum.accTo_succ_of_lt _ n h25]
    exact congrArg₂ (fun u v : EReal => u + v) (acc7_fst_apply c n (Nat.le_of_lt hn) q)
      (Finset.sum_congr rfl fun a _ => tblk7_row V c ⟨n, hn⟩ a q)

/-- The second accumulator after n points, at column q: the sum of the total's square over the rows below 2000·n. -/
theorem acc7_snd_apply (c : Dev nD) : ∀ (n : ℕ) (h : n ≤ cfg7.N) (q : Fin 256),
    ((acc7 V c n h).2 (ix2 (0 : Fin 1) q) : EReal)
      = Cert.BlockSum.accTo (fun p => tot7 V c (ix2 p q) * tot7 V c (ix2 p q)) n
  | 0, h, q => (congrFun (acc7_zero_snd V c 0 h rfl) (ix2 (0 : Fin 1) q)).trans (k7_pay2_apply q)
  | n + 1, h, q => by
    have hn : n < cfg7.N := Nat.lt_of_succ_le h
    have h25 : n < 25 := by have e : cfg7.N = 25 := N_7; omega
    refine (congrFun (acc7_succ_snd V c ⟨n, hn⟩) (ix2 (0 : Fin 1) q)).trans ?_
    refine (k7_pay5_apply (iblk7 V c 0 ⟨n, hn⟩) (iblk7 V c 1 ⟨n, hn⟩) (iblk7 V c 2 ⟨n, hn⟩) (iblk7 V c 3 ⟨n, hn⟩)
      (acc7 V c n (Nat.le_of_lt hn)).2 q).trans ?_
    rw [Cert.BlockSum.accTo_succ_of_lt _ n h25]
    exact congrArg₂ (fun u v : EReal => u + v) (acc7_snd_apply c n (Nat.le_of_lt hn) q)
      (Finset.sum_congr rfl fun a _ => congrArg₂ (fun u v : EReal => u * v) (tblk7_row V c ⟨n, hn⟩ a q)
        (tblk7_row V c ⟨n, hn⟩ a q))

/-! ## From the blocks to the first output's array -/

/-- What point t writes back to the first output is block t of the total. -/
theorem flushed7_4 (c : Dev nD) (t : Fin cfg7.N) :
    (dat7 V c).flushed 4 t = ((cfg7.win 4).blk t).view.read (Elt Ideal) (tot7 V c) := by
  show (cfg7.win 4).cut (grid7.coords t) ((dat7 V c).after 4 t) = _
  rw [after7_4]
  funext j
  obtain ⟨a, q, rfl⟩ : ∃ (a : Fin 2000) (q : Fin 256), j = ix2 a q := ⟨j 0, j 1, eq_ix2 j⟩
  exact tblk7_apply V c t a q

/-- An index of the first output's array is in point t's block iff each coordinate is in the block's range. -/
theorem mem_blk7_4 (t : Fin cfg7.N) (i : S50000x256.Idx) :
    i ∈ ((cfg7.win 4).blk t).view.set ↔ ∀ a : Fin 2, win7_4.index t a * S2000x256.size a ≤ (i a).val
      ∧ (i a).val < win7_4.index t a * S2000x256.size a + S2000x256.size a := by
  show i ∈ ((View.whole main_v107_0).slice (win7_4.rect t)).set ↔ _
  rw [View.set_slice_whole, Rect.mem_set_unit]
  exact Iff.rfl

/-- Every index of the first output's array is in some point's block: row p is in block p / 2000. -/
theorem cover7_4 (i : S50000x256.Idx) :
    ∃ t : Fin cfg7.N, (cfg7.win 4).flush t = true ∧ i ∈ ((cfg7.win 4).blk t).view.set := by
  have hi0 : (i 0).val < 50000 := (i 0).isLt
  have hi1 : (i 1).val < 256 := (i 1).isLt
  obtain ⟨t, ht⟩ : ∃ t : Fin cfg7.N, t.val = (i 0).val / 2000 :=
    ⟨⟨(i 0).val / 2000, by rw [show cfg7.N = 25 from N_7]; omega⟩, rfl⟩
  obtain ⟨-, -, -, -, -, -, -, -, e40, e41, -⟩ := idx_facts7 t
  refine ⟨t, flush7_4 t, ?_⟩
  rw [mem_blk7_4]
  intro d
  match d with
  | ⟨0, _⟩ => show win7_4.index t (0 : Fin 2) * 2000 ≤ (i 0).val ∧ (i 0).val < win7_4.index t (0 : Fin 2) * 2000 + 2000; omega
  | ⟨1, _⟩ => show win7_4.index t (1 : Fin 2) * 256 ≤ (i 1).val ∧ (i 1).val < win7_4.index t (1 : Fin 2) * 256 + 256; omega

/-- The first output's array after the region is the total of the four arrays as the region finds them. -/
theorem final7_4 (c : Dev nD) : (dat7 V c).arrAt 4 cfg7.N = tot7 V c :=
  (dat7 V c).arrAt_eq_of_cover 4 (tot7 V c) (fun t _ => flushed7_4 V c t) cover7_4

/-! ## The two sums' arrays: written once, at the last point, whole -/

/-- The one row of a sums' output sits where it is: block (0, 0) of a 1×256 array is the array. -/
theorem emb7_5 (t : Fin cfg7.N) (q : Fin 256) :
    ((cfg7.win 5).blk t).view.emb (ix2 (0 : Fin 1) q) = ix2 (0 : Fin 1) q := by
  obtain ⟨-, -, -, -, -, -, -, -, -, -, e50, e51, -⟩ := idx_facts7 t
  funext d; apply Fin.ext
  match d with
  | ⟨0, _⟩ => show win7_5.index t (0 : Fin 2) * 1 + 1 * 0 = 0; omega
  | ⟨1, _⟩ => show win7_5.index t (1 : Fin 2) * 256 + 1 * q.val = q.val; omega

theorem emb7_6 (t : Fin cfg7.N) (q : Fin 256) :
    ((cfg7.win 6).blk t).view.emb (ix2 (0 : Fin 1) q) = ix2 (0 : Fin 1) q := by
  obtain ⟨-, -, -, -, -, -, -, -, -, -, -, -, e60, e61⟩ := idx_facts7 t
  funext d; apply Fin.ext
  match d with
  | ⟨0, _⟩ => show win7_6.index t (0 : Fin 2) * 1 + 1 * 0 = 0; omega
  | ⟨1, _⟩ => show win7_6.index t (1 : Fin 2) * 256 + 1 * q.val = q.val; omega

/-- The point that writes the sums back is the last one. -/
theorem last_of_flush7_5 (t : Fin cfg7.N) (hf : (cfg7.win 5).flush t = true) : t.val + 1 = 25 := by
  have h1 := (flush7_5 t).mp hf
  have h2 := t.isLt
  have h3 : cfg7.N = 25 := N_7
  omega

theorem last_of_flush7_6 (t : Fin cfg7.N) (hf : (cfg7.win 6).flush t = true) : t.val + 1 = 25 := by
  have h1 := (flush7_6 t).mp hf
  have h2 := t.isLt
  have h3 : cfg7.N = 25 := N_7
  omega

/-- What the last point writes back to the second output: the column sums of the total. -/
theorem flushed7_5 (c : Dev nD) (t : Fin cfg7.N) (hf : (cfg7.win 5).flush t = true) :
    (dat7 V c).flushed 5 t = ((cfg7.win 5).blk t).view.read (Elt Ideal) (colSum7 (tot7 V c)) := by
  have hl := last_of_flush7_5 t hf
  show (cfg7.win 5).cut (grid7.coords t) ((dat7 V c).after 5 t) = _
  rw [after7_5]
  funext j
  obtain ⟨a, q, rfl⟩ : ∃ (a : Fin 1) (q : Fin 256), j = ix2 a q := ⟨j 0, j 1, eq_ix2 j⟩
  obtain rfl : a = 0 := Subsingleton.elim _ _
  -- the left side is the accumulator at (0, q); the right side reads the sums' table at the block's place
  refine Eq.trans (b := ((acc7 V c (t.val + 1) t.isLt).1 (ix2 (0 : Fin 1) q) : EReal)) rfl ?_
  rw [acc7_fst_apply V c (t.val + 1) t.isLt q, hl, Cert.BlockSum.accTo_eq]
  refine Eq.trans ?_ (View.read_apply (v := ((cfg7.win 5).blk t).view) (Val := Elt Ideal) (colSum7 (tot7 V c))
    (ix2 (0 : Fin 1) q)).symm
  rw [cast_eq, emb7_5 t q, colSum7_apply]

/-- What the last point writes back to the third output: the column sums of the total's square. -/
theorem flushed7_6 (c : Dev nD) (t : Fin cfg7.N) (hf : (cfg7.win 6).flush t = true) :
    (dat7 V c).flushed 6 t
      = ((cfg7.win 6).blk t).view.read (Elt Ideal) (colSum7 (fun i => tot7 V c i * tot7 V c i)) := by
  have hl := last_of_flush7_6 t hf
  show (cfg7.win 6).cut (grid7.coords t) ((dat7 V c).after 6 t) = _
  rw [after7_6]
  funext j
  obtain ⟨a, q, rfl⟩ : ∃ (a : Fin 1) (q : Fin 256), j = ix2 a q := ⟨j 0, j 1, eq_ix2 j⟩
  obtain rfl : a = 0 := Subsingleton.elim _ _
  refine Eq.trans (b := ((acc7 V c (t.val + 1) t.isLt).2 (ix2 (0 : Fin 1) q) : EReal)) rfl ?_
  rw [acc7_snd_apply V c (t.val + 1) t.isLt q, hl, Cert.BlockSum.accTo_eq]
  refine Eq.trans ?_ (View.read_apply (v := ((cfg7.win 6).blk t).view) (Val := Elt Ideal)
    (colSum7 (fun i => tot7 V c i * tot7 V c i)) (ix2 (0 : Fin 1) q)).symm
  rw [cast_eq, emb7_6 t q, colSum7_apply]

/-- The last point. -/
abbrev t7_last : Fin cfg7.N := ⟨24, by rw [show cfg7.N = 25 from N_7]; decide⟩

theorem mem_blk7_5 (t : Fin cfg7.N) (i : S1x256.Idx) :
    i ∈ ((cfg7.win 5).blk t).view.set ↔ ∀ a : Fin 2, win7_5.index t a * S1x256.size a ≤ (i a).val
      ∧ (i a).val < win7_5.index t a * S1x256.size a + S1x256.size a := by
  show i ∈ ((View.whole main_v107_1).slice (win7_5.rect t)).set ↔ _
  rw [View.set_slice_whole, Rect.mem_set_unit]
  exact Iff.rfl

theorem mem_blk7_6 (t : Fin cfg7.N) (i : S1x256.Idx) :
    i ∈ ((cfg7.win 6).blk t).view.set ↔ ∀ a : Fin 2, win7_6.index t a * S1x256.size a ≤ (i a).val
      ∧ (i a).val < win7_6.index t a * S1x256.size a + S1x256.size a := by
  show i ∈ ((View.whole main_v107_2).slice (win7_6.rect t)).set ↔ _
  rw [View.set_slice_whole, Rect.mem_set_unit]
  exact Iff.rfl

/-- Every index of the second output's array is in the last point's block. -/
theorem cover7_5 (i : S1x256.Idx) :
    ∃ t : Fin cfg7.N, (cfg7.win 5).flush t = true ∧ i ∈ ((cfg7.win 5).blk t).view.set := by
  have hi0 : (i 0).val < 1 := (i 0).isLt
  have hi1 : (i 1).val < 256 := (i 1).isLt
  obtain ⟨-, -, -, -, -, -, -, -, -, -, e50, e51, -⟩ := idx_facts7 t7_last
  refine ⟨t7_last, (flush7_5 t7_last).mpr rfl, ?_⟩
  rw [mem_blk7_5]
  intro d
  match d with
  | ⟨0, _⟩ => show win7_5.index t7_last (0 : Fin 2) * 1 ≤ (i 0).val ∧ (i 0).val < win7_5.index t7_last (0 : Fin 2) * 1 + 1; omega
  | ⟨1, _⟩ => show win7_5.index t7_last (1 : Fin 2) * 256 ≤ (i 1).val ∧ (i 1).val < win7_5.index t7_last (1 : Fin 2) * 256 + 256; omega

/-- Every index of the third output's array is in the last point's block. -/
theorem cover7_6 (i : S1x256.Idx) :
    ∃ t : Fin cfg7.N, (cfg7.win 6).flush t = true ∧ i ∈ ((cfg7.win 6).blk t).view.set := by
  have hi0 : (i 0).val < 1 := (i 0).isLt
  have hi1 : (i 1).val < 256 := (i 1).isLt
  obtain ⟨-, -, -, -, -, -, -, -, -, -, -, -, e60, e61⟩ := idx_facts7 t7_last
  refine ⟨t7_last, (flush7_6 t7_last).mpr rfl, ?_⟩
  rw [mem_blk7_6]
  intro d
  match d with
  | ⟨0, _⟩ => show win7_6.index t7_last (0 : Fin 2) * 1 ≤ (i 0).val ∧ (i 0).val < win7_6.index t7_last (0 : Fin 2) * 1 + 1; omega
  | ⟨1, _⟩ => show win7_6.index t7_last (1 : Fin 2) * 256 ≤ (i 1).val ∧ (i 1).val < win7_6.index t7_last (1 : Fin 2) * 256 + 256; omega

/-- The second output's array after the region: the column sums of the total. -/
theorem final7_5 (c : Dev nD) : (dat7 V c).arrAt 5 cfg7.N = colSum7 (tot7 V c) :=
  (dat7 V c).arrAt_eq_of_cover 5 (colSum7 (tot7 V c)) (flushed7_5 V c) cover7_5

/-- The third output's array after the region: the column sums of the total's square. -/
theorem final7_6 (c : Dev nD) : (dat7 V c).arrAt 6 cfg7.N = colSum7 (fun i => tot7 V c i * tot7 V c i) :=
  (dat7 V c).arrAt_eq_of_cover 6 (colSum7 (fun i => tot7 V c i * tot7 V c i)) (flushed7_6 V c) cover7_6

/-! ## The three outputs, index by index, over named arrays -/

/-- The first output at (p, q): the total of the four arrays as the region finds them. -/
theorem out7_4_apply (c : Dev nD) (agg xw : S50000x256.Idx → EReal) (d2 : S50000x1.Idx → EReal) (b : S1x256.Idx → EReal)
    (hagg : (V c main_v104 : S50000x256.Idx → EReal) = agg) (hxw : (V c main_v86 : S50000x256.Idx → EReal) = xw)
    (hd2 : (V c main_v105 : S50000x1.Idx → EReal) = d2) (hb : (V c main_v106 : S1x256.Idx → EReal) = b)
    (p : Fin 50000) (q : Fin 256) :
    (dat7 (F := Ideal) V c).arrAt 4 cfg7.N (ix2 p q) = T7 agg xw d2 b (ix2 p q) := by
  rw [final7_4]
  show T7 (V c main_v104) (V c main_v86) (V c main_v105) (V c main_v106) (ix2 p q) = _
  rw [hagg, hxw, hd2, hb]

/-- The second output at column q: the sum over all rows of the total. -/
theorem out7_5_apply (c : Dev nD) (agg xw : S50000x256.Idx → EReal) (d2 : S50000x1.Idx → EReal) (b : S1x256.Idx → EReal)
    (hagg : (V c main_v104 : S50000x256.Idx → EReal) = agg) (hxw : (V c main_v86 : S50000x256.Idx → EReal) = xw)
    (hd2 : (V c main_v105 : S50000x1.Idx → EReal) = d2) (hb : (V c main_v106 : S1x256.Idx → EReal) = b)
    (q : Fin 256) :
    (dat7 (F := Ideal) V c).arrAt 5 cfg7.N (ix2 (0 : Fin 1) q) = ∑ p : Fin 50000, T7 agg xw d2 b (ix2 p q) := by
  rw [final7_5, colSum7_apply]
  show ∑ p : Fin 50000, T7 (V c main_v104) (V c main_v86) (V c main_v105) (V c main_v106) (ix2 p q) = _
  rw [hagg, hxw, hd2, hb]

/-- The third output at column q: the sum over all rows of the total's square. -/
theorem out7_6_apply (c : Dev nD) (agg xw : S50000x256.Idx → EReal) (d2 : S50000x1.Idx → EReal) (b : S1x256.Idx → EReal)
    (hagg : (V c main_v104 : S50000x256.Idx → EReal) = agg) (hxw : (V c main_v86 : S50000x256.Idx → EReal) = xw)
    (hd2 : (V c main_v105 : S50000x1.Idx → EReal) = d2) (hb : (V c main_v106 : S1x256.Idx → EReal) = b)
    (q : Fin 256) :
    (dat7 (F := Ideal) V c).arrAt 6 cfg7.N (ix2 (0 : Fin 1) q)
      = ∑ p : Fin 50000, T7 agg xw d2 b (ix2 p q) * T7 agg xw d2 b (ix2 p q) := by
  rw [final7_6, colSum7_apply]
  show ∑ p : Fin 50000, T7 (V c main_v104) (V c main_v86) (V c main_v105) (V c main_v106) (ix2 p q)
    * T7 (V c main_v104) (V c main_v86) (V c main_v105) (V c main_v106) (ix2 p q) = _
  rw [hagg, hxw, hd2, hb]

end AtIdeal

end Cert.KernelIdeal.Hand

end
-- ==== Proof.RegBnRes8Value.lean ====
/-
  Region 8 of @main, its VALUE: what the output array holds after the region, as one function of the arrays the
  region finds — at any float instance the kernel's tree of operations element by element (the aggregate centred at
  the column's mean, scaled, multiplied by the reciprocal square root of the variance plus the stabiliser, shifted,
  rectified, the residual then added), then at the extended reals index by index.

  The body's payload is read at a block index; the printed index maps are decided over the grid (the aggregate's
  block moves with the output's, the parameter rows stay put); the output's 25 row-blocks cover the array.
-/
import proofs.«142371_j48498770706497_2_alg».proof.Proof.RegBnRes8
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

section AnyInstance

variable {F : FTy → Type} [FloatOps F]

-- what every unscoped buffer of the TensorCore holds when the region is entered
variable (V : (c : Dev nD) → (b : Ref sig .tc) → Buf (Elt F) ((c : Thread nD τ).loc b))

/-! ## The closed form -/

/-- The row of parameters a block index reads: row 0 at the index's column. -/
abbrev brow8 (j : S2000x256.Idx) : S1x256.Idx := ix2 (0 : Fin 1) (⟨(j 1).val, idx2_lt1 j⟩ : Fin 256)
/-- The row of parameters an index of the array reads: row 0 at the index's column. -/
abbrev prow8 (i : S50000x256.Idx) : S1x256.Idx := ix2 (0 : Fin 1) (⟨(i 1).val, idx2_lt1 i⟩ : Fin 256)

/-- What the region computes, index by index, at any float instance: the aggregate `T` centred at the mean,
    scaled by `g` and by the reciprocal square root of the variance plus the stabiliser, shifted by `be`,
    rectified, and then the residual `R` added. -/
def bnReluRes8 (T R : S50000x256.Idx → Elt F .f32) (g be mu var : S1x256.Idx → Elt F .f32) : S50000x256.Idx → Elt F .f32 :=
  fun i => FloatOps.addf
    (FloatOps.maximumf
      (FloatOps.addf (FloatOps.mulf (FloatOps.mulf (g (prow8 i)) (FloatOps.subf (T i) (mu (prow8 i))))
          (FloatOps.rsqrt (FloatOps.addf (var (prow8 i)) (Scalar.ofBits .f32 0x3727C5AC#32)))) (be (prow8 i)))
      (Scalar.ofBits .f32 0x00000000#32))
    (R i)

/-- A row of parameters broadcast over the block reads, at a block index, the row at the index's column. -/
theorem bcast_row8 (x : Vec F S1x256 .f32) (j : S2000x256.Idx) :
    broadcastTo S2000x256 x broadcasts_S1x256_S2000x256 j = x (brow8 j) :=
  broadcastTo_apply x _ j (brow8 j) (fun a => by match a with | ⟨0, _⟩ => rfl | ⟨1, _⟩ => rfl)

/-- The body's payload at a block index: the same tree of operations on the elements. -/
theorem pay8_apply (a : Vec F S2000x256 .f32) (g mu var be : Vec F S1x256 .f32) (r : Vec F S2000x256 .f32) (j : S2000x256.Idx) :
    k8_pay1 a g mu var be r j = FloatOps.addf
      (FloatOps.maximumf
        (FloatOps.addf (FloatOps.mulf (FloatOps.mulf (g (brow8 j)) (FloatOps.subf (a j) (mu (brow8 j))))
            (FloatOps.rsqrt (FloatOps.addf (var (brow8 j)) (Scalar.ofBits .f32 0x3727C5AC#32)))) (be (brow8 j)))
        (Scalar.ofBits .f32 0x00000000#32))
      (r j) := by
  unfold k8_pay1
  simp only [shapeCast_self, maximumf, addf, mulf, subf]
  rw [bcast_row8 g j, bcast_row8 mu j, bcast_row8 be j, bcast_row8 _ j]
  rfl

/-! ## From blocks to the array -/

/-- The printed index maps, decided over the grid: the aggregate's block and the residual's move with the output's,
    the four parameter rows stay at block zero, and the output's block indices stay in their ranges. -/
theorem idx_facts8 : ∀ t : Fin cfg8.N,
    win8_0.index t (0 : Fin 2) = win8_6.index t (0 : Fin 2) ∧ win8_0.index t (1 : Fin 2) = 0
    ∧ win8_1.index t (0 : Fin 2) = win8_6.index t (0 : Fin 2) ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) ≤ 24 ∧ win8_6.index t (1 : Fin 2) = 0 :=
  (by decide +kernel : ∀ t : Fin grid8.N, _)

/-- Every row-block is some point's. -/
theorem idx_onto8 : ∀ q0 : Fin 25, ∃ t : Fin cfg8.N, win8_6.index t (0 : Fin 2) = q0.val :=
  (by decide +kernel : ∀ q0 : Fin 25, ∃ t : Fin grid8.N, win8_6.index t (0 : Fin 2) = q0.val)

/-- The body's result at point `t`, at a block index, is the closed form at the index's place in the array. -/
theorem block_eq8 (c : Dev nD) (t : Fin cfg8.N) (j : S2000x256.Idx) :
    k8_pay1 (iblk8 V c 0 t) (iblk8 V c 2 t) (iblk8 V c 4 t) (iblk8 V c 5 t) (iblk8 V c 3 t) (iblk8 V c 1 t) j
      = bnReluRes8 (V c main_v107_0) (V c main_v85) (V c main_v118) (V c main_v119) (V c main_v120) (V c main_v121)
          (((cfg8.win 6).blk t).view.emb j) := by
  obtain ⟨e00, e01, e10, e11, e20, e21, e30, e31, e40, e41, e50, e51, -, e61⟩ := idx_facts8 t
  have hj0 : (j 0).val < 2000 := (j 0).isLt
  have hj1 : (j 1).val < 256 := (j 1).isLt
  have h0 : ((cfg8.win 0).blk t).view.emb j = ((cfg8.win 6).blk t).view.emb j := by
    funext a; apply Fin.ext
    match a with
    | ⟨0, _⟩ => show win8_0.index t (0 : Fin 2) * 2000 + 1 * (j 0).val = win8_6.index t (0 : Fin 2) * 2000 + 1 * (j 0).val; omega
    | ⟨1, _⟩ => show win8_0.index t (1 : Fin 2) * 256 + 1 * (j 1).val = win8_6.index t (1 : Fin 2) * 256 + 1 * (j 1).val; omega
  have h1 : ((cfg8.win 1).blk t).view.emb j = ((cfg8.win 6).blk t).view.emb j := by
    funext a; apply Fin.ext
    match a with
    | ⟨0, _⟩ => show win8_1.index t (0 : Fin 2) * 2000 + 1 * (j 0).val = win8_6.index t (0 : Fin 2) * 2000 + 1 * (j 0).val; omega
    | ⟨1, _⟩ => show win8_1.index t (1 : Fin 2) * 256 + 1 * (j 1).val = win8_6.index t (1 : Fin 2) * 256 + 1 * (j 1).val; omega
  have h2 : ((cfg8.win 2).blk t).view.emb (brow8 j) = prow8 (((cfg8.win 6).blk t).view.emb j) := by
    funext a; apply Fin.ext
    match a with
    | ⟨0, _⟩ => show win8_2.index t (0 : Fin 2) * 1 + 1 * 0 = 0; omega
    | ⟨1, _⟩ => show win8_2.index t (1 : Fin 2) * 256 + 1 * (j 1).val = win8_6.index t (1 : Fin 2) * 256 + 1 * (j 1).val; omega
  have h3 : ((cfg8.win 3).blk t).view.emb (brow8 j) = prow8 (((cfg8.win 6).blk t).view.emb j) := by
    funext a; apply Fin.ext
    match a with
    | ⟨0, _⟩ => show win8_3.index t (0 : Fin 2) * 1 + 1 * 0 = 0; omega
    | ⟨1, _⟩ => show win8_3.index t (1 : Fin 2) * 256 + 1 * (j 1).val = win8_6.index t (1 : Fin 2) * 256 + 1 * (j 1).val; omega
  have h4 : ((cfg8.win 4).blk t).view.emb (brow8 j) = prow8 (((cfg8.win 6).blk t).view.emb j) := by
    funext a; apply Fin.ext
    match a with
    | ⟨0, _⟩ => show win8_4.index t (0 : Fin 2) * 1 + 1 * 0 = 0; omega
    | ⟨1, _⟩ => show win8_4.index t (1 : Fin 2) * 256 + 1 * (j 1).val = win8_6.index t (1 : Fin 2) * 256 + 1 * (j 1).val; omega
  have h5 : ((cfg8.win 5).blk t).view.emb (brow8 j) = prow8 (((cfg8.win 6).blk t).view.emb j) := by
    funext a; apply Fin.ext
    match a with
    | ⟨0, _⟩ => show win8_5.index t (0 : Fin 2) * 1 + 1 * 0 = 0; omega
    | ⟨1, _⟩ => show win8_5.index t (1 : Fin 2) * 256 + 1 * (j 1).val = win8_6.index t (1 : Fin 2) * 256 + 1 * (j 1).val; omega
  rw [pay8_apply]
  unfold bnReluRes8
  show FloatOps.addf
      (FloatOps.maximumf
        (FloatOps.addf (FloatOps.mulf (FloatOps.mulf (V c main_v118 (((cfg8.win 2).blk t).view.emb (brow8 j)))
              (FloatOps.subf (V c main_v107_0 (((cfg8.win 0).blk t).view.emb j)) (V c main_v120 (((cfg8.win 4).blk t).view.emb (brow8 j)))))
            (FloatOps.rsqrt (FloatOps.addf (V c main_v121 (((cfg8.win 5).blk t).view.emb (brow8 j))) (Scalar.ofBits .f32 0x3727C5AC#32))))
          (V c main_v119 (((cfg8.win 3).blk t).view.emb (brow8 j))))
        (Scalar.ofBits .f32 0x00000000#32))
      (V c main_v85 (((cfg8.win 1).blk t).view.emb j)) = _
  rw [h0, h1, h2, h3, h4, h5]

/-- What point `t` writes back is block `t` of the closed form of the arrays as the region finds them. -/
theorem flushed8_eq (c : Dev nD) (t : Fin cfg8.N) :
    (dat8 V c).flushed 6 t = ((cfg8.win 6).blk t).view.read (Elt F)
      (bnReluRes8 (V c main_v107_0) (V c main_v85) (V c main_v118) (V c main_v119) (V c main_v120) (V c main_v121)) := by
  show (cfg8.win 6).cut (grid8.coords t) ((dat8 V c).after 6 t) = _
  rw [after8_6]
  unfold out8_6
  rw [View.canon_unit_zero hz8]
  simp only [View.ld_unit_zero (S := S2000x256) hz8, View.ld_unit_zero (S := S1x256) hz8]
  funext j
  exact block_eq8 V c t j

/-- An index of the array is in point `t`'s block iff each coordinate is in the block's range on its axis. -/
theorem mem_blk8 (t : Fin cfg8.N) (i : S50000x256.Idx) :
    i ∈ ((cfg8.win 6).blk t).view.set ↔ ∀ a : Fin 2, win8_6.index t a * S2000x256.size a ≤ (i a).val ∧ (i a).val < win8_6.index t a * S2000x256.size a + S2000x256.size a := by
  show i ∈ ((View.whole main_v122).slice (win8_6.rect t)).set ↔ _
  rw [View.set_slice_whole, Rect.mem_set_unit]
  exact Iff.rfl

/-- Every index of the output array is in some point's block: row `r` is in row-block `r / 2000`. -/
theorem cover8 (i : S50000x256.Idx) : ∃ t : Fin cfg8.N, (cfg8.win 6).flush t = true ∧ i ∈ ((cfg8.win 6).blk t).view.set := by
  have hi0 : (i 0).val < 50000 := (i 0).isLt
  have hi1 : (i 1).val < 256 := (i 1).isLt
  obtain ⟨t, ht⟩ := idx_onto8 ⟨(i 0).val / 2000, by omega⟩
  have ht' : win8_6.index t (0 : Fin 2) = (i 0).val / 2000 := ht
  obtain ⟨-, -, -, -, -, -, -, -, -, -, -, -, -, e1⟩ := idx_facts8 t
  refine ⟨t, flush8_6 t, ?_⟩
  rw [mem_blk8]
  intro a
  match a with
  | ⟨0, _⟩ => show win8_6.index t (0 : Fin 2) * 2000 ≤ (i 0).val ∧ (i 0).val < win8_6.index t (0 : Fin 2) * 2000 + 2000; omega
  | ⟨1, _⟩ => show win8_6.index t (1 : Fin 2) * 256 ≤ (i 1).val ∧ (i 1).val < win8_6.index t (1 : Fin 2) * 256 + 256; omega

/-- THE OUTPUT ARRAY after the region, at any float instance: the closed form of the arrays as the region finds them. -/
theorem out_eq8 (c : Dev nD) :
    (dat8 V c).arrAt 6 cfg8.N
      = bnReluRes8 (V c main_v107_0) (V c main_v85) (V c main_v118) (V c main_v119) (V c main_v120) (V c main_v121) :=
  (dat8 V c).arrAt_eq_of_cover 6 _ (fun t _ => flushed8_eq V c t) cover8

end AnyInstance

/-! ## At the extended reals, index by index -/

/-- The closed form at the ideal instance, at row `p` and column `q`: the aggregate centred at the column's mean,
    times the column's scale, times the reciprocal square root of the column's variance plus the stabiliser, plus
    the column's shift, rectified; then the residual at the same row and column added. -/
theorem bnReluRes8_apply (T R : S50000x256.Idx → EReal) (g be mu var : S1x256.Idx → EReal) (p : Fin 50000) (q : Fin 256) :
    bnReluRes8 (F := Ideal) T R g be mu var (ix2 p q)
      = max (g (ix2 (0 : Fin 1) q) * (T (ix2 p q) - mu (ix2 (0 : Fin 1) q))
            * Ideal.rsqrt (var (ix2 (0 : Fin 1) q) + Ideal.ofBits .f32 0x3727C5AC#32) + be (ix2 (0 : Fin 1) q)) 0
        + R (ix2 p q) := by
  unfold bnReluRes8
  show max _ (Ideal.ofBits .f32 0x00000000#32) + _ = _
  rw [Ideal.ofBits_zero_f32]
  rfl

section AtIdeal

variable (V : (c : Dev nD) → (b : Ref sig .tc) → Buf (Elt Ideal) ((c : Thread nD τ).loc b)) (c : Dev nD)

/-- The region's arrays at the ideal instance as functions into the extended reals: the aggregate, the residual, the
    scale, the shift, the mean, the variance as the region finds them, and the output as the region leaves it. -/
abbrev agg8 : S50000x256.Idx → EReal := V c main_v107_0
abbrev resid8 : S50000x256.Idx → EReal := V c main_v85
abbrev scale8 : S1x256.Idx → EReal := V c main_v118
abbrev shift8 : S1x256.Idx → EReal := V c main_v119
abbrev mean8 : S1x256.Idx → EReal := V c main_v120
abbrev var8 : S1x256.Idx → EReal := V c main_v121
abbrev res8 : S50000x256.Idx → EReal := (dat8 V c).arrAt 6 cfg8.N

/-- THE OUTPUT ARRAY after the region at the ideal instance, at row `p` and column `q`. -/
theorem out_apply8 (p : Fin 50000) (q : Fin 256) :
    res8 V c (ix2 p q)
      = max (scale8 V c (ix2 (0 : Fin 1) q) * (agg8 V c (ix2 p q) - mean8 V c (ix2 (0 : Fin 1) q))
            * Ideal.rsqrt (var8 V c (ix2 (0 : Fin 1) q) + Ideal.ofBits .f32 0x3727C5AC#32) + shift8 V c (ix2 (0 : Fin 1) q)) 0
        + resid8 V c (ix2 p q) :=
  (congrFun (out_eq8 V c) (ix2 p q)).trans (bnReluRes8_apply _ _ _ _ _ _ p q)

end AtIdeal

end Cert.KernelIdeal.Hand

end
-- ==== Proof.KNetU2.lean ====
/-
  The kernel-side program's third layer, read off the contents of its buffers item by item: as the second
  layer, over the table the second layer left and the third layer's launch arrays.
-/
import proofs.«142371_j48498770706497_2_alg».proof.Proof.Vals9
import proofs.«142371_j48498770706497_2_alg».proof.Proof.KKeep
import proofs.«142371_j48498770706497_2_alg».proof.Proof.KHost0
import proofs.«142371_j48498770706497_2_alg».proof.Proof.KNet1
import proofs.«142371_j48498770706497_2_alg».proof.Proof.KNet2
import proofs.«142371_j48498770706497_2_alg».proof.Proof.RegMatmul6Value
import proofs.«142371_j48498770706497_2_alg».proof.Proof.RegStats7Value
import proofs.«142371_j48498770706497_2_alg».proof.Proof.RegBnRes8Value
import Idealize.ShloMosaic.Lib.ValueIdx

set_option maxRecDepth 1628

noncomputable section
namespace Cert.KNet

open Idealize.ShloMosaic Idealize.ShloMosaic.TcCoe Idealize.ShloMosaic.ValueIdx Idealize.SL.Sem
open Cert.KernelIdeal Cert.KernelIdeal.Gen
open scoped BigOperators

section LayerU2

variable (m : (ℓ : Loc nD τ sig) → Buf (Elt Ideal) ℓ) (c : Dev nD)

/-- The source and target words of the edges, the degree scale and its square, as the third layer finds them: they
    are what the first host stretch left, carried unchanged. -/
theorem row_U11 : (Cert.KernelIdeal.Hand.U11 (F := Ideal) m c (Proc.devRef .tc main_v1) : IVec S800000 32) = (Cert.KHost0.rowOf (Cert.KernelIdeal.Hand.U0 (F := Ideal) m c (Proc.devRef .tc main_arg1))) := by
  rw [Cert.KKeep.U11_long m c main_v1 (by decide)]
  exact Cert.KHost0.v1_eq (Cert.KernelIdeal.Hand.U0 (F := Ideal) m c)

theorem col_U11 : (Cert.KernelIdeal.Hand.U11 (F := Ideal) m c (Proc.devRef .tc main_v3) : IVec S800000 32) = (Cert.KHost0.colOf (Cert.KernelIdeal.Hand.U0 (F := Ideal) m c (Proc.devRef .tc main_arg1))) := by
  rw [Cert.KKeep.U11_long m c main_v3 (by decide)]
  exact Cert.KHost0.v3_eq (Cert.KernelIdeal.Hand.U0 (F := Ideal) m c)

theorem dinv_U11 (n : Fin 50000) : (Cert.KernelIdeal.Hand.U11 (F := Ideal) m c (Proc.devRef .tc main_v10) : FVec Ideal S50000 .f32) (ix1 n)
    = Cert.Spec.dinv (Cert.EdgeIdx.landOf (Cert.KHost0.colOf (Cert.KernelIdeal.Hand.U0 (F := Ideal) m c (Proc.devRef .tc main_arg1)))) n := by
  rw [Cert.KKeep.U11_long m c main_v10 (by decide)]
  exact Cert.KHost0.v10_apply (Cert.KernelIdeal.Hand.U0 (F := Ideal) m c) n

theorem dinv2_U11 (n : Fin 50000) : (Cert.KernelIdeal.Hand.U11 (F := Ideal) m c (Proc.devRef .tc main_v11) : FVec Ideal S50000 .f32) (ix1 n)
    = Cert.Spec.dinv (Cert.EdgeIdx.landOf (Cert.KHost0.colOf (Cert.KernelIdeal.Hand.U0 (F := Ideal) m c (Proc.devRef .tc main_arg1)))) n * Cert.Spec.dinv (Cert.EdgeIdx.landOf (Cert.KHost0.colOf (Cert.KernelIdeal.Hand.U0 (F := Ideal) m c (Proc.devRef .tc main_arg1)))) n := by
  rw [Cert.KKeep.U11_long m c main_v11 (by decide)]
  exact Cert.KHost0.v11_apply (Cert.KernelIdeal.Hand.U0 (F := Ideal) m c) n

/-- The third layer of the kernel-side program: the table it leaves at main_v122 is the scale-once layer of the
    table it found at main_v85, with the launch arrays as weights, bias, scale and shift, plus that table. -/
theorem layer2_U (n : Fin 50000) (q : Fin 256) :
    er ((Cert.KernelIdeal.Hand.U16 (F := Ideal) m c (Proc.devRef .tc main_v122) : S50000x256.Idx → EReal) (ix2 n q))
      = Cert.Spec.layerK (Cert.EdgeIdx.gidx (Cert.KHost0.rowOf (Cert.KernelIdeal.Hand.U0 (F := Ideal) m c (Proc.devRef .tc main_arg1)))) (Cert.EdgeIdx.landOf (Cert.KHost0.colOf (Cert.KernelIdeal.Hand.U0 (F := Ideal) m c (Proc.devRef .tc main_arg1))))
          (Ideal.ofBits .f32 0x47435000#32) (Ideal.ofBits .f32 0x3727C5AC#32)
          (fun p k => (Cert.KernelIdeal.Hand.U11 (F := Ideal) m c (Proc.devRef .tc main_v85) : S50000x256.Idx → EReal) (ix2 p k))
          (fun k q => (Cert.KernelIdeal.Hand.U0 (F := Ideal) m c (Proc.devRef .tc main_arg11) : S256x256.Idx → EReal) (ix2 k q))
          (fun q => (Cert.KernelIdeal.Hand.U0 (F := Ideal) m c (Proc.devRef .tc main_arg12) : S256.Idx → EReal) (ix1 q))
          (fun q => (Cert.KernelIdeal.Hand.U0 (F := Ideal) m c (Proc.devRef .tc main_arg13) : S256.Idx → EReal) (ix1 q))
          (fun q => (Cert.KernelIdeal.Hand.U0 (F := Ideal) m c (Proc.devRef .tc main_arg14) : S256.Idx → EReal) (ix1 q)) n q
        + er ((Cert.KernelIdeal.Hand.U11 (F := Ideal) m c (Proc.devRef .tc main_v85) : S50000x256.Idx → EReal) (ix2 n q)) := by
  have key := layer2_chain (Cert.KernelIdeal.Hand.U11 (F := Ideal) m c) (Cert.KernelIdeal.Hand.U12 (F := Ideal) m c) (Cert.KernelIdeal.Hand.U13 (F := Ideal) m c) (Cert.KernelIdeal.Hand.U14 (F := Ideal) m c) (Cert.KernelIdeal.Hand.U15 (F := Ideal) m c)
    (fun p q => Cert.KernelIdeal.Hand.T7 (Cert.KernelIdeal.Hand.U13 (F := Ideal) m c (Proc.devRef .tc main_v104) : S50000x256.Idx → EReal) (Cert.KernelIdeal.Hand.U13 (F := Ideal) m c (Proc.devRef .tc main_v86) : S50000x256.Idx → EReal)
      (Cert.KernelIdeal.Hand.U13 (F := Ideal) m c (Proc.devRef .tc main_v105) : S50000x1.Idx → EReal) (Cert.KernelIdeal.Hand.U13 (F := Ideal) m c (Proc.devRef .tc main_v106) : S1x256.Idx → EReal) (ix2 p q))
    (Cert.KernelIdeal.Hand.U16 (F := Ideal) m c (Proc.devRef .tc main_v122) : S50000x256.Idx → EReal) (Cert.KHost0.rowOf (Cert.KernelIdeal.Hand.U0 (F := Ideal) m c (Proc.devRef .tc main_arg1))) (Cert.KHost0.colOf (Cert.KernelIdeal.Hand.U0 (F := Ideal) m c (Proc.devRef .tc main_arg1)))
    (row_U11 m c) (col_U11 m c) (dinv_U11 m c) (dinv2_U11 m c)
    (fun r h => Cert.KernelIdeal.Hand.U12_of m c r h)
    (fun p q => by
      show (Cert.KernelIdeal.Hand.U12 (F := Ideal) m c (Proc.devRef .tc main_v86) : S50000x256.Idx → EReal) (ix2 p q) = _
      rw [Cert.KernelIdeal.Hand.U12_out]
      exact Cert.KernelIdeal.Hand.out6_apply (Cert.KernelIdeal.Hand.rd (Cert.KernelIdeal.Hand.U11 (F := Ideal) m)) c _ _ rfl rfl p q)
    rfl
    (fun r h => Cert.KernelIdeal.Hand.U14_of m c r h)
    (fun p q => rfl)
    (fun p q => by
      show (Cert.KernelIdeal.Hand.U14 (F := Ideal) m c (Proc.devRef .tc main_v107_0) : S50000x256.Idx → EReal) (ix2 p q) = _
      rw [Cert.KernelIdeal.Hand.U14_out0]
      exact Cert.KernelIdeal.Hand.out7_4_apply (Cert.KernelIdeal.Hand.rd (Cert.KernelIdeal.Hand.U13 (F := Ideal) m)) c _ _ _ _ rfl rfl rfl rfl p q)
    (fun q => by
      show (Cert.KernelIdeal.Hand.U14 (F := Ideal) m c (Proc.devRef .tc main_v107_1) : S1x256.Idx → EReal) (ix2 (0 : Fin 1) q) = _
      rw [Cert.KernelIdeal.Hand.U14_out1]
      exact Cert.KernelIdeal.Hand.out7_5_apply (Cert.KernelIdeal.Hand.rd (Cert.KernelIdeal.Hand.U13 (F := Ideal) m)) c _ _ _ _ rfl rfl rfl rfl q)
    (fun q => by
      show (Cert.KernelIdeal.Hand.U14 (F := Ideal) m c (Proc.devRef .tc main_v107_2) : S1x256.Idx → EReal) (ix2 (0 : Fin 1) q) = _
      rw [Cert.KernelIdeal.Hand.U14_out2]
      exact Cert.KernelIdeal.Hand.out7_6_apply (Cert.KernelIdeal.Hand.rd (Cert.KernelIdeal.Hand.U13 (F := Ideal) m)) c _ _ _ _ rfl rfl rfl rfl q)
    rfl
    (fun p q => by
      show (Cert.KernelIdeal.Hand.U16 (F := Ideal) m c (Proc.devRef .tc main_v122) : S50000x256.Idx → EReal) (ix2 p q) = _
      rw [Cert.KernelIdeal.Hand.U16_out]
      exact Cert.KernelIdeal.Hand.out_apply8 (Cert.KernelIdeal.Hand.rd (Cert.KernelIdeal.Hand.U15 (F := Ideal) m)) c p q)
    n q
  rw [Cert.KKeep.U11_long m c main_arg11 (by decide), Cert.KKeep.U1_arg m c main_arg11 (by decide),
    Cert.KKeep.U11_long m c main_arg12 (by decide), Cert.KKeep.U1_arg m c main_arg12 (by decide),
    Cert.KKeep.U11_long m c main_arg13 (by decide), Cert.KKeep.U1_arg m c main_arg13 (by decide),
    Cert.KKeep.U11_long m c main_arg14 (by decide), Cert.KKeep.U1_arg m c main_arg14 (by decide)] at key
  exact key

end LayerU2

end Cert.KNet

end
-- ==== Proof.KNet.lean ====
/-
  The kernel-side program's third-layer table is the specification's scale-once network of the launch arrays.

  The first layer's output buffer is read along the chain of buffer contents from the launch: the dense product, the
  aggregate, the totals with their column sums, the mean and variance, the normalised and clamped output, each as the
  region or host stretch that writes it leaves it. The second and third layers are the same chain over the table
  before them, each adding that table. Substituting the first into the second and the second into the third gives
  the network.
-/
import proofs.«142371_j48498770706497_2_alg».proof.Proof.Vals9
import proofs.«142371_j48498770706497_2_alg».proof.Proof.KPieces
import proofs.«142371_j48498770706497_2_alg».proof.Proof.KNet0
import proofs.«142371_j48498770706497_2_alg».proof.Proof.RegMatmul0Value
import proofs.«142371_j48498770706497_2_alg».proof.Proof.RegStats1Value
import proofs.«142371_j48498770706497_2_alg».proof.Proof.RegBn2Value
import proofs.«142371_j48498770706497_2_alg».proof.Proof.KNetU1
import proofs.«142371_j48498770706497_2_alg».proof.Proof.KNetU2
import Idealize.ShloMosaic.Lib.ValueIdx

set_option maxRecDepth 1628

noncomputable section

namespace Cert.KNet

open Idealize.ShloMosaic Idealize.ShloMosaic.TcCoe Idealize.ShloMosaic.ValueIdx Idealize.SL.Sem
open Cert.KernelIdeal Cert.KernelIdeal.Gen
open scoped BigOperators

section Net

variable (m : (ℓ : Loc nD τ sig) → Buf (Elt Ideal) ℓ) (c : Dev nD)

/-- The first layer's output buffer holds the scale-once layer of the launch arrays. -/
theorem layer0_U (n : Fin 50000) (q : Fin 256) :
    (Cert.KernelIdeal.Hand.U6 (F := Ideal) m c (Proc.devRef .tc main_v48) : S50000x256.Idx → EReal) (ix2 n q)
      = Cert.Spec.layerK (Cert.EdgeIdx.gidx (Cert.KHost0.rowOf (Cert.KernelIdeal.Hand.U0 (F := Ideal) m c (Proc.devRef .tc main_arg1))))
          (Cert.EdgeIdx.landOf (Cert.KHost0.colOf (Cert.KernelIdeal.Hand.U0 (F := Ideal) m c (Proc.devRef .tc main_arg1))))
          (Ideal.ofBits .f32 0x47435000#32) (Ideal.ofBits .f32 0x3727C5AC#32)
          (fun p k => (Cert.KernelIdeal.Hand.U0 (F := Ideal) m c (Proc.devRef .tc main_arg0) : S50000x128.Idx → EReal) (ix2 p k))
          (fun k q => (Cert.KernelIdeal.Hand.U0 (F := Ideal) m c (Proc.devRef .tc main_arg3) : S128x256.Idx → EReal) (ix2 k q))
          (fun q => (Cert.KernelIdeal.Hand.U0 (F := Ideal) m c (Proc.devRef .tc main_arg4) : S256.Idx → EReal) (ix1 q))
          (fun q => (Cert.KernelIdeal.Hand.U0 (F := Ideal) m c (Proc.devRef .tc main_arg5) : S256.Idx → EReal) (ix1 q))
          (fun q => (Cert.KernelIdeal.Hand.U0 (F := Ideal) m c (Proc.devRef .tc main_arg6) : S256.Idx → EReal) (ix1 q)) n q := by
  refine layer0_chain (Cert.KernelIdeal.Hand.U0 (F := Ideal) m c) (Cert.KernelIdeal.Hand.U1 (F := Ideal) m c) (Cert.KernelIdeal.Hand.U2 (F := Ideal) m c)
    (Cert.KernelIdeal.Hand.U3 (F := Ideal) m c) (Cert.KernelIdeal.Hand.U4 (F := Ideal) m c) (Cert.KernelIdeal.Hand.U5 (F := Ideal) m c)
    (fun p q => Cert.KernelIdeal.Hand.T1 (Cert.KernelIdeal.Hand.U3 (F := Ideal) m c (Proc.devRef .tc main_v30) : S50000x256.Idx → EReal)
      (Cert.KernelIdeal.Hand.U3 (F := Ideal) m c (Proc.devRef .tc main_v12) : S50000x256.Idx → EReal)
      (Cert.KernelIdeal.Hand.U3 (F := Ideal) m c (Proc.devRef .tc main_v31) : S50000x1.Idx → EReal)
      (Cert.KernelIdeal.Hand.U3 (F := Ideal) m c (Proc.devRef .tc main_v32) : S1x256.Idx → EReal) (ix2 p q))
    (Cert.KernelIdeal.Hand.U6 (F := Ideal) m c (Proc.devRef .tc main_v48))
    rfl (fun r h => Cert.KernelIdeal.Hand.U2_of m c r h) ?o2 rfl (fun r h => Cert.KernelIdeal.Hand.U4_of m c r h) (fun _ _ => rfl) ?o4 ?o4s ?o4q rfl ?o6 n q
  case o2 =>
    intro p q
    show (Cert.KernelIdeal.Hand.U2 (F := Ideal) m c (Proc.devRef .tc main_v12) : S50000x256.Idx → EReal) (ix2 p q) = _
    rw [Cert.KernelIdeal.Hand.U2_out]
    exact Cert.KernelIdeal.Hand.out0_apply (Cert.KernelIdeal.Hand.rd (Cert.KernelIdeal.Hand.U1 (F := Ideal) m)) c _ _ rfl rfl p q
  case o4 =>
    intro p q
    show (Cert.KernelIdeal.Hand.U4 (F := Ideal) m c (Proc.devRef .tc main_v33_0) : S50000x256.Idx → EReal) (ix2 p q) = _
    rw [Cert.KernelIdeal.Hand.U4_out0]
    exact Cert.KernelIdeal.Hand.out1_4_apply (Cert.KernelIdeal.Hand.rd (Cert.KernelIdeal.Hand.U3 (F := Ideal) m)) c _ _ _ _ rfl rfl rfl rfl p q
  case o4s =>
    intro q
    show (Cert.KernelIdeal.Hand.U4 (F := Ideal) m c (Proc.devRef .tc main_v33_1) : S1x256.Idx → EReal) (ix2 (0 : Fin 1) q) = _
    rw [Cert.KernelIdeal.Hand.U4_out1]
    exact Cert.KernelIdeal.Hand.out1_5_apply (Cert.KernelIdeal.Hand.rd (Cert.KernelIdeal.Hand.U3 (F := Ideal) m)) c _ _ _ _ rfl rfl rfl rfl q
  case o4q =>
    intro q
    show (Cert.KernelIdeal.Hand.U4 (F := Ideal) m c (Proc.devRef .tc main_v33_2) : S1x256.Idx → EReal) (ix2 (0 : Fin 1) q) = _
    rw [Cert.KernelIdeal.Hand.U4_out2]
    exact Cert.KernelIdeal.Hand.out1_6_apply (Cert.KernelIdeal.Hand.rd (Cert.KernelIdeal.Hand.U3 (F := Ideal) m)) c _ _ _ _ rfl rfl rfl rfl q
  case o6 =>
    intro p q
    rw [Cert.KernelIdeal.Hand.U6_out]
    exact Cert.KernelIdeal.Hand.out_apply2 (Cert.KernelIdeal.Hand.rd (Cert.KernelIdeal.Hand.U5 (F := Ideal) m)) c p q

/-- The third layer's output buffer holds the scale-once network of the launch arrays. -/
theorem h3_eq (n : Fin 50000) (q : Fin 256) :
    (Cert.KernelIdeal.Hand.U16 (F := Ideal) m c (Proc.devRef .tc main_v122) : S50000x256.Idx → EReal) (ix2 n q)
      = Cert.Spec.netK (Cert.EdgeIdx.gidx (Cert.KHost0.rowOf (m ((c.tc : Thread nD τ).loc main_arg1))))
          (Cert.EdgeIdx.landOf (Cert.KHost0.colOf (m ((c.tc : Thread nD τ).loc main_arg1))))
          (Ideal.ofBits .f32 0x47435000#32) (Ideal.ofBits .f32 0x3727C5AC#32)
          (fun p k => (m ((c.tc : Thread nD τ).loc main_arg0) : S50000x128.Idx → EReal) (ix2 p k))
          (fun k q => (m ((c.tc : Thread nD τ).loc main_arg3) : S128x256.Idx → EReal) (ix2 k q))
          (fun q => (m ((c.tc : Thread nD τ).loc main_arg4) : S256.Idx → EReal) (ix1 q))
          (fun q => (m ((c.tc : Thread nD τ).loc main_arg5) : S256.Idx → EReal) (ix1 q))
          (fun q => (m ((c.tc : Thread nD τ).loc main_arg6) : S256.Idx → EReal) (ix1 q))
          (fun k q => (m ((c.tc : Thread nD τ).loc main_arg7) : S256x256.Idx → EReal) (ix2 k q))
          (fun q => (m ((c.tc : Thread nD τ).loc main_arg8) : S256.Idx → EReal) (ix1 q))
          (fun q => (m ((c.tc : Thread nD τ).loc main_arg9) : S256.Idx → EReal) (ix1 q))
          (fun q => (m ((c.tc : Thread nD τ).loc main_arg10) : S256.Idx → EReal) (ix1 q))
          (fun k q => (m ((c.tc : Thread nD τ).loc main_arg11) : S256x256.Idx → EReal) (ix2 k q))
          (fun q => (m ((c.tc : Thread nD τ).loc main_arg12) : S256.Idx → EReal) (ix1 q))
          (fun q => (m ((c.tc : Thread nD τ).loc main_arg13) : S256.Idx → EReal) (ix1 q))
          (fun q => (m ((c.tc : Thread nD τ).loc main_arg14) : S256.Idx → EReal) (ix1 q)) n q :=
  Cert.Spec.netK_of_layers _ _ _ _ _ _ _ _ _ _ _ _ _ _ _ _ _
    (fun n q => (Cert.KernelIdeal.Hand.U6 (F := Ideal) m c (Proc.devRef .tc main_v48) : S50000x256.Idx → EReal) (ix2 n q))
    (fun n q => (Cert.KernelIdeal.Hand.U11 (F := Ideal) m c (Proc.devRef .tc main_v85) : S50000x256.Idx → EReal) (ix2 n q))
    (fun n q => (Cert.KernelIdeal.Hand.U16 (F := Ideal) m c (Proc.devRef .tc main_v122) : S50000x256.Idx → EReal) (ix2 n q))
    (layer0_U m c) (layer1_U m c) (layer2_U m c) n q

end Net

end Cert.KNet

end
-- ==== Proof.Algebraic.lean ====
/-
  The value claim: the kernel-side program and the reference, run from memories agreeing on the arguments, end with
  equal results and unchanged arguments. The kernel-side run leaves the tail of the network in the scale-once
  arrangement; the reference leaves the tail of the network in the scale-twice arrangement; the two tails are one
  function, and the two arrangements agree on the real-valued arguments the precondition grants.
-/
import proofs.«142371_j48498770706497_2_alg».proof.Defs
import proofs.«142371_j48498770706497_2_alg».proof.Proof.Gen.KernelIdeal.Regions
import proofs.«142371_j48498770706497_2_alg».proof.Proof.Gen.ReferenceIdeal
import proofs.«142371_j48498770706497_2_alg».proof.Proof.RefRead
import proofs.«142371_j48498770706497_2_alg».proof.Proof.RefRunHand
import proofs.«142371_j48498770706497_2_alg».proof.Proof.Gen.Pre_finite_inputs
import proofs.«142371_j48498770706497_2_alg».proof.Proof.SpecLaw
import proofs.«142371_j48498770706497_2_alg».proof.Proof.EdgeIdx
import proofs.«142371_j48498770706497_2_alg».proof.Proof.Finite
import proofs.«142371_j48498770706497_2_alg».proof.Proof.KHost0
import proofs.«142371_j48498770706497_2_alg».proof.Proof.KTail
import proofs.«142371_j48498770706497_2_alg».proof.Proof.RTail
import proofs.«142371_j48498770706497_2_alg».proof.Proof.TailEq
import proofs.«142371_j48498770706497_2_alg».proof.Proof.RefDinv
import proofs.«142371_j48498770706497_2_alg».proof.Proof.RNet
import proofs.«142371_j48498770706497_2_alg».proof.Proof.Run9
import proofs.«142371_j48498770706497_2_alg».proof.Proof.KNet
import Idealize.ShloMosaic.Lib.ValueIdx

set_option maxRecDepth 16384

noncomputable section

namespace Cert.Proof.Alg

open Idealize.ShloMosaic Idealize.ShloMosaic.TcCoe Idealize.ShloMosaic.ValueIdx Idealize.SL.Sem
open Cert.Spec

/-- Two tables that are the two arrangements of the network of the same real arguments are one table. -/
theorem table_eq (rowc colc : Fin Ee → Fin Nn) (land : Fin Ee → Option (Fin Nn)) (hl : Lands colc land)
    (nF eps : EReal) (hn : nF = ((50000 : ℝ) : EReal)) (he : ∃ r : ℝ, 0 < r ∧ eps = (r : EReal))
    (x : Fin Nn → Fin 128 → EReal) (W0 : Fin 128 → Fin Hh → EReal) (b0 g0 be0 : Fin Hh → EReal)
    (W1 : Fin Hh → Fin Hh → EReal) (b1 g1 be1 : Fin Hh → EReal) (W2 : Fin Hh → Fin Hh → EReal) (b2 g2 be2 : Fin Hh → EReal)
    (hx : ∀ p k, IsR (x p k)) (hW0 : ∀ k q, IsR (W0 k q)) (hb0 : ∀ q, IsR (b0 q)) (hg0 : ∀ q, IsR (g0 q)) (hbe0 : ∀ q, IsR (be0 q))
    (hW1 : ∀ k q, IsR (W1 k q)) (hb1 : ∀ q, IsR (b1 q)) (hg1 : ∀ q, IsR (g1 q)) (hbe1 : ∀ q, IsR (be1 q))
    (hW2 : ∀ k q, IsR (W2 k q)) (hb2 : ∀ q, IsR (b2 q)) (hg2 : ∀ q, IsR (g2 q)) (hbe2 : ∀ q, IsR (be2 q))
    (A B : (⟨2, ![50000, 256]⟩ : Shape).Idx → EReal)
    (hA : ∀ n q, A (ix2 n q) = netK rowc land nF eps x W0 b0 g0 be0 W1 b1 g1 be1 W2 b2 g2 be2 n q)
    (hB : ∀ n q, B (ix2 n q) = netR rowc colc land nF eps x W0 b0 g0 be0 W1 b1 g1 be1 W2 b2 g2 be2 n q) : A = B := by
  funext i
  have e : i = ix2 (n0 := 50000) (n1 := 256) (i 0) (i 1) := eq_ix2 i
  have hnet := netK_eq_netR rowc colc land hl nF eps hn he x W0 b0 g0 be0 W1 b1 g1 be1 W2 b2 g2 be2
    hx hW0 hb0 hg0 hbe0 hW1 hb1 hg1 hbe1 hW2 hb2 hg2 hbe2
  calc A i = A (ix2 (i 0) (i 1)) := congrArg A e
    _ = netK rowc land nF eps x W0 b0 g0 be0 W1 b1 g1 be1 W2 b2 g2 be2 (i 0) (i 1) := hA (i 0) (i 1)
    _ = netR rowc colc land nF eps x W0 b0 g0 be0 W1 b1 g1 be1 W2 b2 g2 be2 (i 0) (i 1) :=
        congrFun (congrFun hnet (i 0)) (i 1)
    _ = B (ix2 (i 0) (i 1)) := (hB (i 0) (i 1)).symm
    _ = B i := (congrArg B e).symm

section Kernel

open Cert.KernelIdeal Cert.KernelIdeal.Gen Cert.KernelIdeal.Hand

variable (m : (ℓ : Loc nD τ sig) → Buf (Elt Ideal) ℓ) (c : Dev nD)

/-- A buffer the three closing host stretches do not write holds, at the last region's exit, what it holds at the end. -/
theorem U16_eq_V19 (r : Ref sig .tc) (h : r ∉ hostOps9_W) (h1 : r ∉ hostOps9_1_W) (h2 : r ∉ hostOps9_2_W) :
    U16 (F := Ideal) m c r = V19 m (outs m) c r :=
  (congrFun (V16_eq m c) _).symm.trans <| (V17_of m (outs m) c r h).symm.trans <|
    (V18_of m (outs m) c r h1).symm.trans (V19_of m (outs m) c r h2).symm

/-- The arguments the tail reads are, at the last region's exit, as launched. -/
theorem U16_arg2 : U16 (F := Ideal) m c main_arg2 = m ((c.tc : Thread nD τ).loc main_arg2) :=
  (U16_eq_V19 m c main_arg2 (by decide) (by decide) (by decide)).trans (V19_main_arg2 m (outs m) c)
theorem U16_arg15 : U16 (F := Ideal) m c main_arg15 = m ((c.tc : Thread nD τ).loc main_arg15) :=
  (U16_eq_V19 m c main_arg15 (by decide) (by decide) (by decide)).trans (V19_main_arg15 m (outs m) c)
theorem U16_arg16 : U16 (F := Ideal) m c main_arg16 = m ((c.tc : Thread nD τ).loc main_arg16) :=
  (U16_eq_V19 m c main_arg16 (by decide) (by decide) (by decide)).trans (V19_main_arg16 m (outs m) c)
theorem U16_arg17 : U16 (F := Ideal) m c main_arg17 = m ((c.tc : Thread nD τ).loc main_arg17) :=
  (U16_eq_V19 m c main_arg17 (by decide) (by decide) (by decide)).trans (V19_main_arg17 m (outs m) c)
theorem U16_arg18 : U16 (F := Ideal) m c main_arg18 = m ((c.tc : Thread nD τ).loc main_arg18) :=
  (U16_eq_V19 m c main_arg18 (by decide) (by decide) (by decide)).trans (V19_main_arg18 m (outs m) c)

/-- The kernel-side program's result is the tail of the last region's output and the launched arguments. -/
theorem U19_eq_rtail :
    (U19 (F := Ideal) m c main_v144 : Cert.KTail.Tab S256x1 .f32)
      = Cert.RTail.rtail (U16 (F := Ideal) m c main_v122) (m ((c.tc : Thread nD τ).loc main_arg2))
          (m ((c.tc : Thread nD τ).loc main_arg15)) (m ((c.tc : Thread nD τ).loc main_arg16))
          (m ((c.tc : Thread nD τ).loc main_arg17)) (m ((c.tc : Thread nD τ).loc main_arg18)) := by
  show StableHlo.after hostOps9_2 (StableHlo.after hostOps9_1 (StableHlo.after hostOps9 (U16 (F := Ideal) m c)))
    (Proc.devRef .tc main_v144) = _
  rw [Cert.KTail.after_tail, Cert.TailEq.ktail_eq_rtail, U16_arg2, U16_arg15, U16_arg16, U16_arg17, U16_arg18]

end Kernel

section Result

variable [Cert.Pre_finite_inputs.Facts]

/-- On one device: the reference's result is the kernel-side program's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Read.val_main_v223 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Cert.KernelIdeal.Hand.U19 m c Cert.KernelIdeal.main_v144 := by
  obtain ⟨a0, a1, a2, a3, a4, a5, a6, a7, a8, a9, a10, a11, a12, a13, a14, a15, a16, a17, a18⟩ := hagree
  obtain ⟨r0, r3, r4, r5, r6, r7, r8, r9, r10, r11, r12, r13, r14, r15, r16, r17, r18⟩ :=
    Cert.Finite.real_of_pre _ _ _ _ _ _ _ _ _ _ _ _ _ _ _ _ _ _ _ (hpre c)
  rw [Cert.RTail.val223_eq_rtail, a0, a1, a2, a3, a4, a5, a6, a7, a8, a9, a10, a11, a12, a13, a14, a15, a16, a17, a18]
  refine Eq.trans ?_ (U19_eq_rtail m c).symm
  have hh3 : Cert.ReferenceIdeal.Read.val_main_v201 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      = Cert.KernelIdeal.Hand.U16 (F := Ideal) m c Cert.KernelIdeal.main_v122 :=
    (table_eq (Cert.RefValue.rowc (m ((c.tc : Thread Cert.KernelIdeal.nD Cert.KernelIdeal.τ).loc Cert.KernelIdeal.main_arg1))) (Cert.RefValue.colc (m ((c.tc : Thread Cert.KernelIdeal.nD Cert.KernelIdeal.τ).loc Cert.KernelIdeal.main_arg1))) (Cert.RefValue.land (m ((c.tc : Thread Cert.KernelIdeal.nD Cert.KernelIdeal.τ).loc Cert.KernelIdeal.main_arg1)))
      (Cert.EdgeIdx.lands _) Cert.RefValue.nF Cert.RefValue.eps Cert.RefValue.nF_eq Cert.RefValue.eps_pos
      (fun p k => (m ((c.tc : Thread Cert.KernelIdeal.nD Cert.KernelIdeal.τ).loc Cert.KernelIdeal.main_arg0)) (ix2 p k)) (fun k q => (m ((c.tc : Thread Cert.KernelIdeal.nD Cert.KernelIdeal.τ).loc Cert.KernelIdeal.main_arg3)) (ix2 k q))
      (fun q => (m ((c.tc : Thread Cert.KernelIdeal.nD Cert.KernelIdeal.τ).loc Cert.KernelIdeal.main_arg4)) (ix1 q)) (fun q => (m ((c.tc : Thread Cert.KernelIdeal.nD Cert.KernelIdeal.τ).loc Cert.KernelIdeal.main_arg5)) (ix1 q)) (fun q => (m ((c.tc : Thread Cert.KernelIdeal.nD Cert.KernelIdeal.τ).loc Cert.KernelIdeal.main_arg6)) (ix1 q))
      (fun k q => (m ((c.tc : Thread Cert.KernelIdeal.nD Cert.KernelIdeal.τ).loc Cert.KernelIdeal.main_arg7)) (ix2 k q)) (fun q => (m ((c.tc : Thread Cert.KernelIdeal.nD Cert.KernelIdeal.τ).loc Cert.KernelIdeal.main_arg8)) (ix1 q)) (fun q => (m ((c.tc : Thread Cert.KernelIdeal.nD Cert.KernelIdeal.τ).loc Cert.KernelIdeal.main_arg9)) (ix1 q)) (fun q => (m ((c.tc : Thread Cert.KernelIdeal.nD Cert.KernelIdeal.τ).loc Cert.KernelIdeal.main_arg10)) (ix1 q))
      (fun k q => (m ((c.tc : Thread Cert.KernelIdeal.nD Cert.KernelIdeal.τ).loc Cert.KernelIdeal.main_arg11)) (ix2 k q)) (fun q => (m ((c.tc : Thread Cert.KernelIdeal.nD Cert.KernelIdeal.τ).loc Cert.KernelIdeal.main_arg12)) (ix1 q)) (fun q => (m ((c.tc : Thread Cert.KernelIdeal.nD Cert.KernelIdeal.τ).loc Cert.KernelIdeal.main_arg13)) (ix1 q)) (fun q => (m ((c.tc : Thread Cert.KernelIdeal.nD Cert.KernelIdeal.τ).loc Cert.KernelIdeal.main_arg14)) (ix1 q))
      (fun p k => r0 (ix2 p k)) (fun k q => r3 (ix2 k q)) (fun q => r4 (ix1 q)) (fun q => r5 (ix1 q)) (fun q => r6 (ix1 q))
      (fun k q => r7 (ix2 k q)) (fun q => r8 (ix1 q)) (fun q => r9 (ix1 q)) (fun q => r10 (ix1 q))
      (fun k q => r11 (ix2 k q)) (fun q => r12 (ix1 q)) (fun q => r13 (ix1 q)) (fun q => r14 (ix1 q))
      (Cert.KernelIdeal.Hand.U16 (F := Ideal) m c Cert.KernelIdeal.main_v122)
      (Cert.ReferenceIdeal.Read.val_main_v201 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)))
      (fun n q => Cert.KNet.h3_eq m c n q)
      (fun n q => Cert.RefValue.ref_h3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) n q)).symm
  rw [hh3]

end Result

/-- The two programs, from memories agreeing on the arguments, both run and end with equal results and unchanged
    arguments: the kernel-side run's result is the tail of the network in one arrangement, the reference's the tail of
    the network in the other, and the two arrangements agree on the real arguments the precondition grants. -/
theorem algebraic : Cert.algebraic_KernelIdeal_ReferenceIdeal := by
  intro m g m' g' hpre hagree
  refine ⟨fun c => Cert.KernelIdeal.Hand.U19 m c Cert.KernelIdeal.main_v144, Cert.KernelIdeal.Hand.run9 m g, ?_⟩
  refine (θ_run Cert.ReferenceIdeal.defs _ _).mono (fun _ h c => ⟨(h c).1.trans ?_, (h c).2⟩)
    (Cert.ReferenceIdeal.RunHand.run_hand (F := Ideal) m' g')
  exact result_eq m m' hpre c (hagree c)

end Cert.Proof.Alg

end
-- ==== Proof.lean ====
/-
  A three-layer graph-convolution network with batch normalisation, and a pooled read-out, as two programs: one whose
  dense products, column statistics and normalisations run as nine tiled kernel regions between host stretches, and a
  reference of host operations only. The certificate: each program (the first also at the machine's words) runs to the
  end and leaves its arguments as launched; and at the ideal numbers, from memories agreeing on the arguments, the two
  results are equal entry by entry.

  One layer sends a node table h to  max(γ·(T − μ)·rsqrt(σ² + ε) + β, 0),  T = Â(hW) + b:  Â adds, over the edges
  landing on a node and its self loop, the messages scaled by the inverse square roots of both ends' degrees; μ and σ²
  are the column mean and variance of T over the 50000 nodes. Layers two and three add their input back. The read-out
  sums the last table over each graph, takes  sum / max(count, 1) + sum,  and applies two dense layers with a clamp at
  zero between them.

  The programs differ in five ways, each joined by one law. The reference scales a message at both ends before the
  segment sum, the other program scales at the source, sums, and scales the sum at the target once: distributivity,
  which on the extended reals needs every term real — the precondition (finite inputs) grants it. The reference's
  variance is the mean of squared deviations, the other's  max(mean of squares − mean², 0)  from one pass: equal over
  the reals, the maximum idle since a variance is ≥ 0. The kernels work tile by tile and add block sums in their own
  order: a finite sum of reals is the same in any order. Their changes of number format are the identity at the ideal
  numbers. The residual sums are written new + old and old + new: commutativity.
-/
import proofs.«142371_j48498770706497_2_alg».proof.Defs
import proofs.«142371_j48498770706497_2_alg».proof.Proof.Gen.Kernel
import proofs.«142371_j48498770706497_2_alg».proof.Proof.Gen.KernelIdeal
import proofs.«142371_j48498770706497_2_alg».proof.Proof.Gen.ReferenceIdeal
import proofs.«142371_j48498770706497_2_alg».proof.Proof.Gen.Pre_finite_inputs
import proofs.«142371_j48498770706497_2_alg».proof.Proof.Frames
import proofs.«142371_j48498770706497_2_alg».proof.Proof.Algebraic

noncomputable section

namespace Cert.Proof

open Idealize.ShloMosaic Idealize.SL.Sem

/-- The facts the programs state, the three frames, the idealization (which rewrote nothing), and the value claim. -/
theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, trivial, Alg.algebraic⟩

end Cert.Proof

end
